-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S10000x8x1024 : Shape := ⟨3, ![10000, 8, 1024]⟩
abbrev S10000x8 : Shape := ⟨2, ![10000, 8]⟩
abbrev S10000x1x8 : Shape := ⟨3, ![10000, 1, 8]⟩
abbrev S10000x1 : Shape := ⟨2, ![10000, 1]⟩
abbrev S4096 : Shape := ⟨1, ![4096]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S10000x8x1024 : S_.BroadcastsInDim S10000x8x1024 (![] : Fin 0 → Fin S10000x8x1024.rank)
  reducesTo_S10000x8x1024_S_d0_1_2 : S10000x8x1024.ReducesTo [0, 1, 2] S_
  bcast_S_S10000x8 : S_.BroadcastsInDim S10000x8 (![] : Fin 0 → Fin S10000x8.rank)
  reducesTo_S10000x8_S_d0_1 : S10000x8.ReducesTo [0, 1] S_
  bcast_S_S10000x1x8 : S_.BroadcastsInDim S10000x1x8 (![] : Fin 0 → Fin S10000x1x8.rank)
  reducesTo_S10000x1x8_S_d0_1_2 : S10000x1x8.ReducesTo [0, 1, 2] S_
  bcast_S_S10000x1 : S_.BroadcastsInDim S10000x1 (![] : Fin 0 → Fin S10000x1.rank)
  reducesTo_S10000x1_S_d0_1 : S10000x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S10000x1 .f32) (main_arg5 : IVec S4096 32) (main_v13 : IVec S_ 1) (main_v16 : IVec S10000x1x8 1) : IVec S_ 1 :=
  let main_c_5 : IVec S_ 1 := constantI S_ 1 1#1
  let main_v17 : IVec S_ 1 := (fun x v => Host.reduce IntOp.andi x v reducesTo_S10000x1x8_S_d0_1_2 h_S_) main_v16 main_c_5
  let main_v18 : IVec S_ 1 := andi main_v13 main_v17
  let main_v19 : FVec F S10000x1 .f32 := Host.absf main_arg4
  let main_cst_6 : FVec F S_ .f32 := constant S_ .f32 0x7F800000#32
  let main_v20 : FVec F S10000x1 .f32 := broadcastInDim S10000x1 ![] bcast_S_S10000x1 main_cst_6
  let main_v21 : IVec S10000x1 1 := cmpf .olt main_v19 main_v20
  let main_c_7 : IVec S_ 1 := constantI S_ 1 1#1
  let main_v22 : IVec S_ 1 := (fun x v => Host.reduce IntOp.andi x v reducesTo_S10000x1_S_d0_1 h_S_) main_v21 main_c_7
  let main_v23 : IVec S_ 1 := andi main_v18 main_v22
  let main_c_8 : IVec S_ 32 := constantI S_ 32 0#32
  let main_v24 : IVec S4096 32 := broadcastInDim S4096 ![] bcast_S_S4096 main_c_8
  let main_v25 : IVec S4096 1 := cmpi .sge main_arg5 main_v24
  let main_c_9 : IVec S_ 1 := constantI S_ 1 1#1
  let main_v26 : IVec S_ 1 := (fun x v => Host.reduce IntOp.andi x v reducesTo_S4096_S_d0 h_S_) main_v25 main_c_9
  let main_v27 : IVec S_ 1 := andi main_v23 main_v26
  let main_c_10 : IVec S_ 32 := constantI S_ 32 10000#32
  let main_v28 : IVec S4096 32 := broadcastInDim S4096 ![] bcast_S_S4096 main_c_10
  let main_v29 : IVec S4096 1 := cmpi .slt main_arg5 main_v28
  let main_c_11 : IVec S_ 1 := constantI S_ 1 1#1
  let main_v30 : IVec S_ 1 := (fun x v => Host.reduce IntOp.andi x v reducesTo_S4096_S_d0 h_S_) main_v29 main_c_11
  let main_v31 : IVec S_ 1 := andi main_v27 main_v30
  main_v31

def fn {F : FTy → Type} [FloatOps F] (main_arg0 : FVec F S256x1024 .f32) (main_arg1 : FVec F S10000x8x1024 .f32) (main_arg2 : FVec F S10000x8 .f32) (main_arg3 : FVec F S10000x1x8 .f32) (main_arg4 : FVec F S10000x1 .f32) (main_arg5 : IVec S4096 32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S10000x8x1024 .f32 := Host.absf main_arg1
  let main_cst_0 : FVec F S_ .f32 := constant S_ .f32 0x7F800000#32
  let main_v5 : FVec F S10000x8x1024 .f32 := broadcastInDim S10000x8x1024 ![] bcast_S_S10000x8x1024 main_cst_0
  let main_v6 : IVec S10000x8x1024 1 := cmpf .olt main_v4 main_v5
  let main_c_1 : IVec S_ 1 := constantI S_ 1 1#1
  let main_v7 : IVec S_ 1 := (fun x v => Host.reduce IntOp.andi x v reducesTo_S10000x8x1024_S_d0_1_2 h_S_) main_v6 main_c_1
  let main_v8 : IVec S_ 1 := andi main_v3 main_v7
  let main_v9 : FVec F S10000x8 .f32 := Host.absf main_arg2
  let main_cst_2 : FVec F S_ .f32 := constant S_ .f32 0x7F800000#32
  let main_v10 : FVec F S10000x8 .f32 := broadcastInDim S10000x8 ![] bcast_S_S10000x8 main_cst_2
  let main_v11 : IVec S10000x8 1 := cmpf .olt main_v9 main_v10
  let main_c_3 : IVec S_ 1 := constantI S_ 1 1#1
  let main_v12 : IVec S_ 1 := (fun x v => Host.reduce IntOp.andi x v reducesTo_S10000x8_S_d0_1 h_S_) main_v11 main_c_3
  let main_v13 : IVec S_ 1 := andi main_v8 main_v12
  let main_v14 : FVec F S10000x1x8 .f32 := Host.absf main_arg3
  let main_cst_4 : FVec F S_ .f32 := constant S_ .f32 0x7F800000#32
  let main_v15 : FVec F S10000x1x8 .f32 := broadcastInDim S10000x1x8 ![] bcast_S_S10000x1x8 main_cst_4
  let main_v16 : IVec S10000x1x8 1 := cmpf .olt main_v14 main_v15
  fn_part1 (F := F) main_arg4 main_arg5 main_v13 main_v16
-- ==== Kernel.lean ====
abbrev S256x1024 : Shape := ⟨2, ![256, 1024]⟩
abbrev S10000x8x1024 : Shape := ⟨3, ![10000, 8, 1024]⟩
abbrev S10000x8 : Shape := ⟨2, ![10000, 8]⟩
abbrev S10000x1x8 : Shape := ⟨3, ![10000, 1, 8]⟩
abbrev S10000x1 : Shape := ⟨2, ![10000, 1]⟩
abbrev S4096 : Shape := ⟨1, ![4096]⟩
abbrev S_ : Shape := ⟨0, ![]⟩
abbrev S4096x1 : Shape := ⟨2, ![4096, 1]⟩
abbrev S4096x8 : Shape := ⟨2, ![4096, 8]⟩
abbrev S32x1x1024 : Shape := ⟨3, ![32, 1, 1024]⟩
abbrev S4096x1x8 : Shape := ⟨3, ![4096, 1, 8]⟩
abbrev S32x1x128 : Shape := ⟨3, ![32, 1, 128]⟩
abbrev S1024 : Shape := ⟨1, ![1024]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S4096x256 : Shape := ⟨2, ![4096, 256]⟩
abbrev S1x1x1024 : Shape := ⟨3, ![1, 1, 1024]⟩
abbrev S1x1x128 : Shape := ⟨3, ![1, 1, 128]⟩
abbrev S128x256 : Shape := ⟨2, ![128, 256]⟩
abbrev S128x8x1024 : Shape := ⟨3, ![128, 8, 1024]⟩
abbrev S1 : Shape := ⟨1, ![1]⟩
abbrev S1x8x1024 : Shape := ⟨3, ![1, 8, 1024]⟩
abbrev S8x1024 : Shape := ⟨2, ![8, 1024]⟩
abbrev S1024x1024 : Shape := ⟨2, ![1024, 1024]⟩
abbrev S1x1024 : Shape := ⟨2, ![1, 1024]⟩
abbrev S256x128 : Shape := ⟨2, ![256, 128]⟩
abbrev S1048576 : Shape := ⟨1, ![1048576]⟩

abbrev nBuf : Space → Nat
  | .hbm => 72
  | .vmem => 11
  | .smem => 1
  | _ => 0

abbrev bufTy : (tb : Table) → Fin (tcTables nBuf tb) → BufTy
  | .hbm, ⟨0, _⟩ => ⟨S256x1024, .f32⟩
  | .hbm, ⟨1, _⟩ => ⟨S10000x8x1024, .f32⟩
  | .hbm, ⟨2, _⟩ => ⟨S10000x8, .f32⟩
  | .hbm, ⟨3, _⟩ => ⟨S10000x1x8, .f32⟩
  | .hbm, ⟨4, _⟩ => ⟨S10000x1, .f32⟩
  | .hbm, ⟨5, _⟩ => ⟨S4096, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S_, .i32⟩
  | .hbm, ⟨12, _⟩ => ⟨S4096, .i32⟩
  | .hbm, ⟨13, _⟩ => ⟨S256x1024, .bf16⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S4096x1, .i32⟩
  | .hbm, ⟨22, _⟩ => ⟨S4096x8, .f32⟩
  | .hbm, ⟨23, _⟩ => ⟨S32x1x1024, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x1x8, .f32⟩
  | .hbm, ⟨33, _⟩ => ⟨S32x1x1024, .f32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x1, .f32⟩
  | .hbm, ⟨43, _⟩ => ⟨S32x1x128, .f32⟩
  | .hbm, ⟨44, _⟩ => ⟨S1024, .i32⟩
  | .hbm, ⟨45, _⟩ => ⟨S1024x1, .i32⟩
  | .hbm, ⟨46, _⟩ => ⟨S_, .i32⟩
  | .hbm, ⟨47, _⟩ => ⟨S_, .i32⟩
  | .hbm, ⟨48, _⟩ => ⟨S1024x1, .i32⟩
  | .hbm, ⟨49, _⟩ => ⟨S1024x1, .i32⟩
  | .hbm, ⟨50, _⟩ => ⟨S1024x1, .i32⟩
  | .hbm, ⟨51, _⟩ => ⟨S_, .i32⟩
  | .hbm, ⟨52, _⟩ => ⟨S1024x1, .i32⟩
  | .hbm, ⟨53, _⟩ => ⟨S1024x1, .i1⟩
  | .hbm, ⟨54, _⟩ => ⟨S1024x1, .i32⟩
  | .hbm, ⟨55, _⟩ => ⟨S1024x1, .i32⟩
  | .hbm, ⟨56, _⟩ => ⟨S_, .i32⟩
  | .hbm, ⟨57, _⟩ => ⟨S1024x1, .i32⟩
  | .hbm, ⟨58, _⟩ => ⟨S1024x1, .i1⟩
  | .hbm, ⟨59, _⟩ => ⟨S1024x1, .i1⟩
  | .hbm, ⟨60, _⟩ => ⟨S_, .i32⟩
  | .hbm, ⟨61, _⟩ => ⟨S1024x1, .i32⟩
  | .hbm, ⟨62, _⟩ => ⟨S1024x1, .i32⟩
  | .hbm, ⟨63, _⟩ => ⟨S1024x1, .i32⟩
  | .hbm, ⟨64, _⟩ => ⟨S128, .i32⟩
  | .hbm, ⟨65, _⟩ => ⟨S1x128, .i32⟩
  | .hbm, ⟨66, _⟩ => ⟨S1024x128, .i32⟩
  | .hbm, ⟨67, _⟩ => ⟨S1024x128, .i32⟩
  | .hbm, ⟨68, _⟩ => ⟨S1024x128, .i1⟩
  | .hbm, ⟨69, _⟩ => ⟨S1024x128, .f32⟩
  | .hbm, ⟨70, _⟩ => ⟨S4096x256, .f32⟩
  | .hbm, ⟨71, _⟩ => ⟨S1048576, .f32⟩
  | .local _ .vmem, ⟨0, _⟩ => ⟨S256x1024, .bf16⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x128, .f32⟩
  | .local _ .vmem, ⟨6, _⟩ => ⟨S1x1x128, .f32⟩
  | .local _ .vmem, ⟨7, _⟩ => ⟨S1024x128, .f32⟩
  | .local _ .vmem, ⟨8, _⟩ => ⟨S128x256, .f32⟩
  | .local _ .vmem, ⟨9, _⟩ => ⟨S128x256, .f32⟩
  | .local _ .vmem, ⟨10, _⟩ => ⟨S128x8x1024, .f32⟩
  | .local _ .smem, ⟨0, _⟩ => ⟨S4096, .i32⟩
  | _, _ => ⟨S256x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 138 → Bool
  | ⟨i, _⟩ => dmaSemScopedAt i

abbrev sig : RefSig :=
  ofTc nBuf bufTy 0 138 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1 : Ref sig .tc := ⟨.hbm, 13, rfl⟩
abbrev main_c_1 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_5 : Ref sig .tc := ⟨.hbm, 34, rfl⟩
abbrev main_v18 : Ref sig .tc := ⟨.hbm, 35, rfl⟩
abbrev main_v19 : Ref sig .tc := ⟨.hbm, 36, rfl⟩
abbrev main_c_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k0_off2 (v3 : BitVec 32) : Fin 3 → Nat :=
  let c0_i32_4 : BitVec 32 := 0#32
  let c0_i32_5 : BitVec 32 := 0#32
  ![v3.toNat, 0, 0]

def k0_chk1 (v3 : BitVec 32) : Prop :=
  (∀ a, (k0_off2 v3) a + S1x8x1024.size a ≤ S10000x8x1024.size a)
instance k0_chk1.dec : ∀ (v3 : BitVec 32), Decidable (k0_chk1 v3) := fun v3 => decidable_of_iff' _ (Iff.of_eq (k0_chk1.eq_1 v3))
theorem k0_off2_inb : ∀ (v3 : BitVec 32) (k0_hw1 : k0_chk1 v3), ∀ a, (k0_off2 v3) a + S1x8x1024.size a ≤ S10000x8x1024.size a := fun v3 k0_hw1 => k0_hw1

def k0_off3 (i : grid0.Coords) : Fin 1 → Nat :=
  let arg0 : BitVec 32 := BitVec.ofNat 32 (i 0).val
  let c128_i32_6 : BitVec 32 := 128#32
  let v10 : BitVec 32 := Scalar.muli arg0 c128_i32_6
  let c1_i32 : BitVec 32 := 1#32
  let v11 : BitVec 32 := Scalar.addi v10 c1_i32
  let v12 : Index := Scalar.indexCast v11
  ![v12.toNat]
def k0_off4 (v13 : BitVec 32) : Fin 3 → Nat :=
  let c0_i32_11 : BitVec 32 := 0#32
  let c0_i32_12 : BitVec 32 := 0#32
  ![v13.toNat, 0, 0]

def k0_chk2 (v13 : BitVec 32) : Prop :=
  (∀ a, (k0_off4 v13) a + S1x8x1024.size a ≤ S10000x8x1024.size a)
instance k0_chk2.dec : ∀ (v13 : BitVec 32), Decidable (k0_chk2 v13) := fun v13 => decidable_of_iff' _ (Iff.of_eq (k0_chk2.eq_1 v13))
theorem k0_off4_inb : ∀ (v13 : BitVec 32) (k0_hw2 : k0_chk2 v13), ∀ a, (k0_off4 v13) a + S1x8x1024.size a ≤ S10000x8x1024.size a := fun v13 k0_hw2 => k0_hw2

def k0_off5 (i : grid0.Coords) : Fin 1 → Nat :=
  let arg0 : BitVec 32 := BitVec.ofNat 32 (i 0).val
  let c128_i32_13 : BitVec 32 := 128#32
  let v20 : BitVec 32 := Scalar.muli arg0 c128_i32_13
  let c2_i32 : BitVec 32 := 2#32
  let v21 : BitVec 32 := Scalar.addi v20 c2_i32
  let v22 : Index := Scalar.indexCast v21
  ![v22.toNat]
def k0_off6 (v23 : BitVec 32) : Fin 3 → Nat :=
  let c0_i32_18 : BitVec 32 := 0#32
  let c0_i32_19 : BitVec 32 := 0#32
  ![v23.toNat, 0, 0]

def k0_chk3 (v23 : BitVec 32) : Prop :=
  (∀ a, (k0_off6 v23) a + S1x8x1024.size a ≤ S10000x8x1024.size a)
instance k0_chk3.dec : ∀ (v23 : BitVec 32), Decidable (k0_chk3 v23) := fun v23 => decidable_of_iff' _ (Iff.of_eq (k0_chk3.eq_1 v23))
theorem k0_off6_inb : ∀ (v23 : BitVec 32) (k0_hw3 : k0_chk3 v23), ∀ a, (k0_off6 v23) a + S1x8x1024.size a ≤ S10000x8x1024.size a := fun v23 k0_hw3 => k0_hw3

def k0_off7 (i : grid0.Coords) : Fin 1 → Nat :=
  let arg0 : BitVec 32 := BitVec.ofNat 32 (i 0).val
  let c128_i32_20 : BitVec 32 := 128#32
  let v30 : BitVec 32 := Scalar.muli arg0 c128_i32_20
  let c3_i32 : BitVec 32 := 3#32
  let v31 : BitVec 32 := Scalar.addi v30 c3_i32
  let v32 : Index := Scalar.indexCast v31
  ![v32.toNat]
def k0_off8 (v33 : BitVec 32) : Fin 3 → Nat :=
  let c0_i32_25 : BitVec 32 := 0#32
  let c0_i32_26 : BitVec 32 := 0#32
  ![v33.toNat, 0, 0]

def k0_chk4 (v33 : BitVec 32) : Prop :=
  (∀ a, (k0_off8 v33) a + S1x8x1024.size a ≤ S10000x8x1024.size a)
instance k0_chk4.dec : ∀ (v33 : BitVec 32), Decidable (k0_chk4 v33) := fun v33 => decidable_of_iff' _ (Iff.of_eq (k0_chk4.eq_1 v33))
theorem k0_off8_inb : ∀ (v33 : BitVec 32) (k0_hw4 : k0_chk4 v33), ∀ a, (k0_off8 v33) a + S1x8x1024.size a ≤ S10000x8x1024.size a := fun v33 k0_hw4 => k0_hw4

def k0_off9 (i : grid0.Coords) : Fin 1 → Nat :=
  let arg0 : BitVec 32 := BitVec.ofNat 32 (i 0).val
  let c128_i32_27 : BitVec 32 := 128#32
  let v40 : BitVec 32 := Scalar.muli arg0 c128_i32_27
  let c4_i32 : BitVec 32 := 4#32
  let v41 : BitVec 32 := Scalar.addi v40 c4_i32
  let v42 : Index := Scalar.indexCast v41
  ![v42.toNat]
def k0_off10 (v43 : BitVec 32) : Fin 3 → Nat :=
  let c0_i32_32 : BitVec 32 := 0#32
  let c0_i32_33 : BitVec 32 := 0#32
  ![v43.toNat, 0, 0]

def k0_chk5 (v43 : BitVec 32) : Prop :=
  (∀ a, (k0_off10 v43) a + S1x8x1024.size a ≤ S10000x8x1024.size a)
instance k0_chk5.dec : ∀ (v43 : BitVec 32), Decidable (k0_chk5 v43) := fun v43 => decidable_of_iff' _ (Iff.of_eq (k0_chk5.eq_1 v43))
theorem k0_off10_inb : ∀ (v43 : BitVec 32) (k0_hw5 : k0_chk5 v43), ∀ a, (k0_off10 v43) a + S1x8x1024.size a ≤ S10000x8x1024.size a := fun v43 k0_hw5 => k0_hw5

def k0_off11 (i : grid0.Coords) : Fin 1 → Nat :=
  let arg0 : BitVec 32 := BitVec.ofNat 32 (i 0).val
  let c128_i32_34 : BitVec 32 := 128#32
  let v50 : BitVec 32 := Scalar.muli arg0 c128_i32_34
  let c5_i32 : BitVec 32 := 5#32
  let v51 : BitVec 32 := Scalar.addi v50 c5_i32
  let v52 : Index := Scalar.indexCast v51
  ![v52.toNat]
def k0_off12 (v53 : BitVec 32) : Fin 3 → Nat :=
  let c0_i32_39 : BitVec 32 := 0#32
  let c0_i32_40 : BitVec 32 := 0#32
  ![v53.toNat, 0, 0]

def k0_chk6 (v53 : BitVec 32) : Prop :=
  (∀ a, (k0_off12 v53) a + S1x8x1024.size a ≤ S10000x8x1024.size a)
instance k0_chk6.dec : ∀ (v53 : BitVec 32), Decidable (k0_chk6 v53) := fun v53 => decidable_of_iff' _ (Iff.of_eq (k0_chk6.eq_1 v53))
theorem k0_off12_inb : ∀ (v53 : BitVec 32) (k0_hw6 : k0_chk6 v53), ∀ a, (k0_off12 v53) a + S1x8x1024.size a ≤ S10000x8x1024.size a := fun v53 k0_hw6 => k0_hw6

def k0_off13 (i : grid0.Coords) : Fin 1 → Nat :=
  let arg0 : BitVec 32 := BitVec.ofNat 32 (i 0).val
  let c128_i32_41 : BitVec 32 := 128#32
  let v60 : BitVec 32 := Scalar.muli arg0 c128_i32_41
  let c6_i32 : BitVec 32 := 6#32
  let v61 : BitVec 32 := Scalar.addi v60 c6_i32
  let v62 : Index := Scalar.indexCast v61
  ![v62.toNat]
def k0_off14 (v63 : BitVec 32) : Fin 3 → Nat :=
  let c0_i32_46 : BitVec 32 := 0#32
  let c0_i32_47 : BitVec 32 := 0#32
  ![v63.toNat, 0, 0]

def k0_chk7 (v63 : BitVec 32) : Prop :=
  (∀ a, (k0_off14 v63) a + S1x8x1024.size a ≤ S10000x8x1024.size a)
instance k0_chk7.dec : ∀ (v63 : BitVec 32), Decidable (k0_chk7 v63) := fun v63 => decidable_of_iff' _ (Iff.of_eq (k0_chk7.eq_1 v63))
theorem k0_off14_inb : ∀ (v63 : BitVec 32) (k0_hw7 : k0_chk7 v63), ∀ a, (k0_off14 v63) a + S1x8x1024.size a ≤ S10000x8x1024.size a := fun v63 k0_hw7 => k0_hw7

def k0_off15 (i : grid0.Coords) : Fin 1 → Nat :=
  let arg0 : BitVec 32 := BitVec.ofNat 32 (i 0).val
  let c128_i32_48 : BitVec 32 := 128#32
  let v70 : BitVec 32 := Scalar.muli arg0 c128_i32_48
  let c7_i32 : BitVec 32 := 7#32
  let v71 : BitVec 32 := Scalar.addi v70 c7_i32
  let v72 : Index := Scalar.indexCast v71
  ![v72.toNat]
def k0_off16 (v73 : BitVec 32) : Fin 3 → Nat :=
  let c0_i32_53 : BitVec 32 := 0#32
  let c0_i32_54 : BitVec 32 := 0#32
  ![v73.toNat, 0, 0]

def k0_chk8 (v73 : BitVec 32) : Prop :=
  (∀ a, (k0_off16 v73) a + S1x8x1024.size a ≤ S10000x8x1024.size a)
instance k0_chk8.dec : ∀ (v73 : BitVec 32), Decidable (k0_chk8 v73) := fun v73 => decidable_of_iff' _ (Iff.of_eq (k0_chk8.eq_1 v73))
theorem k0_off16_inb : ∀ (v73 : BitVec 32) (k0_hw8 : k0_chk8 v73), ∀ a, (k0_off16 v73) a + S1x8x1024.size a ≤ S10000x8x1024.size a := fun v73 k0_hw8 => k0_hw8

def k0_off17 (i : grid0.Coords) : Fin 1 → Nat :=
  let arg0 : BitVec 32 := BitVec.ofNat 32 (i 0).val
  let c128_i32_55 : BitVec 32 := 128#32
  let v80 : BitVec 32 := Scalar.muli arg0 c128_i32_55
  let c8_i32 : BitVec 32 := 8#32
  let v81 : BitVec 32 := Scalar.addi v80 c8_i32
  let v82 : Index := Scalar.indexCast v81
  ![v82.toNat]
def k0_off18 (v83 : BitVec 32) : Fin 3 → Nat :=
  let c0_i32_60 : BitVec 32 := 0#32
  let c0_i32_61 : BitVec 32 := 0#32
  ![v83.toNat, 0, 0]

def k0_chk9 (v83 : BitVec 32) : Prop :=
  (∀ a, (k0_off18 v83) a + S1x8x1024.size a ≤ S10000x8x1024.size a)
instance k0_chk9.dec : ∀ (v83 : BitVec 32), Decidable (k0_chk9 v83) := fun v83 => decidable_of_iff' _ (Iff.of_eq (k0_chk9.eq_1 v83))
theorem k0_off18_inb : ∀ (v83 : BitVec 32) (k0_hw9 : k0_chk9 v83), ∀ a, (k0_off18 v83) a + S1x8x1024.size a ≤ S10000x8x1024.size a := fun v83 k0_hw9 => k0_hw9

def k0_off19 (i : grid0.Coords) : Fin 1 → Nat :=
  let arg0 : BitVec 32 := BitVec.ofNat 32 (i 0).val
  let c128_i32_62 : BitVec 32 := 128#32
  let v90 : BitVec 32 := Scalar.muli arg0 c128_i32_62
  let c9_i32 : BitVec 32 := 9#32
  let v91 : BitVec 32 := Scalar.addi v90 c9_i32
  let v92 : Index := Scalar.indexCast v91
  ![v92.toNat]
def k0_off20 (v93 : BitVec 32) : Fin 3 → Nat :=
  let c0_i32_67 : BitVec 32 := 0#32
  let c0_i32_68 : BitVec 32 := 0#32
  ![v93.toNat, 0, 0]

def k0_chk10 (v93 : BitVec 32) : Prop :=
  (∀ a, (k0_off20 v93) a + S1x8x1024.size a ≤ S10000x8x1024.size a)
instance k0_chk10.dec : ∀ (v93 : BitVec 32), Decidable (k0_chk10 v93) := fun v93 => decidable_of_iff' _ (Iff.of_eq (k0_chk10.eq_1 v93))
theorem k0_off20_inb : ∀ (v93 : BitVec 32) (k0_hw10 : k0_chk10 v93), ∀ a, (k0_off20 v93) a + S1x8x1024.size a ≤ S10000x8x1024.size a := fun v93 k0_hw10 => k0_hw10

def k0_off21 (i : grid0.Coords) : Fin 1 → Nat :=
  let arg0 : BitVec 32 := BitVec.ofNat 32 (i 0).val
  let c128_i32_69 : BitVec 32 := 128#32
  let v100 : BitVec 32 := Scalar.muli arg0 c128_i32_69
  let c10_i32 : BitVec 32 := 10#32
  let v101 : BitVec 32 := Scalar.addi v100 c10_i32
  let v102 : Index := Scalar.indexCast v101
  ![v102.toNat]
def k0_off22 (v103 : BitVec 32) : Fin 3 → Nat :=
  let c0_i32_74 : BitVec 32 := 0#32
  let c0_i32_75 : BitVec 32 := 0#32
  ![v103.toNat, 0, 0]

def k0_chk11 (v103 : BitVec 32) : Prop :=
  (∀ a, (k0_off22 v103) a + S1x8x1024.size a ≤ S10000x8x1024.size a)
instance k0_chk11.dec : ∀ (v103 : BitVec 32), Decidable (k0_chk11 v103) := fun v103 => decidable_of_iff' _ (Iff.of_eq (k0_chk11.eq_1 v103))
theorem k0_off22_inb : ∀ (v103 : BitVec 32) (k0_hw11 : k0_chk11 v103), ∀ a, (k0_off22 v103) a + S1x8x1024.size a ≤ S10000x8x1024.size a := fun v103 k0_hw11 => k0_hw11

def k0_off23 (i : grid0.Coords) : Fin 1 → Nat :=
  let arg0 : BitVec 32 := BitVec.ofNat 32 (i 0).val
  let c128_i32_76 : BitVec 32 := 128#32
  let v110 : BitVec 32 := Scalar.muli arg0 c128_i32_76
  let c11_i32 : BitVec 32 := 11#32
  let v111 : BitVec 32 := Scalar.addi v110 c11_i32
  let v112 : Index := Scalar.indexCast v111
  ![v112.toNat]
def k0_off24 (v113 : BitVec 32) : Fin 3 → Nat :=
  let c0_i32_81 : BitVec 32 := 0#32
  let c0_i32_82 : BitVec 32 := 0#32
  ![v113.toNat, 0, 0]

def k0_chk12 (v113 : BitVec 32) : Prop :=
  (∀ a, (k0_off24 v113) a + S1x8x1024.size a ≤ S10000x8x1024.size a)
instance k0_chk12.dec : ∀ (v113 : BitVec 32), Decidable (k0_chk12 v113) := fun v113 => decidable_of_iff' _ (Iff.of_eq (k0_chk12.eq_1 v113))
theorem k0_off24_inb : ∀ (v113 : BitVec 32) (k0_hw12 : k0_chk12 v113), ∀ a, (k0_off24 v113) a + S1x8x1024.size a ≤ S10000x8x1024.size a := fun v113 k0_hw12 => k0_hw12

def k0_off25 (i : grid0.Coords) : Fin 1 → Nat :=
  let arg0 : BitVec 32 := BitVec.ofNat 32 (i 0).val
  let c128_i32_83 : BitVec 32 := 128#32
  let v120 : BitVec 32 := Scalar.muli arg0 c128_i32_83
  let c12_i32 : BitVec 32 := 12#32
  let v121 : BitVec 32 := Scalar.addi v120 c12_i32
  let v122 : Index := Scalar.indexCast v121
  ![v122.toNat]
def k0_off26 (v123 : BitVec 32) : Fin 3 → Nat :=
  let c0_i32_88 : BitVec 32 := 0#32
  let c0_i32_89 : BitVec 32 := 0#32
  ![v123.toNat, 0, 0]

def k0_chk13 (v123 : BitVec 32) : Prop :=
  (∀ a, (k0_off26 v123) a + S1x8x1024.size a ≤ S10000x8x1024.size a)
instance k0_chk13.dec : ∀ (v123 : BitVec 32), Decidable (k0_chk13 v123) := fun v123 => decidable_of_iff' _ (Iff.of_eq (k0_chk13.eq_1 v123))
theorem k0_off26_inb : ∀ (v123 : BitVec 32) (k0_hw13 : k0_chk13 v123), ∀ a, (k0_off26 v123) a + S1x8x1024.size a ≤ S10000x8x1024.size a := fun v123 k0_hw13 => k0_hw13

def k0_off27 (i : grid0.Coords) : Fin 1 → Nat :=
  let arg0 : BitVec 32 := BitVec.ofNat 32 (i 0).val
  let c128_i32_90 : BitVec 32 := 128#32
  let v130 : BitVec 32 := Scalar.muli arg0 c128_i32_90
  let c13_i32 : BitVec 32 := 13#32
  let v131 : BitVec 32 := Scalar.addi v130 c13_i32
  let v132 : Index := Scalar.indexCast v131
  ![v132.toNat]
def k0_off28 (v133 : BitVec 32) : Fin 3 → Nat :=
  let c0_i32_95 : BitVec 32 := 0#32
  let c0_i32_96 : BitVec 32 := 0#32
  ![v133.toNat, 0, 0]

def k0_chk14 (v133 : BitVec 32) : Prop :=
  (∀ a, (k0_off28 v133) a + S1x8x1024.size a ≤ S10000x8x1024.size a)
instance k0_chk14.dec : ∀ (v133 : BitVec 32), Decidable (k0_chk14 v133) := fun v133 => decidable_of_iff' _ (Iff.of_eq (k0_chk14.eq_1 v133))
theorem k0_off28_inb : ∀ (v133 : BitVec 32) (k0_hw14 : k0_chk14 v133), ∀ a, (k0_off28 v133) a + S1x8x1024.size a ≤ S10000x8x1024.size a := fun v133 k0_hw14 => k0_hw14

def k0_off29 (i : grid0.Coords) : Fin 1 → Nat :=
  let arg0 : BitVec 32 := BitVec.ofNat 32 (i 0).val
  let c128_i32_97 : BitVec 32 := 128#32
  let v140 : BitVec 32 := Scalar.muli arg0 c128_i32_97
  let c14_i32 : BitVec 32 := 14#32
  let v141 : BitVec 32 := Scalar.addi v140 c14_i32
  let v142 : Index := Scalar.indexCast v141
  ![v142.toNat]
def k0_off30 (v143 : BitVec 32) : Fin 3 → Nat :=
  let c0_i32_102 : BitVec 32 := 0#32
  let c0_i32_103 : BitVec 32 := 0#32
  ![v143.toNat, 0, 0]

def k0_chk15 (v143 : BitVec 32) : Prop :=
  (∀ a, (k0_off30 v143) a + S1x8x1024.size a ≤ S10000x8x1024.size a)
instance k0_chk15.dec : ∀ (v143 : BitVec 32), Decidable (k0_chk15 v143) := fun v143 => decidable_of_iff' _ (Iff.of_eq (k0_chk15.eq_1 v143))
theorem k0_off30_inb : ∀ (v143 : BitVec 32) (k0_hw15 : k0_chk15 v143), ∀ a, (k0_off30 v143) a + S1x8x1024.size a ≤ S10000x8x1024.size a := fun v143 k0_hw15 => k0_hw15

def k0_off31 (i : grid0.Coords) : Fin 1 → Nat :=
  let arg0 : BitVec 32 := BitVec.ofNat 32 (i 0).val
  let c128_i32_104 : BitVec 32 := 128#32
  let v150 : BitVec 32 := Scalar.muli arg0 c128_i32_104
  let c15_i32 : BitVec 32 := 15#32
  let v151 : BitVec 32 := Scalar.addi v150 c15_i32
  let v152 : Index := Scalar.indexCast v151
  ![v152.toNat]
def k0_off32 (v153 : BitVec 32) : Fin 3 → Nat :=
  let c0_i32_109 : BitVec 32 := 0#32
  let c0_i32_110 : BitVec 32 := 0#32
  ![v153.toNat, 0, 0]

def k0_chk16 (v153 : BitVec 32) : Prop :=
  (∀ a, (k0_off32 v153) a + S1x8x1024.size a ≤ S10000x8x1024.size a)
instance k0_chk16.dec : ∀ (v153 : BitVec 32), Decidable (k0_chk16 v153) := fun v153 => decidable_of_iff' _ (Iff.of_eq (k0_chk16.eq_1 v153))
theorem k0_off32_inb : ∀ (v153 : BitVec 32) (k0_hw16 : k0_chk16 v153), ∀ a, (k0_off32 v153) a + S1x8x1024.size a ≤ S10000x8x1024.size a := fun v153 k0_hw16 => k0_hw16

def k0_off33 (i : grid0.Coords) : Fin 1 → Nat :=
  let arg0 : BitVec 32 := BitVec.ofNat 32 (i 0).val
  let c128_i32_111 : BitVec 32 := 128#32
  let v160 : BitVec 32 := Scalar.muli arg0 c128_i32_111
  let c16_i32 : BitVec 32 := 16#32
  let v161 : BitVec 32 := Scalar.addi v160 c16_i32
  let v162 : Index := Scalar.indexCast v161
  ![v162.toNat]
def k0_off34 (v163 : BitVec 32) : Fin 3 → Nat :=
  let c0_i32_116 : BitVec 32 := 0#32
  let c0_i32_117 : BitVec 32 := 0#32
  ![v163.toNat, 0, 0]

def k0_chk17 (v163 : BitVec 32) : Prop :=
  (∀ a, (k0_off34 v163) a + S1x8x1024.size a ≤ S10000x8x1024.size a)
instance k0_chk17.dec : ∀ (v163 : BitVec 32), Decidable (k0_chk17 v163) := fun v163 => decidable_of_iff' _ (Iff.of_eq (k0_chk17.eq_1 v163))
theorem k0_off34_inb : ∀ (v163 : BitVec 32) (k0_hw17 : k0_chk17 v163), ∀ a, (k0_off34 v163) a + S1x8x1024.size a ≤ S10000x8x1024.size a := fun v163 k0_hw17 => k0_hw17

def k0_off35 (i : grid0.Coords) : Fin 1 → Nat :=
  let arg0 : BitVec 32 := BitVec.ofNat 32 (i 0).val
  let c128_i32_118 : BitVec 32 := 128#32
  let v170 : BitVec 32 := Scalar.muli arg0 c128_i32_118
  let c17_i32 : BitVec 32 := 17#32
  let v171 : BitVec 32 := Scalar.addi v170 c17_i32
  let v172 : Index := Scalar.indexCast v171
  ![v172.toNat]
def k0_off36 (v173 : BitVec 32) : Fin 3 → Nat :=
  let c0_i32_123 : BitVec 32 := 0#32
  let c0_i32_124 : BitVec 32 := 0#32
  ![v173.toNat, 0, 0]

def k0_chk18 (v173 : BitVec 32) : Prop :=
  (∀ a, (k0_off36 v173) a + S1x8x1024.size a ≤ S10000x8x1024.size a)
instance k0_chk18.dec : ∀ (v173 : BitVec 32), Decidable (k0_chk18 v173) := fun v173 => decidable_of_iff' _ (Iff.of_eq (k0_chk18.eq_1 v173))
theorem k0_off36_inb : ∀ (v173 : BitVec 32) (k0_hw18 : k0_chk18 v173), ∀ a, (k0_off36 v173) a + S1x8x1024.size a ≤ S10000x8x1024.size a := fun v173 k0_hw18 => k0_hw18

def k0_off37 (i : grid0.Coords) : Fin 1 → Nat :=
  let arg0 : BitVec 32 := BitVec.ofNat 32 (i 0).val
  let c128_i32_125 : BitVec 32 := 128#32
  let v180 : BitVec 32 := Scalar.muli arg0 c128_i32_125
  let c18_i32 : BitVec 32 := 18#32
  let v181 : BitVec 32 := Scalar.addi v180 c18_i32
  let v182 : Index := Scalar.indexCast v181
  ![v182.toNat]
def k0_off38 (v183 : BitVec 32) : Fin 3 → Nat :=
  let c0_i32_130 : BitVec 32 := 0#32
  let c0_i32_131 : BitVec 32 := 0#32
  ![v183.toNat, 0, 0]

def k0_chk19 (v183 : BitVec 32) : Prop :=
  (∀ a, (k0_off38 v183) a + S1x8x1024.size a ≤ S10000x8x1024.size a)
instance k0_chk19.dec : ∀ (v183 : BitVec 32), Decidable (k0_chk19 v183) := fun v183 => decidable_of_iff' _ (Iff.of_eq (k0_chk19.eq_1 v183))
theorem k0_off38_inb : ∀ (v183 : BitVec 32) (k0_hw19 : k0_chk19 v183), ∀ a, (k0_off38 v183) a + S1x8x1024.size a ≤ S10000x8x1024.size a := fun v183 k0_hw19 => k0_hw19

def k0_off39 (i : grid0.Coords) : Fin 1 → Nat :=
  let arg0 : BitVec 32 := BitVec.ofNat 32 (i 0).val
  let c128_i32_132 : BitVec 32 := 128#32
  let v190 : BitVec 32 := Scalar.muli arg0 c128_i32_132
  let c19_i32 : BitVec 32 := 19#32
  let v191 : BitVec 32 := Scalar.addi v190 c19_i32
  let v192 : Index := Scalar.indexCast v191
  ![v192.toNat]
def k0_off40 (v193 : BitVec 32) : Fin 3 → Nat :=
  let c0_i32_137 : BitVec 32 := 0#32
  let c0_i32_138 : BitVec 32 := 0#32
  ![v193.toNat, 0, 0]

def k0_chk20 (v193 : BitVec 32) : Prop :=
  (∀ a, (k0_off40 v193) a + S1x8x1024.size a ≤ S10000x8x1024.size a)
instance k0_chk20.dec : ∀ (v193 : BitVec 32), Decidable (k0_chk20 v193) := fun v193 => decidable_of_iff' _ (Iff.of_eq (k0_chk20.eq_1 v193))
theorem k0_off40_inb : ∀ (v193 : BitVec 32) (k0_hw20 : k0_chk20 v193), ∀ a, (k0_off40 v193) a + S1x8x1024.size a ≤ S10000x8x1024.size a := fun v193 k0_hw20 => k0_hw20

def k0_off41 (i : grid0.Coords) : Fin 1 → Nat :=
  let arg0 : BitVec 32 := BitVec.ofNat 32 (i 0).val
  let c128_i32_139 : BitVec 32 := 128#32
  let v200 : BitVec 32 := Scalar.muli arg0 c128_i32_139
  let c20_i32 : BitVec 32 := 20#32
  let v201 : BitVec 32 := Scalar.addi v200 c20_i32
  let v202 : Index := Scalar.indexCast v201
  ![v202.toNat]
def k0_off42 (v203 : BitVec 32) : Fin 3 → Nat :=
  let c0_i32_144 : BitVec 32 := 0#32
  let c0_i32_145 : BitVec 32 := 0#32
  ![v203.toNat, 0, 0]

def k0_chk21 (v203 : BitVec 32) : Prop :=
  (∀ a, (k0_off42 v203) a + S1x8x1024.size a ≤ S10000x8x1024.size a)
instance k0_chk21.dec : ∀ (v203 : BitVec 32), Decidable (k0_chk21 v203) := fun v203 => decidable_of_iff' _ (Iff.of_eq (k0_chk21.eq_1 v203))
theorem k0_off42_inb : ∀ (v203 : BitVec 32) (k0_hw21 : k0_chk21 v203), ∀ a, (k0_off42 v203) a + S1x8x1024.size a ≤ S10000x8x1024.size a := fun v203 k0_hw21 => k0_hw21

def k0_off43 (i : grid0.Coords) : Fin 1 → Nat :=
  let arg0 : BitVec 32 := BitVec.ofNat 32 (i 0).val
  let c128_i32_146 : BitVec 32 := 128#32
  let v210 : BitVec 32 := Scalar.muli arg0 c128_i32_146
  let c21_i32 : BitVec 32 := 21#32
  let v211 : BitVec 32 := Scalar.addi v210 c21_i32
  let v212 : Index := Scalar.indexCast v211
  ![v212.toNat]
def k0_off44 (v213 : BitVec 32) : Fin 3 → Nat :=
  let c0_i32_151 : BitVec 32 := 0#32
  let c0_i32_152 : BitVec 32 := 0#32
  ![v213.toNat, 0, 0]

def k0_chk22 (v213 : BitVec 32) : Prop :=
  (∀ a, (k0_off44 v213) a + S1x8x1024.size a ≤ S10000x8x1024.size a)
instance k0_chk22.dec : ∀ (v213 : BitVec 32), Decidable (k0_chk22 v213) := fun v213 => decidable_of_iff' _ (Iff.of_eq (k0_chk22.eq_1 v213))
theorem k0_off44_inb : ∀ (v213 : BitVec 32) (k0_hw22 : k0_chk22 v213), ∀ a, (k0_off44 v213) a + S1x8x1024.size a ≤ S10000x8x1024.size a := fun v213 k0_hw22 => k0_hw22

def k0_off45 (i : grid0.Coords) : Fin 1 → Nat :=
  let arg0 : BitVec 32 := BitVec.ofNat 32 (i 0).val
  let c128_i32_153 : BitVec 32 := 128#32
  let v220 : BitVec 32 := Scalar.muli arg0 c128_i32_153
  let c22_i32 : BitVec 32 := 22#32
  let v221 : BitVec 32 := Scalar.addi v220 c22_i32
  let v222 : Index := Scalar.indexCast v221
  ![v222.toNat]
def k0_off46 (v223 : BitVec 32) : Fin 3 → Nat :=
  let c0_i32_158 : BitVec 32 := 0#32
  let c0_i32_159 : BitVec 32 := 0#32
  ![v223.toNat, 0, 0]

def k0_chk23 (v223 : BitVec 32) : Prop :=
  (∀ a, (k0_off46 v223) a + S1x8x1024.size a ≤ S10000x8x1024.size a)
instance k0_chk23.dec : ∀ (v223 : BitVec 32), Decidable (k0_chk23 v223) := fun v223 => decidable_of_iff' _ (Iff.of_eq (k0_chk23.eq_1 v223))
theorem k0_off46_inb : ∀ (v223 : BitVec 32) (k0_hw23 : k0_chk23 v223), ∀ a, (k0_off46 v223) a + S1x8x1024.size a ≤ S10000x8x1024.size a := fun v223 k0_hw23 => k0_hw23

def k0_off47 (i : grid0.Coords) : Fin 1 → Nat :=
  let arg0 : BitVec 32 := BitVec.ofNat 32 (i 0).val
  let c128_i32_160 : BitVec 32 := 128#32
  let v230 : BitVec 32 := Scalar.muli arg0 c128_i32_160
  let c23_i32 : BitVec 32 := 23#32
  let v231 : BitVec 32 := Scalar.addi v230 c23_i32
  let v232 : Index := Scalar.indexCast v231
  ![v232.toNat]
def k0_off48 (v233 : BitVec 32) : Fin 3 → Nat :=
  let c0_i32_165 : BitVec 32 := 0#32
  let c0_i32_166 : BitVec 32 := 0#32
  ![v233.toNat, 0, 0]

def k0_chk24 (v233 : BitVec 32) : Prop :=
  (∀ a, (k0_off48 v233) a + S1x8x1024.size a ≤ S10000x8x1024.size a)
instance k0_chk24.dec : ∀ (v233 : BitVec 32), Decidable (k0_chk24 v233) := fun v233 => decidable_of_iff' _ (Iff.of_eq (k0_chk24.eq_1 v233))
theorem k0_off48_inb : ∀ (v233 : BitVec 32) (k0_hw24 : k0_chk24 v233), ∀ a, (k0_off48 v233) a + S1x8x1024.size a ≤ S10000x8x1024.size a := fun v233 k0_hw24 => k0_hw24

def k0_off49 (i : grid0.Coords) : Fin 1 → Nat :=
  let arg0 : BitVec 32 := BitVec.ofNat 32 (i 0).val
  let c128_i32_167 : BitVec 32 := 128#32
  let v240 : BitVec 32 := Scalar.muli arg0 c128_i32_167
  let c24_i32 : BitVec 32 := 24#32
  let v241 : BitVec 32 := Scalar.addi v240 c24_i32
  let v242 : Index := Scalar.indexCast v241
  ![v242.toNat]
def k0_off50 (v243 : BitVec 32) : Fin 3 → Nat :=
  let c0_i32_172 : BitVec 32 := 0#32
  let c0_i32_173 : BitVec 32 := 0#32
  ![v243.toNat, 0, 0]

def k0_chk25 (v243 : BitVec 32) : Prop :=
  (∀ a, (k0_off50 v243) a + S1x8x1024.size a ≤ S10000x8x1024.size a)
instance k0_chk25.dec : ∀ (v243 : BitVec 32), Decidable (k0_chk25 v243) := fun v243 => decidable_of_iff' _ (Iff.of_eq (k0_chk25.eq_1 v243))
theorem k0_off50_inb : ∀ (v243 : BitVec 32) (k0_hw25 : k0_chk25 v243), ∀ a, (k0_off50 v243) a + S1x8x1024.size a ≤ S10000x8x1024.size a := fun v243 k0_hw25 => k0_hw25

def k0_off51 (i : grid0.Coords) : Fin 1 → Nat :=
  let arg0 : BitVec 32 := BitVec.ofNat 32 (i 0).val
  let c128_i32_174 : BitVec 32 := 128#32
  let v250 : BitVec 32 := Scalar.muli arg0 c128_i32_174
  let c25_i32 : BitVec 32 := 25#32
  let v251 : BitVec 32 := Scalar.addi v250 c25_i32
  let v252 : Index := Scalar.indexCast v251
  ![v252.toNat]
def k0_off52 (v253 : BitVec 32) : Fin 3 → Nat :=
  let c0_i32_179 : BitVec 32 := 0#32
  let c0_i32_180 : BitVec 32 := 0#32
  ![v253.toNat, 0, 0]

def k0_chk26 (v253 : BitVec 32) : Prop :=
  (∀ a, (k0_off52 v253) a + S1x8x1024.size a ≤ S10000x8x1024.size a)
instance k0_chk26.dec : ∀ (v253 : BitVec 32), Decidable (k0_chk26 v253) := fun v253 => decidable_of_iff' _ (Iff.of_eq (k0_chk26.eq_1 v253))
theorem k0_off52_inb : ∀ (v253 : BitVec 32) (k0_hw26 : k0_chk26 v253), ∀ a, (k0_off52 v253) a + S1x8x1024.size a ≤ S10000x8x1024.size a := fun v253 k0_hw26 => k0_hw26

def k0_off53 (i : grid0.Coords) : Fin 1 → Nat :=
  let arg0 : BitVec 32 := BitVec.ofNat 32 (i 0).val
  let c128_i32_181 : BitVec 32 := 128#32
  let v260 : BitVec 32 := Scalar.muli arg0 c128_i32_181
  let c26_i32 : BitVec 32 := 26#32
  let v261 : BitVec 32 := Scalar.addi v260 c26_i32
  let v262 : Index := Scalar.indexCast v261
  ![v262.toNat]
def k0_off54 (v263 : BitVec 32) : Fin 3 → Nat :=
  let c0_i32_186 : BitVec 32 := 0#32
  let c0_i32_187 : BitVec 32 := 0#32
  ![v263.toNat, 0, 0]

def k0_chk27 (v263 : BitVec 32) : Prop :=
  (∀ a, (k0_off54 v263) a + S1x8x1024.size a ≤ S10000x8x1024.size a)
instance k0_chk27.dec : ∀ (v263 : BitVec 32), Decidable (k0_chk27 v263) := fun v263 => decidable_of_iff' _ (Iff.of_eq (k0_chk27.eq_1 v263))
theorem k0_off54_inb : ∀ (v263 : BitVec 32) (k0_hw27 : k0_chk27 v263), ∀ a, (k0_off54 v263) a + S1x8x1024.size a ≤ S10000x8x1024.size a := fun v263 k0_hw27 => k0_hw27

def k0_off55 (i : grid0.Coords) : Fin 1 → Nat :=
  let arg0 : BitVec 32 := BitVec.ofNat 32 (i 0).val
  let c128_i32_188 : BitVec 32 := 128#32
  let v270 : BitVec 32 := Scalar.muli arg0 c128_i32_188
  let c27_i32 : BitVec 32 := 27#32
  let v271 : BitVec 32 := Scalar.addi v270 c27_i32
  let v272 : Index := Scalar.indexCast v271
  ![v272.toNat]
def k0_off56 (v273 : BitVec 32) : Fin 3 → Nat :=
  let c0_i32_193 : BitVec 32 := 0#32
  let c0_i32_194 : BitVec 32 := 0#32
  ![v273.toNat, 0, 0]

def k0_chk28 (v273 : BitVec 32) : Prop :=
  (∀ a, (k0_off56 v273) a + S1x8x1024.size a ≤ S10000x8x1024.size a)
instance k0_chk28.dec : ∀ (v273 : BitVec 32), Decidable (k0_chk28 v273) := fun v273 => decidable_of_iff' _ (Iff.of_eq (k0_chk28.eq_1 v273))
theorem k0_off56_inb : ∀ (v273 : BitVec 32) (k0_hw28 : k0_chk28 v273), ∀ a, (k0_off56 v273) a + S1x8x1024.size a ≤ S10000x8x1024.size a := fun v273 k0_hw28 => k0_hw28

def k0_off57 (i : grid0.Coords) : Fin 1 → Nat :=
  let arg0 : BitVec 32 := BitVec.ofNat 32 (i 0).val
  let c128_i32_195 : BitVec 32 := 128#32
  let v280 : BitVec 32 := Scalar.muli arg0 c128_i32_195
  let c28_i32 : BitVec 32 := 28#32
  let v281 : BitVec 32 := Scalar.addi v280 c28_i32
  let v282 : Index := Scalar.indexCast v281
  ![v282.toNat]
def k0_off58 (v283 : BitVec 32) : Fin 3 → Nat :=
  let c0_i32_200 : BitVec 32 := 0#32
  let c0_i32_201 : BitVec 32 := 0#32
  ![v283.toNat, 0, 0]

def k0_chk29 (v283 : BitVec 32) : Prop :=
  (∀ a, (k0_off58 v283) a + S1x8x1024.size a ≤ S10000x8x1024.size a)
instance k0_chk29.dec : ∀ (v283 : BitVec 32), Decidable (k0_chk29 v283) := fun v283 => decidable_of_iff' _ (Iff.of_eq (k0_chk29.eq_1 v283))
theorem k0_off58_inb : ∀ (v283 : BitVec 32) (k0_hw29 : k0_chk29 v283), ∀ a, (k0_off58 v283) a + S1x8x1024.size a ≤ S10000x8x1024.size a := fun v283 k0_hw29 => k0_hw29

def k0_off59 (i : grid0.Coords) : Fin 1 → Nat :=
  let arg0 : BitVec 32 := BitVec.ofNat 32 (i 0).val
  let c128_i32_202 : BitVec 32 := 128#32
  let v290 : BitVec 32 := Scalar.muli arg0 c128_i32_202
  let c29_i32 : BitVec 32 := 29#32
  let v291 : BitVec 32 := Scalar.addi v290 c29_i32
  let v292 : Index := Scalar.indexCast v291
  ![v292.toNat]
def k0_off60 (v293 : BitVec 32) : Fin 3 → Nat :=
  let c0_i32_207 : BitVec 32 := 0#32
  let c0_i32_208 : BitVec 32 := 0#32
  ![v293.toNat, 0, 0]

def k0_chk30 (v293 : BitVec 32) : Prop :=
  (∀ a, (k0_off60 v293) a + S1x8x1024.size a ≤ S10000x8x1024.size a)
instance k0_chk30.dec : ∀ (v293 : BitVec 32), Decidable (k0_chk30 v293) := fun v293 => decidable_of_iff' _ (Iff.of_eq (k0_chk30.eq_1 v293))
theorem k0_off60_inb : ∀ (v293 : BitVec 32) (k0_hw30 : k0_chk30 v293), ∀ a, (k0_off60 v293) a + S1x8x1024.size a ≤ S10000x8x1024.size a := fun v293 k0_hw30 => k0_hw30

def k0_off61 (i : grid0.Coords) : Fin 1 → Nat :=
  let arg0 : BitVec 32 := BitVec.ofNat 32 (i 0).val
  let c128_i32_209 : BitVec 32 := 128#32
  let v300 : BitVec 32 := Scalar.muli arg0 c128_i32_209
  let c30_i32 : BitVec 32 := 30#32
  let v301 : BitVec 32 := Scalar.addi v300 c30_i32
  let v302 : Index := Scalar.indexCast v301
  ![v302.toNat]
def k0_off62 (v303 : BitVec 32) : Fin 3 → Nat :=
  let c0_i32_214 : BitVec 32 := 0#32
  let c0_i32_215 : BitVec 32 := 0#32
  ![v303.toNat, 0, 0]

def k0_chk31 (v303 : BitVec 32) : Prop :=
  (∀ a, (k0_off62 v303) a + S1x8x1024.size a ≤ S10000x8x1024.size a)
instance k0_chk31.dec : ∀ (v303 : BitVec 32), Decidable (k0_chk31 v303) := fun v303 => decidable_of_iff' _ (Iff.of_eq (k0_chk31.eq_1 v303))
theorem k0_off62_inb : ∀ (v303 : BitVec 32) (k0_hw31 : k0_chk31 v303), ∀ a, (k0_off62 v303) a + S1x8x1024.size a ≤ S10000x8x1024.size a := fun v303 k0_hw31 => k0_hw31

def k0_off63 (i : grid0.Coords) : Fin 1 → Nat :=
  let arg0 : BitVec 32 := BitVec.ofNat 32 (i 0).val
  let c128_i32_216 : BitVec 32 := 128#32
  let v310 : BitVec 32 := Scalar.muli arg0 c128_i32_216
  let c31_i32 : BitVec 32 := 31#32
  let v311 : BitVec 32 := Scalar.addi v310 c31_i32
  let v312 : Index := Scalar.indexCast v311
  ![v312.toNat]
def k0_off64 (v313 : BitVec 32) : Fin 3 → Nat :=
  let c0_i32_221 : BitVec 32 := 0#32
  let c0_i32_222 : BitVec 32 := 0#32
  ![v313.toNat, 0, 0]

def k0_chk32 (v313 : BitVec 32) : Prop :=
  (∀ a, (k0_off64 v313) a + S1x8x1024.size a ≤ S10000x8x1024.size a)
instance k0_chk32.dec : ∀ (v313 : BitVec 32), Decidable (k0_chk32 v313) := fun v313 => decidable_of_iff' _ (Iff.of_eq (k0_chk32.eq_1 v313))
theorem k0_off64_inb : ∀ (v313 : BitVec 32) (k0_hw32 : k0_chk32 v313), ∀ a, (k0_off64 v313) a + S1x8x1024.size a ≤ S10000x8x1024.size a := fun v313 k0_hw32 => k0_hw32

def k0_off65 (i : grid0.Coords) : Fin 1 → Nat :=
  let arg0 : BitVec 32 := BitVec.ofNat 32 (i 0).val
  let c128_i32_223 : BitVec 32 := 128#32
  let v320 : BitVec 32 := Scalar.muli arg0 c128_i32_223
  let c32_i32 : BitVec 32 := 32#32
  let v321 : BitVec 32 := Scalar.addi v320 c32_i32
  let v322 : Index := Scalar.indexCast v321
  ![v322.toNat]
def k0_off66 (v323 : BitVec 32) : Fin 3 → Nat :=
  let c0_i32_228 : BitVec 32 := 0#32
  let c0_i32_229 : BitVec 32 := 0#32
  ![v323.toNat, 0, 0]

def k0_chk33 (v323 : BitVec 32) : Prop :=
  (∀ a, (k0_off66 v323) a + S1x8x1024.size a ≤ S10000x8x1024.size a)
instance k0_chk33.dec : ∀ (v323 : BitVec 32), Decidable (k0_chk33 v323) := fun v323 => decidable_of_iff' _ (Iff.of_eq (k0_chk33.eq_1 v323))
theorem k0_off66_inb : ∀ (v323 : BitVec 32) (k0_hw33 : k0_chk33 v323), ∀ a, (k0_off66 v323) a + S1x8x1024.size a ≤ S10000x8x1024.size a := fun v323 k0_hw33 => k0_hw33

def k0_off67 (i : grid0.Coords) : Fin 1 → Nat :=
  let arg0 : BitVec 32 := BitVec.ofNat 32 (i 0).val
  let c128_i32_230 : BitVec 32 := 128#32
  let v330 : BitVec 32 := Scalar.muli arg0 c128_i32_230
  let c33_i32 : BitVec 32 := 33#32
  let v331 : BitVec 32 := Scalar.addi v330 c33_i32
  let v332 : Index := Scalar.indexCast v331
  ![v332.toNat]
def k0_off68 (v333 : BitVec 32) : Fin 3 → Nat :=
  let c0_i32_235 : BitVec 32 := 0#32
  let c0_i32_236 : BitVec 32 := 0#32
  ![v333.toNat, 0, 0]

def k0_chk34 (v333 : BitVec 32) : Prop :=
  (∀ a, (k0_off68 v333) a + S1x8x1024.size a ≤ S10000x8x1024.size a)
instance k0_chk34.dec : ∀ (v333 : BitVec 32), Decidable (k0_chk34 v333) := fun v333 => decidable_of_iff' _ (Iff.of_eq (k0_chk34.eq_1 v333))
theorem k0_off68_inb : ∀ (v333 : BitVec 32) (k0_hw34 : k0_chk34 v333), ∀ a, (k0_off68 v333) a + S1x8x1024.size a ≤ S10000x8x1024.size a := fun v333 k0_hw34 => k0_hw34

def k0_off69 (i : grid0.Coords) : Fin 1 → Nat :=
  let arg0 : BitVec 32 := BitVec.ofNat 32 (i 0).val
  let c128_i32_237 : BitVec 32 := 128#32
  let v340 : BitVec 32 := Scalar.muli arg0 c128_i32_237
  let c34_i32 : BitVec 32 := 34#32
  let v341 : BitVec 32 := Scalar.addi v340 c34_i32
  let v342 : Index := Scalar.indexCast v341
  ![v342.toNat]
def k0_off70 (v343 : BitVec 32) : Fin 3 → Nat :=
  let c0_i32_242 : BitVec 32 := 0#32
  let c0_i32_243 : BitVec 32 := 0#32
  ![v343.toNat, 0, 0]

def k0_chk35 (v343 : BitVec 32) : Prop :=
  (∀ a, (k0_off70 v343) a + S1x8x1024.size a ≤ S10000x8x1024.size a)
instance k0_chk35.dec : ∀ (v343 : BitVec 32), Decidable (k0_chk35 v343) := fun v343 => decidable_of_iff' _ (Iff.of_eq (k0_chk35.eq_1 v343))
theorem k0_off70_inb : ∀ (v343 : BitVec 32) (k0_hw35 : k0_chk35 v343), ∀ a, (k0_off70 v343) a + S1x8x1024.size a ≤ S10000x8x1024.size a := fun v343 k0_hw35 => k0_hw35

def k0_off71 (i : grid0.Coords) : Fin 1 → Nat :=
  let arg0 : BitVec 32 := BitVec.ofNat 32 (i 0).val
  let c128_i32_244 : BitVec 32 := 128#32
  let v350 : BitVec 32 := Scalar.muli arg0 c128_i32_244
  let c35_i32 : BitVec 32 := 35#32
  let v351 : BitVec 32 := Scalar.addi v350 c35_i32
  let v352 : Index := Scalar.indexCast v351
  ![v352.toNat]
def k0_off72 (v353 : BitVec 32) : Fin 3 → Nat :=
  let c0_i32_249 : BitVec 32 := 0#32
  let c0_i32_250 : BitVec 32 := 0#32
  ![v353.toNat, 0, 0]

def k0_chk36 (v353 : BitVec 32) : Prop :=
  (∀ a, (k0_off72 v353) a + S1x8x1024.size a ≤ S10000x8x1024.size a)
instance k0_chk36.dec : ∀ (v353 : BitVec 32), Decidable (k0_chk36 v353) := fun v353 => decidable_of_iff' _ (Iff.of_eq (k0_chk36.eq_1 v353))
theorem k0_off72_inb : ∀ (v353 : BitVec 32) (k0_hw36 : k0_chk36 v353), ∀ a, (k0_off72 v353) a + S1x8x1024.size a ≤ S10000x8x1024.size a := fun v353 k0_hw36 => k0_hw36

def k0_off73 (i : grid0.Coords) : Fin 1 → Nat :=
  let arg0 : BitVec 32 := BitVec.ofNat 32 (i 0).val
  let c128_i32_251 : BitVec 32 := 128#32
  let v360 : BitVec 32 := Scalar.muli arg0 c128_i32_251
  let c36_i32 : BitVec 32 := 36#32
  let v361 : BitVec 32 := Scalar.addi v360 c36_i32
  let v362 : Index := Scalar.indexCast v361
  ![v362.toNat]
def k0_off74 (v363 : BitVec 32) : Fin 3 → Nat :=
  let c0_i32_256 : BitVec 32 := 0#32
  let c0_i32_257 : BitVec 32 := 0#32
  ![v363.toNat, 0, 0]

def k0_chk37 (v363 : BitVec 32) : Prop :=
  (∀ a, (k0_off74 v363) a + S1x8x1024.size a ≤ S10000x8x1024.size a)
instance k0_chk37.dec : ∀ (v363 : BitVec 32), Decidable (k0_chk37 v363) := fun v363 => decidable_of_iff' _ (Iff.of_eq (k0_chk37.eq_1 v363))
theorem k0_off74_inb : ∀ (v363 : BitVec 32) (k0_hw37 : k0_chk37 v363), ∀ a, (k0_off74 v363) a + S1x8x1024.size a ≤ S10000x8x1024.size a := fun v363 k0_hw37 => k0_hw37

def k0_off75 (i : grid0.Coords) : Fin 1 → Nat :=
  let arg0 : BitVec 32 := BitVec.ofNat 32 (i 0).val
  let c128_i32_258 : BitVec 32 := 128#32
  let v370 : BitVec 32 := Scalar.muli arg0 c128_i32_258
  let c37_i32 : BitVec 32 := 37#32
  let v371 : BitVec 32 := Scalar.addi v370 c37_i32
  let v372 : Index := Scalar.indexCast v371
  ![v372.toNat]
def k0_off76 (v373 : BitVec 32) : Fin 3 → Nat :=
  let c0_i32_263 : BitVec 32 := 0#32
  let c0_i32_264 : BitVec 32 := 0#32
  ![v373.toNat, 0, 0]

def k0_chk38 (v373 : BitVec 32) : Prop :=
  (∀ a, (k0_off76 v373) a + S1x8x1024.size a ≤ S10000x8x1024.size a)
instance k0_chk38.dec : ∀ (v373 : BitVec 32), Decidable (k0_chk38 v373) := fun v373 => decidable_of_iff' _ (Iff.of_eq (k0_chk38.eq_1 v373))
theorem k0_off76_inb : ∀ (v373 : BitVec 32) (k0_hw38 : k0_chk38 v373), ∀ a, (k0_off76 v373) a + S1x8x1024.size a ≤ S10000x8x1024.size a := fun v373 k0_hw38 => k0_hw38

def k0_off77 (i : grid0.Coords) : Fin 1 → Nat :=
  let arg0 : BitVec 32 := BitVec.ofNat 32 (i 0).val
  let c128_i32_265 : BitVec 32 := 128#32
  let v380 : BitVec 32 := Scalar.muli arg0 c128_i32_265
  let c38_i32 : BitVec 32 := 38#32
  let v381 : BitVec 32 := Scalar.addi v380 c38_i32
  let v382 : Index := Scalar.indexCast v381
  ![v382.toNat]
def k0_off78 (v383 : BitVec 32) : Fin 3 → Nat :=
  let c0_i32_270 : BitVec 32 := 0#32
  let c0_i32_271 : BitVec 32 := 0#32
  ![v383.toNat, 0, 0]

def k0_chk39 (v383 : BitVec 32) : Prop :=
  (∀ a, (k0_off78 v383) a + S1x8x1024.size a ≤ S10000x8x1024.size a)
instance k0_chk39.dec : ∀ (v383 : BitVec 32), Decidable (k0_chk39 v383) := fun v383 => decidable_of_iff' _ (Iff.of_eq (k0_chk39.eq_1 v383))
theorem k0_off78_inb : ∀ (v383 : BitVec 32) (k0_hw39 : k0_chk39 v383), ∀ a, (k0_off78 v383) a + S1x8x1024.size a ≤ S10000x8x1024.size a := fun v383 k0_hw39 => k0_hw39

def k0_off79 (i : grid0.Coords) : Fin 1 → Nat :=
  let arg0 : BitVec 32 := BitVec.ofNat 32 (i 0).val
  let c128_i32_272 : BitVec 32 := 128#32
  let v390 : BitVec 32 := Scalar.muli arg0 c128_i32_272
  let c39_i32 : BitVec 32 := 39#32
  let v391 : BitVec 32 := Scalar.addi v390 c39_i32
  let v392 : Index := Scalar.indexCast v391
  ![v392.toNat]
def k0_off80 (v393 : BitVec 32) : Fin 3 → Nat :=
  let c0_i32_277 : BitVec 32 := 0#32
  let c0_i32_278 : BitVec 32 := 0#32
  ![v393.toNat, 0, 0]

def k0_chk40 (v393 : BitVec 32) : Prop :=
  (∀ a, (k0_off80 v393) a + S1x8x1024.size a ≤ S10000x8x1024.size a)
instance k0_chk40.dec : ∀ (v393 : BitVec 32), Decidable (k0_chk40 v393) := fun v393 => decidable_of_iff' _ (Iff.of_eq (k0_chk40.eq_1 v393))
theorem k0_off80_inb : ∀ (v393 : BitVec 32) (k0_hw40 : k0_chk40 v393), ∀ a, (k0_off80 v393) a + S1x8x1024.size a ≤ S10000x8x1024.size a := fun v393 k0_hw40 => k0_hw40

def k0_off81 (i : grid0.Coords) : Fin 1 → Nat :=
  let arg0 : BitVec 32 := BitVec.ofNat 32 (i 0).val
  let c128_i32_279 : BitVec 32 := 128#32
  let v400 : BitVec 32 := Scalar.muli arg0 c128_i32_279
  let c40_i32 : BitVec 32 := 40#32
  let v401 : BitVec 32 := Scalar.addi v400 c40_i32
  let v402 : Index := Scalar.indexCast v401
  ![v402.toNat]
def k0_off82 (v403 : BitVec 32) : Fin 3 → Nat :=
  let c0_i32_284 : BitVec 32 := 0#32
  let c0_i32_285 : BitVec 32 := 0#32
  ![v403.toNat, 0, 0]

def k0_chk41 (v403 : BitVec 32) : Prop :=
  (∀ a, (k0_off82 v403) a + S1x8x1024.size a ≤ S10000x8x1024.size a)
instance k0_chk41.dec : ∀ (v403 : BitVec 32), Decidable (k0_chk41 v403) := fun v403 => decidable_of_iff' _ (Iff.of_eq (k0_chk41.eq_1 v403))
theorem k0_off82_inb : ∀ (v403 : BitVec 32) (k0_hw41 : k0_chk41 v403), ∀ a, (k0_off82 v403) a + S1x8x1024.size a ≤ S10000x8x1024.size a := fun v403 k0_hw41 => k0_hw41

def k0_off83 (i : grid0.Coords) : Fin 1 → Nat :=
  let arg0 : BitVec 32 := BitVec.ofNat 32 (i 0).val
  let c128_i32_286 : BitVec 32 := 128#32
  let v410 : BitVec 32 := Scalar.muli arg0 c128_i32_286
  let c41_i32 : BitVec 32 := 41#32
  let v411 : BitVec 32 := Scalar.addi v410 c41_i32
  let v412 : Index := Scalar.indexCast v411
  ![v412.toNat]
def k0_off84 (v413 : BitVec 32) : Fin 3 → Nat :=
  let c0_i32_291 : BitVec 32 := 0#32
  let c0_i32_292 : BitVec 32 := 0#32
  ![v413.toNat, 0, 0]

def k0_chk42 (v413 : BitVec 32) : Prop :=
  (∀ a, (k0_off84 v413) a + S1x8x1024.size a ≤ S10000x8x1024.size a)
instance k0_chk42.dec : ∀ (v413 : BitVec 32), Decidable (k0_chk42 v413) := fun v413 => decidable_of_iff' _ (Iff.of_eq (k0_chk42.eq_1 v413))
theorem k0_off84_inb : ∀ (v413 : BitVec 32) (k0_hw42 : k0_chk42 v413), ∀ a, (k0_off84 v413) a + S1x8x1024.size a ≤ S10000x8x1024.size a := fun v413 k0_hw42 => k0_hw42

def k0_off85 (i : grid0.Coords) : Fin 1 → Nat :=
  let arg0 : BitVec 32 := BitVec.ofNat 32 (i 0).val
  let c128_i32_293 : BitVec 32 := 128#32
  let v420 : BitVec 32 := Scalar.muli arg0 c128_i32_293
  let c42_i32 : BitVec 32 := 42#32
  let v421 : BitVec 32 := Scalar.addi v420 c42_i32
  let v422 : Index := Scalar.indexCast v421
  ![v422.toNat]
def k0_off86 (v423 : BitVec 32) : Fin 3 → Nat :=
  let c0_i32_298 : BitVec 32 := 0#32
  let c0_i32_299 : BitVec 32 := 0#32
  ![v423.toNat, 0, 0]

def k0_chk43 (v423 : BitVec 32) : Prop :=
  (∀ a, (k0_off86 v423) a + S1x8x1024.size a ≤ S10000x8x1024.size a)
instance k0_chk43.dec : ∀ (v423 : BitVec 32), Decidable (k0_chk43 v423) := fun v423 => decidable_of_iff' _ (Iff.of_eq (k0_chk43.eq_1 v423))
theorem k0_off86_inb : ∀ (v423 : BitVec 32) (k0_hw43 : k0_chk43 v423), ∀ a, (k0_off86 v423) a + S1x8x1024.size a ≤ S10000x8x1024.size a := fun v423 k0_hw43 => k0_hw43

def k0_off87 (i : grid0.Coords) : Fin 1 → Nat :=
  let arg0 : BitVec 32 := BitVec.ofNat 32 (i 0).val
  let c128_i32_300 : BitVec 32 := 128#32
  let v430 : BitVec 32 := Scalar.muli arg0 c128_i32_300
  let c43_i32 : BitVec 32 := 43#32
  let v431 : BitVec 32 := Scalar.addi v430 c43_i32
  let v432 : Index := Scalar.indexCast v431
  ![v432.toNat]
def k0_off88 (v433 : BitVec 32) : Fin 3 → Nat :=
  let c0_i32_305 : BitVec 32 := 0#32
  let c0_i32_306 : BitVec 32 := 0#32
  ![v433.toNat, 0, 0]

def k0_chk44 (v433 : BitVec 32) : Prop :=
  (∀ a, (k0_off88 v433) a + S1x8x1024.size a ≤ S10000x8x1024.size a)
instance k0_chk44.dec : ∀ (v433 : BitVec 32), Decidable (k0_chk44 v433) := fun v433 => decidable_of_iff' _ (Iff.of_eq (k0_chk44.eq_1 v433))
theorem k0_off88_inb : ∀ (v433 : BitVec 32) (k0_hw44 : k0_chk44 v433), ∀ a, (k0_off88 v433) a + S1x8x1024.size a ≤ S10000x8x1024.size a := fun v433 k0_hw44 => k0_hw44

def k0_off89 (i : grid0.Coords) : Fin 1 → Nat :=
  let arg0 : BitVec 32 := BitVec.ofNat 32 (i 0).val
  let c128_i32_307 : BitVec 32 := 128#32
  let v440 : BitVec 32 := Scalar.muli arg0 c128_i32_307
  let c44_i32 : BitVec 32 := 44#32
  let v441 : BitVec 32 := Scalar.addi v440 c44_i32
  let v442 : Index := Scalar.indexCast v441
  ![v442.toNat]
def k0_off90 (v443 : BitVec 32) : Fin 3 → Nat :=
  let c0_i32_312 : BitVec 32 := 0#32
  let c0_i32_313 : BitVec 32 := 0#32
  ![v443.toNat, 0, 0]

def k0_chk45 (v443 : BitVec 32) : Prop :=
  (∀ a, (k0_off90 v443) a + S1x8x1024.size a ≤ S10000x8x1024.size a)
instance k0_chk45.dec : ∀ (v443 : BitVec 32), Decidable (k0_chk45 v443) := fun v443 => decidable_of_iff' _ (Iff.of_eq (k0_chk45.eq_1 v443))
theorem k0_off90_inb : ∀ (v443 : BitVec 32) (k0_hw45 : k0_chk45 v443), ∀ a, (k0_off90 v443) a + S1x8x1024.size a ≤ S10000x8x1024.size a := fun v443 k0_hw45 => k0_hw45

def k0_off91 (i : grid0.Coords) : Fin 1 → Nat :=
  let arg0 : BitVec 32 := BitVec.ofNat 32 (i 0).val
  let c128_i32_314 : BitVec 32 := 128#32
  let v450 : BitVec 32 := Scalar.muli arg0 c128_i32_314
  let c45_i32 : BitVec 32 := 45#32
  let v451 : BitVec 32 := Scalar.addi v450 c45_i32
  let v452 : Index := Scalar.indexCast v451
  ![v452.toNat]
def k0_off92 (v453 : BitVec 32) : Fin 3 → Nat :=
  let c0_i32_319 : BitVec 32 := 0#32
  let c0_i32_320 : BitVec 32 := 0#32
  ![v453.toNat, 0, 0]

def k0_chk46 (v453 : BitVec 32) : Prop :=
  (∀ a, (k0_off92 v453) a + S1x8x1024.size a ≤ S10000x8x1024.size a)
instance k0_chk46.dec : ∀ (v453 : BitVec 32), Decidable (k0_chk46 v453) := fun v453 => decidable_of_iff' _ (Iff.of_eq (k0_chk46.eq_1 v453))
theorem k0_off92_inb : ∀ (v453 : BitVec 32) (k0_hw46 : k0_chk46 v453), ∀ a, (k0_off92 v453) a + S1x8x1024.size a ≤ S10000x8x1024.size a := fun v453 k0_hw46 => k0_hw46

def k0_off93 (i : grid0.Coords) : Fin 1 → Nat :=
  let arg0 : BitVec 32 := BitVec.ofNat 32 (i 0).val
  let c128_i32_321 : BitVec 32 := 128#32
  let v460 : BitVec 32 := Scalar.muli arg0 c128_i32_321
  let c46_i32 : BitVec 32 := 46#32
  let v461 : BitVec 32 := Scalar.addi v460 c46_i32
  let v462 : Index := Scalar.indexCast v461
  ![v462.toNat]
def k0_off94 (v463 : BitVec 32) : Fin 3 → Nat :=
  let c0_i32_326 : BitVec 32 := 0#32
  let c0_i32_327 : BitVec 32 := 0#32
  ![v463.toNat, 0, 0]

def k0_chk47 (v463 : BitVec 32) : Prop :=
  (∀ a, (k0_off94 v463) a + S1x8x1024.size a ≤ S10000x8x1024.size a)
instance k0_chk47.dec : ∀ (v463 : BitVec 32), Decidable (k0_chk47 v463) := fun v463 => decidable_of_iff' _ (Iff.of_eq (k0_chk47.eq_1 v463))
theorem k0_off94_inb : ∀ (v463 : BitVec 32) (k0_hw47 : k0_chk47 v463), ∀ a, (k0_off94 v463) a + S1x8x1024.size a ≤ S10000x8x1024.size a := fun v463 k0_hw47 => k0_hw47

def k0_off95 (i : grid0.Coords) : Fin 1 → Nat :=
  let arg0 : BitVec 32 := BitVec.ofNat 32 (i 0).val
  let c128_i32_328 : BitVec 32 := 128#32
  let v470 : BitVec 32 := Scalar.muli arg0 c128_i32_328
  let c47_i32 : BitVec 32 := 47#32
  let v471 : BitVec 32 := Scalar.addi v470 c47_i32
  let v472 : Index := Scalar.indexCast v471
  ![v472.toNat]
def k0_off96 (v473 : BitVec 32) : Fin 3 → Nat :=
  let c0_i32_333 : BitVec 32 := 0#32
  let c0_i32_334 : BitVec 32 := 0#32
  ![v473.toNat, 0, 0]

def k0_chk48 (v473 : BitVec 32) : Prop :=
  (∀ a, (k0_off96 v473) a + S1x8x1024.size a ≤ S10000x8x1024.size a)
instance k0_chk48.dec : ∀ (v473 : BitVec 32), Decidable (k0_chk48 v473) := fun v473 => decidable_of_iff' _ (Iff.of_eq (k0_chk48.eq_1 v473))
theorem k0_off96_inb : ∀ (v473 : BitVec 32) (k0_hw48 : k0_chk48 v473), ∀ a, (k0_off96 v473) a + S1x8x1024.size a ≤ S10000x8x1024.size a := fun v473 k0_hw48 => k0_hw48

def k0_off97 (i : grid0.Coords) : Fin 1 → Nat :=
  let arg0 : BitVec 32 := BitVec.ofNat 32 (i 0).val
  let c128_i32_335 : BitVec 32 := 128#32
  let v480 : BitVec 32 := Scalar.muli arg0 c128_i32_335
  let c48_i32 : BitVec 32 := 48#32
  let v481 : BitVec 32 := Scalar.addi v480 c48_i32
  let v482 : Index := Scalar.indexCast v481
  ![v482.toNat]
def k0_off98 (v483 : BitVec 32) : Fin 3 → Nat :=
  let c0_i32_340 : BitVec 32 := 0#32
  let c0_i32_341 : BitVec 32 := 0#32
  ![v483.toNat, 0, 0]

def k0_chk49 (v483 : BitVec 32) : Prop :=
  (∀ a, (k0_off98 v483) a + S1x8x1024.size a ≤ S10000x8x1024.size a)
instance k0_chk49.dec : ∀ (v483 : BitVec 32), Decidable (k0_chk49 v483) := fun v483 => decidable_of_iff' _ (Iff.of_eq (k0_chk49.eq_1 v483))
theorem k0_off98_inb : ∀ (v483 : BitVec 32) (k0_hw49 : k0_chk49 v483), ∀ a, (k0_off98 v483) a + S1x8x1024.size a ≤ S10000x8x1024.size a := fun v483 k0_hw49 => k0_hw49

def k0_off99 (i : grid0.Coords) : Fin 1 → Nat :=
  let arg0 : BitVec 32 := BitVec.ofNat 32 (i 0).val
  let c128_i32_342 : BitVec 32 := 128#32
  let v490 : BitVec 32 := Scalar.muli arg0 c128_i32_342
  let c49_i32 : BitVec 32 := 49#32
  let v491 : BitVec 32 := Scalar.addi v490 c49_i32
  let v492 : Index := Scalar.indexCast v491
  ![v492.toNat]
def k0_off100 (v493 : BitVec 32) : Fin 3 → Nat :=
  let c0_i32_347 : BitVec 32 := 0#32
  let c0_i32_348 : BitVec 32 := 0#32
  ![v493.toNat, 0, 0]

def k0_chk50 (v493 : BitVec 32) : Prop :=
  (∀ a, (k0_off100 v493) a + S1x8x1024.size a ≤ S10000x8x1024.size a)
instance k0_chk50.dec : ∀ (v493 : BitVec 32), Decidable (k0_chk50 v493) := fun v493 => decidable_of_iff' _ (Iff.of_eq (k0_chk50.eq_1 v493))
theorem k0_off100_inb : ∀ (v493 : BitVec 32) (k0_hw50 : k0_chk50 v493), ∀ a, (k0_off100 v493) a + S1x8x1024.size a ≤ S10000x8x1024.size a := fun v493 k0_hw50 => k0_hw50

def k0_off101 (i : grid0.Coords) : Fin 1 → Nat :=
  let arg0 : BitVec 32 := BitVec.ofNat 32 (i 0).val
  let c128_i32_349 : BitVec 32 := 128#32
  let v500 : BitVec 32 := Scalar.muli arg0 c128_i32_349
  let c50_i32 : BitVec 32 := 50#32
  let v501 : BitVec 32 := Scalar.addi v500 c50_i32
  let v502 : Index := Scalar.indexCast v501
  ![v502.toNat]
def k0_off102 (v503 : BitVec 32) : Fin 3 → Nat :=
  let c0_i32_354 : BitVec 32 := 0#32
  let c0_i32_355 : BitVec 32 := 0#32
  ![v503.toNat, 0, 0]

def k0_chk51 (v503 : BitVec 32) : Prop :=
  (∀ a, (k0_off102 v503) a + S1x8x1024.size a ≤ S10000x8x1024.size a)
instance k0_chk51.dec : ∀ (v503 : BitVec 32), Decidable (k0_chk51 v503) := fun v503 => decidable_of_iff' _ (Iff.of_eq (k0_chk51.eq_1 v503))
theorem k0_off102_inb : ∀ (v503 : BitVec 32) (k0_hw51 : k0_chk51 v503), ∀ a, (k0_off102 v503) a + S1x8x1024.size a ≤ S10000x8x1024.size a := fun v503 k0_hw51 => k0_hw51

def k0_off103 (i : grid0.Coords) : Fin 1 → Nat :=
  let arg0 : BitVec 32 := BitVec.ofNat 32 (i 0).val
  let c128_i32_356 : BitVec 32 := 128#32
  let v510 : BitVec 32 := Scalar.muli arg0 c128_i32_356
  let c51_i32 : BitVec 32 := 51#32
  let v511 : BitVec 32 := Scalar.addi v510 c51_i32
  let v512 : Index := Scalar.indexCast v511
  ![v512.toNat]
def k0_off104 (v513 : BitVec 32) : Fin 3 → Nat :=
  let c0_i32_361 : BitVec 32 := 0#32
  let c0_i32_362 : BitVec 32 := 0#32
  ![v513.toNat, 0, 0]

def k0_chk52 (v513 : BitVec 32) : Prop :=
  (∀ a, (k0_off104 v513) a + S1x8x1024.size a ≤ S10000x8x1024.size a)
instance k0_chk52.dec : ∀ (v513 : BitVec 32), Decidable (k0_chk52 v513) := fun v513 => decidable_of_iff' _ (Iff.of_eq (k0_chk52.eq_1 v513))
theorem k0_off104_inb : ∀ (v513 : BitVec 32) (k0_hw52 : k0_chk52 v513), ∀ a, (k0_off104 v513) a + S1x8x1024.size a ≤ S10000x8x1024.size a := fun v513 k0_hw52 => k0_hw52

def k0_off105 (i : grid0.Coords) : Fin 1 → Nat :=
  let arg0 : BitVec 32 := BitVec.ofNat 32 (i 0).val
  let c128_i32_363 : BitVec 32 := 128#32
  let v520 : BitVec 32 := Scalar.muli arg0 c128_i32_363
  let c52_i32 : BitVec 32 := 52#32
  let v521 : BitVec 32 := Scalar.addi v520 c52_i32
  let v522 : Index := Scalar.indexCast v521
  ![v522.toNat]
def k0_off106 (v523 : BitVec 32) : Fin 3 → Nat :=
  let c0_i32_368 : BitVec 32 := 0#32
  let c0_i32_369 : BitVec 32 := 0#32
  ![v523.toNat, 0, 0]

def k0_chk53 (v523 : BitVec 32) : Prop :=
  (∀ a, (k0_off106 v523) a + S1x8x1024.size a ≤ S10000x8x1024.size a)
instance k0_chk53.dec : ∀ (v523 : BitVec 32), Decidable (k0_chk53 v523) := fun v523 => decidable_of_iff' _ (Iff.of_eq (k0_chk53.eq_1 v523))
theorem k0_off106_inb : ∀ (v523 : BitVec 32) (k0_hw53 : k0_chk53 v523), ∀ a, (k0_off106 v523) a + S1x8x1024.size a ≤ S10000x8x1024.size a := fun v523 k0_hw53 => k0_hw53

def k0_off107 (i : grid0.Coords) : Fin 1 → Nat :=
  let arg0 : BitVec 32 := BitVec.ofNat 32 (i 0).val
  let c128_i32_370 : BitVec 32 := 128#32
  let v530 : BitVec 32 := Scalar.muli arg0 c128_i32_370
  let c53_i32 : BitVec 32 := 53#32
  let v531 : BitVec 32 := Scalar.addi v530 c53_i32
  let v532 : Index := Scalar.indexCast v531
  ![v532.toNat]
def k0_off108 (v533 : BitVec 32) : Fin 3 → Nat :=
  let c0_i32_375 : BitVec 32 := 0#32
  let c0_i32_376 : BitVec 32 := 0#32
  ![v533.toNat, 0, 0]

def k0_chk54 (v533 : BitVec 32) : Prop :=
  (∀ a, (k0_off108 v533) a + S1x8x1024.size a ≤ S10000x8x1024.size a)
instance k0_chk54.dec : ∀ (v533 : BitVec 32), Decidable (k0_chk54 v533) := fun v533 => decidable_of_iff' _ (Iff.of_eq (k0_chk54.eq_1 v533))
theorem k0_off108_inb : ∀ (v533 : BitVec 32) (k0_hw54 : k0_chk54 v533), ∀ a, (k0_off108 v533) a + S1x8x1024.size a ≤ S10000x8x1024.size a := fun v533 k0_hw54 => k0_hw54

def k0_off109 (i : grid0.Coords) : Fin 1 → Nat :=
  let arg0 : BitVec 32 := BitVec.ofNat 32 (i 0).val
  let c128_i32_377 : BitVec 32 := 128#32
  let v540 : BitVec 32 := Scalar.muli arg0 c128_i32_377
  let c54_i32 : BitVec 32 := 54#32
  let v541 : BitVec 32 := Scalar.addi v540 c54_i32
  let v542 : Index := Scalar.indexCast v541
  ![v542.toNat]
def k0_off110 (v543 : BitVec 32) : Fin 3 → Nat :=
  let c0_i32_382 : BitVec 32 := 0#32
  let c0_i32_383 : BitVec 32 := 0#32
  ![v543.toNat, 0, 0]

def k0_chk55 (v543 : BitVec 32) : Prop :=
  (∀ a, (k0_off110 v543) a + S1x8x1024.size a ≤ S10000x8x1024.size a)
instance k0_chk55.dec : ∀ (v543 : BitVec 32), Decidable (k0_chk55 v543) := fun v543 => decidable_of_iff' _ (Iff.of_eq (k0_chk55.eq_1 v543))
theorem k0_off110_inb : ∀ (v543 : BitVec 32) (k0_hw55 : k0_chk55 v543), ∀ a, (k0_off110 v543) a + S1x8x1024.size a ≤ S10000x8x1024.size a := fun v543 k0_hw55 => k0_hw55

def k0_off111 (i : grid0.Coords) : Fin 1 → Nat :=
  let arg0 : BitVec 32 := BitVec.ofNat 32 (i 0).val
  let c128_i32_384 : BitVec 32 := 128#32
  let v550 : BitVec 32 := Scalar.muli arg0 c128_i32_384
  let c55_i32 : BitVec 32 := 55#32
  let v551 : BitVec 32 := Scalar.addi v550 c55_i32
  let v552 : Index := Scalar.indexCast v551
  ![v552.toNat]
def k0_off112 (v553 : BitVec 32) : Fin 3 → Nat :=
  let c0_i32_389 : BitVec 32 := 0#32
  let c0_i32_390 : BitVec 32 := 0#32
  ![v553.toNat, 0, 0]

def k0_chk56 (v553 : BitVec 32) : Prop :=
  (∀ a, (k0_off112 v553) a + S1x8x1024.size a ≤ S10000x8x1024.size a)
instance k0_chk56.dec : ∀ (v553 : BitVec 32), Decidable (k0_chk56 v553) := fun v553 => decidable_of_iff' _ (Iff.of_eq (k0_chk56.eq_1 v553))
theorem k0_off112_inb : ∀ (v553 : BitVec 32) (k0_hw56 : k0_chk56 v553), ∀ a, (k0_off112 v553) a + S1x8x1024.size a ≤ S10000x8x1024.size a := fun v553 k0_hw56 => k0_hw56

def k0_off113 (i : grid0.Coords) : Fin 1 → Nat :=
  let arg0 : BitVec 32 := BitVec.ofNat 32 (i 0).val
  let c128_i32_391 : BitVec 32 := 128#32
  let v560 : BitVec 32 := Scalar.muli arg0 c128_i32_391
  let c56_i32 : BitVec 32 := 56#32
  let v561 : BitVec 32 := Scalar.addi v560 c56_i32
  let v562 : Index := Scalar.indexCast v561
  ![v562.toNat]
def k0_off114 (v563 : BitVec 32) : Fin 3 → Nat :=
  let c0_i32_396 : BitVec 32 := 0#32
  let c0_i32_397 : BitVec 32 := 0#32
  ![v563.toNat, 0, 0]

def k0_chk57 (v563 : BitVec 32) : Prop :=
  (∀ a, (k0_off114 v563) a + S1x8x1024.size a ≤ S10000x8x1024.size a)
instance k0_chk57.dec : ∀ (v563 : BitVec 32), Decidable (k0_chk57 v563) := fun v563 => decidable_of_iff' _ (Iff.of_eq (k0_chk57.eq_1 v563))
theorem k0_off114_inb : ∀ (v563 : BitVec 32) (k0_hw57 : k0_chk57 v563), ∀ a, (k0_off114 v563) a + S1x8x1024.size a ≤ S10000x8x1024.size a := fun v563 k0_hw57 => k0_hw57

def k0_off115 (i : grid0.Coords) : Fin 1 → Nat :=
  let arg0 : BitVec 32 := BitVec.ofNat 32 (i 0).val
  let c128_i32_398 : BitVec 32 := 128#32
  let v570 : BitVec 32 := Scalar.muli arg0 c128_i32_398
  let c57_i32 : BitVec 32 := 57#32
  let v571 : BitVec 32 := Scalar.addi v570 c57_i32
  let v572 : Index := Scalar.indexCast v571
  ![v572.toNat]
def k0_off116 (v573 : BitVec 32) : Fin 3 → Nat :=
  let c0_i32_403 : BitVec 32 := 0#32
  let c0_i32_404 : BitVec 32 := 0#32
  ![v573.toNat, 0, 0]

def k0_chk58 (v573 : BitVec 32) : Prop :=
  (∀ a, (k0_off116 v573) a + S1x8x1024.size a ≤ S10000x8x1024.size a)
instance k0_chk58.dec : ∀ (v573 : BitVec 32), Decidable (k0_chk58 v573) := fun v573 => decidable_of_iff' _ (Iff.of_eq (k0_chk58.eq_1 v573))
theorem k0_off116_inb : ∀ (v573 : BitVec 32) (k0_hw58 : k0_chk58 v573), ∀ a, (k0_off116 v573) a + S1x8x1024.size a ≤ S10000x8x1024.size a := fun v573 k0_hw58 => k0_hw58

def k0_off117 (i : grid0.Coords) : Fin 1 → Nat :=
  let arg0 : BitVec 32 := BitVec.ofNat 32 (i 0).val
  let c128_i32_405 : BitVec 32 := 128#32
  let v580 : BitVec 32 := Scalar.muli arg0 c128_i32_405
  let c58_i32 : BitVec 32 := 58#32
  let v581 : BitVec 32 := Scalar.addi v580 c58_i32
  let v582 : Index := Scalar.indexCast v581
  ![v582.toNat]
def k0_off118 (v583 : BitVec 32) : Fin 3 → Nat :=
  let c0_i32_410 : BitVec 32 := 0#32
  let c0_i32_411 : BitVec 32 := 0#32
  ![v583.toNat, 0, 0]

def k0_chk59 (v583 : BitVec 32) : Prop :=
  (∀ a, (k0_off118 v583) a + S1x8x1024.size a ≤ S10000x8x1024.size a)
instance k0_chk59.dec : ∀ (v583 : BitVec 32), Decidable (k0_chk59 v583) := fun v583 => decidable_of_iff' _ (Iff.of_eq (k0_chk59.eq_1 v583))
theorem k0_off118_inb : ∀ (v583 : BitVec 32) (k0_hw59 : k0_chk59 v583), ∀ a, (k0_off118 v583) a + S1x8x1024.size a ≤ S10000x8x1024.size a := fun v583 k0_hw59 => k0_hw59

def k0_off119 (i : grid0.Coords) : Fin 1 → Nat :=
  let arg0 : BitVec 32 := BitVec.ofNat 32 (i 0).val
  let c128_i32_412 : BitVec 32 := 128#32
  let v590 : BitVec 32 := Scalar.muli arg0 c128_i32_412
  let c59_i32 : BitVec 32 := 59#32
  let v591 : BitVec 32 := Scalar.addi v590 c59_i32
  let v592 : Index := Scalar.indexCast v591
  ![v592.toNat]
def k0_off120 (v593 : BitVec 32) : Fin 3 → Nat :=
  let c0_i32_417 : BitVec 32 := 0#32
  let c0_i32_418 : BitVec 32 := 0#32
  ![v593.toNat, 0, 0]

def k0_chk60 (v593 : BitVec 32) : Prop :=
  (∀ a, (k0_off120 v593) a + S1x8x1024.size a ≤ S10000x8x1024.size a)
instance k0_chk60.dec : ∀ (v593 : BitVec 32), Decidable (k0_chk60 v593) := fun v593 => decidable_of_iff' _ (Iff.of_eq (k0_chk60.eq_1 v593))
theorem k0_off120_inb : ∀ (v593 : BitVec 32) (k0_hw60 : k0_chk60 v593), ∀ a, (k0_off120 v593) a + S1x8x1024.size a ≤ S10000x8x1024.size a := fun v593 k0_hw60 => k0_hw60

def k0_off121 (i : grid0.Coords) : Fin 1 → Nat :=
  let arg0 : BitVec 32 := BitVec.ofNat 32 (i 0).val
  let c128_i32_419 : BitVec 32 := 128#32
  let v600 : BitVec 32 := Scalar.muli arg0 c128_i32_419
  let c60_i32 : BitVec 32 := 60#32
  let v601 : BitVec 32 := Scalar.addi v600 c60_i32
  let v602 : Index := Scalar.indexCast v601
  ![v602.toNat]
def k0_off122 (v603 : BitVec 32) : Fin 3 → Nat :=
  let c0_i32_424 : BitVec 32 := 0#32
  let c0_i32_425 : BitVec 32 := 0#32
  ![v603.toNat, 0, 0]

def k0_chk61 (v603 : BitVec 32) : Prop :=
  (∀ a, (k0_off122 v603) a + S1x8x1024.size a ≤ S10000x8x1024.size a)
instance k0_chk61.dec : ∀ (v603 : BitVec 32), Decidable (k0_chk61 v603) := fun v603 => decidable_of_iff' _ (Iff.of_eq (k0_chk61.eq_1 v603))
theorem k0_off122_inb : ∀ (v603 : BitVec 32) (k0_hw61 : k0_chk61 v603), ∀ a, (k0_off122 v603) a + S1x8x1024.size a ≤ S10000x8x1024.size a := fun v603 k0_hw61 => k0_hw61

def k0_off123 (i : grid0.Coords) : Fin 1 → Nat :=
  let arg0 : BitVec 32 := BitVec.ofNat 32 (i 0).val
  let c128_i32_426 : BitVec 32 := 128#32
  let v610 : BitVec 32 := Scalar.muli arg0 c128_i32_426
  let c61_i32 : BitVec 32 := 61#32
  let v611 : BitVec 32 := Scalar.addi v610 c61_i32
  let v612 : Index := Scalar.indexCast v611
  ![v612.toNat]
def k0_off124 (v613 : BitVec 32) : Fin 3 → Nat :=
  let c0_i32_431 : BitVec 32 := 0#32
  let c0_i32_432 : BitVec 32 := 0#32
  ![v613.toNat, 0, 0]

def k0_chk62 (v613 : BitVec 32) : Prop :=
  (∀ a, (k0_off124 v613) a + S1x8x1024.size a ≤ S10000x8x1024.size a)
instance k0_chk62.dec : ∀ (v613 : BitVec 32), Decidable (k0_chk62 v613) := fun v613 => decidable_of_iff' _ (Iff.of_eq (k0_chk62.eq_1 v613))
theorem k0_off124_inb : ∀ (v613 : BitVec 32) (k0_hw62 : k0_chk62 v613), ∀ a, (k0_off124 v613) a + S1x8x1024.size a ≤ S10000x8x1024.size a := fun v613 k0_hw62 => k0_hw62

def k0_off125 (i : grid0.Coords) : Fin 1 → Nat :=
  let arg0 : BitVec 32 := BitVec.ofNat 32 (i 0).val
  let c128_i32_433 : BitVec 32 := 128#32
  let v620 : BitVec 32 := Scalar.muli arg0 c128_i32_433
  let c62_i32 : BitVec 32 := 62#32
  let v621 : BitVec 32 := Scalar.addi v620 c62_i32
  let v622 : Index := Scalar.indexCast v621
  ![v622.toNat]
def k0_off126 (v623 : BitVec 32) : Fin 3 → Nat :=
  let c0_i32_438 : BitVec 32 := 0#32
  let c0_i32_439 : BitVec 32 := 0#32
  ![v623.toNat, 0, 0]

def k0_chk63 (v623 : BitVec 32) : Prop :=
  (∀ a, (k0_off126 v623) a + S1x8x1024.size a ≤ S10000x8x1024.size a)
instance k0_chk63.dec : ∀ (v623 : BitVec 32), Decidable (k0_chk63 v623) := fun v623 => decidable_of_iff' _ (Iff.of_eq (k0_chk63.eq_1 v623))
theorem k0_off126_inb : ∀ (v623 : BitVec 32) (k0_hw63 : k0_chk63 v623), ∀ a, (k0_off126 v623) a + S1x8x1024.size a ≤ S10000x8x1024.size a := fun v623 k0_hw63 => k0_hw63

def k0_off127 (i : grid0.Coords) : Fin 1 → Nat :=
  let arg0 : BitVec 32 := BitVec.ofNat 32 (i 0).val
  let c128_i32_440 : BitVec 32 := 128#32
  let v630 : BitVec 32 := Scalar.muli arg0 c128_i32_440
  let c63_i32 : BitVec 32 := 63#32
  let v631 : BitVec 32 := Scalar.addi v630 c63_i32
  let v632 : Index := Scalar.indexCast v631
  ![v632.toNat]
def k0_off128 (v633 : BitVec 32) : Fin 3 → Nat :=
  let c0_i32_445 : BitVec 32 := 0#32
  let c0_i32_446 : BitVec 32 := 0#32
  ![v633.toNat, 0, 0]

def k0_chk64 (v633 : BitVec 32) : Prop :=
  (∀ a, (k0_off128 v633) a + S1x8x1024.size a ≤ S10000x8x1024.size a)
instance k0_chk64.dec : ∀ (v633 : BitVec 32), Decidable (k0_chk64 v633) := fun v633 => decidable_of_iff' _ (Iff.of_eq (k0_chk64.eq_1 v633))
theorem k0_off128_inb : ∀ (v633 : BitVec 32) (k0_hw64 : k0_chk64 v633), ∀ a, (k0_off128 v633) a + S1x8x1024.size a ≤ S10000x8x1024.size a := fun v633 k0_hw64 => k0_hw64

def k0_off129 (i : grid0.Coords) : Fin 1 → Nat :=
  let arg0 : BitVec 32 := BitVec.ofNat 32 (i 0).val
  let c128_i32_447 : BitVec 32 := 128#32
  let v640 : BitVec 32 := Scalar.muli arg0 c128_i32_447
  let c64_i32 : BitVec 32 := 64#32
  let v641 : BitVec 32 := Scalar.addi v640 c64_i32
  let v642 : Index := Scalar.indexCast v641
  ![v642.toNat]
def k0_off130 (v643 : BitVec 32) : Fin 3 → Nat :=
  let c0_i32_452 : BitVec 32 := 0#32
  let c0_i32_453 : BitVec 32 := 0#32
  ![v643.toNat, 0, 0]

def k0_chk65 (v643 : BitVec 32) : Prop :=
  (∀ a, (k0_off130 v643) a + S1x8x1024.size a ≤ S10000x8x1024.size a)
instance k0_chk65.dec : ∀ (v643 : BitVec 32), Decidable (k0_chk65 v643) := fun v643 => decidable_of_iff' _ (Iff.of_eq (k0_chk65.eq_1 v643))
theorem k0_off130_inb : ∀ (v643 : BitVec 32) (k0_hw65 : k0_chk65 v643), ∀ a, (k0_off130 v643) a + S1x8x1024.size a ≤ S10000x8x1024.size a := fun v643 k0_hw65 => k0_hw65

def k0_off131 (i : grid0.Coords) : Fin 1 → Nat :=
  let arg0 : BitVec 32 := BitVec.ofNat 32 (i 0).val
  let c128_i32_454 : BitVec 32 := 128#32
  let v650 : BitVec 32 := Scalar.muli arg0 c128_i32_454
  let c65_i32 : BitVec 32 := 65#32
  let v651 : BitVec 32 := Scalar.addi v650 c65_i32
  let v652 : Index := Scalar.indexCast v651
  ![v652.toNat]
def k0_off132 (v653 : BitVec 32) : Fin 3 → Nat :=
  let c0_i32_459 : BitVec 32 := 0#32
  let c0_i32_460 : BitVec 32 := 0#32
  ![v653.toNat, 0, 0]

def k0_chk66 (v653 : BitVec 32) : Prop :=
  (∀ a, (k0_off132 v653) a + S1x8x1024.size a ≤ S10000x8x1024.size a)
instance k0_chk66.dec : ∀ (v653 : BitVec 32), Decidable (k0_chk66 v653) := fun v653 => decidable_of_iff' _ (Iff.of_eq (k0_chk66.eq_1 v653))
theorem k0_off132_inb : ∀ (v653 : BitVec 32) (k0_hw66 : k0_chk66 v653), ∀ a, (k0_off132 v653) a + S1x8x1024.size a ≤ S10000x8x1024.size a := fun v653 k0_hw66 => k0_hw66

def k0_off133 (i : grid0.Coords) : Fin 1 → Nat :=
  let arg0 : BitVec 32 := BitVec.ofNat 32 (i 0).val
  let c128_i32_461 : BitVec 32 := 128#32
  let v660 : BitVec 32 := Scalar.muli arg0 c128_i32_461
  let c66_i32 : BitVec 32 := 66#32
  let v661 : BitVec 32 := Scalar.addi v660 c66_i32
  let v662 : Index := Scalar.indexCast v661
  ![v662.toNat]
def k0_off134 (v663 : BitVec 32) : Fin 3 → Nat :=
  let c0_i32_466 : BitVec 32 := 0#32
  let c0_i32_467 : BitVec 32 := 0#32
  ![v663.toNat, 0, 0]

def k0_chk67 (v663 : BitVec 32) : Prop :=
  (∀ a, (k0_off134 v663) a + S1x8x1024.size a ≤ S10000x8x1024.size a)
instance k0_chk67.dec : ∀ (v663 : BitVec 32), Decidable (k0_chk67 v663) := fun v663 => decidable_of_iff' _ (Iff.of_eq (k0_chk67.eq_1 v663))
theorem k0_off134_inb : ∀ (v663 : BitVec 32) (k0_hw67 : k0_chk67 v663), ∀ a, (k0_off134 v663) a + S1x8x1024.size a ≤ S10000x8x1024.size a := fun v663 k0_hw67 => k0_hw67

def k0_off135 (i : grid0.Coords) : Fin 1 → Nat :=
  let arg0 : BitVec 32 := BitVec.ofNat 32 (i 0).val
  let c128_i32_468 : BitVec 32 := 128#32
  let v670 : BitVec 32 := Scalar.muli arg0 c128_i32_468
  let c67_i32 : BitVec 32 := 67#32
  let v671 : BitVec 32 := Scalar.addi v670 c67_i32
  let v672 : Index := Scalar.indexCast v671
  ![v672.toNat]
def k0_off136 (v673 : BitVec 32) : Fin 3 → Nat :=
  let c0_i32_473 : BitVec 32 := 0#32
  let c0_i32_474 : BitVec 32 := 0#32
  ![v673.toNat, 0, 0]

def k0_chk68 (v673 : BitVec 32) : Prop :=
  (∀ a, (k0_off136 v673) a + S1x8x1024.size a ≤ S10000x8x1024.size a)
instance k0_chk68.dec : ∀ (v673 : BitVec 32), Decidable (k0_chk68 v673) := fun v673 => decidable_of_iff' _ (Iff.of_eq (k0_chk68.eq_1 v673))
theorem k0_off136_inb : ∀ (v673 : BitVec 32) (k0_hw68 : k0_chk68 v673), ∀ a, (k0_off136 v673) a + S1x8x1024.size a ≤ S10000x8x1024.size a := fun v673 k0_hw68 => k0_hw68

def k0_off137 (i : grid0.Coords) : Fin 1 → Nat :=
  let arg0 : BitVec 32 := BitVec.ofNat 32 (i 0).val
  let c128_i32_475 : BitVec 32 := 128#32
  let v680 : BitVec 32 := Scalar.muli arg0 c128_i32_475
  let c68_i32 : BitVec 32 := 68#32
  let v681 : BitVec 32 := Scalar.addi v680 c68_i32
  let v682 : Index := Scalar.indexCast v681
  ![v682.toNat]
def k0_off138 (v683 : BitVec 32) : Fin 3 → Nat :=
  let c0_i32_480 : BitVec 32 := 0#32
  let c0_i32_481 : BitVec 32 := 0#32
  ![v683.toNat, 0, 0]

def k0_chk69 (v683 : BitVec 32) : Prop :=
  (∀ a, (k0_off138 v683) a + S1x8x1024.size a ≤ S10000x8x1024.size a)
instance k0_chk69.dec : ∀ (v683 : BitVec 32), Decidable (k0_chk69 v683) := fun v683 => decidable_of_iff' _ (Iff.of_eq (k0_chk69.eq_1 v683))
theorem k0_off138_inb : ∀ (v683 : BitVec 32) (k0_hw69 : k0_chk69 v683), ∀ a, (k0_off138 v683) a + S1x8x1024.size a ≤ S10000x8x1024.size a := fun v683 k0_hw69 => k0_hw69

def k0_off139 (i : grid0.Coords) : Fin 1 → Nat :=
  let arg0 : BitVec 32 := BitVec.ofNat 32 (i 0).val
  let c128_i32_482 : BitVec 32 := 128#32
  let v690 : BitVec 32 := Scalar.muli arg0 c128_i32_482
  let c69_i32 : BitVec 32 := 69#32
  let v691 : BitVec 32 := Scalar.addi v690 c69_i32
  let v692 : Index := Scalar.indexCast v691
  ![v692.toNat]
def k0_off140 (v693 : BitVec 32) : Fin 3 → Nat :=
  let c0_i32_487 : BitVec 32 := 0#32
  let c0_i32_488 : BitVec 32 := 0#32
  ![v693.toNat, 0, 0]

def k0_chk70 (v693 : BitVec 32) : Prop :=
  (∀ a, (k0_off140 v693) a + S1x8x1024.size a ≤ S10000x8x1024.size a)
instance k0_chk70.dec : ∀ (v693 : BitVec 32), Decidable (k0_chk70 v693) := fun v693 => decidable_of_iff' _ (Iff.of_eq (k0_chk70.eq_1 v693))
theorem k0_off140_inb : ∀ (v693 : BitVec 32) (k0_hw70 : k0_chk70 v693), ∀ a, (k0_off140 v693) a + S1x8x1024.size a ≤ S10000x8x1024.size a := fun v693 k0_hw70 => k0_hw70

def k0_off141 (i : grid0.Coords) : Fin 1 → Nat :=
  let arg0 : BitVec 32 := BitVec.ofNat 32 (i 0).val
  let c128_i32_489 : BitVec 32 := 128#32
  let v700 : BitVec 32 := Scalar.muli arg0 c128_i32_489
  let c70_i32 : BitVec 32 := 70#32
  let v701 : BitVec 32 := Scalar.addi v700 c70_i32
  let v702 : Index := Scalar.indexCast v701
  ![v702.toNat]
def k0_off142 (v703 : BitVec 32) : Fin 3 → Nat :=
  let c0_i32_494 : BitVec 32 := 0#32
  let c0_i32_495 : BitVec 32 := 0#32
  ![v703.toNat, 0, 0]

def k0_chk71 (v703 : BitVec 32) : Prop :=
  (∀ a, (k0_off142 v703) a + S1x8x1024.size a ≤ S10000x8x1024.size a)
instance k0_chk71.dec : ∀ (v703 : BitVec 32), Decidable (k0_chk71 v703) := fun v703 => decidable_of_iff' _ (Iff.of_eq (k0_chk71.eq_1 v703))
theorem k0_off142_inb : ∀ (v703 : BitVec 32) (k0_hw71 : k0_chk71 v703), ∀ a, (k0_off142 v703) a + S1x8x1024.size a ≤ S10000x8x1024.size a := fun v703 k0_hw71 => k0_hw71

def k0_off143 (i : grid0.Coords) : Fin 1 → Nat :=
  let arg0 : BitVec 32 := BitVec.ofNat 32 (i 0).val
  let c128_i32_496 : BitVec 32 := 128#32
  let v710 : BitVec 32 := Scalar.muli arg0 c128_i32_496
  let c71_i32 : BitVec 32 := 71#32
  let v711 : BitVec 32 := Scalar.addi v710 c71_i32
  let v712 : Index := Scalar.indexCast v711
  ![v712.toNat]
def k0_off144 (v713 : BitVec 32) : Fin 3 → Nat :=
  let c0_i32_501 : BitVec 32 := 0#32
  let c0_i32_502 : BitVec 32 := 0#32
  ![v713.toNat, 0, 0]

def k0_chk72 (v713 : BitVec 32) : Prop :=
  (∀ a, (k0_off144 v713) a + S1x8x1024.size a ≤ S10000x8x1024.size a)
instance k0_chk72.dec : ∀ (v713 : BitVec 32), Decidable (k0_chk72 v713) := fun v713 => decidable_of_iff' _ (Iff.of_eq (k0_chk72.eq_1 v713))
theorem k0_off144_inb : ∀ (v713 : BitVec 32) (k0_hw72 : k0_chk72 v713), ∀ a, (k0_off144 v713) a + S1x8x1024.size a ≤ S10000x8x1024.size a := fun v713 k0_hw72 => k0_hw72

def k0_off145 (i : grid0.Coords) : Fin 1 → Nat :=
  let arg0 : BitVec 32 := BitVec.ofNat 32 (i 0).val
  let c128_i32_503 : BitVec 32 := 128#32
  let v720 : BitVec 32 := Scalar.muli arg0 c128_i32_503
  let c72_i32 : BitVec 32 := 72#32
  let v721 : BitVec 32 := Scalar.addi v720 c72_i32
  let v722 : Index := Scalar.indexCast v721
  ![v722.toNat]
def k0_off146 (v723 : BitVec 32) : Fin 3 → Nat :=
  let c0_i32_508 : BitVec 32 := 0#32
  let c0_i32_509 : BitVec 32 := 0#32
  ![v723.toNat, 0, 0]

def k0_chk73 (v723 : BitVec 32) : Prop :=
  (∀ a, (k0_off146 v723) a + S1x8x1024.size a ≤ S10000x8x1024.size a)
instance k0_chk73.dec : ∀ (v723 : BitVec 32), Decidable (k0_chk73 v723) := fun v723 => decidable_of_iff' _ (Iff.of_eq (k0_chk73.eq_1 v723))
theorem k0_off146_inb : ∀ (v723 : BitVec 32) (k0_hw73 : k0_chk73 v723), ∀ a, (k0_off146 v723) a + S1x8x1024.size a ≤ S10000x8x1024.size a := fun v723 k0_hw73 => k0_hw73

def k0_off147 (i : grid0.Coords) : Fin 1 → Nat :=
  let arg0 : BitVec 32 := BitVec.ofNat 32 (i 0).val
  let c128_i32_510 : BitVec 32 := 128#32
  let v730 : BitVec 32 := Scalar.muli arg0 c128_i32_510
  let c73_i32 : BitVec 32 := 73#32
  let v731 : BitVec 32 := Scalar.addi v730 c73_i32
  let v732 : Index := Scalar.indexCast v731
  ![v732.toNat]
def k0_off148 (v733 : BitVec 32) : Fin 3 → Nat :=
  let c0_i32_515 : BitVec 32 := 0#32
  let c0_i32_516 : BitVec 32 := 0#32
  ![v733.toNat, 0, 0]

def k0_chk74 (v733 : BitVec 32) : Prop :=
  (∀ a, (k0_off148 v733) a + S1x8x1024.size a ≤ S10000x8x1024.size a)
instance k0_chk74.dec : ∀ (v733 : BitVec 32), Decidable (k0_chk74 v733) := fun v733 => decidable_of_iff' _ (Iff.of_eq (k0_chk74.eq_1 v733))
theorem k0_off148_inb : ∀ (v733 : BitVec 32) (k0_hw74 : k0_chk74 v733), ∀ a, (k0_off148 v733) a + S1x8x1024.size a ≤ S10000x8x1024.size a := fun v733 k0_hw74 => k0_hw74

def k0_off149 (i : grid0.Coords) : Fin 1 → Nat :=
  let arg0 : BitVec 32 := BitVec.ofNat 32 (i 0).val
  let c128_i32_517 : BitVec 32 := 128#32
  let v740 : BitVec 32 := Scalar.muli arg0 c128_i32_517
  let c74_i32 : BitVec 32 := 74#32
  let v741 : BitVec 32 := Scalar.addi v740 c74_i32
  let v742 : Index := Scalar.indexCast v741
  ![v742.toNat]
def k0_off150 (v743 : BitVec 32) : Fin 3 → Nat :=
  let c0_i32_522 : BitVec 32 := 0#32
  let c0_i32_523 : BitVec 32 := 0#32
  ![v743.toNat, 0, 0]

def k0_chk75 (v743 : BitVec 32) : Prop :=
  (∀ a, (k0_off150 v743) a + S1x8x1024.size a ≤ S10000x8x1024.size a)
instance k0_chk75.dec : ∀ (v743 : BitVec 32), Decidable (k0_chk75 v743) := fun v743 => decidable_of_iff' _ (Iff.of_eq (k0_chk75.eq_1 v743))
theorem k0_off150_inb : ∀ (v743 : BitVec 32) (k0_hw75 : k0_chk75 v743), ∀ a, (k0_off150 v743) a + S1x8x1024.size a ≤ S10000x8x1024.size a := fun v743 k0_hw75 => k0_hw75

def k0_off151 (i : grid0.Coords) : Fin 1 → Nat :=
  let arg0 : BitVec 32 := BitVec.ofNat 32 (i 0).val
  let c128_i32_524 : BitVec 32 := 128#32
  let v750 : BitVec 32 := Scalar.muli arg0 c128_i32_524
  let c75_i32 : BitVec 32 := 75#32
  let v751 : BitVec 32 := Scalar.addi v750 c75_i32
  let v752 : Index := Scalar.indexCast v751
  ![v752.toNat]
def k0_off152 (v753 : BitVec 32) : Fin 3 → Nat :=
  let c0_i32_529 : BitVec 32 := 0#32
  let c0_i32_530 : BitVec 32 := 0#32
  ![v753.toNat, 0, 0]

def k0_chk76 (v753 : BitVec 32) : Prop :=
  (∀ a, (k0_off152 v753) a + S1x8x1024.size a ≤ S10000x8x1024.size a)
instance k0_chk76.dec : ∀ (v753 : BitVec 32), Decidable (k0_chk76 v753) := fun v753 => decidable_of_iff' _ (Iff.of_eq (k0_chk76.eq_1 v753))
theorem k0_off152_inb : ∀ (v753 : BitVec 32) (k0_hw76 : k0_chk76 v753), ∀ a, (k0_off152 v753) a + S1x8x1024.size a ≤ S10000x8x1024.size a := fun v753 k0_hw76 => k0_hw76

def k0_off153 (i : grid0.Coords) : Fin 1 → Nat :=
  let arg0 : BitVec 32 := BitVec.ofNat 32 (i 0).val
  let c128_i32_531 : BitVec 32 := 128#32
  let v760 : BitVec 32 := Scalar.muli arg0 c128_i32_531
  let c76_i32 : BitVec 32 := 76#32
  let v761 : BitVec 32 := Scalar.addi v760 c76_i32
  let v762 : Index := Scalar.indexCast v761
  ![v762.toNat]
def k0_off154 (v763 : BitVec 32) : Fin 3 → Nat :=
  let c0_i32_536 : BitVec 32 := 0#32
  let c0_i32_537 : BitVec 32 := 0#32
  ![v763.toNat, 0, 0]

def k0_chk77 (v763 : BitVec 32) : Prop :=
  (∀ a, (k0_off154 v763) a + S1x8x1024.size a ≤ S10000x8x1024.size a)
instance k0_chk77.dec : ∀ (v763 : BitVec 32), Decidable (k0_chk77 v763) := fun v763 => decidable_of_iff' _ (Iff.of_eq (k0_chk77.eq_1 v763))
theorem k0_off154_inb : ∀ (v763 : BitVec 32) (k0_hw77 : k0_chk77 v763), ∀ a, (k0_off154 v763) a + S1x8x1024.size a ≤ S10000x8x1024.size a := fun v763 k0_hw77 => k0_hw77

def k0_off155 (i : grid0.Coords) : Fin 1 → Nat :=
  let arg0 : BitVec 32 := BitVec.ofNat 32 (i 0).val
  let c128_i32_538 : BitVec 32 := 128#32
  let v770 : BitVec 32 := Scalar.muli arg0 c128_i32_538
  let c77_i32 : BitVec 32 := 77#32
  let v771 : BitVec 32 := Scalar.addi v770 c77_i32
  let v772 : Index := Scalar.indexCast v771
  ![v772.toNat]
def k0_off156 (v773 : BitVec 32) : Fin 3 → Nat :=
  let c0_i32_543 : BitVec 32 := 0#32
  let c0_i32_544 : BitVec 32 := 0#32
  ![v773.toNat, 0, 0]

def k0_chk78 (v773 : BitVec 32) : Prop :=
  (∀ a, (k0_off156 v773) a + S1x8x1024.size a ≤ S10000x8x1024.size a)
instance k0_chk78.dec : ∀ (v773 : BitVec 32), Decidable (k0_chk78 v773) := fun v773 => decidable_of_iff' _ (Iff.of_eq (k0_chk78.eq_1 v773))
theorem k0_off156_inb : ∀ (v773 : BitVec 32) (k0_hw78 : k0_chk78 v773), ∀ a, (k0_off156 v773) a + S1x8x1024.size a ≤ S10000x8x1024.size a := fun v773 k0_hw78 => k0_hw78

def k0_off157 (i : grid0.Coords) : Fin 1 → Nat :=
  let arg0 : BitVec 32 := BitVec.ofNat 32 (i 0).val
  let c128_i32_545 : BitVec 32 := 128#32
  let v780 : BitVec 32 := Scalar.muli arg0 c128_i32_545
  let c78_i32 : BitVec 32 := 78#32
  let v781 : BitVec 32 := Scalar.addi v780 c78_i32
  let v782 : Index := Scalar.indexCast v781
  ![v782.toNat]
def k0_off158 (v783 : BitVec 32) : Fin 3 → Nat :=
  let c0_i32_550 : BitVec 32 := 0#32
  let c0_i32_551 : BitVec 32 := 0#32
  ![v783.toNat, 0, 0]

def k0_chk79 (v783 : BitVec 32) : Prop :=
  (∀ a, (k0_off158 v783) a + S1x8x1024.size a ≤ S10000x8x1024.size a)
instance k0_chk79.dec : ∀ (v783 : BitVec 32), Decidable (k0_chk79 v783) := fun v783 => decidable_of_iff' _ (Iff.of_eq (k0_chk79.eq_1 v783))
theorem k0_off158_inb : ∀ (v783 : BitVec 32) (k0_hw79 : k0_chk79 v783), ∀ a, (k0_off158 v783) a + S1x8x1024.size a ≤ S10000x8x1024.size a := fun v783 k0_hw79 => k0_hw79

def k0_off159 (i : grid0.Coords) : Fin 1 → Nat :=
  let arg0 : BitVec 32 := BitVec.ofNat 32 (i 0).val
  let c128_i32_552 : BitVec 32 := 128#32
  let v790 : BitVec 32 := Scalar.muli arg0 c128_i32_552
  let c79_i32 : BitVec 32 := 79#32
  let v791 : BitVec 32 := Scalar.addi v790 c79_i32
  let v792 : Index := Scalar.indexCast v791
  ![v792.toNat]
def k0_off160 (v793 : BitVec 32) : Fin 3 → Nat :=
  let c0_i32_557 : BitVec 32 := 0#32
  let c0_i32_558 : BitVec 32 := 0#32
  ![v793.toNat, 0, 0]

def k0_chk80 (v793 : BitVec 32) : Prop :=
  (∀ a, (k0_off160 v793) a + S1x8x1024.size a ≤ S10000x8x1024.size a)
instance k0_chk80.dec : ∀ (v793 : BitVec 32), Decidable (k0_chk80 v793) := fun v793 => decidable_of_iff' _ (Iff.of_eq (k0_chk80.eq_1 v793))
theorem k0_off160_inb : ∀ (v793 : BitVec 32) (k0_hw80 : k0_chk80 v793), ∀ a, (k0_off160 v793) a + S1x8x1024.size a ≤ S10000x8x1024.size a := fun v793 k0_hw80 => k0_hw80

def k0_off161 (i : grid0.Coords) : Fin 1 → Nat :=
  let arg0 : BitVec 32 := BitVec.ofNat 32 (i 0).val
  let c128_i32_559 : BitVec 32 := 128#32
  let v800 : BitVec 32 := Scalar.muli arg0 c128_i32_559
  let c80_i32 : BitVec 32 := 80#32
  let v801 : BitVec 32 := Scalar.addi v800 c80_i32
  let v802 : Index := Scalar.indexCast v801
  ![v802.toNat]
def k0_off162 (v803 : BitVec 32) : Fin 3 → Nat :=
  let c0_i32_564 : BitVec 32 := 0#32
  let c0_i32_565 : BitVec 32 := 0#32
  ![v803.toNat, 0, 0]

def k0_chk81 (v803 : BitVec 32) : Prop :=
  (∀ a, (k0_off162 v803) a + S1x8x1024.size a ≤ S10000x8x1024.size a)
instance k0_chk81.dec : ∀ (v803 : BitVec 32), Decidable (k0_chk81 v803) := fun v803 => decidable_of_iff' _ (Iff.of_eq (k0_chk81.eq_1 v803))
theorem k0_off162_inb : ∀ (v803 : BitVec 32) (k0_hw81 : k0_chk81 v803), ∀ a, (k0_off162 v803) a + S1x8x1024.size a ≤ S10000x8x1024.size a := fun v803 k0_hw81 => k0_hw81

def k0_off163 (i : grid0.Coords) : Fin 1 → Nat :=
  let arg0 : BitVec 32 := BitVec.ofNat 32 (i 0).val
  let c128_i32_566 : BitVec 32 := 128#32
  let v810 : BitVec 32 := Scalar.muli arg0 c128_i32_566
  let c81_i32 : BitVec 32 := 81#32
  let v811 : BitVec 32 := Scalar.addi v810 c81_i32
  let v812 : Index := Scalar.indexCast v811
  ![v812.toNat]
def k0_off164 (v813 : BitVec 32) : Fin 3 → Nat :=
  let c0_i32_571 : BitVec 32 := 0#32
  let c0_i32_572 : BitVec 32 := 0#32
  ![v813.toNat, 0, 0]

def k0_chk82 (v813 : BitVec 32) : Prop :=
  (∀ a, (k0_off164 v813) a + S1x8x1024.size a ≤ S10000x8x1024.size a)
instance k0_chk82.dec : ∀ (v813 : BitVec 32), Decidable (k0_chk82 v813) := fun v813 => decidable_of_iff' _ (Iff.of_eq (k0_chk82.eq_1 v813))
theorem k0_off164_inb : ∀ (v813 : BitVec 32) (k0_hw82 : k0_chk82 v813), ∀ a, (k0_off164 v813) a + S1x8x1024.size a ≤ S10000x8x1024.size a := fun v813 k0_hw82 => k0_hw82

def k0_off165 (i : grid0.Coords) : Fin 1 → Nat :=
  let arg0 : BitVec 32 := BitVec.ofNat 32 (i 0).val
  let c128_i32_573 : BitVec 32 := 128#32
  let v820 : BitVec 32 := Scalar.muli arg0 c128_i32_573
  let c82_i32 : BitVec 32 := 82#32
  let v821 : BitVec 32 := Scalar.addi v820 c82_i32
  let v822 : Index := Scalar.indexCast v821
  ![v822.toNat]
def k0_off166 (v823 : BitVec 32) : Fin 3 → Nat :=
  let c0_i32_578 : BitVec 32 := 0#32
  let c0_i32_579 : BitVec 32 := 0#32
  ![v823.toNat, 0, 0]

def k0_chk83 (v823 : BitVec 32) : Prop :=
  (∀ a, (k0_off166 v823) a + S1x8x1024.size a ≤ S10000x8x1024.size a)
instance k0_chk83.dec : ∀ (v823 : BitVec 32), Decidable (k0_chk83 v823) := fun v823 => decidable_of_iff' _ (Iff.of_eq (k0_chk83.eq_1 v823))
theorem k0_off166_inb : ∀ (v823 : BitVec 32) (k0_hw83 : k0_chk83 v823), ∀ a, (k0_off166 v823) a + S1x8x1024.size a ≤ S10000x8x1024.size a := fun v823 k0_hw83 => k0_hw83

def k0_off167 (i : grid0.Coords) : Fin 1 → Nat :=
  let arg0 : BitVec 32 := BitVec.ofNat 32 (i 0).val
  let c128_i32_580 : BitVec 32 := 128#32
  let v830 : BitVec 32 := Scalar.muli arg0 c128_i32_580
  let c83_i32 : BitVec 32 := 83#32
  let v831 : BitVec 32 := Scalar.addi v830 c83_i32
  let v832 : Index := Scalar.indexCast v831
  ![v832.toNat]
def k0_off168 (v833 : BitVec 32) : Fin 3 → Nat :=
  let c0_i32_585 : BitVec 32 := 0#32
  let c0_i32_586 : BitVec 32 := 0#32
  ![v833.toNat, 0, 0]

def k0_chk84 (v833 : BitVec 32) : Prop :=
  (∀ a, (k0_off168 v833) a + S1x8x1024.size a ≤ S10000x8x1024.size a)
instance k0_chk84.dec : ∀ (v833 : BitVec 32), Decidable (k0_chk84 v833) := fun v833 => decidable_of_iff' _ (Iff.of_eq (k0_chk84.eq_1 v833))
theorem k0_off168_inb : ∀ (v833 : BitVec 32) (k0_hw84 : k0_chk84 v833), ∀ a, (k0_off168 v833) a + S1x8x1024.size a ≤ S10000x8x1024.size a := fun v833 k0_hw84 => k0_hw84

def k0_off169 (i : grid0.Coords) : Fin 1 → Nat :=
  let arg0 : BitVec 32 := BitVec.ofNat 32 (i 0).val
  let c128_i32_587 : BitVec 32 := 128#32
  let v840 : BitVec 32 := Scalar.muli arg0 c128_i32_587
  let c84_i32 : BitVec 32 := 84#32
  let v841 : BitVec 32 := Scalar.addi v840 c84_i32
  let v842 : Index := Scalar.indexCast v841
  ![v842.toNat]
def k0_off170 (v843 : BitVec 32) : Fin 3 → Nat :=
  let c0_i32_592 : BitVec 32 := 0#32
  let c0_i32_593 : BitVec 32 := 0#32
  ![v843.toNat, 0, 0]

def k0_chk85 (v843 : BitVec 32) : Prop :=
  (∀ a, (k0_off170 v843) a + S1x8x1024.size a ≤ S10000x8x1024.size a)
instance k0_chk85.dec : ∀ (v843 : BitVec 32), Decidable (k0_chk85 v843) := fun v843 => decidable_of_iff' _ (Iff.of_eq (k0_chk85.eq_1 v843))
theorem k0_off170_inb : ∀ (v843 : BitVec 32) (k0_hw85 : k0_chk85 v843), ∀ a, (k0_off170 v843) a + S1x8x1024.size a ≤ S10000x8x1024.size a := fun v843 k0_hw85 => k0_hw85

def k0_off171 (i : grid0.Coords) : Fin 1 → Nat :=
  let arg0 : BitVec 32 := BitVec.ofNat 32 (i 0).val
  let c128_i32_594 : BitVec 32 := 128#32
  let v850 : BitVec 32 := Scalar.muli arg0 c128_i32_594
  let c85_i32 : BitVec 32 := 85#32
  let v851 : BitVec 32 := Scalar.addi v850 c85_i32
  let v852 : Index := Scalar.indexCast v851
  ![v852.toNat]
def k0_off172 (v853 : BitVec 32) : Fin 3 → Nat :=
  let c0_i32_599 : BitVec 32 := 0#32
  let c0_i32_600 : BitVec 32 := 0#32
  ![v853.toNat, 0, 0]

def k0_chk86 (v853 : BitVec 32) : Prop :=
  (∀ a, (k0_off172 v853) a + S1x8x1024.size a ≤ S10000x8x1024.size a)
instance k0_chk86.dec : ∀ (v853 : BitVec 32), Decidable (k0_chk86 v853) := fun v853 => decidable_of_iff' _ (Iff.of_eq (k0_chk86.eq_1 v853))
theorem k0_off172_inb : ∀ (v853 : BitVec 32) (k0_hw86 : k0_chk86 v853), ∀ a, (k0_off172 v853) a + S1x8x1024.size a ≤ S10000x8x1024.size a := fun v853 k0_hw86 => k0_hw86

def k0_off173 (i : grid0.Coords) : Fin 1 → Nat :=
  let arg0 : BitVec 32 := BitVec.ofNat 32 (i 0).val
  let c128_i32_601 : BitVec 32 := 128#32
  let v860 : BitVec 32 := Scalar.muli arg0 c128_i32_601
  let c86_i32 : BitVec 32 := 86#32
  let v861 : BitVec 32 := Scalar.addi v860 c86_i32
  let v862 : Index := Scalar.indexCast v861
  ![v862.toNat]
def k0_off174 (v863 : BitVec 32) : Fin 3 → Nat :=
  let c0_i32_606 : BitVec 32 := 0#32
  let c0_i32_607 : BitVec 32 := 0#32
  ![v863.toNat, 0, 0]

def k0_chk87 (v863 : BitVec 32) : Prop :=
  (∀ a, (k0_off174 v863) a + S1x8x1024.size a ≤ S10000x8x1024.size a)
instance k0_chk87.dec : ∀ (v863 : BitVec 32), Decidable (k0_chk87 v863) := fun v863 => decidable_of_iff' _ (Iff.of_eq (k0_chk87.eq_1 v863))
theorem k0_off174_inb : ∀ (v863 : BitVec 32) (k0_hw87 : k0_chk87 v863), ∀ a, (k0_off174 v863) a + S1x8x1024.size a ≤ S10000x8x1024.size a := fun v863 k0_hw87 => k0_hw87

def k0_off175 (i : grid0.Coords) : Fin 1 → Nat :=
  let arg0 : BitVec 32 := BitVec.ofNat 32 (i 0).val
  let c128_i32_608 : BitVec 32 := 128#32
  let v870 : BitVec 32 := Scalar.muli arg0 c128_i32_608
  let c87_i32 : BitVec 32 := 87#32
  let v871 : BitVec 32 := Scalar.addi v870 c87_i32
  let v872 : Index := Scalar.indexCast v871
  ![v872.toNat]
def k0_off176 (v873 : BitVec 32) : Fin 3 → Nat :=
  let c0_i32_613 : BitVec 32 := 0#32
  let c0_i32_614 : BitVec 32 := 0#32
  ![v873.toNat, 0, 0]

def k0_chk88 (v873 : BitVec 32) : Prop :=
  (∀ a, (k0_off176 v873) a + S1x8x1024.size a ≤ S10000x8x1024.size a)
instance k0_chk88.dec : ∀ (v873 : BitVec 32), Decidable (k0_chk88 v873) := fun v873 => decidable_of_iff' _ (Iff.of_eq (k0_chk88.eq_1 v873))
theorem k0_off176_inb : ∀ (v873 : BitVec 32) (k0_hw88 : k0_chk88 v873), ∀ a, (k0_off176 v873) a + S1x8x1024.size a ≤ S10000x8x1024.size a := fun v873 k0_hw88 => k0_hw88

def k0_off177 (i : grid0.Coords) : Fin 1 → Nat :=
  let arg0 : BitVec 32 := BitVec.ofNat 32 (i 0).val
  let c128_i32_615 : BitVec 32 := 128#32
  let v880 : BitVec 32 := Scalar.muli arg0 c128_i32_615
  let c88_i32 : BitVec 32 := 88#32
  let v881 : BitVec 32 := Scalar.addi v880 c88_i32
  let v882 : Index := Scalar.indexCast v881
  ![v882.toNat]
def k0_off178 (v883 : BitVec 32) : Fin 3 → Nat :=
  let c0_i32_620 : BitVec 32 := 0#32
  let c0_i32_621 : BitVec 32 := 0#32
  ![v883.toNat, 0, 0]

def k0_chk89 (v883 : BitVec 32) : Prop :=
  (∀ a, (k0_off178 v883) a + S1x8x1024.size a ≤ S10000x8x1024.size a)
instance k0_chk89.dec : ∀ (v883 : BitVec 32), Decidable (k0_chk89 v883) := fun v883 => decidable_of_iff' _ (Iff.of_eq (k0_chk89.eq_1 v883))
theorem k0_off178_inb : ∀ (v883 : BitVec 32) (k0_hw89 : k0_chk89 v883), ∀ a, (k0_off178 v883) a + S1x8x1024.size a ≤ S10000x8x1024.size a := fun v883 k0_hw89 => k0_hw89

def k0_off179 (i : grid0.Coords) : Fin 1 → Nat :=
  let arg0 : BitVec 32 := BitVec.ofNat 32 (i 0).val
  let c128_i32_622 : BitVec 32 := 128#32
  let v890 : BitVec 32 := Scalar.muli arg0 c128_i32_622
  let c89_i32 : BitVec 32 := 89#32
  let v891 : BitVec 32 := Scalar.addi v890 c89_i32
  let v892 : Index := Scalar.indexCast v891
  ![v892.toNat]
def k0_off180 (v893 : BitVec 32) : Fin 3 → Nat :=
  let c0_i32_627 : BitVec 32 := 0#32
  let c0_i32_628 : BitVec 32 := 0#32
  ![v893.toNat, 0, 0]

def k0_chk90 (v893 : BitVec 32) : Prop :=
  (∀ a, (k0_off180 v893) a + S1x8x1024.size a ≤ S10000x8x1024.size a)
instance k0_chk90.dec : ∀ (v893 : BitVec 32), Decidable (k0_chk90 v893) := fun v893 => decidable_of_iff' _ (Iff.of_eq (k0_chk90.eq_1 v893))
theorem k0_off180_inb : ∀ (v893 : BitVec 32) (k0_hw90 : k0_chk90 v893), ∀ a, (k0_off180 v893) a + S1x8x1024.size a ≤ S10000x8x1024.size a := fun v893 k0_hw90 => k0_hw90

def k0_off181 (i : grid0.Coords) : Fin 1 → Nat :=
  let arg0 : BitVec 32 := BitVec.ofNat 32 (i 0).val
  let c128_i32_629 : BitVec 32 := 128#32
  let v900 : BitVec 32 := Scalar.muli arg0 c128_i32_629
  let c90_i32 : BitVec 32 := 90#32
  let v901 : BitVec 32 := Scalar.addi v900 c90_i32
  let v902 : Index := Scalar.indexCast v901
  ![v902.toNat]
def k0_off182 (v903 : BitVec 32) : Fin 3 → Nat :=
  let c0_i32_634 : BitVec 32 := 0#32
  let c0_i32_635 : BitVec 32 := 0#32
  ![v903.toNat, 0, 0]

def k0_chk91 (v903 : BitVec 32) : Prop :=
  (∀ a, (k0_off182 v903) a + S1x8x1024.size a ≤ S10000x8x1024.size a)
instance k0_chk91.dec : ∀ (v903 : BitVec 32), Decidable (k0_chk91 v903) := fun v903 => decidable_of_iff' _ (Iff.of_eq (k0_chk91.eq_1 v903))
theorem k0_off182_inb : ∀ (v903 : BitVec 32) (k0_hw91 : k0_chk91 v903), ∀ a, (k0_off182 v903) a + S1x8x1024.size a ≤ S10000x8x1024.size a := fun v903 k0_hw91 => k0_hw91

def k0_off183 (i : grid0.Coords) : Fin 1 → Nat :=
  let arg0 : BitVec 32 := BitVec.ofNat 32 (i 0).val
  let c128_i32_636 : BitVec 32 := 128#32
  let v910 : BitVec 32 := Scalar.muli arg0 c128_i32_636
  let c91_i32 : BitVec 32 := 91#32
  let v911 : BitVec 32 := Scalar.addi v910 c91_i32
  let v912 : Index := Scalar.indexCast v911
  ![v912.toNat]
def k0_off184 (v913 : BitVec 32) : Fin 3 → Nat :=
  let c0_i32_641 : BitVec 32 := 0#32
  let c0_i32_642 : BitVec 32 := 0#32
  ![v913.toNat, 0, 0]

def k0_chk92 (v913 : BitVec 32) : Prop :=
  (∀ a, (k0_off184 v913) a + S1x8x1024.size a ≤ S10000x8x1024.size a)
instance k0_chk92.dec : ∀ (v913 : BitVec 32), Decidable (k0_chk92 v913) := fun v913 => decidable_of_iff' _ (Iff.of_eq (k0_chk92.eq_1 v913))
theorem k0_off184_inb : ∀ (v913 : BitVec 32) (k0_hw92 : k0_chk92 v913), ∀ a, (k0_off184 v913) a + S1x8x1024.size a ≤ S10000x8x1024.size a := fun v913 k0_hw92 => k0_hw92

def k0_off185 (i : grid0.Coords) : Fin 1 → Nat :=
  let arg0 : BitVec 32 := BitVec.ofNat 32 (i 0).val
  let c128_i32_643 : BitVec 32 := 128#32
  let v920 : BitVec 32 := Scalar.muli arg0 c128_i32_643
  let c92_i32 : BitVec 32 := 92#32
  let v921 : BitVec 32 := Scalar.addi v920 c92_i32
  let v922 : Index := Scalar.indexCast v921
  ![v922.toNat]
def k0_off186 (v923 : BitVec 32) : Fin 3 → Nat :=
  let c0_i32_648 : BitVec 32 := 0#32
  let c0_i32_649 : BitVec 32 := 0#32
  ![v923.toNat, 0, 0]

def k0_chk93 (v923 : BitVec 32) : Prop :=
  (∀ a, (k0_off186 v923) a + S1x8x1024.size a ≤ S10000x8x1024.size a)
instance k0_chk93.dec : ∀ (v923 : BitVec 32), Decidable (k0_chk93 v923) := fun v923 => decidable_of_iff' _ (Iff.of_eq (k0_chk93.eq_1 v923))
theorem k0_off186_inb : ∀ (v923 : BitVec 32) (k0_hw93 : k0_chk93 v923), ∀ a, (k0_off186 v923) a + S1x8x1024.size a ≤ S10000x8x1024.size a := fun v923 k0_hw93 => k0_hw93

def k0_off187 (i : grid0.Coords) : Fin 1 → Nat :=
  let arg0 : BitVec 32 := BitVec.ofNat 32 (i 0).val
  let c128_i32_650 : BitVec 32 := 128#32
  let v930 : BitVec 32 := Scalar.muli arg0 c128_i32_650
  let c93_i32 : BitVec 32 := 93#32
  let v931 : BitVec 32 := Scalar.addi v930 c93_i32
  let v932 : Index := Scalar.indexCast v931
  ![v932.toNat]
def k0_off188 (v933 : BitVec 32) : Fin 3 → Nat :=
  let c0_i32_655 : BitVec 32 := 0#32
  let c0_i32_656 : BitVec 32 := 0#32
  ![v933.toNat, 0, 0]

def k0_chk94 (v933 : BitVec 32) : Prop :=
  (∀ a, (k0_off188 v933) a + S1x8x1024.size a ≤ S10000x8x1024.size a)
instance k0_chk94.dec : ∀ (v933 : BitVec 32), Decidable (k0_chk94 v933) := fun v933 => decidable_of_iff' _ (Iff.of_eq (k0_chk94.eq_1 v933))
theorem k0_off188_inb : ∀ (v933 : BitVec 32) (k0_hw94 : k0_chk94 v933), ∀ a, (k0_off188 v933) a + S1x8x1024.size a ≤ S10000x8x1024.size a := fun v933 k0_hw94 => k0_hw94

def k0_off189 (i : grid0.Coords) : Fin 1 → Nat :=
  let arg0 : BitVec 32 := BitVec.ofNat 32 (i 0).val
  let c128_i32_657 : BitVec 32 := 128#32
  let v940 : BitVec 32 := Scalar.muli arg0 c128_i32_657
  let c94_i32 : BitVec 32 := 94#32
  let v941 : BitVec 32 := Scalar.addi v940 c94_i32
  let v942 : Index := Scalar.indexCast v941
  ![v942.toNat]
def k0_off190 (v943 : BitVec 32) : Fin 3 → Nat :=
  let c0_i32_662 : BitVec 32 := 0#32
  let c0_i32_663 : BitVec 32 := 0#32
  ![v943.toNat, 0, 0]

def k0_chk95 (v943 : BitVec 32) : Prop :=
  (∀ a, (k0_off190 v943) a + S1x8x1024.size a ≤ S10000x8x1024.size a)
instance k0_chk95.dec : ∀ (v943 : BitVec 32), Decidable (k0_chk95 v943) := fun v943 => decidable_of_iff' _ (Iff.of_eq (k0_chk95.eq_1 v943))
theorem k0_off190_inb : ∀ (v943 : BitVec 32) (k0_hw95 : k0_chk95 v943), ∀ a, (k0_off190 v943) a + S1x8x1024.size a ≤ S10000x8x1024.size a := fun v943 k0_hw95 => k0_hw95

def k0_off191 (i : grid0.Coords) : Fin 1 → Nat :=
  let arg0 : BitVec 32 := BitVec.ofNat 32 (i 0).val
  let c128_i32_664 : BitVec 32 := 128#32
  let v950 : BitVec 32 := Scalar.muli arg0 c128_i32_664
  let c95_i32 : BitVec 32 := 95#32
  let v951 : BitVec 32 := Scalar.addi v950 c95_i32
  let v952 : Index := Scalar.indexCast v951
  ![v952.toNat]
def k0_off192 (v953 : BitVec 32) : Fin 3 → Nat :=
  let c0_i32_669 : BitVec 32 := 0#32
  let c0_i32_670 : BitVec 32 := 0#32
  ![v953.toNat, 0, 0]

def k0_chk96 (v953 : BitVec 32) : Prop :=
  (∀ a, (k0_off192 v953) a + S1x8x1024.size a ≤ S10000x8x1024.size a)
instance k0_chk96.dec : ∀ (v953 : BitVec 32), Decidable (k0_chk96 v953) := fun v953 => decidable_of_iff' _ (Iff.of_eq (k0_chk96.eq_1 v953))
theorem k0_off192_inb : ∀ (v953 : BitVec 32) (k0_hw96 : k0_chk96 v953), ∀ a, (k0_off192 v953) a + S1x8x1024.size a ≤ S10000x8x1024.size a := fun v953 k0_hw96 => k0_hw96

def k0_off193 (i : grid0.Coords) : Fin 1 → Nat :=
  let arg0 : BitVec 32 := BitVec.ofNat 32 (i 0).val
  let c128_i32_671 : BitVec 32 := 128#32
  let v960 : BitVec 32 := Scalar.muli arg0 c128_i32_671
  let c96_i32 : BitVec 32 := 96#32
  let v961 : BitVec 32 := Scalar.addi v960 c96_i32
  let v962 : Index := Scalar.indexCast v961
  ![v962.toNat]
def k0_off194 (v963 : BitVec 32) : Fin 3 → Nat :=
  let c0_i32_676 : BitVec 32 := 0#32
  let c0_i32_677 : BitVec 32 := 0#32
  ![v963.toNat, 0, 0]

def k0_chk97 (v963 : BitVec 32) : Prop :=
  (∀ a, (k0_off194 v963) a + S1x8x1024.size a ≤ S10000x8x1024.size a)
instance k0_chk97.dec : ∀ (v963 : BitVec 32), Decidable (k0_chk97 v963) := fun v963 => decidable_of_iff' _ (Iff.of_eq (k0_chk97.eq_1 v963))
theorem k0_off194_inb : ∀ (v963 : BitVec 32) (k0_hw97 : k0_chk97 v963), ∀ a, (k0_off194 v963) a + S1x8x1024.size a ≤ S10000x8x1024.size a := fun v963 k0_hw97 => k0_hw97

def k0_off195 (i : grid0.Coords) : Fin 1 → Nat :=
  let arg0 : BitVec 32 := BitVec.ofNat 32 (i 0).val
  let c128_i32_678 : BitVec 32 := 128#32
  let v970 : BitVec 32 := Scalar.muli arg0 c128_i32_678
  let c97_i32 : BitVec 32 := 97#32
  let v971 : BitVec 32 := Scalar.addi v970 c97_i32
  let v972 : Index := Scalar.indexCast v971
  ![v972.toNat]
def k0_off196 (v973 : BitVec 32) : Fin 3 → Nat :=
  let c0_i32_683 : BitVec 32 := 0#32
  let c0_i32_684 : BitVec 32 := 0#32
  ![v973.toNat, 0, 0]

def k0_chk98 (v973 : BitVec 32) : Prop :=
  (∀ a, (k0_off196 v973) a + S1x8x1024.size a ≤ S10000x8x1024.size a)
instance k0_chk98.dec : ∀ (v973 : BitVec 32), Decidable (k0_chk98 v973) := fun v973 => decidable_of_iff' _ (Iff.of_eq (k0_chk98.eq_1 v973))
theorem k0_off196_inb : ∀ (v973 : BitVec 32) (k0_hw98 : k0_chk98 v973), ∀ a, (k0_off196 v973) a + S1x8x1024.size a ≤ S10000x8x1024.size a := fun v973 k0_hw98 => k0_hw98

def k0_off197 (i : grid0.Coords) : Fin 1 → Nat :=
  let arg0 : BitVec 32 := BitVec.ofNat 32 (i 0).val
  let c128_i32_685 : BitVec 32 := 128#32
  let v980 : BitVec 32 := Scalar.muli arg0 c128_i32_685
  let c98_i32 : BitVec 32 := 98#32
  let v981 : BitVec 32 := Scalar.addi v980 c98_i32
  let v982 : Index := Scalar.indexCast v981
  ![v982.toNat]
def k0_off198 (v983 : BitVec 32) : Fin 3 → Nat :=
  let c0_i32_690 : BitVec 32 := 0#32
  let c0_i32_691 : BitVec 32 := 0#32
  ![v983.toNat, 0, 0]

def k0_chk99 (v983 : BitVec 32) : Prop :=
  (∀ a, (k0_off198 v983) a + S1x8x1024.size a ≤ S10000x8x1024.size a)
instance k0_chk99.dec : ∀ (v983 : BitVec 32), Decidable (k0_chk99 v983) := fun v983 => decidable_of_iff' _ (Iff.of_eq (k0_chk99.eq_1 v983))
theorem k0_off198_inb : ∀ (v983 : BitVec 32) (k0_hw99 : k0_chk99 v983), ∀ a, (k0_off198 v983) a + S1x8x1024.size a ≤ S10000x8x1024.size a := fun v983 k0_hw99 => k0_hw99

def k0_off199 (i : grid0.Coords) : Fin 1 → Nat :=
  let arg0 : BitVec 32 := BitVec.ofNat 32 (i 0).val
  let c128_i32_692 : BitVec 32 := 128#32
  let v990 : BitVec 32 := Scalar.muli arg0 c128_i32_692
  let c99_i32 : BitVec 32 := 99#32
  let v991 : BitVec 32 := Scalar.addi v990 c99_i32
  let v992 : Index := Scalar.indexCast v991
  ![v992.toNat]
def k0_off200 (v993 : BitVec 32) : Fin 3 → Nat :=
  let c0_i32_697 : BitVec 32 := 0#32
  let c0_i32_698 : BitVec 32 := 0#32
  ![v993.toNat, 0, 0]

def k0_chk100 (v993 : BitVec 32) : Prop :=
  (∀ a, (k0_off200 v993) a + S1x8x1024.size a ≤ S10000x8x1024.size a)
instance k0_chk100.dec : ∀ (v993 : BitVec 32), Decidable (k0_chk100 v993) := fun v993 => decidable_of_iff' _ (Iff.of_eq (k0_chk100.eq_1 v993))
theorem k0_off200_inb : ∀ (v993 : BitVec 32) (k0_hw100 : k0_chk100 v993), ∀ a, (k0_off200 v993) a + S1x8x1024.size a ≤ S10000x8x1024.size a := fun v993 k0_hw100 => k0_hw100

def k0_off201 (i : grid0.Coords) : Fin 1 → Nat :=
  let arg0 : BitVec 32 := BitVec.ofNat 32 (i 0).val
  let c128_i32_699 : BitVec 32 := 128#32
  let v1000 : BitVec 32 := Scalar.muli arg0 c128_i32_699
  let c100_i32 : BitVec 32 := 100#32
  let v1001 : BitVec 32 := Scalar.addi v1000 c100_i32
  let v1002 : Index := Scalar.indexCast v1001
  ![v1002.toNat]
def k0_off202 (v1003 : BitVec 32) : Fin 3 → Nat :=
  let c0_i32_704 : BitVec 32 := 0#32
  let c0_i32_705 : BitVec 32 := 0#32
  ![v1003.toNat, 0, 0]

def k0_chk101 (v1003 : BitVec 32) : Prop :=
  (∀ a, (k0_off202 v1003) a + S1x8x1024.size a ≤ S10000x8x1024.size a)
instance k0_chk101.dec : ∀ (v1003 : BitVec 32), Decidable (k0_chk101 v1003) := fun v1003 => decidable_of_iff' _ (Iff.of_eq (k0_chk101.eq_1 v1003))
theorem k0_off202_inb : ∀ (v1003 : BitVec 32) (k0_hw101 : k0_chk101 v1003), ∀ a, (k0_off202 v1003) a + S1x8x1024.size a ≤ S10000x8x1024.size a := fun v1003 k0_hw101 => k0_hw101

def k0_off203 (i : grid0.Coords) : Fin 1 → Nat :=
  let arg0 : BitVec 32 := BitVec.ofNat 32 (i 0).val
  let c128_i32_706 : BitVec 32 := 128#32
  let v1010 : BitVec 32 := Scalar.muli arg0 c128_i32_706
  let c101_i32 : BitVec 32 := 101#32
  let v1011 : BitVec 32 := Scalar.addi v1010 c101_i32
  let v1012 : Index := Scalar.indexCast v1011
  ![v1012.toNat]
def k0_off204 (v1013 : BitVec 32) : Fin 3 → Nat :=
  let c0_i32_711 : BitVec 32 := 0#32
  let c0_i32_712 : BitVec 32 := 0#32
  ![v1013.toNat, 0, 0]

def k0_chk102 (v1013 : BitVec 32) : Prop :=
  (∀ a, (k0_off204 v1013) a + S1x8x1024.size a ≤ S10000x8x1024.size a)
instance k0_chk102.dec : ∀ (v1013 : BitVec 32), Decidable (k0_chk102 v1013) := fun v1013 => decidable_of_iff' _ (Iff.of_eq (k0_chk102.eq_1 v1013))
theorem k0_off204_inb : ∀ (v1013 : BitVec 32) (k0_hw102 : k0_chk102 v1013), ∀ a, (k0_off204 v1013) a + S1x8x1024.size a ≤ S10000x8x1024.size a := fun v1013 k0_hw102 => k0_hw102

def k0_off205 (i : grid0.Coords) : Fin 1 → Nat :=
  let arg0 : BitVec 32 := BitVec.ofNat 32 (i 0).val
  let c128_i32_713 : BitVec 32 := 128#32
  let v1020 : BitVec 32 := Scalar.muli arg0 c128_i32_713
  let c102_i32 : BitVec 32 := 102#32
  let v1021 : BitVec 32 := Scalar.addi v1020 c102_i32
  let v1022 : Index := Scalar.indexCast v1021
  ![v1022.toNat]
def k0_off206 (v1023 : BitVec 32) : Fin 3 → Nat :=
  let c0_i32_718 : BitVec 32 := 0#32
  let c0_i32_719 : BitVec 32 := 0#32
  ![v1023.toNat, 0, 0]

def k0_chk103 (v1023 : BitVec 32) : Prop :=
  (∀ a, (k0_off206 v1023) a + S1x8x1024.size a ≤ S10000x8x1024.size a)
instance k0_chk103.dec : ∀ (v1023 : BitVec 32), Decidable (k0_chk103 v1023) := fun v1023 => decidable_of_iff' _ (Iff.of_eq (k0_chk103.eq_1 v1023))
theorem k0_off206_inb : ∀ (v1023 : BitVec 32) (k0_hw103 : k0_chk103 v1023), ∀ a, (k0_off206 v1023) a + S1x8x1024.size a ≤ S10000x8x1024.size a := fun v1023 k0_hw103 => k0_hw103

def k0_off207 (i : grid0.Coords) : Fin 1 → Nat :=
  let arg0 : BitVec 32 := BitVec.ofNat 32 (i 0).val
  let c128_i32_720 : BitVec 32 := 128#32
  let v1030 : BitVec 32 := Scalar.muli arg0 c128_i32_720
  let c103_i32 : BitVec 32 := 103#32
  let v1031 : BitVec 32 := Scalar.addi v1030 c103_i32
  let v1032 : Index := Scalar.indexCast v1031
  ![v1032.toNat]
def k0_off208 (v1033 : BitVec 32) : Fin 3 → Nat :=
  let c0_i32_725 : BitVec 32 := 0#32
  let c0_i32_726 : BitVec 32 := 0#32
  ![v1033.toNat, 0, 0]

def k0_chk104 (v1033 : BitVec 32) : Prop :=
  (∀ a, (k0_off208 v1033) a + S1x8x1024.size a ≤ S10000x8x1024.size a)
instance k0_chk104.dec : ∀ (v1033 : BitVec 32), Decidable (k0_chk104 v1033) := fun v1033 => decidable_of_iff' _ (Iff.of_eq (k0_chk104.eq_1 v1033))
theorem k0_off208_inb : ∀ (v1033 : BitVec 32) (k0_hw104 : k0_chk104 v1033), ∀ a, (k0_off208 v1033) a + S1x8x1024.size a ≤ S10000x8x1024.size a := fun v1033 k0_hw104 => k0_hw104

def k0_off209 (i : grid0.Coords) : Fin 1 → Nat :=
  let arg0 : BitVec 32 := BitVec.ofNat 32 (i 0).val
  let c128_i32_727 : BitVec 32 := 128#32
  let v1040 : BitVec 32 := Scalar.muli arg0 c128_i32_727
  let c104_i32 : BitVec 32 := 104#32
  let v1041 : BitVec 32 := Scalar.addi v1040 c104_i32
  let v1042 : Index := Scalar.indexCast v1041
  ![v1042.toNat]
def k0_off210 (v1043 : BitVec 32) : Fin 3 → Nat :=
  let c0_i32_732 : BitVec 32 := 0#32
  let c0_i32_733 : BitVec 32 := 0#32
  ![v1043.toNat, 0, 0]

def k0_chk105 (v1043 : BitVec 32) : Prop :=
  (∀ a, (k0_off210 v1043) a + S1x8x1024.size a ≤ S10000x8x1024.size a)
instance k0_chk105.dec : ∀ (v1043 : BitVec 32), Decidable (k0_chk105 v1043) := fun v1043 => decidable_of_iff' _ (Iff.of_eq (k0_chk105.eq_1 v1043))
theorem k0_off210_inb : ∀ (v1043 : BitVec 32) (k0_hw105 : k0_chk105 v1043), ∀ a, (k0_off210 v1043) a + S1x8x1024.size a ≤ S10000x8x1024.size a := fun v1043 k0_hw105 => k0_hw105

def k0_off211 (i : grid0.Coords) : Fin 1 → Nat :=
  let arg0 : BitVec 32 := BitVec.ofNat 32 (i 0).val
  let c128_i32_734 : BitVec 32 := 128#32
  let v1050 : BitVec 32 := Scalar.muli arg0 c128_i32_734
  let c105_i32 : BitVec 32 := 105#32
  let v1051 : BitVec 32 := Scalar.addi v1050 c105_i32
  let v1052 : Index := Scalar.indexCast v1051
  ![v1052.toNat]
def k0_off212 (v1053 : BitVec 32) : Fin 3 → Nat :=
  let c0_i32_739 : BitVec 32 := 0#32
  let c0_i32_740 : BitVec 32 := 0#32
  ![v1053.toNat, 0, 0]

def k0_chk106 (v1053 : BitVec 32) : Prop :=
  (∀ a, (k0_off212 v1053) a + S1x8x1024.size a ≤ S10000x8x1024.size a)
instance k0_chk106.dec : ∀ (v1053 : BitVec 32), Decidable (k0_chk106 v1053) := fun v1053 => decidable_of_iff' _ (Iff.of_eq (k0_chk106.eq_1 v1053))
theorem k0_off212_inb : ∀ (v1053 : BitVec 32) (k0_hw106 : k0_chk106 v1053), ∀ a, (k0_off212 v1053) a + S1x8x1024.size a ≤ S10000x8x1024.size a := fun v1053 k0_hw106 => k0_hw106

def k0_off213 (i : grid0.Coords) : Fin 1 → Nat :=
  let arg0 : BitVec 32 := BitVec.ofNat 32 (i 0).val
  let c128_i32_741 : BitVec 32 := 128#32
  let v1060 : BitVec 32 := Scalar.muli arg0 c128_i32_741
  let c106_i32 : BitVec 32 := 106#32
  let v1061 : BitVec 32 := Scalar.addi v1060 c106_i32
  let v1062 : Index := Scalar.indexCast v1061
  ![v1062.toNat]
def k0_off214 (v1063 : BitVec 32) : Fin 3 → Nat :=
  let c0_i32_746 : BitVec 32 := 0#32
  let c0_i32_747 : BitVec 32 := 0#32
  ![v1063.toNat, 0, 0]

def k0_chk107 (v1063 : BitVec 32) : Prop :=
  (∀ a, (k0_off214 v1063) a + S1x8x1024.size a ≤ S10000x8x1024.size a)
instance k0_chk107.dec : ∀ (v1063 : BitVec 32), Decidable (k0_chk107 v1063) := fun v1063 => decidable_of_iff' _ (Iff.of_eq (k0_chk107.eq_1 v1063))
theorem k0_off214_inb : ∀ (v1063 : BitVec 32) (k0_hw107 : k0_chk107 v1063), ∀ a, (k0_off214 v1063) a + S1x8x1024.size a ≤ S10000x8x1024.size a := fun v1063 k0_hw107 => k0_hw107

def k0_off215 (i : grid0.Coords) : Fin 1 → Nat :=
  let arg0 : BitVec 32 := BitVec.ofNat 32 (i 0).val
  let c128_i32_748 : BitVec 32 := 128#32
  let v1070 : BitVec 32 := Scalar.muli arg0 c128_i32_748
  let c107_i32 : BitVec 32 := 107#32
  let v1071 : BitVec 32 := Scalar.addi v1070 c107_i32
  let v1072 : Index := Scalar.indexCast v1071
  ![v1072.toNat]
def k0_off216 (v1073 : BitVec 32) : Fin 3 → Nat :=
  let c0_i32_753 : BitVec 32 := 0#32
  let c0_i32_754 : BitVec 32 := 0#32
  ![v1073.toNat, 0, 0]

def k0_chk108 (v1073 : BitVec 32) : Prop :=
  (∀ a, (k0_off216 v1073) a + S1x8x1024.size a ≤ S10000x8x1024.size a)
instance k0_chk108.dec : ∀ (v1073 : BitVec 32), Decidable (k0_chk108 v1073) := fun v1073 => decidable_of_iff' _ (Iff.of_eq (k0_chk108.eq_1 v1073))
theorem k0_off216_inb : ∀ (v1073 : BitVec 32) (k0_hw108 : k0_chk108 v1073), ∀ a, (k0_off216 v1073) a + S1x8x1024.size a ≤ S10000x8x1024.size a := fun v1073 k0_hw108 => k0_hw108

def k0_off217 (i : grid0.Coords) : Fin 1 → Nat :=
  let arg0 : BitVec 32 := BitVec.ofNat 32 (i 0).val
  let c128_i32_755 : BitVec 32 := 128#32
  let v1080 : BitVec 32 := Scalar.muli arg0 c128_i32_755
  let c108_i32 : BitVec 32 := 108#32
  let v1081 : BitVec 32 := Scalar.addi v1080 c108_i32
  let v1082 : Index := Scalar.indexCast v1081
  ![v1082.toNat]
def k0_off218 (v1083 : BitVec 32) : Fin 3 → Nat :=
  let c0_i32_760 : BitVec 32 := 0#32
  let c0_i32_761 : BitVec 32 := 0#32
  ![v1083.toNat, 0, 0]

def k0_chk109 (v1083 : BitVec 32) : Prop :=
  (∀ a, (k0_off218 v1083) a + S1x8x1024.size a ≤ S10000x8x1024.size a)
instance k0_chk109.dec : ∀ (v1083 : BitVec 32), Decidable (k0_chk109 v1083) := fun v1083 => decidable_of_iff' _ (Iff.of_eq (k0_chk109.eq_1 v1083))
theorem k0_off218_inb : ∀ (v1083 : BitVec 32) (k0_hw109 : k0_chk109 v1083), ∀ a, (k0_off218 v1083) a + S1x8x1024.size a ≤ S10000x8x1024.size a := fun v1083 k0_hw109 => k0_hw109

def k0_off219 (i : grid0.Coords) : Fin 1 → Nat :=
  let arg0 : BitVec 32 := BitVec.ofNat 32 (i 0).val
  let c128_i32_762 : BitVec 32 := 128#32
  let v1090 : BitVec 32 := Scalar.muli arg0 c128_i32_762
  let c109_i32 : BitVec 32 := 109#32
  let v1091 : BitVec 32 := Scalar.addi v1090 c109_i32
  let v1092 : Index := Scalar.indexCast v1091
  ![v1092.toNat]
def k0_off220 (v1093 : BitVec 32) : Fin 3 → Nat :=
  let c0_i32_767 : BitVec 32 := 0#32
  let c0_i32_768 : BitVec 32 := 0#32
  ![v1093.toNat, 0, 0]

def k0_chk110 (v1093 : BitVec 32) : Prop :=
  (∀ a, (k0_off220 v1093) a + S1x8x1024.size a ≤ S10000x8x1024.size a)
instance k0_chk110.dec : ∀ (v1093 : BitVec 32), Decidable (k0_chk110 v1093) := fun v1093 => decidable_of_iff' _ (Iff.of_eq (k0_chk110.eq_1 v1093))
theorem k0_off220_inb : ∀ (v1093 : BitVec 32) (k0_hw110 : k0_chk110 v1093), ∀ a, (k0_off220 v1093) a + S1x8x1024.size a ≤ S10000x8x1024.size a := fun v1093 k0_hw110 => k0_hw110

def k0_off221 (i : grid0.Coords) : Fin 1 → Nat :=
  let arg0 : BitVec 32 := BitVec.ofNat 32 (i 0).val
  let c128_i32_769 : BitVec 32 := 128#32
  let v1100 : BitVec 32 := Scalar.muli arg0 c128_i32_769
  let c110_i32 : BitVec 32 := 110#32
  let v1101 : BitVec 32 := Scalar.addi v1100 c110_i32
  let v1102 : Index := Scalar.indexCast v1101
  ![v1102.toNat]
def k0_off222 (v1103 : BitVec 32) : Fin 3 → Nat :=
  let c0_i32_774 : BitVec 32 := 0#32
  let c0_i32_775 : BitVec 32 := 0#32
  ![v1103.toNat, 0, 0]

def k0_chk111 (v1103 : BitVec 32) : Prop :=
  (∀ a, (k0_off222 v1103) a + S1x8x1024.size a ≤ S10000x8x1024.size a)
instance k0_chk111.dec : ∀ (v1103 : BitVec 32), Decidable (k0_chk111 v1103) := fun v1103 => decidable_of_iff' _ (Iff.of_eq (k0_chk111.eq_1 v1103))
theorem k0_off222_inb : ∀ (v1103 : BitVec 32) (k0_hw111 : k0_chk111 v1103), ∀ a, (k0_off222 v1103) a + S1x8x1024.size a ≤ S10000x8x1024.size a := fun v1103 k0_hw111 => k0_hw111

def k0_off223 (i : grid0.Coords) : Fin 1 → Nat :=
  let arg0 : BitVec 32 := BitVec.ofNat 32 (i 0).val
  let c128_i32_776 : BitVec 32 := 128#32
  let v1110 : BitVec 32 := Scalar.muli arg0 c128_i32_776
  let c111_i32 : BitVec 32 := 111#32
  let v1111 : BitVec 32 := Scalar.addi v1110 c111_i32
  let v1112 : Index := Scalar.indexCast v1111
  ![v1112.toNat]
def k0_off224 (v1113 : BitVec 32) : Fin 3 → Nat :=
  let c0_i32_781 : BitVec 32 := 0#32
  let c0_i32_782 : BitVec 32 := 0#32
  ![v1113.toNat, 0, 0]

def k0_chk112 (v1113 : BitVec 32) : Prop :=
  (∀ a, (k0_off224 v1113) a + S1x8x1024.size a ≤ S10000x8x1024.size a)
instance k0_chk112.dec : ∀ (v1113 : BitVec 32), Decidable (k0_chk112 v1113) := fun v1113 => decidable_of_iff' _ (Iff.of_eq (k0_chk112.eq_1 v1113))
theorem k0_off224_inb : ∀ (v1113 : BitVec 32) (k0_hw112 : k0_chk112 v1113), ∀ a, (k0_off224 v1113) a + S1x8x1024.size a ≤ S10000x8x1024.size a := fun v1113 k0_hw112 => k0_hw112

def k0_off225 (i : grid0.Coords) : Fin 1 → Nat :=
  let arg0 : BitVec 32 := BitVec.ofNat 32 (i 0).val
  let c128_i32_783 : BitVec 32 := 128#32
  let v1120 : BitVec 32 := Scalar.muli arg0 c128_i32_783
  let c112_i32 : BitVec 32 := 112#32
  let v1121 : BitVec 32 := Scalar.addi v1120 c112_i32
  let v1122 : Index := Scalar.indexCast v1121
  ![v1122.toNat]
def k0_off226 (v1123 : BitVec 32) : Fin 3 → Nat :=
  let c0_i32_788 : BitVec 32 := 0#32
  let c0_i32_789 : BitVec 32 := 0#32
  ![v1123.toNat, 0, 0]

def k0_chk113 (v1123 : BitVec 32) : Prop :=
  (∀ a, (k0_off226 v1123) a + S1x8x1024.size a ≤ S10000x8x1024.size a)
instance k0_chk113.dec : ∀ (v1123 : BitVec 32), Decidable (k0_chk113 v1123) := fun v1123 => decidable_of_iff' _ (Iff.of_eq (k0_chk113.eq_1 v1123))
theorem k0_off226_inb : ∀ (v1123 : BitVec 32) (k0_hw113 : k0_chk113 v1123), ∀ a, (k0_off226 v1123) a + S1x8x1024.size a ≤ S10000x8x1024.size a := fun v1123 k0_hw113 => k0_hw113

def k0_off227 (i : grid0.Coords) : Fin 1 → Nat :=
  let arg0 : BitVec 32 := BitVec.ofNat 32 (i 0).val
  let c128_i32_790 : BitVec 32 := 128#32
  let v1130 : BitVec 32 := Scalar.muli arg0 c128_i32_790
  let c113_i32 : BitVec 32 := 113#32
  let v1131 : BitVec 32 := Scalar.addi v1130 c113_i32
  let v1132 : Index := Scalar.indexCast v1131
  ![v1132.toNat]
def k0_off228 (v1133 : BitVec 32) : Fin 3 → Nat :=
  let c0_i32_795 : BitVec 32 := 0#32
  let c0_i32_796 : BitVec 32 := 0#32
  ![v1133.toNat, 0, 0]

def k0_chk114 (v1133 : BitVec 32) : Prop :=
  (∀ a, (k0_off228 v1133) a + S1x8x1024.size a ≤ S10000x8x1024.size a)
instance k0_chk114.dec : ∀ (v1133 : BitVec 32), Decidable (k0_chk114 v1133) := fun v1133 => decidable_of_iff' _ (Iff.of_eq (k0_chk114.eq_1 v1133))
theorem k0_off228_inb : ∀ (v1133 : BitVec 32) (k0_hw114 : k0_chk114 v1133), ∀ a, (k0_off228 v1133) a + S1x8x1024.size a ≤ S10000x8x1024.size a := fun v1133 k0_hw114 => k0_hw114

def k0_off229 (i : grid0.Coords) : Fin 1 → Nat :=
  let arg0 : BitVec 32 := BitVec.ofNat 32 (i 0).val
  let c128_i32_797 : BitVec 32 := 128#32
  let v1140 : BitVec 32 := Scalar.muli arg0 c128_i32_797
  let c114_i32 : BitVec 32 := 114#32
  let v1141 : BitVec 32 := Scalar.addi v1140 c114_i32
  let v1142 : Index := Scalar.indexCast v1141
  ![v1142.toNat]
def k0_off230 (v1143 : BitVec 32) : Fin 3 → Nat :=
  let c0_i32_802 : BitVec 32 := 0#32
  let c0_i32_803 : BitVec 32 := 0#32
  ![v1143.toNat, 0, 0]

def k0_chk115 (v1143 : BitVec 32) : Prop :=
  (∀ a, (k0_off230 v1143) a + S1x8x1024.size a ≤ S10000x8x1024.size a)
instance k0_chk115.dec : ∀ (v1143 : BitVec 32), Decidable (k0_chk115 v1143) := fun v1143 => decidable_of_iff' _ (Iff.of_eq (k0_chk115.eq_1 v1143))
theorem k0_off230_inb : ∀ (v1143 : BitVec 32) (k0_hw115 : k0_chk115 v1143), ∀ a, (k0_off230 v1143) a + S1x8x1024.size a ≤ S10000x8x1024.size a := fun v1143 k0_hw115 => k0_hw115

def k0_off231 (i : grid0.Coords) : Fin 1 → Nat :=
  let arg0 : BitVec 32 := BitVec.ofNat 32 (i 0).val
  let c128_i32_804 : BitVec 32 := 128#32
  let v1150 : BitVec 32 := Scalar.muli arg0 c128_i32_804
  let c115_i32 : BitVec 32 := 115#32
  let v1151 : BitVec 32 := Scalar.addi v1150 c115_i32
  let v1152 : Index := Scalar.indexCast v1151
  ![v1152.toNat]
def k0_off232 (v1153 : BitVec 32) : Fin 3 → Nat :=
  let c0_i32_809 : BitVec 32 := 0#32
  let c0_i32_810 : BitVec 32 := 0#32
  ![v1153.toNat, 0, 0]

def k0_chk116 (v1153 : BitVec 32) : Prop :=
  (∀ a, (k0_off232 v1153) a + S1x8x1024.size a ≤ S10000x8x1024.size a)
instance k0_chk116.dec : ∀ (v1153 : BitVec 32), Decidable (k0_chk116 v1153) := fun v1153 => decidable_of_iff' _ (Iff.of_eq (k0_chk116.eq_1 v1153))
theorem k0_off232_inb : ∀ (v1153 : BitVec 32) (k0_hw116 : k0_chk116 v1153), ∀ a, (k0_off232 v1153) a + S1x8x1024.size a ≤ S10000x8x1024.size a := fun v1153 k0_hw116 => k0_hw116

def k0_off233 (i : grid0.Coords) : Fin 1 → Nat :=
  let arg0 : BitVec 32 := BitVec.ofNat 32 (i 0).val
  let c128_i32_811 : BitVec 32 := 128#32
  let v1160 : BitVec 32 := Scalar.muli arg0 c128_i32_811
  let c116_i32 : BitVec 32 := 116#32
  let v1161 : BitVec 32 := Scalar.addi v1160 c116_i32
  let v1162 : Index := Scalar.indexCast v1161
  ![v1162.toNat]
def k0_off234 (v1163 : BitVec 32) : Fin 3 → Nat :=
  let c0_i32_816 : BitVec 32 := 0#32
  let c0_i32_817 : BitVec 32 := 0#32
  ![v1163.toNat, 0, 0]

def k0_chk117 (v1163 : BitVec 32) : Prop :=
  (∀ a, (k0_off234 v1163) a + S1x8x1024.size a ≤ S10000x8x1024.size a)
instance k0_chk117.dec : ∀ (v1163 : BitVec 32), Decidable (k0_chk117 v1163) := fun v1163 => decidable_of_iff' _ (Iff.of_eq (k0_chk117.eq_1 v1163))
theorem k0_off234_inb : ∀ (v1163 : BitVec 32) (k0_hw117 : k0_chk117 v1163), ∀ a, (k0_off234 v1163) a + S1x8x1024.size a ≤ S10000x8x1024.size a := fun v1163 k0_hw117 => k0_hw117

def k0_off235 (i : grid0.Coords) : Fin 1 → Nat :=
  let arg0 : BitVec 32 := BitVec.ofNat 32 (i 0).val
  let c128_i32_818 : BitVec 32 := 128#32
  let v1170 : BitVec 32 := Scalar.muli arg0 c128_i32_818
  let c117_i32 : BitVec 32 := 117#32
  let v1171 : BitVec 32 := Scalar.addi v1170 c117_i32
  let v1172 : Index := Scalar.indexCast v1171
  ![v1172.toNat]
def k0_off236 (v1173 : BitVec 32) : Fin 3 → Nat :=
  let c0_i32_823 : BitVec 32 := 0#32
  let c0_i32_824 : BitVec 32 := 0#32
  ![v1173.toNat, 0, 0]

def k0_chk118 (v1173 : BitVec 32) : Prop :=
  (∀ a, (k0_off236 v1173) a + S1x8x1024.size a ≤ S10000x8x1024.size a)
instance k0_chk118.dec : ∀ (v1173 : BitVec 32), Decidable (k0_chk118 v1173) := fun v1173 => decidable_of_iff' _ (Iff.of_eq (k0_chk118.eq_1 v1173))
theorem k0_off236_inb : ∀ (v1173 : BitVec 32) (k0_hw118 : k0_chk118 v1173), ∀ a, (k0_off236 v1173) a + S1x8x1024.size a ≤ S10000x8x1024.size a := fun v1173 k0_hw118 => k0_hw118

def k0_off237 (i : grid0.Coords) : Fin 1 → Nat :=
  let arg0 : BitVec 32 := BitVec.ofNat 32 (i 0).val
  let c128_i32_825 : BitVec 32 := 128#32
  let v1180 : BitVec 32 := Scalar.muli arg0 c128_i32_825
  let c118_i32 : BitVec 32 := 118#32
  let v1181 : BitVec 32 := Scalar.addi v1180 c118_i32
  let v1182 : Index := Scalar.indexCast v1181
  ![v1182.toNat]
def k0_off238 (v1183 : BitVec 32) : Fin 3 → Nat :=
  let c0_i32_830 : BitVec 32 := 0#32
  let c0_i32_831 : BitVec 32 := 0#32
  ![v1183.toNat, 0, 0]

def k0_chk119 (v1183 : BitVec 32) : Prop :=
  (∀ a, (k0_off238 v1183) a + S1x8x1024.size a ≤ S10000x8x1024.size a)
instance k0_chk119.dec : ∀ (v1183 : BitVec 32), Decidable (k0_chk119 v1183) := fun v1183 => decidable_of_iff' _ (Iff.of_eq (k0_chk119.eq_1 v1183))
theorem k0_off238_inb : ∀ (v1183 : BitVec 32) (k0_hw119 : k0_chk119 v1183), ∀ a, (k0_off238 v1183) a + S1x8x1024.size a ≤ S10000x8x1024.size a := fun v1183 k0_hw119 => k0_hw119

def k0_off239 (i : grid0.Coords) : Fin 1 → Nat :=
  let arg0 : BitVec 32 := BitVec.ofNat 32 (i 0).val
  let c128_i32_832 : BitVec 32 := 128#32
  let v1190 : BitVec 32 := Scalar.muli arg0 c128_i32_832
  let c119_i32 : BitVec 32 := 119#32
  let v1191 : BitVec 32 := Scalar.addi v1190 c119_i32
  let v1192 : Index := Scalar.indexCast v1191
  ![v1192.toNat]
def k0_off240 (v1193 : BitVec 32) : Fin 3 → Nat :=
  let c0_i32_837 : BitVec 32 := 0#32
  let c0_i32_838 : BitVec 32 := 0#32
  ![v1193.toNat, 0, 0]

def k0_chk120 (v1193 : BitVec 32) : Prop :=
  (∀ a, (k0_off240 v1193) a + S1x8x1024.size a ≤ S10000x8x1024.size a)
instance k0_chk120.dec : ∀ (v1193 : BitVec 32), Decidable (k0_chk120 v1193) := fun v1193 => decidable_of_iff' _ (Iff.of_eq (k0_chk120.eq_1 v1193))
theorem k0_off240_inb : ∀ (v1193 : BitVec 32) (k0_hw120 : k0_chk120 v1193), ∀ a, (k0_off240 v1193) a + S1x8x1024.size a ≤ S10000x8x1024.size a := fun v1193 k0_hw120 => k0_hw120

def k0_off241 (i : grid0.Coords) : Fin 1 → Nat :=
  let arg0 : BitVec 32 := BitVec.ofNat 32 (i 0).val
  let c128_i32_839 : BitVec 32 := 128#32
  let v1200 : BitVec 32 := Scalar.muli arg0 c128_i32_839
  let c120_i32 : BitVec 32 := 120#32
  let v1201 : BitVec 32 := Scalar.addi v1200 c120_i32
  let v1202 : Index := Scalar.indexCast v1201
  ![v1202.toNat]
def k0_off242 (v1203 : BitVec 32) : Fin 3 → Nat :=
  let c0_i32_844 : BitVec 32 := 0#32
  let c0_i32_845 : BitVec 32 := 0#32
  ![v1203.toNat, 0, 0]

def k0_chk121 (v1203 : BitVec 32) : Prop :=
  (∀ a, (k0_off242 v1203) a + S1x8x1024.size a ≤ S10000x8x1024.size a)
instance k0_chk121.dec : ∀ (v1203 : BitVec 32), Decidable (k0_chk121 v1203) := fun v1203 => decidable_of_iff' _ (Iff.of_eq (k0_chk121.eq_1 v1203))
theorem k0_off242_inb : ∀ (v1203 : BitVec 32) (k0_hw121 : k0_chk121 v1203), ∀ a, (k0_off242 v1203) a + S1x8x1024.size a ≤ S10000x8x1024.size a := fun v1203 k0_hw121 => k0_hw121

def k0_off243 (i : grid0.Coords) : Fin 1 → Nat :=
  let arg0 : BitVec 32 := BitVec.ofNat 32 (i 0).val
  let c128_i32_846 : BitVec 32 := 128#32
  let v1210 : BitVec 32 := Scalar.muli arg0 c128_i32_846
  let c121_i32 : BitVec 32 := 121#32
  let v1211 : BitVec 32 := Scalar.addi v1210 c121_i32
  let v1212 : Index := Scalar.indexCast v1211
  ![v1212.toNat]
def k0_off244 (v1213 : BitVec 32) : Fin 3 → Nat :=
  let c0_i32_851 : BitVec 32 := 0#32
  let c0_i32_852 : BitVec 32 := 0#32
  ![v1213.toNat, 0, 0]

def k0_chk122 (v1213 : BitVec 32) : Prop :=
  (∀ a, (k0_off244 v1213) a + S1x8x1024.size a ≤ S10000x8x1024.size a)
instance k0_chk122.dec : ∀ (v1213 : BitVec 32), Decidable (k0_chk122 v1213) := fun v1213 => decidable_of_iff' _ (Iff.of_eq (k0_chk122.eq_1 v1213))
theorem k0_off244_inb : ∀ (v1213 : BitVec 32) (k0_hw122 : k0_chk122 v1213), ∀ a, (k0_off244 v1213) a + S1x8x1024.size a ≤ S10000x8x1024.size a := fun v1213 k0_hw122 => k0_hw122

def k0_off245 (i : grid0.Coords) : Fin 1 → Nat :=
  let arg0 : BitVec 32 := BitVec.ofNat 32 (i 0).val
  let c128_i32_853 : BitVec 32 := 128#32
  let v1220 : BitVec 32 := Scalar.muli arg0 c128_i32_853
  let c122_i32 : BitVec 32 := 122#32
  let v1221 : BitVec 32 := Scalar.addi v1220 c122_i32
  let v1222 : Index := Scalar.indexCast v1221
  ![v1222.toNat]
def k0_off246 (v1223 : BitVec 32) : Fin 3 → Nat :=
  let c0_i32_858 : BitVec 32 := 0#32
  let c0_i32_859 : BitVec 32 := 0#32
  ![v1223.toNat, 0, 0]

def k0_chk123 (v1223 : BitVec 32) : Prop :=
  (∀ a, (k0_off246 v1223) a + S1x8x1024.size a ≤ S10000x8x1024.size a)
instance k0_chk123.dec : ∀ (v1223 : BitVec 32), Decidable (k0_chk123 v1223) := fun v1223 => decidable_of_iff' _ (Iff.of_eq (k0_chk123.eq_1 v1223))
theorem k0_off246_inb : ∀ (v1223 : BitVec 32) (k0_hw123 : k0_chk123 v1223), ∀ a, (k0_off246 v1223) a + S1x8x1024.size a ≤ S10000x8x1024.size a := fun v1223 k0_hw123 => k0_hw123

def k0_off247 (i : grid0.Coords) : Fin 1 → Nat :=
  let arg0 : BitVec 32 := BitVec.ofNat 32 (i 0).val
  let c128_i32_860 : BitVec 32 := 128#32
  let v1230 : BitVec 32 := Scalar.muli arg0 c128_i32_860
  let c123_i32 : BitVec 32 := 123#32
  let v1231 : BitVec 32 := Scalar.addi v1230 c123_i32
  let v1232 : Index := Scalar.indexCast v1231
  ![v1232.toNat]
def k0_off248 (v1233 : BitVec 32) : Fin 3 → Nat :=
  let c0_i32_865 : BitVec 32 := 0#32
  let c0_i32_866 : BitVec 32 := 0#32
  ![v1233.toNat, 0, 0]

def k0_chk124 (v1233 : BitVec 32) : Prop :=
  (∀ a, (k0_off248 v1233) a + S1x8x1024.size a ≤ S10000x8x1024.size a)
instance k0_chk124.dec : ∀ (v1233 : BitVec 32), Decidable (k0_chk124 v1233) := fun v1233 => decidable_of_iff' _ (Iff.of_eq (k0_chk124.eq_1 v1233))
theorem k0_off248_inb : ∀ (v1233 : BitVec 32) (k0_hw124 : k0_chk124 v1233), ∀ a, (k0_off248 v1233) a + S1x8x1024.size a ≤ S10000x8x1024.size a := fun v1233 k0_hw124 => k0_hw124

def k0_off249 (i : grid0.Coords) : Fin 1 → Nat :=
  let arg0 : BitVec 32 := BitVec.ofNat 32 (i 0).val
  let c128_i32_867 : BitVec 32 := 128#32
  let v1240 : BitVec 32 := Scalar.muli arg0 c128_i32_867
  let c124_i32 : BitVec 32 := 124#32
  let v1241 : BitVec 32 := Scalar.addi v1240 c124_i32
  let v1242 : Index := Scalar.indexCast v1241
  ![v1242.toNat]
def k0_off250 (v1243 : BitVec 32) : Fin 3 → Nat :=
  let c0_i32_872 : BitVec 32 := 0#32
  let c0_i32_873 : BitVec 32 := 0#32
  ![v1243.toNat, 0, 0]

def k0_chk125 (v1243 : BitVec 32) : Prop :=
  (∀ a, (k0_off250 v1243) a + S1x8x1024.size a ≤ S10000x8x1024.size a)
instance k0_chk125.dec : ∀ (v1243 : BitVec 32), Decidable (k0_chk125 v1243) := fun v1243 => decidable_of_iff' _ (Iff.of_eq (k0_chk125.eq_1 v1243))
theorem k0_off250_inb : ∀ (v1243 : BitVec 32) (k0_hw125 : k0_chk125 v1243), ∀ a, (k0_off250 v1243) a + S1x8x1024.size a ≤ S10000x8x1024.size a := fun v1243 k0_hw125 => k0_hw125

def k0_off251 (i : grid0.Coords) : Fin 1 → Nat :=
  let arg0 : BitVec 32 := BitVec.ofNat 32 (i 0).val
  let c128_i32_874 : BitVec 32 := 128#32
  let v1250 : BitVec 32 := Scalar.muli arg0 c128_i32_874
  let c125_i32 : BitVec 32 := 125#32
  let v1251 : BitVec 32 := Scalar.addi v1250 c125_i32
  let v1252 : Index := Scalar.indexCast v1251
  ![v1252.toNat]
def k0_off252 (v1253 : BitVec 32) : Fin 3 → Nat :=
  let c0_i32_879 : BitVec 32 := 0#32
  let c0_i32_880 : BitVec 32 := 0#32
  ![v1253.toNat, 0, 0]

def k0_chk126 (v1253 : BitVec 32) : Prop :=
  (∀ a, (k0_off252 v1253) a + S1x8x1024.size a ≤ S10000x8x1024.size a)
instance k0_chk126.dec : ∀ (v1253 : BitVec 32), Decidable (k0_chk126 v1253) := fun v1253 => decidable_of_iff' _ (Iff.of_eq (k0_chk126.eq_1 v1253))
theorem k0_off252_inb : ∀ (v1253 : BitVec 32) (k0_hw126 : k0_chk126 v1253), ∀ a, (k0_off252 v1253) a + S1x8x1024.size a ≤ S10000x8x1024.size a := fun v1253 k0_hw126 => k0_hw126

def k0_off253 (i : grid0.Coords) : Fin 1 → Nat :=
  let arg0 : BitVec 32 := BitVec.ofNat 32 (i 0).val
  let c128_i32_881 : BitVec 32 := 128#32
  let v1260 : BitVec 32 := Scalar.muli arg0 c128_i32_881
  let c126_i32 : BitVec 32 := 126#32
  let v1261 : BitVec 32 := Scalar.addi v1260 c126_i32
  let v1262 : Index := Scalar.indexCast v1261
  ![v1262.toNat]
def k0_off254 (v1263 : BitVec 32) : Fin 3 → Nat :=
  let c0_i32_886 : BitVec 32 := 0#32
  let c0_i32_887 : BitVec 32 := 0#32
  ![v1263.toNat, 0, 0]

def k0_chk127 (v1263 : BitVec 32) : Prop :=
  (∀ a, (k0_off254 v1263) a + S1x8x1024.size a ≤ S10000x8x1024.size a)
instance k0_chk127.dec : ∀ (v1263 : BitVec 32), Decidable (k0_chk127 v1263) := fun v1263 => decidable_of_iff' _ (Iff.of_eq (k0_chk127.eq_1 v1263))
theorem k0_off254_inb : ∀ (v1263 : BitVec 32) (k0_hw127 : k0_chk127 v1263), ∀ a, (k0_off254 v1263) a + S1x8x1024.size a ≤ S10000x8x1024.size a := fun v1263 k0_hw127 => k0_hw127

def k0_off255 (i : grid0.Coords) : Fin 1 → Nat :=
  let arg0 : BitVec 32 := BitVec.ofNat 32 (i 0).val
  let c128_i32_888 : BitVec 32 := 128#32
  let v1270 : BitVec 32 := Scalar.muli arg0 c128_i32_888
  let c127_i32 : BitVec 32 := 127#32
  let v1271 : BitVec 32 := Scalar.addi v1270 c127_i32
  let v1272 : Index := Scalar.indexCast v1271
  ![v1272.toNat]
def k0_off256 (v1273 : BitVec 32) : Fin 3 → Nat :=
  let c0_i32_893 : BitVec 32 := 0#32
  let c0_i32_894 : BitVec 32 := 0#32
  ![v1273.toNat, 0, 0]

def k0_chk128 (v1273 : BitVec 32) : Prop :=
  (∀ a, (k0_off256 v1273) a + S1x8x1024.size a ≤ S10000x8x1024.size a)
instance k0_chk128.dec : ∀ (v1273 : BitVec 32), Decidable (k0_chk128 v1273) := fun v1273 => decidable_of_iff' _ (Iff.of_eq (k0_chk128.eq_1 v1273))
theorem k0_off256_inb : ∀ (v1273 : BitVec 32) (k0_hw128 : k0_chk128 v1273), ∀ a, (k0_off256 v1273) a + S1x8x1024.size a ≤ S10000x8x1024.size a := fun v1273 k0_hw128 => k0_hw128

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S4096 : S_.BroadcastsInDim S4096 (![] : Fin 0 → Fin S4096.rank)
  bitsLt_bf16_f32 : FTy.bits .bf16 < FTy.bits .f32
  bcast_S4096_S4096x1_0 : S4096.BroadcastsInDim S4096x1 (![0] : Fin 1 → Fin S4096x1.rank)
  shapeCasts_S4096x8_S32x1x1024 : S4096x8.ShapeCasts S32x1x1024
  shapeCasts_S4096x1x8_S32x1x1024 : S4096x1x8.ShapeCasts S32x1x1024
  shapeCasts_S4096x1_S32x1x128 : S4096x1.ShapeCasts S32x1x128
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S128_S1x128_1 : S128.BroadcastsInDim S1x128 (![1] : Fin 1 → Fin S1x128.rank)
  bcast_S1024x1_S1024x128_0_1 : S1024x1.BroadcastsInDim S1024x128 (![0, 1] : Fin 2 → Fin S1024x128.rank)
  bcast_S1x128_S1024x128_0_1 : S1x128.BroadcastsInDim S1024x128 (![0, 1] : Fin 2 → Fin S1024x128.rank)
  numel1_S1 : S1.numel = 1
  inb_S128_S1_0 : ∀ a, (![0] : Fin 1 → Nat) a + S1.size a ≤ S128.size a
  squeezes_S1_S_ : S1.Squeezes S_
  inb_S128x8x1024_S1x8x1024_0_0_0 : ∀ a, (![0, 0, 0] : Fin 3 → Nat) a + S1x8x1024.size a ≤ S128x8x1024.size a
  squeezes_S1x8x1024_S8x1024 : S1x8x1024.Squeezes S8x1024
  inb_S128_S1_1 : ∀ a, (![1] : Fin 1 → Nat) a + S1.size a ≤ S128.size a
  inb_S128x8x1024_S1x8x1024_1_0_0 : ∀ a, (![1, 0, 0] : Fin 3 → Nat) a + S1x8x1024.size a ≤ S128x8x1024.size a
  inb_S128_S1_2 : ∀ a, (![2] : Fin 1 → Nat) a + S1.size a ≤ S128.size a
  inb_S128x8x1024_S1x8x1024_2_0_0 : ∀ a, (![2, 0, 0] : Fin 3 → Nat) a + S1x8x1024.size a ≤ S128x8x1024.size a
  inb_S128_S1_3 : ∀ a, (![3] : Fin 1 → Nat) a + S1.size a ≤ S128.size a
  inb_S128x8x1024_S1x8x1024_3_0_0 : ∀ a, (![3, 0, 0] : Fin 3 → Nat) a + S1x8x1024.size a ≤ S128x8x1024.size a
  inb_S128_S1_4 : ∀ a, (![4] : Fin 1 → Nat) a + S1.size a ≤ S128.size a
  inb_S128x8x1024_S1x8x1024_4_0_0 : ∀ a, (![4, 0, 0] : Fin 3 → Nat) a + S1x8x1024.size a ≤ S128x8x1024.size a
  inb_S128_S1_5 : ∀ a, (![5] : Fin 1 → Nat) a + S1.size a ≤ S128.size a
  inb_S128x8x1024_S1x8x1024_5_0_0 : ∀ a, (![5, 0, 0] : Fin 3 → Nat) a + S1x8x1024.size a ≤ S128x8x1024.size a
  inb_S128_S1_6 : ∀ a, (![6] : Fin 1 → Nat) a + S1.size a ≤ S128.size a
  inb_S128x8x1024_S1x8x1024_6_0_0 : ∀ a, (![6, 0, 0] : Fin 3 → Nat) a + S1x8x1024.size a ≤ S128x8x1024.size a
  inb_S128_S1_7 : ∀ a, (![7] : Fin 1 → Nat) a + S1.size a ≤ S128.size a
  inb_S128x8x1024_S1x8x1024_7_0_0 : ∀ a, (![7, 0, 0] : Fin 3 → Nat) a + S1x8x1024.size a ≤ S128x8x1024.size a
  inb_S128_S1_8 : ∀ a, (![8] : Fin 1 → Nat) a + S1.size a ≤ S128.size a
  inb_S128x8x1024_S1x8x1024_8_0_0 : ∀ a, (![8, 0, 0] : Fin 3 → Nat) a + S1x8x1024.size a ≤ S128x8x1024.size a
  inb_S128_S1_9 : ∀ a, (![9] : Fin 1 → Nat) a + S1.size a ≤ S128.size a
  inb_S128x8x1024_S1x8x1024_9_0_0 : ∀ a, (![9, 0, 0] : Fin 3 → Nat) a + S1x8x1024.size a ≤ S128x8x1024.size a
  inb_S128_S1_10 : ∀ a, (![10] : Fin 1 → Nat) a + S1.size a ≤ S128.size a
  inb_S128x8x1024_S1x8x1024_10_0_0 : ∀ a, (![10, 0, 0] : Fin 3 → Nat) a + S1x8x1024.size a ≤ S128x8x1024.size a
  inb_S128_S1_11 : ∀ a, (![11] : Fin 1 → Nat) a + S1.size a ≤ S128.size a
  inb_S128x8x1024_S1x8x1024_11_0_0 : ∀ a, (![11, 0, 0] : Fin 3 → Nat) a + S1x8x1024.size a ≤ S128x8x1024.size a
  inb_S128_S1_12 : ∀ a, (![12] : Fin 1 → Nat) a + S1.size a ≤ S128.size a
  inb_S128x8x1024_S1x8x1024_12_0_0 : ∀ a, (![12, 0, 0] : Fin 3 → Nat) a + S1x8x1024.size a ≤ S128x8x1024.size a
  inb_S128_S1_13 : ∀ a, (![13] : Fin 1 → Nat) a + S1.size a ≤ S128.size a
  inb_S128x8x1024_S1x8x1024_13_0_0 : ∀ a, (![13, 0, 0] : Fin 3 → Nat) a + S1x8x1024.size a ≤ S128x8x1024.size a
  inb_S128_S1_14 : ∀ a, (![14] : Fin 1 → Nat) a + S1.size a ≤ S128.size a
  inb_S128x8x1024_S1x8x1024_14_0_0 : ∀ a, (![14, 0, 0] : Fin 3 → Nat) a + S1x8x1024.size a ≤ S128x8x1024.size a
  inb_S128_S1_15 : ∀ a, (![15] : Fin 1 → Nat) a + S1.size a ≤ S128.size a
  inb_S128x8x1024_S1x8x1024_15_0_0 : ∀ a, (![15, 0, 0] : Fin 3 → Nat) a + S1x8x1024.size a ≤ S128x8x1024.size a
  inb_S128_S1_16 : ∀ a, (![16] : Fin 1 → Nat) a + S1.size a ≤ S128.size a
  inb_S128x8x1024_S1x8x1024_16_0_0 : ∀ a, (![16, 0, 0] : Fin 3 → Nat) a + S1x8x1024.size a ≤ S128x8x1024.size a
  inb_S128_S1_17 : ∀ a, (![17] : Fin 1 → Nat) a + S1.size a ≤ S128.size a
  inb_S128x8x1024_S1x8x1024_17_0_0 : ∀ a, (![17, 0, 0] : Fin 3 → Nat) a + S1x8x1024.size a ≤ S128x8x1024.size a
  inb_S128_S1_18 : ∀ a, (![18] : Fin 1 → Nat) a + S1.size a ≤ S128.size a
  inb_S128x8x1024_S1x8x1024_18_0_0 : ∀ a, (![18, 0, 0] : Fin 3 → Nat) a + S1x8x1024.size a ≤ S128x8x1024.size a
  inb_S128_S1_19 : ∀ a, (![19] : Fin 1 → Nat) a + S1.size a ≤ S128.size a
  inb_S128x8x1024_S1x8x1024_19_0_0 : ∀ a, (![19, 0, 0] : Fin 3 → Nat) a + S1x8x1024.size a ≤ S128x8x1024.size a
  inb_S128_S1_20 : ∀ a, (![20] : Fin 1 → Nat) a + S1.size a ≤ S128.size a
  inb_S128x8x1024_S1x8x1024_20_0_0 : ∀ a, (![20, 0, 0] : Fin 3 → Nat) a + S1x8x1024.size a ≤ S128x8x1024.size a
  inb_S128_S1_21 : ∀ a, (![21] : Fin 1 → Nat) a + S1.size a ≤ S128.size a
  inb_S128x8x1024_S1x8x1024_21_0_0 : ∀ a, (![21, 0, 0] : Fin 3 → Nat) a + S1x8x1024.size a ≤ S128x8x1024.size a
  inb_S128_S1_22 : ∀ a, (![22] : Fin 1 → Nat) a + S1.size a ≤ S128.size a
  inb_S128x8x1024_S1x8x1024_22_0_0 : ∀ a, (![22, 0, 0] : Fin 3 → Nat) a + S1x8x1024.size a ≤ S128x8x1024.size a
  inb_S128_S1_23 : ∀ a, (![23] : Fin 1 → Nat) a + S1.size a ≤ S128.size a
  inb_S128x8x1024_S1x8x1024_23_0_0 : ∀ a, (![23, 0, 0] : Fin 3 → Nat) a + S1x8x1024.size a ≤ S128x8x1024.size a
  inb_S128_S1_24 : ∀ a, (![24] : Fin 1 → Nat) a + S1.size a ≤ S128.size a
  inb_S128x8x1024_S1x8x1024_24_0_0 : ∀ a, (![24, 0, 0] : Fin 3 → Nat) a + S1x8x1024.size a ≤ S128x8x1024.size a
  inb_S128_S1_25 : ∀ a, (![25] : Fin 1 → Nat) a + S1.size a ≤ S128.size a
  inb_S128x8x1024_S1x8x1024_25_0_0 : ∀ a, (![25, 0, 0] : Fin 3 → Nat) a + S1x8x1024.size a ≤ S128x8x1024.size a
  inb_S128_S1_26 : ∀ a, (![26] : Fin 1 → Nat) a + S1.size a ≤ S128.size a
  inb_S128x8x1024_S1x8x1024_26_0_0 : ∀ a, (![26, 0, 0] : Fin 3 → Nat) a + S1x8x1024.size a ≤ S128x8x1024.size a
  inb_S128_S1_27 : ∀ a, (![27] : Fin 1 → Nat) a + S1.size a ≤ S128.size a
  inb_S128x8x1024_S1x8x1024_27_0_0 : ∀ a, (![27, 0, 0] : Fin 3 → Nat) a + S1x8x1024.size a ≤ S128x8x1024.size a
  inb_S128_S1_28 : ∀ a, (![28] : Fin 1 → Nat) a + S1.size a ≤ S128.size a
  inb_S128x8x1024_S1x8x1024_28_0_0 : ∀ a, (![28, 0, 0] : Fin 3 → Nat) a + S1x8x1024.size a ≤ S128x8x1024.size a
  inb_S128_S1_29 : ∀ a, (![29] : Fin 1 → Nat) a + S1.size a ≤ S128.size a
  inb_S128x8x1024_S1x8x1024_29_0_0 : ∀ a, (![29, 0, 0] : Fin 3 → Nat) a + S1x8x1024.size a ≤ S128x8x1024.size a
  inb_S128_S1_30 : ∀ a, (![30] : Fin 1 → Nat) a + S1.size a ≤ S128.size a
  inb_S128x8x1024_S1x8x1024_30_0_0 : ∀ a, (![30, 0, 0] : Fin 3 → Nat) a + S1x8x1024.size a ≤ S128x8x1024.size a
  inb_S128_S1_31 : ∀ a, (![31] : Fin 1 → Nat) a + S1.size a ≤ S128.size a
  inb_S128x8x1024_S1x8x1024_31_0_0 : ∀ a, (![31, 0, 0] : Fin 3 → Nat) a + S1x8x1024.size a ≤ S128x8x1024.size a
  inb_S128_S1_32 : ∀ a, (![32] : Fin 1 → Nat) a + S1.size a ≤ S128.size a
  inb_S128x8x1024_S1x8x1024_32_0_0 : ∀ a, (![32, 0, 0] : Fin 3 → Nat) a + S1x8x1024.size a ≤ S128x8x1024.size a
  inb_S128_S1_33 : ∀ a, (![33] : Fin 1 → Nat) a + S1.size a ≤ S128.size a
  inb_S128x8x1024_S1x8x1024_33_0_0 : ∀ a, (![33, 0, 0] : Fin 3 → Nat) a + S1x8x1024.size a ≤ S128x8x1024.size a
  inb_S128_S1_34 : ∀ a, (![34] : Fin 1 → Nat) a + S1.size a ≤ S128.size a
  inb_S128x8x1024_S1x8x1024_34_0_0 : ∀ a, (![34, 0, 0] : Fin 3 → Nat) a + S1x8x1024.size a ≤ S128x8x1024.size a
  inb_S128_S1_35 : ∀ a, (![35] : Fin 1 → Nat) a + S1.size a ≤ S128.size a
  inb_S128x8x1024_S1x8x1024_35_0_0 : ∀ a, (![35, 0, 0] : Fin 3 → Nat) a + S1x8x1024.size a ≤ S128x8x1024.size a
  inb_S128_S1_36 : ∀ a, (![36] : Fin 1 → Nat) a + S1.size a ≤ S128.size a
  inb_S128x8x1024_S1x8x1024_36_0_0 : ∀ a, (![36, 0, 0] : Fin 3 → Nat) a + S1x8x1024.size a ≤ S128x8x1024.size a
  inb_S128_S1_37 : ∀ a, (![37] : Fin 1 → Nat) a + S1.size a ≤ S128.size a
  inb_S128x8x1024_S1x8x1024_37_0_0 : ∀ a, (![37, 0, 0] : Fin 3 → Nat) a + S1x8x1024.size a ≤ S128x8x1024.size a
  inb_S128_S1_38 : ∀ a, (![38] : Fin 1 → Nat) a + S1.size a ≤ S128.size a
  inb_S128x8x1024_S1x8x1024_38_0_0 : ∀ a, (![38, 0, 0] : Fin 3 → Nat) a + S1x8x1024.size a ≤ S128x8x1024.size a
  inb_S128_S1_39 : ∀ a, (![39] : Fin 1 → Nat) a + S1.size a ≤ S128.size a
  inb_S128x8x1024_S1x8x1024_39_0_0 : ∀ a, (![39, 0, 0] : Fin 3 → Nat) a + S1x8x1024.size a ≤ S128x8x1024.size a
  inb_S128_S1_40 : ∀ a, (![40] : Fin 1 → Nat) a + S1.size a ≤ S128.size a
  inb_S128x8x1024_S1x8x1024_40_0_0 : ∀ a, (![40, 0, 0] : Fin 3 → Nat) a + S1x8x1024.size a ≤ S128x8x1024.size a
  inb_S128_S1_41 : ∀ a, (![41] : Fin 1 → Nat) a + S1.size a ≤ S128.size a
  inb_S128x8x1024_S1x8x1024_41_0_0 : ∀ a, (![41, 0, 0] : Fin 3 → Nat) a + S1x8x1024.size a ≤ S128x8x1024.size a
  inb_S128_S1_42 : ∀ a, (![42] : Fin 1 → Nat) a + S1.size a ≤ S128.size a
  inb_S128x8x1024_S1x8x1024_42_0_0 : ∀ a, (![42, 0, 0] : Fin 3 → Nat) a + S1x8x1024.size a ≤ S128x8x1024.size a
  inb_S128_S1_43 : ∀ a, (![43] : Fin 1 → Nat) a + S1.size a ≤ S128.size a
  inb_S128x8x1024_S1x8x1024_43_0_0 : ∀ a, (![43, 0, 0] : Fin 3 → Nat) a + S1x8x1024.size a ≤ S128x8x1024.size a
  inb_S128_S1_44 : ∀ a, (![44] : Fin 1 → Nat) a + S1.size a ≤ S128.size a
  inb_S128x8x1024_S1x8x1024_44_0_0 : ∀ a, (![44, 0, 0] : Fin 3 → Nat) a + S1x8x1024.size a ≤ S128x8x1024.size a
  inb_S128_S1_45 : ∀ a, (![45] : Fin 1 → Nat) a + S1.size a ≤ S128.size a
  inb_S128x8x1024_S1x8x1024_45_0_0 : ∀ a, (![45, 0, 0] : Fin 3 → Nat) a + S1x8x1024.size a ≤ S128x8x1024.size a
  inb_S128_S1_46 : ∀ a, (![46] : Fin 1 → Nat) a + S1.size a ≤ S128.size a
  inb_S128x8x1024_S1x8x1024_46_0_0 : ∀ a, (![46, 0, 0] : Fin 3 → Nat) a + S1x8x1024.size a ≤ S128x8x1024.size a
  inb_S128_S1_47 : ∀ a, (![47] : Fin 1 → Nat) a + S1.size a ≤ S128.size a
  inb_S128x8x1024_S1x8x1024_47_0_0 : ∀ a, (![47, 0, 0] : Fin 3 → Nat) a + S1x8x1024.size a ≤ S128x8x1024.size a
  inb_S128_S1_48 : ∀ a, (![48] : Fin 1 → Nat) a + S1.size a ≤ S128.size a
  inb_S128x8x1024_S1x8x1024_48_0_0 : ∀ a, (![48, 0, 0] : Fin 3 → Nat) a + S1x8x1024.size a ≤ S128x8x1024.size a
  inb_S128_S1_49 : ∀ a, (![49] : Fin 1 → Nat) a + S1.size a ≤ S128.size a
  inb_S128x8x1024_S1x8x1024_49_0_0 : ∀ a, (![49, 0, 0] : Fin 3 → Nat) a + S1x8x1024.size a ≤ S128x8x1024.size a
  inb_S128_S1_50 : ∀ a, (![50] : Fin 1 → Nat) a + S1.size a ≤ S128.size a
  inb_S128x8x1024_S1x8x1024_50_0_0 : ∀ a, (![50, 0, 0] : Fin 3 → Nat) a + S1x8x1024.size a ≤ S128x8x1024.size a
  inb_S128_S1_51 : ∀ a, (![51] : Fin 1 → Nat) a + S1.size a ≤ S128.size a
  inb_S128x8x1024_S1x8x1024_51_0_0 : ∀ a, (![51, 0, 0] : Fin 3 → Nat) a + S1x8x1024.size a ≤ S128x8x1024.size a
  inb_S128_S1_52 : ∀ a, (![52] : Fin 1 → Nat) a + S1.size a ≤ S128.size a
  inb_S128x8x1024_S1x8x1024_52_0_0 : ∀ a, (![52, 0, 0] : Fin 3 → Nat) a + S1x8x1024.size a ≤ S128x8x1024.size a
  inb_S128_S1_53 : ∀ a, (![53] : Fin 1 → Nat) a + S1.size a ≤ S128.size a
  inb_S128x8x1024_S1x8x1024_53_0_0 : ∀ a, (![53, 0, 0] : Fin 3 → Nat) a + S1x8x1024.size a ≤ S128x8x1024.size a
  inb_S128_S1_54 : ∀ a, (![54] : Fin 1 → Nat) a + S1.size a ≤ S128.size a
  inb_S128x8x1024_S1x8x1024_54_0_0 : ∀ a, (![54, 0, 0] : Fin 3 → Nat) a + S1x8x1024.size a ≤ S128x8x1024.size a
  inb_S128_S1_55 : ∀ a, (![55] : Fin 1 → Nat) a + S1.size a ≤ S128.size a
  inb_S128x8x1024_S1x8x1024_55_0_0 : ∀ a, (![55, 0, 0] : Fin 3 → Nat) a + S1x8x1024.size a ≤ S128x8x1024.size a
  inb_S128_S1_56 : ∀ a, (![56] : Fin 1 → Nat) a + S1.size a ≤ S128.size a
  inb_S128x8x1024_S1x8x1024_56_0_0 : ∀ a, (![56, 0, 0] : Fin 3 → Nat) a + S1x8x1024.size a ≤ S128x8x1024.size a
  inb_S128_S1_57 : ∀ a, (![57] : Fin 1 → Nat) a + S1.size a ≤ S128.size a
  inb_S128x8x1024_S1x8x1024_57_0_0 : ∀ a, (![57, 0, 0] : Fin 3 → Nat) a + S1x8x1024.size a ≤ S128x8x1024.size a
  inb_S128_S1_58 : ∀ a, (![58] : Fin 1 → Nat) a + S1.size a ≤ S128.size a
  inb_S128x8x1024_S1x8x1024_58_0_0 : ∀ a, (![58, 0, 0] : Fin 3 → Nat) a + S1x8x1024.size a ≤ S128x8x1024.size a
  inb_S128_S1_59 : ∀ a, (![59] : Fin 1 → Nat) a + S1.size a ≤ S128.size a
  inb_S128x8x1024_S1x8x1024_59_0_0 : ∀ a, (![59, 0, 0] : Fin 3 → Nat) a + S1x8x1024.size a ≤ S128x8x1024.size a
  inb_S128_S1_60 : ∀ a, (![60] : Fin 1 → Nat) a + S1.size a ≤ S128.size a
  inb_S128x8x1024_S1x8x1024_60_0_0 : ∀ a, (![60, 0, 0] : Fin 3 → Nat) a + S1x8x1024.size a ≤ S128x8x1024.size a
  inb_S128_S1_61 : ∀ a, (![61] : Fin 1 → Nat) a + S1.size a ≤ S128.size a
  inb_S128x8x1024_S1x8x1024_61_0_0 : ∀ a, (![61, 0, 0] : Fin 3 → Nat) a + S1x8x1024.size a ≤ S128x8x1024.size a
  inb_S128_S1_62 : ∀ a, (![62] : Fin 1 → Nat) a + S1.size a ≤ S128.size a
  inb_S128x8x1024_S1x8x1024_62_0_0 : ∀ a, (![62, 0, 0] : Fin 3 → Nat) a + S1x8x1024.size a ≤ S128x8x1024.size a
  inb_S128_S1_63 : ∀ a, (![63] : Fin 1 → Nat) a + S1.size a ≤ S128.size a
  inb_S128x8x1024_S1x8x1024_63_0_0 : ∀ a, (![63, 0, 0] : Fin 3 → Nat) a + S1x8x1024.size a ≤ S128x8x1024.size a
  inb_S128_S1_64 : ∀ a, (![64] : Fin 1 → Nat) a + S1.size a ≤ S128.size a
  inb_S128x8x1024_S1x8x1024_64_0_0 : ∀ a, (![64, 0, 0] : Fin 3 → Nat) a + S1x8x1024.size a ≤ S128x8x1024.size a
  inb_S128_S1_65 : ∀ a, (![65] : Fin 1 → Nat) a + S1.size a ≤ S128.size a
  inb_S128x8x1024_S1x8x1024_65_0_0 : ∀ a, (![65, 0, 0] : Fin 3 → Nat) a + S1x8x1024.size a ≤ S128x8x1024.size a
  inb_S128_S1_66 : ∀ a, (![66] : Fin 1 → Nat) a + S1.size a ≤ S128.size a
  inb_S128x8x1024_S1x8x1024_66_0_0 : ∀ a, (![66, 0, 0] : Fin 3 → Nat) a + S1x8x1024.size a ≤ S128x8x1024.size a
  inb_S128_S1_67 : ∀ a, (![67] : Fin 1 → Nat) a + S1.size a ≤ S128.size a
  inb_S128x8x1024_S1x8x1024_67_0_0 : ∀ a, (![67, 0, 0] : Fin 3 → Nat) a + S1x8x1024.size a ≤ S128x8x1024.size a
  inb_S128_S1_68 : ∀ a, (![68] : Fin 1 → Nat) a + S1.size a ≤ S128.size a
  inb_S128x8x1024_S1x8x1024_68_0_0 : ∀ a, (![68, 0, 0] : Fin 3 → Nat) a + S1x8x1024.size a ≤ S128x8x1024.size a
  inb_S128_S1_69 : ∀ a, (![69] : Fin 1 → Nat) a + S1.size a ≤ S128.size a
  inb_S128x8x1024_S1x8x1024_69_0_0 : ∀ a, (![69, 0, 0] : Fin 3 → Nat) a + S1x8x1024.size a ≤ S128x8x1024.size a
  inb_S128_S1_70 : ∀ a, (![70] : Fin 1 → Nat) a + S1.size a ≤ S128.size a
  inb_S128x8x1024_S1x8x1024_70_0_0 : ∀ a, (![70, 0, 0] : Fin 3 → Nat) a + S1x8x1024.size a ≤ S128x8x1024.size a
  inb_S128_S1_71 : ∀ a, (![71] : Fin 1 → Nat) a + S1.size a ≤ S128.size a
  inb_S128x8x1024_S1x8x1024_71_0_0 : ∀ a, (![71, 0, 0] : Fin 3 → Nat) a + S1x8x1024.size a ≤ S128x8x1024.size a
  inb_S128_S1_72 : ∀ a, (![72] : Fin 1 → Nat) a + S1.size a ≤ S128.size a
  inb_S128x8x1024_S1x8x1024_72_0_0 : ∀ a, (![72, 0, 0] : Fin 3 → Nat) a + S1x8x1024.size a ≤ S128x8x1024.size a
  inb_S128_S1_73 : ∀ a, (![73] : Fin 1 → Nat) a + S1.size a ≤ S128.size a
  inb_S128x8x1024_S1x8x1024_73_0_0 : ∀ a, (![73, 0, 0] : Fin 3 → Nat) a + S1x8x1024.size a ≤ S128x8x1024.size a
  inb_S128_S1_74 : ∀ a, (![74] : Fin 1 → Nat) a + S1.size a ≤ S128.size a
  inb_S128x8x1024_S1x8x1024_74_0_0 : ∀ a, (![74, 0, 0] : Fin 3 → Nat) a + S1x8x1024.size a ≤ S128x8x1024.size a
  inb_S128_S1_75 : ∀ a, (![75] : Fin 1 → Nat) a + S1.size a ≤ S128.size a
  inb_S128x8x1024_S1x8x1024_75_0_0 : ∀ a, (![75, 0, 0] : Fin 3 → Nat) a + S1x8x1024.size a ≤ S128x8x1024.size a
  inb_S128_S1_76 : ∀ a, (![76] : Fin 1 → Nat) a + S1.size a ≤ S128.size a
  inb_S128x8x1024_S1x8x1024_76_0_0 : ∀ a, (![76, 0, 0] : Fin 3 → Nat) a + S1x8x1024.size a ≤ S128x8x1024.size a
  inb_S128_S1_77 : ∀ a, (![77] : Fin 1 → Nat) a + S1.size a ≤ S128.size a
  inb_S128x8x1024_S1x8x1024_77_0_0 : ∀ a, (![77, 0, 0] : Fin 3 → Nat) a + S1x8x1024.size a ≤ S128x8x1024.size a
  inb_S128_S1_78 : ∀ a, (![78] : Fin 1 → Nat) a + S1.size a ≤ S128.size a
  inb_S128x8x1024_S1x8x1024_78_0_0 : ∀ a, (![78, 0, 0] : Fin 3 → Nat) a + S1x8x1024.size a ≤ S128x8x1024.size a
  inb_S128_S1_79 : ∀ a, (![79] : Fin 1 → Nat) a + S1.size a ≤ S128.size a
  inb_S128x8x1024_S1x8x1024_79_0_0 : ∀ a, (![79, 0, 0] : Fin 3 → Nat) a + S1x8x1024.size a ≤ S128x8x1024.size a
  inb_S128_S1_80 : ∀ a, (![80] : Fin 1 → Nat) a + S1.size a ≤ S128.size a
  inb_S128x8x1024_S1x8x1024_80_0_0 : ∀ a, (![80, 0, 0] : Fin 3 → Nat) a + S1x8x1024.size a ≤ S128x8x1024.size a
  inb_S128_S1_81 : ∀ a, (![81] : Fin 1 → Nat) a + S1.size a ≤ S128.size a
  inb_S128x8x1024_S1x8x1024_81_0_0 : ∀ a, (![81, 0, 0] : Fin 3 → Nat) a + S1x8x1024.size a ≤ S128x8x1024.size a
  inb_S128_S1_82 : ∀ a, (![82] : Fin 1 → Nat) a + S1.size a ≤ S128.size a
  inb_S128x8x1024_S1x8x1024_82_0_0 : ∀ a, (![82, 0, 0] : Fin 3 → Nat) a + S1x8x1024.size a ≤ S128x8x1024.size a
  inb_S128_S1_83 : ∀ a, (![83] : Fin 1 → Nat) a + S1.size a ≤ S128.size a
  inb_S128x8x1024_S1x8x1024_83_0_0 : ∀ a, (![83, 0, 0] : Fin 3 → Nat) a + S1x8x1024.size a ≤ S128x8x1024.size a
  inb_S128_S1_84 : ∀ a, (![84] : Fin 1 → Nat) a + S1.size a ≤ S128.size a
  inb_S128x8x1024_S1x8x1024_84_0_0 : ∀ a, (![84, 0, 0] : Fin 3 → Nat) a + S1x8x1024.size a ≤ S128x8x1024.size a
  inb_S128_S1_85 : ∀ a, (![85] : Fin 1 → Nat) a + S1.size a ≤ S128.size a
  inb_S128x8x1024_S1x8x1024_85_0_0 : ∀ a, (![85, 0, 0] : Fin 3 → Nat) a + S1x8x1024.size a ≤ S128x8x1024.size a
  inb_S128_S1_86 : ∀ a, (![86] : Fin 1 → Nat) a + S1.size a ≤ S128.size a
  inb_S128x8x1024_S1x8x1024_86_0_0 : ∀ a, (![86, 0, 0] : Fin 3 → Nat) a + S1x8x1024.size a ≤ S128x8x1024.size a
  inb_S128_S1_87 : ∀ a, (![87] : Fin 1 → Nat) a + S1.size a ≤ S128.size a
  inb_S128x8x1024_S1x8x1024_87_0_0 : ∀ a, (![87, 0, 0] : Fin 3 → Nat) a + S1x8x1024.size a ≤ S128x8x1024.size a
  inb_S128_S1_88 : ∀ a, (![88] : Fin 1 → Nat) a + S1.size a ≤ S128.size a
  inb_S128x8x1024_S1x8x1024_88_0_0 : ∀ a, (![88, 0, 0] : Fin 3 → Nat) a + S1x8x1024.size a ≤ S128x8x1024.size a
  inb_S128_S1_89 : ∀ a, (![89] : Fin 1 → Nat) a + S1.size a ≤ S128.size a
  inb_S128x8x1024_S1x8x1024_89_0_0 : ∀ a, (![89, 0, 0] : Fin 3 → Nat) a + S1x8x1024.size a ≤ S128x8x1024.size a
  inb_S128_S1_90 : ∀ a, (![90] : Fin 1 → Nat) a + S1.size a ≤ S128.size a
  inb_S128x8x1024_S1x8x1024_90_0_0 : ∀ a, (![90, 0, 0] : Fin 3 → Nat) a + S1x8x1024.size a ≤ S128x8x1024.size a
  inb_S128_S1_91 : ∀ a, (![91] : Fin 1 → Nat) a + S1.size a ≤ S128.size a
  inb_S128x8x1024_S1x8x1024_91_0_0 : ∀ a, (![91, 0, 0] : Fin 3 → Nat) a + S1x8x1024.size a ≤ S128x8x1024.size a
  inb_S128_S1_92 : ∀ a, (![92] : Fin 1 → Nat) a + S1.size a ≤ S128.size a
  inb_S128x8x1024_S1x8x1024_92_0_0 : ∀ a, (![92, 0, 0] : Fin 3 → Nat) a + S1x8x1024.size a ≤ S128x8x1024.size a
  inb_S128_S1_93 : ∀ a, (![93] : Fin 1 → Nat) a + S1.size a ≤ S128.size a
  inb_S128x8x1024_S1x8x1024_93_0_0 : ∀ a, (![93, 0, 0] : Fin 3 → Nat) a + S1x8x1024.size a ≤ S128x8x1024.size a
  inb_S128_S1_94 : ∀ a, (![94] : Fin 1 → Nat) a + S1.size a ≤ S128.size a
  inb_S128x8x1024_S1x8x1024_94_0_0 : ∀ a, (![94, 0, 0] : Fin 3 → Nat) a + S1x8x1024.size a ≤ S128x8x1024.size a
  inb_S128_S1_95 : ∀ a, (![95] : Fin 1 → Nat) a + S1.size a ≤ S128.size a
  inb_S128x8x1024_S1x8x1024_95_0_0 : ∀ a, (![95, 0, 0] : Fin 3 → Nat) a + S1x8x1024.size a ≤ S128x8x1024.size a
  inb_S128_S1_96 : ∀ a, (![96] : Fin 1 → Nat) a + S1.size a ≤ S128.size a
  inb_S128x8x1024_S1x8x1024_96_0_0 : ∀ a, (![96, 0, 0] : Fin 3 → Nat) a + S1x8x1024.size a ≤ S128x8x1024.size a
  inb_S128_S1_97 : ∀ a, (![97] : Fin 1 → Nat) a + S1.size a ≤ S128.size a
  inb_S128x8x1024_S1x8x1024_97_0_0 : ∀ a, (![97, 0, 0] : Fin 3 → Nat) a + S1x8x1024.size a ≤ S128x8x1024.size a
  inb_S128_S1_98 : ∀ a, (![98] : Fin 1 → Nat) a + S1.size a ≤ S128.size a
  inb_S128x8x1024_S1x8x1024_98_0_0 : ∀ a, (![98, 0, 0] : Fin 3 → Nat) a + S1x8x1024.size a ≤ S128x8x1024.size a
  inb_S128_S1_99 : ∀ a, (![99] : Fin 1 → Nat) a + S1.size a ≤ S128.size a
  inb_S128x8x1024_S1x8x1024_99_0_0 : ∀ a, (![99, 0, 0] : Fin 3 → Nat) a + S1x8x1024.size a ≤ S128x8x1024.size a
  inb_S128_S1_100 : ∀ a, (![100] : Fin 1 → Nat) a + S1.size a ≤ S128.size a
  inb_S128x8x1024_S1x8x1024_100_0_0 : ∀ a, (![100, 0, 0] : Fin 3 → Nat) a + S1x8x1024.size a ≤ S128x8x1024.size a
  inb_S128_S1_101 : ∀ a, (![101] : Fin 1 → Nat) a + S1.size a ≤ S128.size a
  inb_S128x8x1024_S1x8x1024_101_0_0 : ∀ a, (![101, 0, 0] : Fin 3 → Nat) a + S1x8x1024.size a ≤ S128x8x1024.size a
  inb_S128_S1_102 : ∀ a, (![102] : Fin 1 → Nat) a + S1.size a ≤ S128.size a
  inb_S128x8x1024_S1x8x1024_102_0_0 : ∀ a, (![102, 0, 0] : Fin 3 → Nat) a + S1x8x1024.size a ≤ S128x8x1024.size a
  inb_S128_S1_103 : ∀ a, (![103] : Fin 1 → Nat) a + S1.size a ≤ S128.size a
  inb_S128x8x1024_S1x8x1024_103_0_0 : ∀ a, (![103, 0, 0] : Fin 3 → Nat) a + S1x8x1024.size a ≤ S128x8x1024.size a
  inb_S128_S1_104 : ∀ a, (![104] : Fin 1 → Nat) a + S1.size a ≤ S128.size a
  inb_S128x8x1024_S1x8x1024_104_0_0 : ∀ a, (![104, 0, 0] : Fin 3 → Nat) a + S1x8x1024.size a ≤ S128x8x1024.size a
  inb_S128_S1_105 : ∀ a, (![105] : Fin 1 → Nat) a + S1.size a ≤ S128.size a
  inb_S128x8x1024_S1x8x1024_105_0_0 : ∀ a, (![105, 0, 0] : Fin 3 → Nat) a + S1x8x1024.size a ≤ S128x8x1024.size a
  inb_S128_S1_106 : ∀ a, (![106] : Fin 1 → Nat) a + S1.size a ≤ S128.size a
  inb_S128x8x1024_S1x8x1024_106_0_0 : ∀ a, (![106, 0, 0] : Fin 3 → Nat) a + S1x8x1024.size a ≤ S128x8x1024.size a
  inb_S128_S1_107 : ∀ a, (![107] : Fin 1 → Nat) a + S1.size a ≤ S128.size a
  inb_S128x8x1024_S1x8x1024_107_0_0 : ∀ a, (![107, 0, 0] : Fin 3 → Nat) a + S1x8x1024.size a ≤ S128x8x1024.size a
  inb_S128_S1_108 : ∀ a, (![108] : Fin 1 → Nat) a + S1.size a ≤ S128.size a
  inb_S128x8x1024_S1x8x1024_108_0_0 : ∀ a, (![108, 0, 0] : Fin 3 → Nat) a + S1x8x1024.size a ≤ S128x8x1024.size a
  inb_S128_S1_109 : ∀ a, (![109] : Fin 1 → Nat) a + S1.size a ≤ S128.size a
  inb_S128x8x1024_S1x8x1024_109_0_0 : ∀ a, (![109, 0, 0] : Fin 3 → Nat) a + S1x8x1024.size a ≤ S128x8x1024.size a
  inb_S128_S1_110 : ∀ a, (![110] : Fin 1 → Nat) a + S1.size a ≤ S128.size a
  inb_S128x8x1024_S1x8x1024_110_0_0 : ∀ a, (![110, 0, 0] : Fin 3 → Nat) a + S1x8x1024.size a ≤ S128x8x1024.size a
  inb_S128_S1_111 : ∀ a, (![111] : Fin 1 → Nat) a + S1.size a ≤ S128.size a
  inb_S128x8x1024_S1x8x1024_111_0_0 : ∀ a, (![111, 0, 0] : Fin 3 → Nat) a + S1x8x1024.size a ≤ S128x8x1024.size a
  inb_S128_S1_112 : ∀ a, (![112] : Fin 1 → Nat) a + S1.size a ≤ S128.size a
  inb_S128x8x1024_S1x8x1024_112_0_0 : ∀ a, (![112, 0, 0] : Fin 3 → Nat) a + S1x8x1024.size a ≤ S128x8x1024.size a
  inb_S128_S1_113 : ∀ a, (![113] : Fin 1 → Nat) a + S1.size a ≤ S128.size a
  inb_S128x8x1024_S1x8x1024_113_0_0 : ∀ a, (![113, 0, 0] : Fin 3 → Nat) a + S1x8x1024.size a ≤ S128x8x1024.size a
  inb_S128_S1_114 : ∀ a, (![114] : Fin 1 → Nat) a + S1.size a ≤ S128.size a
  inb_S128x8x1024_S1x8x1024_114_0_0 : ∀ a, (![114, 0, 0] : Fin 3 → Nat) a + S1x8x1024.size a ≤ S128x8x1024.size a
  inb_S128_S1_115 : ∀ a, (![115] : Fin 1 → Nat) a + S1.size a ≤ S128.size a
  inb_S128x8x1024_S1x8x1024_115_0_0 : ∀ a, (![115, 0, 0] : Fin 3 → Nat) a + S1x8x1024.size a ≤ S128x8x1024.size a
  inb_S128_S1_116 : ∀ a, (![116] : Fin 1 → Nat) a + S1.size a ≤ S128.size a
  inb_S128x8x1024_S1x8x1024_116_0_0 : ∀ a, (![116, 0, 0] : Fin 3 → Nat) a + S1x8x1024.size a ≤ S128x8x1024.size a
  inb_S128_S1_117 : ∀ a, (![117] : Fin 1 → Nat) a + S1.size a ≤ S128.size a
  inb_S128x8x1024_S1x8x1024_117_0_0 : ∀ a, (![117, 0, 0] : Fin 3 → Nat) a + S1x8x1024.size a ≤ S128x8x1024.size a
  inb_S128_S1_118 : ∀ a, (![118] : Fin 1 → Nat) a + S1.size a ≤ S128.size a
  inb_S128x8x1024_S1x8x1024_118_0_0 : ∀ a, (![118, 0, 0] : Fin 3 → Nat) a + S1x8x1024.size a ≤ S128x8x1024.size a
  inb_S128_S1_119 : ∀ a, (![119] : Fin 1 → Nat) a + S1.size a ≤ S128.size a
  inb_S128x8x1024_S1x8x1024_119_0_0 : ∀ a, (![119, 0, 0] : Fin 3 → Nat) a + S1x8x1024.size a ≤ S128x8x1024.size a
  inb_S128_S1_120 : ∀ a, (![120] : Fin 1 → Nat) a + S1.size a ≤ S128.size a
  inb_S128x8x1024_S1x8x1024_120_0_0 : ∀ a, (![120, 0, 0] : Fin 3 → Nat) a + S1x8x1024.size a ≤ S128x8x1024.size a
  inb_S128_S1_121 : ∀ a, (![121] : Fin 1 → Nat) a + S1.size a ≤ S128.size a
  inb_S128x8x1024_S1x8x1024_121_0_0 : ∀ a, (![121, 0, 0] : Fin 3 → Nat) a + S1x8x1024.size a ≤ S128x8x1024.size a
  inb_S128_S1_122 : ∀ a, (![122] : Fin 1 → Nat) a + S1.size a ≤ S128.size a
  inb_S128x8x1024_S1x8x1024_122_0_0 : ∀ a, (![122, 0, 0] : Fin 3 → Nat) a + S1x8x1024.size a ≤ S128x8x1024.size a
  inb_S128_S1_123 : ∀ a, (![123] : Fin 1 → Nat) a + S1.size a ≤ S128.size a
  inb_S128x8x1024_S1x8x1024_123_0_0 : ∀ a, (![123, 0, 0] : Fin 3 → Nat) a + S1x8x1024.size a ≤ S128x8x1024.size a
  inb_S128_S1_124 : ∀ a, (![124] : Fin 1 → Nat) a + S1.size a ≤ S128.size a
  inb_S128x8x1024_S1x8x1024_124_0_0 : ∀ a, (![124, 0, 0] : Fin 3 → Nat) a + S1x8x1024.size a ≤ S128x8x1024.size a
  inb_S128_S1_125 : ∀ a, (![125] : Fin 1 → Nat) a + S1.size a ≤ S128.size a
  inb_S128x8x1024_S1x8x1024_125_0_0 : ∀ a, (![125, 0, 0] : Fin 3 → Nat) a + S1x8x1024.size a ≤ S128x8x1024.size a
  inb_S128_S1_126 : ∀ a, (![126] : Fin 1 → Nat) a + S1.size a ≤ S128.size a
  inb_S128x8x1024_S1x8x1024_126_0_0 : ∀ a, (![126, 0, 0] : Fin 3 → Nat) a + S1x8x1024.size a ≤ S128x8x1024.size a
  inb_S128_S1_127 : ∀ a, (![127] : Fin 1 → Nat) a + S1.size a ≤ S128.size a
  inb_S128x8x1024_S1x8x1024_127_0_0 : ∀ a, (![127, 0, 0] : Fin 3 → Nat) a + S1x8x1024.size a ≤ S128x8x1024.size a
  inb_S10000x8x1024_S1x8x1024_0_0_0 : ∀ a, (![0, 0, 0] : Fin 3 → Nat) a + S1x8x1024.size a ≤ S10000x8x1024.size a
  inb_S128x8x1024_S128x8x1024_0_0_0 : ∀ a, (![0, 0, 0] : Fin 3 → Nat) a + S128x8x1024.size a ≤ S128x8x1024.size a
  h_S128x8x1024 : 0 < S128x8x1024.numel
  shapeCasts_S128x8x1024_S1024x1024 : S128x8x1024.ShapeCasts S1024x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S256x1024 : S1x1024.Broadcasts S256x1024
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S1024_S1024x1 : S1024.ShapeCasts S1024x1
  broadcasts_S1024x1_S1024x128 : S1024x1.Broadcasts S1024x128
  shapeCasts_S128_S1x128 : S128.ShapeCasts S1x128
  broadcasts_S1x128_S256x128 : S1x128.Broadcasts S256x128
  transposes_S256x128_p1_0_S128x256 : S256x128.Transposes [1, 0] S128x256
  inb_S128x256_S128x256_0_0 : ∀ a, (![0, 0] : Fin 2 → Nat) a + S128x256.size a ≤ S128x256.size a
  h_S128x256 : 0 < S128x256.numel
  shapeCasts_S4096x256_S1048576 : S4096x256.ShapeCasts S1048576
  gather_S10000x8_S4096x1_S4096x8_1_0_n_n_0_1_18_wf : GatherDims.WF S10000x8 S4096x1 S4096x8 [1] [0] [] [0] [] 1 ![1, 8]
  gather_S10000x1x8_S4096x1_S4096x1x8_12_0_n_n_0_1_118_wf : GatherDims.WF S10000x1x8 S4096x1 S4096x1x8 [1, 2] [0] [] [0] [] 1 ![1, 1, 8]
  gather_S10000x1_S4096x1_S4096x1_1_0_n_n_0_1_11_wf : GatherDims.WF S10000x1 S4096x1 S4096x1 [1] [0] [] [0] [] 1 ![1, 1]
  dot_S256x1024_S1024x1024_S256x1024_1_1_0_0_n_n_wf : DotDims.WF S256x1024 S1024x1024 S256x1024 [1] [1] [0] [0] [] []
  dot_S256x1024_S1024x128_S256x128_1_0_0_1_n_n_wf : DotDims.WF S256x1024 S1024x128 S256x128 [1] [0] [0] [1] [] []
  hcc0_scratch1 : 10 + S128.numel ≤ 138
  hrank0 : 0 < grid0.rank
  k0_off1_inb : ∀ i : grid0.Coords, ∀ a, (k0_off1 i) a + S1.size a ≤ S4096.size a
  k0_off3_inb : ∀ i : grid0.Coords, ∀ a, (k0_off3 i) a + S1.size a ≤ S4096.size a
  k0_off5_inb : ∀ i : grid0.Coords, ∀ a, (k0_off5 i) a + S1.size a ≤ S4096.size a
  k0_off7_inb : ∀ i : grid0.Coords, ∀ a, (k0_off7 i) a + S1.size a ≤ S4096.size a
  k0_off9_inb : ∀ i : grid0.Coords, ∀ a, (k0_off9 i) a + S1.size a ≤ S4096.size a
  k0_off11_inb : ∀ i : grid0.Coords, ∀ a, (k0_off11 i) a + S1.size a ≤ S4096.size a
  k0_off13_inb : ∀ i : grid0.Coords, ∀ a, (k0_off13 i) a + S1.size a ≤ S4096.size a
  k0_off15_inb : ∀ i : grid0.Coords, ∀ a, (k0_off15 i) a + S1.size a ≤ S4096.size a
  k0_off17_inb : ∀ i : grid0.Coords, ∀ a, (k0_off17 i) a + S1.size a ≤ S4096.size a
  k0_off19_inb : ∀ i : grid0.Coords, ∀ a, (k0_off19 i) a + S1.size a ≤ S4096.size a
  k0_off21_inb : ∀ i : grid0.Coords, ∀ a, (k0_off21 i) a + S1.size a ≤ S4096.size a
  k0_off23_inb : ∀ i : grid0.Coords, ∀ a, (k0_off23 i) a + S1.size a ≤ S4096.size a
  k0_off25_inb : ∀ i : grid0.Coords, ∀ a, (k0_off25 i) a + S1.size a ≤ S4096.size a
  k0_off27_inb : ∀ i : grid0.Coords, ∀ a, (k0_off27 i) a + S1.size a ≤ S4096.size a
  k0_off29_inb : ∀ i : grid0.Coords, ∀ a, (k0_off29 i) a + S1.size a ≤ S4096.size a
  k0_off31_inb : ∀ i : grid0.Coords, ∀ a, (k0_off31 i) a + S1.size a ≤ S4096.size a
  k0_off33_inb : ∀ i : grid0.Coords, ∀ a, (k0_off33 i) a + S1.size a ≤ S4096.size a
  k0_off35_inb : ∀ i : grid0.Coords, ∀ a, (k0_off35 i) a + S1.size a ≤ S4096.size a
  k0_off37_inb : ∀ i : grid0.Coords, ∀ a, (k0_off37 i) a + S1.size a ≤ S4096.size a
  k0_off39_inb : ∀ i : grid0.Coords, ∀ a, (k0_off39 i) a + S1.size a ≤ S4096.size a
  k0_off41_inb : ∀ i : grid0.Coords, ∀ a, (k0_off41 i) a + S1.size a ≤ S4096.size a
  k0_off43_inb : ∀ i : grid0.Coords, ∀ a, (k0_off43 i) a + S1.size a ≤ S4096.size a
  k0_off45_inb : ∀ i : grid0.Coords, ∀ a, (k0_off45 i) a + S1.size a ≤ S4096.size a
  k0_off47_inb : ∀ i : grid0.Coords, ∀ a, (k0_off47 i) a + S1.size a ≤ S4096.size a
  k0_off49_inb : ∀ i : grid0.Coords, ∀ a, (k0_off49 i) a + S1.size a ≤ S4096.size a
  k0_off51_inb : ∀ i : grid0.Coords, ∀ a, (k0_off51 i) a + S1.size a ≤ S4096.size a
  k0_off53_inb : ∀ i : grid0.Coords, ∀ a, (k0_off53 i) a + S1.size a ≤ S4096.size a
  k0_off55_inb : ∀ i : grid0.Coords, ∀ a, (k0_off55 i) a + S1.size a ≤ S4096.size a
  k0_off57_inb : ∀ i : grid0.Coords, ∀ a, (k0_off57 i) a + S1.size a ≤ S4096.size a
  k0_off59_inb : ∀ i : grid0.Coords, ∀ a, (k0_off59 i) a + S1.size a ≤ S4096.size a
  k0_off61_inb : ∀ i : grid0.Coords, ∀ a, (k0_off61 i) a + S1.size a ≤ S4096.size a
  k0_off63_inb : ∀ i : grid0.Coords, ∀ a, (k0_off63 i) a + S1.size a ≤ S4096.size a
  k0_off65_inb : ∀ i : grid0.Coords, ∀ a, (k0_off65 i) a + S1.size a ≤ S4096.size a
  k0_off67_inb : ∀ i : grid0.Coords, ∀ a, (k0_off67 i) a + S1.size a ≤ S4096.size a
  k0_off69_inb : ∀ i : grid0.Coords, ∀ a, (k0_off69 i) a + S1.size a ≤ S4096.size a
  k0_off71_inb : ∀ i : grid0.Coords, ∀ a, (k0_off71 i) a + S1.size a ≤ S4096.size a
  k0_off73_inb : ∀ i : grid0.Coords, ∀ a, (k0_off73 i) a + S1.size a ≤ S4096.size a
  k0_off75_inb : ∀ i : grid0.Coords, ∀ a, (k0_off75 i) a + S1.size a ≤ S4096.size a
  k0_off77_inb : ∀ i : grid0.Coords, ∀ a, (k0_off77 i) a + S1.size a ≤ S4096.size a
  k0_off79_inb : ∀ i : grid0.Coords, ∀ a, (k0_off79 i) a + S1.size a ≤ S4096.size a
  k0_off81_inb : ∀ i : grid0.Coords, ∀ a, (k0_off81 i) a + S1.size a ≤ S4096.size a
  k0_off83_inb : ∀ i : grid0.Coords, ∀ a, (k0_off83 i) a + S1.size a ≤ S4096.size a
  k0_off85_inb : ∀ i : grid0.Coords, ∀ a, (k0_off85 i) a + S1.size a ≤ S4096.size a
  k0_off87_inb : ∀ i : grid0.Coords, ∀ a, (k0_off87 i) a + S1.size a ≤ S4096.size a
  k0_off89_inb : ∀ i : grid0.Coords, ∀ a, (k0_off89 i) a + S1.size a ≤ S4096.size a
  k0_off91_inb : ∀ i : grid0.Coords, ∀ a, (k0_off91 i) a + S1.size a ≤ S4096.size a
  k0_off93_inb : ∀ i : grid0.Coords, ∀ a, (k0_off93 i) a + S1.size a ≤ S4096.size a
  k0_off95_inb : ∀ i : grid0.Coords, ∀ a, (k0_off95 i) a + S1.size a ≤ S4096.size a
  k0_off97_inb : ∀ i : grid0.Coords, ∀ a, (k0_off97 i) a + S1.size a ≤ S4096.size a
  k0_off99_inb : ∀ i : grid0.Coords, ∀ a, (k0_off99 i) a + S1.size a ≤ S4096.size a
  k0_off101_inb : ∀ i : grid0.Coords, ∀ a, (k0_off101 i) a + S1.size a ≤ S4096.size a
  k0_off103_inb : ∀ i : grid0.Coords, ∀ a, (k0_off103 i) a + S1.size a ≤ S4096.size a
  k0_off105_inb : ∀ i : grid0.Coords, ∀ a, (k0_off105 i) a + S1.size a ≤ S4096.size a
  k0_off107_inb : ∀ i : grid0.Coords, ∀ a, (k0_off107 i) a + S1.size a ≤ S4096.size a
  k0_off109_inb : ∀ i : grid0.Coords, ∀ a, (k0_off109 i) a + S1.size a ≤ S4096.size a
  k0_off111_inb : ∀ i : grid0.Coords, ∀ a, (k0_off111 i) a + S1.size a ≤ S4096.size a
  k0_off113_inb : ∀ i : grid0.Coords, ∀ a, (k0_off113 i) a + S1.size a ≤ S4096.size a
  k0_off115_inb : ∀ i : grid0.Coords, ∀ a, (k0_off115 i) a + S1.size a ≤ S4096.size a
  k0_off117_inb : ∀ i : grid0.Coords, ∀ a, (k0_off117 i) a + S1.size a ≤ S4096.size a
  k0_off119_inb : ∀ i : grid0.Coords, ∀ a, (k0_off119 i) a + S1.size a ≤ S4096.size a
  k0_off121_inb : ∀ i : grid0.Coords, ∀ a, (k0_off121 i) a + S1.size a ≤ S4096.size a
  k0_off123_inb : ∀ i : grid0.Coords, ∀ a, (k0_off123 i) a + S1.size a ≤ S4096.size a
  k0_off125_inb : ∀ i : grid0.Coords, ∀ a, (k0_off125 i) a + S1.size a ≤ S4096.size a
  k0_off127_inb : ∀ i : grid0.Coords, ∀ a, (k0_off127 i) a + S1.size a ≤ S4096.size a
  k0_off129_inb : ∀ i : grid0.Coords, ∀ a, (k0_off129 i) a + S1.size a ≤ S4096.size a
  k0_off131_inb : ∀ i : grid0.Coords, ∀ a, (k0_off131 i) a + S1.size a ≤ S4096.size a
  k0_off133_inb : ∀ i : grid0.Coords, ∀ a, (k0_off133 i) a + S1.size a ≤ S4096.size a
  k0_off135_inb : ∀ i : grid0.Coords, ∀ a, (k0_off135 i) a + S1.size a ≤ S4096.size a
  k0_off137_inb : ∀ i : grid0.Coords, ∀ a, (k0_off137 i) a + S1.size a ≤ S4096.size a
  k0_off139_inb : ∀ i : grid0.Coords, ∀ a, (k0_off139 i) a + S1.size a ≤ S4096.size a
  k0_off141_inb : ∀ i : grid0.Coords, ∀ a, (k0_off141 i) a + S1.size a ≤ S4096.size a
  k0_off143_inb : ∀ i : grid0.Coords, ∀ a, (k0_off143 i) a + S1.size a ≤ S4096.size a
  k0_off145_inb : ∀ i : grid0.Coords, ∀ a, (k0_off145 i) a + S1.size a ≤ S4096.size a
  k0_off147_inb : ∀ i : grid0.Coords, ∀ a, (k0_off147 i) a + S1.size a ≤ S4096.size a
  k0_off149_inb : ∀ i : grid0.Coords, ∀ a, (k0_off149 i) a + S1.size a ≤ S4096.size a
  k0_off151_inb : ∀ i : grid0.Coords, ∀ a, (k0_off151 i) a + S1.size a ≤ S4096.size a
  k0_off153_inb : ∀ i : grid0.Coords, ∀ a, (k0_off153 i) a + S1.size a ≤ S4096.size a
  k0_off155_inb : ∀ i : grid0.Coords, ∀ a, (k0_off155 i) a + S1.size a ≤ S4096.size a
  k0_off157_inb : ∀ i : grid0.Coords, ∀ a, (k0_off157 i) a + S1.size a ≤ S4096.size a
  k0_off159_inb : ∀ i : grid0.Coords, ∀ a, (k0_off159 i) a + S1.size a ≤ S4096.size a
  k0_off161_inb : ∀ i : grid0.Coords, ∀ a, (k0_off161 i) a + S1.size a ≤ S4096.size a
  k0_off163_inb : ∀ i : grid0.Coords, ∀ a, (k0_off163 i) a + S1.size a ≤ S4096.size a
  k0_off165_inb : ∀ i : grid0.Coords, ∀ a, (k0_off165 i) a + S1.size a ≤ S4096.size a
  k0_off167_inb : ∀ i : grid0.Coords, ∀ a, (k0_off167 i) a + S1.size a ≤ S4096.size a
  k0_off169_inb : ∀ i : grid0.Coords, ∀ a, (k0_off169 i) a + S1.size a ≤ S4096.size a
  k0_off171_inb : ∀ i : grid0.Coords, ∀ a, (k0_off171 i) a + S1.size a ≤ S4096.size a
  k0_off173_inb : ∀ i : grid0.Coords, ∀ a, (k0_off173 i) a + S1.size a ≤ S4096.size a
  k0_off175_inb : ∀ i : grid0.Coords, ∀ a, (k0_off175 i) a + S1.size a ≤ S4096.size a
  k0_off177_inb : ∀ i : grid0.Coords, ∀ a, (k0_off177 i) a + S1.size a ≤ S4096.size a
  k0_off179_inb : ∀ i : grid0.Coords, ∀ a, (k0_off179 i) a + S1.size a ≤ S4096.size a
  k0_off181_inb : ∀ i : grid0.Coords, ∀ a, (k0_off181 i) a + S1.size a ≤ S4096.size a
  k0_off183_inb : ∀ i : grid0.Coords, ∀ a, (k0_off183 i) a + S1.size a ≤ S4096.size a
  k0_off185_inb : ∀ i : grid0.Coords, ∀ a, (k0_off185 i) a + S1.size a ≤ S4096.size a
  k0_off187_inb : ∀ i : grid0.Coords, ∀ a, (k0_off187 i) a + S1.size a ≤ S4096.size a
  k0_off189_inb : ∀ i : grid0.Coords, ∀ a, (k0_off189 i) a + S1.size a ≤ S4096.size a
  k0_off191_inb : ∀ i : grid0.Coords, ∀ a, (k0_off191 i) a + S1.size a ≤ S4096.size a
  k0_off193_inb : ∀ i : grid0.Coords, ∀ a, (k0_off193 i) a + S1.size a ≤ S4096.size a
  k0_off195_inb : ∀ i : grid0.Coords, ∀ a, (k0_off195 i) a + S1.size a ≤ S4096.size a
  k0_off197_inb : ∀ i : grid0.Coords, ∀ a, (k0_off197 i) a + S1.size a ≤ S4096.size a
  k0_off199_inb : ∀ i : grid0.Coords, ∀ a, (k0_off199 i) a + S1.size a ≤ S4096.size a
  k0_off201_inb : ∀ i : grid0.Coords, ∀ a, (k0_off201 i) a + S1.size a ≤ S4096.size a
  k0_off203_inb : ∀ i : grid0.Coords, ∀ a, (k0_off203 i) a + S1.size a ≤ S4096.size a
  k0_off205_inb : ∀ i : grid0.Coords, ∀ a, (k0_off205 i) a + S1.size a ≤ S4096.size a
  k0_off207_inb : ∀ i : grid0.Coords, ∀ a, (k0_off207 i) a + S1.size a ≤ S4096.size a
  k0_off209_inb : ∀ i : grid0.Coords, ∀ a, (k0_off209 i) a + S1.size a ≤ S4096.size a
  k0_off211_inb : ∀ i : grid0.Coords, ∀ a, (k0_off211 i) a + S1.size a ≤ S4096.size a
  k0_off213_inb : ∀ i : grid0.Coords, ∀ a, (k0_off213 i) a + S1.size a ≤ S4096.size a
  k0_off215_inb : ∀ i : grid0.Coords, ∀ a, (k0_off215 i) a + S1.size a ≤ S4096.size a
  k0_off217_inb : ∀ i : grid0.Coords, ∀ a, (k0_off217 i) a + S1.size a ≤ S4096.size a
  k0_off219_inb : ∀ i : grid0.Coords, ∀ a, (k0_off219 i) a + S1.size a ≤ S4096.size a
  k0_off221_inb : ∀ i : grid0.Coords, ∀ a, (k0_off221 i) a + S1.size a ≤ S4096.size a
  k0_off223_inb : ∀ i : grid0.Coords, ∀ a, (k0_off223 i) a + S1.size a ≤ S4096.size a
  k0_off225_inb : ∀ i : grid0.Coords, ∀ a, (k0_off225 i) a + S1.size a ≤ S4096.size a
  k0_off227_inb : ∀ i : grid0.Coords, ∀ a, (k0_off227 i) a + S1.size a ≤ S4096.size a
  k0_off229_inb : ∀ i : grid0.Coords, ∀ a, (k0_off229 i) a + S1.size a ≤ S4096.size a
  k0_off231_inb : ∀ i : grid0.Coords, ∀ a, (k0_off231 i) a + S1.size a ≤ S4096.size a
  k0_off233_inb : ∀ i : grid0.Coords, ∀ a, (k0_off233 i) a + S1.size a ≤ S4096.size a
  k0_off235_inb : ∀ i : grid0.Coords, ∀ a, (k0_off235 i) a + S1.size a ≤ S4096.size a
  k0_off237_inb : ∀ i : grid0.Coords, ∀ a, (k0_off237 i) a + S1.size a ≤ S4096.size a
  k0_off239_inb : ∀ i : grid0.Coords, ∀ a, (k0_off239 i) a + S1.size a ≤ S4096.size a
  k0_off241_inb : ∀ i : grid0.Coords, ∀ a, (k0_off241 i) a + S1.size a ≤ S4096.size a
  k0_off243_inb : ∀ i : grid0.Coords, ∀ a, (k0_off243 i) a + S1.size a ≤ S4096.size a
  k0_off245_inb : ∀ i : grid0.Coords, ∀ a, (k0_off245 i) a + S1.size a ≤ S4096.size a
  k0_off247_inb : ∀ i : grid0.Coords, ∀ a, (k0_off247 i) a + S1.size a ≤ S4096.size a
  k0_off249_inb : ∀ i : grid0.Coords, ∀ a, (k0_off249 i) a + S1.size a ≤ S4096.size a
  k0_off251_inb : ∀ i : grid0.Coords, ∀ a, (k0_off251 i) a + S1.size a ≤ S4096.size a
  k0_off253_inb : ∀ i : grid0.Coords, ∀ a, (k0_off253 i) a + S1.size a ≤ S4096.size a
  k0_off255_inb : ∀ i : grid0.Coords, ∀ a, (k0_off255 i) a + S1.size a ≤ S4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x1024.size a
  hwx0_0 : ∀ i : grid0.Coords, EltTy.bits .bf16 = 32 ∨ (Rect.block (s := S256x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S1x1x1024.size a ≤ S32x1x1024.size a
  hwx0_1 : ∀ i : grid0.Coords, EltTy.bits .f32 = 32 ∨ (Rect.block (s := S32x1x1024) S1x1x1024.size (cc0_transform_2 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_3 i = cc0_transform_3 i'
  hinb0_2 : ∀ (i : grid0.Coords) a, (cc0_transform_3 i a + 1) * S1x1x1024.size a ≤ S32x1x1024.size a
  hwx0_2 : ∀ i : grid0.Coords, EltTy.bits .f32 = 32 ∨ (Rect.block (s := S32x1x1024) S1x1x1024.size (cc0_transform_3 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_4 i = cc0_transform_4 i'
  hinb0_3 : ∀ (i : grid0.Coords) a, (cc0_transform_4 i a + 1) * S1x1x128.size a ≤ S32x1x128.size a
  hwx0_3 : ∀ i : grid0.Coords, EltTy.bits .f32 = 32 ∨ (Rect.block (s := S32x1x128) S1x1x128.size (cc0_transform_4 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_5 i = cc0_transform_5 i'
  hinb0_4 : ∀ (i : grid0.Coords) a, (cc0_transform_5 i a + 1) * S1024x128.size a ≤ S1024x128.size a
  hwx0_4 : ∀ i : grid0.Coords, EltTy.bits .f32 = 32 ∨ (Rect.block (s := S1024x128) S1024x128.size (cc0_transform_5 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_6 i = cc0_transform_6 i'
  hinb0_5 : ∀ (i : grid0.Coords) a, (cc0_transform_6 i a + 1) * S128x256.size a ≤ S4096x256.size a
  hwx0_5 : ∀ i : grid0.Coords, EltTy.bits .f32 = 32 ∨ (Rect.block (s := S4096x256) S128x256.size (cc0_transform_6 i) (hinb0_5 i)).WholeWords (EltTy.packing .f32)

variable [Facts₀]

abbrev cc0_scratch1 : DmaSems sig S128 := SemArray.consecutive 10 S128 hcc0_scratch1
def gather_S10000x8_S4096x1_S4096x8_1_0_n_n_0_1_18 : GatherDims S10000x8 S4096x1 S4096x8 where
  offsetDims := [1]
  collapsedSliceDims := [0]
  operandBatchingDims := []
  startIndicesBatchingDims := []
  startIndexMap := [0]
  indexVectorDim := 1
  sliceSizes := ![1, 8]
  wf := gather_S10000x8_S4096x1_S4096x8_1_0_n_n_0_1_18_wf
def gather_S10000x1x8_S4096x1_S4096x1x8_12_0_n_n_0_1_118 : GatherDims S10000x1x8 S4096x1 S4096x1x8 where
  offsetDims := [1, 2]
  collapsedSliceDims := [0]
  operandBatchingDims := []
  startIndicesBatchingDims := []
  startIndexMap := [0]
  indexVectorDim := 1
  sliceSizes := ![1, 1, 8]
  wf := gather_S10000x1x8_S4096x1_S4096x1x8_12_0_n_n_0_1_118_wf
def gather_S10000x1_S4096x1_S4096x1_1_0_n_n_0_1_11 : GatherDims S10000x1 S4096x1 S4096x1 where
  offsetDims := [1]
  collapsedSliceDims := [0]
  operandBatchingDims := []
  startIndicesBatchingDims := []
  startIndexMap := [0]
  indexVectorDim := 1
  sliceSizes := ![1, 1]
  wf := gather_S10000x1_S4096x1_S4096x1_1_0_n_n_0_1_11_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev spec0_0 : Pipeline.WinSpec sig grid0.rank :=
  Pipeline.WinSpec.ofSpec (Memref.whole main_v1) S256x1024.size reads0_0 false true 1 stage0_0 sem0_0 nbuf0_0 hstage0_0

abbrev spec0_1 : Pipeline.WinSpec sig grid0.rank :=
  Pipeline.WinSpec.ofSpec (Memref.whole main_v9) S1x1x1024.size reads0_1 false false 2 stage0_1 sem0_1 nbuf0_1 hstage0_1

abbrev spec0_2 : Pipeline.WinSpec sig grid0.rank :=
  Pipeline.WinSpec.ofSpec (Memref.whole main_v17) S1x1x1024.size reads0_2 false false 2 stage0_2 sem0_2 nbuf0_2 hstage0_2

abbrev spec0_3 : Pipeline.WinSpec sig grid0.rank :=
  Pipeline.WinSpec.ofSpec (Memref.whole main_v25) S1x1x128.size reads0_3 false false 2 stage0_3 sem0_3 nbuf0_3 hstage0_3

abbrev spec0_4 : Pipeline.WinSpec sig grid0.rank :=
  Pipeline.WinSpec.ofSpec (Memref.whole main_v34) S1024x128.size reads0_4 false true 1 stage0_4 sem0_4 nbuf0_4 hstage0_4

abbrev spec0_5 : Pipeline.WinSpec sig grid0.rank :=
  Pipeline.WinSpec.ofSpec (Memref.whole main_v35) S128x256.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_2 | 2 => cc0_transform_3 | 3 => cc0_transform_4 | 4 => cc0_transform_5 | 5 => cc0_transform_6 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | ⟨_ + 6, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S256x1024 : Shape := ⟨2, ![256, 1024]⟩
abbrev S10000x8x1024 : Shape := ⟨3, ![10000, 8, 1024]⟩
abbrev S10000x8 : Shape := ⟨2, ![10000, 8]⟩
abbrev S10000x1x8 : Shape := ⟨3, ![10000, 1, 8]⟩
abbrev S10000x1 : Shape := ⟨2, ![10000, 1]⟩
abbrev S4096 : Shape := ⟨1, ![4096]⟩
abbrev S_ : Shape := ⟨0, ![]⟩
abbrev S4096x1 : Shape := ⟨2, ![4096, 1]⟩
abbrev S4096x8x1024 : Shape := ⟨3, ![4096, 8, 1024]⟩
abbrev S4096x8 : Shape := ⟨2, ![4096, 8]⟩
abbrev S4096x1x8 : Shape := ⟨3, ![4096, 1, 8]⟩
abbrev S4096x8x256 : Shape := ⟨3, ![4096, 8, 256]⟩
abbrev S4096x256x8 : Shape := ⟨3, ![4096, 256, 8]⟩
abbrev S4096x256x1 : Shape := ⟨3, ![4096, 256, 1]⟩
abbrev S4096x1x1 : Shape := ⟨3, ![4096, 1, 1]⟩
abbrev S4096x256 : Shape := ⟨2, ![4096, 256]⟩
abbrev S1048576 : Shape := ⟨1, ![1048576]⟩

abbrev nBuf : Space → Nat
  | .hbm => 56
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S10000x8x1024, .f32⟩
  | .hbm, ⟨2, _⟩ => ⟨S10000x8, .f32⟩
  | .hbm, ⟨3, _⟩ => ⟨S10000x1x8, .f32⟩
  | .hbm, ⟨4, _⟩ => ⟨S10000x1, .f32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x8x1024, .f32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096x8, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x1x8, .f32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .i32⟩
  | .hbm, ⟨40, _⟩ => ⟨S4096x1, .i32⟩
  | .hbm, ⟨41, _⟩ => ⟨S4096x1, .f32⟩
  | .hbm, ⟨42, _⟩ => ⟨S4096x8x256, .f32⟩
  | .hbm, ⟨43, _⟩ => ⟨S4096x256x8, .f32⟩
  | .hbm, ⟨44, _⟩ => ⟨S4096x1x8, .f32⟩
  | .hbm, ⟨45, _⟩ => ⟨S4096x256x8, .f32⟩
  | .hbm, ⟨46, _⟩ => ⟨S4096x256x8, .f32⟩
  | .hbm, ⟨47, _⟩ => ⟨S_, .f32⟩
  | .hbm, ⟨48, _⟩ => ⟨S4096x256x8, .f32⟩
  | .hbm, ⟨49, _⟩ => ⟨S4096x256x8, .f32⟩
  | .hbm, ⟨50, _⟩ => ⟨S4096x256x1, .f32⟩
  | .hbm, ⟨51, _⟩ => ⟨S4096x1x1, .f32⟩
  | .hbm, ⟨52, _⟩ => ⟨S4096x256x1, .f32⟩
  | .hbm, ⟨53, _⟩ => ⟨S4096x256x1, .f32⟩
  | .hbm, ⟨54, _⟩ => ⟨S4096x256, .f32⟩
  | .hbm, ⟨55, _⟩ => ⟨S1048576, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_cst : Ref sig .tc := ⟨.hbm, 47, rfl⟩
abbrev main_call0_v0 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  transposes_S4096x8x256_S4096x256x8_0_2_1 : S4096x8x256.Transposes [0, 2, 1] S4096x256x8
  bcast_S4096x8_S4096x1x8_0_2 : S4096x8.BroadcastsInDim S4096x1x8 (![0, 2] : Fin 2 → Fin S4096x1x8.rank)
  bcast_S4096x1x8_S4096x256x8_0_1_2 : S4096x1x8.BroadcastsInDim S4096x256x8 (![0, 1, 2] : Fin 3 → Fin S4096x256x8.rank)
  bcast_S_S4096x256x8 : S_.BroadcastsInDim S4096x256x8 (![] : Fin 0 → Fin S4096x256x8.rank)
  bcast_S4096x1_S4096x1x1_0_2 : S4096x1.BroadcastsInDim S4096x1x1 (![0, 2] : Fin 2 → Fin S4096x1x1.rank)
  bcast_S4096x1x1_S4096x256x1_0_1_2 : S4096x1x1.BroadcastsInDim S4096x256x1 (![0, 1, 2] : Fin 3 → Fin S4096x256x1.rank)
  shapeCasts_S4096x256x1_S4096x256 : S4096x256x1.ShapeCasts S4096x256
  shapeCasts_S4096x256_S1048576 : S4096x256.ShapeCasts S1048576
  gather_S10000x8x1024_S4096x1_S4096x8x1024_12_0_n_n_0_1_181024_wf : GatherDims.WF S10000x8x1024 S4096x1 S4096x8x1024 [1, 2] [0] [] [0] [] 1 ![1, 8, 1024]
  gather_S10000x8_S4096x1_S4096x8_1_0_n_n_0_1_18_wf : GatherDims.WF S10000x8 S4096x1 S4096x8 [1] [0] [] [0] [] 1 ![1, 8]
  gather_S10000x1x8_S4096x1_S4096x1x8_12_0_n_n_0_1_118_wf : GatherDims.WF S10000x1x8 S4096x1 S4096x1x8 [1, 2] [0] [] [0] [] 1 ![1, 1, 8]
  gather_S10000x1_S4096x1_S4096x1_1_0_n_n_0_1_11_wf : GatherDims.WF S10000x1 S4096x1 S4096x1 [1] [0] [] [0] [] 1 ![1, 1]
  dot_S4096x8x1024_S256x1024_S4096x8x256_2_1_01_0_n_n_wf : DotDims.WF S4096x8x1024 S256x1024 S4096x8x256 [2] [1] [0, 1] [0] [] []
  dot_S4096x256x8_S4096x1x8_S4096x256x1_2_2_1_1_0_0_wf : DotDims.WF S4096x256x8 S4096x1x8 S4096x256x1 [2] [2] [1] [1] [0] [0]

variable [Facts₀]

def gather_S10000x8x1024_S4096x1_S4096x8x1024_12_0_n_n_0_1_181024 : GatherDims S10000x8x1024 S4096x1 S4096x8x1024 where
  offsetDims := [1, 2]
  collapsedSliceDims := [0]
  operandBatchingDims := []
  startIndicesBatchingDims := []
  startIndexMap := [0]
  indexVectorDim := 1
  sliceSizes := ![1, 8, 1024]
  wf := gather_S10000x8x1024_S4096x1_S4096x8x1024_12_0_n_n_0_1_181024_wf
def gather_S10000x8_S4096x1_S4096x8_1_0_n_n_0_1_18 : GatherDims S10000x8 S4096x1 S4096x8 where
  offsetDims := [1]
  collapsedSliceDims := [0]
  operandBatchingDims := []
  startIndicesBatchingDims := []
  startIndexMap := [0]
  indexVectorDim := 1
  sliceSizes := ![1, 8]
  wf := gather_S10000x8_S4096x1_S4096x8_1_0_n_n_0_1_18_wf
def gather_S10000x1x8_S4096x1_S4096x1x8_12_0_n_n_0_1_118 : GatherDims S10000x1x8 S4096x1 S4096x1x8 where
  offsetDims := [1, 2]
  collapsedSliceDims := [0]
  operandBatchingDims := []
  startIndicesBatchingDims := []
  startIndexMap := [0]
  indexVectorDim := 1
  sliceSizes := ![1, 1, 8]
  wf := gather_S10000x1x8_S4096x1_S4096x1x8_12_0_n_n_0_1_118_wf
def gather_S10000x1_S4096x1_S4096x1_1_0_n_n_0_1_11 : GatherDims S10000x1 S4096x1 S4096x1 where
  offsetDims := [1]
  collapsedSliceDims := [0]
  operandBatchingDims := []
  startIndicesBatchingDims := []
  startIndexMap := [0]
  indexVectorDim := 1
  sliceSizes := ![1, 1]
  wf := gather_S10000x1_S4096x1_S4096x1_1_0_n_n_0_1_11_wf
def dot_S4096x8x1024_S256x1024_S4096x8x256_2_1_01_0_n_n : DotDims S4096x8x1024 S256x1024 S4096x8x256 where
  lhsContracting := [2]
  rhsContracting := [1]
  lhsNonContracting := [0, 1]
  rhsNonContracting := [0]
  lhsBatch := []
  rhsBatch := []
  wf := dot_S4096x8x1024_S256x1024_S4096x8x256_2_1_01_0_n_n_wf
def dot_S4096x256x8_S4096x1x8_S4096x256x1_2_2_1_1_0_0 : DotDims S4096x256x8 S4096x1x8 S4096x256x1 where
  lhsContracting := [2]
  rhsContracting := [2]
  lhsNonContracting := [1]
  rhsNonContracting := [1]
  lhsBatch := [0]
  rhsBatch := [0]
  wf := dot_S4096x256x8_S4096x1x8_S4096x256x1_2_2_1_1_0_0_wf

class Facts : Prop extends Facts₀ where

variable [Facts]
-- ==== Proof.KBits.Tables.lean ====
import proofs.«427848_j22419729285374_3_alg».proof.Proof.Gen.Kernel.Launch
import proofs.«427848_j22419729285374_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (Pipeline.UD sig nD τ) ℕ

/-- The task-id table as the body is handed it: the whole SMEM buffer. -/
abbrev tbM : Memref sig .tc .smem S4096 .i32 := Memref.whole main_v0
abbrev htbM : tbM.IsWhole := Memref.isWhole_whole _

/-- The kernel's own DMA cells, one per row of the group. -/
abbrev osem : Fin 128 → SemLoc sig := fun j => (![SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55, SemLoc.dma 56, SemLoc.dma 57, SemLoc.dma 58, SemLoc.dma 59, SemLoc.dma 60, SemLoc.dma 61, SemLoc.dma 62, SemLoc.dma 63, SemLoc.dma 64, SemLoc.dma 65, SemLoc.dma 66, SemLoc.dma 67, SemLoc.dma 68, SemLoc.dma 69, SemLoc.dma 70, SemLoc.dma 71, SemLoc.dma 72, SemLoc.dma 73, SemLoc.dma 74, SemLoc.dma 75, SemLoc.dma 76, SemLoc.dma 77, SemLoc.dma 78, SemLoc.dma 79, SemLoc.dma 80, SemLoc.dma 81, SemLoc.dma 82, SemLoc.dma 83, SemLoc.dma 84, SemLoc.dma 85, SemLoc.dma 86, SemLoc.dma 87, SemLoc.dma 88, SemLoc.dma 89, SemLoc.dma 90, SemLoc.dma 91, SemLoc.dma 92, SemLoc.dma 93, SemLoc.dma 94, SemLoc.dma 95, SemLoc.dma 96, SemLoc.dma 97, SemLoc.dma 98, SemLoc.dma 99, SemLoc.dma 100, SemLoc.dma 101, SemLoc.dma 102, SemLoc.dma 103, SemLoc.dma 104, SemLoc.dma 105, SemLoc.dma 106, SemLoc.dma 107, SemLoc.dma 108, SemLoc.dma 109, SemLoc.dma 110, SemLoc.dma 111, SemLoc.dma 112, SemLoc.dma 113, SemLoc.dma 114, SemLoc.dma 115, SemLoc.dma 116, SemLoc.dma 117, SemLoc.dma 118, SemLoc.dma 119, SemLoc.dma 120, SemLoc.dma 121, SemLoc.dma 122, SemLoc.dma 123, SemLoc.dma 124, SemLoc.dma 125, SemLoc.dma 126, SemLoc.dma 127, SemLoc.dma 128, SemLoc.dma 129, SemLoc.dma 130, SemLoc.dma 131, SemLoc.dma 132, SemLoc.dma 133, SemLoc.dma 134, SemLoc.dma 135, SemLoc.dma 136, SemLoc.dma 137] : Fin 128 → SemLoc sig) j
theorem ownSemFacts : Pipeline.OwnSemFacts spec0 osem := by decide

/-- Every own cell's counter at zero, cell by cell. -/
def cellsAtZero (c : Dev nD) : sProp 𝕄 :=
  iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ semVal ((c : Thread nD τ), SemLoc.dma 137) 0)

theorem ownSems_eq (c : Dev nD) :
    (Pipeline.ownSems0 (Ix := Unit) (Name := ℕ) (U := Pipeline.UD sig nD τ) (Lvl := ℕ) (Val := Elt F) (τ := τ) osem c : sProp 𝕄) = cellsAtZero c := by
  unfold cellsAtZero
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] (by decide) (by decide)]; rfl

/-- The side conditions the body assumes at grid point `i`, of the 128 words it reads from the table `xt`: word t, read as a row number, leaves a whole row of the bank in range. -/
structure Words (c : Dev nD) (i : grid0.Coords) (xt : Buf (Elt F) (tbM.view.loc (c : Thread nD τ))) : Prop where
  h1 : k0_chk1 (tbM.view.readAt (Elt F) (Rect.unit (s := S4096) (k0_off1 i) S1.size (k0_off1_inb i)).toLoadRect xt (Shape.Idx.first (numel1_S1.symm ▸ Nat.one_pos)))
  h2 : k0_chk2 (tbM.view.readAt (Elt F) (Rect.unit (s := S4096) (k0_off3 i) S1.size (k0_off3_inb i)).toLoadRect xt (Shape.Idx.first (numel1_S1.symm ▸ Nat.one_pos)))
  h3 : k0_chk3 (tbM.view.readAt (Elt F) (Rect.unit (s := S4096) (k0_off5 i) S1.size (k0_off5_inb i)).toLoadRect xt (Shape.Idx.first (numel1_S1.symm ▸ Nat.one_pos)))
  h4 : k0_chk4 (tbM.view.readAt (Elt F) (Rect.unit (s := S4096) (k0_off7 i) S1.size (k0_off7_inb i)).toLoadRect xt (Shape.Idx.first (numel1_S1.symm ▸ Nat.one_pos)))
  h5 : k0_chk5 (tbM.view.readAt (Elt F) (Rect.unit (s := S4096) (k0_off9 i) S1.size (k0_off9_inb i)).toLoadRect xt (Shape.Idx.first (numel1_S1.symm ▸ Nat.one_pos)))
  h6 : k0_chk6 (tbM.view.readAt (Elt F) (Rect.unit (s := S4096) (k0_off11 i) S1.size (k0_off11_inb i)).toLoadRect xt (Shape.Idx.first (numel1_S1.symm ▸ Nat.one_pos)))
  h7 : k0_chk7 (tbM.view.readAt (Elt F) (Rect.unit (s := S4096) (k0_off13 i) S1.size (k0_off13_inb i)).toLoadRect xt (Shape.Idx.first (numel1_S1.symm ▸ Nat.one_pos)))
  h8 : k0_chk8 (tbM.view.readAt (Elt F) (Rect.unit (s := S4096) (k0_off15 i) S1.size (k0_off15_inb i)).toLoadRect xt (Shape.Idx.first (numel1_S1.symm ▸ Nat.one_pos)))
  h9 : k0_chk9 (tbM.view.readAt (Elt F) (Rect.unit (s := S4096) (k0_off17 i) S1.size (k0_off17_inb i)).toLoadRect xt (Shape.Idx.first (numel1_S1.symm ▸ Nat.one_pos)))
  h10 : k0_chk10 (tbM.view.readAt (Elt F) (Rect.unit (s := S4096) (k0_off19 i) S1.size (k0_off19_inb i)).toLoadRect xt (Shape.Idx.first (numel1_S1.symm ▸ Nat.one_pos)))
  h11 : k0_chk11 (tbM.view.readAt (Elt F) (Rect.unit (s := S4096) (k0_off21 i) S1.size (k0_off21_inb i)).toLoadRect xt (Shape.Idx.first (numel1_S1.symm ▸ Nat.one_pos)))
  h12 : k0_chk12 (tbM.view.readAt (Elt F) (Rect.unit (s := S4096) (k0_off23 i) S1.size (k0_off23_inb i)).toLoadRect xt (Shape.Idx.first (numel1_S1.symm ▸ Nat.one_pos)))
  h13 : k0_chk13 (tbM.view.readAt (Elt F) (Rect.unit (s := S4096) (k0_off25 i) S1.size (k0_off25_inb i)).toLoadRect xt (Shape.Idx.first (numel1_S1.symm ▸ Nat.one_pos)))
  h14 : k0_chk14 (tbM.view.readAt (Elt F) (Rect.unit (s := S4096) (k0_off27 i) S1.size (k0_off27_inb i)).toLoadRect xt (Shape.Idx.first (numel1_S1.symm ▸ Nat.one_pos)))
  h15 : k0_chk15 (tbM.view.readAt (Elt F) (Rect.unit (s := S4096) (k0_off29 i) S1.size (k0_off29_inb i)).toLoadRect xt (Shape.Idx.first (numel1_S1.symm ▸ Nat.one_pos)))
  h16 : k0_chk16 (tbM.view.readAt (Elt F) (Rect.unit (s := S4096) (k0_off31 i) S1.size (k0_off31_inb i)).toLoadRect xt (Shape.Idx.first (numel1_S1.symm ▸ Nat.one_pos)))
  h17 : k0_chk17 (tbM.view.readAt (Elt F) (Rect.unit (s := S4096) (k0_off33 i) S1.size (k0_off33_inb i)).toLoadRect xt (Shape.Idx.first (numel1_S1.symm ▸ Nat.one_pos)))
  h18 : k0_chk18 (tbM.view.readAt (Elt F) (Rect.unit (s := S4096) (k0_off35 i) S1.size (k0_off35_inb i)).toLoadRect xt (Shape.Idx.first (numel1_S1.symm ▸ Nat.one_pos)))
  h19 : k0_chk19 (tbM.view.readAt (Elt F) (Rect.unit (s := S4096) (k0_off37 i) S1.size (k0_off37_inb i)).toLoadRect xt (Shape.Idx.first (numel1_S1.symm ▸ Nat.one_pos)))
  h20 : k0_chk20 (tbM.view.readAt (Elt F) (Rect.unit (s := S4096) (k0_off39 i) S1.size (k0_off39_inb i)).toLoadRect xt (Shape.Idx.first (numel1_S1.symm ▸ Nat.one_pos)))
  h21 : k0_chk21 (tbM.view.readAt (Elt F) (Rect.unit (s := S4096) (k0_off41 i) S1.size (k0_off41_inb i)).toLoadRect xt (Shape.Idx.first (numel1_S1.symm ▸ Nat.one_pos)))
  h22 : k0_chk22 (tbM.view.readAt (Elt F) (Rect.unit (s := S4096) (k0_off43 i) S1.size (k0_off43_inb i)).toLoadRect xt (Shape.Idx.first (numel1_S1.symm ▸ Nat.one_pos)))
  h23 : k0_chk23 (tbM.view.readAt (Elt F) (Rect.unit (s := S4096) (k0_off45 i) S1.size (k0_off45_inb i)).toLoadRect xt (Shape.Idx.first (numel1_S1.symm ▸ Nat.one_pos)))
  h24 : k0_chk24 (tbM.view.readAt (Elt F) (Rect.unit (s := S4096) (k0_off47 i) S1.size (k0_off47_inb i)).toLoadRect xt (Shape.Idx.first (numel1_S1.symm ▸ Nat.one_pos)))
  h25 : k0_chk25 (tbM.view.readAt (Elt F) (Rect.unit (s := S4096) (k0_off49 i) S1.size (k0_off49_inb i)).toLoadRect xt (Shape.Idx.first (numel1_S1.symm ▸ Nat.one_pos)))
  h26 : k0_chk26 (tbM.view.readAt (Elt F) (Rect.unit (s := S4096) (k0_off51 i) S1.size (k0_off51_inb i)).toLoadRect xt (Shape.Idx.first (numel1_S1.symm ▸ Nat.one_pos)))
  h27 : k0_chk27 (tbM.view.readAt (Elt F) (Rect.unit (s := S4096) (k0_off53 i) S1.size (k0_off53_inb i)).toLoadRect xt (Shape.Idx.first (numel1_S1.symm ▸ Nat.one_pos)))
  h28 : k0_chk28 (tbM.view.readAt (Elt F) (Rect.unit (s := S4096) (k0_off55 i) S1.size (k0_off55_inb i)).toLoadRect xt (Shape.Idx.first (numel1_S1.symm ▸ Nat.one_pos)))
  h29 : k0_chk29 (tbM.view.readAt (Elt F) (Rect.unit (s := S4096) (k0_off57 i) S1.size (k0_off57_inb i)).toLoadRect xt (Shape.Idx.first (numel1_S1.symm ▸ Nat.one_pos)))
  h30 : k0_chk30 (tbM.view.readAt (Elt F) (Rect.unit (s := S4096) (k0_off59 i) S1.size (k0_off59_inb i)).toLoadRect xt (Shape.Idx.first (numel1_S1.symm ▸ Nat.one_pos)))
  h31 : k0_chk31 (tbM.view.readAt (Elt F) (Rect.unit (s := S4096) (k0_off61 i) S1.size (k0_off61_inb i)).toLoadRect xt (Shape.Idx.first (numel1_S1.symm ▸ Nat.one_pos)))
  h32 : k0_chk32 (tbM.view.readAt (Elt F) (Rect.unit (s := S4096) (k0_off63 i) S1.size (k0_off63_inb i)).toLoadRect xt (Shape.Idx.first (numel1_S1.symm ▸ Nat.one_pos)))
  h33 : k0_chk33 (tbM.view.readAt (Elt F) (Rect.unit (s := S4096) (k0_off65 i) S1.size (k0_off65_inb i)).toLoadRect xt (Shape.Idx.first (numel1_S1.symm ▸ Nat.one_pos)))
  h34 : k0_chk34 (tbM.view.readAt (Elt F) (Rect.unit (s := S4096) (k0_off67 i) S1.size (k0_off67_inb i)).toLoadRect xt (Shape.Idx.first (numel1_S1.symm ▸ Nat.one_pos)))
  h35 : k0_chk35 (tbM.view.readAt (Elt F) (Rect.unit (s := S4096) (k0_off69 i) S1.size (k0_off69_inb i)).toLoadRect xt (Shape.Idx.first (numel1_S1.symm ▸ Nat.one_pos)))
  h36 : k0_chk36 (tbM.view.readAt (Elt F) (Rect.unit (s := S4096) (k0_off71 i) S1.size (k0_off71_inb i)).toLoadRect xt (Shape.Idx.first (numel1_S1.symm ▸ Nat.one_pos)))
  h37 : k0_chk37 (tbM.view.readAt (Elt F) (Rect.unit (s := S4096) (k0_off73 i) S1.size (k0_off73_inb i)).toLoadRect xt (Shape.Idx.first (numel1_S1.symm ▸ Nat.one_pos)))
  h38 : k0_chk38 (tbM.view.readAt (Elt F) (Rect.unit (s := S4096) (k0_off75 i) S1.size (k0_off75_inb i)).toLoadRect xt (Shape.Idx.first (numel1_S1.symm ▸ Nat.one_pos)))
  h39 : k0_chk39 (tbM.view.readAt (Elt F) (Rect.unit (s := S4096) (k0_off77 i) S1.size (k0_off77_inb i)).toLoadRect xt (Shape.Idx.first (numel1_S1.symm ▸ Nat.one_pos)))
  h40 : k0_chk40 (tbM.view.readAt (Elt F) (Rect.unit (s := S4096) (k0_off79 i) S1.size (k0_off79_inb i)).toLoadRect xt (Shape.Idx.first (numel1_S1.symm ▸ Nat.one_pos)))
  h41 : k0_chk41 (tbM.view.readAt (Elt F) (Rect.unit (s := S4096) (k0_off81 i) S1.size (k0_off81_inb i)).toLoadRect xt (Shape.Idx.first (numel1_S1.symm ▸ Nat.one_pos)))
  h42 : k0_chk42 (tbM.view.readAt (Elt F) (Rect.unit (s := S4096) (k0_off83 i) S1.size (k0_off83_inb i)).toLoadRect xt (Shape.Idx.first (numel1_S1.symm ▸ Nat.one_pos)))
  h43 : k0_chk43 (tbM.view.readAt (Elt F) (Rect.unit (s := S4096) (k0_off85 i) S1.size (k0_off85_inb i)).toLoadRect xt (Shape.Idx.first (numel1_S1.symm ▸ Nat.one_pos)))
  h44 : k0_chk44 (tbM.view.readAt (Elt F) (Rect.unit (s := S4096) (k0_off87 i) S1.size (k0_off87_inb i)).toLoadRect xt (Shape.Idx.first (numel1_S1.symm ▸ Nat.one_pos)))
  h45 : k0_chk45 (tbM.view.readAt (Elt F) (Rect.unit (s := S4096) (k0_off89 i) S1.size (k0_off89_inb i)).toLoadRect xt (Shape.Idx.first (numel1_S1.symm ▸ Nat.one_pos)))
  h46 : k0_chk46 (tbM.view.readAt (Elt F) (Rect.unit (s := S4096) (k0_off91 i) S1.size (k0_off91_inb i)).toLoadRect xt (Shape.Idx.first (numel1_S1.symm ▸ Nat.one_pos)))
  h47 : k0_chk47 (tbM.view.readAt (Elt F) (Rect.unit (s := S4096) (k0_off93 i) S1.size (k0_off93_inb i)).toLoadRect xt (Shape.Idx.first (numel1_S1.symm ▸ Nat.one_pos)))
  h48 : k0_chk48 (tbM.view.readAt (Elt F) (Rect.unit (s := S4096) (k0_off95 i) S1.size (k0_off95_inb i)).toLoadRect xt (Shape.Idx.first (numel1_S1.symm ▸ Nat.one_pos)))
  h49 : k0_chk49 (tbM.view.readAt (Elt F) (Rect.unit (s := S4096) (k0_off97 i) S1.size (k0_off97_inb i)).toLoadRect xt (Shape.Idx.first (numel1_S1.symm ▸ Nat.one_pos)))
  h50 : k0_chk50 (tbM.view.readAt (Elt F) (Rect.unit (s := S4096) (k0_off99 i) S1.size (k0_off99_inb i)).toLoadRect xt (Shape.Idx.first (numel1_S1.symm ▸ Nat.one_pos)))
  h51 : k0_chk51 (tbM.view.readAt (Elt F) (Rect.unit (s := S4096) (k0_off101 i) S1.size (k0_off101_inb i)).toLoadRect xt (Shape.Idx.first (numel1_S1.symm ▸ Nat.one_pos)))
  h52 : k0_chk52 (tbM.view.readAt (Elt F) (Rect.unit (s := S4096) (k0_off103 i) S1.size (k0_off103_inb i)).toLoadRect xt (Shape.Idx.first (numel1_S1.symm ▸ Nat.one_pos)))
  h53 : k0_chk53 (tbM.view.readAt (Elt F) (Rect.unit (s := S4096) (k0_off105 i) S1.size (k0_off105_inb i)).toLoadRect xt (Shape.Idx.first (numel1_S1.symm ▸ Nat.one_pos)))
  h54 : k0_chk54 (tbM.view.readAt (Elt F) (Rect.unit (s := S4096) (k0_off107 i) S1.size (k0_off107_inb i)).toLoadRect xt (Shape.Idx.first (numel1_S1.symm ▸ Nat.one_pos)))
  h55 : k0_chk55 (tbM.view.readAt (Elt F) (Rect.unit (s := S4096) (k0_off109 i) S1.size (k0_off109_inb i)).toLoadRect xt (Shape.Idx.first (numel1_S1.symm ▸ Nat.one_pos)))
  h56 : k0_chk56 (tbM.view.readAt (Elt F) (Rect.unit (s := S4096) (k0_off111 i) S1.size (k0_off111_inb i)).toLoadRect xt (Shape.Idx.first (numel1_S1.symm ▸ Nat.one_pos)))
  h57 : k0_chk57 (tbM.view.readAt (Elt F) (Rect.unit (s := S4096) (k0_off113 i) S1.size (k0_off113_inb i)).toLoadRect xt (Shape.Idx.first (numel1_S1.symm ▸ Nat.one_pos)))
  h58 : k0_chk58 (tbM.view.readAt (Elt F) (Rect.unit (s := S4096) (k0_off115 i) S1.size (k0_off115_inb i)).toLoadRect xt (Shape.Idx.first (numel1_S1.symm ▸ Nat.one_pos)))
  h59 : k0_chk59 (tbM.view.readAt (Elt F) (Rect.unit (s := S4096) (k0_off117 i) S1.size (k0_off117_inb i)).toLoadRect xt (Shape.Idx.first (numel1_S1.symm ▸ Nat.one_pos)))
  h60 : k0_chk60 (tbM.view.readAt (Elt F) (Rect.unit (s := S4096) (k0_off119 i) S1.size (k0_off119_inb i)).toLoadRect xt (Shape.Idx.first (numel1_S1.symm ▸ Nat.one_pos)))
  h61 : k0_chk61 (tbM.view.readAt (Elt F) (Rect.unit (s := S4096) (k0_off121 i) S1.size (k0_off121_inb i)).toLoadRect xt (Shape.Idx.first (numel1_S1.symm ▸ Nat.one_pos)))
  h62 : k0_chk62 (tbM.view.readAt (Elt F) (Rect.unit (s := S4096) (k0_off123 i) S1.size (k0_off123_inb i)).toLoadRect xt (Shape.Idx.first (numel1_S1.symm ▸ Nat.one_pos)))
  h63 : k0_chk63 (tbM.view.readAt (Elt F) (Rect.unit (s := S4096) (k0_off125 i) S1.size (k0_off125_inb i)).toLoadRect xt (Shape.Idx.first (numel1_S1.symm ▸ Nat.one_pos)))
  h64 : k0_chk64 (tbM.view.readAt (Elt F) (Rect.unit (s := S4096) (k0_off127 i) S1.size (k0_off127_inb i)).toLoadRect xt (Shape.Idx.first (numel1_S1.symm ▸ Nat.one_pos)))
  h65 : k0_chk65 (tbM.view.readAt (Elt F) (Rect.unit (s := S4096) (k0_off129 i) S1.size (k0_off129_inb i)).toLoadRect xt (Shape.Idx.first (numel1_S1.symm ▸ Nat.one_pos)))
  h66 : k0_chk66 (tbM.view.readAt (Elt F) (Rect.unit (s := S4096) (k0_off131 i) S1.size (k0_off131_inb i)).toLoadRect xt (Shape.Idx.first (numel1_S1.symm ▸ Nat.one_pos)))
  h67 : k0_chk67 (tbM.view.readAt (Elt F) (Rect.unit (s := S4096) (k0_off133 i) S1.size (k0_off133_inb i)).toLoadRect xt (Shape.Idx.first (numel1_S1.symm ▸ Nat.one_pos)))
  h68 : k0_chk68 (tbM.view.readAt (Elt F) (Rect.unit (s := S4096) (k0_off135 i) S1.size (k0_off135_inb i)).toLoadRect xt (Shape.Idx.first (numel1_S1.symm ▸ Nat.one_pos)))
  h69 : k0_chk69 (tbM.view.readAt (Elt F) (Rect.unit (s := S4096) (k0_off137 i) S1.size (k0_off137_inb i)).toLoadRect xt (Shape.Idx.first (numel1_S1.symm ▸ Nat.one_pos)))
  h70 : k0_chk70 (tbM.view.readAt (Elt F) (Rect.unit (s := S4096) (k0_off139 i) S1.size (k0_off139_inb i)).toLoadRect xt (Shape.Idx.first (numel1_S1.symm ▸ Nat.one_pos)))
  h71 : k0_chk71 (tbM.view.readAt (Elt F) (Rect.unit (s := S4096) (k0_off141 i) S1.size (k0_off141_inb i)).toLoadRect xt (Shape.Idx.first (numel1_S1.symm ▸ Nat.one_pos)))
  h72 : k0_chk72 (tbM.view.readAt (Elt F) (Rect.unit (s := S4096) (k0_off143 i) S1.size (k0_off143_inb i)).toLoadRect xt (Shape.Idx.first (numel1_S1.symm ▸ Nat.one_pos)))
  h73 : k0_chk73 (tbM.view.readAt (Elt F) (Rect.unit (s := S4096) (k0_off145 i) S1.size (k0_off145_inb i)).toLoadRect xt (Shape.Idx.first (numel1_S1.symm ▸ Nat.one_pos)))
  h74 : k0_chk74 (tbM.view.readAt (Elt F) (Rect.unit (s := S4096) (k0_off147 i) S1.size (k0_off147_inb i)).toLoadRect xt (Shape.Idx.first (numel1_S1.symm ▸ Nat.one_pos)))
  h75 : k0_chk75 (tbM.view.readAt (Elt F) (Rect.unit (s := S4096) (k0_off149 i) S1.size (k0_off149_inb i)).toLoadRect xt (Shape.Idx.first (numel1_S1.symm ▸ Nat.one_pos)))
  h76 : k0_chk76 (tbM.view.readAt (Elt F) (Rect.unit (s := S4096) (k0_off151 i) S1.size (k0_off151_inb i)).toLoadRect xt (Shape.Idx.first (numel1_S1.symm ▸ Nat.one_pos)))
  h77 : k0_chk77 (tbM.view.readAt (Elt F) (Rect.unit (s := S4096) (k0_off153 i) S1.size (k0_off153_inb i)).toLoadRect xt (Shape.Idx.first (numel1_S1.symm ▸ Nat.one_pos)))
  h78 : k0_chk78 (tbM.view.readAt (Elt F) (Rect.unit (s := S4096) (k0_off155 i) S1.size (k0_off155_inb i)).toLoadRect xt (Shape.Idx.first (numel1_S1.symm ▸ Nat.one_pos)))
  h79 : k0_chk79 (tbM.view.readAt (Elt F) (Rect.unit (s := S4096) (k0_off157 i) S1.size (k0_off157_inb i)).toLoadRect xt (Shape.Idx.first (numel1_S1.symm ▸ Nat.one_pos)))
  h80 : k0_chk80 (tbM.view.readAt (Elt F) (Rect.unit (s := S4096) (k0_off159 i) S1.size (k0_off159_inb i)).toLoadRect xt (Shape.Idx.first (numel1_S1.symm ▸ Nat.one_pos)))
  h81 : k0_chk81 (tbM.view.readAt (Elt F) (Rect.unit (s := S4096) (k0_off161 i) S1.size (k0_off161_inb i)).toLoadRect xt (Shape.Idx.first (numel1_S1.symm ▸ Nat.one_pos)))
  h82 : k0_chk82 (tbM.view.readAt (Elt F) (Rect.unit (s := S4096) (k0_off163 i) S1.size (k0_off163_inb i)).toLoadRect xt (Shape.Idx.first (numel1_S1.symm ▸ Nat.one_pos)))
  h83 : k0_chk83 (tbM.view.readAt (Elt F) (Rect.unit (s := S4096) (k0_off165 i) S1.size (k0_off165_inb i)).toLoadRect xt (Shape.Idx.first (numel1_S1.symm ▸ Nat.one_pos)))
  h84 : k0_chk84 (tbM.view.readAt (Elt F) (Rect.unit (s := S4096) (k0_off167 i) S1.size (k0_off167_inb i)).toLoadRect xt (Shape.Idx.first (numel1_S1.symm ▸ Nat.one_pos)))
  h85 : k0_chk85 (tbM.view.readAt (Elt F) (Rect.unit (s := S4096) (k0_off169 i) S1.size (k0_off169_inb i)).toLoadRect xt (Shape.Idx.first (numel1_S1.symm ▸ Nat.one_pos)))
  h86 : k0_chk86 (tbM.view.readAt (Elt F) (Rect.unit (s := S4096) (k0_off171 i) S1.size (k0_off171_inb i)).toLoadRect xt (Shape.Idx.first (numel1_S1.symm ▸ Nat.one_pos)))
  h87 : k0_chk87 (tbM.view.readAt (Elt F) (Rect.unit (s := S4096) (k0_off173 i) S1.size (k0_off173_inb i)).toLoadRect xt (Shape.Idx.first (numel1_S1.symm ▸ Nat.one_pos)))
  h88 : k0_chk88 (tbM.view.readAt (Elt F) (Rect.unit (s := S4096) (k0_off175 i) S1.size (k0_off175_inb i)).toLoadRect xt (Shape.Idx.first (numel1_S1.symm ▸ Nat.one_pos)))
  h89 : k0_chk89 (tbM.view.readAt (Elt F) (Rect.unit (s := S4096) (k0_off177 i) S1.size (k0_off177_inb i)).toLoadRect xt (Shape.Idx.first (numel1_S1.symm ▸ Nat.one_pos)))
  h90 : k0_chk90 (tbM.view.readAt (Elt F) (Rect.unit (s := S4096) (k0_off179 i) S1.size (k0_off179_inb i)).toLoadRect xt (Shape.Idx.first (numel1_S1.symm ▸ Nat.one_pos)))
  h91 : k0_chk91 (tbM.view.readAt (Elt F) (Rect.unit (s := S4096) (k0_off181 i) S1.size (k0_off181_inb i)).toLoadRect xt (Shape.Idx.first (numel1_S1.symm ▸ Nat.one_pos)))
  h92 : k0_chk92 (tbM.view.readAt (Elt F) (Rect.unit (s := S4096) (k0_off183 i) S1.size (k0_off183_inb i)).toLoadRect xt (Shape.Idx.first (numel1_S1.symm ▸ Nat.one_pos)))
  h93 : k0_chk93 (tbM.view.readAt (Elt F) (Rect.unit (s := S4096) (k0_off185 i) S1.size (k0_off185_inb i)).toLoadRect xt (Shape.Idx.first (numel1_S1.symm ▸ Nat.one_pos)))
  h94 : k0_chk94 (tbM.view.readAt (Elt F) (Rect.unit (s := S4096) (k0_off187 i) S1.size (k0_off187_inb i)).toLoadRect xt (Shape.Idx.first (numel1_S1.symm ▸ Nat.one_pos)))
  h95 : k0_chk95 (tbM.view.readAt (Elt F) (Rect.unit (s := S4096) (k0_off189 i) S1.size (k0_off189_inb i)).toLoadRect xt (Shape.Idx.first (numel1_S1.symm ▸ Nat.one_pos)))
  h96 : k0_chk96 (tbM.view.readAt (Elt F) (Rect.unit (s := S4096) (k0_off191 i) S1.size (k0_off191_inb i)).toLoadRect xt (Shape.Idx.first (numel1_S1.symm ▸ Nat.one_pos)))
  h97 : k0_chk97 (tbM.view.readAt (Elt F) (Rect.unit (s := S4096) (k0_off193 i) S1.size (k0_off193_inb i)).toLoadRect xt (Shape.Idx.first (numel1_S1.symm ▸ Nat.one_pos)))
  h98 : k0_chk98 (tbM.view.readAt (Elt F) (Rect.unit (s := S4096) (k0_off195 i) S1.size (k0_off195_inb i)).toLoadRect xt (Shape.Idx.first (numel1_S1.symm ▸ Nat.one_pos)))
  h99 : k0_chk99 (tbM.view.readAt (Elt F) (Rect.unit (s := S4096) (k0_off197 i) S1.size (k0_off197_inb i)).toLoadRect xt (Shape.Idx.first (numel1_S1.symm ▸ Nat.one_pos)))
  h100 : k0_chk100 (tbM.view.readAt (Elt F) (Rect.unit (s := S4096) (k0_off199 i) S1.size (k0_off199_inb i)).toLoadRect xt (Shape.Idx.first (numel1_S1.symm ▸ Nat.one_pos)))
  h101 : k0_chk101 (tbM.view.readAt (Elt F) (Rect.unit (s := S4096) (k0_off201 i) S1.size (k0_off201_inb i)).toLoadRect xt (Shape.Idx.first (numel1_S1.symm ▸ Nat.one_pos)))
  h102 : k0_chk102 (tbM.view.readAt (Elt F) (Rect.unit (s := S4096) (k0_off203 i) S1.size (k0_off203_inb i)).toLoadRect xt (Shape.Idx.first (numel1_S1.symm ▸ Nat.one_pos)))
  h103 : k0_chk103 (tbM.view.readAt (Elt F) (Rect.unit (s := S4096) (k0_off205 i) S1.size (k0_off205_inb i)).toLoadRect xt (Shape.Idx.first (numel1_S1.symm ▸ Nat.one_pos)))
  h104 : k0_chk104 (tbM.view.readAt (Elt F) (Rect.unit (s := S4096) (k0_off207 i) S1.size (k0_off207_inb i)).toLoadRect xt (Shape.Idx.first (numel1_S1.symm ▸ Nat.one_pos)))
  h105 : k0_chk105 (tbM.view.readAt (Elt F) (Rect.unit (s := S4096) (k0_off209 i) S1.size (k0_off209_inb i)).toLoadRect xt (Shape.Idx.first (numel1_S1.symm ▸ Nat.one_pos)))
  h106 : k0_chk106 (tbM.view.readAt (Elt F) (Rect.unit (s := S4096) (k0_off211 i) S1.size (k0_off211_inb i)).toLoadRect xt (Shape.Idx.first (numel1_S1.symm ▸ Nat.one_pos)))
  h107 : k0_chk107 (tbM.view.readAt (Elt F) (Rect.unit (s := S4096) (k0_off213 i) S1.size (k0_off213_inb i)).toLoadRect xt (Shape.Idx.first (numel1_S1.symm ▸ Nat.one_pos)))
  h108 : k0_chk108 (tbM.view.readAt (Elt F) (Rect.unit (s := S4096) (k0_off215 i) S1.size (k0_off215_inb i)).toLoadRect xt (Shape.Idx.first (numel1_S1.symm ▸ Nat.one_pos)))
  h109 : k0_chk109 (tbM.view.readAt (Elt F) (Rect.unit (s := S4096) (k0_off217 i) S1.size (k0_off217_inb i)).toLoadRect xt (Shape.Idx.first (numel1_S1.symm ▸ Nat.one_pos)))
  h110 : k0_chk110 (tbM.view.readAt (Elt F) (Rect.unit (s := S4096) (k0_off219 i) S1.size (k0_off219_inb i)).toLoadRect xt (Shape.Idx.first (numel1_S1.symm ▸ Nat.one_pos)))
  h111 : k0_chk111 (tbM.view.readAt (Elt F) (Rect.unit (s := S4096) (k0_off221 i) S1.size (k0_off221_inb i)).toLoadRect xt (Shape.Idx.first (numel1_S1.symm ▸ Nat.one_pos)))
  h112 : k0_chk112 (tbM.view.readAt (Elt F) (Rect.unit (s := S4096) (k0_off223 i) S1.size (k0_off223_inb i)).toLoadRect xt (Shape.Idx.first (numel1_S1.symm ▸ Nat.one_pos)))
  h113 : k0_chk113 (tbM.view.readAt (Elt F) (Rect.unit (s := S4096) (k0_off225 i) S1.size (k0_off225_inb i)).toLoadRect xt (Shape.Idx.first (numel1_S1.symm ▸ Nat.one_pos)))
  h114 : k0_chk114 (tbM.view.readAt (Elt F) (Rect.unit (s := S4096) (k0_off227 i) S1.size (k0_off227_inb i)).toLoadRect xt (Shape.Idx.first (numel1_S1.symm ▸ Nat.one_pos)))
  h115 : k0_chk115 (tbM.view.readAt (Elt F) (Rect.unit (s := S4096) (k0_off229 i) S1.size (k0_off229_inb i)).toLoadRect xt (Shape.Idx.first (numel1_S1.symm ▸ Nat.one_pos)))
  h116 : k0_chk116 (tbM.view.readAt (Elt F) (Rect.unit (s := S4096) (k0_off231 i) S1.size (k0_off231_inb i)).toLoadRect xt (Shape.Idx.first (numel1_S1.symm ▸ Nat.one_pos)))
  h117 : k0_chk117 (tbM.view.readAt (Elt F) (Rect.unit (s := S4096) (k0_off233 i) S1.size (k0_off233_inb i)).toLoadRect xt (Shape.Idx.first (numel1_S1.symm ▸ Nat.one_pos)))
  h118 : k0_chk118 (tbM.view.readAt (Elt F) (Rect.unit (s := S4096) (k0_off235 i) S1.size (k0_off235_inb i)).toLoadRect xt (Shape.Idx.first (numel1_S1.symm ▸ Nat.one_pos)))
  h119 : k0_chk119 (tbM.view.readAt (Elt F) (Rect.unit (s := S4096) (k0_off237 i) S1.size (k0_off237_inb i)).toLoadRect xt (Shape.Idx.first (numel1_S1.symm ▸ Nat.one_pos)))
  h120 : k0_chk120 (tbM.view.readAt (Elt F) (Rect.unit (s := S4096) (k0_off239 i) S1.size (k0_off239_inb i)).toLoadRect xt (Shape.Idx.first (numel1_S1.symm ▸ Nat.one_pos)))
  h121 : k0_chk121 (tbM.view.readAt (Elt F) (Rect.unit (s := S4096) (k0_off241 i) S1.size (k0_off241_inb i)).toLoadRect xt (Shape.Idx.first (numel1_S1.symm ▸ Nat.one_pos)))
  h122 : k0_chk122 (tbM.view.readAt (Elt F) (Rect.unit (s := S4096) (k0_off243 i) S1.size (k0_off243_inb i)).toLoadRect xt (Shape.Idx.first (numel1_S1.symm ▸ Nat.one_pos)))
  h123 : k0_chk123 (tbM.view.readAt (Elt F) (Rect.unit (s := S4096) (k0_off245 i) S1.size (k0_off245_inb i)).toLoadRect xt (Shape.Idx.first (numel1_S1.symm ▸ Nat.one_pos)))
  h124 : k0_chk124 (tbM.view.readAt (Elt F) (Rect.unit (s := S4096) (k0_off247 i) S1.size (k0_off247_inb i)).toLoadRect xt (Shape.Idx.first (numel1_S1.symm ▸ Nat.one_pos)))
  h125 : k0_chk125 (tbM.view.readAt (Elt F) (Rect.unit (s := S4096) (k0_off249 i) S1.size (k0_off249_inb i)).toLoadRect xt (Shape.Idx.first (numel1_S1.symm ▸ Nat.one_pos)))
  h126 : k0_chk126 (tbM.view.readAt (Elt F) (Rect.unit (s := S4096) (k0_off251 i) S1.size (k0_off251_inb i)).toLoadRect xt (Shape.Idx.first (numel1_S1.symm ▸ Nat.one_pos)))
  h127 : k0_chk127 (tbM.view.readAt (Elt F) (Rect.unit (s := S4096) (k0_off253 i) S1.size (k0_off253_inb i)).toLoadRect xt (Shape.Idx.first (numel1_S1.symm ▸ Nat.one_pos)))
  h128 : k0_chk128 (tbM.view.readAt (Elt F) (Rect.unit (s := S4096) (k0_off255 i) S1.size (k0_off255_inb i)).toLoadRect xt (Shape.Idx.first (numel1_S1.symm ▸ Nat.one_pos)))

/-- The weight bank W1, left in HBM, as a whole memref. -/
abbrev hbM : Memref sig .tc .hbm S10000x8x1024 .f32 := Memref.whole main_arg1

/-- The bank held whole is the bank held as one read share per DMA cell number below 138, and a remainder: several copies may read it at once, each lending its own cell's share. -/
theorem bank_split (c : Dev nD) (f : Buf (Elt F) (hbM.view.loc (c : Thread nD τ))) :
    (hbM.view.loc (c : Thread nD τ) ↦{fullShare} f : sProp 𝕄) ⊢ iprop((hbM.view.loc (c : Thread nD τ) ↦{Transfers.shareDrop fullShare 138} f) ∗ (hbM.view.loc (c : Thread nD τ) ↦{Transfers.shareTokN fullShare 0} f) ∗ (hbM.view.loc (c : Thread nD τ) ↦{Transfers.shareTokN fullShare 1} f) ∗ (hbM.view.loc (c : Thread nD τ) ↦{Transfers.shareTokN fullShare 2} f) ∗ (hbM.view.loc (c : Thread nD τ) ↦{Transfers.shareTokN fullShare 3} f) ∗ (hbM.view.loc (c : Thread nD τ) ↦{Transfers.shareTokN fullShare 4} f) ∗ (hbM.view.loc (c : Thread nD τ) ↦{Transfers.shareTokN fullShare 5} f) ∗ (hbM.view.loc (c : Thread nD τ) ↦{Transfers.shareTokN fullShare 6} f) ∗ (hbM.view.loc (c : Thread nD τ) ↦{Transfers.shareTokN fullShare 7} f) ∗ (hbM.view.loc (c : Thread nD τ) ↦{Transfers.shareTokN fullShare 8} f) ∗ (hbM.view.loc (c : Thread nD τ) ↦{Transfers.shareTokN fullShare 9} f) ∗ (hbM.view.loc (c : Thread nD τ) ↦{Transfers.shareTokN fullShare 10} f) ∗ (hbM.view.loc (c : Thread nD τ) ↦{Transfers.shareTokN fullShare 11} f) ∗ (hbM.view.loc (c : Thread nD τ) ↦{Transfers.shareTokN fullShare 12} f) ∗ (hbM.view.loc (c : Thread nD τ) ↦{Transfers.shareTokN fullShare 13} f) ∗ (hbM.view.loc (c : Thread nD τ) ↦{Transfers.shareTokN fullShare 14} f) ∗ (hbM.view.loc (c : Thread nD τ) ↦{Transfers.shareTokN fullShare 15} f) ∗ (hbM.view.loc (c : Thread nD τ) ↦{Transfers.shareTokN fullShare 16} f) ∗ (hbM.view.loc (c : Thread nD τ) ↦{Transfers.shareTokN fullShare 17} f) ∗ (hbM.view.loc (c : Thread nD τ) ↦{Transfers.shareTokN fullShare 18} f) ∗ (hbM.view.loc (c : Thread nD τ) ↦{Transfers.shareTokN fullShare 19} f) ∗ (hbM.view.loc (c : Thread nD τ) ↦{Transfers.shareTokN fullShare 20} f) ∗ (hbM.view.loc (c : Thread nD τ) ↦{Transfers.shareTokN fullShare 21} f) ∗ (hbM.view.loc (c : Thread nD τ) ↦{Transfers.shareTokN fullShare 22} f) ∗ (hbM.view.loc (c : Thread nD τ) ↦{Transfers.shareTokN fullShare 23} f) ∗ (hbM.view.loc (c : Thread nD τ) ↦{Transfers.shareTokN fullShare 24} f) ∗ (hbM.view.loc (c : Thread nD τ) ↦{Transfers.shareTokN fullShare 25} f) ∗ (hbM.view.loc (c : Thread nD τ) ↦{Transfers.shareTokN fullShare 26} f) ∗ (hbM.view.loc (c : Thread nD τ) ↦{Transfers.shareTokN fullShare 27} f) ∗ (hbM.view.loc (c : Thread nD τ) ↦{Transfers.shareTokN fullShare 28} f) ∗ (hbM.view.loc (c : Thread nD τ) ↦{Transfers.shareTokN fullShare 29} f) ∗ (hbM.view.loc (c : Thread nD τ) ↦{Transfers.shareTokN fullShare 30} f) ∗ (hbM.view.loc (c : Thread nD τ) ↦{Transfers.shareTokN fullShare 31} f) ∗ (hbM.view.loc (c : Thread nD τ) ↦{Transfers.shareTokN fullShare 32} f) ∗ (hbM.view.loc (c : Thread nD τ) ↦{Transfers.shareTokN fullShare 33} f) ∗ (hbM.view.loc (c : Thread nD τ) ↦{Transfers.shareTokN fullShare 34} f) ∗ (hbM.view.loc (c : Thread nD τ) ↦{Transfers.shareTokN fullShare 35} f) ∗ (hbM.view.loc (c : Thread nD τ) ↦{Transfers.shareTokN fullShare 36} f) ∗ (hbM.view.loc (c : Thread nD τ) ↦{Transfers.shareTokN fullShare 37} f) ∗ (hbM.view.loc (c : Thread nD τ) ↦{Transfers.shareTokN fullShare 38} f) ∗ (hbM.view.loc (c : Thread nD τ) ↦{Transfers.shareTokN fullShare 39} f) ∗ (hbM.view.loc (c : Thread nD τ) ↦{Transfers.shareTokN fullShare 40} f) ∗ (hbM.view.loc (c : Thread nD τ) ↦{Transfers.shareTokN fullShare 41} f) ∗ (hbM.view.loc (c : Thread nD τ) ↦{Transfers.shareTokN fullShare 42} f) ∗ (hbM.view.loc (c : Thread nD τ) ↦{Transfers.shareTokN fullShare 43} f) ∗ (hbM.view.loc (c : Thread nD τ) ↦{Transfers.shareTokN fullShare 44} f) ∗ (hbM.view.loc (c : Thread nD τ) ↦{Transfers.shareTokN fullShare 45} f) ∗ (hbM.view.loc (c : Thread nD τ) ↦{Transfers.shareTokN fullShare 46} f) ∗ (hbM.view.loc (c : Thread nD τ) ↦{Transfers.shareTokN fullShare 47} f) ∗ (hbM.view.loc (c : Thread nD τ) ↦{Transfers.shareTokN fullShare 48} f) ∗ (hbM.view.loc (c : Thread nD τ) ↦{Transfers.shareTokN fullShare 49} f) ∗ (hbM.view.loc (c : Thread nD τ) ↦{Transfers.shareTokN fullShare 50} f) ∗ (hbM.view.loc (c : Thread nD τ) ↦{Transfers.shareTokN fullShare 51} f) ∗ (hbM.view.loc (c : Thread nD τ) ↦{Transfers.shareTokN fullShare 52} f) ∗ (hbM.view.loc (c : Thread nD τ) ↦{Transfers.shareTokN fullShare 53} f) ∗ (hbM.view.loc (c : Thread nD τ) ↦{Transfers.shareTokN fullShare 54} f) ∗ (hbM.view.loc (c : Thread nD τ) ↦{Transfers.shareTokN fullShare 55} f) ∗ (hbM.view.loc (c : Thread nD τ) ↦{Transfers.shareTokN fullShare 56} f) ∗ (hbM.view.loc (c : Thread nD τ) ↦{Transfers.shareTokN fullShare 57} f) ∗ (hbM.view.loc (c : Thread nD τ) ↦{Transfers.shareTokN fullShare 58} f) ∗ (hbM.view.loc (c : Thread nD τ) ↦{Transfers.shareTokN fullShare 59} f) ∗ (hbM.view.loc (c : Thread nD τ) ↦{Transfers.shareTokN fullShare 60} f) ∗ (hbM.view.loc (c : Thread nD τ) ↦{Transfers.shareTokN fullShare 61} f) ∗ (hbM.view.loc (c : Thread nD τ) ↦{Transfers.shareTokN fullShare 62} f) ∗ (hbM.view.loc (c : Thread nD τ) ↦{Transfers.shareTokN fullShare 63} f) ∗ (hbM.view.loc (c : Thread nD τ) ↦{Transfers.shareTokN fullShare 64} f) ∗ (hbM.view.loc (c : Thread nD τ) ↦{Transfers.shareTokN fullShare 65} f) ∗ (hbM.view.loc (c : Thread nD τ) ↦{Transfers.shareTokN fullShare 66} f) ∗ (hbM.view.loc (c : Thread nD τ) ↦{Transfers.shareTokN fullShare 67} f) ∗ (hbM.view.loc (c : Thread nD τ) ↦{Transfers.shareTokN fullShare 68} f) ∗ (hbM.view.loc (c : Thread nD τ) ↦{Transfers.shareTokN fullShare 69} f) ∗ (hbM.view.loc (c : Thread nD τ) ↦{Transfers.shareTokN fullShare 70} f) ∗ (hbM.view.loc (c : Thread nD τ) ↦{Transfers.shareTokN fullShare 71} f) ∗ (hbM.view.loc (c : Thread nD τ) ↦{Transfers.shareTokN fullShare 72} f) ∗ (hbM.view.loc (c : Thread nD τ) ↦{Transfers.shareTokN fullShare 73} f) ∗ (hbM.view.loc (c : Thread nD τ) ↦{Transfers.shareTokN fullShare 74} f) ∗ (hbM.view.loc (c : Thread nD τ) ↦{Transfers.shareTokN fullShare 75} f) ∗ (hbM.view.loc (c : Thread nD τ) ↦{Transfers.shareTokN fullShare 76} f) ∗ (hbM.view.loc (c : Thread nD τ) ↦{Transfers.shareTokN fullShare 77} f) ∗ (hbM.view.loc (c : Thread nD τ) ↦{Transfers.shareTokN fullShare 78} f) ∗ (hbM.view.loc (c : Thread nD τ) ↦{Transfers.shareTokN fullShare 79} f) ∗ (hbM.view.loc (c : Thread nD τ) ↦{Transfers.shareTokN fullShare 80} f) ∗ (hbM.view.loc (c : Thread nD τ) ↦{Transfers.shareTokN fullShare 81} f) ∗ (hbM.view.loc (c : Thread nD τ) ↦{Transfers.shareTokN fullShare 82} f) ∗ (hbM.view.loc (c : Thread nD τ) ↦{Transfers.shareTokN fullShare 83} f) ∗ (hbM.view.loc (c : Thread nD τ) ↦{Transfers.shareTokN fullShare 84} f) ∗ (hbM.view.loc (c : Thread nD τ) ↦{Transfers.shareTokN fullShare 85} f) ∗ (hbM.view.loc (c : Thread nD τ) ↦{Transfers.shareTokN fullShare 86} f) ∗ (hbM.view.loc (c : Thread nD τ) ↦{Transfers.shareTokN fullShare 87} f) ∗ (hbM.view.loc (c : Thread nD τ) ↦{Transfers.shareTokN fullShare 88} f) ∗ (hbM.view.loc (c : Thread nD τ) ↦{Transfers.shareTokN fullShare 89} f) ∗ (hbM.view.loc (c : Thread nD τ) ↦{Transfers.shareTokN fullShare 90} f) ∗ (hbM.view.loc (c : Thread nD τ) ↦{Transfers.shareTokN fullShare 91} f) ∗ (hbM.view.loc (c : Thread nD τ) ↦{Transfers.shareTokN fullShare 92} f) ∗ (hbM.view.loc (c : Thread nD τ) ↦{Transfers.shareTokN fullShare 93} f) ∗ (hbM.view.loc (c : Thread nD τ) ↦{Transfers.shareTokN fullShare 94} f) ∗ (hbM.view.loc (c : Thread nD τ) ↦{Transfers.shareTokN fullShare 95} f) ∗ (hbM.view.loc (c : Thread nD τ) ↦{Transfers.shareTokN fullShare 96} f) ∗ (hbM.view.loc (c : Thread nD τ) ↦{Transfers.shareTokN fullShare 97} f) ∗ (hbM.view.loc (c : Thread nD τ) ↦{Transfers.shareTokN fullShare 98} f) ∗ (hbM.view.loc (c : Thread nD τ) ↦{Transfers.shareTokN fullShare 99} f) ∗ (hbM.view.loc (c : Thread nD τ) ↦{Transfers.shareTokN fullShare 100} f) ∗ (hbM.view.loc (c : Thread nD τ) ↦{Transfers.shareTokN fullShare 101} f) ∗ (hbM.view.loc (c : Thread nD τ) ↦{Transfers.shareTokN fullShare 102} f) ∗ (hbM.view.loc (c : Thread nD τ) ↦{Transfers.shareTokN fullShare 103} f) ∗ (hbM.view.loc (c : Thread nD τ) ↦{Transfers.shareTokN fullShare 104} f) ∗ (hbM.view.loc (c : Thread nD τ) ↦{Transfers.shareTokN fullShare 105} f) ∗ (hbM.view.loc (c : Thread nD τ) ↦{Transfers.shareTokN fullShare 106} f) ∗ (hbM.view.loc (c : Thread nD τ) ↦{Transfers.shareTokN fullShare 107} f) ∗ (hbM.view.loc (c : Thread nD τ) ↦{Transfers.shareTokN fullShare 108} f) ∗ (hbM.view.loc (c : Thread nD τ) ↦{Transfers.shareTokN fullShare 109} f) ∗ (hbM.view.loc (c : Thread nD τ) ↦{Transfers.shareTokN fullShare 110} f) ∗ (hbM.view.loc (c : Thread nD τ) ↦{Transfers.shareTokN fullShare 111} f) ∗ (hbM.view.loc (c : Thread nD τ) ↦{Transfers.shareTokN fullShare 112} f) ∗ (hbM.view.loc (c : Thread nD τ) ↦{Transfers.shareTokN fullShare 113} f) ∗ (hbM.view.loc (c : Thread nD τ) ↦{Transfers.shareTokN fullShare 114} f) ∗ (hbM.view.loc (c : Thread nD τ) ↦{Transfers.shareTokN fullShare 115} f) ∗ (hbM.view.loc (c : Thread nD τ) ↦{Transfers.shareTokN fullShare 116} f) ∗ (hbM.view.loc (c : Thread nD τ) ↦{Transfers.shareTokN fullShare 117} f) ∗ (hbM.view.loc (c : Thread nD τ) ↦{Transfers.shareTokN fullShare 118} f) ∗ (hbM.view.loc (c : Thread nD τ) ↦{Transfers.shareTokN fullShare 119} f) ∗ (hbM.view.loc (c : Thread nD τ) ↦{Transfers.shareTokN fullShare 120} f) ∗ (hbM.view.loc (c : Thread nD τ) ↦{Transfers.shareTokN fullShare 121} f) ∗ (hbM.view.loc (c : Thread nD τ) ↦{Transfers.shareTokN fullShare 122} f) ∗ (hbM.view.loc (c : Thread nD τ) ↦{Transfers.shareTokN fullShare 123} f) ∗ (hbM.view.loc (c : Thread nD τ) ↦{Transfers.shareTokN fullShare 124} f) ∗ (hbM.view.loc (c : Thread nD τ) ↦{Transfers.shareTokN fullShare 125} f) ∗ (hbM.view.loc (c : Thread nD τ) ↦{Transfers.shareTokN fullShare 126} f) ∗ (hbM.view.loc (c : Thread nD τ) ↦{Transfers.shareTokN fullShare 127} f) ∗ (hbM.view.loc (c : Thread nD τ) ↦{Transfers.shareTokN fullShare 128} f) ∗ (hbM.view.loc (c : Thread nD τ) ↦{Transfers.shareTokN fullShare 129} f) ∗ (hbM.view.loc (c : Thread nD τ) ↦{Transfers.shareTokN fullShare 130} f) ∗ (hbM.view.loc (c : Thread nD τ) ↦{Transfers.shareTokN fullShare 131} f) ∗ (hbM.view.loc (c : Thread nD τ) ↦{Transfers.shareTokN fullShare 132} f) ∗ (hbM.view.loc (c : Thread nD τ) ↦{Transfers.shareTokN fullShare 133} f) ∗ (hbM.view.loc (c : Thread nD τ) ↦{Transfers.shareTokN fullShare 134} f) ∗ (hbM.view.loc (c : Thread nD τ) ↦{Transfers.shareTokN fullShare 135} f) ∗ (hbM.view.loc (c : Thread nD τ) ↦{Transfers.shareTokN fullShare 136} f) ∗ (hbM.view.loc (c : Thread nD τ) ↦{Transfers.shareTokN fullShare 137} f)) :=
  (Transfers.pointsTo_toks_range (Ix := Unit) (Name := ℕ) (U := Pipeline.UD sig nD τ) (Lvl := ℕ) fullShare 138).1.trans
    (Entails.of_eq (by rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137] (by decide) (by decide)]; rfl))

theorem bank_join (c : Dev nD) (f : Buf (Elt F) (hbM.view.loc (c : Thread nD τ))) :
    iprop((hbM.view.loc (c : Thread nD τ) ↦{Transfers.shareDrop fullShare 138} f) ∗ (hbM.view.loc (c : Thread nD τ) ↦{Transfers.shareTokN fullShare 0} f) ∗ (hbM.view.loc (c : Thread nD τ) ↦{Transfers.shareTokN fullShare 1} f) ∗ (hbM.view.loc (c : Thread nD τ) ↦{Transfers.shareTokN fullShare 2} f) ∗ (hbM.view.loc (c : Thread nD τ) ↦{Transfers.shareTokN fullShare 3} f) ∗ (hbM.view.loc (c : Thread nD τ) ↦{Transfers.shareTokN fullShare 4} f) ∗ (hbM.view.loc (c : Thread nD τ) ↦{Transfers.shareTokN fullShare 5} f) ∗ (hbM.view.loc (c : Thread nD τ) ↦{Transfers.shareTokN fullShare 6} f) ∗ (hbM.view.loc (c : Thread nD τ) ↦{Transfers.shareTokN fullShare 7} f) ∗ (hbM.view.loc (c : Thread nD τ) ↦{Transfers.shareTokN fullShare 8} f) ∗ (hbM.view.loc (c : Thread nD τ) ↦{Transfers.shareTokN fullShare 9} f) ∗ (hbM.view.loc (c : Thread nD τ) ↦{Transfers.shareTokN fullShare 10} f) ∗ (hbM.view.loc (c : Thread nD τ) ↦{Transfers.shareTokN fullShare 11} f) ∗ (hbM.view.loc (c : Thread nD τ) ↦{Transfers.shareTokN fullShare 12} f) ∗ (hbM.view.loc (c : Thread nD τ) ↦{Transfers.shareTokN fullShare 13} f) ∗ (hbM.view.loc (c : Thread nD τ) ↦{Transfers.shareTokN fullShare 14} f) ∗ (hbM.view.loc (c : Thread nD τ) ↦{Transfers.shareTokN fullShare 15} f) ∗ (hbM.view.loc (c : Thread nD τ) ↦{Transfers.shareTokN fullShare 16} f) ∗ (hbM.view.loc (c : Thread nD τ) ↦{Transfers.shareTokN fullShare 17} f) ∗ (hbM.view.loc (c : Thread nD τ) ↦{Transfers.shareTokN fullShare 18} f) ∗ (hbM.view.loc (c : Thread nD τ) ↦{Transfers.shareTokN fullShare 19} f) ∗ (hbM.view.loc (c : Thread nD τ) ↦{Transfers.shareTokN fullShare 20} f) ∗ (hbM.view.loc (c : Thread nD τ) ↦{Transfers.shareTokN fullShare 21} f) ∗ (hbM.view.loc (c : Thread nD τ) ↦{Transfers.shareTokN fullShare 22} f) ∗ (hbM.view.loc (c : Thread nD τ) ↦{Transfers.shareTokN fullShare 23} f) ∗ (hbM.view.loc (c : Thread nD τ) ↦{Transfers.shareTokN fullShare 24} f) ∗ (hbM.view.loc (c : Thread nD τ) ↦{Transfers.shareTokN fullShare 25} f) ∗ (hbM.view.loc (c : Thread nD τ) ↦{Transfers.shareTokN fullShare 26} f) ∗ (hbM.view.loc (c : Thread nD τ) ↦{Transfers.shareTokN fullShare 27} f) ∗ (hbM.view.loc (c : Thread nD τ) ↦{Transfers.shareTokN fullShare 28} f) ∗ (hbM.view.loc (c : Thread nD τ) ↦{Transfers.shareTokN fullShare 29} f) ∗ (hbM.view.loc (c : Thread nD τ) ↦{Transfers.shareTokN fullShare 30} f) ∗ (hbM.view.loc (c : Thread nD τ) ↦{Transfers.shareTokN fullShare 31} f) ∗ (hbM.view.loc (c : Thread nD τ) ↦{Transfers.shareTokN fullShare 32} f) ∗ (hbM.view.loc (c : Thread nD τ) ↦{Transfers.shareTokN fullShare 33} f) ∗ (hbM.view.loc (c : Thread nD τ) ↦{Transfers.shareTokN fullShare 34} f) ∗ (hbM.view.loc (c : Thread nD τ) ↦{Transfers.shareTokN fullShare 35} f) ∗ (hbM.view.loc (c : Thread nD τ) ↦{Transfers.shareTokN fullShare 36} f) ∗ (hbM.view.loc (c : Thread nD τ) ↦{Transfers.shareTokN fullShare 37} f) ∗ (hbM.view.loc (c : Thread nD τ) ↦{Transfers.shareTokN fullShare 38} f) ∗ (hbM.view.loc (c : Thread nD τ) ↦{Transfers.shareTokN fullShare 39} f) ∗ (hbM.view.loc (c : Thread nD τ) ↦{Transfers.shareTokN fullShare 40} f) ∗ (hbM.view.loc (c : Thread nD τ) ↦{Transfers.shareTokN fullShare 41} f) ∗ (hbM.view.loc (c : Thread nD τ) ↦{Transfers.shareTokN fullShare 42} f) ∗ (hbM.view.loc (c : Thread nD τ) ↦{Transfers.shareTokN fullShare 43} f) ∗ (hbM.view.loc (c : Thread nD τ) ↦{Transfers.shareTokN fullShare 44} f) ∗ (hbM.view.loc (c : Thread nD τ) ↦{Transfers.shareTokN fullShare 45} f) ∗ (hbM.view.loc (c : Thread nD τ) ↦{Transfers.shareTokN fullShare 46} f) ∗ (hbM.view.loc (c : Thread nD τ) ↦{Transfers.shareTokN fullShare 47} f) ∗ (hbM.view.loc (c : Thread nD τ) ↦{Transfers.shareTokN fullShare 48} f) ∗ (hbM.view.loc (c : Thread nD τ) ↦{Transfers.shareTokN fullShare 49} f) ∗ (hbM.view.loc (c : Thread nD τ) ↦{Transfers.shareTokN fullShare 50} f) ∗ (hbM.view.loc (c : Thread nD τ) ↦{Transfers.shareTokN fullShare 51} f) ∗ (hbM.view.loc (c : Thread nD τ) ↦{Transfers.shareTokN fullShare 52} f) ∗ (hbM.view.loc (c : Thread nD τ) ↦{Transfers.shareTokN fullShare 53} f) ∗ (hbM.view.loc (c : Thread nD τ) ↦{Transfers.shareTokN fullShare 54} f) ∗ (hbM.view.loc (c : Thread nD τ) ↦{Transfers.shareTokN fullShare 55} f) ∗ (hbM.view.loc (c : Thread nD τ) ↦{Transfers.shareTokN fullShare 56} f) ∗ (hbM.view.loc (c : Thread nD τ) ↦{Transfers.shareTokN fullShare 57} f) ∗ (hbM.view.loc (c : Thread nD τ) ↦{Transfers.shareTokN fullShare 58} f) ∗ (hbM.view.loc (c : Thread nD τ) ↦{Transfers.shareTokN fullShare 59} f) ∗ (hbM.view.loc (c : Thread nD τ) ↦{Transfers.shareTokN fullShare 60} f) ∗ (hbM.view.loc (c : Thread nD τ) ↦{Transfers.shareTokN fullShare 61} f) ∗ (hbM.view.loc (c : Thread nD τ) ↦{Transfers.shareTokN fullShare 62} f) ∗ (hbM.view.loc (c : Thread nD τ) ↦{Transfers.shareTokN fullShare 63} f) ∗ (hbM.view.loc (c : Thread nD τ) ↦{Transfers.shareTokN fullShare 64} f) ∗ (hbM.view.loc (c : Thread nD τ) ↦{Transfers.shareTokN fullShare 65} f) ∗ (hbM.view.loc (c : Thread nD τ) ↦{Transfers.shareTokN fullShare 66} f) ∗ (hbM.view.loc (c : Thread nD τ) ↦{Transfers.shareTokN fullShare 67} f) ∗ (hbM.view.loc (c : Thread nD τ) ↦{Transfers.shareTokN fullShare 68} f) ∗ (hbM.view.loc (c : Thread nD τ) ↦{Transfers.shareTokN fullShare 69} f) ∗ (hbM.view.loc (c : Thread nD τ) ↦{Transfers.shareTokN fullShare 70} f) ∗ (hbM.view.loc (c : Thread nD τ) ↦{Transfers.shareTokN fullShare 71} f) ∗ (hbM.view.loc (c : Thread nD τ) ↦{Transfers.shareTokN fullShare 72} f) ∗ (hbM.view.loc (c : Thread nD τ) ↦{Transfers.shareTokN fullShare 73} f) ∗ (hbM.view.loc (c : Thread nD τ) ↦{Transfers.shareTokN fullShare 74} f) ∗ (hbM.view.loc (c : Thread nD τ) ↦{Transfers.shareTokN fullShare 75} f) ∗ (hbM.view.loc (c : Thread nD τ) ↦{Transfers.shareTokN fullShare 76} f) ∗ (hbM.view.loc (c : Thread nD τ) ↦{Transfers.shareTokN fullShare 77} f) ∗ (hbM.view.loc (c : Thread nD τ) ↦{Transfers.shareTokN fullShare 78} f) ∗ (hbM.view.loc (c : Thread nD τ) ↦{Transfers.shareTokN fullShare 79} f) ∗ (hbM.view.loc (c : Thread nD τ) ↦{Transfers.shareTokN fullShare 80} f) ∗ (hbM.view.loc (c : Thread nD τ) ↦{Transfers.shareTokN fullShare 81} f) ∗ (hbM.view.loc (c : Thread nD τ) ↦{Transfers.shareTokN fullShare 82} f) ∗ (hbM.view.loc (c : Thread nD τ) ↦{Transfers.shareTokN fullShare 83} f) ∗ (hbM.view.loc (c : Thread nD τ) ↦{Transfers.shareTokN fullShare 84} f) ∗ (hbM.view.loc (c : Thread nD τ) ↦{Transfers.shareTokN fullShare 85} f) ∗ (hbM.view.loc (c : Thread nD τ) ↦{Transfers.shareTokN fullShare 86} f) ∗ (hbM.view.loc (c : Thread nD τ) ↦{Transfers.shareTokN fullShare 87} f) ∗ (hbM.view.loc (c : Thread nD τ) ↦{Transfers.shareTokN fullShare 88} f) ∗ (hbM.view.loc (c : Thread nD τ) ↦{Transfers.shareTokN fullShare 89} f) ∗ (hbM.view.loc (c : Thread nD τ) ↦{Transfers.shareTokN fullShare 90} f) ∗ (hbM.view.loc (c : Thread nD τ) ↦{Transfers.shareTokN fullShare 91} f) ∗ (hbM.view.loc (c : Thread nD τ) ↦{Transfers.shareTokN fullShare 92} f) ∗ (hbM.view.loc (c : Thread nD τ) ↦{Transfers.shareTokN fullShare 93} f) ∗ (hbM.view.loc (c : Thread nD τ) ↦{Transfers.shareTokN fullShare 94} f) ∗ (hbM.view.loc (c : Thread nD τ) ↦{Transfers.shareTokN fullShare 95} f) ∗ (hbM.view.loc (c : Thread nD τ) ↦{Transfers.shareTokN fullShare 96} f) ∗ (hbM.view.loc (c : Thread nD τ) ↦{Transfers.shareTokN fullShare 97} f) ∗ (hbM.view.loc (c : Thread nD τ) ↦{Transfers.shareTokN fullShare 98} f) ∗ (hbM.view.loc (c : Thread nD τ) ↦{Transfers.shareTokN fullShare 99} f) ∗ (hbM.view.loc (c : Thread nD τ) ↦{Transfers.shareTokN fullShare 100} f) ∗ (hbM.view.loc (c : Thread nD τ) ↦{Transfers.shareTokN fullShare 101} f) ∗ (hbM.view.loc (c : Thread nD τ) ↦{Transfers.shareTokN fullShare 102} f) ∗ (hbM.view.loc (c : Thread nD τ) ↦{Transfers.shareTokN fullShare 103} f) ∗ (hbM.view.loc (c : Thread nD τ) ↦{Transfers.shareTokN fullShare 104} f) ∗ (hbM.view.loc (c : Thread nD τ) ↦{Transfers.shareTokN fullShare 105} f) ∗ (hbM.view.loc (c : Thread nD τ) ↦{Transfers.shareTokN fullShare 106} f) ∗ (hbM.view.loc (c : Thread nD τ) ↦{Transfers.shareTokN fullShare 107} f) ∗ (hbM.view.loc (c : Thread nD τ) ↦{Transfers.shareTokN fullShare 108} f) ∗ (hbM.view.loc (c : Thread nD τ) ↦{Transfers.shareTokN fullShare 109} f) ∗ (hbM.view.loc (c : Thread nD τ) ↦{Transfers.shareTokN fullShare 110} f) ∗ (hbM.view.loc (c : Thread nD τ) ↦{Transfers.shareTokN fullShare 111} f) ∗ (hbM.view.loc (c : Thread nD τ) ↦{Transfers.shareTokN fullShare 112} f) ∗ (hbM.view.loc (c : Thread nD τ) ↦{Transfers.shareTokN fullShare 113} f) ∗ (hbM.view.loc (c : Thread nD τ) ↦{Transfers.shareTokN fullShare 114} f) ∗ (hbM.view.loc (c : Thread nD τ) ↦{Transfers.shareTokN fullShare 115} f) ∗ (hbM.view.loc (c : Thread nD τ) ↦{Transfers.shareTokN fullShare 116} f) ∗ (hbM.view.loc (c : Thread nD τ) ↦{Transfers.shareTokN fullShare 117} f) ∗ (hbM.view.loc (c : Thread nD τ) ↦{Transfers.shareTokN fullShare 118} f) ∗ (hbM.view.loc (c : Thread nD τ) ↦{Transfers.shareTokN fullShare 119} f) ∗ (hbM.view.loc (c : Thread nD τ) ↦{Transfers.shareTokN fullShare 120} f) ∗ (hbM.view.loc (c : Thread nD τ) ↦{Transfers.shareTokN fullShare 121} f) ∗ (hbM.view.loc (c : Thread nD τ) ↦{Transfers.shareTokN fullShare 122} f) ∗ (hbM.view.loc (c : Thread nD τ) ↦{Transfers.shareTokN fullShare 123} f) ∗ (hbM.view.loc (c : Thread nD τ) ↦{Transfers.shareTokN fullShare 124} f) ∗ (hbM.view.loc (c : Thread nD τ) ↦{Transfers.shareTokN fullShare 125} f) ∗ (hbM.view.loc (c : Thread nD τ) ↦{Transfers.shareTokN fullShare 126} f) ∗ (hbM.view.loc (c : Thread nD τ) ↦{Transfers.shareTokN fullShare 127} f) ∗ (hbM.view.loc (c : Thread nD τ) ↦{Transfers.shareTokN fullShare 128} f) ∗ (hbM.view.loc (c : Thread nD τ) ↦{Transfers.shareTokN fullShare 129} f) ∗ (hbM.view.loc (c : Thread nD τ) ↦{Transfers.shareTokN fullShare 130} f) ∗ (hbM.view.loc (c : Thread nD τ) ↦{Transfers.shareTokN fullShare 131} f) ∗ (hbM.view.loc (c : Thread nD τ) ↦{Transfers.shareTokN fullShare 132} f) ∗ (hbM.view.loc (c : Thread nD τ) ↦{Transfers.shareTokN fullShare 133} f) ∗ (hbM.view.loc (c : Thread nD τ) ↦{Transfers.shareTokN fullShare 134} f) ∗ (hbM.view.loc (c : Thread nD τ) ↦{Transfers.shareTokN fullShare 135} f) ∗ (hbM.view.loc (c : Thread nD τ) ↦{Transfers.shareTokN fullShare 136} f) ∗ (hbM.view.loc (c : Thread nD τ) ↦{Transfers.shareTokN fullShare 137} f)) ⊢ (hbM.view.loc (c : Thread nD τ) ↦{fullShare} f : sProp 𝕄) :=
  (Entails.of_eq (by rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137] (by decide) (by decide)]; rfl)).trans
    (Transfers.pointsTo_toks_range (Ix := Unit) (Name := ℕ) (U := Pipeline.UD sig nD τ) (Lvl := ℕ) fullShare 138).2

set_option hygiene false in
/-- Name the bank's remainder `Hbr` and read shares `Hb0 … Hb137` out of `HB`. -/
macro "bank_cases" : tactic => `(tactic| icases HB with ⟨Hbr, Hb0, Hb1, Hb2, Hb3, Hb4, Hb5, Hb6, Hb7, Hb8, Hb9, Hb10, Hb11, Hb12, Hb13, Hb14, Hb15, Hb16, Hb17, Hb18, Hb19, Hb20, Hb21, Hb22, Hb23, Hb24, Hb25, Hb26, Hb27, Hb28, Hb29, Hb30, Hb31, Hb32, Hb33, Hb34, Hb35, Hb36, Hb37, Hb38, Hb39, Hb40, Hb41, Hb42, Hb43, Hb44, Hb45, Hb46, Hb47, Hb48, Hb49, Hb50, Hb51, Hb52, Hb53, Hb54, Hb55, Hb56, Hb57, Hb58, Hb59, Hb60, Hb61, Hb62, Hb63, Hb64, Hb65, Hb66, Hb67, Hb68, Hb69, Hb70, Hb71, Hb72, Hb73, Hb74, Hb75, Hb76, Hb77, Hb78, Hb79, Hb80, Hb81, Hb82, Hb83, Hb84, Hb85, Hb86, Hb87, Hb88, Hb89, Hb90, Hb91, Hb92, Hb93, Hb94, Hb95, Hb96, Hb97, Hb98, Hb99, Hb100, Hb101, Hb102, Hb103, Hb104, Hb105, Hb106, Hb107, Hb108, Hb109, Hb110, Hb111, Hb112, Hb113, Hb114, Hb115, Hb116, Hb117, Hb118, Hb119, Hb120, Hb121, Hb122, Hb123, Hb124, Hb125, Hb126, Hb127, Hb128, Hb129, Hb130, Hb131, Hb132, Hb133, Hb134, Hb135, Hb136, Hb137⟩)

set_option hygiene false in
/-- Give the bank's shares to the goal on the left. -/
macro "bank_take" : tactic => `(tactic| isplitl [Hbr Hb0 Hb1 Hb2 Hb3 Hb4 Hb5 Hb6 Hb7 Hb8 Hb9 Hb10 Hb11 Hb12 Hb13 Hb14 Hb15 Hb16 Hb17 Hb18 Hb19 Hb20 Hb21 Hb22 Hb23 Hb24 Hb25 Hb26 Hb27 Hb28 Hb29 Hb30 Hb31 Hb32 Hb33 Hb34 Hb35 Hb36 Hb37 Hb38 Hb39 Hb40 Hb41 Hb42 Hb43 Hb44 Hb45 Hb46 Hb47 Hb48 Hb49 Hb50 Hb51 Hb52 Hb53 Hb54 Hb55 Hb56 Hb57 Hb58 Hb59 Hb60 Hb61 Hb62 Hb63 Hb64 Hb65 Hb66 Hb67 Hb68 Hb69 Hb70 Hb71 Hb72 Hb73 Hb74 Hb75 Hb76 Hb77 Hb78 Hb79 Hb80 Hb81 Hb82 Hb83 Hb84 Hb85 Hb86 Hb87 Hb88 Hb89 Hb90 Hb91 Hb92 Hb93 Hb94 Hb95 Hb96 Hb97 Hb98 Hb99 Hb100 Hb101 Hb102 Hb103 Hb104 Hb105 Hb106 Hb107 Hb108 Hb109 Hb110 Hb111 Hb112 Hb113 Hb114 Hb115 Hb116 Hb117 Hb118 Hb119 Hb120 Hb121 Hb122 Hb123 Hb124 Hb125 Hb126 Hb127 Hb128 Hb129 Hb130 Hb131 Hb132 Hb133 Hb134 Hb135 Hb136 Hb137])

set_option hygiene false in
/-- Hand the bank's shares back, in order. -/
macro "bank_back" : tactic => `(tactic| (
  isplitl [Hbr]
  · iexact Hbr
  isplitl [Hb0]
  · iexact Hb0
  isplitl [Hb1]
  · iexact Hb1
  isplitl [Hb2]
  · iexact Hb2
  isplitl [Hb3]
  · iexact Hb3
  isplitl [Hb4]
  · iexact Hb4
  isplitl [Hb5]
  · iexact Hb5
  isplitl [Hb6]
  · iexact Hb6
  isplitl [Hb7]
  · iexact Hb7
  isplitl [Hb8]
  · iexact Hb8
  isplitl [Hb9]
  · iexact Hb9
  isplitl [Hb10]
  · iexact Hb10
  isplitl [Hb11]
  · iexact Hb11
  isplitl [Hb12]
  · iexact Hb12
  isplitl [Hb13]
  · iexact Hb13
  isplitl [Hb14]
  · iexact Hb14
  isplitl [Hb15]
  · iexact Hb15
  isplitl [Hb16]
  · iexact Hb16
  isplitl [Hb17]
  · iexact Hb17
  isplitl [Hb18]
  · iexact Hb18
  isplitl [Hb19]
  · iexact Hb19
  isplitl [Hb20]
  · iexact Hb20
  isplitl [Hb21]
  · iexact Hb21
  isplitl [Hb22]
  · iexact Hb22
  isplitl [Hb23]
  · iexact Hb23
  isplitl [Hb24]
  · iexact Hb24
  isplitl [Hb25]
  · iexact Hb25
  isplitl [Hb26]
  · iexact Hb26
  isplitl [Hb27]
  · iexact Hb27
  isplitl [Hb28]
  · iexact Hb28
  isplitl [Hb29]
  · iexact Hb29
  isplitl [Hb30]
  · iexact Hb30
  isplitl [Hb31]
  · iexact Hb31
  isplitl [Hb32]
  · iexact Hb32
  isplitl [Hb33]
  · iexact Hb33
  isplitl [Hb34]
  · iexact Hb34
  isplitl [Hb35]
  · iexact Hb35
  isplitl [Hb36]
  · iexact Hb36
  isplitl [Hb37]
  · iexact Hb37
  isplitl [Hb38]
  · iexact Hb38
  isplitl [Hb39]
  · iexact Hb39
  isplitl [Hb40]
  · iexact Hb40
  isplitl [Hb41]
  · iexact Hb41
  isplitl [Hb42]
  · iexact Hb42
  isplitl [Hb43]
  · iexact Hb43
  isplitl [Hb44]
  · iexact Hb44
  isplitl [Hb45]
  · iexact Hb45
  isplitl [Hb46]
  · iexact Hb46
  isplitl [Hb47]
  · iexact Hb47
  isplitl [Hb48]
  · iexact Hb48
  isplitl [Hb49]
  · iexact Hb49
  isplitl [Hb50]
  · iexact Hb50
  isplitl [Hb51]
  · iexact Hb51
  isplitl [Hb52]
  · iexact Hb52
  isplitl [Hb53]
  · iexact Hb53
  isplitl [Hb54]
  · iexact Hb54
  isplitl [Hb55]
  · iexact Hb55
  isplitl [Hb56]
  · iexact Hb56
  isplitl [Hb57]
  · iexact Hb57
  isplitl [Hb58]
  · iexact Hb58
  isplitl [Hb59]
  · iexact Hb59
  isplitl [Hb60]
  · iexact Hb60
  isplitl [Hb61]
  · iexact Hb61
  isplitl [Hb62]
  · iexact Hb62
  isplitl [Hb63]
  · iexact Hb63
  isplitl [Hb64]
  · iexact Hb64
  isplitl [Hb65]
  · iexact Hb65
  isplitl [Hb66]
  · iexact Hb66
  isplitl [Hb67]
  · iexact Hb67
  isplitl [Hb68]
  · iexact Hb68
  isplitl [Hb69]
  · iexact Hb69
  isplitl [Hb70]
  · iexact Hb70
  isplitl [Hb71]
  · iexact Hb71
  isplitl [Hb72]
  · iexact Hb72
  isplitl [Hb73]
  · iexact Hb73
  isplitl [Hb74]
  · iexact Hb74
  isplitl [Hb75]
  · iexact Hb75
  isplitl [Hb76]
  · iexact Hb76
  isplitl [Hb77]
  · iexact Hb77
  isplitl [Hb78]
  · iexact Hb78
  isplitl [Hb79]
  · iexact Hb79
  isplitl [Hb80]
  · iexact Hb80
  isplitl [Hb81]
  · iexact Hb81
  isplitl [Hb82]
  · iexact Hb82
  isplitl [Hb83]
  · iexact Hb83
  isplitl [Hb84]
  · iexact Hb84
  isplitl [Hb85]
  · iexact Hb85
  isplitl [Hb86]
  · iexact Hb86
  isplitl [Hb87]
  · iexact Hb87
  isplitl [Hb88]
  · iexact Hb88
  isplitl [Hb89]
  · iexact Hb89
  isplitl [Hb90]
  · iexact Hb90
  isplitl [Hb91]
  · iexact Hb91
  isplitl [Hb92]
  · iexact Hb92
  isplitl [Hb93]
  · iexact Hb93
  isplitl [Hb94]
  · iexact Hb94
  isplitl [Hb95]
  · iexact Hb95
  isplitl [Hb96]
  · iexact Hb96
  isplitl [Hb97]
  · iexact Hb97
  isplitl [Hb98]
  · iexact Hb98
  isplitl [Hb99]
  · iexact Hb99
  isplitl [Hb100]
  · iexact Hb100
  isplitl [Hb101]
  · iexact Hb101
  isplitl [Hb102]
  · iexact Hb102
  isplitl [Hb103]
  · iexact Hb103
  isplitl [Hb104]
  · iexact Hb104
  isplitl [Hb105]
  · iexact Hb105
  isplitl [Hb106]
  · iexact Hb106
  isplitl [Hb107]
  · iexact Hb107
  isplitl [Hb108]
  · iexact Hb108
  isplitl [Hb109]
  · iexact Hb109
  isplitl [Hb110]
  · iexact Hb110
  isplitl [Hb111]
  · iexact Hb111
  isplitl [Hb112]
  · iexact Hb112
  isplitl [Hb113]
  · iexact Hb113
  isplitl [Hb114]
  · iexact Hb114
  isplitl [Hb115]
  · iexact Hb115
  isplitl [Hb116]
  · iexact Hb116
  isplitl [Hb117]
  · iexact Hb117
  isplitl [Hb118]
  · iexact Hb118
  isplitl [Hb119]
  · iexact Hb119
  isplitl [Hb120]
  · iexact Hb120
  isplitl [Hb121]
  · iexact Hb121
  isplitl [Hb122]
  · iexact Hb122
  isplitl [Hb123]
  · iexact Hb123
  isplitl [Hb124]
  · iexact Hb124
  isplitl [Hb125]
  · iexact Hb125
  isplitl [Hb126]
  · iexact Hb126
  isplitl [Hb127]
  · iexact Hb127
  isplitl [Hb128]
  · iexact Hb128
  isplitl [Hb129]
  · iexact Hb129
  isplitl [Hb130]
  · iexact Hb130
  isplitl [Hb131]
  · iexact Hb131
  isplitl [Hb132]
  · iexact Hb132
  isplitl [Hb133]
  · iexact Hb133
  isplitl [Hb134]
  · iexact Hb134
  isplitl [Hb135]
  · iexact Hb135
  isplitl [Hb136]
  · iexact Hb136
  iexact Hb137))

set_option hygiene false in
/-- Name the 128 cells' facts `Hq0 … Hq127` out of the hypothesis `Hq`. -/
macro "cells_cases" : tactic => `(tactic| icases Hq with ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72, Hq73, Hq74, Hq75, Hq76, Hq77, Hq78, Hq79, Hq80, Hq81, Hq82, Hq83, Hq84, Hq85, Hq86, Hq87, Hq88, Hq89, Hq90, Hq91, Hq92, Hq93, Hq94, Hq95, Hq96, Hq97, Hq98, Hq99, Hq100, Hq101, Hq102, Hq103, Hq104, Hq105, Hq106, Hq107, Hq108, Hq109, Hq110, Hq111, Hq112, Hq113, Hq114, Hq115, Hq116, Hq117, Hq118, Hq119, Hq120, Hq121, Hq122, Hq123, Hq124, Hq125, Hq126, Hq127⟩)

set_option hygiene false in
/-- Hand the 128 cells' facts back, in order. -/
macro "cells_back" : tactic => `(tactic| (
  isplitl [Hq0]
  · iexact Hq0
  isplitl [Hq1]
  · iexact Hq1
  isplitl [Hq2]
  · iexact Hq2
  isplitl [Hq3]
  · iexact Hq3
  isplitl [Hq4]
  · iexact Hq4
  isplitl [Hq5]
  · iexact Hq5
  isplitl [Hq6]
  · iexact Hq6
  isplitl [Hq7]
  · iexact Hq7
  isplitl [Hq8]
  · iexact Hq8
  isplitl [Hq9]
  · iexact Hq9
  isplitl [Hq10]
  · iexact Hq10
  isplitl [Hq11]
  · iexact Hq11
  isplitl [Hq12]
  · iexact Hq12
  isplitl [Hq13]
  · iexact Hq13
  isplitl [Hq14]
  · iexact Hq14
  isplitl [Hq15]
  · iexact Hq15
  isplitl [Hq16]
  · iexact Hq16
  isplitl [Hq17]
  · iexact Hq17
  isplitl [Hq18]
  · iexact Hq18
  isplitl [Hq19]
  · iexact Hq19
  isplitl [Hq20]
  · iexact Hq20
  isplitl [Hq21]
  · iexact Hq21
  isplitl [Hq22]
  · iexact Hq22
  isplitl [Hq23]
  · iexact Hq23
  isplitl [Hq24]
  · iexact Hq24
  isplitl [Hq25]
  · iexact Hq25
  isplitl [Hq26]
  · iexact Hq26
  isplitl [Hq27]
  · iexact Hq27
  isplitl [Hq28]
  · iexact Hq28
  isplitl [Hq29]
  · iexact Hq29
  isplitl [Hq30]
  · iexact Hq30
  isplitl [Hq31]
  · iexact Hq31
  isplitl [Hq32]
  · iexact Hq32
  isplitl [Hq33]
  · iexact Hq33
  isplitl [Hq34]
  · iexact Hq34
  isplitl [Hq35]
  · iexact Hq35
  isplitl [Hq36]
  · iexact Hq36
  isplitl [Hq37]
  · iexact Hq37
  isplitl [Hq38]
  · iexact Hq38
  isplitl [Hq39]
  · iexact Hq39
  isplitl [Hq40]
  · iexact Hq40
  isplitl [Hq41]
  · iexact Hq41
  isplitl [Hq42]
  · iexact Hq42
  isplitl [Hq43]
  · iexact Hq43
  isplitl [Hq44]
  · iexact Hq44
  isplitl [Hq45]
  · iexact Hq45
  isplitl [Hq46]
  · iexact Hq46
  isplitl [Hq47]
  · iexact Hq47
  isplitl [Hq48]
  · iexact Hq48
  isplitl [Hq49]
  · iexact Hq49
  isplitl [Hq50]
  · iexact Hq50
  isplitl [Hq51]
  · iexact Hq51
  isplitl [Hq52]
  · iexact Hq52
  isplitl [Hq53]
  · iexact Hq53
  isplitl [Hq54]
  · iexact Hq54
  isplitl [Hq55]
  · iexact Hq55
  isplitl [Hq56]
  · iexact Hq56
  isplitl [Hq57]
  · iexact Hq57
  isplitl [Hq58]
  · iexact Hq58
  isplitl [Hq59]
  · iexact Hq59
  isplitl [Hq60]
  · iexact Hq60
  isplitl [Hq61]
  · iexact Hq61
  isplitl [Hq62]
  · iexact Hq62
  isplitl [Hq63]
  · iexact Hq63
  isplitl [Hq64]
  · iexact Hq64
  isplitl [Hq65]
  · iexact Hq65
  isplitl [Hq66]
  · iexact Hq66
  isplitl [Hq67]
  · iexact Hq67
  isplitl [Hq68]
  · iexact Hq68
  isplitl [Hq69]
  · iexact Hq69
  isplitl [Hq70]
  · iexact Hq70
  isplitl [Hq71]
  · iexact Hq71
  isplitl [Hq72]
  · iexact Hq72
  isplitl [Hq73]
  · iexact Hq73
  isplitl [Hq74]
  · iexact Hq74
  isplitl [Hq75]
  · iexact Hq75
  isplitl [Hq76]
  · iexact Hq76
  isplitl [Hq77]
  · iexact Hq77
  isplitl [Hq78]
  · iexact Hq78
  isplitl [Hq79]
  · iexact Hq79
  isplitl [Hq80]
  · iexact Hq80
  isplitl [Hq81]
  · iexact Hq81
  isplitl [Hq82]
  · iexact Hq82
  isplitl [Hq83]
  · iexact Hq83
  isplitl [Hq84]
  · iexact Hq84
  isplitl [Hq85]
  · iexact Hq85
  isplitl [Hq86]
  · iexact Hq86
  isplitl [Hq87]
  · iexact Hq87
  isplitl [Hq88]
  · iexact Hq88
  isplitl [Hq89]
  · iexact Hq89
  isplitl [Hq90]
  · iexact Hq90
  isplitl [Hq91]
  · iexact Hq91
  isplitl [Hq92]
  · iexact Hq92
  isplitl [Hq93]
  · iexact Hq93
  isplitl [Hq94]
  · iexact Hq94
  isplitl [Hq95]
  · iexact Hq95
  isplitl [Hq96]
  · iexact Hq96
  isplitl [Hq97]
  · iexact Hq97
  isplitl [Hq98]
  · iexact Hq98
  isplitl [Hq99]
  · iexact Hq99
  isplitl [Hq100]
  · iexact Hq100
  isplitl [Hq101]
  · iexact Hq101
  isplitl [Hq102]
  · iexact Hq102
  isplitl [Hq103]
  · iexact Hq103
  isplitl [Hq104]
  · iexact Hq104
  isplitl [Hq105]
  · iexact Hq105
  isplitl [Hq106]
  · iexact Hq106
  isplitl [Hq107]
  · iexact Hq107
  isplitl [Hq108]
  · iexact Hq108
  isplitl [Hq109]
  · iexact Hq109
  isplitl [Hq110]
  · iexact Hq110
  isplitl [Hq111]
  · iexact Hq111
  isplitl [Hq112]
  · iexact Hq112
  isplitl [Hq113]
  · iexact Hq113
  isplitl [Hq114]
  · iexact Hq114
  isplitl [Hq115]
  · iexact Hq115
  isplitl [Hq116]
  · iexact Hq116
  isplitl [Hq117]
  · iexact Hq117
  isplitl [Hq118]
  · iexact Hq118
  isplitl [Hq119]
  · iexact Hq119
  isplitl [Hq120]
  · iexact Hq120
  isplitl [Hq121]
  · iexact Hq121
  isplitl [Hq122]
  · iexact Hq122
  isplitl [Hq123]
  · iexact Hq123
  isplitl [Hq124]
  · iexact Hq124
  isplitl [Hq125]
  · iexact Hq125
  isplitl [Hq126]
  · iexact Hq126
  iexact Hq127))

set_option hygiene false in
/-- Name the 128 side conditions `k0_hw1 … k0_hw128` out of `hw`. -/
macro "words_cases" : tactic => `(tactic| obtain ⟨k0_hw1, k0_hw2, k0_hw3, k0_hw4, k0_hw5, k0_hw6, k0_hw7, k0_hw8, k0_hw9, k0_hw10, k0_hw11, k0_hw12, k0_hw13, k0_hw14, k0_hw15, k0_hw16, k0_hw17, k0_hw18, k0_hw19, k0_hw20, k0_hw21, k0_hw22, k0_hw23, k0_hw24, k0_hw25, k0_hw26, k0_hw27, k0_hw28, k0_hw29, k0_hw30, k0_hw31, k0_hw32, k0_hw33, k0_hw34, k0_hw35, k0_hw36, k0_hw37, k0_hw38, k0_hw39, k0_hw40, k0_hw41, k0_hw42, k0_hw43, k0_hw44, k0_hw45, k0_hw46, k0_hw47, k0_hw48, k0_hw49, k0_hw50, k0_hw51, k0_hw52, k0_hw53, k0_hw54, k0_hw55, k0_hw56, k0_hw57, k0_hw58, k0_hw59, k0_hw60, k0_hw61, k0_hw62, k0_hw63, k0_hw64, k0_hw65, k0_hw66, k0_hw67, k0_hw68, k0_hw69, k0_hw70, k0_hw71, k0_hw72, k0_hw73, k0_hw74, k0_hw75, k0_hw76, k0_hw77, k0_hw78, k0_hw79, k0_hw80, k0_hw81, k0_hw82, k0_hw83, k0_hw84, k0_hw85, k0_hw86, k0_hw87, k0_hw88, k0_hw89, k0_hw90, k0_hw91, k0_hw92, k0_hw93, k0_hw94, k0_hw95, k0_hw96, k0_hw97, k0_hw98, k0_hw99, k0_hw100, k0_hw101, k0_hw102, k0_hw103, k0_hw104, k0_hw105, k0_hw106, k0_hw107, k0_hw108, k0_hw109, k0_hw110, k0_hw111, k0_hw112, k0_hw113, k0_hw114, k0_hw115, k0_hw116, k0_hw117, k0_hw118, k0_hw119, k0_hw120, k0_hw121, k0_hw122, k0_hw123, k0_hw124, k0_hw125, k0_hw126, k0_hw127, k0_hw128⟩ := hw)

set_option hygiene false in
/-- Close an assumed side condition by the one of the 128 that states it. -/
macro "words_disch" : tactic => `(tactic| first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32 | sl_exact k0_hw33 | sl_exact k0_hw34 | sl_exact k0_hw35 | sl_exact k0_hw36 | sl_exact k0_hw37 | sl_exact k0_hw38 | sl_exact k0_hw39 | sl_exact k0_hw40 | sl_exact k0_hw41 | sl_exact k0_hw42 | sl_exact k0_hw43 | sl_exact k0_hw44 | sl_exact k0_hw45 | sl_exact k0_hw46 | sl_exact k0_hw47 | sl_exact k0_hw48 | sl_exact k0_hw49 | sl_exact k0_hw50 | sl_exact k0_hw51 | sl_exact k0_hw52 | sl_exact k0_hw53 | sl_exact k0_hw54 | sl_exact k0_hw55 | sl_exact k0_hw56 | sl_exact k0_hw57 | sl_exact k0_hw58 | sl_exact k0_hw59 | sl_exact k0_hw60 | sl_exact k0_hw61 | sl_exact k0_hw62 | sl_exact k0_hw63 | sl_exact k0_hw64 | sl_exact k0_hw65 | sl_exact k0_hw66 | sl_exact k0_hw67 | sl_exact k0_hw68 | sl_exact k0_hw69 | sl_exact k0_hw70 | sl_exact k0_hw71 | sl_exact k0_hw72 | sl_exact k0_hw73 | sl_exact k0_hw74 | sl_exact k0_hw75 | sl_exact k0_hw76 | sl_exact k0_hw77 | sl_exact k0_hw78 | sl_exact k0_hw79 | sl_exact k0_hw80 | sl_exact k0_hw81 | sl_exact k0_hw82 | sl_exact k0_hw83 | sl_exact k0_hw84 | sl_exact k0_hw85 | sl_exact k0_hw86 | sl_exact k0_hw87 | sl_exact k0_hw88 | sl_exact k0_hw89 | sl_exact k0_hw90 | sl_exact k0_hw91 | sl_exact k0_hw92 | sl_exact k0_hw93 | sl_exact k0_hw94 | sl_exact k0_hw95 | sl_exact k0_hw96 | sl_exact k0_hw97 | sl_exact k0_hw98 | sl_exact k0_hw99 | sl_exact k0_hw100 | sl_exact k0_hw101 | sl_exact k0_hw102 | sl_exact k0_hw103 | sl_exact k0_hw104 | sl_exact k0_hw105 | sl_exact k0_hw106 | sl_exact k0_hw107 | sl_exact k0_hw108 | sl_exact k0_hw109 | sl_exact k0_hw110 | sl_exact k0_hw111 | sl_exact k0_hw112 | sl_exact k0_hw113 | sl_exact k0_hw114 | sl_exact k0_hw115 | sl_exact k0_hw116 | sl_exact k0_hw117 | sl_exact k0_hw118 | sl_exact k0_hw119 | sl_exact k0_hw120 | sl_exact k0_hw121 | sl_exact k0_hw122 | sl_exact k0_hw123 | sl_exact k0_hw124 | sl_exact k0_hw125 | sl_exact k0_hw126 | sl_exact k0_hw127 | sl_exact k0_hw128)

/-- The body's 74 printed parts are their skeletons. -/
macro "open_parts" : tactic => `(tactic| simp only [k0_part74_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton])

end Cert.Kernel.Hand

end
-- ==== Proof.KBits.Rows.lean ====
/-
  The scratch that receives the 128 gathered rows of the weight bank, held ROW BY ROW.

  The scratch is a [128, 8, 1024] buffer. Row t of it — the unit slab at offset (t, 0, 0), with its leading axis dropped —
  is where the t-th copy lands. The 128 slabs are pairwise disjoint and cover the buffer, so holding the buffer whole
  is holding each row's elements, at the same contents; and when every row has been written whole, row t with the
  [8, 1024] payload P t, the buffer holds the closed form (t, o, h) ↦ P t (o, h), whatever it held before.
-/
import proofs.«427848_j22419729285374_3_alg».proof.Proof.KBits.Tables
import Idealize.ShloMosaic.Lib.Ring
import Idealize.ShloMosaic.Lib.ValueLayout

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.Kernel Cert.Kernel.Gen

variable {F : FTy → Type} [FloatOps F]

local notation "𝕄" => MT nD τ sig Unit (Elt F) ℕ (Pipeline.UD sig nD τ) ℕ

/-! ## The scratch and its rows -/

/-- The scratch that receives the 128 gathered rows, as a whole memref. -/
abbrev scM : Memref sig .tc .vmem S128x8x1024 .f32 := Memref.whole cc0_scratch0

/-- The offsets of row `t`'s slab: `t` on the leading axis, 0 on the others. -/
abbrev rowOff (t : Fin 128) : Fin S128x8x1024.rank → ℕ := ![t.val, 0, 0]

/-- Row `t`'s slab lies inside the scratch. -/
theorem rowInb (t : Fin 128) : ∀ a, rowOff t a + S1x8x1024.size a ≤ S128x8x1024.size a := by
  intro a
  have ht := t.isLt
  match a with
  | ⟨0, _⟩ => show t.val + 1 ≤ 128; omega
  | ⟨1, _⟩ => show 0 + 8 ≤ 8; omega
  | ⟨2, _⟩ => show 0 + 1024 ≤ 1024; omega

/-- Row `t` of the scratch: the unit slab at `(t, 0, 0)` with its leading axis dropped, an [8, 1024] memref. -/
def rowG (t : Fin 128) : Memref sig .tc .vmem S8x1024 .f32 :=
  (scM.slice (Rect.unit (s := S128x8x1024) (rowOff t) S1x8x1024.size (rowInb t)) (fun _ => rfl)).squeeze S8x1024
    squeezes_S1x8x1024_S8x1024

/-- Row `t`'s slab, as a set of elements of the scratch. -/
def rowSet (t : Fin 128) : Finset S128x8x1024.Idx :=
  (Rect.unit (s := S128x8x1024) (rowOff t) S1x8x1024.size (rowInb t)).set

/-- Row `t`'s elements are its slab's. -/
theorem rowG_set (t : Fin 128) : (rowG t).view.set = rowSet t :=
  (View.set_reshape (v := (scM.slice (Rect.unit (s := S128x8x1024) (rowOff t) S1x8x1024.size (rowInb t)) (fun _ => rfl)).view)
      squeezes_S1x8x1024_S8x1024.numel_eq).trans
    (View.set_slice_whole cc0_scratch0 (Rect.unit (s := S128x8x1024) (rowOff t) S1x8x1024.size (rowInb t)))

/-- The slabs of two different rows share no element. -/
theorem rowSet_disjoint (t t' : Fin 128) (h : t ≠ t') : Disjoint (rowSet t) (rowSet t') :=
  Ring.lead_disjoint (s := S128x8x1024) (NB := 128) (0 : Fin 3) 1 rowOff S1x8x1024.size rowInb
    (fun b => (Nat.one_mul _).symm) rfl t t' h

/-- The 128 slabs cover the scratch. -/
theorem rowSet_cover : Finset.univ.biUnion rowSet = Finset.univ :=
  Ring.lead_cover (s := S128x8x1024) (NB := 128) (0 : Fin 3) 1 rowOff S1x8x1024.size rowInb
    (fun b => (Nat.one_mul _).symm)
    (fun b a ha => by match a with | ⟨0, _⟩ => exact absurd rfl ha | ⟨1, _⟩ => rfl | ⟨2, _⟩ => rfl)
    rfl
    (fun a ha => by match a with | ⟨0, _⟩ => exact absurd rfl ha | ⟨1, _⟩ => rfl | ⟨2, _⟩ => rfl)
    rfl

/-! ## The scratch held whole is held row by row -/

/-- Row `t`'s elements held at `f`, named through the row's memref, are its slab held at `f`. -/
theorem row_pointsTo (c : Dev nD) (t : Fin 128) (f : Buf (Elt F) (scM.view.loc (c : Thread nD τ))) :
    ((rowG t).view.loc (c : Thread nD τ) ↦[(rowG t).view.set]{fullShare} f : sProp 𝕄)
      = (scM.view.loc (c : Thread nD τ) ↦[rowSet t]{fullShare} f) :=
  congrArg (fun S : Finset S128x8x1024.Idx => (scM.view.loc (c : Thread nD τ) ↦[S]{fullShare} f : sProp 𝕄)) (rowG_set t)

/-- The scratch held whole at contents `f` is each row's elements held at `f`. -/
theorem rows_split (c : Dev nD) (f : Buf (Elt F) (scM.view.loc (c : Thread nD τ))) :
    (scM.view.loc (c : Thread nD τ) ↦[scM.view.set]{fullShare} f : sProp 𝕄)
      = bigSep Finset.univ fun t : Fin 128 => ((rowG t).view.loc (c : Thread nD τ) ↦[(rowG t).view.set]{fullShare} f) := by
  rw [show scM.view.set = Finset.univ from View.set_whole cc0_scratch0]
  refine (Ring.pointsTo_blocks (ℓ := scM.view.loc (c : Thread nD τ)) (fun t : Fin 128 => rowSet t) rowSet_disjoint rowSet_cover f).trans ?_
  exact congrArg (bigSep Finset.univ) (funext fun t => (row_pointsTo c t f).symm)

/-! ## The closed form the filled scratch holds -/

/-- The scratch whose row `t` holds the [8, 1024] array `P t`: element `(t, o, h)` is `P t (o, h)`. -/
def filled (c : Dev nD) (P : Fin 128 → S8x1024.Idx → Elt F .f32) : Buf (Elt F) (scM.view.loc (c : Thread nD τ)) :=
  fun (i : S128x8x1024.Idx) => P (i 0) (ix2 (i 1) (i 2))

/-- The filled scratch read at `(t, o, h)`. -/
theorem filled_apply (c : Dev nD) (P : Fin 128 → S8x1024.Idx → Elt F .f32) (t : Fin 128) (o : Fin 8) (h : Fin 1024) :
    filled c P (ix3 t o h) = P t (ix2 o h) := rfl

/-- Where row `t`'s element `(o, h)` sits in the scratch: at `(t, o, h)`. -/
theorem rowG_emb (t : Fin 128) (o : Fin 8) (h : Fin 1024) :
    (rowG t).view.emb (ix2 o h) = (ix3 t o h : S128x8x1024.Idx) := by
  show (Rect.unit (s := S128x8x1024) (rowOff t) S1x8x1024.size (rowInb t)).emb
      (Shape.reshapeEquiv (s := S1x8x1024) (s' := S8x1024) squeezes_S1x8x1024_S8x1024.numel_eq (ix2 o h)) = _
  rw [reshapeEquiv_ix2_1ab]
  funext a; refine Fin.ext ?_
  match a with
  | ⟨0, _⟩ => show t.val + 1 * 0 = t.val; omega
  | ⟨1, _⟩ => show 0 + 1 * o.val = o.val; omega
  | ⟨2, _⟩ => show 0 + 1 * h.val = h.val; omega

/-- Row `t` written whole with `P t`, over any contents, holds on its own elements what the filled scratch holds there. -/
theorem row_written (c : Dev nD) (t : Fin 128) (f : Buf (Elt F) (scM.view.loc (c : Thread nD τ)))
    (P : Fin 128 → S8x1024.Idx → Elt F .f32) :
    ((rowG t).view.loc (c : Thread nD τ) ↦[(rowG t).view.set]{fullShare} (rowG t).view.write (Elt F) f (P t) Finset.univ : sProp 𝕄)
      = ((rowG t).view.loc (c : Thread nD τ) ↦[(rowG t).view.set]{fullShare} filled c P) := by
  refine pointsTo_congr fun i hi => ?_
  obtain ⟨z, -, rfl⟩ := Finset.mem_map.mp hi
  obtain ⟨o, h, rfl⟩ : ∃ o h, z = ix2 o h := ⟨z 0, z 1, eq_ix2 z⟩
  have e : filled c P ((rowG t).view.emb (ix2 o h)) = P t (ix2 o h) :=
    (congrArg (filled c P) (rowG_emb t o h)).trans (filled_apply c P t o h)
  exact (View.write_emb_of_mem (v := (rowG t).view) f (P t) (Finset.mem_univ (ix2 o h))).trans e.symm

/-! ## The rows, each written whole, join to the filled scratch -/

/-- THE JOIN, each row over a base of its own: the 128 rows, row `t` written whole with `P t` over contents `fs t`, are
    the scratch held whole at the closed form. -/
theorem rows_join_filled_of (c : Dev nD) (fs : Fin 128 → Buf (Elt F) (scM.view.loc (c : Thread nD τ)))
    (P : Fin 128 → S8x1024.Idx → Elt F .f32) :
    bigSep Finset.univ (fun t : Fin 128 =>
        ((rowG t).view.loc (c : Thread nD τ) ↦[(rowG t).view.set]{fullShare} (rowG t).view.write (Elt F) (fs t) (P t) Finset.univ))
      = (scM.view.loc (c : Thread nD τ) ↦[scM.view.set]{fullShare} filled c P : sProp 𝕄) := by
  rw [rows_split c (filled c P)]
  exact congrArg (bigSep Finset.univ) (funext fun t => row_written c t (fs t) P)

/-- The join over one base `f` for every row (what splitting the scratch at `f` and filling each row leaves). -/
theorem rows_join_filled (c : Dev nD) (f : Buf (Elt F) (scM.view.loc (c : Thread nD τ)))
    (P : Fin 128 → S8x1024.Idx → Elt F .f32) :
    bigSep Finset.univ (fun t : Fin 128 =>
        ((rowG t).view.loc (c : Thread nD τ) ↦[(rowG t).view.set]{fullShare} (rowG t).view.write (Elt F) f (P t) Finset.univ))
      = (scM.view.loc (c : Thread nD τ) ↦[scM.view.set]{fullShare} filled c P : sProp 𝕄) :=
  rows_join_filled_of c (fun _ => f) P

/-- A row written whole, spelt as a one-piece list of writes, is the same contents. -/
theorem row_writes_whole (c : Dev nD) (t : Fin 128) (f : Buf (Elt F) (scM.view.loc (c : Thread nD τ))) (p : S8x1024.Idx → Elt F .f32) :
    (rowG t).view.writes (Elt F) f [⟨Rect.whole S8x1024, p⟩] = (rowG t).view.write (Elt F) f p Finset.univ :=
  (View.write_univ_eq_writes_whole (rowG t).view f [] p).symm

/-- THE JOIN with each row's contents spelt as a listed write, each row over a base of its own. -/
theorem rows_join_filled_writes_of (c : Dev nD) (fs : Fin 128 → Buf (Elt F) (scM.view.loc (c : Thread nD τ)))
    (P : Fin 128 → S8x1024.Idx → Elt F .f32) :
    bigSep Finset.univ (fun t : Fin 128 =>
        ((rowG t).view.loc (c : Thread nD τ) ↦[(rowG t).view.set]{fullShare}
          (rowG t).view.writes (Elt F) (fs t) [⟨Rect.whole S8x1024, P t⟩]))
      = (scM.view.loc (c : Thread nD τ) ↦[scM.view.set]{fullShare} filled c P : sProp 𝕄) := by
  rw [← rows_join_filled_of c fs P]
  exact congrArg (bigSep Finset.univ) (funext fun t => by rw [row_writes_whole c t (fs t) (P t)])

/-- The same over one base `f` for every row. -/
theorem rows_join_filled_writes (c : Dev nD) (f : Buf (Elt F) (scM.view.loc (c : Thread nD τ)))
    (P : Fin 128 → S8x1024.Idx → Elt F .f32) :
    bigSep Finset.univ (fun t : Fin 128 =>
        ((rowG t).view.loc (c : Thread nD τ) ↦[(rowG t).view.set]{fullShare}
          (rowG t).view.writes (Elt F) f [⟨Rect.whole S8x1024, P t⟩]))
      = (scM.view.loc (c : Thread nD τ) ↦[scM.view.set]{fullShare} filled c P : sProp 𝕄) :=
  rows_join_filled_writes_of c (fun _ => f) P

end Cert.Kernel.Hand

end
-- ==== Proof.KBits.Kit.lean ====
/-
  The frame of the kernel program, first part: everything the launch needs besides the body's own run.

  @main is five stretches of host lines (the ids clipped into the bank, the embedding narrowed, the three small tables
  gathered and flattened task-major, the 0/1 grouping matrix), ONE pallas_call over 32 groups of 128 tasks, and one host
  line after it (the flat reshape of the result). The call reads one prefetched table (the clipped ids, in SMEM), stages
  five input windows and one output window, and — by copies of its own, on 128 DMA cells of its own, each started and
  waited for within the grid point — brings 128 rows of the weight bank W1, left in HBM, into a scratch buffer.
  So the region's invariant, the same at every point, is: the scratch at some contents, the generator register at some
  state, the 128 cells at zero, W1 whole at its launch contents; and the table's half the pipeline lends the body.
  The one later line touches neither W1 nor the table, allocates nothing and writes no staged array.
-/
import proofs.«427848_j22419729285374_3_alg».proof.Proof.KBits.Rows

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- The core's buffers when the region is entered, as a valuation: the launch memory after the five stretches of host
    lines that precede the call. -/
abbrev V0 (c : Dev nD) : Valuation τ sig (Elt F) :=
  StableHlo.after (List.flatten [hostOps0, hostOps0_1, hostOps0_2, hostOps0_3, hostOps0_4]) (fun b => m (c, b))
/-- The same, read at a TensorCore reference. -/
abbrev V (c : Dev nD) (b : Ref sig .tc) : Buf (Elt F) ((c : Thread nD τ).loc b) := V0 m c (Proc.devRef .tc b)

/-- No host line allocates. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- @main is the earlier lines, the region, the later line: it reduces to the region continued by the later line, at
    the contents the earlier lines leave. -/
theorem hmain (𝒱₀ : Variants) :
    Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨fresh0, fresh0_1, fresh0_2, fresh0_3, fresh0_4⟩) main_chain

/-! ## The weight bank the body moves itself, and the one later line -/

/-- The operand left in HBM that the body copies from: the weight bank W1. -/
def H0 : Finset (Ref sig .tc) := {main_arg1}
theorem H0_sub : H0 ⊆ Pipeline.restRefsP sig pre0 spec0 := by decide

/-- The later line reads the call's result and writes the flat result: within the staged arrays and the bypassing
    buffers, and it touches neither the table nor W1. -/
theorem tail_but : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  subst hops
  refine Pipeline.sub_tailRefsBut pre0 spec0 H0 op ((List.forall_iff_forall_mem.mp hostOps1_sub) op hop) ?_ ?_
  all_goals
    simp only [hostOps1, List.mem_cons, List.mem_nil_iff, or_false] at hop
    subst hop
  · intro j; fin_cases j
    simp only [StableHlo.reshape_bufs, Finset.mem_insert, Finset.mem_singleton, not_or]
    and_intros <;> exact StableHlo.devRef_ne_of_ne (by decide)
  · intro b hb
    simp only [H0, Finset.mem_singleton] at hb; subst hb
    simp only [StableHlo.reshape_bufs, Finset.mem_insert, Finset.mem_singleton, not_or]
    and_intros <;> exact StableHlo.devRef_ne_of_ne (by decide)

/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp fresh1) op hop

/-- And it writes no staged array (its one result buffer is none of them). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w <;> simp only [StableHlo.reshape_writes, Finset.mem_singleton] <;> exact StableHlo.devRef_ne_of_ne (by decide)

/-! ## The arguments as the region finds them -/

/-- No earlier line writes the reference at hand (each line writes only its own result buffer). -/
local macro "host_keeps" : tactic => `(tactic| (
  refine StableHlo.after_of_forall_not_mem _ _ (List.forall_iff_forall_mem.mp ?_)
  simp only [hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The region finds each argument of @main as launched. -/
theorem V_arg0 (c : Dev nD) : V m c main_arg0 = m ((c : Thread nD τ).loc main_arg0) := by host_keeps
theorem V_arg1 (c : Dev nD) : V m c main_arg1 = m ((c : Thread nD τ).loc main_arg1) := by host_keeps
theorem V_arg2 (c : Dev nD) : V m c main_arg2 = m ((c : Thread nD τ).loc main_arg2) := by host_keeps
theorem V_arg3 (c : Dev nD) : V m c main_arg3 = m ((c : Thread nD τ).loc main_arg3) := by host_keeps
theorem V_arg4 (c : Dev nD) : V m c main_arg4 = m ((c : Thread nD τ).loc main_arg4) := by host_keeps
theorem V_arg5 (c : Dev nD) : V m c main_arg5 = m ((c : Thread nD τ).loc main_arg5) := by host_keeps

/-! ## The prefetched table -/

/-- The table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The pipeline's side condition of the table's contents (no window's index map reads the table). -/
abbrev Ok : Prop := ok0 (F := F) (tbl m)
/-- The table's contents as admissible contents, and the pipeline at them. -/
abbrev adm (hO : Ok m) : (pcfg0 (F := F)).Adm := ⟨tbl m, hO⟩
abbrev cfgM (hO : Ok m) : Pipeline.Cfg sig Λ₀ := cfg0 (adm m hO)

/-- The table's half the pipeline lends the body, at contents `f`. -/
abbrev tbPt (c : Dev nD) (f : Buf (Elt F) (tbM.view.loc (c : Thread nD τ))) : sProp 𝕄 :=
  tbM.view.loc (c : Thread nD τ) ↦{fullShare.right} f

theorem PhiT_eq (c : Dev nD) : (Pipeline.ΦT pre0 (tbl m) c : sProp 𝕄) = iprop(tbPt c (tbl m 0)) := by
  unfold Pipeline.ΦT Pipeline.prefHeld
  rw [show (Finset.univ : Finset (Fin 1)) = {(0 : Fin 1)} from by decide, bigSep_singleton]
  rfl

/-! ## The invariant, conjunct by conjunct -/

/-- The weight bank held whole at contents `f`. -/
abbrev hbPt (c : Dev nD) (f : Buf (Elt F) (hbM.view.loc (c : Thread nD τ))) : sProp 𝕄 :=
  hbM.view.loc (c : Thread nD τ) ↦{fullShare} f

theorem hbmPts_eq (c : Dev nD) :
    (bigSep H0 (fun b => ((c : Thread nD τ).loc b) ↦{fullShare} V m c b) : sProp 𝕄) = iprop(hbPt c (V m c main_arg1)) := by
  unfold H0
  rw [BI.bigSep_eq_bigSepL_of_eq [main_arg1] (by decide) (by decide)]; rfl

/-- The region's invariant listed: the scratch at some contents, the generator register at some state, the 128 cells at
    zero, the weight bank at its launch contents. -/
theorem PhiD_eq (c : Dev nD) :
    (Pipeline.ΦD osem spec0 H0 (V m) c : sProp 𝕄)
      = iprop(iprop((∃ d, owns (c : Thread nD τ) scM fullShare d)) ∗ (∃ r, prngReg c r) ∗ cellsAtZero c ∗ iprop(hbPt c (V m c main_arg1))) := by
  rw [Pipeline.ΦD_eq, scopedRest0_eq, ownSems_eq, hbmPts_eq]; simp only [scM, owns_whole]; try rfl

/-! ## The windows' blocks -/

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not, for any proof data
    whose array is the region-entry contents and whose body leaves the block in place. -/
local macro "stays_fetched" w:term : tactic => `(tactic| (
  intro dat hA hafter t d
  exact (dat.before_in_eq_fetched $w rfl (fun _ => rfl) (fun _ _ _ => rfl)
      (fun t => by rw [hafter]; unfold Dat.blockOf iblk; rw [hA]; try rfl) t d).trans
    (by unfold Dat.fetched Dat.blockOf iblk; rw [hA]; try rfl)))

theorem before_of0 (hO : Ok m) {c : Dev nD} : ∀ (dat : Dat τ (Elt F) Unit ℕ (Pipeline.UD sig nD τ) ℕ (cfgM m hO) c),
    dat.A 0 = V m c (Pipeline.arrRef spec0 0) → (∀ t, dat.after 0 t = iblk m hO c 0 t) → ∀ (t : Fin (cfgM m hO).N) (d), dat.before 0 t d = iblk m hO c 0 t := by
  stays_fetched 0
theorem before_of1 (hO : Ok m) {c : Dev nD} : ∀ (dat : Dat τ (Elt F) Unit ℕ (Pipeline.UD sig nD τ) ℕ (cfgM m hO) c),
    dat.A 1 = V m c (Pipeline.arrRef spec0 1) → (∀ t, dat.after 1 t = iblk m hO c 1 t) → ∀ (t : Fin (cfgM m hO).N) (d), dat.before 1 t d = iblk m hO c 1 t := by
  stays_fetched 1
theorem before_of2 (hO : Ok m) {c : Dev nD} : ∀ (dat : Dat τ (Elt F) Unit ℕ (Pipeline.UD sig nD τ) ℕ (cfgM m hO) c),
    dat.A 2 = V m c (Pipeline.arrRef spec0 2) → (∀ t, dat.after 2 t = iblk m hO c 2 t) → ∀ (t : Fin (cfgM m hO).N) (d), dat.before 2 t d = iblk m hO c 2 t := by
  stays_fetched 2
theorem before_of3 (hO : Ok m) {c : Dev nD} : ∀ (dat : Dat τ (Elt F) Unit ℕ (Pipeline.UD sig nD τ) ℕ (cfgM m hO) c),
    dat.A 3 = V m c (Pipeline.arrRef spec0 3) → (∀ t, dat.after 3 t = iblk m hO c 3 t) → ∀ (t : Fin (cfgM m hO).N) (d), dat.before 3 t d = iblk m hO c 3 t := by
  stays_fetched 3
theorem before_of4 (hO : Ok m) {c : Dev nD} : ∀ (dat : Dat τ (Elt F) Unit ℕ (Pipeline.UD sig nD τ) ℕ (cfgM m hO) c),
    dat.A 4 = V m c (Pipeline.arrRef spec0 4) → (∀ t, dat.after 4 t = iblk m hO c 4 t) → ∀ (t : Fin (cfgM m hO).N) (d), dat.before 4 t d = iblk m hO c 4 t := by
  stays_fetched 4

/-- Each window's current staging memref at point `t`, as the pipeline passes it to the body, and its wholeness. -/
abbrev ms0 (hO : Ok m) (t : Fin (cfgM m hO).N) : Memref sig .tc .vmem S256x1024 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x1024 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1024 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x128 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1024x128 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S128x256 .f32 := spec0_5.stage ((cfgM m hO).slots t 5)
abbrev hs5 (hO : Ok m) (t : Fin (cfgM m hO).N) : (ms5 m hO t).IsWhole := hstage0_5 (((cfgM m hO).slots t 5).cast nbuf0_5)

/-- One staging buffer of the output window, through which its contents are stated (the choice does not matter). -/
abbrev VO : View sig .tc .vmem S128x256 .f32 := (Memref.whole cc0_stg5_0 : Memref sig .tc .vmem S128x256 .f32).view

/-- The kernel body at point `t`, on what the pipeline calls it with. -/
abbrev bodyAt (hO : Ok m) (t : Fin (cfgM m hO).N) : Prog (TpuEff nD τ sig (Elt F) Λ₀ .tc) PUnit :=
  cc0__kernel (grid0.coords t) tbM htbM (ms0 m hO t) (hs0 m hO t) (Memref.whole main_arg1) (Memref.isWhole_whole _)
    (ms1 m hO t) (hs1 m hO t) (ms2 m hO t) (hs2 m hO t) (ms3 m hO t) (hs3 m hO t) (ms4 m hO t) (hs4 m hO t) (ms5 m hO t) (hs5 m hO t)
    scM (Memref.isWhole_whole _) cc0_scratch1

end Cert.Kernel.Hand

end
-- ==== Proof.KBits.RowTables.lean ====
import proofs.«427848_j22419729285374_3_alg».proof.Proof.KBits.Rows

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (Pipeline.UD sig nD τ) ℕ

/-- Row t of the scratch, as the body names the destination of copy t. -/
abbrev rowL0 : Memref sig .tc .vmem S8x1024 .f32 := (scM.slice (Rect.unit (s := S128x8x1024) ![0, 0, 0] S1x8x1024.size Gen.inb_S128x8x1024_S1x8x1024_0_0_0) (fun _ => rfl)).squeeze S8x1024 Gen.squeezes_S1x8x1024_S8x1024
abbrev rowL1 : Memref sig .tc .vmem S8x1024 .f32 := (scM.slice (Rect.unit (s := S128x8x1024) ![1, 0, 0] S1x8x1024.size Gen.inb_S128x8x1024_S1x8x1024_1_0_0) (fun _ => rfl)).squeeze S8x1024 Gen.squeezes_S1x8x1024_S8x1024
abbrev rowL2 : Memref sig .tc .vmem S8x1024 .f32 := (scM.slice (Rect.unit (s := S128x8x1024) ![2, 0, 0] S1x8x1024.size Gen.inb_S128x8x1024_S1x8x1024_2_0_0) (fun _ => rfl)).squeeze S8x1024 Gen.squeezes_S1x8x1024_S8x1024
abbrev rowL3 : Memref sig .tc .vmem S8x1024 .f32 := (scM.slice (Rect.unit (s := S128x8x1024) ![3, 0, 0] S1x8x1024.size Gen.inb_S128x8x1024_S1x8x1024_3_0_0) (fun _ => rfl)).squeeze S8x1024 Gen.squeezes_S1x8x1024_S8x1024
abbrev rowL4 : Memref sig .tc .vmem S8x1024 .f32 := (scM.slice (Rect.unit (s := S128x8x1024) ![4, 0, 0] S1x8x1024.size Gen.inb_S128x8x1024_S1x8x1024_4_0_0) (fun _ => rfl)).squeeze S8x1024 Gen.squeezes_S1x8x1024_S8x1024
abbrev rowL5 : Memref sig .tc .vmem S8x1024 .f32 := (scM.slice (Rect.unit (s := S128x8x1024) ![5, 0, 0] S1x8x1024.size Gen.inb_S128x8x1024_S1x8x1024_5_0_0) (fun _ => rfl)).squeeze S8x1024 Gen.squeezes_S1x8x1024_S8x1024
abbrev rowL6 : Memref sig .tc .vmem S8x1024 .f32 := (scM.slice (Rect.unit (s := S128x8x1024) ![6, 0, 0] S1x8x1024.size Gen.inb_S128x8x1024_S1x8x1024_6_0_0) (fun _ => rfl)).squeeze S8x1024 Gen.squeezes_S1x8x1024_S8x1024
abbrev rowL7 : Memref sig .tc .vmem S8x1024 .f32 := (scM.slice (Rect.unit (s := S128x8x1024) ![7, 0, 0] S1x8x1024.size Gen.inb_S128x8x1024_S1x8x1024_7_0_0) (fun _ => rfl)).squeeze S8x1024 Gen.squeezes_S1x8x1024_S8x1024
abbrev rowL8 : Memref sig .tc .vmem S8x1024 .f32 := (scM.slice (Rect.unit (s := S128x8x1024) ![8, 0, 0] S1x8x1024.size Gen.inb_S128x8x1024_S1x8x1024_8_0_0) (fun _ => rfl)).squeeze S8x1024 Gen.squeezes_S1x8x1024_S8x1024
abbrev rowL9 : Memref sig .tc .vmem S8x1024 .f32 := (scM.slice (Rect.unit (s := S128x8x1024) ![9, 0, 0] S1x8x1024.size Gen.inb_S128x8x1024_S1x8x1024_9_0_0) (fun _ => rfl)).squeeze S8x1024 Gen.squeezes_S1x8x1024_S8x1024
abbrev rowL10 : Memref sig .tc .vmem S8x1024 .f32 := (scM.slice (Rect.unit (s := S128x8x1024) ![10, 0, 0] S1x8x1024.size Gen.inb_S128x8x1024_S1x8x1024_10_0_0) (fun _ => rfl)).squeeze S8x1024 Gen.squeezes_S1x8x1024_S8x1024
abbrev rowL11 : Memref sig .tc .vmem S8x1024 .f32 := (scM.slice (Rect.unit (s := S128x8x1024) ![11, 0, 0] S1x8x1024.size Gen.inb_S128x8x1024_S1x8x1024_11_0_0) (fun _ => rfl)).squeeze S8x1024 Gen.squeezes_S1x8x1024_S8x1024
abbrev rowL12 : Memref sig .tc .vmem S8x1024 .f32 := (scM.slice (Rect.unit (s := S128x8x1024) ![12, 0, 0] S1x8x1024.size Gen.inb_S128x8x1024_S1x8x1024_12_0_0) (fun _ => rfl)).squeeze S8x1024 Gen.squeezes_S1x8x1024_S8x1024
abbrev rowL13 : Memref sig .tc .vmem S8x1024 .f32 := (scM.slice (Rect.unit (s := S128x8x1024) ![13, 0, 0] S1x8x1024.size Gen.inb_S128x8x1024_S1x8x1024_13_0_0) (fun _ => rfl)).squeeze S8x1024 Gen.squeezes_S1x8x1024_S8x1024
abbrev rowL14 : Memref sig .tc .vmem S8x1024 .f32 := (scM.slice (Rect.unit (s := S128x8x1024) ![14, 0, 0] S1x8x1024.size Gen.inb_S128x8x1024_S1x8x1024_14_0_0) (fun _ => rfl)).squeeze S8x1024 Gen.squeezes_S1x8x1024_S8x1024
abbrev rowL15 : Memref sig .tc .vmem S8x1024 .f32 := (scM.slice (Rect.unit (s := S128x8x1024) ![15, 0, 0] S1x8x1024.size Gen.inb_S128x8x1024_S1x8x1024_15_0_0) (fun _ => rfl)).squeeze S8x1024 Gen.squeezes_S1x8x1024_S8x1024
abbrev rowL16 : Memref sig .tc .vmem S8x1024 .f32 := (scM.slice (Rect.unit (s := S128x8x1024) ![16, 0, 0] S1x8x1024.size Gen.inb_S128x8x1024_S1x8x1024_16_0_0) (fun _ => rfl)).squeeze S8x1024 Gen.squeezes_S1x8x1024_S8x1024
abbrev rowL17 : Memref sig .tc .vmem S8x1024 .f32 := (scM.slice (Rect.unit (s := S128x8x1024) ![17, 0, 0] S1x8x1024.size Gen.inb_S128x8x1024_S1x8x1024_17_0_0) (fun _ => rfl)).squeeze S8x1024 Gen.squeezes_S1x8x1024_S8x1024
abbrev rowL18 : Memref sig .tc .vmem S8x1024 .f32 := (scM.slice (Rect.unit (s := S128x8x1024) ![18, 0, 0] S1x8x1024.size Gen.inb_S128x8x1024_S1x8x1024_18_0_0) (fun _ => rfl)).squeeze S8x1024 Gen.squeezes_S1x8x1024_S8x1024
abbrev rowL19 : Memref sig .tc .vmem S8x1024 .f32 := (scM.slice (Rect.unit (s := S128x8x1024) ![19, 0, 0] S1x8x1024.size Gen.inb_S128x8x1024_S1x8x1024_19_0_0) (fun _ => rfl)).squeeze S8x1024 Gen.squeezes_S1x8x1024_S8x1024
abbrev rowL20 : Memref sig .tc .vmem S8x1024 .f32 := (scM.slice (Rect.unit (s := S128x8x1024) ![20, 0, 0] S1x8x1024.size Gen.inb_S128x8x1024_S1x8x1024_20_0_0) (fun _ => rfl)).squeeze S8x1024 Gen.squeezes_S1x8x1024_S8x1024
abbrev rowL21 : Memref sig .tc .vmem S8x1024 .f32 := (scM.slice (Rect.unit (s := S128x8x1024) ![21, 0, 0] S1x8x1024.size Gen.inb_S128x8x1024_S1x8x1024_21_0_0) (fun _ => rfl)).squeeze S8x1024 Gen.squeezes_S1x8x1024_S8x1024
abbrev rowL22 : Memref sig .tc .vmem S8x1024 .f32 := (scM.slice (Rect.unit (s := S128x8x1024) ![22, 0, 0] S1x8x1024.size Gen.inb_S128x8x1024_S1x8x1024_22_0_0) (fun _ => rfl)).squeeze S8x1024 Gen.squeezes_S1x8x1024_S8x1024
abbrev rowL23 : Memref sig .tc .vmem S8x1024 .f32 := (scM.slice (Rect.unit (s := S128x8x1024) ![23, 0, 0] S1x8x1024.size Gen.inb_S128x8x1024_S1x8x1024_23_0_0) (fun _ => rfl)).squeeze S8x1024 Gen.squeezes_S1x8x1024_S8x1024
abbrev rowL24 : Memref sig .tc .vmem S8x1024 .f32 := (scM.slice (Rect.unit (s := S128x8x1024) ![24, 0, 0] S1x8x1024.size Gen.inb_S128x8x1024_S1x8x1024_24_0_0) (fun _ => rfl)).squeeze S8x1024 Gen.squeezes_S1x8x1024_S8x1024
abbrev rowL25 : Memref sig .tc .vmem S8x1024 .f32 := (scM.slice (Rect.unit (s := S128x8x1024) ![25, 0, 0] S1x8x1024.size Gen.inb_S128x8x1024_S1x8x1024_25_0_0) (fun _ => rfl)).squeeze S8x1024 Gen.squeezes_S1x8x1024_S8x1024
abbrev rowL26 : Memref sig .tc .vmem S8x1024 .f32 := (scM.slice (Rect.unit (s := S128x8x1024) ![26, 0, 0] S1x8x1024.size Gen.inb_S128x8x1024_S1x8x1024_26_0_0) (fun _ => rfl)).squeeze S8x1024 Gen.squeezes_S1x8x1024_S8x1024
abbrev rowL27 : Memref sig .tc .vmem S8x1024 .f32 := (scM.slice (Rect.unit (s := S128x8x1024) ![27, 0, 0] S1x8x1024.size Gen.inb_S128x8x1024_S1x8x1024_27_0_0) (fun _ => rfl)).squeeze S8x1024 Gen.squeezes_S1x8x1024_S8x1024
abbrev rowL28 : Memref sig .tc .vmem S8x1024 .f32 := (scM.slice (Rect.unit (s := S128x8x1024) ![28, 0, 0] S1x8x1024.size Gen.inb_S128x8x1024_S1x8x1024_28_0_0) (fun _ => rfl)).squeeze S8x1024 Gen.squeezes_S1x8x1024_S8x1024
abbrev rowL29 : Memref sig .tc .vmem S8x1024 .f32 := (scM.slice (Rect.unit (s := S128x8x1024) ![29, 0, 0] S1x8x1024.size Gen.inb_S128x8x1024_S1x8x1024_29_0_0) (fun _ => rfl)).squeeze S8x1024 Gen.squeezes_S1x8x1024_S8x1024
abbrev rowL30 : Memref sig .tc .vmem S8x1024 .f32 := (scM.slice (Rect.unit (s := S128x8x1024) ![30, 0, 0] S1x8x1024.size Gen.inb_S128x8x1024_S1x8x1024_30_0_0) (fun _ => rfl)).squeeze S8x1024 Gen.squeezes_S1x8x1024_S8x1024
abbrev rowL31 : Memref sig .tc .vmem S8x1024 .f32 := (scM.slice (Rect.unit (s := S128x8x1024) ![31, 0, 0] S1x8x1024.size Gen.inb_S128x8x1024_S1x8x1024_31_0_0) (fun _ => rfl)).squeeze S8x1024 Gen.squeezes_S1x8x1024_S8x1024
abbrev rowL32 : Memref sig .tc .vmem S8x1024 .f32 := (scM.slice (Rect.unit (s := S128x8x1024) ![32, 0, 0] S1x8x1024.size Gen.inb_S128x8x1024_S1x8x1024_32_0_0) (fun _ => rfl)).squeeze S8x1024 Gen.squeezes_S1x8x1024_S8x1024
abbrev rowL33 : Memref sig .tc .vmem S8x1024 .f32 := (scM.slice (Rect.unit (s := S128x8x1024) ![33, 0, 0] S1x8x1024.size Gen.inb_S128x8x1024_S1x8x1024_33_0_0) (fun _ => rfl)).squeeze S8x1024 Gen.squeezes_S1x8x1024_S8x1024
abbrev rowL34 : Memref sig .tc .vmem S8x1024 .f32 := (scM.slice (Rect.unit (s := S128x8x1024) ![34, 0, 0] S1x8x1024.size Gen.inb_S128x8x1024_S1x8x1024_34_0_0) (fun _ => rfl)).squeeze S8x1024 Gen.squeezes_S1x8x1024_S8x1024
abbrev rowL35 : Memref sig .tc .vmem S8x1024 .f32 := (scM.slice (Rect.unit (s := S128x8x1024) ![35, 0, 0] S1x8x1024.size Gen.inb_S128x8x1024_S1x8x1024_35_0_0) (fun _ => rfl)).squeeze S8x1024 Gen.squeezes_S1x8x1024_S8x1024
abbrev rowL36 : Memref sig .tc .vmem S8x1024 .f32 := (scM.slice (Rect.unit (s := S128x8x1024) ![36, 0, 0] S1x8x1024.size Gen.inb_S128x8x1024_S1x8x1024_36_0_0) (fun _ => rfl)).squeeze S8x1024 Gen.squeezes_S1x8x1024_S8x1024
abbrev rowL37 : Memref sig .tc .vmem S8x1024 .f32 := (scM.slice (Rect.unit (s := S128x8x1024) ![37, 0, 0] S1x8x1024.size Gen.inb_S128x8x1024_S1x8x1024_37_0_0) (fun _ => rfl)).squeeze S8x1024 Gen.squeezes_S1x8x1024_S8x1024
abbrev rowL38 : Memref sig .tc .vmem S8x1024 .f32 := (scM.slice (Rect.unit (s := S128x8x1024) ![38, 0, 0] S1x8x1024.size Gen.inb_S128x8x1024_S1x8x1024_38_0_0) (fun _ => rfl)).squeeze S8x1024 Gen.squeezes_S1x8x1024_S8x1024
abbrev rowL39 : Memref sig .tc .vmem S8x1024 .f32 := (scM.slice (Rect.unit (s := S128x8x1024) ![39, 0, 0] S1x8x1024.size Gen.inb_S128x8x1024_S1x8x1024_39_0_0) (fun _ => rfl)).squeeze S8x1024 Gen.squeezes_S1x8x1024_S8x1024
abbrev rowL40 : Memref sig .tc .vmem S8x1024 .f32 := (scM.slice (Rect.unit (s := S128x8x1024) ![40, 0, 0] S1x8x1024.size Gen.inb_S128x8x1024_S1x8x1024_40_0_0) (fun _ => rfl)).squeeze S8x1024 Gen.squeezes_S1x8x1024_S8x1024
abbrev rowL41 : Memref sig .tc .vmem S8x1024 .f32 := (scM.slice (Rect.unit (s := S128x8x1024) ![41, 0, 0] S1x8x1024.size Gen.inb_S128x8x1024_S1x8x1024_41_0_0) (fun _ => rfl)).squeeze S8x1024 Gen.squeezes_S1x8x1024_S8x1024
abbrev rowL42 : Memref sig .tc .vmem S8x1024 .f32 := (scM.slice (Rect.unit (s := S128x8x1024) ![42, 0, 0] S1x8x1024.size Gen.inb_S128x8x1024_S1x8x1024_42_0_0) (fun _ => rfl)).squeeze S8x1024 Gen.squeezes_S1x8x1024_S8x1024
abbrev rowL43 : Memref sig .tc .vmem S8x1024 .f32 := (scM.slice (Rect.unit (s := S128x8x1024) ![43, 0, 0] S1x8x1024.size Gen.inb_S128x8x1024_S1x8x1024_43_0_0) (fun _ => rfl)).squeeze S8x1024 Gen.squeezes_S1x8x1024_S8x1024
abbrev rowL44 : Memref sig .tc .vmem S8x1024 .f32 := (scM.slice (Rect.unit (s := S128x8x1024) ![44, 0, 0] S1x8x1024.size Gen.inb_S128x8x1024_S1x8x1024_44_0_0) (fun _ => rfl)).squeeze S8x1024 Gen.squeezes_S1x8x1024_S8x1024
abbrev rowL45 : Memref sig .tc .vmem S8x1024 .f32 := (scM.slice (Rect.unit (s := S128x8x1024) ![45, 0, 0] S1x8x1024.size Gen.inb_S128x8x1024_S1x8x1024_45_0_0) (fun _ => rfl)).squeeze S8x1024 Gen.squeezes_S1x8x1024_S8x1024
abbrev rowL46 : Memref sig .tc .vmem S8x1024 .f32 := (scM.slice (Rect.unit (s := S128x8x1024) ![46, 0, 0] S1x8x1024.size Gen.inb_S128x8x1024_S1x8x1024_46_0_0) (fun _ => rfl)).squeeze S8x1024 Gen.squeezes_S1x8x1024_S8x1024
abbrev rowL47 : Memref sig .tc .vmem S8x1024 .f32 := (scM.slice (Rect.unit (s := S128x8x1024) ![47, 0, 0] S1x8x1024.size Gen.inb_S128x8x1024_S1x8x1024_47_0_0) (fun _ => rfl)).squeeze S8x1024 Gen.squeezes_S1x8x1024_S8x1024
abbrev rowL48 : Memref sig .tc .vmem S8x1024 .f32 := (scM.slice (Rect.unit (s := S128x8x1024) ![48, 0, 0] S1x8x1024.size Gen.inb_S128x8x1024_S1x8x1024_48_0_0) (fun _ => rfl)).squeeze S8x1024 Gen.squeezes_S1x8x1024_S8x1024
abbrev rowL49 : Memref sig .tc .vmem S8x1024 .f32 := (scM.slice (Rect.unit (s := S128x8x1024) ![49, 0, 0] S1x8x1024.size Gen.inb_S128x8x1024_S1x8x1024_49_0_0) (fun _ => rfl)).squeeze S8x1024 Gen.squeezes_S1x8x1024_S8x1024
abbrev rowL50 : Memref sig .tc .vmem S8x1024 .f32 := (scM.slice (Rect.unit (s := S128x8x1024) ![50, 0, 0] S1x8x1024.size Gen.inb_S128x8x1024_S1x8x1024_50_0_0) (fun _ => rfl)).squeeze S8x1024 Gen.squeezes_S1x8x1024_S8x1024
abbrev rowL51 : Memref sig .tc .vmem S8x1024 .f32 := (scM.slice (Rect.unit (s := S128x8x1024) ![51, 0, 0] S1x8x1024.size Gen.inb_S128x8x1024_S1x8x1024_51_0_0) (fun _ => rfl)).squeeze S8x1024 Gen.squeezes_S1x8x1024_S8x1024
abbrev rowL52 : Memref sig .tc .vmem S8x1024 .f32 := (scM.slice (Rect.unit (s := S128x8x1024) ![52, 0, 0] S1x8x1024.size Gen.inb_S128x8x1024_S1x8x1024_52_0_0) (fun _ => rfl)).squeeze S8x1024 Gen.squeezes_S1x8x1024_S8x1024
abbrev rowL53 : Memref sig .tc .vmem S8x1024 .f32 := (scM.slice (Rect.unit (s := S128x8x1024) ![53, 0, 0] S1x8x1024.size Gen.inb_S128x8x1024_S1x8x1024_53_0_0) (fun _ => rfl)).squeeze S8x1024 Gen.squeezes_S1x8x1024_S8x1024
abbrev rowL54 : Memref sig .tc .vmem S8x1024 .f32 := (scM.slice (Rect.unit (s := S128x8x1024) ![54, 0, 0] S1x8x1024.size Gen.inb_S128x8x1024_S1x8x1024_54_0_0) (fun _ => rfl)).squeeze S8x1024 Gen.squeezes_S1x8x1024_S8x1024
abbrev rowL55 : Memref sig .tc .vmem S8x1024 .f32 := (scM.slice (Rect.unit (s := S128x8x1024) ![55, 0, 0] S1x8x1024.size Gen.inb_S128x8x1024_S1x8x1024_55_0_0) (fun _ => rfl)).squeeze S8x1024 Gen.squeezes_S1x8x1024_S8x1024
abbrev rowL56 : Memref sig .tc .vmem S8x1024 .f32 := (scM.slice (Rect.unit (s := S128x8x1024) ![56, 0, 0] S1x8x1024.size Gen.inb_S128x8x1024_S1x8x1024_56_0_0) (fun _ => rfl)).squeeze S8x1024 Gen.squeezes_S1x8x1024_S8x1024
abbrev rowL57 : Memref sig .tc .vmem S8x1024 .f32 := (scM.slice (Rect.unit (s := S128x8x1024) ![57, 0, 0] S1x8x1024.size Gen.inb_S128x8x1024_S1x8x1024_57_0_0) (fun _ => rfl)).squeeze S8x1024 Gen.squeezes_S1x8x1024_S8x1024
abbrev rowL58 : Memref sig .tc .vmem S8x1024 .f32 := (scM.slice (Rect.unit (s := S128x8x1024) ![58, 0, 0] S1x8x1024.size Gen.inb_S128x8x1024_S1x8x1024_58_0_0) (fun _ => rfl)).squeeze S8x1024 Gen.squeezes_S1x8x1024_S8x1024
abbrev rowL59 : Memref sig .tc .vmem S8x1024 .f32 := (scM.slice (Rect.unit (s := S128x8x1024) ![59, 0, 0] S1x8x1024.size Gen.inb_S128x8x1024_S1x8x1024_59_0_0) (fun _ => rfl)).squeeze S8x1024 Gen.squeezes_S1x8x1024_S8x1024
abbrev rowL60 : Memref sig .tc .vmem S8x1024 .f32 := (scM.slice (Rect.unit (s := S128x8x1024) ![60, 0, 0] S1x8x1024.size Gen.inb_S128x8x1024_S1x8x1024_60_0_0) (fun _ => rfl)).squeeze S8x1024 Gen.squeezes_S1x8x1024_S8x1024
abbrev rowL61 : Memref sig .tc .vmem S8x1024 .f32 := (scM.slice (Rect.unit (s := S128x8x1024) ![61, 0, 0] S1x8x1024.size Gen.inb_S128x8x1024_S1x8x1024_61_0_0) (fun _ => rfl)).squeeze S8x1024 Gen.squeezes_S1x8x1024_S8x1024
abbrev rowL62 : Memref sig .tc .vmem S8x1024 .f32 := (scM.slice (Rect.unit (s := S128x8x1024) ![62, 0, 0] S1x8x1024.size Gen.inb_S128x8x1024_S1x8x1024_62_0_0) (fun _ => rfl)).squeeze S8x1024 Gen.squeezes_S1x8x1024_S8x1024
abbrev rowL63 : Memref sig .tc .vmem S8x1024 .f32 := (scM.slice (Rect.unit (s := S128x8x1024) ![63, 0, 0] S1x8x1024.size Gen.inb_S128x8x1024_S1x8x1024_63_0_0) (fun _ => rfl)).squeeze S8x1024 Gen.squeezes_S1x8x1024_S8x1024
abbrev rowL64 : Memref sig .tc .vmem S8x1024 .f32 := (scM.slice (Rect.unit (s := S128x8x1024) ![64, 0, 0] S1x8x1024.size Gen.inb_S128x8x1024_S1x8x1024_64_0_0) (fun _ => rfl)).squeeze S8x1024 Gen.squeezes_S1x8x1024_S8x1024
abbrev rowL65 : Memref sig .tc .vmem S8x1024 .f32 := (scM.slice (Rect.unit (s := S128x8x1024) ![65, 0, 0] S1x8x1024.size Gen.inb_S128x8x1024_S1x8x1024_65_0_0) (fun _ => rfl)).squeeze S8x1024 Gen.squeezes_S1x8x1024_S8x1024
abbrev rowL66 : Memref sig .tc .vmem S8x1024 .f32 := (scM.slice (Rect.unit (s := S128x8x1024) ![66, 0, 0] S1x8x1024.size Gen.inb_S128x8x1024_S1x8x1024_66_0_0) (fun _ => rfl)).squeeze S8x1024 Gen.squeezes_S1x8x1024_S8x1024
abbrev rowL67 : Memref sig .tc .vmem S8x1024 .f32 := (scM.slice (Rect.unit (s := S128x8x1024) ![67, 0, 0] S1x8x1024.size Gen.inb_S128x8x1024_S1x8x1024_67_0_0) (fun _ => rfl)).squeeze S8x1024 Gen.squeezes_S1x8x1024_S8x1024
abbrev rowL68 : Memref sig .tc .vmem S8x1024 .f32 := (scM.slice (Rect.unit (s := S128x8x1024) ![68, 0, 0] S1x8x1024.size Gen.inb_S128x8x1024_S1x8x1024_68_0_0) (fun _ => rfl)).squeeze S8x1024 Gen.squeezes_S1x8x1024_S8x1024
abbrev rowL69 : Memref sig .tc .vmem S8x1024 .f32 := (scM.slice (Rect.unit (s := S128x8x1024) ![69, 0, 0] S1x8x1024.size Gen.inb_S128x8x1024_S1x8x1024_69_0_0) (fun _ => rfl)).squeeze S8x1024 Gen.squeezes_S1x8x1024_S8x1024
abbrev rowL70 : Memref sig .tc .vmem S8x1024 .f32 := (scM.slice (Rect.unit (s := S128x8x1024) ![70, 0, 0] S1x8x1024.size Gen.inb_S128x8x1024_S1x8x1024_70_0_0) (fun _ => rfl)).squeeze S8x1024 Gen.squeezes_S1x8x1024_S8x1024
abbrev rowL71 : Memref sig .tc .vmem S8x1024 .f32 := (scM.slice (Rect.unit (s := S128x8x1024) ![71, 0, 0] S1x8x1024.size Gen.inb_S128x8x1024_S1x8x1024_71_0_0) (fun _ => rfl)).squeeze S8x1024 Gen.squeezes_S1x8x1024_S8x1024
abbrev rowL72 : Memref sig .tc .vmem S8x1024 .f32 := (scM.slice (Rect.unit (s := S128x8x1024) ![72, 0, 0] S1x8x1024.size Gen.inb_S128x8x1024_S1x8x1024_72_0_0) (fun _ => rfl)).squeeze S8x1024 Gen.squeezes_S1x8x1024_S8x1024
abbrev rowL73 : Memref sig .tc .vmem S8x1024 .f32 := (scM.slice (Rect.unit (s := S128x8x1024) ![73, 0, 0] S1x8x1024.size Gen.inb_S128x8x1024_S1x8x1024_73_0_0) (fun _ => rfl)).squeeze S8x1024 Gen.squeezes_S1x8x1024_S8x1024
abbrev rowL74 : Memref sig .tc .vmem S8x1024 .f32 := (scM.slice (Rect.unit (s := S128x8x1024) ![74, 0, 0] S1x8x1024.size Gen.inb_S128x8x1024_S1x8x1024_74_0_0) (fun _ => rfl)).squeeze S8x1024 Gen.squeezes_S1x8x1024_S8x1024
abbrev rowL75 : Memref sig .tc .vmem S8x1024 .f32 := (scM.slice (Rect.unit (s := S128x8x1024) ![75, 0, 0] S1x8x1024.size Gen.inb_S128x8x1024_S1x8x1024_75_0_0) (fun _ => rfl)).squeeze S8x1024 Gen.squeezes_S1x8x1024_S8x1024
abbrev rowL76 : Memref sig .tc .vmem S8x1024 .f32 := (scM.slice (Rect.unit (s := S128x8x1024) ![76, 0, 0] S1x8x1024.size Gen.inb_S128x8x1024_S1x8x1024_76_0_0) (fun _ => rfl)).squeeze S8x1024 Gen.squeezes_S1x8x1024_S8x1024
abbrev rowL77 : Memref sig .tc .vmem S8x1024 .f32 := (scM.slice (Rect.unit (s := S128x8x1024) ![77, 0, 0] S1x8x1024.size Gen.inb_S128x8x1024_S1x8x1024_77_0_0) (fun _ => rfl)).squeeze S8x1024 Gen.squeezes_S1x8x1024_S8x1024
abbrev rowL78 : Memref sig .tc .vmem S8x1024 .f32 := (scM.slice (Rect.unit (s := S128x8x1024) ![78, 0, 0] S1x8x1024.size Gen.inb_S128x8x1024_S1x8x1024_78_0_0) (fun _ => rfl)).squeeze S8x1024 Gen.squeezes_S1x8x1024_S8x1024
abbrev rowL79 : Memref sig .tc .vmem S8x1024 .f32 := (scM.slice (Rect.unit (s := S128x8x1024) ![79, 0, 0] S1x8x1024.size Gen.inb_S128x8x1024_S1x8x1024_79_0_0) (fun _ => rfl)).squeeze S8x1024 Gen.squeezes_S1x8x1024_S8x1024
abbrev rowL80 : Memref sig .tc .vmem S8x1024 .f32 := (scM.slice (Rect.unit (s := S128x8x1024) ![80, 0, 0] S1x8x1024.size Gen.inb_S128x8x1024_S1x8x1024_80_0_0) (fun _ => rfl)).squeeze S8x1024 Gen.squeezes_S1x8x1024_S8x1024
abbrev rowL81 : Memref sig .tc .vmem S8x1024 .f32 := (scM.slice (Rect.unit (s := S128x8x1024) ![81, 0, 0] S1x8x1024.size Gen.inb_S128x8x1024_S1x8x1024_81_0_0) (fun _ => rfl)).squeeze S8x1024 Gen.squeezes_S1x8x1024_S8x1024
abbrev rowL82 : Memref sig .tc .vmem S8x1024 .f32 := (scM.slice (Rect.unit (s := S128x8x1024) ![82, 0, 0] S1x8x1024.size Gen.inb_S128x8x1024_S1x8x1024_82_0_0) (fun _ => rfl)).squeeze S8x1024 Gen.squeezes_S1x8x1024_S8x1024
abbrev rowL83 : Memref sig .tc .vmem S8x1024 .f32 := (scM.slice (Rect.unit (s := S128x8x1024) ![83, 0, 0] S1x8x1024.size Gen.inb_S128x8x1024_S1x8x1024_83_0_0) (fun _ => rfl)).squeeze S8x1024 Gen.squeezes_S1x8x1024_S8x1024
abbrev rowL84 : Memref sig .tc .vmem S8x1024 .f32 := (scM.slice (Rect.unit (s := S128x8x1024) ![84, 0, 0] S1x8x1024.size Gen.inb_S128x8x1024_S1x8x1024_84_0_0) (fun _ => rfl)).squeeze S8x1024 Gen.squeezes_S1x8x1024_S8x1024
abbrev rowL85 : Memref sig .tc .vmem S8x1024 .f32 := (scM.slice (Rect.unit (s := S128x8x1024) ![85, 0, 0] S1x8x1024.size Gen.inb_S128x8x1024_S1x8x1024_85_0_0) (fun _ => rfl)).squeeze S8x1024 Gen.squeezes_S1x8x1024_S8x1024
abbrev rowL86 : Memref sig .tc .vmem S8x1024 .f32 := (scM.slice (Rect.unit (s := S128x8x1024) ![86, 0, 0] S1x8x1024.size Gen.inb_S128x8x1024_S1x8x1024_86_0_0) (fun _ => rfl)).squeeze S8x1024 Gen.squeezes_S1x8x1024_S8x1024
abbrev rowL87 : Memref sig .tc .vmem S8x1024 .f32 := (scM.slice (Rect.unit (s := S128x8x1024) ![87, 0, 0] S1x8x1024.size Gen.inb_S128x8x1024_S1x8x1024_87_0_0) (fun _ => rfl)).squeeze S8x1024 Gen.squeezes_S1x8x1024_S8x1024
abbrev rowL88 : Memref sig .tc .vmem S8x1024 .f32 := (scM.slice (Rect.unit (s := S128x8x1024) ![88, 0, 0] S1x8x1024.size Gen.inb_S128x8x1024_S1x8x1024_88_0_0) (fun _ => rfl)).squeeze S8x1024 Gen.squeezes_S1x8x1024_S8x1024
abbrev rowL89 : Memref sig .tc .vmem S8x1024 .f32 := (scM.slice (Rect.unit (s := S128x8x1024) ![89, 0, 0] S1x8x1024.size Gen.inb_S128x8x1024_S1x8x1024_89_0_0) (fun _ => rfl)).squeeze S8x1024 Gen.squeezes_S1x8x1024_S8x1024
abbrev rowL90 : Memref sig .tc .vmem S8x1024 .f32 := (scM.slice (Rect.unit (s := S128x8x1024) ![90, 0, 0] S1x8x1024.size Gen.inb_S128x8x1024_S1x8x1024_90_0_0) (fun _ => rfl)).squeeze S8x1024 Gen.squeezes_S1x8x1024_S8x1024
abbrev rowL91 : Memref sig .tc .vmem S8x1024 .f32 := (scM.slice (Rect.unit (s := S128x8x1024) ![91, 0, 0] S1x8x1024.size Gen.inb_S128x8x1024_S1x8x1024_91_0_0) (fun _ => rfl)).squeeze S8x1024 Gen.squeezes_S1x8x1024_S8x1024
abbrev rowL92 : Memref sig .tc .vmem S8x1024 .f32 := (scM.slice (Rect.unit (s := S128x8x1024) ![92, 0, 0] S1x8x1024.size Gen.inb_S128x8x1024_S1x8x1024_92_0_0) (fun _ => rfl)).squeeze S8x1024 Gen.squeezes_S1x8x1024_S8x1024
abbrev rowL93 : Memref sig .tc .vmem S8x1024 .f32 := (scM.slice (Rect.unit (s := S128x8x1024) ![93, 0, 0] S1x8x1024.size Gen.inb_S128x8x1024_S1x8x1024_93_0_0) (fun _ => rfl)).squeeze S8x1024 Gen.squeezes_S1x8x1024_S8x1024
abbrev rowL94 : Memref sig .tc .vmem S8x1024 .f32 := (scM.slice (Rect.unit (s := S128x8x1024) ![94, 0, 0] S1x8x1024.size Gen.inb_S128x8x1024_S1x8x1024_94_0_0) (fun _ => rfl)).squeeze S8x1024 Gen.squeezes_S1x8x1024_S8x1024
abbrev rowL95 : Memref sig .tc .vmem S8x1024 .f32 := (scM.slice (Rect.unit (s := S128x8x1024) ![95, 0, 0] S1x8x1024.size Gen.inb_S128x8x1024_S1x8x1024_95_0_0) (fun _ => rfl)).squeeze S8x1024 Gen.squeezes_S1x8x1024_S8x1024
abbrev rowL96 : Memref sig .tc .vmem S8x1024 .f32 := (scM.slice (Rect.unit (s := S128x8x1024) ![96, 0, 0] S1x8x1024.size Gen.inb_S128x8x1024_S1x8x1024_96_0_0) (fun _ => rfl)).squeeze S8x1024 Gen.squeezes_S1x8x1024_S8x1024
abbrev rowL97 : Memref sig .tc .vmem S8x1024 .f32 := (scM.slice (Rect.unit (s := S128x8x1024) ![97, 0, 0] S1x8x1024.size Gen.inb_S128x8x1024_S1x8x1024_97_0_0) (fun _ => rfl)).squeeze S8x1024 Gen.squeezes_S1x8x1024_S8x1024
abbrev rowL98 : Memref sig .tc .vmem S8x1024 .f32 := (scM.slice (Rect.unit (s := S128x8x1024) ![98, 0, 0] S1x8x1024.size Gen.inb_S128x8x1024_S1x8x1024_98_0_0) (fun _ => rfl)).squeeze S8x1024 Gen.squeezes_S1x8x1024_S8x1024
abbrev rowL99 : Memref sig .tc .vmem S8x1024 .f32 := (scM.slice (Rect.unit (s := S128x8x1024) ![99, 0, 0] S1x8x1024.size Gen.inb_S128x8x1024_S1x8x1024_99_0_0) (fun _ => rfl)).squeeze S8x1024 Gen.squeezes_S1x8x1024_S8x1024
abbrev rowL100 : Memref sig .tc .vmem S8x1024 .f32 := (scM.slice (Rect.unit (s := S128x8x1024) ![100, 0, 0] S1x8x1024.size Gen.inb_S128x8x1024_S1x8x1024_100_0_0) (fun _ => rfl)).squeeze S8x1024 Gen.squeezes_S1x8x1024_S8x1024
abbrev rowL101 : Memref sig .tc .vmem S8x1024 .f32 := (scM.slice (Rect.unit (s := S128x8x1024) ![101, 0, 0] S1x8x1024.size Gen.inb_S128x8x1024_S1x8x1024_101_0_0) (fun _ => rfl)).squeeze S8x1024 Gen.squeezes_S1x8x1024_S8x1024
abbrev rowL102 : Memref sig .tc .vmem S8x1024 .f32 := (scM.slice (Rect.unit (s := S128x8x1024) ![102, 0, 0] S1x8x1024.size Gen.inb_S128x8x1024_S1x8x1024_102_0_0) (fun _ => rfl)).squeeze S8x1024 Gen.squeezes_S1x8x1024_S8x1024
abbrev rowL103 : Memref sig .tc .vmem S8x1024 .f32 := (scM.slice (Rect.unit (s := S128x8x1024) ![103, 0, 0] S1x8x1024.size Gen.inb_S128x8x1024_S1x8x1024_103_0_0) (fun _ => rfl)).squeeze S8x1024 Gen.squeezes_S1x8x1024_S8x1024
abbrev rowL104 : Memref sig .tc .vmem S8x1024 .f32 := (scM.slice (Rect.unit (s := S128x8x1024) ![104, 0, 0] S1x8x1024.size Gen.inb_S128x8x1024_S1x8x1024_104_0_0) (fun _ => rfl)).squeeze S8x1024 Gen.squeezes_S1x8x1024_S8x1024
abbrev rowL105 : Memref sig .tc .vmem S8x1024 .f32 := (scM.slice (Rect.unit (s := S128x8x1024) ![105, 0, 0] S1x8x1024.size Gen.inb_S128x8x1024_S1x8x1024_105_0_0) (fun _ => rfl)).squeeze S8x1024 Gen.squeezes_S1x8x1024_S8x1024
abbrev rowL106 : Memref sig .tc .vmem S8x1024 .f32 := (scM.slice (Rect.unit (s := S128x8x1024) ![106, 0, 0] S1x8x1024.size Gen.inb_S128x8x1024_S1x8x1024_106_0_0) (fun _ => rfl)).squeeze S8x1024 Gen.squeezes_S1x8x1024_S8x1024
abbrev rowL107 : Memref sig .tc .vmem S8x1024 .f32 := (scM.slice (Rect.unit (s := S128x8x1024) ![107, 0, 0] S1x8x1024.size Gen.inb_S128x8x1024_S1x8x1024_107_0_0) (fun _ => rfl)).squeeze S8x1024 Gen.squeezes_S1x8x1024_S8x1024
abbrev rowL108 : Memref sig .tc .vmem S8x1024 .f32 := (scM.slice (Rect.unit (s := S128x8x1024) ![108, 0, 0] S1x8x1024.size Gen.inb_S128x8x1024_S1x8x1024_108_0_0) (fun _ => rfl)).squeeze S8x1024 Gen.squeezes_S1x8x1024_S8x1024
abbrev rowL109 : Memref sig .tc .vmem S8x1024 .f32 := (scM.slice (Rect.unit (s := S128x8x1024) ![109, 0, 0] S1x8x1024.size Gen.inb_S128x8x1024_S1x8x1024_109_0_0) (fun _ => rfl)).squeeze S8x1024 Gen.squeezes_S1x8x1024_S8x1024
abbrev rowL110 : Memref sig .tc .vmem S8x1024 .f32 := (scM.slice (Rect.unit (s := S128x8x1024) ![110, 0, 0] S1x8x1024.size Gen.inb_S128x8x1024_S1x8x1024_110_0_0) (fun _ => rfl)).squeeze S8x1024 Gen.squeezes_S1x8x1024_S8x1024
abbrev rowL111 : Memref sig .tc .vmem S8x1024 .f32 := (scM.slice (Rect.unit (s := S128x8x1024) ![111, 0, 0] S1x8x1024.size Gen.inb_S128x8x1024_S1x8x1024_111_0_0) (fun _ => rfl)).squeeze S8x1024 Gen.squeezes_S1x8x1024_S8x1024
abbrev rowL112 : Memref sig .tc .vmem S8x1024 .f32 := (scM.slice (Rect.unit (s := S128x8x1024) ![112, 0, 0] S1x8x1024.size Gen.inb_S128x8x1024_S1x8x1024_112_0_0) (fun _ => rfl)).squeeze S8x1024 Gen.squeezes_S1x8x1024_S8x1024
abbrev rowL113 : Memref sig .tc .vmem S8x1024 .f32 := (scM.slice (Rect.unit (s := S128x8x1024) ![113, 0, 0] S1x8x1024.size Gen.inb_S128x8x1024_S1x8x1024_113_0_0) (fun _ => rfl)).squeeze S8x1024 Gen.squeezes_S1x8x1024_S8x1024
abbrev rowL114 : Memref sig .tc .vmem S8x1024 .f32 := (scM.slice (Rect.unit (s := S128x8x1024) ![114, 0, 0] S1x8x1024.size Gen.inb_S128x8x1024_S1x8x1024_114_0_0) (fun _ => rfl)).squeeze S8x1024 Gen.squeezes_S1x8x1024_S8x1024
abbrev rowL115 : Memref sig .tc .vmem S8x1024 .f32 := (scM.slice (Rect.unit (s := S128x8x1024) ![115, 0, 0] S1x8x1024.size Gen.inb_S128x8x1024_S1x8x1024_115_0_0) (fun _ => rfl)).squeeze S8x1024 Gen.squeezes_S1x8x1024_S8x1024
abbrev rowL116 : Memref sig .tc .vmem S8x1024 .f32 := (scM.slice (Rect.unit (s := S128x8x1024) ![116, 0, 0] S1x8x1024.size Gen.inb_S128x8x1024_S1x8x1024_116_0_0) (fun _ => rfl)).squeeze S8x1024 Gen.squeezes_S1x8x1024_S8x1024
abbrev rowL117 : Memref sig .tc .vmem S8x1024 .f32 := (scM.slice (Rect.unit (s := S128x8x1024) ![117, 0, 0] S1x8x1024.size Gen.inb_S128x8x1024_S1x8x1024_117_0_0) (fun _ => rfl)).squeeze S8x1024 Gen.squeezes_S1x8x1024_S8x1024
abbrev rowL118 : Memref sig .tc .vmem S8x1024 .f32 := (scM.slice (Rect.unit (s := S128x8x1024) ![118, 0, 0] S1x8x1024.size Gen.inb_S128x8x1024_S1x8x1024_118_0_0) (fun _ => rfl)).squeeze S8x1024 Gen.squeezes_S1x8x1024_S8x1024
abbrev rowL119 : Memref sig .tc .vmem S8x1024 .f32 := (scM.slice (Rect.unit (s := S128x8x1024) ![119, 0, 0] S1x8x1024.size Gen.inb_S128x8x1024_S1x8x1024_119_0_0) (fun _ => rfl)).squeeze S8x1024 Gen.squeezes_S1x8x1024_S8x1024
abbrev rowL120 : Memref sig .tc .vmem S8x1024 .f32 := (scM.slice (Rect.unit (s := S128x8x1024) ![120, 0, 0] S1x8x1024.size Gen.inb_S128x8x1024_S1x8x1024_120_0_0) (fun _ => rfl)).squeeze S8x1024 Gen.squeezes_S1x8x1024_S8x1024
abbrev rowL121 : Memref sig .tc .vmem S8x1024 .f32 := (scM.slice (Rect.unit (s := S128x8x1024) ![121, 0, 0] S1x8x1024.size Gen.inb_S128x8x1024_S1x8x1024_121_0_0) (fun _ => rfl)).squeeze S8x1024 Gen.squeezes_S1x8x1024_S8x1024
abbrev rowL122 : Memref sig .tc .vmem S8x1024 .f32 := (scM.slice (Rect.unit (s := S128x8x1024) ![122, 0, 0] S1x8x1024.size Gen.inb_S128x8x1024_S1x8x1024_122_0_0) (fun _ => rfl)).squeeze S8x1024 Gen.squeezes_S1x8x1024_S8x1024
abbrev rowL123 : Memref sig .tc .vmem S8x1024 .f32 := (scM.slice (Rect.unit (s := S128x8x1024) ![123, 0, 0] S1x8x1024.size Gen.inb_S128x8x1024_S1x8x1024_123_0_0) (fun _ => rfl)).squeeze S8x1024 Gen.squeezes_S1x8x1024_S8x1024
abbrev rowL124 : Memref sig .tc .vmem S8x1024 .f32 := (scM.slice (Rect.unit (s := S128x8x1024) ![124, 0, 0] S1x8x1024.size Gen.inb_S128x8x1024_S1x8x1024_124_0_0) (fun _ => rfl)).squeeze S8x1024 Gen.squeezes_S1x8x1024_S8x1024
abbrev rowL125 : Memref sig .tc .vmem S8x1024 .f32 := (scM.slice (Rect.unit (s := S128x8x1024) ![125, 0, 0] S1x8x1024.size Gen.inb_S128x8x1024_S1x8x1024_125_0_0) (fun _ => rfl)).squeeze S8x1024 Gen.squeezes_S1x8x1024_S8x1024
abbrev rowL126 : Memref sig .tc .vmem S8x1024 .f32 := (scM.slice (Rect.unit (s := S128x8x1024) ![126, 0, 0] S1x8x1024.size Gen.inb_S128x8x1024_S1x8x1024_126_0_0) (fun _ => rfl)).squeeze S8x1024 Gen.squeezes_S1x8x1024_S8x1024
abbrev rowL127 : Memref sig .tc .vmem S8x1024 .f32 := (scM.slice (Rect.unit (s := S128x8x1024) ![127, 0, 0] S1x8x1024.size Gen.inb_S128x8x1024_S1x8x1024_127_0_0) (fun _ => rfl)).squeeze S8x1024 Gen.squeezes_S1x8x1024_S8x1024

set_option maxHeartbeats 40000000 in
/-- The scratch held whole is its 128 rows, each held by its own elements. -/
theorem rows_split_lit (c : Dev nD) (f : Buf (Elt F) (scM.view.loc (c : Thread nD τ))) :
    (scM.view.loc (c : Thread nD τ) ↦[scM.view.set]{fullShare} f : sProp 𝕄) ⊢ iprop((rowL0.view.loc (c : Thread nD τ) ↦[rowL0.view.set]{fullShare} f) ∗ (rowL1.view.loc (c : Thread nD τ) ↦[rowL1.view.set]{fullShare} f) ∗ (rowL2.view.loc (c : Thread nD τ) ↦[rowL2.view.set]{fullShare} f) ∗ (rowL3.view.loc (c : Thread nD τ) ↦[rowL3.view.set]{fullShare} f) ∗ (rowL4.view.loc (c : Thread nD τ) ↦[rowL4.view.set]{fullShare} f) ∗ (rowL5.view.loc (c : Thread nD τ) ↦[rowL5.view.set]{fullShare} f) ∗ (rowL6.view.loc (c : Thread nD τ) ↦[rowL6.view.set]{fullShare} f) ∗ (rowL7.view.loc (c : Thread nD τ) ↦[rowL7.view.set]{fullShare} f) ∗ (rowL8.view.loc (c : Thread nD τ) ↦[rowL8.view.set]{fullShare} f) ∗ (rowL9.view.loc (c : Thread nD τ) ↦[rowL9.view.set]{fullShare} f) ∗ (rowL10.view.loc (c : Thread nD τ) ↦[rowL10.view.set]{fullShare} f) ∗ (rowL11.view.loc (c : Thread nD τ) ↦[rowL11.view.set]{fullShare} f) ∗ (rowL12.view.loc (c : Thread nD τ) ↦[rowL12.view.set]{fullShare} f) ∗ (rowL13.view.loc (c : Thread nD τ) ↦[rowL13.view.set]{fullShare} f) ∗ (rowL14.view.loc (c : Thread nD τ) ↦[rowL14.view.set]{fullShare} f) ∗ (rowL15.view.loc (c : Thread nD τ) ↦[rowL15.view.set]{fullShare} f) ∗ (rowL16.view.loc (c : Thread nD τ) ↦[rowL16.view.set]{fullShare} f) ∗ (rowL17.view.loc (c : Thread nD τ) ↦[rowL17.view.set]{fullShare} f) ∗ (rowL18.view.loc (c : Thread nD τ) ↦[rowL18.view.set]{fullShare} f) ∗ (rowL19.view.loc (c : Thread nD τ) ↦[rowL19.view.set]{fullShare} f) ∗ (rowL20.view.loc (c : Thread nD τ) ↦[rowL20.view.set]{fullShare} f) ∗ (rowL21.view.loc (c : Thread nD τ) ↦[rowL21.view.set]{fullShare} f) ∗ (rowL22.view.loc (c : Thread nD τ) ↦[rowL22.view.set]{fullShare} f) ∗ (rowL23.view.loc (c : Thread nD τ) ↦[rowL23.view.set]{fullShare} f) ∗ (rowL24.view.loc (c : Thread nD τ) ↦[rowL24.view.set]{fullShare} f) ∗ (rowL25.view.loc (c : Thread nD τ) ↦[rowL25.view.set]{fullShare} f) ∗ (rowL26.view.loc (c : Thread nD τ) ↦[rowL26.view.set]{fullShare} f) ∗ (rowL27.view.loc (c : Thread nD τ) ↦[rowL27.view.set]{fullShare} f) ∗ (rowL28.view.loc (c : Thread nD τ) ↦[rowL28.view.set]{fullShare} f) ∗ (rowL29.view.loc (c : Thread nD τ) ↦[rowL29.view.set]{fullShare} f) ∗ (rowL30.view.loc (c : Thread nD τ) ↦[rowL30.view.set]{fullShare} f) ∗ (rowL31.view.loc (c : Thread nD τ) ↦[rowL31.view.set]{fullShare} f) ∗ (rowL32.view.loc (c : Thread nD τ) ↦[rowL32.view.set]{fullShare} f) ∗ (rowL33.view.loc (c : Thread nD τ) ↦[rowL33.view.set]{fullShare} f) ∗ (rowL34.view.loc (c : Thread nD τ) ↦[rowL34.view.set]{fullShare} f) ∗ (rowL35.view.loc (c : Thread nD τ) ↦[rowL35.view.set]{fullShare} f) ∗ (rowL36.view.loc (c : Thread nD τ) ↦[rowL36.view.set]{fullShare} f) ∗ (rowL37.view.loc (c : Thread nD τ) ↦[rowL37.view.set]{fullShare} f) ∗ (rowL38.view.loc (c : Thread nD τ) ↦[rowL38.view.set]{fullShare} f) ∗ (rowL39.view.loc (c : Thread nD τ) ↦[rowL39.view.set]{fullShare} f) ∗ (rowL40.view.loc (c : Thread nD τ) ↦[rowL40.view.set]{fullShare} f) ∗ (rowL41.view.loc (c : Thread nD τ) ↦[rowL41.view.set]{fullShare} f) ∗ (rowL42.view.loc (c : Thread nD τ) ↦[rowL42.view.set]{fullShare} f) ∗ (rowL43.view.loc (c : Thread nD τ) ↦[rowL43.view.set]{fullShare} f) ∗ (rowL44.view.loc (c : Thread nD τ) ↦[rowL44.view.set]{fullShare} f) ∗ (rowL45.view.loc (c : Thread nD τ) ↦[rowL45.view.set]{fullShare} f) ∗ (rowL46.view.loc (c : Thread nD τ) ↦[rowL46.view.set]{fullShare} f) ∗ (rowL47.view.loc (c : Thread nD τ) ↦[rowL47.view.set]{fullShare} f) ∗ (rowL48.view.loc (c : Thread nD τ) ↦[rowL48.view.set]{fullShare} f) ∗ (rowL49.view.loc (c : Thread nD τ) ↦[rowL49.view.set]{fullShare} f) ∗ (rowL50.view.loc (c : Thread nD τ) ↦[rowL50.view.set]{fullShare} f) ∗ (rowL51.view.loc (c : Thread nD τ) ↦[rowL51.view.set]{fullShare} f) ∗ (rowL52.view.loc (c : Thread nD τ) ↦[rowL52.view.set]{fullShare} f) ∗ (rowL53.view.loc (c : Thread nD τ) ↦[rowL53.view.set]{fullShare} f) ∗ (rowL54.view.loc (c : Thread nD τ) ↦[rowL54.view.set]{fullShare} f) ∗ (rowL55.view.loc (c : Thread nD τ) ↦[rowL55.view.set]{fullShare} f) ∗ (rowL56.view.loc (c : Thread nD τ) ↦[rowL56.view.set]{fullShare} f) ∗ (rowL57.view.loc (c : Thread nD τ) ↦[rowL57.view.set]{fullShare} f) ∗ (rowL58.view.loc (c : Thread nD τ) ↦[rowL58.view.set]{fullShare} f) ∗ (rowL59.view.loc (c : Thread nD τ) ↦[rowL59.view.set]{fullShare} f) ∗ (rowL60.view.loc (c : Thread nD τ) ↦[rowL60.view.set]{fullShare} f) ∗ (rowL61.view.loc (c : Thread nD τ) ↦[rowL61.view.set]{fullShare} f) ∗ (rowL62.view.loc (c : Thread nD τ) ↦[rowL62.view.set]{fullShare} f) ∗ (rowL63.view.loc (c : Thread nD τ) ↦[rowL63.view.set]{fullShare} f) ∗ (rowL64.view.loc (c : Thread nD τ) ↦[rowL64.view.set]{fullShare} f) ∗ (rowL65.view.loc (c : Thread nD τ) ↦[rowL65.view.set]{fullShare} f) ∗ (rowL66.view.loc (c : Thread nD τ) ↦[rowL66.view.set]{fullShare} f) ∗ (rowL67.view.loc (c : Thread nD τ) ↦[rowL67.view.set]{fullShare} f) ∗ (rowL68.view.loc (c : Thread nD τ) ↦[rowL68.view.set]{fullShare} f) ∗ (rowL69.view.loc (c : Thread nD τ) ↦[rowL69.view.set]{fullShare} f) ∗ (rowL70.view.loc (c : Thread nD τ) ↦[rowL70.view.set]{fullShare} f) ∗ (rowL71.view.loc (c : Thread nD τ) ↦[rowL71.view.set]{fullShare} f) ∗ (rowL72.view.loc (c : Thread nD τ) ↦[rowL72.view.set]{fullShare} f) ∗ (rowL73.view.loc (c : Thread nD τ) ↦[rowL73.view.set]{fullShare} f) ∗ (rowL74.view.loc (c : Thread nD τ) ↦[rowL74.view.set]{fullShare} f) ∗ (rowL75.view.loc (c : Thread nD τ) ↦[rowL75.view.set]{fullShare} f) ∗ (rowL76.view.loc (c : Thread nD τ) ↦[rowL76.view.set]{fullShare} f) ∗ (rowL77.view.loc (c : Thread nD τ) ↦[rowL77.view.set]{fullShare} f) ∗ (rowL78.view.loc (c : Thread nD τ) ↦[rowL78.view.set]{fullShare} f) ∗ (rowL79.view.loc (c : Thread nD τ) ↦[rowL79.view.set]{fullShare} f) ∗ (rowL80.view.loc (c : Thread nD τ) ↦[rowL80.view.set]{fullShare} f) ∗ (rowL81.view.loc (c : Thread nD τ) ↦[rowL81.view.set]{fullShare} f) ∗ (rowL82.view.loc (c : Thread nD τ) ↦[rowL82.view.set]{fullShare} f) ∗ (rowL83.view.loc (c : Thread nD τ) ↦[rowL83.view.set]{fullShare} f) ∗ (rowL84.view.loc (c : Thread nD τ) ↦[rowL84.view.set]{fullShare} f) ∗ (rowL85.view.loc (c : Thread nD τ) ↦[rowL85.view.set]{fullShare} f) ∗ (rowL86.view.loc (c : Thread nD τ) ↦[rowL86.view.set]{fullShare} f) ∗ (rowL87.view.loc (c : Thread nD τ) ↦[rowL87.view.set]{fullShare} f) ∗ (rowL88.view.loc (c : Thread nD τ) ↦[rowL88.view.set]{fullShare} f) ∗ (rowL89.view.loc (c : Thread nD τ) ↦[rowL89.view.set]{fullShare} f) ∗ (rowL90.view.loc (c : Thread nD τ) ↦[rowL90.view.set]{fullShare} f) ∗ (rowL91.view.loc (c : Thread nD τ) ↦[rowL91.view.set]{fullShare} f) ∗ (rowL92.view.loc (c : Thread nD τ) ↦[rowL92.view.set]{fullShare} f) ∗ (rowL93.view.loc (c : Thread nD τ) ↦[rowL93.view.set]{fullShare} f) ∗ (rowL94.view.loc (c : Thread nD τ) ↦[rowL94.view.set]{fullShare} f) ∗ (rowL95.view.loc (c : Thread nD τ) ↦[rowL95.view.set]{fullShare} f) ∗ (rowL96.view.loc (c : Thread nD τ) ↦[rowL96.view.set]{fullShare} f) ∗ (rowL97.view.loc (c : Thread nD τ) ↦[rowL97.view.set]{fullShare} f) ∗ (rowL98.view.loc (c : Thread nD τ) ↦[rowL98.view.set]{fullShare} f) ∗ (rowL99.view.loc (c : Thread nD τ) ↦[rowL99.view.set]{fullShare} f) ∗ (rowL100.view.loc (c : Thread nD τ) ↦[rowL100.view.set]{fullShare} f) ∗ (rowL101.view.loc (c : Thread nD τ) ↦[rowL101.view.set]{fullShare} f) ∗ (rowL102.view.loc (c : Thread nD τ) ↦[rowL102.view.set]{fullShare} f) ∗ (rowL103.view.loc (c : Thread nD τ) ↦[rowL103.view.set]{fullShare} f) ∗ (rowL104.view.loc (c : Thread nD τ) ↦[rowL104.view.set]{fullShare} f) ∗ (rowL105.view.loc (c : Thread nD τ) ↦[rowL105.view.set]{fullShare} f) ∗ (rowL106.view.loc (c : Thread nD τ) ↦[rowL106.view.set]{fullShare} f) ∗ (rowL107.view.loc (c : Thread nD τ) ↦[rowL107.view.set]{fullShare} f) ∗ (rowL108.view.loc (c : Thread nD τ) ↦[rowL108.view.set]{fullShare} f) ∗ (rowL109.view.loc (c : Thread nD τ) ↦[rowL109.view.set]{fullShare} f) ∗ (rowL110.view.loc (c : Thread nD τ) ↦[rowL110.view.set]{fullShare} f) ∗ (rowL111.view.loc (c : Thread nD τ) ↦[rowL111.view.set]{fullShare} f) ∗ (rowL112.view.loc (c : Thread nD τ) ↦[rowL112.view.set]{fullShare} f) ∗ (rowL113.view.loc (c : Thread nD τ) ↦[rowL113.view.set]{fullShare} f) ∗ (rowL114.view.loc (c : Thread nD τ) ↦[rowL114.view.set]{fullShare} f) ∗ (rowL115.view.loc (c : Thread nD τ) ↦[rowL115.view.set]{fullShare} f) ∗ (rowL116.view.loc (c : Thread nD τ) ↦[rowL116.view.set]{fullShare} f) ∗ (rowL117.view.loc (c : Thread nD τ) ↦[rowL117.view.set]{fullShare} f) ∗ (rowL118.view.loc (c : Thread nD τ) ↦[rowL118.view.set]{fullShare} f) ∗ (rowL119.view.loc (c : Thread nD τ) ↦[rowL119.view.set]{fullShare} f) ∗ (rowL120.view.loc (c : Thread nD τ) ↦[rowL120.view.set]{fullShare} f) ∗ (rowL121.view.loc (c : Thread nD τ) ↦[rowL121.view.set]{fullShare} f) ∗ (rowL122.view.loc (c : Thread nD τ) ↦[rowL122.view.set]{fullShare} f) ∗ (rowL123.view.loc (c : Thread nD τ) ↦[rowL123.view.set]{fullShare} f) ∗ (rowL124.view.loc (c : Thread nD τ) ↦[rowL124.view.set]{fullShare} f) ∗ (rowL125.view.loc (c : Thread nD τ) ↦[rowL125.view.set]{fullShare} f) ∗ (rowL126.view.loc (c : Thread nD τ) ↦[rowL126.view.set]{fullShare} f) ∗ (rowL127.view.loc (c : Thread nD τ) ↦[rowL127.view.set]{fullShare} f)) :=
  Entails.of_eq ((rows_split c f).trans (by rw [BI.bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] (by decide) (by decide)]; rfl))

/-- The 128 row payloads as one family. -/
abbrev rowFam (p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 p64 p65 p66 p67 p68 p69 p70 p71 p72 p73 p74 p75 p76 p77 p78 p79 p80 p81 p82 p83 p84 p85 p86 p87 p88 p89 p90 p91 p92 p93 p94 p95 p96 p97 p98 p99 p100 p101 p102 p103 p104 p105 p106 p107 p108 p109 p110 p111 p112 p113 p114 p115 p116 p117 p118 p119 p120 p121 p122 p123 p124 p125 p126 p127 : S8x1024.Idx → Elt F .f32) : Fin 128 → S8x1024.Idx → Elt F .f32 := fun t => (![p0, p1, p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127] : Fin 128 → S8x1024.Idx → Elt F .f32) t

set_option maxHeartbeats 40000000 in
/-- The 128 rows, each holding one whole-row piece (its payload) written over one base, are the scratch at its closed form. -/
theorem rows_join_lit (c : Dev nD) (f : Buf (Elt F) (scM.view.loc (c : Thread nD τ))) (p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 p64 p65 p66 p67 p68 p69 p70 p71 p72 p73 p74 p75 p76 p77 p78 p79 p80 p81 p82 p83 p84 p85 p86 p87 p88 p89 p90 p91 p92 p93 p94 p95 p96 p97 p98 p99 p100 p101 p102 p103 p104 p105 p106 p107 p108 p109 p110 p111 p112 p113 p114 p115 p116 p117 p118 p119 p120 p121 p122 p123 p124 p125 p126 p127 : S8x1024.Idx → Elt F .f32) :
    iprop((rowL0.view.loc (c : Thread nD τ) ↦[rowL0.view.set]{fullShare} (rowL0.view.writes (Elt F) f [⟨Rect.whole S8x1024, p0⟩])) ∗ (rowL1.view.loc (c : Thread nD τ) ↦[rowL1.view.set]{fullShare} (rowL1.view.writes (Elt F) f [⟨Rect.whole S8x1024, p1⟩])) ∗ (rowL2.view.loc (c : Thread nD τ) ↦[rowL2.view.set]{fullShare} (rowL2.view.writes (Elt F) f [⟨Rect.whole S8x1024, p2⟩])) ∗ (rowL3.view.loc (c : Thread nD τ) ↦[rowL3.view.set]{fullShare} (rowL3.view.writes (Elt F) f [⟨Rect.whole S8x1024, p3⟩])) ∗ (rowL4.view.loc (c : Thread nD τ) ↦[rowL4.view.set]{fullShare} (rowL4.view.writes (Elt F) f [⟨Rect.whole S8x1024, p4⟩])) ∗ (rowL5.view.loc (c : Thread nD τ) ↦[rowL5.view.set]{fullShare} (rowL5.view.writes (Elt F) f [⟨Rect.whole S8x1024, p5⟩])) ∗ (rowL6.view.loc (c : Thread nD τ) ↦[rowL6.view.set]{fullShare} (rowL6.view.writes (Elt F) f [⟨Rect.whole S8x1024, p6⟩])) ∗ (rowL7.view.loc (c : Thread nD τ) ↦[rowL7.view.set]{fullShare} (rowL7.view.writes (Elt F) f [⟨Rect.whole S8x1024, p7⟩])) ∗ (rowL8.view.loc (c : Thread nD τ) ↦[rowL8.view.set]{fullShare} (rowL8.view.writes (Elt F) f [⟨Rect.whole S8x1024, p8⟩])) ∗ (rowL9.view.loc (c : Thread nD τ) ↦[rowL9.view.set]{fullShare} (rowL9.view.writes (Elt F) f [⟨Rect.whole S8x1024, p9⟩])) ∗ (rowL10.view.loc (c : Thread nD τ) ↦[rowL10.view.set]{fullShare} (rowL10.view.writes (Elt F) f [⟨Rect.whole S8x1024, p10⟩])) ∗ (rowL11.view.loc (c : Thread nD τ) ↦[rowL11.view.set]{fullShare} (rowL11.view.writes (Elt F) f [⟨Rect.whole S8x1024, p11⟩])) ∗ (rowL12.view.loc (c : Thread nD τ) ↦[rowL12.view.set]{fullShare} (rowL12.view.writes (Elt F) f [⟨Rect.whole S8x1024, p12⟩])) ∗ (rowL13.view.loc (c : Thread nD τ) ↦[rowL13.view.set]{fullShare} (rowL13.view.writes (Elt F) f [⟨Rect.whole S8x1024, p13⟩])) ∗ (rowL14.view.loc (c : Thread nD τ) ↦[rowL14.view.set]{fullShare} (rowL14.view.writes (Elt F) f [⟨Rect.whole S8x1024, p14⟩])) ∗ (rowL15.view.loc (c : Thread nD τ) ↦[rowL15.view.set]{fullShare} (rowL15.view.writes (Elt F) f [⟨Rect.whole S8x1024, p15⟩])) ∗ (rowL16.view.loc (c : Thread nD τ) ↦[rowL16.view.set]{fullShare} (rowL16.view.writes (Elt F) f [⟨Rect.whole S8x1024, p16⟩])) ∗ (rowL17.view.loc (c : Thread nD τ) ↦[rowL17.view.set]{fullShare} (rowL17.view.writes (Elt F) f [⟨Rect.whole S8x1024, p17⟩])) ∗ (rowL18.view.loc (c : Thread nD τ) ↦[rowL18.view.set]{fullShare} (rowL18.view.writes (Elt F) f [⟨Rect.whole S8x1024, p18⟩])) ∗ (rowL19.view.loc (c : Thread nD τ) ↦[rowL19.view.set]{fullShare} (rowL19.view.writes (Elt F) f [⟨Rect.whole S8x1024, p19⟩])) ∗ (rowL20.view.loc (c : Thread nD τ) ↦[rowL20.view.set]{fullShare} (rowL20.view.writes (Elt F) f [⟨Rect.whole S8x1024, p20⟩])) ∗ (rowL21.view.loc (c : Thread nD τ) ↦[rowL21.view.set]{fullShare} (rowL21.view.writes (Elt F) f [⟨Rect.whole S8x1024, p21⟩])) ∗ (rowL22.view.loc (c : Thread nD τ) ↦[rowL22.view.set]{fullShare} (rowL22.view.writes (Elt F) f [⟨Rect.whole S8x1024, p22⟩])) ∗ (rowL23.view.loc (c : Thread nD τ) ↦[rowL23.view.set]{fullShare} (rowL23.view.writes (Elt F) f [⟨Rect.whole S8x1024, p23⟩])) ∗ (rowL24.view.loc (c : Thread nD τ) ↦[rowL24.view.set]{fullShare} (rowL24.view.writes (Elt F) f [⟨Rect.whole S8x1024, p24⟩])) ∗ (rowL25.view.loc (c : Thread nD τ) ↦[rowL25.view.set]{fullShare} (rowL25.view.writes (Elt F) f [⟨Rect.whole S8x1024, p25⟩])) ∗ (rowL26.view.loc (c : Thread nD τ) ↦[rowL26.view.set]{fullShare} (rowL26.view.writes (Elt F) f [⟨Rect.whole S8x1024, p26⟩])) ∗ (rowL27.view.loc (c : Thread nD τ) ↦[rowL27.view.set]{fullShare} (rowL27.view.writes (Elt F) f [⟨Rect.whole S8x1024, p27⟩])) ∗ (rowL28.view.loc (c : Thread nD τ) ↦[rowL28.view.set]{fullShare} (rowL28.view.writes (Elt F) f [⟨Rect.whole S8x1024, p28⟩])) ∗ (rowL29.view.loc (c : Thread nD τ) ↦[rowL29.view.set]{fullShare} (rowL29.view.writes (Elt F) f [⟨Rect.whole S8x1024, p29⟩])) ∗ (rowL30.view.loc (c : Thread nD τ) ↦[rowL30.view.set]{fullShare} (rowL30.view.writes (Elt F) f [⟨Rect.whole S8x1024, p30⟩])) ∗ (rowL31.view.loc (c : Thread nD τ) ↦[rowL31.view.set]{fullShare} (rowL31.view.writes (Elt F) f [⟨Rect.whole S8x1024, p31⟩])) ∗ (rowL32.view.loc (c : Thread nD τ) ↦[rowL32.view.set]{fullShare} (rowL32.view.writes (Elt F) f [⟨Rect.whole S8x1024, p32⟩])) ∗ (rowL33.view.loc (c : Thread nD τ) ↦[rowL33.view.set]{fullShare} (rowL33.view.writes (Elt F) f [⟨Rect.whole S8x1024, p33⟩])) ∗ (rowL34.view.loc (c : Thread nD τ) ↦[rowL34.view.set]{fullShare} (rowL34.view.writes (Elt F) f [⟨Rect.whole S8x1024, p34⟩])) ∗ (rowL35.view.loc (c : Thread nD τ) ↦[rowL35.view.set]{fullShare} (rowL35.view.writes (Elt F) f [⟨Rect.whole S8x1024, p35⟩])) ∗ (rowL36.view.loc (c : Thread nD τ) ↦[rowL36.view.set]{fullShare} (rowL36.view.writes (Elt F) f [⟨Rect.whole S8x1024, p36⟩])) ∗ (rowL37.view.loc (c : Thread nD τ) ↦[rowL37.view.set]{fullShare} (rowL37.view.writes (Elt F) f [⟨Rect.whole S8x1024, p37⟩])) ∗ (rowL38.view.loc (c : Thread nD τ) ↦[rowL38.view.set]{fullShare} (rowL38.view.writes (Elt F) f [⟨Rect.whole S8x1024, p38⟩])) ∗ (rowL39.view.loc (c : Thread nD τ) ↦[rowL39.view.set]{fullShare} (rowL39.view.writes (Elt F) f [⟨Rect.whole S8x1024, p39⟩])) ∗ (rowL40.view.loc (c : Thread nD τ) ↦[rowL40.view.set]{fullShare} (rowL40.view.writes (Elt F) f [⟨Rect.whole S8x1024, p40⟩])) ∗ (rowL41.view.loc (c : Thread nD τ) ↦[rowL41.view.set]{fullShare} (rowL41.view.writes (Elt F) f [⟨Rect.whole S8x1024, p41⟩])) ∗ (rowL42.view.loc (c : Thread nD τ) ↦[rowL42.view.set]{fullShare} (rowL42.view.writes (Elt F) f [⟨Rect.whole S8x1024, p42⟩])) ∗ (rowL43.view.loc (c : Thread nD τ) ↦[rowL43.view.set]{fullShare} (rowL43.view.writes (Elt F) f [⟨Rect.whole S8x1024, p43⟩])) ∗ (rowL44.view.loc (c : Thread nD τ) ↦[rowL44.view.set]{fullShare} (rowL44.view.writes (Elt F) f [⟨Rect.whole S8x1024, p44⟩])) ∗ (rowL45.view.loc (c : Thread nD τ) ↦[rowL45.view.set]{fullShare} (rowL45.view.writes (Elt F) f [⟨Rect.whole S8x1024, p45⟩])) ∗ (rowL46.view.loc (c : Thread nD τ) ↦[rowL46.view.set]{fullShare} (rowL46.view.writes (Elt F) f [⟨Rect.whole S8x1024, p46⟩])) ∗ (rowL47.view.loc (c : Thread nD τ) ↦[rowL47.view.set]{fullShare} (rowL47.view.writes (Elt F) f [⟨Rect.whole S8x1024, p47⟩])) ∗ (rowL48.view.loc (c : Thread nD τ) ↦[rowL48.view.set]{fullShare} (rowL48.view.writes (Elt F) f [⟨Rect.whole S8x1024, p48⟩])) ∗ (rowL49.view.loc (c : Thread nD τ) ↦[rowL49.view.set]{fullShare} (rowL49.view.writes (Elt F) f [⟨Rect.whole S8x1024, p49⟩])) ∗ (rowL50.view.loc (c : Thread nD τ) ↦[rowL50.view.set]{fullShare} (rowL50.view.writes (Elt F) f [⟨Rect.whole S8x1024, p50⟩])) ∗ (rowL51.view.loc (c : Thread nD τ) ↦[rowL51.view.set]{fullShare} (rowL51.view.writes (Elt F) f [⟨Rect.whole S8x1024, p51⟩])) ∗ (rowL52.view.loc (c : Thread nD τ) ↦[rowL52.view.set]{fullShare} (rowL52.view.writes (Elt F) f [⟨Rect.whole S8x1024, p52⟩])) ∗ (rowL53.view.loc (c : Thread nD τ) ↦[rowL53.view.set]{fullShare} (rowL53.view.writes (Elt F) f [⟨Rect.whole S8x1024, p53⟩])) ∗ (rowL54.view.loc (c : Thread nD τ) ↦[rowL54.view.set]{fullShare} (rowL54.view.writes (Elt F) f [⟨Rect.whole S8x1024, p54⟩])) ∗ (rowL55.view.loc (c : Thread nD τ) ↦[rowL55.view.set]{fullShare} (rowL55.view.writes (Elt F) f [⟨Rect.whole S8x1024, p55⟩])) ∗ (rowL56.view.loc (c : Thread nD τ) ↦[rowL56.view.set]{fullShare} (rowL56.view.writes (Elt F) f [⟨Rect.whole S8x1024, p56⟩])) ∗ (rowL57.view.loc (c : Thread nD τ) ↦[rowL57.view.set]{fullShare} (rowL57.view.writes (Elt F) f [⟨Rect.whole S8x1024, p57⟩])) ∗ (rowL58.view.loc (c : Thread nD τ) ↦[rowL58.view.set]{fullShare} (rowL58.view.writes (Elt F) f [⟨Rect.whole S8x1024, p58⟩])) ∗ (rowL59.view.loc (c : Thread nD τ) ↦[rowL59.view.set]{fullShare} (rowL59.view.writes (Elt F) f [⟨Rect.whole S8x1024, p59⟩])) ∗ (rowL60.view.loc (c : Thread nD τ) ↦[rowL60.view.set]{fullShare} (rowL60.view.writes (Elt F) f [⟨Rect.whole S8x1024, p60⟩])) ∗ (rowL61.view.loc (c : Thread nD τ) ↦[rowL61.view.set]{fullShare} (rowL61.view.writes (Elt F) f [⟨Rect.whole S8x1024, p61⟩])) ∗ (rowL62.view.loc (c : Thread nD τ) ↦[rowL62.view.set]{fullShare} (rowL62.view.writes (Elt F) f [⟨Rect.whole S8x1024, p62⟩])) ∗ (rowL63.view.loc (c : Thread nD τ) ↦[rowL63.view.set]{fullShare} (rowL63.view.writes (Elt F) f [⟨Rect.whole S8x1024, p63⟩])) ∗ (rowL64.view.loc (c : Thread nD τ) ↦[rowL64.view.set]{fullShare} (rowL64.view.writes (Elt F) f [⟨Rect.whole S8x1024, p64⟩])) ∗ (rowL65.view.loc (c : Thread nD τ) ↦[rowL65.view.set]{fullShare} (rowL65.view.writes (Elt F) f [⟨Rect.whole S8x1024, p65⟩])) ∗ (rowL66.view.loc (c : Thread nD τ) ↦[rowL66.view.set]{fullShare} (rowL66.view.writes (Elt F) f [⟨Rect.whole S8x1024, p66⟩])) ∗ (rowL67.view.loc (c : Thread nD τ) ↦[rowL67.view.set]{fullShare} (rowL67.view.writes (Elt F) f [⟨Rect.whole S8x1024, p67⟩])) ∗ (rowL68.view.loc (c : Thread nD τ) ↦[rowL68.view.set]{fullShare} (rowL68.view.writes (Elt F) f [⟨Rect.whole S8x1024, p68⟩])) ∗ (rowL69.view.loc (c : Thread nD τ) ↦[rowL69.view.set]{fullShare} (rowL69.view.writes (Elt F) f [⟨Rect.whole S8x1024, p69⟩])) ∗ (rowL70.view.loc (c : Thread nD τ) ↦[rowL70.view.set]{fullShare} (rowL70.view.writes (Elt F) f [⟨Rect.whole S8x1024, p70⟩])) ∗ (rowL71.view.loc (c : Thread nD τ) ↦[rowL71.view.set]{fullShare} (rowL71.view.writes (Elt F) f [⟨Rect.whole S8x1024, p71⟩])) ∗ (rowL72.view.loc (c : Thread nD τ) ↦[rowL72.view.set]{fullShare} (rowL72.view.writes (Elt F) f [⟨Rect.whole S8x1024, p72⟩])) ∗ (rowL73.view.loc (c : Thread nD τ) ↦[rowL73.view.set]{fullShare} (rowL73.view.writes (Elt F) f [⟨Rect.whole S8x1024, p73⟩])) ∗ (rowL74.view.loc (c : Thread nD τ) ↦[rowL74.view.set]{fullShare} (rowL74.view.writes (Elt F) f [⟨Rect.whole S8x1024, p74⟩])) ∗ (rowL75.view.loc (c : Thread nD τ) ↦[rowL75.view.set]{fullShare} (rowL75.view.writes (Elt F) f [⟨Rect.whole S8x1024, p75⟩])) ∗ (rowL76.view.loc (c : Thread nD τ) ↦[rowL76.view.set]{fullShare} (rowL76.view.writes (Elt F) f [⟨Rect.whole S8x1024, p76⟩])) ∗ (rowL77.view.loc (c : Thread nD τ) ↦[rowL77.view.set]{fullShare} (rowL77.view.writes (Elt F) f [⟨Rect.whole S8x1024, p77⟩])) ∗ (rowL78.view.loc (c : Thread nD τ) ↦[rowL78.view.set]{fullShare} (rowL78.view.writes (Elt F) f [⟨Rect.whole S8x1024, p78⟩])) ∗ (rowL79.view.loc (c : Thread nD τ) ↦[rowL79.view.set]{fullShare} (rowL79.view.writes (Elt F) f [⟨Rect.whole S8x1024, p79⟩])) ∗ (rowL80.view.loc (c : Thread nD τ) ↦[rowL80.view.set]{fullShare} (rowL80.view.writes (Elt F) f [⟨Rect.whole S8x1024, p80⟩])) ∗ (rowL81.view.loc (c : Thread nD τ) ↦[rowL81.view.set]{fullShare} (rowL81.view.writes (Elt F) f [⟨Rect.whole S8x1024, p81⟩])) ∗ (rowL82.view.loc (c : Thread nD τ) ↦[rowL82.view.set]{fullShare} (rowL82.view.writes (Elt F) f [⟨Rect.whole S8x1024, p82⟩])) ∗ (rowL83.view.loc (c : Thread nD τ) ↦[rowL83.view.set]{fullShare} (rowL83.view.writes (Elt F) f [⟨Rect.whole S8x1024, p83⟩])) ∗ (rowL84.view.loc (c : Thread nD τ) ↦[rowL84.view.set]{fullShare} (rowL84.view.writes (Elt F) f [⟨Rect.whole S8x1024, p84⟩])) ∗ (rowL85.view.loc (c : Thread nD τ) ↦[rowL85.view.set]{fullShare} (rowL85.view.writes (Elt F) f [⟨Rect.whole S8x1024, p85⟩])) ∗ (rowL86.view.loc (c : Thread nD τ) ↦[rowL86.view.set]{fullShare} (rowL86.view.writes (Elt F) f [⟨Rect.whole S8x1024, p86⟩])) ∗ (rowL87.view.loc (c : Thread nD τ) ↦[rowL87.view.set]{fullShare} (rowL87.view.writes (Elt F) f [⟨Rect.whole S8x1024, p87⟩])) ∗ (rowL88.view.loc (c : Thread nD τ) ↦[rowL88.view.set]{fullShare} (rowL88.view.writes (Elt F) f [⟨Rect.whole S8x1024, p88⟩])) ∗ (rowL89.view.loc (c : Thread nD τ) ↦[rowL89.view.set]{fullShare} (rowL89.view.writes (Elt F) f [⟨Rect.whole S8x1024, p89⟩])) ∗ (rowL90.view.loc (c : Thread nD τ) ↦[rowL90.view.set]{fullShare} (rowL90.view.writes (Elt F) f [⟨Rect.whole S8x1024, p90⟩])) ∗ (rowL91.view.loc (c : Thread nD τ) ↦[rowL91.view.set]{fullShare} (rowL91.view.writes (Elt F) f [⟨Rect.whole S8x1024, p91⟩])) ∗ (rowL92.view.loc (c : Thread nD τ) ↦[rowL92.view.set]{fullShare} (rowL92.view.writes (Elt F) f [⟨Rect.whole S8x1024, p92⟩])) ∗ (rowL93.view.loc (c : Thread nD τ) ↦[rowL93.view.set]{fullShare} (rowL93.view.writes (Elt F) f [⟨Rect.whole S8x1024, p93⟩])) ∗ (rowL94.view.loc (c : Thread nD τ) ↦[rowL94.view.set]{fullShare} (rowL94.view.writes (Elt F) f [⟨Rect.whole S8x1024, p94⟩])) ∗ (rowL95.view.loc (c : Thread nD τ) ↦[rowL95.view.set]{fullShare} (rowL95.view.writes (Elt F) f [⟨Rect.whole S8x1024, p95⟩])) ∗ (rowL96.view.loc (c : Thread nD τ) ↦[rowL96.view.set]{fullShare} (rowL96.view.writes (Elt F) f [⟨Rect.whole S8x1024, p96⟩])) ∗ (rowL97.view.loc (c : Thread nD τ) ↦[rowL97.view.set]{fullShare} (rowL97.view.writes (Elt F) f [⟨Rect.whole S8x1024, p97⟩])) ∗ (rowL98.view.loc (c : Thread nD τ) ↦[rowL98.view.set]{fullShare} (rowL98.view.writes (Elt F) f [⟨Rect.whole S8x1024, p98⟩])) ∗ (rowL99.view.loc (c : Thread nD τ) ↦[rowL99.view.set]{fullShare} (rowL99.view.writes (Elt F) f [⟨Rect.whole S8x1024, p99⟩])) ∗ (rowL100.view.loc (c : Thread nD τ) ↦[rowL100.view.set]{fullShare} (rowL100.view.writes (Elt F) f [⟨Rect.whole S8x1024, p100⟩])) ∗ (rowL101.view.loc (c : Thread nD τ) ↦[rowL101.view.set]{fullShare} (rowL101.view.writes (Elt F) f [⟨Rect.whole S8x1024, p101⟩])) ∗ (rowL102.view.loc (c : Thread nD τ) ↦[rowL102.view.set]{fullShare} (rowL102.view.writes (Elt F) f [⟨Rect.whole S8x1024, p102⟩])) ∗ (rowL103.view.loc (c : Thread nD τ) ↦[rowL103.view.set]{fullShare} (rowL103.view.writes (Elt F) f [⟨Rect.whole S8x1024, p103⟩])) ∗ (rowL104.view.loc (c : Thread nD τ) ↦[rowL104.view.set]{fullShare} (rowL104.view.writes (Elt F) f [⟨Rect.whole S8x1024, p104⟩])) ∗ (rowL105.view.loc (c : Thread nD τ) ↦[rowL105.view.set]{fullShare} (rowL105.view.writes (Elt F) f [⟨Rect.whole S8x1024, p105⟩])) ∗ (rowL106.view.loc (c : Thread nD τ) ↦[rowL106.view.set]{fullShare} (rowL106.view.writes (Elt F) f [⟨Rect.whole S8x1024, p106⟩])) ∗ (rowL107.view.loc (c : Thread nD τ) ↦[rowL107.view.set]{fullShare} (rowL107.view.writes (Elt F) f [⟨Rect.whole S8x1024, p107⟩])) ∗ (rowL108.view.loc (c : Thread nD τ) ↦[rowL108.view.set]{fullShare} (rowL108.view.writes (Elt F) f [⟨Rect.whole S8x1024, p108⟩])) ∗ (rowL109.view.loc (c : Thread nD τ) ↦[rowL109.view.set]{fullShare} (rowL109.view.writes (Elt F) f [⟨Rect.whole S8x1024, p109⟩])) ∗ (rowL110.view.loc (c : Thread nD τ) ↦[rowL110.view.set]{fullShare} (rowL110.view.writes (Elt F) f [⟨Rect.whole S8x1024, p110⟩])) ∗ (rowL111.view.loc (c : Thread nD τ) ↦[rowL111.view.set]{fullShare} (rowL111.view.writes (Elt F) f [⟨Rect.whole S8x1024, p111⟩])) ∗ (rowL112.view.loc (c : Thread nD τ) ↦[rowL112.view.set]{fullShare} (rowL112.view.writes (Elt F) f [⟨Rect.whole S8x1024, p112⟩])) ∗ (rowL113.view.loc (c : Thread nD τ) ↦[rowL113.view.set]{fullShare} (rowL113.view.writes (Elt F) f [⟨Rect.whole S8x1024, p113⟩])) ∗ (rowL114.view.loc (c : Thread nD τ) ↦[rowL114.view.set]{fullShare} (rowL114.view.writes (Elt F) f [⟨Rect.whole S8x1024, p114⟩])) ∗ (rowL115.view.loc (c : Thread nD τ) ↦[rowL115.view.set]{fullShare} (rowL115.view.writes (Elt F) f [⟨Rect.whole S8x1024, p115⟩])) ∗ (rowL116.view.loc (c : Thread nD τ) ↦[rowL116.view.set]{fullShare} (rowL116.view.writes (Elt F) f [⟨Rect.whole S8x1024, p116⟩])) ∗ (rowL117.view.loc (c : Thread nD τ) ↦[rowL117.view.set]{fullShare} (rowL117.view.writes (Elt F) f [⟨Rect.whole S8x1024, p117⟩])) ∗ (rowL118.view.loc (c : Thread nD τ) ↦[rowL118.view.set]{fullShare} (rowL118.view.writes (Elt F) f [⟨Rect.whole S8x1024, p118⟩])) ∗ (rowL119.view.loc (c : Thread nD τ) ↦[rowL119.view.set]{fullShare} (rowL119.view.writes (Elt F) f [⟨Rect.whole S8x1024, p119⟩])) ∗ (rowL120.view.loc (c : Thread nD τ) ↦[rowL120.view.set]{fullShare} (rowL120.view.writes (Elt F) f [⟨Rect.whole S8x1024, p120⟩])) ∗ (rowL121.view.loc (c : Thread nD τ) ↦[rowL121.view.set]{fullShare} (rowL121.view.writes (Elt F) f [⟨Rect.whole S8x1024, p121⟩])) ∗ (rowL122.view.loc (c : Thread nD τ) ↦[rowL122.view.set]{fullShare} (rowL122.view.writes (Elt F) f [⟨Rect.whole S8x1024, p122⟩])) ∗ (rowL123.view.loc (c : Thread nD τ) ↦[rowL123.view.set]{fullShare} (rowL123.view.writes (Elt F) f [⟨Rect.whole S8x1024, p123⟩])) ∗ (rowL124.view.loc (c : Thread nD τ) ↦[rowL124.view.set]{fullShare} (rowL124.view.writes (Elt F) f [⟨Rect.whole S8x1024, p124⟩])) ∗ (rowL125.view.loc (c : Thread nD τ) ↦[rowL125.view.set]{fullShare} (rowL125.view.writes (Elt F) f [⟨Rect.whole S8x1024, p125⟩])) ∗ (rowL126.view.loc (c : Thread nD τ) ↦[rowL126.view.set]{fullShare} (rowL126.view.writes (Elt F) f [⟨Rect.whole S8x1024, p126⟩])) ∗ (rowL127.view.loc (c : Thread nD τ) ↦[rowL127.view.set]{fullShare} (rowL127.view.writes (Elt F) f [⟨Rect.whole S8x1024, p127⟩]))) ⊢ (scM.view.loc (c : Thread nD τ) ↦[scM.view.set]{fullShare} filled c (rowFam p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 p64 p65 p66 p67 p68 p69 p70 p71 p72 p73 p74 p75 p76 p77 p78 p79 p80 p81 p82 p83 p84 p85 p86 p87 p88 p89 p90 p91 p92 p93 p94 p95 p96 p97 p98 p99 p100 p101 p102 p103 p104 p105 p106 p107 p108 p109 p110 p111 p112 p113 p114 p115 p116 p117 p118 p119 p120 p121 p122 p123 p124 p125 p126 p127) : sProp 𝕄) :=
  Entails.of_eq ((by rw [BI.bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] (by decide) (by decide)]; rfl : _ = bigSep Finset.univ fun t : Fin 128 => ((rowG t).view.loc (c : Thread nD τ) ↦[(rowG t).view.set]{fullShare} (rowG t).view.writes (Elt F) f [⟨Rect.whole S8x1024, rowFam p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 p64 p65 p66 p67 p68 p69 p70 p71 p72 p73 p74 p75 p76 p77 p78 p79 p80 p81 p82 p83 p84 p85 p86 p87 p88 p89 p90 p91 p92 p93 p94 p95 p96 p97 p98 p99 p100 p101 p102 p103 p104 p105 p106 p107 p108 p109 p110 p111 p112 p113 p114 p115 p116 p117 p118 p119 p120 p121 p122 p123 p124 p125 p126 p127 t⟩])).trans (rows_join_filled_writes c f (rowFam p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 p64 p65 p66 p67 p68 p69 p70 p71 p72 p73 p74 p75 p76 p77 p78 p79 p80 p81 p82 p83 p84 p85 p86 p87 p88 p89 p90 p91 p92 p93 p94 p95 p96 p97 p98 p99 p100 p101 p102 p103 p104 p105 p106 p107 p108 p109 p110 p111 p112 p113 p114 p115 p116 p117 p118 p119 p120 p121 p122 p123 p124 p125 p126 p127)))

set_option hygiene false in
/-- Name the 128 rows `Hr0 … Hr127` out of `HR`. -/
macro "rows_cases" : tactic => `(tactic| icases HR with ⟨Hr0, Hr1, Hr2, Hr3, Hr4, Hr5, Hr6, Hr7, Hr8, Hr9, Hr10, Hr11, Hr12, Hr13, Hr14, Hr15, Hr16, Hr17, Hr18, Hr19, Hr20, Hr21, Hr22, Hr23, Hr24, Hr25, Hr26, Hr27, Hr28, Hr29, Hr30, Hr31, Hr32, Hr33, Hr34, Hr35, Hr36, Hr37, Hr38, Hr39, Hr40, Hr41, Hr42, Hr43, Hr44, Hr45, Hr46, Hr47, Hr48, Hr49, Hr50, Hr51, Hr52, Hr53, Hr54, Hr55, Hr56, Hr57, Hr58, Hr59, Hr60, Hr61, Hr62, Hr63, Hr64, Hr65, Hr66, Hr67, Hr68, Hr69, Hr70, Hr71, Hr72, Hr73, Hr74, Hr75, Hr76, Hr77, Hr78, Hr79, Hr80, Hr81, Hr82, Hr83, Hr84, Hr85, Hr86, Hr87, Hr88, Hr89, Hr90, Hr91, Hr92, Hr93, Hr94, Hr95, Hr96, Hr97, Hr98, Hr99, Hr100, Hr101, Hr102, Hr103, Hr104, Hr105, Hr106, Hr107, Hr108, Hr109, Hr110, Hr111, Hr112, Hr113, Hr114, Hr115, Hr116, Hr117, Hr118, Hr119, Hr120, Hr121, Hr122, Hr123, Hr124, Hr125, Hr126, Hr127⟩)

set_option hygiene false in
/-- Join the 128 written rows into the scratch `HS0`, the payloads read off the rows' hypotheses. -/
macro "rows_join" : tactic => `(tactic| ihave HS0 := (rows_join_lit c fs0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [Hr0 Hr1 Hr2 Hr3 Hr4 Hr5 Hr6 Hr7 Hr8 Hr9 Hr10 Hr11 Hr12 Hr13 Hr14 Hr15 Hr16 Hr17 Hr18 Hr19 Hr20 Hr21 Hr22 Hr23 Hr24 Hr25 Hr26 Hr27 Hr28 Hr29 Hr30 Hr31 Hr32 Hr33 Hr34 Hr35 Hr36 Hr37 Hr38 Hr39 Hr40 Hr41 Hr42 Hr43 Hr44 Hr45 Hr46 Hr47 Hr48 Hr49 Hr50 Hr51 Hr52 Hr53 Hr54 Hr55 Hr56 Hr57 Hr58 Hr59 Hr60 Hr61 Hr62 Hr63 Hr64 Hr65 Hr66 Hr67 Hr68 Hr69 Hr70 Hr71 Hr72 Hr73 Hr74 Hr75 Hr76 Hr77 Hr78 Hr79 Hr80 Hr81 Hr82 Hr83 Hr84 Hr85 Hr86 Hr87 Hr88 Hr89 Hr90 Hr91 Hr92 Hr93 Hr94 Hr95 Hr96 Hr97 Hr98 Hr99 Hr100 Hr101 Hr102 Hr103 Hr104 Hr105 Hr106 Hr107 Hr108 Hr109 Hr110 Hr111 Hr112 Hr113 Hr114 Hr115 Hr116 Hr117 Hr118 Hr119 Hr120 Hr121 Hr122 Hr123 Hr124 Hr125 Hr126 Hr127])

set_option hygiene false in
/-- Hand the 128 rows over, in order. -/
macro "rows_back" : tactic => `(tactic| (
  isplitl [Hr0]
  · iexact Hr0
  isplitl [Hr1]
  · iexact Hr1
  isplitl [Hr2]
  · iexact Hr2
  isplitl [Hr3]
  · iexact Hr3
  isplitl [Hr4]
  · iexact Hr4
  isplitl [Hr5]
  · iexact Hr5
  isplitl [Hr6]
  · iexact Hr6
  isplitl [Hr7]
  · iexact Hr7
  isplitl [Hr8]
  · iexact Hr8
  isplitl [Hr9]
  · iexact Hr9
  isplitl [Hr10]
  · iexact Hr10
  isplitl [Hr11]
  · iexact Hr11
  isplitl [Hr12]
  · iexact Hr12
  isplitl [Hr13]
  · iexact Hr13
  isplitl [Hr14]
  · iexact Hr14
  isplitl [Hr15]
  · iexact Hr15
  isplitl [Hr16]
  · iexact Hr16
  isplitl [Hr17]
  · iexact Hr17
  isplitl [Hr18]
  · iexact Hr18
  isplitl [Hr19]
  · iexact Hr19
  isplitl [Hr20]
  · iexact Hr20
  isplitl [Hr21]
  · iexact Hr21
  isplitl [Hr22]
  · iexact Hr22
  isplitl [Hr23]
  · iexact Hr23
  isplitl [Hr24]
  · iexact Hr24
  isplitl [Hr25]
  · iexact Hr25
  isplitl [Hr26]
  · iexact Hr26
  isplitl [Hr27]
  · iexact Hr27
  isplitl [Hr28]
  · iexact Hr28
  isplitl [Hr29]
  · iexact Hr29
  isplitl [Hr30]
  · iexact Hr30
  isplitl [Hr31]
  · iexact Hr31
  isplitl [Hr32]
  · iexact Hr32
  isplitl [Hr33]
  · iexact Hr33
  isplitl [Hr34]
  · iexact Hr34
  isplitl [Hr35]
  · iexact Hr35
  isplitl [Hr36]
  · iexact Hr36
  isplitl [Hr37]
  · iexact Hr37
  isplitl [Hr38]
  · iexact Hr38
  isplitl [Hr39]
  · iexact Hr39
  isplitl [Hr40]
  · iexact Hr40
  isplitl [Hr41]
  · iexact Hr41
  isplitl [Hr42]
  · iexact Hr42
  isplitl [Hr43]
  · iexact Hr43
  isplitl [Hr44]
  · iexact Hr44
  isplitl [Hr45]
  · iexact Hr45
  isplitl [Hr46]
  · iexact Hr46
  isplitl [Hr47]
  · iexact Hr47
  isplitl [Hr48]
  · iexact Hr48
  isplitl [Hr49]
  · iexact Hr49
  isplitl [Hr50]
  · iexact Hr50
  isplitl [Hr51]
  · iexact Hr51
  isplitl [Hr52]
  · iexact Hr52
  isplitl [Hr53]
  · iexact Hr53
  isplitl [Hr54]
  · iexact Hr54
  isplitl [Hr55]
  · iexact Hr55
  isplitl [Hr56]
  · iexact Hr56
  isplitl [Hr57]
  · iexact Hr57
  isplitl [Hr58]
  · iexact Hr58
  isplitl [Hr59]
  · iexact Hr59
  isplitl [Hr60]
  · iexact Hr60
  isplitl [Hr61]
  · iexact Hr61
  isplitl [Hr62]
  · iexact Hr62
  isplitl [Hr63]
  · iexact Hr63
  isplitl [Hr64]
  · iexact Hr64
  isplitl [Hr65]
  · iexact Hr65
  isplitl [Hr66]
  · iexact Hr66
  isplitl [Hr67]
  · iexact Hr67
  isplitl [Hr68]
  · iexact Hr68
  isplitl [Hr69]
  · iexact Hr69
  isplitl [Hr70]
  · iexact Hr70
  isplitl [Hr71]
  · iexact Hr71
  isplitl [Hr72]
  · iexact Hr72
  isplitl [Hr73]
  · iexact Hr73
  isplitl [Hr74]
  · iexact Hr74
  isplitl [Hr75]
  · iexact Hr75
  isplitl [Hr76]
  · iexact Hr76
  isplitl [Hr77]
  · iexact Hr77
  isplitl [Hr78]
  · iexact Hr78
  isplitl [Hr79]
  · iexact Hr79
  isplitl [Hr80]
  · iexact Hr80
  isplitl [Hr81]
  · iexact Hr81
  isplitl [Hr82]
  · iexact Hr82
  isplitl [Hr83]
  · iexact Hr83
  isplitl [Hr84]
  · iexact Hr84
  isplitl [Hr85]
  · iexact Hr85
  isplitl [Hr86]
  · iexact Hr86
  isplitl [Hr87]
  · iexact Hr87
  isplitl [Hr88]
  · iexact Hr88
  isplitl [Hr89]
  · iexact Hr89
  isplitl [Hr90]
  · iexact Hr90
  isplitl [Hr91]
  · iexact Hr91
  isplitl [Hr92]
  · iexact Hr92
  isplitl [Hr93]
  · iexact Hr93
  isplitl [Hr94]
  · iexact Hr94
  isplitl [Hr95]
  · iexact Hr95
  isplitl [Hr96]
  · iexact Hr96
  isplitl [Hr97]
  · iexact Hr97
  isplitl [Hr98]
  · iexact Hr98
  isplitl [Hr99]
  · iexact Hr99
  isplitl [Hr100]
  · iexact Hr100
  isplitl [Hr101]
  · iexact Hr101
  isplitl [Hr102]
  · iexact Hr102
  isplitl [Hr103]
  · iexact Hr103
  isplitl [Hr104]
  · iexact Hr104
  isplitl [Hr105]
  · iexact Hr105
  isplitl [Hr106]
  · iexact Hr106
  isplitl [Hr107]
  · iexact Hr107
  isplitl [Hr108]
  · iexact Hr108
  isplitl [Hr109]
  · iexact Hr109
  isplitl [Hr110]
  · iexact Hr110
  isplitl [Hr111]
  · iexact Hr111
  isplitl [Hr112]
  · iexact Hr112
  isplitl [Hr113]
  · iexact Hr113
  isplitl [Hr114]
  · iexact Hr114
  isplitl [Hr115]
  · iexact Hr115
  isplitl [Hr116]
  · iexact Hr116
  isplitl [Hr117]
  · iexact Hr117
  isplitl [Hr118]
  · iexact Hr118
  isplitl [Hr119]
  · iexact Hr119
  isplitl [Hr120]
  · iexact Hr120
  isplitl [Hr121]
  · iexact Hr121
  isplitl [Hr122]
  · iexact Hr122
  isplitl [Hr123]
  · iexact Hr123
  isplitl [Hr124]
  · iexact Hr124
  isplitl [Hr125]
  · iexact Hr125
  isplitl [Hr126]
  · iexact Hr126
  iexact Hr127))

set_option hygiene false in
/-- Close an assumed side condition by the field of `hw` that states it (cited as a projection, so that what the run finds may mention it). -/
macro "words_use" : tactic => `(tactic| first | sl_exact hw.h1 | sl_exact hw.h2 | sl_exact hw.h3 | sl_exact hw.h4 | sl_exact hw.h5 | sl_exact hw.h6 | sl_exact hw.h7 | sl_exact hw.h8 | sl_exact hw.h9 | sl_exact hw.h10 | sl_exact hw.h11 | sl_exact hw.h12 | sl_exact hw.h13 | sl_exact hw.h14 | sl_exact hw.h15 | sl_exact hw.h16 | sl_exact hw.h17 | sl_exact hw.h18 | sl_exact hw.h19 | sl_exact hw.h20 | sl_exact hw.h21 | sl_exact hw.h22 | sl_exact hw.h23 | sl_exact hw.h24 | sl_exact hw.h25 | sl_exact hw.h26 | sl_exact hw.h27 | sl_exact hw.h28 | sl_exact hw.h29 | sl_exact hw.h30 | sl_exact hw.h31 | sl_exact hw.h32 | sl_exact hw.h33 | sl_exact hw.h34 | sl_exact hw.h35 | sl_exact hw.h36 | sl_exact hw.h37 | sl_exact hw.h38 | sl_exact hw.h39 | sl_exact hw.h40 | sl_exact hw.h41 | sl_exact hw.h42 | sl_exact hw.h43 | sl_exact hw.h44 | sl_exact hw.h45 | sl_exact hw.h46 | sl_exact hw.h47 | sl_exact hw.h48 | sl_exact hw.h49 | sl_exact hw.h50 | sl_exact hw.h51 | sl_exact hw.h52 | sl_exact hw.h53 | sl_exact hw.h54 | sl_exact hw.h55 | sl_exact hw.h56 | sl_exact hw.h57 | sl_exact hw.h58 | sl_exact hw.h59 | sl_exact hw.h60 | sl_exact hw.h61 | sl_exact hw.h62 | sl_exact hw.h63 | sl_exact hw.h64 | sl_exact hw.h65 | sl_exact hw.h66 | sl_exact hw.h67 | sl_exact hw.h68 | sl_exact hw.h69 | sl_exact hw.h70 | sl_exact hw.h71 | sl_exact hw.h72 | sl_exact hw.h73 | sl_exact hw.h74 | sl_exact hw.h75 | sl_exact hw.h76 | sl_exact hw.h77 | sl_exact hw.h78 | sl_exact hw.h79 | sl_exact hw.h80 | sl_exact hw.h81 | sl_exact hw.h82 | sl_exact hw.h83 | sl_exact hw.h84 | sl_exact hw.h85 | sl_exact hw.h86 | sl_exact hw.h87 | sl_exact hw.h88 | sl_exact hw.h89 | sl_exact hw.h90 | sl_exact hw.h91 | sl_exact hw.h92 | sl_exact hw.h93 | sl_exact hw.h94 | sl_exact hw.h95 | sl_exact hw.h96 | sl_exact hw.h97 | sl_exact hw.h98 | sl_exact hw.h99 | sl_exact hw.h100 | sl_exact hw.h101 | sl_exact hw.h102 | sl_exact hw.h103 | sl_exact hw.h104 | sl_exact hw.h105 | sl_exact hw.h106 | sl_exact hw.h107 | sl_exact hw.h108 | sl_exact hw.h109 | sl_exact hw.h110 | sl_exact hw.h111 | sl_exact hw.h112 | sl_exact hw.h113 | sl_exact hw.h114 | sl_exact hw.h115 | sl_exact hw.h116 | sl_exact hw.h117 | sl_exact hw.h118 | sl_exact hw.h119 | sl_exact hw.h120 | sl_exact hw.h121 | sl_exact hw.h122 | sl_exact hw.h123 | sl_exact hw.h124 | sl_exact hw.h125 | sl_exact hw.h126 | sl_exact hw.h127 | sl_exact hw.h128)

end Cert.Kernel.Hand

end
-- ==== Proof.KBits.Run.lean ====
/-
  The kernel body, run once on whole staging memrefs (one grid point: one group of 128 tasks).

  The body reads the group's 128 words from the table. For word t it assumes that, read as a row number, it leaves a
  whole row of the weight bank in range (the bundled `Words`), and starts a copy of that row of W1 — eight vectors of
  1024 — into row t of the scratch, on its own cell t. All 128 copies are started before any is waited for; then each
  cell is waited for in turn, so every copy has landed before the scratch is loaded. The body then loads the scratch
  whole and the five input blocks, computes both layers, and stores the 128 × 256 output block whole.

  The triple: from the inputs' buffers at their contents, the output's and the scratch at anything, the table's half,
  the 128 cells at zero, the bank whole at its contents and the core's waits, the body reaches its continuation holding
  the inputs, the table, the cells and the bank as they were, the scratch at some contents, and the output buffer with
  the pieces the run found written over what it held. The pieces are the run's witness.
-/
import proofs.«427848_j22419729285374_3_alg».proof.Proof.KBits.Kit
import proofs.«427848_j22419729285374_3_alg».proof.Proof.KBits.RowTables

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

open Lean Elab Tactic Meta in
/-- The side condition at hand is `k0_chkN w` for the N-th word the body reads: it is the field `hN` of the bundle `hw`. -/
elab "words_pick" : tactic => withMainContext do
  let t := (← instantiateMVars (← (← getMainGoal).getType)).consumeMData
  let .const n _ := t.getAppFn | throwError "words_pick: not an assumed side condition{indentExpr t}"
  let .str _ s := n | throwError "words_pick: unexpected name {n}"
  unless s.startsWith "k0_chk" do throwError "words_pick: not an assumed side condition: {n}"
  evalTactic (← `(tactic| exact $(mkIdent (Name.mkStr (Name.mkSimple "hw") ("h" ++ (s.drop 6).toString)))))

set_option maxHeartbeats 12000000 in
/-- What the body's one store leaves in the output's staging memref, as pieces, with the body's triple. -/
noncomputable def bodyRun (c : Dev nD) (i : grid0.Coords)
    (a2 : Memref sig .tc .vmem S256x1024 .bf16) (ha2 : a2.IsWhole) (a4 : Memref sig .tc .vmem S1x1x1024 .f32) (ha4 : a4.IsWhole)
    (a5 : Memref sig .tc .vmem S1x1x1024 .f32) (ha5 : a5.IsWhole) (a6 : Memref sig .tc .vmem S1x1x128 .f32) (ha6 : a6.IsWhole)
    (a7 : Memref sig .tc .vmem S1024x128 .f32) (ha7 : a7.IsWhole) (a8 : Memref sig .tc .vmem S128x256 .f32) (ha8 : a8.IsWhole)
    (x0 : Vec F S256x1024 .bf16) (x1 : Vec F S1x1x1024 .f32) (x2 : Vec F S1x1x1024 .f32) (x3 : Vec F S1x1x128 .f32) (x4 : Vec F S1024x128 .f32)
    (xt : Buf (Elt F) (tbM.view.loc (c : Thread nD τ))) (fh : Buf (Elt F) (hbM.view.loc (c : Thread nD τ))) (hw : Words c i xt) :
    { L : List (View.Piece (Elt F) S128x256 .f32) //
      ∀ (W : Waits sig Unit) (K : PUnit → sProp 𝕄),
        iprop(owns (c : Thread nD τ) a2 fullShare x0 ∗ owns (c : Thread nD τ) a4 fullShare x1 ∗ owns (c : Thread nD τ) a5 fullShare x2
            ∗ owns (c : Thread nD τ) a6 fullShare x3 ∗ owns (c : Thread nD τ) a7 fullShare x4
            ∗ (∃ d, owns (c : Thread nD τ) a8 fullShare d) ∗ (∃ d, owns (c : Thread nD τ) scM fullShare d)
            ∗ tbPt c xt ∗ hbPt c fh ∗ owes (c : Thread nD τ) 0 W ∗ cellsAtZero c
            ∗ (iprop(owns (c : Thread nD τ) a2 fullShare x0 ∗ owns (c : Thread nD τ) a4 fullShare x1 ∗ owns (c : Thread nD τ) a5 fullShare x2
                ∗ owns (c : Thread nD τ) a6 fullShare x3 ∗ owns (c : Thread nD τ) a7 fullShare x4
                ∗ (∃ f, a8.view.loc (c : Thread nD τ) ↦[a8.view.set]{fullShare} a8.view.writes (Elt F) f L)
                ∗ (∃ d, owns (c : Thread nD τ) scM fullShare d)
                ∗ tbPt c xt ∗ hbPt c fh ∗ (∃ W', owes (c : Thread nD τ) 0 W') ∗ cellsAtZero c) -∗ K ⟨⟩))
          ⊢ wp frame (wpE (defs₀ (F := F)) Variants.none c none) Set.univ
              (cc0__kernel i tbM htbM a2 ha2 (Memref.whole main_arg1) (Memref.isWhole_whole _) a4 ha4 a5 ha5 a6 ha6 a7 ha7 a8 ha8 scM (Memref.isWhole_whole _) cc0_scratch1) K } := by
  refine ⟨?_, fun W K => ?run⟩
  case run =>
    simp only [cc0__kernel_eq_skeleton]; unfold cc0__kernel_skel
    open_parts
    unfold owns cellsAtZero
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, HT0, Hh0, HW, Hq, Hk⟩
    cells_cases
    -- the bank as one read share per cell, so that the 128 copies may read it at once
    ihave HB := (bank_split c fh) $$ Hh0
    bank_cases
    obtain rfl := ha2.eq_unread hf0; obtain rfl := ha4.eq_unread hf1; obtain rfl := ha5.eq_unread hf2
    obtain rfl := ha6.eq_unread hf3; obtain rfl := ha7.eq_unread hf4
    -- the scratch as its 128 rows: copy t borrows row t outright, so that all 128 may be in flight at once
    ihave HR := (rows_split_lit c fs0) $$ HS0
    rows_cases
    -- the 128 reads of the table, the 128 copies started, the 128 waits: the run halts at the load of the whole scratch
    sl_exec (disch := words_pick)
    -- every row has landed: the rows, each written whole, are the scratch at its closed form
    rows_join
    · rows_back
    sl_exec (disch := words_pick)
    sl_step
    iapply Hk
    isplitl [H0]
    · iexists _; isplitr; · ipureintro; exact ha2.read_unread _
      iexact H0
    isplitl [H1]
    · iexists _; isplitr; · ipureintro; exact ha4.read_unread _
      iexact H1
    isplitl [H2]
    · iexists _; isplitr; · ipureintro; exact ha5.read_unread _
      iexact H2
    isplitl [H3]
    · iexists _; isplitr; · ipureintro; exact ha6.read_unread _
      iexact H3
    isplitl [H4]
    · iexists _; isplitr; · ipureintro; exact ha7.read_unread _
      iexact H4
    isplitl [H5]; · iexists _; iexact H5
    isplitl [HS0]
    · iexists _, _; isplitr; swap; · iexact HS0
      ipureintro; rfl
    isplitl [HT0]; · iexact HT0
    bank_take
    · iapply (bank_join c fh)
      bank_back
    isplitl [HW]; · iexists _; iexact HW
    cells_back

end Cert.Kernel.Hand

end
-- ==== Proof.KBits.Cert.lean ====
/-
  The frame of the kernel program, last part: the proof data, the body obligation at a generic grid point, the launch
  of the one pallas_call with the host line that follows it, and the frame claim.

  After the body at point t the output window's staging buffer holds the run's pieces read back (one store covers the
  whole 128 × 256 block); every input window's buffer still holds its block. The invariant is the same before and after
  every point: the copies of the 128 bank rows are started and waited for inside the point, so between points every own
  cell is at zero and the weight bank is whole at its launch contents. The 128 side conditions the body assumes hold at
  every point of every table whose words are row numbers of the bank (`AllWords`); the kernel program clips the ids into
  the bank on the host, so its table always is one.
-/
import proofs.«427848_j22419729285374_3_alg».proof.Proof.KBits.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the output block holds after a point -/

/-- The run's pieces tile the output block (one store of the whole block), so they cover it. -/
theorem run_cover (c : Dev nD) (i : grid0.Coords)
    (a2 : Memref sig .tc .vmem S256x1024 .bf16) (ha2 : a2.IsWhole) (a4 : Memref sig .tc .vmem S1x1x1024 .f32) (ha4 : a4.IsWhole)
    (a5 : Memref sig .tc .vmem S1x1x1024 .f32) (ha5 : a5.IsWhole) (a6 : Memref sig .tc .vmem S1x1x128 .f32) (ha6 : a6.IsWhole)
    (a7 : Memref sig .tc .vmem S1024x128 .f32) (ha7 : a7.IsWhole) (a8 : Memref sig .tc .vmem S128x256 .f32) (ha8 : a8.IsWhole)
    (x0 : Vec F S256x1024 .bf16) (x1 : Vec F S1x1x1024 .f32) (x2 : Vec F S1x1x1024 .f32) (x3 : Vec F S1x1x128 .f32) (x4 : Vec F S1024x128 .f32)
    (xt : Buf (Elt F) (tbM.view.loc (c : Thread nD τ))) (fh : Buf (Elt F) (hbM.view.loc (c : Thread nD τ))) (hw : Words c i xt)
    (y : S128x256.Idx) :
    ∃ p ∈ (bodyRun c i a2 ha2 a4 ha4 a5 ha5 a6 ha6 a7 ha7 a8 ha8 x0 x1 x2 x3 x4 xt fh hw).1, y ∈ p.1.set :=
  View.cover_of_tiledL (bodyRun c i a2 ha2 a4 ha4 a5 ha5 a6 ha6 a7 ha7 a8 ha8 x0 x1 x2 x3 x4 xt fh hw).1 S128x256.size (by sl_kernel_rfl) y

/-- What the run leaves in the output's staging buffer: its pieces read back over anything. -/
def outBlock (c : Dev nD) (i : grid0.Coords)
    (a2 : Memref sig .tc .vmem S256x1024 .bf16) (ha2 : a2.IsWhole) (a4 : Memref sig .tc .vmem S1x1x1024 .f32) (ha4 : a4.IsWhole)
    (a5 : Memref sig .tc .vmem S1x1x1024 .f32) (ha5 : a5.IsWhole) (a6 : Memref sig .tc .vmem S1x1x128 .f32) (ha6 : a6.IsWhole)
    (a7 : Memref sig .tc .vmem S1024x128 .f32) (ha7 : a7.IsWhole) (a8 : Memref sig .tc .vmem S128x256 .f32) (ha8 : a8.IsWhole)
    (x0 : Vec F S256x1024 .bf16) (x1 : Vec F S1x1x1024 .f32) (x2 : Vec F S1x1x1024 .f32) (x3 : Vec F S1x1x128 .f32) (x4 : Vec F S1024x128 .f32)
    (xt : Buf (Elt F) (tbM.view.loc (c : Thread nD τ))) (fh : Buf (Elt F) (hbM.view.loc (c : Thread nD τ))) (hw : Words c i xt) :
    Vec F S128x256 .f32 :=
  VO.read (Elt F) (VO.writes (Elt F) VO.junk (bodyRun c i a2 ha2 a4 ha4 a5 ha5 a6 ha6 a7 ha7 a8 ha8 x0 x1 x2 x3 x4 xt fh hw).1)

/-- The body's side conditions at every point, of the table as the region finds it. -/
def AllWords (hO : Ok m) : Prop := ∀ (c : Dev nD) (t : Fin (cfgM m hO).N), Words c (grid0.coords t) (tbl m 0)

set_option maxHeartbeats 3200000 in
set_option maxRecDepth 131072 in
/-- The output block after the body at point `t`: the run's, at the point's memrefs, input blocks, table and bank. -/
def outsAt (hO : Ok m) (hW : AllWords m hO) (c : Dev nD) (t : Fin (cfgM m hO).N) : Vec F S128x256 .f32 :=
  outBlock c (grid0.coords t) (ms0 m hO t) (hs0 m hO t) (ms1 m hO t) (hs1 m hO t) (ms2 m hO t) (hs2 m hO t) (ms3 m hO t) (hs3 m hO t)
    (ms4 m hO t) (hs4 m hO t) (ms5 m hO t) (hs5 m hO t)
    (iblk m hO c 0 t) (iblk m hO c 1 t) (iblk m hO c 2 t) (iblk m hO c 3 t) (iblk m hO c 4 t) (tbl m 0) (V m c main_arg1) (hW c t)

/-! ## The proof data -/

/-- The one pipeline's proof data on core `c`: the arrays as the region finds them; after the body at point `t` each
    input's buffer at its block and the output's at `outsAt`; the invariant; nothing owed; full shares. -/
def dats (hO : Ok m) (hW : AllWords m hO) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outsAt m hO hW c t
  Φ _ := iprop(Pipeline.ΦD osem spec0 H0 (V m) c ∗ Pipeline.ΦT pre0 (tbl m) c)
  q _ := fullShare
  owed _ := 0

theorem A_eq (hO : Ok m) (hW : AllWords m hO) (c : Dev nD) (w : Fin (cfgM m hO).W) :
    (dats m hO hW 0 c).A w = V m c (Pipeline.arrRef spec0 w) := by
  dsimp only [dats]

theorem after0 (hO : Ok m) (hW : AllWords m hO) (c : Dev nD) (t : Fin (cfgM m hO).N) : (dats m hO hW 0 c).after 0 t = iblk m hO c 0 t := by dsimp only [dats]; try rfl
theorem after1 (hO : Ok m) (hW : AllWords m hO) (c : Dev nD) (t : Fin (cfgM m hO).N) : (dats m hO hW 0 c).after 1 t = iblk m hO c 1 t := by dsimp only [dats]; try rfl
theorem after2 (hO : Ok m) (hW : AllWords m hO) (c : Dev nD) (t : Fin (cfgM m hO).N) : (dats m hO hW 0 c).after 2 t = iblk m hO c 2 t := by dsimp only [dats]; try rfl
theorem after3 (hO : Ok m) (hW : AllWords m hO) (c : Dev nD) (t : Fin (cfgM m hO).N) : (dats m hO hW 0 c).after 3 t = iblk m hO c 3 t := by dsimp only [dats]; try rfl
theorem after4 (hO : Ok m) (hW : AllWords m hO) (c : Dev nD) (t : Fin (cfgM m hO).N) : (dats m hO hW 0 c).after 4 t = iblk m hO c 4 t := by dsimp only [dats]; try rfl
theorem after5 (hO : Ok m) (hW : AllWords m hO) (c : Dev nD) (t : Fin (cfgM m hO).N) : (dats m hO hW 0 c).after 5 t = outsAt m hO hW c t := by dsimp only [dats]; try rfl

theorem before0 (hO : Ok m) (hW : AllWords m hO) (c : Dev nD) (t : Fin (cfgM m hO).N) (d) : (dats m hO hW 0 c).before 0 t d = iblk m hO c 0 t :=
  before_of0 m hO (dats m hO hW 0 c) (A_eq m hO hW c 0) (after0 m hO hW c) t d
theorem before1 (hO : Ok m) (hW : AllWords m hO) (c : Dev nD) (t : Fin (cfgM m hO).N) (d) : (dats m hO hW 0 c).before 1 t d = iblk m hO c 1 t :=
  before_of1 m hO (dats m hO hW 0 c) (A_eq m hO hW c 1) (after1 m hO hW c) t d
theorem before2 (hO : Ok m) (hW : AllWords m hO) (c : Dev nD) (t : Fin (cfgM m hO).N) (d) : (dats m hO hW 0 c).before 2 t d = iblk m hO c 2 t :=
  before_of2 m hO (dats m hO hW 0 c) (A_eq m hO hW c 2) (after2 m hO hW c) t d
theorem before3 (hO : Ok m) (hW : AllWords m hO) (c : Dev nD) (t : Fin (cfgM m hO).N) (d) : (dats m hO hW 0 c).before 3 t d = iblk m hO c 3 t :=
  before_of3 m hO (dats m hO hW 0 c) (A_eq m hO hW c 3) (after3 m hO hW c) t d
theorem before4 (hO : Ok m) (hW : AllWords m hO) (c : Dev nD) (t : Fin (cfgM m hO).N) (d) : (dats m hO hW 0 c).before 4 t d = iblk m hO c 4 t :=
  before_of4 m hO (dats m hO hW 0 c) (A_eq m hO hW c 4) (after4 m hO hW c) t d

/-! ## The body obligation, at a generic point -/

/-- What the body is called with at point `t`, the windows one by one, -/
def bodyPre (hO : Ok m) (hW : AllWords m hO) (c : Dev nD) (t : Fin (cfgM m hO).N) : sProp 𝕄 :=
  iprop((dats m hO hW 0 c).Φ t.castSucc ∗ (dats m hO hW 0 c).owesAt () t.castSucc
    ∗ (∃ d, owns (c : Thread nD τ) (ms0 m hO t) fullShare ((dats m hO hW 0 c).before 0 t d))
    ∗ (∃ d, owns (c : Thread nD τ) (ms1 m hO t) fullShare ((dats m hO hW 0 c).before 1 t d))
    ∗ (∃ d, owns (c : Thread nD τ) (ms2 m hO t) fullShare ((dats m hO hW 0 c).before 2 t d))
    ∗ (∃ d, owns (c : Thread nD τ) (ms3 m hO t) fullShare ((dats m hO hW 0 c).before 3 t d))
    ∗ (∃ d, owns (c : Thread nD τ) (ms4 m hO t) fullShare ((dats m hO hW 0 c).before 4 t d))
    ∗ (∃ d, owns (c : Thread nD τ) (ms5 m hO t) fullShare ((dats m hO hW 0 c).before 5 t d)))

/-- and what it returns. -/
def bodyPost (hO : Ok m) (hW : AllWords m hO) (c : Dev nD) (t : Fin (cfgM m hO).N) : sProp 𝕄 :=
  iprop((dats m hO hW 0 c).Φ t.succ ∗ (dats m hO hW 0 c).owesAt () t.succ
    ∗ owns (c : Thread nD τ) (ms0 m hO t) fullShare ((dats m hO hW 0 c).after 0 t)
    ∗ owns (c : Thread nD τ) (ms1 m hO t) fullShare ((dats m hO hW 0 c).after 1 t)
    ∗ owns (c : Thread nD τ) (ms2 m hO t) fullShare ((dats m hO hW 0 c).after 2 t)
    ∗ owns (c : Thread nD τ) (ms3 m hO t) fullShare ((dats m hO hW 0 c).after 3 t)
    ∗ owns (c : Thread nD τ) (ms4 m hO t) fullShare ((dats m hO hW 0 c).after 4 t)
    ∗ owns (c : Thread nD τ) (ms5 m hO t) fullShare ((dats m hO hW 0 c).after 5 t))

set_option maxHeartbeats 6400000 in
set_option maxRecDepth 131072 in
/-- The body at any point: the inputs' memrefs hold their blocks, so the run applies; the invariant hands the body its
    scratch, its cells at zero, the bank and the table's half, and takes them back as they were; the core's waits go in
    at whatever the earlier points recorded and come back with this point's. -/
theorem sound_body (hO : Ok m) (hW : AllWords m hO) (c : Dev nD) (t : Fin (cfgM m hO).N) :
    bodyPre m hO hW c t ⊢ wp frame (wpE (defs₀ (F := F)) Variants.none c none) Set.univ (bodyAt m hO t) (fun _ => bodyPost m hO hW c t) := by
  unfold bodyPre bodyPost bodyAt
  simp only [before0, before1, before2, before3, before4]
  rw [show (dats m hO hW 0 c).Φ t.succ = (dats m hO hW 0 c).Φ t.castSucc from rfl,
    after0, after1, after2, after3, after4, after5]
  rw [show (dats m hO hW 0 c).Φ t.castSucc = iprop(Pipeline.ΦD osem spec0 H0 (V m) c ∗ Pipeline.ΦT pre0 (tbl m) c) from rfl, PhiD_eq, PhiT_eq]
  unfold Dat.owesAt Pipeline.owesWithin
  rw [show (dats m hO hW 0 c).owed t.castSucc = 0 from rfl, show (dats m hO hW 0 c).owed t.succ = 0 from rfl]
  unfold outsAt outBlock
  iintro ⟨⟨⟨HS0, Hg, Hq, Hh0⟩, HT0⟩, ⟨%W, -, HW⟩, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ (iblk m hO c 0 t) (iblk m hO c 1 t) (iblk m hO c 2 t) (iblk m hO c 3 t) (iblk m hO c 4 t) (tbl m 0) (V m c main_arg1) (hW c t)).2 W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HT0]; · iexact HT0
  isplitl [Hh0]; · iexact Hh0
  isplitl [HW]; · iexact HW
  isplitl [Hq]; · iexact Hq
  iintro ⟨H0, H1, H2, H3, H4, ⟨%e5, H5⟩, HS0, HT0, Hh0, ⟨%W', HW'⟩, Hq⟩
  isplitl [HS0 Hg Hq Hh0 HT0]
  · isplitl [HS0 Hg Hq Hh0]
    · isplitl [HS0]; · iexact HS0
      isplitl [Hg]; · iexact Hg
      isplitl [Hq]; · iexact Hq
      iexact Hh0
    iexact HT0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (run_cover c _ _ _ _ _ _ _ _ _ _ _ _ _ _ _ _ _ _ _ _ _)

set_option maxRecDepth 131072 in
set_option maxHeartbeats 3200000 in
/-- The library's body obligation, at every point. -/
theorem body_obligation (hO : Ok m) (hW : AllWords m hO) (c : Dev nD) :
    BodyObligation (dats (F := F) m hO hW 0 c) (defs₀ (F := F)) Variants.none () Set.univ := fun t => by
  rw [bigSep_W0, bigSep_W0]
  exact sound_body m hO hW c t

/-! ## The run and the frame -/

set_option backward.isDefEq.respectTransparency.types false in
/-- From any memory with zero counters every weakly fair execution of @main terminates, and in every final state each
    staged array holds what the library computes from the proof data and every other unscoped buffer what the later
    line leaves: the arguments and the bank their launch contents, the flat result the reshape of the call's result. -/
theorem run_main (hO : Ok m) (hW : AllWords m hO) :
    θ_run defs (onTc (τ := τ) (main (F := F))) (s₀ m ρ)
      (Pipeline.FramePost (Pipeline.pin pcfgs fun _ => adm m hO) (dats m hO hW) 0
        (Pipeline.afterTail pcfgs (fun _ => adm m hO) (dats m hO hW) 0 (V0 m) [hostOps1])) :=
  Pipeline.θ_run_frameP_dma_around pcfgs (fun _ => adm m hO) (dats m hO hW) (0 : Fin 1) launch0 osem defs₀ Variants.none ownSemFacts H0 H0_sub m ρ main
    (hbody := fun c => (body_obligation m hO hW c).loose) (hshare := fun c => (dats m hO hW 0 c).share_full fun _ => rfl)
    (howed := fun _ _ => rfl) (V₀ := V0 m) (opss := [hostOps1]) (hsub := tail_but) (hfresh := tail_fresh) (hkeep := tail_keeps)
    (hmain := hmain m Variants.none) (hA := A_eq m hO hW) (hpf := V_pre m)
    (hin := fun _ => .rfl) (hout := fun c => by change iprop(_ ∗ _) ⊢ _; iintro ⟨HD, -⟩; iexact HD)

/-! ## After the later line -/

/-- The later line writes only the flat result, and no staged array is an argument: a buffer that is neither holds
    after the line what the region found. -/
theorem tail_other (hO : Ok m) (hW : AllWords m hO) (c : Dev nD) (b : Ref sig .tc)
    (harr : ∀ w, Pipeline.arrRef spec0 w ≠ b) (hres : Proc.devRef (τ := τ) .tc b ≠ Proc.devRef .tc main_v36) :
    Pipeline.afterTail pcfgs (fun _ => adm m hO) (dats m hO hW) 0 (V0 m) [hostOps1] c b = V m c b := by
  unfold Pipeline.afterTail
  rw [StableHlo.after_of_forall_not_mem _ _ fun op hop hw' => ?_, Pipeline.withArrays_of_ne _ c (V0 m c) _ b harr]
  simp only [List.flatten_cons, List.flatten_nil, List.append_nil, hostOps1, List.mem_cons, List.mem_nil_iff, or_false] at hop
  subst hop
  simp only [StableHlo.reshape_writes, Finset.mem_singleton] at hw'
  exact hres hw'

/-- The flat result after the later line: the reshape of what the region left in its result array. -/
theorem tail_result (hO : Ok m) (hW : AllWords m hO) (c : Dev nD) :
    Pipeline.afterTail pcfgs (fun _ => adm m hO) (dats m hO hW) 0 (V0 m) [hostOps1] c main_v36
      = shapeCast S1048576 ((dats m hO hW 0 c).arrAt 5 (cfgM m hO).N : Vec F S4096x256 .f32) shapeCasts_S4096x256_S1048576 := by
  unfold Pipeline.afterTail
  show StableHlo.after (hostOps1 (F := F)) _ (Proc.devRef .tc main_v36) = _
  after_results
  exact congrArg (fun x => shapeCast S1048576 x shapeCasts_S4096x256_S1048576)
    (Pipeline.withArrays_arr spec0 (launch0 (F := F)).win.arr_inj c _ _ 5)

/-! ## The frame -/

/-- THE FRAME at any `F`: under the pipeline's side condition of the table and the body's side conditions at every
    point, @main runs to the end and every argument array ends as launched. -/
theorem frame (hO : Ok m) (hW : AllWords m hO) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_arg0 (by decide : main_arg0 ∈ Pipeline.restRefs sig spec0)).trans
        (tail_other m hO hW c main_arg0 (fun w => by fin_cases w <;> decide) (StableHlo.devRef_ne_of_ne (by decide)))).trans (V_arg0 m c),
     (((h c).2 main_arg1 (by decide : main_arg1 ∈ Pipeline.restRefs sig spec0)).trans
        (tail_other m hO hW c main_arg1 (fun w => by fin_cases w <;> decide) (StableHlo.devRef_ne_of_ne (by decide)))).trans (V_arg1 m c),
     (((h c).2 main_arg2 (by decide : main_arg2 ∈ Pipeline.restRefs sig spec0)).trans
        (tail_other m hO hW c main_arg2 (fun w => by fin_cases w <;> decide) (StableHlo.devRef_ne_of_ne (by decide)))).trans (V_arg2 m c),
     (((h c).2 main_arg3 (by decide : main_arg3 ∈ Pipeline.restRefs sig spec0)).trans
        (tail_other m hO hW c main_arg3 (fun w => by fin_cases w <;> decide) (StableHlo.devRef_ne_of_ne (by decide)))).trans (V_arg3 m c),
     (((h c).2 main_arg4 (by decide : main_arg4 ∈ Pipeline.restRefs sig spec0)).trans
        (tail_other m hO hW c main_arg4 (fun w => by fin_cases w <;> decide) (StableHlo.devRef_ne_of_ne (by decide)))).trans (V_arg4 m c),
     (((h c).2 main_arg5 (by decide : main_arg5 ∈ Pipeline.restRefs sig spec0)).trans
        (tail_other m hO hW c main_arg5 (fun w => by fin_cases w <;> decide) (StableHlo.devRef_ne_of_ne (by decide)))).trans (V_arg5 m c)⟩)
    (run_main m ρ hO hW)

end Cert.Kernel.Hand

end
-- ==== Proof.KBits.WordsOk.lean ====
/-
  The side conditions the kernel body assumes of the 128 task ids it reads at a grid point, from one bound on the table.

  At each point the body reads 128 words of the task-id table, one per task of the group, and of each word v it assumes
  that the bank row v names lies inside the weight bank: the slice [v, 0, 0] of extent [1, 8, 1024] inside
  [10000, 8, 1024], that is v + 1 ≤ 10000 with the word read unsigned (the other two axes are 0 + 8 ≤ 8 and
  0 + 1024 ≤ 1024). A word read off the whole table through a one-element rectangle is a word of the table, so if every
  word of the table is below ten thousand, all 128 conditions hold at every point.
-/
import proofs.«427848_j22419729285374_3_alg».proof.Proof.KBits.Tables

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- Every word read off the table through a rectangle is a word of the table, so it keeps a bound all of them have. -/
theorem word_lt (c : Dev nD) (xt : Buf (Elt F) (tbM.view.loc (c : Thread nD τ)))
    (h : ∀ j : S4096.Idx, (xt j : BitVec 32).toNat < 10000)
    (R : LoadRect S4096) (j : R.shape.Idx) : (tbM.view.readAt (Elt F) R xt j : BitVec 32).toNat < 10000 := by
  rw [View.readAt_apply, View.read_apply, cast_eq]; exact h _

/-- A word below ten thousand names a row of the bank: the slice [v, 0, 0] of extent [1, 8, 1024] is inside
    [10000, 8, 1024]. -/
theorem row_inb (v : BitVec 32) (hv : v.toNat < 10000) :
    ∀ a : Fin 3, (![v.toNat, 0, 0] : Fin 3 → Nat) a + S1x8x1024.size a ≤ S10000x8x1024.size a := by
  intro a
  fin_cases a
  · show v.toNat + 1 ≤ 10000; omega
  · show 0 + 8 ≤ 8; omega
  · show 0 + 1024 ≤ 1024; omega

/-- If every word of the table, read unsigned, is below ten thousand, the body's 128 assumed side conditions hold at
    every grid point. -/
theorem words_of_lt (c : Dev nD) (i : grid0.Coords) (xt : Buf (Elt F) (tbM.view.loc (c : Thread nD τ)))
    (h : ∀ j : S4096.Idx, (xt j : BitVec 32).toNat < 10000) : Words c i xt := by
  constructor <;> exact row_inb _ (word_lt c xt h _ _)

end Cert.Kernel.Hand

end
-- ==== Proof.KBits.GroupMatrix.lean ====
/-
  The 0/1 grouping matrix G of the kernel: G[i, t] = 1 when row i (0 ≤ i < 1024) belongs to group t (0 ≤ t < 128),
  that is when ⌊i / 8⌋ = t, and 0 otherwise.

  The program builds it from two iotas. The row numbers, kept as a [1024, 1] column, are divided by the scalar 8 with
  a floor division that is lowered to integer operations: the quotient q rounded toward zero, the signs of dividend
  and divisor, the remainder r, and the choice of q − 1 in place of q exactly where the signs differ and r ≠ 0. The
  column of group numbers is then compared for equality, entry by entry, with the row 0 … 127 of group labels, both
  spread over [1024, 128], and the one-bit result is converted to f32.

  `grp` is that chain of operations as a term, generic in the float instance; `grp_apply` reads it at an index over
  the extended reals. The argument: a row number is a word below 2³¹, so it is zero or positive, as 8 is; the signed
  division by 8 then meets no corner and is the division of the naturals; the sign test of the correction is false
  (for i = 0 the remainder test is), so the floor division returns the quotient ⌊i / 8⌋ itself; two words below 2³²
  are equal exactly when their values are; and a one-bit word converts to 1 or 0.
-/
import proofs.«427848_j22419729285374_3_alg».proof.Kernel
import proofs.«427848_j22419729285374_3_alg».proof.Proof.Gen.Kernel
import Idealize.ShloMosaic.Lib.ValueIdx
import Idealize.ShloMosaic.Lib.StableHlo.Predicate

noncomputable section

namespace Cert.Kernel.GroupMatrix

open Idealize.ShloMosaic Idealize.SL.Sem
open Idealize.ShloMosaic.ValueIdx
open Cert.Kernel.Gen

variable {F : FTy → Type} [FloatOps F]

/-- The row numbers 0 … 1023 as a column: the iota along the one axis, kept as [1024, 1]. -/
def rowCol : IVec S1024x1 32 :=
  broadcastInDim S1024x1 ![0] bcast_S1024_S1024x1_0 (iotaInDim S1024 32 0)

/-- The divisor, the scalar word 8. -/
def eight : IVec S_ 32 := constantI S_ 32 8#32

/-- The quotient rounded toward zero, as the floor division's first step takes it. -/
def quot (x : IVec S1024x1 32) (y : IVec S_ 32) : IVec S1024x1 32 :=
  Host.divsi x (broadcastInDim S1024x1 ![] bcast_S_S1024x1 y)

/-- "The signs of dividend and divisor differ, and the remainder is not zero": where the truncating quotient
    is one above the floor. -/
def fixup (x : IVec S1024x1 32) (y : IVec S_ 32) : IVec S1024x1 1 :=
  andi
    (cmpi .ne (signi x) (broadcastInDim S1024x1 ![] bcast_S_S1024x1 (signi y)))
    (cmpi .ne (Host.remsi x (broadcastInDim S1024x1 ![] bcast_S_S1024x1 y))
      (broadcastInDim S1024x1 ![] bcast_S_S1024x1 (constantI S_ 32 0#32)))

/-- The floor division of a column by a scalar: the truncating quotient, less one where `fixup` says so. -/
def floorDiv (x : IVec S1024x1 32) (y : IVec S_ 32) : IVec S1024x1 32 :=
  select (fixup x y)
    (subi (quot x y) (broadcastInDim S1024x1 ![] bcast_S_S1024x1 (constantI S_ 32 1#32)))
    (quot x y)

/-- The group number of each row, ⌊i / 8⌋, as a [1024, 1] column of words. -/
def grpCol : IVec S1024x1 32 := floorDiv rowCol eight

/-- The group numbers 0 … 127 as a row [1, 128]. -/
def colRow : IVec S1x128 32 :=
  broadcastInDim S1x128 ![1] bcast_S128_S1x128_1 (iotaInDim S128 32 0)

/-- The one-bit mask "row i belongs to group t". -/
def grpMask : IVec S1024x128 1 :=
  cmpi .eq
    (broadcastInDim S1024x128 ![0, 1] bcast_S1024x1_S1024x128_0_1 grpCol)
    (broadcastInDim S1024x128 ![0, 1] bcast_S1x128_S1024x128_0_1 colRow)

/-- The grouping matrix: the mask converted to f32, 1 where row i belongs to group t and 0 elsewhere. -/
def grp : FVec F S1024x128 .f32 := uitofp .f32 grpMask

/-! ## Words: the lowered floor division of a small word by 8 -/

/-- The sign of a word as a word: 0, −1 or 1. -/
def sgnW (x : BitVec 32) : BitVec 32 := if x = 0 then 0 else if x.msb then -1 else 1

/-- The integer sign of a tensor, read at an index, is the sign of the word there. -/
theorem signi_apply {s : Shape} (x : IVec s 32) (j : s.Idx) : signi x j = sgnW (x j) := rfl

/-- The lowered floor division at one word, by the divisor 8: the truncating quotient, less one when the signs
    differ and the remainder is not zero. -/
def floorDivW (x : BitVec 32) : BitVec 32 :=
  Scalar.select
    (IntOp.andi (IntOp.cmpi .ne (sgnW x) (sgnW 8#32)) (IntOp.cmpi .ne (IntOp.remsi .host x 8#32) 0#32))
    (IntOp.subi (IntOp.divsi .host x 8#32) 1#32)
    (IntOp.divsi .host x 8#32)

/-- Dividing a word below 2³¹ by 8 meets no corner of the signed division, and both signs are clear: the
    quotient is the quotient of the naturals. -/
theorem divsi_eight (x : BitVec 32) (hx : x.toNat < 2 ^ 31) :
    IntOp.divsi .host x 8#32 = BitVec.ofNat 32 (x.toNat / 8) := by
  have hm : x.msb = false := BitVec.msb_eq_false_iff_two_mul_lt.mpr (by omega)
  have hcorner : ¬ IntOp.SDivCorner x 8#32 := by
    intro hc; rcases hc with hc | ⟨_, hc⟩ <;> exact absurd hc (by decide)
  apply BitVec.eq_of_toNat_eq
  simp only [IntOp.divsi, if_neg hcorner, BitVec.sdiv_eq, hm, show (8#32 : BitVec 32).msb = false from by decide,
    BitVec.udiv_eq, BitVec.toNat_udiv, BitVec.toNat_ofNat, Nat.reducePow, Nat.reduceMod]
  omega

/-- A word below 2³¹ is zero or positive, as 8 is, so the correction never fires: the floor division by 8 is
    the quotient of the naturals. -/
theorem floorDivW_eq (x : BitVec 32) (hx : x.toNat < 2 ^ 31) : floorDivW x = BitVec.ofNat 32 (x.toNat / 8) := by
  have hm : x.msb = false := BitVec.msb_eq_false_iff_two_mul_lt.mpr (by omega)
  unfold floorDivW
  rw [divsi_eight x hx]
  by_cases h0 : x = 0
  · subst h0; decide
  · have hs : IntOp.cmpi .ne (sgnW x) (sgnW 8#32) = 0#1 := by
      unfold sgnW; rw [if_neg h0, hm]; decide
    have ha : ∀ b : BitVec 1, IntOp.andi 0#1 b = 0#1 := fun b => by simp [IntOp.andi]
    rw [hs, ha, select_zero]

/-! ## The stages read at an index -/

theorem rowCol_apply (i : Fin 1024) : rowCol (ix2 i (0 : Fin 1)) = BitVec.ofNat 32 i.val :=
  StableHlo.Predicate.bcast_col1 bcast_S1024_S1024x1_0 (iotaInDim S1024 32 0) i

theorem grpCol_apply (i : Fin 1024) : grpCol (ix2 i (0 : Fin 1)) = BitVec.ofNat 32 (i.val / 8) := by
  have hx : rowCol (ix2 i (0 : Fin 1)) = BitVec.ofNat 32 i.val := rowCol_apply i
  have hlt : (rowCol (ix2 i (0 : Fin 1))).toNat < 2 ^ 31 := by
    rw [hx, BitVec.toNat_ofNat]; have := i.isLt; omega
  have h := floorDivW_eq _ hlt
  rw [hx, BitVec.toNat_ofNat, Nat.mod_eq_of_lt (by have := i.isLt; omega)] at h
  rw [← hx] at h
  exact h

theorem colRow_apply (t : Fin 128) : colRow (ix2 (0 : Fin 1) t) = BitVec.ofNat 32 t.val :=
  StableHlo.Predicate.bcast_row1 bcast_S128_S1x128_1 (iotaInDim S128 32 0) t

theorem grpMask_apply (i : Fin 1024) (t : Fin 128) :
    grpMask (ix2 i t) = BitVec.ofBool (decide (i.val / 8 = t.val)) := by
  have e1 : broadcastInDim S1024x128 ![0, 1] bcast_S1024x1_S1024x128_0_1 grpCol (ix2 i t) = grpCol (ix2 i (0 : Fin 1)) :=
    StableHlo.Predicate.bcast_of_col bcast_S1024x1_S1024x128_0_1 grpCol i t
  have e2 : broadcastInDim S1024x128 ![0, 1] bcast_S1x128_S1024x128_0_1 colRow (ix2 i t) = colRow (ix2 (0 : Fin 1) t) :=
    StableHlo.Predicate.bcast_of_row bcast_S1x128_S1024x128_0_1 colRow i t
  show IntOp.cmpi .eq (broadcastInDim S1024x128 ![0, 1] bcast_S1024x1_S1024x128_0_1 grpCol (ix2 i t))
      (broadcastInDim S1024x128 ![0, 1] bcast_S1x128_S1024x128_0_1 colRow (ix2 i t)) = _
  rw [e1, e2, grpCol_apply, colRow_apply]
  have hi := i.isLt
  have ht := t.isLt
  show BitVec.ofBool (BitVec.ofNat 32 (i.val / 8) == BitVec.ofNat 32 t.val) = _
  congr 1
  rw [Bool.eq_iff_iff, beq_iff_eq, decide_eq_true_eq]
  constructor
  · intro h
    have := congrArg BitVec.toNat h
    simp only [BitVec.toNat_ofNat] at this
    omega
  · intro h; rw [h]

theorem grp_apply (i : Fin 1024) (t : Fin 128) :
    grp (F := Ideal) (ix2 i t) = if i.val / 8 = t.val then (1 : EReal) else 0 := by
  show (((grpMask (ix2 i t)).toNat : ℝ) : EReal) = _
  rw [grpMask_apply]
  by_cases h : i.val / 8 = t.val
  · rw [if_pos h, decide_eq_true h]; simp
  · rw [if_neg h, decide_eq_false h]; simp

end Cert.Kernel.GroupMatrix

end
-- ==== Proof.Spec.lean ====
/-
  The function both programs compute, over the extended reals.

  For task k (0 ≤ k < 4096) let r(k) be the row of the 10000-head bank that task k selects: the signed value of
  task_ids[k], clamped into [0, 9999] (inside the stated domain 0 ≤ task_ids[k] < 10000 the clamp does nothing).
  Head r(k) is a tiny two-layer network applied to each of the 256 embedding rows b:

      hidden k b o = max (∑ h < 1024, W1[r(k), o, h] · emb[b, h] + b1[r(k), o]) 0          (o < 8)
      out k b      = ∑ o < 8, hidden k b o · W2[r(k), 0, o] + b2[r(k), 0]

  and the result is the flat task-major array  result[k · 256 + b] = out k b.
  Nothing here needs finiteness: the statements below are sums, products and maxima on EReal as they stand.
-/
import Idealize.ShloMosaic.PureOps.Ideal
import Idealize.ShloMosaic.Lib.ValueIdx

noncomputable section

open scoped BigOperators

namespace Cert.Spec

open Idealize.ShloMosaic Idealize.ShloMosaic.ValueIdx

/-- Index types of the six arguments and of the result, over literal shapes. -/
abbrev EmbIdx : Type := (⟨2, ![256, 1024]⟩ : Shape).Idx
abbrev W1Idx : Type := (⟨3, ![10000, 8, 1024]⟩ : Shape).Idx
abbrev B1Idx : Type := (⟨2, ![10000, 8]⟩ : Shape).Idx
abbrev W2Idx : Type := (⟨3, ![10000, 1, 8]⟩ : Shape).Idx
abbrev B2Idx : Type := (⟨2, ![10000, 1]⟩ : Shape).Idx
abbrev IdsIdx : Type := (⟨1, ![4096]⟩ : Shape).Idx
abbrev OutIdx : Type := (⟨1, ![1048576]⟩ : Shape).Idx

/-- The stated domain of the task ids: each is a row number of the bank. -/
def InRange (ids : IdsIdx → BitVec 32) : Prop :=
  ∀ k : Fin 4096, 0 ≤ (ids (ix1 k)).toInt ∧ (ids (ix1 k)).toInt < 10000

/-- The bank row task `k` selects: its id read signed and clamped into the bank. -/
def row (ids : IdsIdx → BitVec 32) (k : Fin 4096) : Fin 10000 :=
  ⟨min (ids (ix1 k)).toInt.toNat 9999, by omega⟩

/-- Layer 1 of head `row k` on embedding row `b`, unit `o`, after the rectifier. -/
def hidden (emb : EmbIdx → EReal) (W1 : W1Idx → EReal) (b1 : B1Idx → EReal) (ids : IdsIdx → BitVec 32)
    (k : Fin 4096) (b : Fin 256) (o : Fin 8) : EReal :=
  max ((∑ h : Fin 1024, W1 (ix3 (row ids k) o h) * emb (ix2 b h)) + b1 (ix2 (row ids k) o)) 0

/-- Layer 2: the head's scalar output for task `k` on embedding row `b`. -/
def out (emb : EmbIdx → EReal) (W1 : W1Idx → EReal) (b1 : B1Idx → EReal) (W2 : W2Idx → EReal) (b2 : B2Idx → EReal)
    (ids : IdsIdx → BitVec 32) (k : Fin 4096) (b : Fin 256) : EReal :=
  (∑ o : Fin 8, hidden emb W1 b1 ids k b o * W2 (ix3 (row ids k) (0 : Fin 1) o)) + b2 (ix2 (row ids k) (0 : Fin 1))

/-- The flat result, task-major: entry `k · 256 + b` is `out k b`. -/
def result (emb : EmbIdx → EReal) (W1 : W1Idx → EReal) (b1 : B1Idx → EReal) (W2 : W2Idx → EReal) (b2 : B2Idx → EReal)
    (ids : IdsIdx → BitVec 32) : OutIdx → EReal := fun n =>
  out emb W1 b1 W2 b2 ids ⟨(n 0).val / 256, by have h : (n 0).val < 1048576 := (n 0).isLt; show (n 0).val / 256 < 4096; omega⟩
    ⟨(n 0).val % 256, Nat.mod_lt _ (by norm_num)⟩

/-- Inside the stated domain the clamp is the identity: the selected row is the id itself. -/
theorem row_val_of_inRange {ids : IdsIdx → BitVec 32} (h : InRange ids) (k : Fin 4096) :
    ((row ids k).val : Int) = (ids (ix1 k)).toInt := by
  obtain ⟨h0, h1⟩ := h k
  show ((min (ids (ix1 k)).toInt.toNat 9999 : Nat) : Int) = _
  omega

end Cert.Spec

end
-- ==== Proof.LibRowGather.lean ====
/-
  ROWS OF A TABLE PICKED BY A COLUMN OF INDICES, read at an index.

  What `x[idx]` of a table `x` whose LEADING axis is indexed by an integer column `idx : [R, 1]` lowers to:
  `stablehlo.gather` with offset_dims = the result's non-leading axes, collapsed_slice_dims = [0], start_index_map = [0],
  index_vector_dim = 1 and slice sizes one row. Result row `r` is the table's row at the start index `idx[r, 0]`,
  read as a signed integer and clamped into `[0, N − 1]` (StableHLO clamps every start index so that the slice fits),
  and the remaining coordinates pass through unchanged. Stated for a rank-2 table `[N, C]` and a rank-3 table
  `[N, A, B]`, at every extent and every word width of the indices.
-/
import Idealize.ShloMosaic.Lib.ValueIdx

noncomputable section

namespace Idealize.ShloMosaic.RowGather

open Idealize.ShloMosaic Idealize.ShloMosaic.ValueIdx

variable {α : Type}

/-! ## A rank-2 table `[N, C]` -/

/-- The dimension numbers of "rows of an `[N, C]` table picked by an `[R, 1]` column of indices", result `[R, C]`:
    the result's axis 1 is the offset axis, the table's axis 0 is collapsed and is the one the start index addresses,
    the index vector lies along axis 1 of the indices, and a slice is one row `[1, C]`. Their conditions `wf` are
    decided on a program's literal shapes. -/
abbrev rowDims2 (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- On the table's row axis the operand coordinate of result element `(r, c)` is the start index `idx[r, 0]` read
    signed and clamped into `[0, N − 1]`: the axis is collapsed (no offset) and not a batching axis. -/
theorem rows2_coord0 {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    (rowDims2 N C R wf).start (ix2 r c) idx 0 + (rowDims2 N C R wf).batchCoord (ix2 r c) 0
        + (rowDims2 N C R wf).offCoord (ix2 r c) 0
      = min (idx (ix2 r (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims2 N C R wf).startIndexMap from List.mem_singleton.mpr rfl)]
  have hsi : (rowDims2 N C R wf).siIdx (ix2 r c) ⟨List.idxOf (0 : Fin 2) (rowDims2 N C R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis the operand coordinate of result element `(r, c)` is `c`: the start index does not
    address this axis, it is not a batching axis, and it is the one kept axis, read by the result's offset axis. -/
theorem rows2_coord1 {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    (rowDims2 N C R wf).start (ix2 r c) idx 1 + (rowDims2 N C R wf).batchCoord (ix2 r c) 1
        + (rowDims2 N C R wf).offCoord (ix2 r c) 1
      = c.val := by
  rw [GatherDims.batchCoord_eq_zero _ _ _ List.not_mem_nil]
  have hs : (rowDims2 N C R wf).start (ix2 r c) idx 1 = 0 := by
    unfold GatherDims.start
    rw [dif_neg (show ¬ (1 : Fin 2) ∈ (rowDims2 N C R wf).startIndexMap from by simp)]
  rw [hs]
  simp only [Nat.add_zero, Nat.zero_add]
  unfold GatherDims.offCoord
  rw [dif_pos ((GatherDims.mem_sKept _ _).mpr ⟨by simp, List.not_mem_nil⟩)]
  rfl

/-- THE GATHER READ AT `(r, c)`: the table at row `idx[r, 0]`, read signed and clamped into `[0, N − 1]`, column `c`. -/
theorem gather_rows2_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims2 N C R wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ => exact rows2_coord0 wf idx r c
  | ⟨1, _⟩ => exact rows2_coord1 wf idx r c

/-! ## A rank-3 table `[N, A, B]` -/

/-- The dimension numbers of "rows of an `[N, A, B]` table picked by an `[R, 1]` column of indices", result
    `[R, A, B]`: the result's axes 1 and 2 are the offset axes, the table's axis 0 is collapsed and is the one the start
    index addresses, the index vector lies along axis 1 of the indices, and a slice is one row `[1, A, B]`. Their
    conditions `wf` are decided on a program's literal shapes. -/
abbrev rowDims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- On the table's row axis the operand coordinate of result element `(r, a, b)` is the start index `idx[r, 0]` read
    signed and clamped into `[0, N − 1]`: the axis is collapsed (no offset) and not a batching axis. -/
theorem rows3_coord0 {N A B R w : Nat}
    (wf : GatherDims.WF ⟨3, ![N, A, B]⟩ ⟨2, ![R, 1]⟩ ⟨3, ![R, A, B]⟩ [1, 2] [0] [] [0] [] 1 ![1, A, B])
    (idx : IVec ⟨2, ![R, 1]⟩ w) (r : Fin R) (a : Fin A) (b : Fin B) :
    (rowDims3 N A B R wf).start (ix3 r a b) idx 0 + (rowDims3 N A B R wf).batchCoord (ix3 r a b) 0
        + (rowDims3 N A B R wf).offCoord (ix3 r a b) 0
      = min (idx (ix2 r (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (rowDims3 N A B R wf).startIndexMap from List.mem_singleton.mpr rfl)]
  have hsi : (rowDims3 N A B R wf).siIdx (ix3 r a b) ⟨List.idxOf (0 : Fin 3) (rowDims3 N A B R wf).startIndexMap,
      List.idxOf_lt_length_iff.2 (List.mem_singleton.mpr rfl)⟩ = ix2 r (0 : Fin 1) := by
    funext d; refine Fin.ext ?_
    match d with
    | ⟨0, _⟩ => rfl
    | ⟨1, _⟩ => rfl
  rw [hsi]
  rfl

/-- On the table's middle axis the operand coordinate of result element `(r, a, b)` is `a`: the start index does
    not address this axis, it is not a batching axis, and it is the first kept axis, read by the first offset axis. -/
theorem rows3_coord1 {N A B R w : Nat}
    (wf : GatherDims.WF ⟨3, ![N, A, B]⟩ ⟨2, ![R, 1]⟩ ⟨3, ![R, A, B]⟩ [1, 2] [0] [] [0] [] 1 ![1, A, B])
    (idx : IVec ⟨2, ![R, 1]⟩ w) (r : Fin R) (a : Fin A) (b : Fin B) :
    (rowDims3 N A B R wf).start (ix3 r a b) idx 1 + (rowDims3 N A B R wf).batchCoord (ix3 r a b) 1
        + (rowDims3 N A B R wf).offCoord (ix3 r a b) 1
      = a.val := by
  rw [GatherDims.batchCoord_eq_zero _ _ _ List.not_mem_nil]
  have hs : (rowDims3 N A B R wf).start (ix3 r a b) idx 1 = 0 := by
    unfold GatherDims.start
    rw [dif_neg (show ¬ (1 : Fin 3) ∈ (rowDims3 N A B R wf).startIndexMap from by simp)]
  rw [hs]
  simp only [Nat.add_zero, Nat.zero_add]
  unfold GatherDims.offCoord
  rw [dif_pos ((GatherDims.mem_sKept _ _).mpr ⟨by simp, List.not_mem_nil⟩)]
  rfl

/-- On the table's last axis the operand coordinate of result element `(r, a, b)` is `b`: the start index does
    not address this axis, it is not a batching axis, and it is the second kept axis, read by the second offset axis. -/
theorem rows3_coord2 {N A B R w : Nat}
    (wf : GatherDims.WF ⟨3, ![N, A, B]⟩ ⟨2, ![R, 1]⟩ ⟨3, ![R, A, B]⟩ [1, 2] [0] [] [0] [] 1 ![1, A, B])
    (idx : IVec ⟨2, ![R, 1]⟩ w) (r : Fin R) (a : Fin A) (b : Fin B) :
    (rowDims3 N A B R wf).start (ix3 r a b) idx 2 + (rowDims3 N A B R wf).batchCoord (ix3 r a b) 2
        + (rowDims3 N A B R wf).offCoord (ix3 r a b) 2
      = b.val := by
  rw [GatherDims.batchCoord_eq_zero _ _ _ List.not_mem_nil]
  have hs : (rowDims3 N A B R wf).start (ix3 r a b) idx 2 = 0 := by
    unfold GatherDims.start
    rw [dif_neg (show ¬ (2 : Fin 3) ∈ (rowDims3 N A B R wf).startIndexMap from by simp)]
  rw [hs]
  simp only [Nat.add_zero, Nat.zero_add]
  unfold GatherDims.offCoord
  rw [dif_pos ((GatherDims.mem_sKept _ _).mpr ⟨by simp, List.not_mem_nil⟩)]
  rfl

/-- THE GATHER READ AT `(r, a, b)`: the table at row `idx[r, 0]`, read signed and clamped into `[0, N − 1]`, at
    `(a, b)` within the row. -/
theorem gather_rows3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (rowDims3 N A B R wf) x idx (ix3 r a b)
      = x (ix3 ⟨min (idx (ix2 r (0 : Fin 1))).toInt.toNat (N - 1), by omega⟩ a b) := by
  unfold Host.gather
  congr 1
  funext d
  refine Fin.ext ?_
  match d with
  | ⟨0, _⟩ => exact rows3_coord0 wf idx r a b
  | ⟨1, _⟩ => exact rows3_coord1 wf idx r a b
  | ⟨2, _⟩ => exact rows3_coord2 wf idx r a b

end Idealize.ShloMosaic.RowGather

end
-- ==== Proof.KBits.HostGathers.lean ====
/-
  The host side of the kernel's program before its launch, as pure functions of the program's arguments, read at an index.

  The task ids are clamped, signed, into [0, 9999] (`idsClip`), then an id below zero would have ten thousand added
  (`idsWrap`: after the clamp none is). The wrapped ids, as a [4096, 1] column of start indices, pick rows of three banks:
  the first layer's biases [10000, 8], the second layer's weights [10000, 1, 8] and the second layer's biases [10000, 1];
  each picked array is then laid out row-major as 32 groups: [32, 1, 1024], [32, 1, 1024] and [32, 1, 128].

  Read at an index, inside the stated domain 0 ≤ id < 10000: group g, position i of the first two is entry i mod 8 of the
  bank row that task g·128 + i / 8 selects, and group g, position t of the third is the bank row task g·128 + t selects.
  With no hypothesis at all, a clamped id read unsigned is below ten thousand.
-/
import proofs.«427848_j22419729285374_3_alg».proof.Kernel
import proofs.«427848_j22419729285374_3_alg».proof.Proof.Gen.Kernel
import proofs.«427848_j22419729285374_3_alg».proof.Proof.Spec
import proofs.«427848_j22419729285374_3_alg».proof.Proof.LibRowGather
import Idealize.ShloMosaic.Lib.ValueIdx
import Idealize.ShloMosaic.Lib.Pipeline.Value

noncomputable section

namespace Cert.Kernel.HostSide

open Idealize.ShloMosaic Idealize.SL.Sem Idealize.ShloMosaic.ValueIdx
open Idealize.ShloMosaic.RowGather
open Cert.Kernel.Gen

variable {F : FTy → Type} [FloatOps F]

/-! ## The host operations before the launch, as functions of the arguments -/

/-- The task ids clamped, signed, into the bank's row range [0, 9999]. -/
def idsClip (x5 : IVec S4096 32) : IVec S4096 32 :=
  minsi (broadcastInDim S4096 ![] bcast_S_S4096 (constantI S_ 32 9999#32))
    (maxsi (broadcastInDim S4096 ![] bcast_S_S4096 (constantI S_ 32 0#32)) x5)

/-- A negative id counted from the end of the bank: ten thousand added where the id is below zero. -/
def idsWrap (v : IVec S4096 32) : IVec S4096 32 :=
  select (cmpi .slt v (broadcastInDim S4096 ![] bcast_S_S4096 (constantI S_ 32 0#32)))
    (addi v (broadcastInDim S4096 ![] bcast_S_S4096 (constantI S_ 32 10000#32))) v

/-- The first layer's biases of each task's head, eight to a task, laid out as 32 groups of 1024. -/
def b1g (x2 : FVec F S10000x8 .f32) (x5 : IVec S4096 32) : FVec F S32x1x1024 .f32 :=
  shapeCast S32x1x1024
    (Host.gather gather_S10000x8_S4096x1_S4096x8_1_0_n_n_0_1_18 x2
      (broadcastInDim S4096x1 ![0] bcast_S4096_S4096x1_0 (idsWrap (idsClip x5))))
    shapeCasts_S4096x8_S32x1x1024

/-- The second layer's weights of each task's head, eight to a task, laid out as 32 groups of 1024. -/
def w2g (x3 : FVec F S10000x1x8 .f32) (x5 : IVec S4096 32) : FVec F S32x1x1024 .f32 :=
  shapeCast S32x1x1024
    (Host.gather gather_S10000x1x8_S4096x1_S4096x1x8_12_0_n_n_0_1_118 x3
      (broadcastInDim S4096x1 ![0] bcast_S4096_S4096x1_0 (idsWrap (idsClip x5))))
    shapeCasts_S4096x1x8_S32x1x1024

/-- The second layer's bias of each task's head, one to a task, laid out as 32 groups of 128. -/
def b2g (x4 : FVec F S10000x1 .f32) (x5 : IVec S4096 32) : FVec F S32x1x128 .f32 :=
  shapeCast S32x1x128
    (Host.gather gather_S10000x1_S4096x1_S4096x1_1_0_n_n_0_1_11 x4
      (broadcastInDim S4096x1 ![0] bcast_S4096_S4096x1_0 (idsWrap (idsClip x5))))
    shapeCasts_S4096x1_S32x1x128

/-! ## Words: the clamp and the wrap on one 32-bit id -/

theorem toInt_zero32 : (0#32 : BitVec 32).toInt = 0 := by decide
theorem toInt_9999 : (9999#32 : BitVec 32).toInt = 9999 := by decide

/-- The signed clamp of a word into [0, 9999], by cases on the word's signed value. -/
theorem clipWord_eq (x : BitVec 32) :
    IntOp.minsi 9999#32 (IntOp.maxsi 0#32 x)
      = if x.toInt < 0 then 0#32 else if 9999 < x.toInt then 9999#32 else x := by
  unfold IntOp.minsi IntOp.maxsi
  by_cases h0 : x.toInt < 0
  · have hs : x.slt 0#32 = true := by simp only [BitVec.slt, toInt_zero32, decide_eq_true_eq]; exact h0
    rw [if_pos hs, if_pos h0]
    have : (9999#32 : BitVec 32).slt 0#32 = false := by decide
    rw [this]; rfl
  · have hs : x.slt 0#32 = false := by simp only [BitVec.slt, toInt_zero32, decide_eq_false_iff_not]; exact h0
    rw [hs, if_neg h0]
    simp only [Bool.false_eq_true, if_false]
    by_cases h1 : 9999 < x.toInt
    · have hs1 : (9999#32 : BitVec 32).slt x = true := by simp only [BitVec.slt, toInt_9999, decide_eq_true_eq]; exact h1
      rw [if_pos hs1, if_pos h1]
    · have hs1 : (9999#32 : BitVec 32).slt x = false := by simp only [BitVec.slt, toInt_9999, decide_eq_false_iff_not]; exact h1
      rw [hs1, if_neg h1]; rfl

/-- A word clamped, signed, into [0, 9999] is, unsigned, below ten thousand: no hypothesis on the word. -/
theorem clipWord_toNat_lt (x : BitVec 32) : (IntOp.minsi 9999#32 (IntOp.maxsi 0#32 x)).toNat < 10000 := by
  rw [clipWord_eq]
  split
  · decide
  · split
    · decide
    · rename_i h0 h1
      have hc := BitVec.toInt_eq_toNat_cond x
      have hlt := x.isLt
      split at hc <;> omega

/-- Inside [0, 9999] the clamp does nothing. -/
theorem clipWord_of_range (x : BitVec 32) (h0 : 0 ≤ x.toInt) (h1 : x.toInt < 10000) :
    IntOp.minsi 9999#32 (IntOp.maxsi 0#32 x) = x := by
  rw [clipWord_eq, if_neg (by omega), if_neg (by omega)]

/-- A word that is not negative is not wrapped. -/
theorem wrapWord_of_nonneg (x : BitVec 32) (h0 : 0 ≤ x.toInt) :
    Scalar.select (IntOp.cmpi .slt x 0#32) (IntOp.addi x 10000#32) x = x := by
  have hs : x.slt 0#32 = false := by simp only [BitVec.slt, toInt_zero32, decide_eq_false_iff_not]; omega
  unfold IntOp.cmpi
  simp only [hs]
  exact select_zero _ _

/-! ## The clamp and the wrap on the vector of ids -/

/-- The clamped ids at a task: the clamp of that task's id. -/
theorem idsClip_apply (x5 : IVec S4096 32) (j : S4096.Idx) :
    idsClip x5 j = IntOp.minsi 9999#32 (IntOp.maxsi 0#32 (x5 j)) := rfl

/-- The wrapped ids at a task: the wrap of that task's id. -/
theorem idsWrap_apply (v : IVec S4096 32) (j : S4096.Idx) :
    idsWrap v j = Scalar.select (IntOp.cmpi .slt (v j) 0#32) (IntOp.addi (v j) 10000#32) (v j) := rfl

/-- Every clamped id, read unsigned, is a row number of the bank. -/
theorem idsClip_toNat_lt (x5 : IVec S4096 32) (j : S4096.Idx) : (idsClip x5 j).toNat < 10000 :=
  clipWord_toNat_lt (x5 j)

/-- On ids that are row numbers already the clamp is the identity. -/
theorem idsClip_eq_of_inRange {x5 : IVec S4096 32} (h : Cert.Spec.InRange x5) : idsClip x5 = x5 := by
  funext j
  rw [eq_ix1 j]
  exact clipWord_of_range _ (h (j 0)).1 (h (j 0)).2

/-- On ids that are row numbers already the wrap is the identity. -/
theorem idsWrap_eq_of_inRange {v : IVec S4096 32} (h : Cert.Spec.InRange v) : idsWrap v = v := by
  funext j
  rw [eq_ix1 j]
  exact wrapWord_of_nonneg _ (h (j 0)).1

/-- The ids as a column: row `r` of the [4096, 1] column is the id of task `r`. -/
theorem idsColumn_apply (v : IVec S4096 32) (r : Fin 4096) :
    broadcastInDim S4096x1 ![0] bcast_S4096_S4096x1_0 v (ix2 r (0 : Fin 1)) = v (ix1 r) :=
  broadcastInDim_apply _ _ v _ _ fun a => match a with | ⟨0, _⟩ => rfl

/-! ## The three row gathers read at an index -/

/-- Row `r` of the gathered first-layer biases is the bank's row at the clamped start index of `r`. -/
theorem gather_b1_apply (x : FVec F S10000x8 .f32) (idx : IVec S4096x1 32) (r : Fin 4096) (c : Fin 8) :
    Host.gather gather_S10000x8_S4096x1_S4096x8_1_0_n_n_0_1_18 x idx (ix2 r c)
      = x (ix2 ⟨min (idx (ix2 r (0 : Fin 1))).toInt.toNat (10000 - 1), by omega⟩ c) :=
  gather_rows2_apply (N := 10000) (C := 8) (R := 4096) (by norm_num) gather_S10000x8_S4096x1_S4096x8_1_0_n_n_0_1_18_wf x idx r c

/-- Row `r` of the gathered second-layer weights likewise, the unit middle axis kept. -/
theorem gather_w2_apply (x : FVec F S10000x1x8 .f32) (idx : IVec S4096x1 32) (r : Fin 4096) (a : Fin 1) (c : Fin 8) :
    Host.gather gather_S10000x1x8_S4096x1_S4096x1x8_12_0_n_n_0_1_118 x idx (ix3 r a c)
      = x (ix3 ⟨min (idx (ix2 r (0 : Fin 1))).toInt.toNat (10000 - 1), by omega⟩ a c) :=
  gather_rows3_apply (N := 10000) (A := 1) (B := 8) (R := 4096) (by norm_num) gather_S10000x1x8_S4096x1_S4096x1x8_12_0_n_n_0_1_118_wf x idx r a c

/-- Row `r` of the gathered second-layer biases likewise. -/
theorem gather_b2_apply (x : FVec F S10000x1 .f32) (idx : IVec S4096x1 32) (r : Fin 4096) (c : Fin 1) :
    Host.gather gather_S10000x1_S4096x1_S4096x1_1_0_n_n_0_1_11 x idx (ix2 r c)
      = x (ix2 ⟨min (idx (ix2 r (0 : Fin 1))).toInt.toNat (10000 - 1), by omega⟩ c) :=
  gather_rows2_apply (N := 10000) (C := 1) (R := 4096) (by norm_num) gather_S10000x1_S4096x1_S4096x1_1_0_n_n_0_1_11_wf x idx r c

/-! ## The row a task reads -/

/-- Inside the stated domain the start index of task `k`, clamped into the bank, is the row `Cert.Spec.row` names. -/
theorem startRow_eq {x5 : IVec S4096 32} (h : Cert.Spec.InRange x5) (k : Fin 4096)
    (hlt : min (broadcastInDim S4096x1 ![0] bcast_S4096_S4096x1_0 (idsWrap (idsClip x5)) (ix2 k (0 : Fin 1))).toInt.toNat (10000 - 1) < 10000) :
    (⟨min (broadcastInDim S4096x1 ![0] bcast_S4096_S4096x1_0 (idsWrap (idsClip x5)) (ix2 k (0 : Fin 1))).toInt.toNat (10000 - 1), hlt⟩ : Fin 10000)
      = Cert.Spec.row x5 k := by
  apply Fin.ext
  show min (broadcastInDim S4096x1 ![0] bcast_S4096_S4096x1_0 (idsWrap (idsClip x5)) (ix2 k (0 : Fin 1))).toInt.toNat (10000 - 1)
    = min (x5 (ix1 k)).toInt.toNat 9999
  rw [idsColumn_apply, idsClip_eq_of_inRange h, idsWrap_eq_of_inRange h]

/-! ## The gathered arrays read at an index -/

/-- Row-major position g·1024 + i of the [32, 1, 1024] layout is entry i mod 8 of task g·128 + i / 8: the first layer's
    bias of that task's head at that unit. -/
theorem b1g_apply {x5 : IVec S4096 32} (h : Cert.Spec.InRange x5) (x2 : FVec Ideal S10000x8 .f32) (g : Fin 32) (i : Fin 1024) :
    b1g (F := Ideal) x2 x5 (ix3 g (0 : Fin 1) i)
      = x2 (ix2 (Cert.Spec.row x5 ⟨g.val * 128 + i.val / 8, by have := g.isLt; have := i.isLt; omega⟩)
          ⟨i.val % 8, Nat.mod_lt _ (by norm_num)⟩) := by
  have hg := g.isLt
  have hi := i.isLt
  unfold b1g
  refine (shapeCast_apply _ shapeCasts_S4096x8_S32x1x1024 _
    (ix2 (⟨g.val * 128 + i.val / 8, by omega⟩ : Fin 4096) (⟨i.val % 8, Nat.mod_lt _ (by norm_num)⟩ : Fin 8)) ?_).trans ?_
  · rw [Shape.rowMajor_val_three, Shape.rowMajor_val_two]
    show (g.val * 128 + i.val / 8) * 8 + i.val % 8 = (g.val * 1 + 0) * 1024 + i.val
    omega
  · refine (gather_b1_apply _ _ _ _).trans ?_
    exact congrArg (fun r => x2 (ix2 r (⟨i.val % 8, Nat.mod_lt _ (by norm_num)⟩ : Fin 8))) (startRow_eq h _ _)

/-- The same position of the second layer's weights: the weight of that task's head at that unit. -/
theorem w2g_apply {x5 : IVec S4096 32} (h : Cert.Spec.InRange x5) (x3 : FVec Ideal S10000x1x8 .f32) (g : Fin 32) (i : Fin 1024) :
    w2g (F := Ideal) x3 x5 (ix3 g (0 : Fin 1) i)
      = x3 (ix3 (Cert.Spec.row x5 ⟨g.val * 128 + i.val / 8, by have := g.isLt; have := i.isLt; omega⟩) (0 : Fin 1)
          ⟨i.val % 8, Nat.mod_lt _ (by norm_num)⟩) := by
  have hg := g.isLt
  have hi := i.isLt
  unfold w2g
  refine (shapeCast_apply _ shapeCasts_S4096x1x8_S32x1x1024 _
    (ix3 (⟨g.val * 128 + i.val / 8, by omega⟩ : Fin 4096) (0 : Fin 1) (⟨i.val % 8, Nat.mod_lt _ (by norm_num)⟩ : Fin 8)) ?_).trans ?_
  · rw [Shape.rowMajor_val_three, Shape.rowMajor_val_three]
    show ((g.val * 128 + i.val / 8) * 1 + 0) * 8 + i.val % 8 = (g.val * 1 + 0) * 1024 + i.val
    omega
  · refine (gather_w2_apply _ _ _ _ _).trans ?_
    exact congrArg (fun r => x3 (ix3 r (0 : Fin 1) (⟨i.val % 8, Nat.mod_lt _ (by norm_num)⟩ : Fin 8))) (startRow_eq h _ _)

/-- Row-major position g·128 + t of the [32, 1, 128] layout is task g·128 + t: the second layer's bias of that task's head. -/
theorem b2g_apply {x5 : IVec S4096 32} (h : Cert.Spec.InRange x5) (x4 : FVec Ideal S10000x1 .f32) (g : Fin 32) (t : Fin 128) :
    b2g (F := Ideal) x4 x5 (ix3 g (0 : Fin 1) t)
      = x4 (ix2 (Cert.Spec.row x5 ⟨g.val * 128 + t.val, by have := g.isLt; have := t.isLt; omega⟩) (0 : Fin 1)) := by
  have hg := g.isLt
  have ht := t.isLt
  unfold b2g
  refine (shapeCast_apply _ shapeCasts_S4096x1_S32x1x128 _
    (ix2 (⟨g.val * 128 + t.val, by omega⟩ : Fin 4096) (0 : Fin 1)) ?_).trans ?_
  · rw [Shape.rowMajor_val_three, Shape.rowMajor_val_two]
    show (g.val * 128 + t.val) * 1 + 0 = (g.val * 1 + 0) * 128 + t.val
    omega
  · refine (gather_b2_apply _ _ _ _).trans ?_
    exact congrArg (fun r => x4 (ix2 r (0 : Fin 1))) (startRow_eq h _ _)

end Cert.Kernel.HostSide

end
-- ==== Proof.KBits.EntryArrays.lean ====
/-
  The arrays the region finds, as functions of the program's arguments.

  When the pallas_call is entered the core's buffers are the launch memory after the five stretches of host lines
  that precede it. Six of those buffers are what the region reads: the table of clipped task ids and the arrays of its
  five input windows. Each is written once, by one host line, as a pure function of buffers written before it; reading
  the fold of the host lines at that buffer, line by line back to @main's arguments, gives the composed term. The
  terms are: the ids clamped into the bank; the embedding narrowed to bf16; the first layer's biases, the second
  layer's weights and the second layer's biases, each gathered at the wrapped clamped ids and laid out by groups; and
  the 0/1 grouping matrix. All six hold for every float instance.
-/
import proofs.«427848_j22419729285374_3_alg».proof.Proof.KBits.Kit
import proofs.«427848_j22419729285374_3_alg».proof.Proof.KBits.GroupMatrix
import proofs.«427848_j22419729285374_3_alg».proof.Proof.KBits.HostGathers
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Unfold the five stretches of host lines into one list, then read the buffer at hand off the fold: each line's
    result at its own buffer is its function of the operands' contents, and every other buffer is left as it was. -/
local macro "entry_array" : tactic => `(tactic| (
  simp only [hostOps0, hostOps0_1, hostOps0_2, hostOps0_3, hostOps0_4, List.flatten_cons, List.flatten_nil, List.append_nil, List.cons_append,
    List.nil_append]
  after_results_simp))

/-- The clipped ids: the prefetched table's array. -/
theorem V_v0 (c : Dev nD) :
    (V m c main_v0 : IVec S4096 32) = HostSide.idsClip (m ((c : Thread nD τ).loc main_arg5)) := by
  show StableHlo.after (List.flatten [hostOps0, hostOps0_1, hostOps0_2, hostOps0_3, hostOps0_4]) (fun b => m (c, b)) (Proc.devRef .tc main_v0) = _
  entry_array
  rfl

/-- The embedding narrowed to bf16: the first window's array. -/
theorem V_v1 (c : Dev nD) :
    (V m c main_v1 : FVec F S256x1024 .bf16) = truncf .bf16 (m ((c : Thread nD τ).loc main_arg0)) bitsLt_bf16_f32 := by
  show StableHlo.after (List.flatten [hostOps0, hostOps0_1, hostOps0_2, hostOps0_3, hostOps0_4]) (fun b => m (c, b)) (Proc.devRef .tc main_v1) = _
  entry_array

/-- The first layer's biases of each task's head, gathered and laid out by groups: the second window's array. -/
theorem V_v9 (c : Dev nD) :
    (V m c main_v9 : FVec F S32x1x1024 .f32) = HostSide.b1g (m ((c : Thread nD τ).loc main_arg2)) (m ((c : Thread nD τ).loc main_arg5)) := by
  show StableHlo.after (List.flatten [hostOps0, hostOps0_1, hostOps0_2, hostOps0_3, hostOps0_4]) (fun b => m (c, b)) (Proc.devRef .tc main_v9) = _
  entry_array
  rfl

/-- The second layer's weights of each task's head, gathered and laid out by groups: the third window's array. -/
theorem V_v17 (c : Dev nD) :
    (V m c main_v17 : FVec F S32x1x1024 .f32) = HostSide.w2g (m ((c : Thread nD τ).loc main_arg3)) (m ((c : Thread nD τ).loc main_arg5)) := by
  show StableHlo.after (List.flatten [hostOps0, hostOps0_1, hostOps0_2, hostOps0_3, hostOps0_4]) (fun b => m (c, b)) (Proc.devRef .tc main_v17) = _
  entry_array
  rfl

/-- The second layer's bias of each task's head, gathered and laid out by groups: the fourth window's array. -/
theorem V_v25 (c : Dev nD) :
    (V m c main_v25 : FVec F S32x1x128 .f32) = HostSide.b2g (m ((c : Thread nD τ).loc main_arg4)) (m ((c : Thread nD τ).loc main_arg5)) := by
  show StableHlo.after (List.flatten [hostOps0, hostOps0_1, hostOps0_2, hostOps0_3, hostOps0_4]) (fun b => m (c, b)) (Proc.devRef .tc main_v25) = _
  entry_array
  rfl

/-- The 0/1 grouping matrix: the fifth window's array. -/
theorem V_v34 (c : Dev nD) :
    (V m c main_v34 : FVec F S1024x128 .f32) = GroupMatrix.grp := by
  show StableHlo.after (List.flatten [hostOps0, hostOps0_1, hostOps0_2, hostOps0_3, hostOps0_4]) (fun b => m (c, b)) (Proc.devRef .tc main_v34) = _
  entry_array
  rfl

end Cert.Kernel.Hand

end
-- ==== Proof.KBits.Frame.lean ====
/-
  The frame of the kernel program, closed: both hypotheses of the frame hold outright.

  No window's index map reads the table, so the pipeline's side condition of it is empty. And the table IS the ids
  clipped into [0, 9999] by the host lines before the call, so every word of it, read as a row number, is below 10000:
  each of the 128 rows the body copies lies inside the weight bank, whatever the launch memory holds.
-/
import proofs.«427848_j22419729285374_3_alg».proof.Proof.KBits.Cert
import proofs.«427848_j22419729285374_3_alg».proof.Proof.KBits.WordsOk
import proofs.«427848_j22419729285374_3_alg».proof.Proof.KBits.EntryArrays

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ) (ρ : Dev nD → PrngReg)

/-- The pipeline asks nothing of the table (no index map reads it). -/
theorem ok : Ok m := by unfold Ok ok0; trivial

/-- Every word of the table is a row number of the bank: the table is the clipped ids. -/
theorem table_lt (j : S4096.Idx) : ((tbl m 0 : IVec S4096 32) j).toNat < 10000 := by
  show ((V m (0 : Dev nD) main_v0 : IVec S4096 32) j).toNat < 10000
  rw [V_v0 m 0]
  exact HostSide.idsClip_toNat_lt _ j

/-- So the body's side conditions hold at every grid point. -/
theorem allWords : AllWords m (ok m) := fun c t =>
  words_of_lt c (grid0.coords t) (tbl m 0) (table_lt m)

/-- THE FRAME of the kernel program, at any `F`, from any launch memory. -/
theorem frame_all :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame m ρ (ok m) (allWords m)

end Cert.Kernel.Hand

end
-- ==== Proof.KIdeal.Tables.lean ====
import proofs.«427848_j22419729285374_3_alg».proof.Proof.Gen.KernelIdeal.Launch
import proofs.«427848_j22419729285374_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

/-- The task-id table as the body is handed it: the whole SMEM buffer. -/
abbrev tbM : Memref sig .tc .smem S4096 .i32 := Memref.whole main_v0
abbrev htbM : tbM.IsWhole := Memref.isWhole_whole _

/-- The kernel's own DMA cells, one per row of the group. -/
abbrev osem : Fin 128 → SemLoc sig := fun j => (![SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36, SemLoc.dma 37, SemLoc.dma 38, SemLoc.dma 39, SemLoc.dma 40, SemLoc.dma 41, SemLoc.dma 42, SemLoc.dma 43, SemLoc.dma 44, SemLoc.dma 45, SemLoc.dma 46, SemLoc.dma 47, SemLoc.dma 48, SemLoc.dma 49, SemLoc.dma 50, SemLoc.dma 51, SemLoc.dma 52, SemLoc.dma 53, SemLoc.dma 54, SemLoc.dma 55, SemLoc.dma 56, SemLoc.dma 57, SemLoc.dma 58, SemLoc.dma 59, SemLoc.dma 60, SemLoc.dma 61, SemLoc.dma 62, SemLoc.dma 63, SemLoc.dma 64, SemLoc.dma 65, SemLoc.dma 66, SemLoc.dma 67, SemLoc.dma 68, SemLoc.dma 69, SemLoc.dma 70, SemLoc.dma 71, SemLoc.dma 72, SemLoc.dma 73, SemLoc.dma 74, SemLoc.dma 75, SemLoc.dma 76, SemLoc.dma 77, SemLoc.dma 78, SemLoc.dma 79, SemLoc.dma 80, SemLoc.dma 81, SemLoc.dma 82, SemLoc.dma 83, SemLoc.dma 84, SemLoc.dma 85, SemLoc.dma 86, SemLoc.dma 87, SemLoc.dma 88, SemLoc.dma 89, SemLoc.dma 90, SemLoc.dma 91, SemLoc.dma 92, SemLoc.dma 93, SemLoc.dma 94, SemLoc.dma 95, SemLoc.dma 96, SemLoc.dma 97, SemLoc.dma 98, SemLoc.dma 99, SemLoc.dma 100, SemLoc.dma 101, SemLoc.dma 102, SemLoc.dma 103, SemLoc.dma 104, SemLoc.dma 105, SemLoc.dma 106, SemLoc.dma 107, SemLoc.dma 108, SemLoc.dma 109, SemLoc.dma 110, SemLoc.dma 111, SemLoc.dma 112, SemLoc.dma 113, SemLoc.dma 114, SemLoc.dma 115, SemLoc.dma 116, SemLoc.dma 117, SemLoc.dma 118, SemLoc.dma 119, SemLoc.dma 120, SemLoc.dma 121, SemLoc.dma 122, SemLoc.dma 123, SemLoc.dma 124, SemLoc.dma 125, SemLoc.dma 126, SemLoc.dma 127, SemLoc.dma 128, SemLoc.dma 129, SemLoc.dma 130, SemLoc.dma 131, SemLoc.dma 132, SemLoc.dma 133, SemLoc.dma 134, SemLoc.dma 135, SemLoc.dma 136, SemLoc.dma 137] : Fin 128 → SemLoc sig) j
theorem ownSemFacts : Pipeline.OwnSemFacts spec0 osem := by decide

/-- Every own cell's counter at zero, cell by cell. -/
def cellsAtZero (c : Dev nD) : sProp 𝕄 :=
  iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ semVal ((c : Thread nD τ), SemLoc.dma 53) 0 ∗ semVal ((c : Thread nD τ), SemLoc.dma 54) 0 ∗ semVal ((c : Thread nD τ), SemLoc.dma 55) 0 ∗ semVal ((c : Thread nD τ), SemLoc.dma 56) 0 ∗ semVal ((c : Thread nD τ), SemLoc.dma 57) 0 ∗ semVal ((c : Thread nD τ), SemLoc.dma 58) 0 ∗ semVal ((c : Thread nD τ), SemLoc.dma 59) 0 ∗ semVal ((c : Thread nD τ), SemLoc.dma 60) 0 ∗ semVal ((c : Thread nD τ), SemLoc.dma 61) 0 ∗ semVal ((c : Thread nD τ), SemLoc.dma 62) 0 ∗ semVal ((c : Thread nD τ), SemLoc.dma 63) 0 ∗ semVal ((c : Thread nD τ), SemLoc.dma 64) 0 ∗ semVal ((c : Thread nD τ), SemLoc.dma 65) 0 ∗ semVal ((c : Thread nD τ), SemLoc.dma 66) 0 ∗ semVal ((c : Thread nD τ), SemLoc.dma 67) 0 ∗ semVal ((c : Thread nD τ), SemLoc.dma 68) 0 ∗ semVal ((c : Thread nD τ), SemLoc.dma 69) 0 ∗ semVal ((c : Thread nD τ), SemLoc.dma 70) 0 ∗ semVal ((c : Thread nD τ), SemLoc.dma 71) 0 ∗ semVal ((c : Thread nD τ), SemLoc.dma 72) 0 ∗ semVal ((c : Thread nD τ), SemLoc.dma 73) 0 ∗ semVal ((c : Thread nD τ), SemLoc.dma 74) 0 ∗ semVal ((c : Thread nD τ), SemLoc.dma 75) 0 ∗ semVal ((c : Thread nD τ), SemLoc.dma 76) 0 ∗ semVal ((c : Thread nD τ), SemLoc.dma 77) 0 ∗ semVal ((c : Thread nD τ), SemLoc.dma 78) 0 ∗ semVal ((c : Thread nD τ), SemLoc.dma 79) 0 ∗ semVal ((c : Thread nD τ), SemLoc.dma 80) 0 ∗ semVal ((c : Thread nD τ), SemLoc.dma 81) 0 ∗ semVal ((c : Thread nD τ), SemLoc.dma 82) 0 ∗ semVal ((c : Thread nD τ), SemLoc.dma 83) 0 ∗ semVal ((c : Thread nD τ), SemLoc.dma 84) 0 ∗ semVal ((c : Thread nD τ), SemLoc.dma 85) 0 ∗ semVal ((c : Thread nD τ), SemLoc.dma 86) 0 ∗ semVal ((c : Thread nD τ), SemLoc.dma 87) 0 ∗ semVal ((c : Thread nD τ), SemLoc.dma 88) 0 ∗ semVal ((c : Thread nD τ), SemLoc.dma 89) 0 ∗ semVal ((c : Thread nD τ), SemLoc.dma 90) 0 ∗ semVal ((c : Thread nD τ), SemLoc.dma 91) 0 ∗ semVal ((c : Thread nD τ), SemLoc.dma 92) 0 ∗ semVal ((c : Thread nD τ), SemLoc.dma 93) 0 ∗ semVal ((c : Thread nD τ), SemLoc.dma 94) 0 ∗ semVal ((c : Thread nD τ), SemLoc.dma 95) 0 ∗ semVal ((c : Thread nD τ), SemLoc.dma 96) 0 ∗ semVal ((c : Thread nD τ), SemLoc.dma 97) 0 ∗ semVal ((c : Thread nD τ), SemLoc.dma 98) 0 ∗ semVal ((c : Thread nD τ), SemLoc.dma 99) 0 ∗ semVal ((c : Thread nD τ), SemLoc.dma 100) 0 ∗ semVal ((c : Thread nD τ), SemLoc.dma 101) 0 ∗ semVal ((c : Thread nD τ), SemLoc.dma 102) 0 ∗ semVal ((c : Thread nD τ), SemLoc.dma 103) 0 ∗ semVal ((c : Thread nD τ), SemLoc.dma 104) 0 ∗ semVal ((c : Thread nD τ), SemLoc.dma 105) 0 ∗ semVal ((c : Thread nD τ), SemLoc.dma 106) 0 ∗ semVal ((c : Thread nD τ), SemLoc.dma 107) 0 ∗ semVal ((c : Thread nD τ), SemLoc.dma 108) 0 ∗ semVal ((c : Thread nD τ), SemLoc.dma 109) 0 ∗ semVal ((c : Thread nD τ), SemLoc.dma 110) 0 ∗ semVal ((c : Thread nD τ), SemLoc.dma 111) 0 ∗ semVal ((c : Thread nD τ), SemLoc.dma 112) 0 ∗ semVal ((c : Thread nD τ), SemLoc.dma 113) 0 ∗ semVal ((c : Thread nD τ), SemLoc.dma 114) 0 ∗ semVal ((c : Thread nD τ), SemLoc.dma 115) 0 ∗ semVal ((c : Thread nD τ), SemLoc.dma 116) 0 ∗ semVal ((c : Thread nD τ), SemLoc.dma 117) 0 ∗ semVal ((c : Thread nD τ), SemLoc.dma 118) 0 ∗ semVal ((c : Thread nD τ), SemLoc.dma 119) 0 ∗ semVal ((c : Thread nD τ), SemLoc.dma 120) 0 ∗ semVal ((c : Thread nD τ), SemLoc.dma 121) 0 ∗ semVal ((c : Thread nD τ), SemLoc.dma 122) 0 ∗ semVal ((c : Thread nD τ), SemLoc.dma 123) 0 ∗ semVal ((c : Thread nD τ), SemLoc.dma 124) 0 ∗ semVal ((c : Thread nD τ), SemLoc.dma 125) 0 ∗ semVal ((c : Thread nD τ), SemLoc.dma 126) 0 ∗ semVal ((c : Thread nD τ), SemLoc.dma 127) 0 ∗ semVal ((c : Thread nD τ), SemLoc.dma 128) 0 ∗ semVal ((c : Thread nD τ), SemLoc.dma 129) 0 ∗ semVal ((c : Thread nD τ), SemLoc.dma 130) 0 ∗ semVal ((c : Thread nD τ), SemLoc.dma 131) 0 ∗ semVal ((c : Thread nD τ), SemLoc.dma 132) 0 ∗ semVal ((c : Thread nD τ), SemLoc.dma 133) 0 ∗ semVal ((c : Thread nD τ), SemLoc.dma 134) 0 ∗ semVal ((c : Thread nD τ), SemLoc.dma 135) 0 ∗ semVal ((c : Thread nD τ), SemLoc.dma 136) 0 ∗ semVal ((c : Thread nD τ), SemLoc.dma 137) 0)

theorem ownSems_eq (c : Dev nD) :
    (Pipeline.ownSems0 (Ix := Unit) (Name := ℕ) (U := Pipeline.UD sig nD τ) (Lvl := ℕ) (Val := Elt F) (τ := τ) osem c : sProp 𝕄) = cellsAtZero c := by
  unfold cellsAtZero
  rw [Pipeline.ownSems0_eq_of_list c osem [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] (by decide) (by decide)]; rfl

/-- The side conditions the body assumes at grid point `i`, of the 128 words it reads from the table `xt`: word t, read as a row number, leaves a whole row of the bank in range. -/
structure Words (c : Dev nD) (i : grid0.Coords) (xt : Buf (Elt F) (tbM.view.loc (c : Thread nD τ))) : Prop where
  h1 : k0_chk1 (tbM.view.readAt (Elt F) (Rect.unit (s := S4096) (k0_off1 i) S1.size (k0_off1_inb i)).toLoadRect xt (Shape.Idx.first (numel1_S1.symm ▸ Nat.one_pos)))
  h2 : k0_chk2 (tbM.view.readAt (Elt F) (Rect.unit (s := S4096) (k0_off3 i) S1.size (k0_off3_inb i)).toLoadRect xt (Shape.Idx.first (numel1_S1.symm ▸ Nat.one_pos)))
  h3 : k0_chk3 (tbM.view.readAt (Elt F) (Rect.unit (s := S4096) (k0_off5 i) S1.size (k0_off5_inb i)).toLoadRect xt (Shape.Idx.first (numel1_S1.symm ▸ Nat.one_pos)))
  h4 : k0_chk4 (tbM.view.readAt (Elt F) (Rect.unit (s := S4096) (k0_off7 i) S1.size (k0_off7_inb i)).toLoadRect xt (Shape.Idx.first (numel1_S1.symm ▸ Nat.one_pos)))
  h5 : k0_chk5 (tbM.view.readAt (Elt F) (Rect.unit (s := S4096) (k0_off9 i) S1.size (k0_off9_inb i)).toLoadRect xt (Shape.Idx.first (numel1_S1.symm ▸ Nat.one_pos)))
  h6 : k0_chk6 (tbM.view.readAt (Elt F) (Rect.unit (s := S4096) (k0_off11 i) S1.size (k0_off11_inb i)).toLoadRect xt (Shape.Idx.first (numel1_S1.symm ▸ Nat.one_pos)))
  h7 : k0_chk7 (tbM.view.readAt (Elt F) (Rect.unit (s := S4096) (k0_off13 i) S1.size (k0_off13_inb i)).toLoadRect xt (Shape.Idx.first (numel1_S1.symm ▸ Nat.one_pos)))
  h8 : k0_chk8 (tbM.view.readAt (Elt F) (Rect.unit (s := S4096) (k0_off15 i) S1.size (k0_off15_inb i)).toLoadRect xt (Shape.Idx.first (numel1_S1.symm ▸ Nat.one_pos)))
  h9 : k0_chk9 (tbM.view.readAt (Elt F) (Rect.unit (s := S4096) (k0_off17 i) S1.size (k0_off17_inb i)).toLoadRect xt (Shape.Idx.first (numel1_S1.symm ▸ Nat.one_pos)))
  h10 : k0_chk10 (tbM.view.readAt (Elt F) (Rect.unit (s := S4096) (k0_off19 i) S1.size (k0_off19_inb i)).toLoadRect xt (Shape.Idx.first (numel1_S1.symm ▸ Nat.one_pos)))
  h11 : k0_chk11 (tbM.view.readAt (Elt F) (Rect.unit (s := S4096) (k0_off21 i) S1.size (k0_off21_inb i)).toLoadRect xt (Shape.Idx.first (numel1_S1.symm ▸ Nat.one_pos)))
  h12 : k0_chk12 (tbM.view.readAt (Elt F) (Rect.unit (s := S4096) (k0_off23 i) S1.size (k0_off23_inb i)).toLoadRect xt (Shape.Idx.first (numel1_S1.symm ▸ Nat.one_pos)))
  h13 : k0_chk13 (tbM.view.readAt (Elt F) (Rect.unit (s := S4096) (k0_off25 i) S1.size (k0_off25_inb i)).toLoadRect xt (Shape.Idx.first (numel1_S1.symm ▸ Nat.one_pos)))
  h14 : k0_chk14 (tbM.view.readAt (Elt F) (Rect.unit (s := S4096) (k0_off27 i) S1.size (k0_off27_inb i)).toLoadRect xt (Shape.Idx.first (numel1_S1.symm ▸ Nat.one_pos)))
  h15 : k0_chk15 (tbM.view.readAt (Elt F) (Rect.unit (s := S4096) (k0_off29 i) S1.size (k0_off29_inb i)).toLoadRect xt (Shape.Idx.first (numel1_S1.symm ▸ Nat.one_pos)))
  h16 : k0_chk16 (tbM.view.readAt (Elt F) (Rect.unit (s := S4096) (k0_off31 i) S1.size (k0_off31_inb i)).toLoadRect xt (Shape.Idx.first (numel1_S1.symm ▸ Nat.one_pos)))
  h17 : k0_chk17 (tbM.view.readAt (Elt F) (Rect.unit (s := S4096) (k0_off33 i) S1.size (k0_off33_inb i)).toLoadRect xt (Shape.Idx.first (numel1_S1.symm ▸ Nat.one_pos)))
  h18 : k0_chk18 (tbM.view.readAt (Elt F) (Rect.unit (s := S4096) (k0_off35 i) S1.size (k0_off35_inb i)).toLoadRect xt (Shape.Idx.first (numel1_S1.symm ▸ Nat.one_pos)))
  h19 : k0_chk19 (tbM.view.readAt (Elt F) (Rect.unit (s := S4096) (k0_off37 i) S1.size (k0_off37_inb i)).toLoadRect xt (Shape.Idx.first (numel1_S1.symm ▸ Nat.one_pos)))
  h20 : k0_chk20 (tbM.view.readAt (Elt F) (Rect.unit (s := S4096) (k0_off39 i) S1.size (k0_off39_inb i)).toLoadRect xt (Shape.Idx.first (numel1_S1.symm ▸ Nat.one_pos)))
  h21 : k0_chk21 (tbM.view.readAt (Elt F) (Rect.unit (s := S4096) (k0_off41 i) S1.size (k0_off41_inb i)).toLoadRect xt (Shape.Idx.first (numel1_S1.symm ▸ Nat.one_pos)))
  h22 : k0_chk22 (tbM.view.readAt (Elt F) (Rect.unit (s := S4096) (k0_off43 i) S1.size (k0_off43_inb i)).toLoadRect xt (Shape.Idx.first (numel1_S1.symm ▸ Nat.one_pos)))
  h23 : k0_chk23 (tbM.view.readAt (Elt F) (Rect.unit (s := S4096) (k0_off45 i) S1.size (k0_off45_inb i)).toLoadRect xt (Shape.Idx.first (numel1_S1.symm ▸ Nat.one_pos)))
  h24 : k0_chk24 (tbM.view.readAt (Elt F) (Rect.unit (s := S4096) (k0_off47 i) S1.size (k0_off47_inb i)).toLoadRect xt (Shape.Idx.first (numel1_S1.symm ▸ Nat.one_pos)))
  h25 : k0_chk25 (tbM.view.readAt (Elt F) (Rect.unit (s := S4096) (k0_off49 i) S1.size (k0_off49_inb i)).toLoadRect xt (Shape.Idx.first (numel1_S1.symm ▸ Nat.one_pos)))
  h26 : k0_chk26 (tbM.view.readAt (Elt F) (Rect.unit (s := S4096) (k0_off51 i) S1.size (k0_off51_inb i)).toLoadRect xt (Shape.Idx.first (numel1_S1.symm ▸ Nat.one_pos)))
  h27 : k0_chk27 (tbM.view.readAt (Elt F) (Rect.unit (s := S4096) (k0_off53 i) S1.size (k0_off53_inb i)).toLoadRect xt (Shape.Idx.first (numel1_S1.symm ▸ Nat.one_pos)))
  h28 : k0_chk28 (tbM.view.readAt (Elt F) (Rect.unit (s := S4096) (k0_off55 i) S1.size (k0_off55_inb i)).toLoadRect xt (Shape.Idx.first (numel1_S1.symm ▸ Nat.one_pos)))
  h29 : k0_chk29 (tbM.view.readAt (Elt F) (Rect.unit (s := S4096) (k0_off57 i) S1.size (k0_off57_inb i)).toLoadRect xt (Shape.Idx.first (numel1_S1.symm ▸ Nat.one_pos)))
  h30 : k0_chk30 (tbM.view.readAt (Elt F) (Rect.unit (s := S4096) (k0_off59 i) S1.size (k0_off59_inb i)).toLoadRect xt (Shape.Idx.first (numel1_S1.symm ▸ Nat.one_pos)))
  h31 : k0_chk31 (tbM.view.readAt (Elt F) (Rect.unit (s := S4096) (k0_off61 i) S1.size (k0_off61_inb i)).toLoadRect xt (Shape.Idx.first (numel1_S1.symm ▸ Nat.one_pos)))
  h32 : k0_chk32 (tbM.view.readAt (Elt F) (Rect.unit (s := S4096) (k0_off63 i) S1.size (k0_off63_inb i)).toLoadRect xt (Shape.Idx.first (numel1_S1.symm ▸ Nat.one_pos)))
  h33 : k0_chk33 (tbM.view.readAt (Elt F) (Rect.unit (s := S4096) (k0_off65 i) S1.size (k0_off65_inb i)).toLoadRect xt (Shape.Idx.first (numel1_S1.symm ▸ Nat.one_pos)))
  h34 : k0_chk34 (tbM.view.readAt (Elt F) (Rect.unit (s := S4096) (k0_off67 i) S1.size (k0_off67_inb i)).toLoadRect xt (Shape.Idx.first (numel1_S1.symm ▸ Nat.one_pos)))
  h35 : k0_chk35 (tbM.view.readAt (Elt F) (Rect.unit (s := S4096) (k0_off69 i) S1.size (k0_off69_inb i)).toLoadRect xt (Shape.Idx.first (numel1_S1.symm ▸ Nat.one_pos)))
  h36 : k0_chk36 (tbM.view.readAt (Elt F) (Rect.unit (s := S4096) (k0_off71 i) S1.size (k0_off71_inb i)).toLoadRect xt (Shape.Idx.first (numel1_S1.symm ▸ Nat.one_pos)))
  h37 : k0_chk37 (tbM.view.readAt (Elt F) (Rect.unit (s := S4096) (k0_off73 i) S1.size (k0_off73_inb i)).toLoadRect xt (Shape.Idx.first (numel1_S1.symm ▸ Nat.one_pos)))
  h38 : k0_chk38 (tbM.view.readAt (Elt F) (Rect.unit (s := S4096) (k0_off75 i) S1.size (k0_off75_inb i)).toLoadRect xt (Shape.Idx.first (numel1_S1.symm ▸ Nat.one_pos)))
  h39 : k0_chk39 (tbM.view.readAt (Elt F) (Rect.unit (s := S4096) (k0_off77 i) S1.size (k0_off77_inb i)).toLoadRect xt (Shape.Idx.first (numel1_S1.symm ▸ Nat.one_pos)))
  h40 : k0_chk40 (tbM.view.readAt (Elt F) (Rect.unit (s := S4096) (k0_off79 i) S1.size (k0_off79_inb i)).toLoadRect xt (Shape.Idx.first (numel1_S1.symm ▸ Nat.one_pos)))
  h41 : k0_chk41 (tbM.view.readAt (Elt F) (Rect.unit (s := S4096) (k0_off81 i) S1.size (k0_off81_inb i)).toLoadRect xt (Shape.Idx.first (numel1_S1.symm ▸ Nat.one_pos)))
  h42 : k0_chk42 (tbM.view.readAt (Elt F) (Rect.unit (s := S4096) (k0_off83 i) S1.size (k0_off83_inb i)).toLoadRect xt (Shape.Idx.first (numel1_S1.symm ▸ Nat.one_pos)))
  h43 : k0_chk43 (tbM.view.readAt (Elt F) (Rect.unit (s := S4096) (k0_off85 i) S1.size (k0_off85_inb i)).toLoadRect xt (Shape.Idx.first (numel1_S1.symm ▸ Nat.one_pos)))
  h44 : k0_chk44 (tbM.view.readAt (Elt F) (Rect.unit (s := S4096) (k0_off87 i) S1.size (k0_off87_inb i)).toLoadRect xt (Shape.Idx.first (numel1_S1.symm ▸ Nat.one_pos)))
  h45 : k0_chk45 (tbM.view.readAt (Elt F) (Rect.unit (s := S4096) (k0_off89 i) S1.size (k0_off89_inb i)).toLoadRect xt (Shape.Idx.first (numel1_S1.symm ▸ Nat.one_pos)))
  h46 : k0_chk46 (tbM.view.readAt (Elt F) (Rect.unit (s := S4096) (k0_off91 i) S1.size (k0_off91_inb i)).toLoadRect xt (Shape.Idx.first (numel1_S1.symm ▸ Nat.one_pos)))
  h47 : k0_chk47 (tbM.view.readAt (Elt F) (Rect.unit (s := S4096) (k0_off93 i) S1.size (k0_off93_inb i)).toLoadRect xt (Shape.Idx.first (numel1_S1.symm ▸ Nat.one_pos)))
  h48 : k0_chk48 (tbM.view.readAt (Elt F) (Rect.unit (s := S4096) (k0_off95 i) S1.size (k0_off95_inb i)).toLoadRect xt (Shape.Idx.first (numel1_S1.symm ▸ Nat.one_pos)))
  h49 : k0_chk49 (tbM.view.readAt (Elt F) (Rect.unit (s := S4096) (k0_off97 i) S1.size (k0_off97_inb i)).toLoadRect xt (Shape.Idx.first (numel1_S1.symm ▸ Nat.one_pos)))
  h50 : k0_chk50 (tbM.view.readAt (Elt F) (Rect.unit (s := S4096) (k0_off99 i) S1.size (k0_off99_inb i)).toLoadRect xt (Shape.Idx.first (numel1_S1.symm ▸ Nat.one_pos)))
  h51 : k0_chk51 (tbM.view.readAt (Elt F) (Rect.unit (s := S4096) (k0_off101 i) S1.size (k0_off101_inb i)).toLoadRect xt (Shape.Idx.first (numel1_S1.symm ▸ Nat.one_pos)))
  h52 : k0_chk52 (tbM.view.readAt (Elt F) (Rect.unit (s := S4096) (k0_off103 i) S1.size (k0_off103_inb i)).toLoadRect xt (Shape.Idx.first (numel1_S1.symm ▸ Nat.one_pos)))
  h53 : k0_chk53 (tbM.view.readAt (Elt F) (Rect.unit (s := S4096) (k0_off105 i) S1.size (k0_off105_inb i)).toLoadRect xt (Shape.Idx.first (numel1_S1.symm ▸ Nat.one_pos)))
  h54 : k0_chk54 (tbM.view.readAt (Elt F) (Rect.unit (s := S4096) (k0_off107 i) S1.size (k0_off107_inb i)).toLoadRect xt (Shape.Idx.first (numel1_S1.symm ▸ Nat.one_pos)))
  h55 : k0_chk55 (tbM.view.readAt (Elt F) (Rect.unit (s := S4096) (k0_off109 i) S1.size (k0_off109_inb i)).toLoadRect xt (Shape.Idx.first (numel1_S1.symm ▸ Nat.one_pos)))
  h56 : k0_chk56 (tbM.view.readAt (Elt F) (Rect.unit (s := S4096) (k0_off111 i) S1.size (k0_off111_inb i)).toLoadRect xt (Shape.Idx.first (numel1_S1.symm ▸ Nat.one_pos)))
  h57 : k0_chk57 (tbM.view.readAt (Elt F) (Rect.unit (s := S4096) (k0_off113 i) S1.size (k0_off113_inb i)).toLoadRect xt (Shape.Idx.first (numel1_S1.symm ▸ Nat.one_pos)))
  h58 : k0_chk58 (tbM.view.readAt (Elt F) (Rect.unit (s := S4096) (k0_off115 i) S1.size (k0_off115_inb i)).toLoadRect xt (Shape.Idx.first (numel1_S1.symm ▸ Nat.one_pos)))
  h59 : k0_chk59 (tbM.view.readAt (Elt F) (Rect.unit (s := S4096) (k0_off117 i) S1.size (k0_off117_inb i)).toLoadRect xt (Shape.Idx.first (numel1_S1.symm ▸ Nat.one_pos)))
  h60 : k0_chk60 (tbM.view.readAt (Elt F) (Rect.unit (s := S4096) (k0_off119 i) S1.size (k0_off119_inb i)).toLoadRect xt (Shape.Idx.first (numel1_S1.symm ▸ Nat.one_pos)))
  h61 : k0_chk61 (tbM.view.readAt (Elt F) (Rect.unit (s := S4096) (k0_off121 i) S1.size (k0_off121_inb i)).toLoadRect xt (Shape.Idx.first (numel1_S1.symm ▸ Nat.one_pos)))
  h62 : k0_chk62 (tbM.view.readAt (Elt F) (Rect.unit (s := S4096) (k0_off123 i) S1.size (k0_off123_inb i)).toLoadRect xt (Shape.Idx.first (numel1_S1.symm ▸ Nat.one_pos)))
  h63 : k0_chk63 (tbM.view.readAt (Elt F) (Rect.unit (s := S4096) (k0_off125 i) S1.size (k0_off125_inb i)).toLoadRect xt (Shape.Idx.first (numel1_S1.symm ▸ Nat.one_pos)))
  h64 : k0_chk64 (tbM.view.readAt (Elt F) (Rect.unit (s := S4096) (k0_off127 i) S1.size (k0_off127_inb i)).toLoadRect xt (Shape.Idx.first (numel1_S1.symm ▸ Nat.one_pos)))
  h65 : k0_chk65 (tbM.view.readAt (Elt F) (Rect.unit (s := S4096) (k0_off129 i) S1.size (k0_off129_inb i)).toLoadRect xt (Shape.Idx.first (numel1_S1.symm ▸ Nat.one_pos)))
  h66 : k0_chk66 (tbM.view.readAt (Elt F) (Rect.unit (s := S4096) (k0_off131 i) S1.size (k0_off131_inb i)).toLoadRect xt (Shape.Idx.first (numel1_S1.symm ▸ Nat.one_pos)))
  h67 : k0_chk67 (tbM.view.readAt (Elt F) (Rect.unit (s := S4096) (k0_off133 i) S1.size (k0_off133_inb i)).toLoadRect xt (Shape.Idx.first (numel1_S1.symm ▸ Nat.one_pos)))
  h68 : k0_chk68 (tbM.view.readAt (Elt F) (Rect.unit (s := S4096) (k0_off135 i) S1.size (k0_off135_inb i)).toLoadRect xt (Shape.Idx.first (numel1_S1.symm ▸ Nat.one_pos)))
  h69 : k0_chk69 (tbM.view.readAt (Elt F) (Rect.unit (s := S4096) (k0_off137 i) S1.size (k0_off137_inb i)).toLoadRect xt (Shape.Idx.first (numel1_S1.symm ▸ Nat.one_pos)))
  h70 : k0_chk70 (tbM.view.readAt (Elt F) (Rect.unit (s := S4096) (k0_off139 i) S1.size (k0_off139_inb i)).toLoadRect xt (Shape.Idx.first (numel1_S1.symm ▸ Nat.one_pos)))
  h71 : k0_chk71 (tbM.view.readAt (Elt F) (Rect.unit (s := S4096) (k0_off141 i) S1.size (k0_off141_inb i)).toLoadRect xt (Shape.Idx.first (numel1_S1.symm ▸ Nat.one_pos)))
  h72 : k0_chk72 (tbM.view.readAt (Elt F) (Rect.unit (s := S4096) (k0_off143 i) S1.size (k0_off143_inb i)).toLoadRect xt (Shape.Idx.first (numel1_S1.symm ▸ Nat.one_pos)))
  h73 : k0_chk73 (tbM.view.readAt (Elt F) (Rect.unit (s := S4096) (k0_off145 i) S1.size (k0_off145_inb i)).toLoadRect xt (Shape.Idx.first (numel1_S1.symm ▸ Nat.one_pos)))
  h74 : k0_chk74 (tbM.view.readAt (Elt F) (Rect.unit (s := S4096) (k0_off147 i) S1.size (k0_off147_inb i)).toLoadRect xt (Shape.Idx.first (numel1_S1.symm ▸ Nat.one_pos)))
  h75 : k0_chk75 (tbM.view.readAt (Elt F) (Rect.unit (s := S4096) (k0_off149 i) S1.size (k0_off149_inb i)).toLoadRect xt (Shape.Idx.first (numel1_S1.symm ▸ Nat.one_pos)))
  h76 : k0_chk76 (tbM.view.readAt (Elt F) (Rect.unit (s := S4096) (k0_off151 i) S1.size (k0_off151_inb i)).toLoadRect xt (Shape.Idx.first (numel1_S1.symm ▸ Nat.one_pos)))
  h77 : k0_chk77 (tbM.view.readAt (Elt F) (Rect.unit (s := S4096) (k0_off153 i) S1.size (k0_off153_inb i)).toLoadRect xt (Shape.Idx.first (numel1_S1.symm ▸ Nat.one_pos)))
  h78 : k0_chk78 (tbM.view.readAt (Elt F) (Rect.unit (s := S4096) (k0_off155 i) S1.size (k0_off155_inb i)).toLoadRect xt (Shape.Idx.first (numel1_S1.symm ▸ Nat.one_pos)))
  h79 : k0_chk79 (tbM.view.readAt (Elt F) (Rect.unit (s := S4096) (k0_off157 i) S1.size (k0_off157_inb i)).toLoadRect xt (Shape.Idx.first (numel1_S1.symm ▸ Nat.one_pos)))
  h80 : k0_chk80 (tbM.view.readAt (Elt F) (Rect.unit (s := S4096) (k0_off159 i) S1.size (k0_off159_inb i)).toLoadRect xt (Shape.Idx.first (numel1_S1.symm ▸ Nat.one_pos)))
  h81 : k0_chk81 (tbM.view.readAt (Elt F) (Rect.unit (s := S4096) (k0_off161 i) S1.size (k0_off161_inb i)).toLoadRect xt (Shape.Idx.first (numel1_S1.symm ▸ Nat.one_pos)))
  h82 : k0_chk82 (tbM.view.readAt (Elt F) (Rect.unit (s := S4096) (k0_off163 i) S1.size (k0_off163_inb i)).toLoadRect xt (Shape.Idx.first (numel1_S1.symm ▸ Nat.one_pos)))
  h83 : k0_chk83 (tbM.view.readAt (Elt F) (Rect.unit (s := S4096) (k0_off165 i) S1.size (k0_off165_inb i)).toLoadRect xt (Shape.Idx.first (numel1_S1.symm ▸ Nat.one_pos)))
  h84 : k0_chk84 (tbM.view.readAt (Elt F) (Rect.unit (s := S4096) (k0_off167 i) S1.size (k0_off167_inb i)).toLoadRect xt (Shape.Idx.first (numel1_S1.symm ▸ Nat.one_pos)))
  h85 : k0_chk85 (tbM.view.readAt (Elt F) (Rect.unit (s := S4096) (k0_off169 i) S1.size (k0_off169_inb i)).toLoadRect xt (Shape.Idx.first (numel1_S1.symm ▸ Nat.one_pos)))
  h86 : k0_chk86 (tbM.view.readAt (Elt F) (Rect.unit (s := S4096) (k0_off171 i) S1.size (k0_off171_inb i)).toLoadRect xt (Shape.Idx.first (numel1_S1.symm ▸ Nat.one_pos)))
  h87 : k0_chk87 (tbM.view.readAt (Elt F) (Rect.unit (s := S4096) (k0_off173 i) S1.size (k0_off173_inb i)).toLoadRect xt (Shape.Idx.first (numel1_S1.symm ▸ Nat.one_pos)))
  h88 : k0_chk88 (tbM.view.readAt (Elt F) (Rect.unit (s := S4096) (k0_off175 i) S1.size (k0_off175_inb i)).toLoadRect xt (Shape.Idx.first (numel1_S1.symm ▸ Nat.one_pos)))
  h89 : k0_chk89 (tbM.view.readAt (Elt F) (Rect.unit (s := S4096) (k0_off177 i) S1.size (k0_off177_inb i)).toLoadRect xt (Shape.Idx.first (numel1_S1.symm ▸ Nat.one_pos)))
  h90 : k0_chk90 (tbM.view.readAt (Elt F) (Rect.unit (s := S4096) (k0_off179 i) S1.size (k0_off179_inb i)).toLoadRect xt (Shape.Idx.first (numel1_S1.symm ▸ Nat.one_pos)))
  h91 : k0_chk91 (tbM.view.readAt (Elt F) (Rect.unit (s := S4096) (k0_off181 i) S1.size (k0_off181_inb i)).toLoadRect xt (Shape.Idx.first (numel1_S1.symm ▸ Nat.one_pos)))
  h92 : k0_chk92 (tbM.view.readAt (Elt F) (Rect.unit (s := S4096) (k0_off183 i) S1.size (k0_off183_inb i)).toLoadRect xt (Shape.Idx.first (numel1_S1.symm ▸ Nat.one_pos)))
  h93 : k0_chk93 (tbM.view.readAt (Elt F) (Rect.unit (s := S4096) (k0_off185 i) S1.size (k0_off185_inb i)).toLoadRect xt (Shape.Idx.first (numel1_S1.symm ▸ Nat.one_pos)))
  h94 : k0_chk94 (tbM.view.readAt (Elt F) (Rect.unit (s := S4096) (k0_off187 i) S1.size (k0_off187_inb i)).toLoadRect xt (Shape.Idx.first (numel1_S1.symm ▸ Nat.one_pos)))
  h95 : k0_chk95 (tbM.view.readAt (Elt F) (Rect.unit (s := S4096) (k0_off189 i) S1.size (k0_off189_inb i)).toLoadRect xt (Shape.Idx.first (numel1_S1.symm ▸ Nat.one_pos)))
  h96 : k0_chk96 (tbM.view.readAt (Elt F) (Rect.unit (s := S4096) (k0_off191 i) S1.size (k0_off191_inb i)).toLoadRect xt (Shape.Idx.first (numel1_S1.symm ▸ Nat.one_pos)))
  h97 : k0_chk97 (tbM.view.readAt (Elt F) (Rect.unit (s := S4096) (k0_off193 i) S1.size (k0_off193_inb i)).toLoadRect xt (Shape.Idx.first (numel1_S1.symm ▸ Nat.one_pos)))
  h98 : k0_chk98 (tbM.view.readAt (Elt F) (Rect.unit (s := S4096) (k0_off195 i) S1.size (k0_off195_inb i)).toLoadRect xt (Shape.Idx.first (numel1_S1.symm ▸ Nat.one_pos)))
  h99 : k0_chk99 (tbM.view.readAt (Elt F) (Rect.unit (s := S4096) (k0_off197 i) S1.size (k0_off197_inb i)).toLoadRect xt (Shape.Idx.first (numel1_S1.symm ▸ Nat.one_pos)))
  h100 : k0_chk100 (tbM.view.readAt (Elt F) (Rect.unit (s := S4096) (k0_off199 i) S1.size (k0_off199_inb i)).toLoadRect xt (Shape.Idx.first (numel1_S1.symm ▸ Nat.one_pos)))
  h101 : k0_chk101 (tbM.view.readAt (Elt F) (Rect.unit (s := S4096) (k0_off201 i) S1.size (k0_off201_inb i)).toLoadRect xt (Shape.Idx.first (numel1_S1.symm ▸ Nat.one_pos)))
  h102 : k0_chk102 (tbM.view.readAt (Elt F) (Rect.unit (s := S4096) (k0_off203 i) S1.size (k0_off203_inb i)).toLoadRect xt (Shape.Idx.first (numel1_S1.symm ▸ Nat.one_pos)))
  h103 : k0_chk103 (tbM.view.readAt (Elt F) (Rect.unit (s := S4096) (k0_off205 i) S1.size (k0_off205_inb i)).toLoadRect xt (Shape.Idx.first (numel1_S1.symm ▸ Nat.one_pos)))
  h104 : k0_chk104 (tbM.view.readAt (Elt F) (Rect.unit (s := S4096) (k0_off207 i) S1.size (k0_off207_inb i)).toLoadRect xt (Shape.Idx.first (numel1_S1.symm ▸ Nat.one_pos)))
  h105 : k0_chk105 (tbM.view.readAt (Elt F) (Rect.unit (s := S4096) (k0_off209 i) S1.size (k0_off209_inb i)).toLoadRect xt (Shape.Idx.first (numel1_S1.symm ▸ Nat.one_pos)))
  h106 : k0_chk106 (tbM.view.readAt (Elt F) (Rect.unit (s := S4096) (k0_off211 i) S1.size (k0_off211_inb i)).toLoadRect xt (Shape.Idx.first (numel1_S1.symm ▸ Nat.one_pos)))
  h107 : k0_chk107 (tbM.view.readAt (Elt F) (Rect.unit (s := S4096) (k0_off213 i) S1.size (k0_off213_inb i)).toLoadRect xt (Shape.Idx.first (numel1_S1.symm ▸ Nat.one_pos)))
  h108 : k0_chk108 (tbM.view.readAt (Elt F) (Rect.unit (s := S4096) (k0_off215 i) S1.size (k0_off215_inb i)).toLoadRect xt (Shape.Idx.first (numel1_S1.symm ▸ Nat.one_pos)))
  h109 : k0_chk109 (tbM.view.readAt (Elt F) (Rect.unit (s := S4096) (k0_off217 i) S1.size (k0_off217_inb i)).toLoadRect xt (Shape.Idx.first (numel1_S1.symm ▸ Nat.one_pos)))
  h110 : k0_chk110 (tbM.view.readAt (Elt F) (Rect.unit (s := S4096) (k0_off219 i) S1.size (k0_off219_inb i)).toLoadRect xt (Shape.Idx.first (numel1_S1.symm ▸ Nat.one_pos)))
  h111 : k0_chk111 (tbM.view.readAt (Elt F) (Rect.unit (s := S4096) (k0_off221 i) S1.size (k0_off221_inb i)).toLoadRect xt (Shape.Idx.first (numel1_S1.symm ▸ Nat.one_pos)))
  h112 : k0_chk112 (tbM.view.readAt (Elt F) (Rect.unit (s := S4096) (k0_off223 i) S1.size (k0_off223_inb i)).toLoadRect xt (Shape.Idx.first (numel1_S1.symm ▸ Nat.one_pos)))
  h113 : k0_chk113 (tbM.view.readAt (Elt F) (Rect.unit (s := S4096) (k0_off225 i) S1.size (k0_off225_inb i)).toLoadRect xt (Shape.Idx.first (numel1_S1.symm ▸ Nat.one_pos)))
  h114 : k0_chk114 (tbM.view.readAt (Elt F) (Rect.unit (s := S4096) (k0_off227 i) S1.size (k0_off227_inb i)).toLoadRect xt (Shape.Idx.first (numel1_S1.symm ▸ Nat.one_pos)))
  h115 : k0_chk115 (tbM.view.readAt (Elt F) (Rect.unit (s := S4096) (k0_off229 i) S1.size (k0_off229_inb i)).toLoadRect xt (Shape.Idx.first (numel1_S1.symm ▸ Nat.one_pos)))
  h116 : k0_chk116 (tbM.view.readAt (Elt F) (Rect.unit (s := S4096) (k0_off231 i) S1.size (k0_off231_inb i)).toLoadRect xt (Shape.Idx.first (numel1_S1.symm ▸ Nat.one_pos)))
  h117 : k0_chk117 (tbM.view.readAt (Elt F) (Rect.unit (s := S4096) (k0_off233 i) S1.size (k0_off233_inb i)).toLoadRect xt (Shape.Idx.first (numel1_S1.symm ▸ Nat.one_pos)))
  h118 : k0_chk118 (tbM.view.readAt (Elt F) (Rect.unit (s := S4096) (k0_off235 i) S1.size (k0_off235_inb i)).toLoadRect xt (Shape.Idx.first (numel1_S1.symm ▸ Nat.one_pos)))
  h119 : k0_chk119 (tbM.view.readAt (Elt F) (Rect.unit (s := S4096) (k0_off237 i) S1.size (k0_off237_inb i)).toLoadRect xt (Shape.Idx.first (numel1_S1.symm ▸ Nat.one_pos)))
  h120 : k0_chk120 (tbM.view.readAt (Elt F) (Rect.unit (s := S4096) (k0_off239 i) S1.size (k0_off239_inb i)).toLoadRect xt (Shape.Idx.first (numel1_S1.symm ▸ Nat.one_pos)))
  h121 : k0_chk121 (tbM.view.readAt (Elt F) (Rect.unit (s := S4096) (k0_off241 i) S1.size (k0_off241_inb i)).toLoadRect xt (Shape.Idx.first (numel1_S1.symm ▸ Nat.one_pos)))
  h122 : k0_chk122 (tbM.view.readAt (Elt F) (Rect.unit (s := S4096) (k0_off243 i) S1.size (k0_off243_inb i)).toLoadRect xt (Shape.Idx.first (numel1_S1.symm ▸ Nat.one_pos)))
  h123 : k0_chk123 (tbM.view.readAt (Elt F) (Rect.unit (s := S4096) (k0_off245 i) S1.size (k0_off245_inb i)).toLoadRect xt (Shape.Idx.first (numel1_S1.symm ▸ Nat.one_pos)))
  h124 : k0_chk124 (tbM.view.readAt (Elt F) (Rect.unit (s := S4096) (k0_off247 i) S1.size (k0_off247_inb i)).toLoadRect xt (Shape.Idx.first (numel1_S1.symm ▸ Nat.one_pos)))
  h125 : k0_chk125 (tbM.view.readAt (Elt F) (Rect.unit (s := S4096) (k0_off249 i) S1.size (k0_off249_inb i)).toLoadRect xt (Shape.Idx.first (numel1_S1.symm ▸ Nat.one_pos)))
  h126 : k0_chk126 (tbM.view.readAt (Elt F) (Rect.unit (s := S4096) (k0_off251 i) S1.size (k0_off251_inb i)).toLoadRect xt (Shape.Idx.first (numel1_S1.symm ▸ Nat.one_pos)))
  h127 : k0_chk127 (tbM.view.readAt (Elt F) (Rect.unit (s := S4096) (k0_off253 i) S1.size (k0_off253_inb i)).toLoadRect xt (Shape.Idx.first (numel1_S1.symm ▸ Nat.one_pos)))
  h128 : k0_chk128 (tbM.view.readAt (Elt F) (Rect.unit (s := S4096) (k0_off255 i) S1.size (k0_off255_inb i)).toLoadRect xt (Shape.Idx.first (numel1_S1.symm ▸ Nat.one_pos)))

/-- The weight bank W1, left in HBM, as a whole memref. -/
abbrev hbM : Memref sig .tc .hbm S10000x8x1024 .f32 := Memref.whole main_arg1

/-- The bank held whole is the bank held as one read share per DMA cell number below 138, and a remainder: several copies may read it at once, each lending its own cell's share. -/
theorem bank_split (c : Dev nD) (f : Buf (Elt F) (hbM.view.loc (c : Thread nD τ))) :
    (hbM.view.loc (c : Thread nD τ) ↦{fullShare} f : sProp 𝕄) ⊢ iprop((hbM.view.loc (c : Thread nD τ) ↦{Transfers.shareDrop fullShare 138} f) ∗ (hbM.view.loc (c : Thread nD τ) ↦{Transfers.shareTokN fullShare 0} f) ∗ (hbM.view.loc (c : Thread nD τ) ↦{Transfers.shareTokN fullShare 1} f) ∗ (hbM.view.loc (c : Thread nD τ) ↦{Transfers.shareTokN fullShare 2} f) ∗ (hbM.view.loc (c : Thread nD τ) ↦{Transfers.shareTokN fullShare 3} f) ∗ (hbM.view.loc (c : Thread nD τ) ↦{Transfers.shareTokN fullShare 4} f) ∗ (hbM.view.loc (c : Thread nD τ) ↦{Transfers.shareTokN fullShare 5} f) ∗ (hbM.view.loc (c : Thread nD τ) ↦{Transfers.shareTokN fullShare 6} f) ∗ (hbM.view.loc (c : Thread nD τ) ↦{Transfers.shareTokN fullShare 7} f) ∗ (hbM.view.loc (c : Thread nD τ) ↦{Transfers.shareTokN fullShare 8} f) ∗ (hbM.view.loc (c : Thread nD τ) ↦{Transfers.shareTokN fullShare 9} f) ∗ (hbM.view.loc (c : Thread nD τ) ↦{Transfers.shareTokN fullShare 10} f) ∗ (hbM.view.loc (c : Thread nD τ) ↦{Transfers.shareTokN fullShare 11} f) ∗ (hbM.view.loc (c : Thread nD τ) ↦{Transfers.shareTokN fullShare 12} f) ∗ (hbM.view.loc (c : Thread nD τ) ↦{Transfers.shareTokN fullShare 13} f) ∗ (hbM.view.loc (c : Thread nD τ) ↦{Transfers.shareTokN fullShare 14} f) ∗ (hbM.view.loc (c : Thread nD τ) ↦{Transfers.shareTokN fullShare 15} f) ∗ (hbM.view.loc (c : Thread nD τ) ↦{Transfers.shareTokN fullShare 16} f) ∗ (hbM.view.loc (c : Thread nD τ) ↦{Transfers.shareTokN fullShare 17} f) ∗ (hbM.view.loc (c : Thread nD τ) ↦{Transfers.shareTokN fullShare 18} f) ∗ (hbM.view.loc (c : Thread nD τ) ↦{Transfers.shareTokN fullShare 19} f) ∗ (hbM.view.loc (c : Thread nD τ) ↦{Transfers.shareTokN fullShare 20} f) ∗ (hbM.view.loc (c : Thread nD τ) ↦{Transfers.shareTokN fullShare 21} f) ∗ (hbM.view.loc (c : Thread nD τ) ↦{Transfers.shareTokN fullShare 22} f) ∗ (hbM.view.loc (c : Thread nD τ) ↦{Transfers.shareTokN fullShare 23} f) ∗ (hbM.view.loc (c : Thread nD τ) ↦{Transfers.shareTokN fullShare 24} f) ∗ (hbM.view.loc (c : Thread nD τ) ↦{Transfers.shareTokN fullShare 25} f) ∗ (hbM.view.loc (c : Thread nD τ) ↦{Transfers.shareTokN fullShare 26} f) ∗ (hbM.view.loc (c : Thread nD τ) ↦{Transfers.shareTokN fullShare 27} f) ∗ (hbM.view.loc (c : Thread nD τ) ↦{Transfers.shareTokN fullShare 28} f) ∗ (hbM.view.loc (c : Thread nD τ) ↦{Transfers.shareTokN fullShare 29} f) ∗ (hbM.view.loc (c : Thread nD τ) ↦{Transfers.shareTokN fullShare 30} f) ∗ (hbM.view.loc (c : Thread nD τ) ↦{Transfers.shareTokN fullShare 31} f) ∗ (hbM.view.loc (c : Thread nD τ) ↦{Transfers.shareTokN fullShare 32} f) ∗ (hbM.view.loc (c : Thread nD τ) ↦{Transfers.shareTokN fullShare 33} f) ∗ (hbM.view.loc (c : Thread nD τ) ↦{Transfers.shareTokN fullShare 34} f) ∗ (hbM.view.loc (c : Thread nD τ) ↦{Transfers.shareTokN fullShare 35} f) ∗ (hbM.view.loc (c : Thread nD τ) ↦{Transfers.shareTokN fullShare 36} f) ∗ (hbM.view.loc (c : Thread nD τ) ↦{Transfers.shareTokN fullShare 37} f) ∗ (hbM.view.loc (c : Thread nD τ) ↦{Transfers.shareTokN fullShare 38} f) ∗ (hbM.view.loc (c : Thread nD τ) ↦{Transfers.shareTokN fullShare 39} f) ∗ (hbM.view.loc (c : Thread nD τ) ↦{Transfers.shareTokN fullShare 40} f) ∗ (hbM.view.loc (c : Thread nD τ) ↦{Transfers.shareTokN fullShare 41} f) ∗ (hbM.view.loc (c : Thread nD τ) ↦{Transfers.shareTokN fullShare 42} f) ∗ (hbM.view.loc (c : Thread nD τ) ↦{Transfers.shareTokN fullShare 43} f) ∗ (hbM.view.loc (c : Thread nD τ) ↦{Transfers.shareTokN fullShare 44} f) ∗ (hbM.view.loc (c : Thread nD τ) ↦{Transfers.shareTokN fullShare 45} f) ∗ (hbM.view.loc (c : Thread nD τ) ↦{Transfers.shareTokN fullShare 46} f) ∗ (hbM.view.loc (c : Thread nD τ) ↦{Transfers.shareTokN fullShare 47} f) ∗ (hbM.view.loc (c : Thread nD τ) ↦{Transfers.shareTokN fullShare 48} f) ∗ (hbM.view.loc (c : Thread nD τ) ↦{Transfers.shareTokN fullShare 49} f) ∗ (hbM.view.loc (c : Thread nD τ) ↦{Transfers.shareTokN fullShare 50} f) ∗ (hbM.view.loc (c : Thread nD τ) ↦{Transfers.shareTokN fullShare 51} f) ∗ (hbM.view.loc (c : Thread nD τ) ↦{Transfers.shareTokN fullShare 52} f) ∗ (hbM.view.loc (c : Thread nD τ) ↦{Transfers.shareTokN fullShare 53} f) ∗ (hbM.view.loc (c : Thread nD τ) ↦{Transfers.shareTokN fullShare 54} f) ∗ (hbM.view.loc (c : Thread nD τ) ↦{Transfers.shareTokN fullShare 55} f) ∗ (hbM.view.loc (c : Thread nD τ) ↦{Transfers.shareTokN fullShare 56} f) ∗ (hbM.view.loc (c : Thread nD τ) ↦{Transfers.shareTokN fullShare 57} f) ∗ (hbM.view.loc (c : Thread nD τ) ↦{Transfers.shareTokN fullShare 58} f) ∗ (hbM.view.loc (c : Thread nD τ) ↦{Transfers.shareTokN fullShare 59} f) ∗ (hbM.view.loc (c : Thread nD τ) ↦{Transfers.shareTokN fullShare 60} f) ∗ (hbM.view.loc (c : Thread nD τ) ↦{Transfers.shareTokN fullShare 61} f) ∗ (hbM.view.loc (c : Thread nD τ) ↦{Transfers.shareTokN fullShare 62} f) ∗ (hbM.view.loc (c : Thread nD τ) ↦{Transfers.shareTokN fullShare 63} f) ∗ (hbM.view.loc (c : Thread nD τ) ↦{Transfers.shareTokN fullShare 64} f) ∗ (hbM.view.loc (c : Thread nD τ) ↦{Transfers.shareTokN fullShare 65} f) ∗ (hbM.view.loc (c : Thread nD τ) ↦{Transfers.shareTokN fullShare 66} f) ∗ (hbM.view.loc (c : Thread nD τ) ↦{Transfers.shareTokN fullShare 67} f) ∗ (hbM.view.loc (c : Thread nD τ) ↦{Transfers.shareTokN fullShare 68} f) ∗ (hbM.view.loc (c : Thread nD τ) ↦{Transfers.shareTokN fullShare 69} f) ∗ (hbM.view.loc (c : Thread nD τ) ↦{Transfers.shareTokN fullShare 70} f) ∗ (hbM.view.loc (c : Thread nD τ) ↦{Transfers.shareTokN fullShare 71} f) ∗ (hbM.view.loc (c : Thread nD τ) ↦{Transfers.shareTokN fullShare 72} f) ∗ (hbM.view.loc (c : Thread nD τ) ↦{Transfers.shareTokN fullShare 73} f) ∗ (hbM.view.loc (c : Thread nD τ) ↦{Transfers.shareTokN fullShare 74} f) ∗ (hbM.view.loc (c : Thread nD τ) ↦{Transfers.shareTokN fullShare 75} f) ∗ (hbM.view.loc (c : Thread nD τ) ↦{Transfers.shareTokN fullShare 76} f) ∗ (hbM.view.loc (c : Thread nD τ) ↦{Transfers.shareTokN fullShare 77} f) ∗ (hbM.view.loc (c : Thread nD τ) ↦{Transfers.shareTokN fullShare 78} f) ∗ (hbM.view.loc (c : Thread nD τ) ↦{Transfers.shareTokN fullShare 79} f) ∗ (hbM.view.loc (c : Thread nD τ) ↦{Transfers.shareTokN fullShare 80} f) ∗ (hbM.view.loc (c : Thread nD τ) ↦{Transfers.shareTokN fullShare 81} f) ∗ (hbM.view.loc (c : Thread nD τ) ↦{Transfers.shareTokN fullShare 82} f) ∗ (hbM.view.loc (c : Thread nD τ) ↦{Transfers.shareTokN fullShare 83} f) ∗ (hbM.view.loc (c : Thread nD τ) ↦{Transfers.shareTokN fullShare 84} f) ∗ (hbM.view.loc (c : Thread nD τ) ↦{Transfers.shareTokN fullShare 85} f) ∗ (hbM.view.loc (c : Thread nD τ) ↦{Transfers.shareTokN fullShare 86} f) ∗ (hbM.view.loc (c : Thread nD τ) ↦{Transfers.shareTokN fullShare 87} f) ∗ (hbM.view.loc (c : Thread nD τ) ↦{Transfers.shareTokN fullShare 88} f) ∗ (hbM.view.loc (c : Thread nD τ) ↦{Transfers.shareTokN fullShare 89} f) ∗ (hbM.view.loc (c : Thread nD τ) ↦{Transfers.shareTokN fullShare 90} f) ∗ (hbM.view.loc (c : Thread nD τ) ↦{Transfers.shareTokN fullShare 91} f) ∗ (hbM.view.loc (c : Thread nD τ) ↦{Transfers.shareTokN fullShare 92} f) ∗ (hbM.view.loc (c : Thread nD τ) ↦{Transfers.shareTokN fullShare 93} f) ∗ (hbM.view.loc (c : Thread nD τ) ↦{Transfers.shareTokN fullShare 94} f) ∗ (hbM.view.loc (c : Thread nD τ) ↦{Transfers.shareTokN fullShare 95} f) ∗ (hbM.view.loc (c : Thread nD τ) ↦{Transfers.shareTokN fullShare 96} f) ∗ (hbM.view.loc (c : Thread nD τ) ↦{Transfers.shareTokN fullShare 97} f) ∗ (hbM.view.loc (c : Thread nD τ) ↦{Transfers.shareTokN fullShare 98} f) ∗ (hbM.view.loc (c : Thread nD τ) ↦{Transfers.shareTokN fullShare 99} f) ∗ (hbM.view.loc (c : Thread nD τ) ↦{Transfers.shareTokN fullShare 100} f) ∗ (hbM.view.loc (c : Thread nD τ) ↦{Transfers.shareTokN fullShare 101} f) ∗ (hbM.view.loc (c : Thread nD τ) ↦{Transfers.shareTokN fullShare 102} f) ∗ (hbM.view.loc (c : Thread nD τ) ↦{Transfers.shareTokN fullShare 103} f) ∗ (hbM.view.loc (c : Thread nD τ) ↦{Transfers.shareTokN fullShare 104} f) ∗ (hbM.view.loc (c : Thread nD τ) ↦{Transfers.shareTokN fullShare 105} f) ∗ (hbM.view.loc (c : Thread nD τ) ↦{Transfers.shareTokN fullShare 106} f) ∗ (hbM.view.loc (c : Thread nD τ) ↦{Transfers.shareTokN fullShare 107} f) ∗ (hbM.view.loc (c : Thread nD τ) ↦{Transfers.shareTokN fullShare 108} f) ∗ (hbM.view.loc (c : Thread nD τ) ↦{Transfers.shareTokN fullShare 109} f) ∗ (hbM.view.loc (c : Thread nD τ) ↦{Transfers.shareTokN fullShare 110} f) ∗ (hbM.view.loc (c : Thread nD τ) ↦{Transfers.shareTokN fullShare 111} f) ∗ (hbM.view.loc (c : Thread nD τ) ↦{Transfers.shareTokN fullShare 112} f) ∗ (hbM.view.loc (c : Thread nD τ) ↦{Transfers.shareTokN fullShare 113} f) ∗ (hbM.view.loc (c : Thread nD τ) ↦{Transfers.shareTokN fullShare 114} f) ∗ (hbM.view.loc (c : Thread nD τ) ↦{Transfers.shareTokN fullShare 115} f) ∗ (hbM.view.loc (c : Thread nD τ) ↦{Transfers.shareTokN fullShare 116} f) ∗ (hbM.view.loc (c : Thread nD τ) ↦{Transfers.shareTokN fullShare 117} f) ∗ (hbM.view.loc (c : Thread nD τ) ↦{Transfers.shareTokN fullShare 118} f) ∗ (hbM.view.loc (c : Thread nD τ) ↦{Transfers.shareTokN fullShare 119} f) ∗ (hbM.view.loc (c : Thread nD τ) ↦{Transfers.shareTokN fullShare 120} f) ∗ (hbM.view.loc (c : Thread nD τ) ↦{Transfers.shareTokN fullShare 121} f) ∗ (hbM.view.loc (c : Thread nD τ) ↦{Transfers.shareTokN fullShare 122} f) ∗ (hbM.view.loc (c : Thread nD τ) ↦{Transfers.shareTokN fullShare 123} f) ∗ (hbM.view.loc (c : Thread nD τ) ↦{Transfers.shareTokN fullShare 124} f) ∗ (hbM.view.loc (c : Thread nD τ) ↦{Transfers.shareTokN fullShare 125} f) ∗ (hbM.view.loc (c : Thread nD τ) ↦{Transfers.shareTokN fullShare 126} f) ∗ (hbM.view.loc (c : Thread nD τ) ↦{Transfers.shareTokN fullShare 127} f) ∗ (hbM.view.loc (c : Thread nD τ) ↦{Transfers.shareTokN fullShare 128} f) ∗ (hbM.view.loc (c : Thread nD τ) ↦{Transfers.shareTokN fullShare 129} f) ∗ (hbM.view.loc (c : Thread nD τ) ↦{Transfers.shareTokN fullShare 130} f) ∗ (hbM.view.loc (c : Thread nD τ) ↦{Transfers.shareTokN fullShare 131} f) ∗ (hbM.view.loc (c : Thread nD τ) ↦{Transfers.shareTokN fullShare 132} f) ∗ (hbM.view.loc (c : Thread nD τ) ↦{Transfers.shareTokN fullShare 133} f) ∗ (hbM.view.loc (c : Thread nD τ) ↦{Transfers.shareTokN fullShare 134} f) ∗ (hbM.view.loc (c : Thread nD τ) ↦{Transfers.shareTokN fullShare 135} f) ∗ (hbM.view.loc (c : Thread nD τ) ↦{Transfers.shareTokN fullShare 136} f) ∗ (hbM.view.loc (c : Thread nD τ) ↦{Transfers.shareTokN fullShare 137} f)) :=
  (Transfers.pointsTo_toks_range (Ix := Unit) (Name := ℕ) (U := Pipeline.UD sig nD τ) (Lvl := ℕ) fullShare 138).1.trans
    (Entails.of_eq (by rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137] (by decide) (by decide)]; rfl))

theorem bank_join (c : Dev nD) (f : Buf (Elt F) (hbM.view.loc (c : Thread nD τ))) :
    iprop((hbM.view.loc (c : Thread nD τ) ↦{Transfers.shareDrop fullShare 138} f) ∗ (hbM.view.loc (c : Thread nD τ) ↦{Transfers.shareTokN fullShare 0} f) ∗ (hbM.view.loc (c : Thread nD τ) ↦{Transfers.shareTokN fullShare 1} f) ∗ (hbM.view.loc (c : Thread nD τ) ↦{Transfers.shareTokN fullShare 2} f) ∗ (hbM.view.loc (c : Thread nD τ) ↦{Transfers.shareTokN fullShare 3} f) ∗ (hbM.view.loc (c : Thread nD τ) ↦{Transfers.shareTokN fullShare 4} f) ∗ (hbM.view.loc (c : Thread nD τ) ↦{Transfers.shareTokN fullShare 5} f) ∗ (hbM.view.loc (c : Thread nD τ) ↦{Transfers.shareTokN fullShare 6} f) ∗ (hbM.view.loc (c : Thread nD τ) ↦{Transfers.shareTokN fullShare 7} f) ∗ (hbM.view.loc (c : Thread nD τ) ↦{Transfers.shareTokN fullShare 8} f) ∗ (hbM.view.loc (c : Thread nD τ) ↦{Transfers.shareTokN fullShare 9} f) ∗ (hbM.view.loc (c : Thread nD τ) ↦{Transfers.shareTokN fullShare 10} f) ∗ (hbM.view.loc (c : Thread nD τ) ↦{Transfers.shareTokN fullShare 11} f) ∗ (hbM.view.loc (c : Thread nD τ) ↦{Transfers.shareTokN fullShare 12} f) ∗ (hbM.view.loc (c : Thread nD τ) ↦{Transfers.shareTokN fullShare 13} f) ∗ (hbM.view.loc (c : Thread nD τ) ↦{Transfers.shareTokN fullShare 14} f) ∗ (hbM.view.loc (c : Thread nD τ) ↦{Transfers.shareTokN fullShare 15} f) ∗ (hbM.view.loc (c : Thread nD τ) ↦{Transfers.shareTokN fullShare 16} f) ∗ (hbM.view.loc (c : Thread nD τ) ↦{Transfers.shareTokN fullShare 17} f) ∗ (hbM.view.loc (c : Thread nD τ) ↦{Transfers.shareTokN fullShare 18} f) ∗ (hbM.view.loc (c : Thread nD τ) ↦{Transfers.shareTokN fullShare 19} f) ∗ (hbM.view.loc (c : Thread nD τ) ↦{Transfers.shareTokN fullShare 20} f) ∗ (hbM.view.loc (c : Thread nD τ) ↦{Transfers.shareTokN fullShare 21} f) ∗ (hbM.view.loc (c : Thread nD τ) ↦{Transfers.shareTokN fullShare 22} f) ∗ (hbM.view.loc (c : Thread nD τ) ↦{Transfers.shareTokN fullShare 23} f) ∗ (hbM.view.loc (c : Thread nD τ) ↦{Transfers.shareTokN fullShare 24} f) ∗ (hbM.view.loc (c : Thread nD τ) ↦{Transfers.shareTokN fullShare 25} f) ∗ (hbM.view.loc (c : Thread nD τ) ↦{Transfers.shareTokN fullShare 26} f) ∗ (hbM.view.loc (c : Thread nD τ) ↦{Transfers.shareTokN fullShare 27} f) ∗ (hbM.view.loc (c : Thread nD τ) ↦{Transfers.shareTokN fullShare 28} f) ∗ (hbM.view.loc (c : Thread nD τ) ↦{Transfers.shareTokN fullShare 29} f) ∗ (hbM.view.loc (c : Thread nD τ) ↦{Transfers.shareTokN fullShare 30} f) ∗ (hbM.view.loc (c : Thread nD τ) ↦{Transfers.shareTokN fullShare 31} f) ∗ (hbM.view.loc (c : Thread nD τ) ↦{Transfers.shareTokN fullShare 32} f) ∗ (hbM.view.loc (c : Thread nD τ) ↦{Transfers.shareTokN fullShare 33} f) ∗ (hbM.view.loc (c : Thread nD τ) ↦{Transfers.shareTokN fullShare 34} f) ∗ (hbM.view.loc (c : Thread nD τ) ↦{Transfers.shareTokN fullShare 35} f) ∗ (hbM.view.loc (c : Thread nD τ) ↦{Transfers.shareTokN fullShare 36} f) ∗ (hbM.view.loc (c : Thread nD τ) ↦{Transfers.shareTokN fullShare 37} f) ∗ (hbM.view.loc (c : Thread nD τ) ↦{Transfers.shareTokN fullShare 38} f) ∗ (hbM.view.loc (c : Thread nD τ) ↦{Transfers.shareTokN fullShare 39} f) ∗ (hbM.view.loc (c : Thread nD τ) ↦{Transfers.shareTokN fullShare 40} f) ∗ (hbM.view.loc (c : Thread nD τ) ↦{Transfers.shareTokN fullShare 41} f) ∗ (hbM.view.loc (c : Thread nD τ) ↦{Transfers.shareTokN fullShare 42} f) ∗ (hbM.view.loc (c : Thread nD τ) ↦{Transfers.shareTokN fullShare 43} f) ∗ (hbM.view.loc (c : Thread nD τ) ↦{Transfers.shareTokN fullShare 44} f) ∗ (hbM.view.loc (c : Thread nD τ) ↦{Transfers.shareTokN fullShare 45} f) ∗ (hbM.view.loc (c : Thread nD τ) ↦{Transfers.shareTokN fullShare 46} f) ∗ (hbM.view.loc (c : Thread nD τ) ↦{Transfers.shareTokN fullShare 47} f) ∗ (hbM.view.loc (c : Thread nD τ) ↦{Transfers.shareTokN fullShare 48} f) ∗ (hbM.view.loc (c : Thread nD τ) ↦{Transfers.shareTokN fullShare 49} f) ∗ (hbM.view.loc (c : Thread nD τ) ↦{Transfers.shareTokN fullShare 50} f) ∗ (hbM.view.loc (c : Thread nD τ) ↦{Transfers.shareTokN fullShare 51} f) ∗ (hbM.view.loc (c : Thread nD τ) ↦{Transfers.shareTokN fullShare 52} f) ∗ (hbM.view.loc (c : Thread nD τ) ↦{Transfers.shareTokN fullShare 53} f) ∗ (hbM.view.loc (c : Thread nD τ) ↦{Transfers.shareTokN fullShare 54} f) ∗ (hbM.view.loc (c : Thread nD τ) ↦{Transfers.shareTokN fullShare 55} f) ∗ (hbM.view.loc (c : Thread nD τ) ↦{Transfers.shareTokN fullShare 56} f) ∗ (hbM.view.loc (c : Thread nD τ) ↦{Transfers.shareTokN fullShare 57} f) ∗ (hbM.view.loc (c : Thread nD τ) ↦{Transfers.shareTokN fullShare 58} f) ∗ (hbM.view.loc (c : Thread nD τ) ↦{Transfers.shareTokN fullShare 59} f) ∗ (hbM.view.loc (c : Thread nD τ) ↦{Transfers.shareTokN fullShare 60} f) ∗ (hbM.view.loc (c : Thread nD τ) ↦{Transfers.shareTokN fullShare 61} f) ∗ (hbM.view.loc (c : Thread nD τ) ↦{Transfers.shareTokN fullShare 62} f) ∗ (hbM.view.loc (c : Thread nD τ) ↦{Transfers.shareTokN fullShare 63} f) ∗ (hbM.view.loc (c : Thread nD τ) ↦{Transfers.shareTokN fullShare 64} f) ∗ (hbM.view.loc (c : Thread nD τ) ↦{Transfers.shareTokN fullShare 65} f) ∗ (hbM.view.loc (c : Thread nD τ) ↦{Transfers.shareTokN fullShare 66} f) ∗ (hbM.view.loc (c : Thread nD τ) ↦{Transfers.shareTokN fullShare 67} f) ∗ (hbM.view.loc (c : Thread nD τ) ↦{Transfers.shareTokN fullShare 68} f) ∗ (hbM.view.loc (c : Thread nD τ) ↦{Transfers.shareTokN fullShare 69} f) ∗ (hbM.view.loc (c : Thread nD τ) ↦{Transfers.shareTokN fullShare 70} f) ∗ (hbM.view.loc (c : Thread nD τ) ↦{Transfers.shareTokN fullShare 71} f) ∗ (hbM.view.loc (c : Thread nD τ) ↦{Transfers.shareTokN fullShare 72} f) ∗ (hbM.view.loc (c : Thread nD τ) ↦{Transfers.shareTokN fullShare 73} f) ∗ (hbM.view.loc (c : Thread nD τ) ↦{Transfers.shareTokN fullShare 74} f) ∗ (hbM.view.loc (c : Thread nD τ) ↦{Transfers.shareTokN fullShare 75} f) ∗ (hbM.view.loc (c : Thread nD τ) ↦{Transfers.shareTokN fullShare 76} f) ∗ (hbM.view.loc (c : Thread nD τ) ↦{Transfers.shareTokN fullShare 77} f) ∗ (hbM.view.loc (c : Thread nD τ) ↦{Transfers.shareTokN fullShare 78} f) ∗ (hbM.view.loc (c : Thread nD τ) ↦{Transfers.shareTokN fullShare 79} f) ∗ (hbM.view.loc (c : Thread nD τ) ↦{Transfers.shareTokN fullShare 80} f) ∗ (hbM.view.loc (c : Thread nD τ) ↦{Transfers.shareTokN fullShare 81} f) ∗ (hbM.view.loc (c : Thread nD τ) ↦{Transfers.shareTokN fullShare 82} f) ∗ (hbM.view.loc (c : Thread nD τ) ↦{Transfers.shareTokN fullShare 83} f) ∗ (hbM.view.loc (c : Thread nD τ) ↦{Transfers.shareTokN fullShare 84} f) ∗ (hbM.view.loc (c : Thread nD τ) ↦{Transfers.shareTokN fullShare 85} f) ∗ (hbM.view.loc (c : Thread nD τ) ↦{Transfers.shareTokN fullShare 86} f) ∗ (hbM.view.loc (c : Thread nD τ) ↦{Transfers.shareTokN fullShare 87} f) ∗ (hbM.view.loc (c : Thread nD τ) ↦{Transfers.shareTokN fullShare 88} f) ∗ (hbM.view.loc (c : Thread nD τ) ↦{Transfers.shareTokN fullShare 89} f) ∗ (hbM.view.loc (c : Thread nD τ) ↦{Transfers.shareTokN fullShare 90} f) ∗ (hbM.view.loc (c : Thread nD τ) ↦{Transfers.shareTokN fullShare 91} f) ∗ (hbM.view.loc (c : Thread nD τ) ↦{Transfers.shareTokN fullShare 92} f) ∗ (hbM.view.loc (c : Thread nD τ) ↦{Transfers.shareTokN fullShare 93} f) ∗ (hbM.view.loc (c : Thread nD τ) ↦{Transfers.shareTokN fullShare 94} f) ∗ (hbM.view.loc (c : Thread nD τ) ↦{Transfers.shareTokN fullShare 95} f) ∗ (hbM.view.loc (c : Thread nD τ) ↦{Transfers.shareTokN fullShare 96} f) ∗ (hbM.view.loc (c : Thread nD τ) ↦{Transfers.shareTokN fullShare 97} f) ∗ (hbM.view.loc (c : Thread nD τ) ↦{Transfers.shareTokN fullShare 98} f) ∗ (hbM.view.loc (c : Thread nD τ) ↦{Transfers.shareTokN fullShare 99} f) ∗ (hbM.view.loc (c : Thread nD τ) ↦{Transfers.shareTokN fullShare 100} f) ∗ (hbM.view.loc (c : Thread nD τ) ↦{Transfers.shareTokN fullShare 101} f) ∗ (hbM.view.loc (c : Thread nD τ) ↦{Transfers.shareTokN fullShare 102} f) ∗ (hbM.view.loc (c : Thread nD τ) ↦{Transfers.shareTokN fullShare 103} f) ∗ (hbM.view.loc (c : Thread nD τ) ↦{Transfers.shareTokN fullShare 104} f) ∗ (hbM.view.loc (c : Thread nD τ) ↦{Transfers.shareTokN fullShare 105} f) ∗ (hbM.view.loc (c : Thread nD τ) ↦{Transfers.shareTokN fullShare 106} f) ∗ (hbM.view.loc (c : Thread nD τ) ↦{Transfers.shareTokN fullShare 107} f) ∗ (hbM.view.loc (c : Thread nD τ) ↦{Transfers.shareTokN fullShare 108} f) ∗ (hbM.view.loc (c : Thread nD τ) ↦{Transfers.shareTokN fullShare 109} f) ∗ (hbM.view.loc (c : Thread nD τ) ↦{Transfers.shareTokN fullShare 110} f) ∗ (hbM.view.loc (c : Thread nD τ) ↦{Transfers.shareTokN fullShare 111} f) ∗ (hbM.view.loc (c : Thread nD τ) ↦{Transfers.shareTokN fullShare 112} f) ∗ (hbM.view.loc (c : Thread nD τ) ↦{Transfers.shareTokN fullShare 113} f) ∗ (hbM.view.loc (c : Thread nD τ) ↦{Transfers.shareTokN fullShare 114} f) ∗ (hbM.view.loc (c : Thread nD τ) ↦{Transfers.shareTokN fullShare 115} f) ∗ (hbM.view.loc (c : Thread nD τ) ↦{Transfers.shareTokN fullShare 116} f) ∗ (hbM.view.loc (c : Thread nD τ) ↦{Transfers.shareTokN fullShare 117} f) ∗ (hbM.view.loc (c : Thread nD τ) ↦{Transfers.shareTokN fullShare 118} f) ∗ (hbM.view.loc (c : Thread nD τ) ↦{Transfers.shareTokN fullShare 119} f) ∗ (hbM.view.loc (c : Thread nD τ) ↦{Transfers.shareTokN fullShare 120} f) ∗ (hbM.view.loc (c : Thread nD τ) ↦{Transfers.shareTokN fullShare 121} f) ∗ (hbM.view.loc (c : Thread nD τ) ↦{Transfers.shareTokN fullShare 122} f) ∗ (hbM.view.loc (c : Thread nD τ) ↦{Transfers.shareTokN fullShare 123} f) ∗ (hbM.view.loc (c : Thread nD τ) ↦{Transfers.shareTokN fullShare 124} f) ∗ (hbM.view.loc (c : Thread nD τ) ↦{Transfers.shareTokN fullShare 125} f) ∗ (hbM.view.loc (c : Thread nD τ) ↦{Transfers.shareTokN fullShare 126} f) ∗ (hbM.view.loc (c : Thread nD τ) ↦{Transfers.shareTokN fullShare 127} f) ∗ (hbM.view.loc (c : Thread nD τ) ↦{Transfers.shareTokN fullShare 128} f) ∗ (hbM.view.loc (c : Thread nD τ) ↦{Transfers.shareTokN fullShare 129} f) ∗ (hbM.view.loc (c : Thread nD τ) ↦{Transfers.shareTokN fullShare 130} f) ∗ (hbM.view.loc (c : Thread nD τ) ↦{Transfers.shareTokN fullShare 131} f) ∗ (hbM.view.loc (c : Thread nD τ) ↦{Transfers.shareTokN fullShare 132} f) ∗ (hbM.view.loc (c : Thread nD τ) ↦{Transfers.shareTokN fullShare 133} f) ∗ (hbM.view.loc (c : Thread nD τ) ↦{Transfers.shareTokN fullShare 134} f) ∗ (hbM.view.loc (c : Thread nD τ) ↦{Transfers.shareTokN fullShare 135} f) ∗ (hbM.view.loc (c : Thread nD τ) ↦{Transfers.shareTokN fullShare 136} f) ∗ (hbM.view.loc (c : Thread nD τ) ↦{Transfers.shareTokN fullShare 137} f)) ⊢ (hbM.view.loc (c : Thread nD τ) ↦{fullShare} f : sProp 𝕄) :=
  (Entails.of_eq (by rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127, 128, 129, 130, 131, 132, 133, 134, 135, 136, 137] (by decide) (by decide)]; rfl)).trans
    (Transfers.pointsTo_toks_range (Ix := Unit) (Name := ℕ) (U := Pipeline.UD sig nD τ) (Lvl := ℕ) fullShare 138).2

set_option hygiene false in
/-- Name the bank's remainder `Hbr` and read shares `Hb0 … Hb137` out of `HB`. -/
macro "bank_cases" : tactic => `(tactic| icases HB with ⟨Hbr, Hb0, Hb1, Hb2, Hb3, Hb4, Hb5, Hb6, Hb7, Hb8, Hb9, Hb10, Hb11, Hb12, Hb13, Hb14, Hb15, Hb16, Hb17, Hb18, Hb19, Hb20, Hb21, Hb22, Hb23, Hb24, Hb25, Hb26, Hb27, Hb28, Hb29, Hb30, Hb31, Hb32, Hb33, Hb34, Hb35, Hb36, Hb37, Hb38, Hb39, Hb40, Hb41, Hb42, Hb43, Hb44, Hb45, Hb46, Hb47, Hb48, Hb49, Hb50, Hb51, Hb52, Hb53, Hb54, Hb55, Hb56, Hb57, Hb58, Hb59, Hb60, Hb61, Hb62, Hb63, Hb64, Hb65, Hb66, Hb67, Hb68, Hb69, Hb70, Hb71, Hb72, Hb73, Hb74, Hb75, Hb76, Hb77, Hb78, Hb79, Hb80, Hb81, Hb82, Hb83, Hb84, Hb85, Hb86, Hb87, Hb88, Hb89, Hb90, Hb91, Hb92, Hb93, Hb94, Hb95, Hb96, Hb97, Hb98, Hb99, Hb100, Hb101, Hb102, Hb103, Hb104, Hb105, Hb106, Hb107, Hb108, Hb109, Hb110, Hb111, Hb112, Hb113, Hb114, Hb115, Hb116, Hb117, Hb118, Hb119, Hb120, Hb121, Hb122, Hb123, Hb124, Hb125, Hb126, Hb127, Hb128, Hb129, Hb130, Hb131, Hb132, Hb133, Hb134, Hb135, Hb136, Hb137⟩)

set_option hygiene false in
/-- Give the bank's shares to the goal on the left. -/
macro "bank_take" : tactic => `(tactic| isplitl [Hbr Hb0 Hb1 Hb2 Hb3 Hb4 Hb5 Hb6 Hb7 Hb8 Hb9 Hb10 Hb11 Hb12 Hb13 Hb14 Hb15 Hb16 Hb17 Hb18 Hb19 Hb20 Hb21 Hb22 Hb23 Hb24 Hb25 Hb26 Hb27 Hb28 Hb29 Hb30 Hb31 Hb32 Hb33 Hb34 Hb35 Hb36 Hb37 Hb38 Hb39 Hb40 Hb41 Hb42 Hb43 Hb44 Hb45 Hb46 Hb47 Hb48 Hb49 Hb50 Hb51 Hb52 Hb53 Hb54 Hb55 Hb56 Hb57 Hb58 Hb59 Hb60 Hb61 Hb62 Hb63 Hb64 Hb65 Hb66 Hb67 Hb68 Hb69 Hb70 Hb71 Hb72 Hb73 Hb74 Hb75 Hb76 Hb77 Hb78 Hb79 Hb80 Hb81 Hb82 Hb83 Hb84 Hb85 Hb86 Hb87 Hb88 Hb89 Hb90 Hb91 Hb92 Hb93 Hb94 Hb95 Hb96 Hb97 Hb98 Hb99 Hb100 Hb101 Hb102 Hb103 Hb104 Hb105 Hb106 Hb107 Hb108 Hb109 Hb110 Hb111 Hb112 Hb113 Hb114 Hb115 Hb116 Hb117 Hb118 Hb119 Hb120 Hb121 Hb122 Hb123 Hb124 Hb125 Hb126 Hb127 Hb128 Hb129 Hb130 Hb131 Hb132 Hb133 Hb134 Hb135 Hb136 Hb137])

set_option hygiene false in
/-- Hand the bank's shares back, in order. -/
macro "bank_back" : tactic => `(tactic| (
  isplitl [Hbr]
  · iexact Hbr
  isplitl [Hb0]
  · iexact Hb0
  isplitl [Hb1]
  · iexact Hb1
  isplitl [Hb2]
  · iexact Hb2
  isplitl [Hb3]
  · iexact Hb3
  isplitl [Hb4]
  · iexact Hb4
  isplitl [Hb5]
  · iexact Hb5
  isplitl [Hb6]
  · iexact Hb6
  isplitl [Hb7]
  · iexact Hb7
  isplitl [Hb8]
  · iexact Hb8
  isplitl [Hb9]
  · iexact Hb9
  isplitl [Hb10]
  · iexact Hb10
  isplitl [Hb11]
  · iexact Hb11
  isplitl [Hb12]
  · iexact Hb12
  isplitl [Hb13]
  · iexact Hb13
  isplitl [Hb14]
  · iexact Hb14
  isplitl [Hb15]
  · iexact Hb15
  isplitl [Hb16]
  · iexact Hb16
  isplitl [Hb17]
  · iexact Hb17
  isplitl [Hb18]
  · iexact Hb18
  isplitl [Hb19]
  · iexact Hb19
  isplitl [Hb20]
  · iexact Hb20
  isplitl [Hb21]
  · iexact Hb21
  isplitl [Hb22]
  · iexact Hb22
  isplitl [Hb23]
  · iexact Hb23
  isplitl [Hb24]
  · iexact Hb24
  isplitl [Hb25]
  · iexact Hb25
  isplitl [Hb26]
  · iexact Hb26
  isplitl [Hb27]
  · iexact Hb27
  isplitl [Hb28]
  · iexact Hb28
  isplitl [Hb29]
  · iexact Hb29
  isplitl [Hb30]
  · iexact Hb30
  isplitl [Hb31]
  · iexact Hb31
  isplitl [Hb32]
  · iexact Hb32
  isplitl [Hb33]
  · iexact Hb33
  isplitl [Hb34]
  · iexact Hb34
  isplitl [Hb35]
  · iexact Hb35
  isplitl [Hb36]
  · iexact Hb36
  isplitl [Hb37]
  · iexact Hb37
  isplitl [Hb38]
  · iexact Hb38
  isplitl [Hb39]
  · iexact Hb39
  isplitl [Hb40]
  · iexact Hb40
  isplitl [Hb41]
  · iexact Hb41
  isplitl [Hb42]
  · iexact Hb42
  isplitl [Hb43]
  · iexact Hb43
  isplitl [Hb44]
  · iexact Hb44
  isplitl [Hb45]
  · iexact Hb45
  isplitl [Hb46]
  · iexact Hb46
  isplitl [Hb47]
  · iexact Hb47
  isplitl [Hb48]
  · iexact Hb48
  isplitl [Hb49]
  · iexact Hb49
  isplitl [Hb50]
  · iexact Hb50
  isplitl [Hb51]
  · iexact Hb51
  isplitl [Hb52]
  · iexact Hb52
  isplitl [Hb53]
  · iexact Hb53
  isplitl [Hb54]
  · iexact Hb54
  isplitl [Hb55]
  · iexact Hb55
  isplitl [Hb56]
  · iexact Hb56
  isplitl [Hb57]
  · iexact Hb57
  isplitl [Hb58]
  · iexact Hb58
  isplitl [Hb59]
  · iexact Hb59
  isplitl [Hb60]
  · iexact Hb60
  isplitl [Hb61]
  · iexact Hb61
  isplitl [Hb62]
  · iexact Hb62
  isplitl [Hb63]
  · iexact Hb63
  isplitl [Hb64]
  · iexact Hb64
  isplitl [Hb65]
  · iexact Hb65
  isplitl [Hb66]
  · iexact Hb66
  isplitl [Hb67]
  · iexact Hb67
  isplitl [Hb68]
  · iexact Hb68
  isplitl [Hb69]
  · iexact Hb69
  isplitl [Hb70]
  · iexact Hb70
  isplitl [Hb71]
  · iexact Hb71
  isplitl [Hb72]
  · iexact Hb72
  isplitl [Hb73]
  · iexact Hb73
  isplitl [Hb74]
  · iexact Hb74
  isplitl [Hb75]
  · iexact Hb75
  isplitl [Hb76]
  · iexact Hb76
  isplitl [Hb77]
  · iexact Hb77
  isplitl [Hb78]
  · iexact Hb78
  isplitl [Hb79]
  · iexact Hb79
  isplitl [Hb80]
  · iexact Hb80
  isplitl [Hb81]
  · iexact Hb81
  isplitl [Hb82]
  · iexact Hb82
  isplitl [Hb83]
  · iexact Hb83
  isplitl [Hb84]
  · iexact Hb84
  isplitl [Hb85]
  · iexact Hb85
  isplitl [Hb86]
  · iexact Hb86
  isplitl [Hb87]
  · iexact Hb87
  isplitl [Hb88]
  · iexact Hb88
  isplitl [Hb89]
  · iexact Hb89
  isplitl [Hb90]
  · iexact Hb90
  isplitl [Hb91]
  · iexact Hb91
  isplitl [Hb92]
  · iexact Hb92
  isplitl [Hb93]
  · iexact Hb93
  isplitl [Hb94]
  · iexact Hb94
  isplitl [Hb95]
  · iexact Hb95
  isplitl [Hb96]
  · iexact Hb96
  isplitl [Hb97]
  · iexact Hb97
  isplitl [Hb98]
  · iexact Hb98
  isplitl [Hb99]
  · iexact Hb99
  isplitl [Hb100]
  · iexact Hb100
  isplitl [Hb101]
  · iexact Hb101
  isplitl [Hb102]
  · iexact Hb102
  isplitl [Hb103]
  · iexact Hb103
  isplitl [Hb104]
  · iexact Hb104
  isplitl [Hb105]
  · iexact Hb105
  isplitl [Hb106]
  · iexact Hb106
  isplitl [Hb107]
  · iexact Hb107
  isplitl [Hb108]
  · iexact Hb108
  isplitl [Hb109]
  · iexact Hb109
  isplitl [Hb110]
  · iexact Hb110
  isplitl [Hb111]
  · iexact Hb111
  isplitl [Hb112]
  · iexact Hb112
  isplitl [Hb113]
  · iexact Hb113
  isplitl [Hb114]
  · iexact Hb114
  isplitl [Hb115]
  · iexact Hb115
  isplitl [Hb116]
  · iexact Hb116
  isplitl [Hb117]
  · iexact Hb117
  isplitl [Hb118]
  · iexact Hb118
  isplitl [Hb119]
  · iexact Hb119
  isplitl [Hb120]
  · iexact Hb120
  isplitl [Hb121]
  · iexact Hb121
  isplitl [Hb122]
  · iexact Hb122
  isplitl [Hb123]
  · iexact Hb123
  isplitl [Hb124]
  · iexact Hb124
  isplitl [Hb125]
  · iexact Hb125
  isplitl [Hb126]
  · iexact Hb126
  isplitl [Hb127]
  · iexact Hb127
  isplitl [Hb128]
  · iexact Hb128
  isplitl [Hb129]
  · iexact Hb129
  isplitl [Hb130]
  · iexact Hb130
  isplitl [Hb131]
  · iexact Hb131
  isplitl [Hb132]
  · iexact Hb132
  isplitl [Hb133]
  · iexact Hb133
  isplitl [Hb134]
  · iexact Hb134
  isplitl [Hb135]
  · iexact Hb135
  isplitl [Hb136]
  · iexact Hb136
  iexact Hb137))

set_option hygiene false in
/-- Name the 128 cells' facts `Hq0 … Hq127` out of the hypothesis `Hq`. -/
macro "cells_cases" : tactic => `(tactic| icases Hq with ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hq32, Hq33, Hq34, Hq35, Hq36, Hq37, Hq38, Hq39, Hq40, Hq41, Hq42, Hq43, Hq44, Hq45, Hq46, Hq47, Hq48, Hq49, Hq50, Hq51, Hq52, Hq53, Hq54, Hq55, Hq56, Hq57, Hq58, Hq59, Hq60, Hq61, Hq62, Hq63, Hq64, Hq65, Hq66, Hq67, Hq68, Hq69, Hq70, Hq71, Hq72, Hq73, Hq74, Hq75, Hq76, Hq77, Hq78, Hq79, Hq80, Hq81, Hq82, Hq83, Hq84, Hq85, Hq86, Hq87, Hq88, Hq89, Hq90, Hq91, Hq92, Hq93, Hq94, Hq95, Hq96, Hq97, Hq98, Hq99, Hq100, Hq101, Hq102, Hq103, Hq104, Hq105, Hq106, Hq107, Hq108, Hq109, Hq110, Hq111, Hq112, Hq113, Hq114, Hq115, Hq116, Hq117, Hq118, Hq119, Hq120, Hq121, Hq122, Hq123, Hq124, Hq125, Hq126, Hq127⟩)

set_option hygiene false in
/-- Hand the 128 cells' facts back, in order. -/
macro "cells_back" : tactic => `(tactic| (
  isplitl [Hq0]
  · iexact Hq0
  isplitl [Hq1]
  · iexact Hq1
  isplitl [Hq2]
  · iexact Hq2
  isplitl [Hq3]
  · iexact Hq3
  isplitl [Hq4]
  · iexact Hq4
  isplitl [Hq5]
  · iexact Hq5
  isplitl [Hq6]
  · iexact Hq6
  isplitl [Hq7]
  · iexact Hq7
  isplitl [Hq8]
  · iexact Hq8
  isplitl [Hq9]
  · iexact Hq9
  isplitl [Hq10]
  · iexact Hq10
  isplitl [Hq11]
  · iexact Hq11
  isplitl [Hq12]
  · iexact Hq12
  isplitl [Hq13]
  · iexact Hq13
  isplitl [Hq14]
  · iexact Hq14
  isplitl [Hq15]
  · iexact Hq15
  isplitl [Hq16]
  · iexact Hq16
  isplitl [Hq17]
  · iexact Hq17
  isplitl [Hq18]
  · iexact Hq18
  isplitl [Hq19]
  · iexact Hq19
  isplitl [Hq20]
  · iexact Hq20
  isplitl [Hq21]
  · iexact Hq21
  isplitl [Hq22]
  · iexact Hq22
  isplitl [Hq23]
  · iexact Hq23
  isplitl [Hq24]
  · iexact Hq24
  isplitl [Hq25]
  · iexact Hq25
  isplitl [Hq26]
  · iexact Hq26
  isplitl [Hq27]
  · iexact Hq27
  isplitl [Hq28]
  · iexact Hq28
  isplitl [Hq29]
  · iexact Hq29
  isplitl [Hq30]
  · iexact Hq30
  isplitl [Hq31]
  · iexact Hq31
  isplitl [Hq32]
  · iexact Hq32
  isplitl [Hq33]
  · iexact Hq33
  isplitl [Hq34]
  · iexact Hq34
  isplitl [Hq35]
  · iexact Hq35
  isplitl [Hq36]
  · iexact Hq36
  isplitl [Hq37]
  · iexact Hq37
  isplitl [Hq38]
  · iexact Hq38
  isplitl [Hq39]
  · iexact Hq39
  isplitl [Hq40]
  · iexact Hq40
  isplitl [Hq41]
  · iexact Hq41
  isplitl [Hq42]
  · iexact Hq42
  isplitl [Hq43]
  · iexact Hq43
  isplitl [Hq44]
  · iexact Hq44
  isplitl [Hq45]
  · iexact Hq45
  isplitl [Hq46]
  · iexact Hq46
  isplitl [Hq47]
  · iexact Hq47
  isplitl [Hq48]
  · iexact Hq48
  isplitl [Hq49]
  · iexact Hq49
  isplitl [Hq50]
  · iexact Hq50
  isplitl [Hq51]
  · iexact Hq51
  isplitl [Hq52]
  · iexact Hq52
  isplitl [Hq53]
  · iexact Hq53
  isplitl [Hq54]
  · iexact Hq54
  isplitl [Hq55]
  · iexact Hq55
  isplitl [Hq56]
  · iexact Hq56
  isplitl [Hq57]
  · iexact Hq57
  isplitl [Hq58]
  · iexact Hq58
  isplitl [Hq59]
  · iexact Hq59
  isplitl [Hq60]
  · iexact Hq60
  isplitl [Hq61]
  · iexact Hq61
  isplitl [Hq62]
  · iexact Hq62
  isplitl [Hq63]
  · iexact Hq63
  isplitl [Hq64]
  · iexact Hq64
  isplitl [Hq65]
  · iexact Hq65
  isplitl [Hq66]
  · iexact Hq66
  isplitl [Hq67]
  · iexact Hq67
  isplitl [Hq68]
  · iexact Hq68
  isplitl [Hq69]
  · iexact Hq69
  isplitl [Hq70]
  · iexact Hq70
  isplitl [Hq71]
  · iexact Hq71
  isplitl [Hq72]
  · iexact Hq72
  isplitl [Hq73]
  · iexact Hq73
  isplitl [Hq74]
  · iexact Hq74
  isplitl [Hq75]
  · iexact Hq75
  isplitl [Hq76]
  · iexact Hq76
  isplitl [Hq77]
  · iexact Hq77
  isplitl [Hq78]
  · iexact Hq78
  isplitl [Hq79]
  · iexact Hq79
  isplitl [Hq80]
  · iexact Hq80
  isplitl [Hq81]
  · iexact Hq81
  isplitl [Hq82]
  · iexact Hq82
  isplitl [Hq83]
  · iexact Hq83
  isplitl [Hq84]
  · iexact Hq84
  isplitl [Hq85]
  · iexact Hq85
  isplitl [Hq86]
  · iexact Hq86
  isplitl [Hq87]
  · iexact Hq87
  isplitl [Hq88]
  · iexact Hq88
  isplitl [Hq89]
  · iexact Hq89
  isplitl [Hq90]
  · iexact Hq90
  isplitl [Hq91]
  · iexact Hq91
  isplitl [Hq92]
  · iexact Hq92
  isplitl [Hq93]
  · iexact Hq93
  isplitl [Hq94]
  · iexact Hq94
  isplitl [Hq95]
  · iexact Hq95
  isplitl [Hq96]
  · iexact Hq96
  isplitl [Hq97]
  · iexact Hq97
  isplitl [Hq98]
  · iexact Hq98
  isplitl [Hq99]
  · iexact Hq99
  isplitl [Hq100]
  · iexact Hq100
  isplitl [Hq101]
  · iexact Hq101
  isplitl [Hq102]
  · iexact Hq102
  isplitl [Hq103]
  · iexact Hq103
  isplitl [Hq104]
  · iexact Hq104
  isplitl [Hq105]
  · iexact Hq105
  isplitl [Hq106]
  · iexact Hq106
  isplitl [Hq107]
  · iexact Hq107
  isplitl [Hq108]
  · iexact Hq108
  isplitl [Hq109]
  · iexact Hq109
  isplitl [Hq110]
  · iexact Hq110
  isplitl [Hq111]
  · iexact Hq111
  isplitl [Hq112]
  · iexact Hq112
  isplitl [Hq113]
  · iexact Hq113
  isplitl [Hq114]
  · iexact Hq114
  isplitl [Hq115]
  · iexact Hq115
  isplitl [Hq116]
  · iexact Hq116
  isplitl [Hq117]
  · iexact Hq117
  isplitl [Hq118]
  · iexact Hq118
  isplitl [Hq119]
  · iexact Hq119
  isplitl [Hq120]
  · iexact Hq120
  isplitl [Hq121]
  · iexact Hq121
  isplitl [Hq122]
  · iexact Hq122
  isplitl [Hq123]
  · iexact Hq123
  isplitl [Hq124]
  · iexact Hq124
  isplitl [Hq125]
  · iexact Hq125
  isplitl [Hq126]
  · iexact Hq126
  iexact Hq127))

set_option hygiene false in
/-- Name the 128 side conditions `k0_hw1 … k0_hw128` out of `hw`. -/
macro "words_cases" : tactic => `(tactic| obtain ⟨k0_hw1, k0_hw2, k0_hw3, k0_hw4, k0_hw5, k0_hw6, k0_hw7, k0_hw8, k0_hw9, k0_hw10, k0_hw11, k0_hw12, k0_hw13, k0_hw14, k0_hw15, k0_hw16, k0_hw17, k0_hw18, k0_hw19, k0_hw20, k0_hw21, k0_hw22, k0_hw23, k0_hw24, k0_hw25, k0_hw26, k0_hw27, k0_hw28, k0_hw29, k0_hw30, k0_hw31, k0_hw32, k0_hw33, k0_hw34, k0_hw35, k0_hw36, k0_hw37, k0_hw38, k0_hw39, k0_hw40, k0_hw41, k0_hw42, k0_hw43, k0_hw44, k0_hw45, k0_hw46, k0_hw47, k0_hw48, k0_hw49, k0_hw50, k0_hw51, k0_hw52, k0_hw53, k0_hw54, k0_hw55, k0_hw56, k0_hw57, k0_hw58, k0_hw59, k0_hw60, k0_hw61, k0_hw62, k0_hw63, k0_hw64, k0_hw65, k0_hw66, k0_hw67, k0_hw68, k0_hw69, k0_hw70, k0_hw71, k0_hw72, k0_hw73, k0_hw74, k0_hw75, k0_hw76, k0_hw77, k0_hw78, k0_hw79, k0_hw80, k0_hw81, k0_hw82, k0_hw83, k0_hw84, k0_hw85, k0_hw86, k0_hw87, k0_hw88, k0_hw89, k0_hw90, k0_hw91, k0_hw92, k0_hw93, k0_hw94, k0_hw95, k0_hw96, k0_hw97, k0_hw98, k0_hw99, k0_hw100, k0_hw101, k0_hw102, k0_hw103, k0_hw104, k0_hw105, k0_hw106, k0_hw107, k0_hw108, k0_hw109, k0_hw110, k0_hw111, k0_hw112, k0_hw113, k0_hw114, k0_hw115, k0_hw116, k0_hw117, k0_hw118, k0_hw119, k0_hw120, k0_hw121, k0_hw122, k0_hw123, k0_hw124, k0_hw125, k0_hw126, k0_hw127, k0_hw128⟩ := hw)

set_option hygiene false in
/-- Close an assumed side condition by the one of the 128 that states it. -/
macro "words_disch" : tactic => `(tactic| first | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16 | sl_exact k0_hw17 | sl_exact k0_hw18 | sl_exact k0_hw19 | sl_exact k0_hw20 | sl_exact k0_hw21 | sl_exact k0_hw22 | sl_exact k0_hw23 | sl_exact k0_hw24 | sl_exact k0_hw25 | sl_exact k0_hw26 | sl_exact k0_hw27 | sl_exact k0_hw28 | sl_exact k0_hw29 | sl_exact k0_hw30 | sl_exact k0_hw31 | sl_exact k0_hw32 | sl_exact k0_hw33 | sl_exact k0_hw34 | sl_exact k0_hw35 | sl_exact k0_hw36 | sl_exact k0_hw37 | sl_exact k0_hw38 | sl_exact k0_hw39 | sl_exact k0_hw40 | sl_exact k0_hw41 | sl_exact k0_hw42 | sl_exact k0_hw43 | sl_exact k0_hw44 | sl_exact k0_hw45 | sl_exact k0_hw46 | sl_exact k0_hw47 | sl_exact k0_hw48 | sl_exact k0_hw49 | sl_exact k0_hw50 | sl_exact k0_hw51 | sl_exact k0_hw52 | sl_exact k0_hw53 | sl_exact k0_hw54 | sl_exact k0_hw55 | sl_exact k0_hw56 | sl_exact k0_hw57 | sl_exact k0_hw58 | sl_exact k0_hw59 | sl_exact k0_hw60 | sl_exact k0_hw61 | sl_exact k0_hw62 | sl_exact k0_hw63 | sl_exact k0_hw64 | sl_exact k0_hw65 | sl_exact k0_hw66 | sl_exact k0_hw67 | sl_exact k0_hw68 | sl_exact k0_hw69 | sl_exact k0_hw70 | sl_exact k0_hw71 | sl_exact k0_hw72 | sl_exact k0_hw73 | sl_exact k0_hw74 | sl_exact k0_hw75 | sl_exact k0_hw76 | sl_exact k0_hw77 | sl_exact k0_hw78 | sl_exact k0_hw79 | sl_exact k0_hw80 | sl_exact k0_hw81 | sl_exact k0_hw82 | sl_exact k0_hw83 | sl_exact k0_hw84 | sl_exact k0_hw85 | sl_exact k0_hw86 | sl_exact k0_hw87 | sl_exact k0_hw88 | sl_exact k0_hw89 | sl_exact k0_hw90 | sl_exact k0_hw91 | sl_exact k0_hw92 | sl_exact k0_hw93 | sl_exact k0_hw94 | sl_exact k0_hw95 | sl_exact k0_hw96 | sl_exact k0_hw97 | sl_exact k0_hw98 | sl_exact k0_hw99 | sl_exact k0_hw100 | sl_exact k0_hw101 | sl_exact k0_hw102 | sl_exact k0_hw103 | sl_exact k0_hw104 | sl_exact k0_hw105 | sl_exact k0_hw106 | sl_exact k0_hw107 | sl_exact k0_hw108 | sl_exact k0_hw109 | sl_exact k0_hw110 | sl_exact k0_hw111 | sl_exact k0_hw112 | sl_exact k0_hw113 | sl_exact k0_hw114 | sl_exact k0_hw115 | sl_exact k0_hw116 | sl_exact k0_hw117 | sl_exact k0_hw118 | sl_exact k0_hw119 | sl_exact k0_hw120 | sl_exact k0_hw121 | sl_exact k0_hw122 | sl_exact k0_hw123 | sl_exact k0_hw124 | sl_exact k0_hw125 | sl_exact k0_hw126 | sl_exact k0_hw127 | sl_exact k0_hw128)

/-- The body's 74 printed parts are their skeletons. -/
macro "open_parts" : tactic => `(tactic| simp only [k0_part74_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton])

end Cert.KernelIdeal.Hand

end
-- ==== Proof.KIdeal.Rows.lean ====
/-
  The scratch that receives the 128 gathered rows of the weight bank, held ROW BY ROW.

  The scratch is a [128, 8, 1024] buffer. Row t of it — the unit slab at offset (t, 0, 0), with its leading axis dropped —
  is where the t-th copy lands. The 128 slabs are pairwise disjoint and cover the buffer, so holding the buffer whole
  is holding each row's elements, at the same contents; and when every row has been written whole, row t with the
  [8, 1024] payload P t, the buffer holds the closed form (t, o, h) ↦ P t (o, h), whatever it held before.
-/
import proofs.«427848_j22419729285374_3_alg».proof.Proof.KIdeal.Tables
import Idealize.ShloMosaic.Lib.Ring
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Cert.KernelIdeal Cert.KernelIdeal.Gen

variable {F : FTy → Type} [FloatOps F]

local notation "𝕄" => MT nD τ sig Unit (Elt F) ℕ (Pipeline.UD sig nD τ) ℕ

/-! ## The scratch and its rows -/

/-- The scratch that receives the 128 gathered rows, as a whole memref. -/
abbrev scM : Memref sig .tc .vmem S128x8x1024 .f32 := Memref.whole cc0_scratch0

/-- The offsets of row `t`'s slab: `t` on the leading axis, 0 on the others. -/
abbrev rowOff (t : Fin 128) : Fin S128x8x1024.rank → ℕ := ![t.val, 0, 0]

/-- Row `t`'s slab lies inside the scratch. -/
theorem rowInb (t : Fin 128) : ∀ a, rowOff t a + S1x8x1024.size a ≤ S128x8x1024.size a := by
  intro a
  have ht := t.isLt
  match a with
  | ⟨0, _⟩ => show t.val + 1 ≤ 128; omega
  | ⟨1, _⟩ => show 0 + 8 ≤ 8; omega
  | ⟨2, _⟩ => show 0 + 1024 ≤ 1024; omega

/-- Row `t` of the scratch: the unit slab at `(t, 0, 0)` with its leading axis dropped, an [8, 1024] memref. -/
def rowG (t : Fin 128) : Memref sig .tc .vmem S8x1024 .f32 :=
  (scM.slice (Rect.unit (s := S128x8x1024) (rowOff t) S1x8x1024.size (rowInb t)) (fun _ => rfl)).squeeze S8x1024
    squeezes_S1x8x1024_S8x1024

/-- Row `t`'s slab, as a set of elements of the scratch. -/
def rowSet (t : Fin 128) : Finset S128x8x1024.Idx :=
  (Rect.unit (s := S128x8x1024) (rowOff t) S1x8x1024.size (rowInb t)).set

/-- Row `t`'s elements are its slab's. -/
theorem rowG_set (t : Fin 128) : (rowG t).view.set = rowSet t :=
  (View.set_reshape (v := (scM.slice (Rect.unit (s := S128x8x1024) (rowOff t) S1x8x1024.size (rowInb t)) (fun _ => rfl)).view)
      squeezes_S1x8x1024_S8x1024.numel_eq).trans
    (View.set_slice_whole cc0_scratch0 (Rect.unit (s := S128x8x1024) (rowOff t) S1x8x1024.size (rowInb t)))

/-- The slabs of two different rows share no element. -/
theorem rowSet_disjoint (t t' : Fin 128) (h : t ≠ t') : Disjoint (rowSet t) (rowSet t') :=
  Ring.lead_disjoint (s := S128x8x1024) (NB := 128) (0 : Fin 3) 1 rowOff S1x8x1024.size rowInb
    (fun b => (Nat.one_mul _).symm) rfl t t' h

/-- The 128 slabs cover the scratch. -/
theorem rowSet_cover : Finset.univ.biUnion rowSet = Finset.univ :=
  Ring.lead_cover (s := S128x8x1024) (NB := 128) (0 : Fin 3) 1 rowOff S1x8x1024.size rowInb
    (fun b => (Nat.one_mul _).symm)
    (fun b a ha => by match a with | ⟨0, _⟩ => exact absurd rfl ha | ⟨1, _⟩ => rfl | ⟨2, _⟩ => rfl)
    rfl
    (fun a ha => by match a with | ⟨0, _⟩ => exact absurd rfl ha | ⟨1, _⟩ => rfl | ⟨2, _⟩ => rfl)
    rfl

/-! ## The scratch held whole is held row by row -/

/-- Row `t`'s elements held at `f`, named through the row's memref, are its slab held at `f`. -/
theorem row_pointsTo (c : Dev nD) (t : Fin 128) (f : Buf (Elt F) (scM.view.loc (c : Thread nD τ))) :
    ((rowG t).view.loc (c : Thread nD τ) ↦[(rowG t).view.set]{fullShare} f : sProp 𝕄)
      = (scM.view.loc (c : Thread nD τ) ↦[rowSet t]{fullShare} f) :=
  congrArg (fun S : Finset S128x8x1024.Idx => (scM.view.loc (c : Thread nD τ) ↦[S]{fullShare} f : sProp 𝕄)) (rowG_set t)

/-- The scratch held whole at contents `f` is each row's elements held at `f`. -/
theorem rows_split (c : Dev nD) (f : Buf (Elt F) (scM.view.loc (c : Thread nD τ))) :
    (scM.view.loc (c : Thread nD τ) ↦[scM.view.set]{fullShare} f : sProp 𝕄)
      = bigSep Finset.univ fun t : Fin 128 => ((rowG t).view.loc (c : Thread nD τ) ↦[(rowG t).view.set]{fullShare} f) := by
  rw [show scM.view.set = Finset.univ from View.set_whole cc0_scratch0]
  refine (Ring.pointsTo_blocks (ℓ := scM.view.loc (c : Thread nD τ)) (fun t : Fin 128 => rowSet t) rowSet_disjoint rowSet_cover f).trans ?_
  exact congrArg (bigSep Finset.univ) (funext fun t => (row_pointsTo c t f).symm)

/-! ## The closed form the filled scratch holds -/

/-- The scratch whose row `t` holds the [8, 1024] array `P t`: element `(t, o, h)` is `P t (o, h)`. -/
def filled (c : Dev nD) (P : Fin 128 → S8x1024.Idx → Elt F .f32) : Buf (Elt F) (scM.view.loc (c : Thread nD τ)) :=
  fun (i : S128x8x1024.Idx) => P (i 0) (ix2 (i 1) (i 2))

/-- The filled scratch read at `(t, o, h)`. -/
theorem filled_apply (c : Dev nD) (P : Fin 128 → S8x1024.Idx → Elt F .f32) (t : Fin 128) (o : Fin 8) (h : Fin 1024) :
    filled c P (ix3 t o h) = P t (ix2 o h) := rfl

/-- Where row `t`'s element `(o, h)` sits in the scratch: at `(t, o, h)`. -/
theorem rowG_emb (t : Fin 128) (o : Fin 8) (h : Fin 1024) :
    (rowG t).view.emb (ix2 o h) = (ix3 t o h : S128x8x1024.Idx) := by
  show (Rect.unit (s := S128x8x1024) (rowOff t) S1x8x1024.size (rowInb t)).emb
      (Shape.reshapeEquiv (s := S1x8x1024) (s' := S8x1024) squeezes_S1x8x1024_S8x1024.numel_eq (ix2 o h)) = _
  rw [reshapeEquiv_ix2_1ab]
  funext a; refine Fin.ext ?_
  match a with
  | ⟨0, _⟩ => show t.val + 1 * 0 = t.val; omega
  | ⟨1, _⟩ => show 0 + 1 * o.val = o.val; omega
  | ⟨2, _⟩ => show 0 + 1 * h.val = h.val; omega

/-- Row `t` written whole with `P t`, over any contents, holds on its own elements what the filled scratch holds there. -/
theorem row_written (c : Dev nD) (t : Fin 128) (f : Buf (Elt F) (scM.view.loc (c : Thread nD τ)))
    (P : Fin 128 → S8x1024.Idx → Elt F .f32) :
    ((rowG t).view.loc (c : Thread nD τ) ↦[(rowG t).view.set]{fullShare} (rowG t).view.write (Elt F) f (P t) Finset.univ : sProp 𝕄)
      = ((rowG t).view.loc (c : Thread nD τ) ↦[(rowG t).view.set]{fullShare} filled c P) := by
  refine pointsTo_congr fun i hi => ?_
  obtain ⟨z, -, rfl⟩ := Finset.mem_map.mp hi
  obtain ⟨o, h, rfl⟩ : ∃ o h, z = ix2 o h := ⟨z 0, z 1, eq_ix2 z⟩
  have e : filled c P ((rowG t).view.emb (ix2 o h)) = P t (ix2 o h) :=
    (congrArg (filled c P) (rowG_emb t o h)).trans (filled_apply c P t o h)
  exact (View.write_emb_of_mem (v := (rowG t).view) f (P t) (Finset.mem_univ (ix2 o h))).trans e.symm

/-! ## The rows, each written whole, join to the filled scratch -/

/-- THE JOIN, each row over a base of its own: the 128 rows, row `t` written whole with `P t` over contents `fs t`, are
    the scratch held whole at the closed form. -/
theorem rows_join_filled_of (c : Dev nD) (fs : Fin 128 → Buf (Elt F) (scM.view.loc (c : Thread nD τ)))
    (P : Fin 128 → S8x1024.Idx → Elt F .f32) :
    bigSep Finset.univ (fun t : Fin 128 =>
        ((rowG t).view.loc (c : Thread nD τ) ↦[(rowG t).view.set]{fullShare} (rowG t).view.write (Elt F) (fs t) (P t) Finset.univ))
      = (scM.view.loc (c : Thread nD τ) ↦[scM.view.set]{fullShare} filled c P : sProp 𝕄) := by
  rw [rows_split c (filled c P)]
  exact congrArg (bigSep Finset.univ) (funext fun t => row_written c t (fs t) P)

/-- The join over one base `f` for every row (what splitting the scratch at `f` and filling each row leaves). -/
theorem rows_join_filled (c : Dev nD) (f : Buf (Elt F) (scM.view.loc (c : Thread nD τ)))
    (P : Fin 128 → S8x1024.Idx → Elt F .f32) :
    bigSep Finset.univ (fun t : Fin 128 =>
        ((rowG t).view.loc (c : Thread nD τ) ↦[(rowG t).view.set]{fullShare} (rowG t).view.write (Elt F) f (P t) Finset.univ))
      = (scM.view.loc (c : Thread nD τ) ↦[scM.view.set]{fullShare} filled c P : sProp 𝕄) :=
  rows_join_filled_of c (fun _ => f) P

/-- A row written whole, spelt as a one-piece list of writes, is the same contents. -/
theorem row_writes_whole (c : Dev nD) (t : Fin 128) (f : Buf (Elt F) (scM.view.loc (c : Thread nD τ))) (p : S8x1024.Idx → Elt F .f32) :
    (rowG t).view.writes (Elt F) f [⟨Rect.whole S8x1024, p⟩] = (rowG t).view.write (Elt F) f p Finset.univ :=
  (View.write_univ_eq_writes_whole (rowG t).view f [] p).symm

/-- THE JOIN with each row's contents spelt as a listed write, each row over a base of its own. -/
theorem rows_join_filled_writes_of (c : Dev nD) (fs : Fin 128 → Buf (Elt F) (scM.view.loc (c : Thread nD τ)))
    (P : Fin 128 → S8x1024.Idx → Elt F .f32) :
    bigSep Finset.univ (fun t : Fin 128 =>
        ((rowG t).view.loc (c : Thread nD τ) ↦[(rowG t).view.set]{fullShare}
          (rowG t).view.writes (Elt F) (fs t) [⟨Rect.whole S8x1024, P t⟩]))
      = (scM.view.loc (c : Thread nD τ) ↦[scM.view.set]{fullShare} filled c P : sProp 𝕄) := by
  rw [← rows_join_filled_of c fs P]
  exact congrArg (bigSep Finset.univ) (funext fun t => by rw [row_writes_whole c t (fs t) (P t)])

/-- The same over one base `f` for every row. -/
theorem rows_join_filled_writes (c : Dev nD) (f : Buf (Elt F) (scM.view.loc (c : Thread nD τ)))
    (P : Fin 128 → S8x1024.Idx → Elt F .f32) :
    bigSep Finset.univ (fun t : Fin 128 =>
        ((rowG t).view.loc (c : Thread nD τ) ↦[(rowG t).view.set]{fullShare}
          (rowG t).view.writes (Elt F) f [⟨Rect.whole S8x1024, P t⟩]))
      = (scM.view.loc (c : Thread nD τ) ↦[scM.view.set]{fullShare} filled c P : sProp 𝕄) :=
  rows_join_filled_writes_of c (fun _ => f) P

end Cert.KernelIdeal.Hand

end
-- ==== Proof.KIdeal.Kit.lean ====
/-
  The frame of the kernel program, first part: everything the launch needs besides the body's own run.

  @main is five stretches of host lines (the ids clipped into the bank, the embedding narrowed, the three small tables
  gathered and flattened task-major, the 0/1 grouping matrix), ONE pallas_call over 32 groups of 128 tasks, and one host
  line after it (the flat reshape of the result). The call reads one prefetched table (the clipped ids, in SMEM), stages
  five input windows and one output window, and — by copies of its own, on 128 DMA cells of its own, each started and
  waited for within the grid point — brings 128 rows of the weight bank W1, left in HBM, into a scratch buffer.
  So the region's invariant, the same at every point, is: the scratch at some contents, the generator register at some
  state, the 128 cells at zero, W1 whole at its launch contents; and the table's half the pipeline lends the body.
  The one later line touches neither W1 nor the table, allocates nothing and writes no staged array.
-/
import proofs.«427848_j22419729285374_3_alg».proof.Proof.KIdeal.Rows

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- The core's buffers when the region is entered, as a valuation: the launch memory after the five stretches of host
    lines that precede the call. -/
abbrev V0 (c : Dev nD) : Valuation τ sig (Elt F) :=
  StableHlo.after (List.flatten [hostOps0, hostOps0_1, hostOps0_2, hostOps0_3, hostOps0_4]) (fun b => m (c, b))
/-- The same, read at a TensorCore reference. -/
abbrev V (c : Dev nD) (b : Ref sig .tc) : Buf (Elt F) ((c : Thread nD τ).loc b) := V0 m c (Proc.devRef .tc b)

/-- No host line allocates. -/
theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor

/-- @main is the earlier lines, the region, the later line: it reduces to the region continued by the later line, at
    the contents the earlier lines leave. -/
theorem hmain (𝒱₀ : Variants) :
    Pipeline.HMainPK (Ix := Unit) (Name := ℕ) (U := Pipeline.UD sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨fresh0, fresh0_1, fresh0_2, fresh0_3, fresh0_4⟩) main_chain

/-! ## The weight bank the body moves itself, and the one later line -/

/-- The operand left in HBM that the body copies from: the weight bank W1. -/
def H0 : Finset (Ref sig .tc) := {main_arg1}
theorem H0_sub : H0 ⊆ Pipeline.restRefsP sig pre0 spec0 := by decide

/-- The later line reads the call's result and writes the flat result: within the staged arrays and the bypassing
    buffers, and it touches neither the table nor W1. -/
theorem tail_but : ∀ ops ∈ ([hostOps1] : List (List (HloOp τ sig (Elt F)))), ∀ op ∈ ops,
    op.bufs ⊆ Pipeline.tailRefsBut sig pre0 spec0 H0 := by
  intro ops hops op hop
  simp only [List.mem_cons, List.mem_nil_iff, or_false] at hops
  subst hops
  refine Pipeline.sub_tailRefsBut pre0 spec0 H0 op ((List.forall_iff_forall_mem.mp hostOps1_sub) op hop) ?_ ?_
  all_goals
    simp only [hostOps1, List.mem_cons, List.mem_nil_iff, or_false] at hop
    subst hop
  · intro j; fin_cases j
    simp only [StableHlo.reshape_bufs, Finset.mem_insert, Finset.mem_singleton, not_or]
    and_intros <;> exact StableHlo.devRef_ne_of_ne (by decide)
  · intro b hb
    simp only [H0, Finset.mem_singleton] at hb; subst hb
    simp only [StableHlo.reshape_bufs, Finset.mem_insert, Finset.mem_singleton, not_or]
    and_intros <;> exact StableHlo.devRef_ne_of_ne (by decide)

/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp fresh1) op hop

/-- And it writes no staged array (its one result buffer is none of them). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  subst hops
  simp only [hostOps1, List.mem_cons, List.mem_nil_iff, or_false] at hop
  subst hop
  intro w; fin_cases w <;> simp only [StableHlo.reshape_writes, Finset.mem_singleton] <;> exact StableHlo.devRef_ne_of_ne (by decide)

/-! ## The arguments as the region finds them -/

/-- No earlier line writes the reference at hand (each line writes only its own result buffer). -/
local macro "host_keeps" : tactic => `(tactic| (
  refine StableHlo.after_of_forall_not_mem _ _ (List.forall_iff_forall_mem.mp ?_)
  simp only [hostOps0, hostOps0_1, hostOps0_2, hostOps0_3, hostOps0_4, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The region finds each argument of @main as launched. -/
theorem V_arg0 (c : Dev nD) : V m c main_arg0 = m ((c : Thread nD τ).loc main_arg0) := by host_keeps
theorem V_arg1 (c : Dev nD) : V m c main_arg1 = m ((c : Thread nD τ).loc main_arg1) := by host_keeps
theorem V_arg2 (c : Dev nD) : V m c main_arg2 = m ((c : Thread nD τ).loc main_arg2) := by host_keeps
theorem V_arg3 (c : Dev nD) : V m c main_arg3 = m ((c : Thread nD τ).loc main_arg3) := by host_keeps
theorem V_arg4 (c : Dev nD) : V m c main_arg4 = m ((c : Thread nD τ).loc main_arg4) := by host_keeps
theorem V_arg5 (c : Dev nD) : V m c main_arg5 = m ((c : Thread nD τ).loc main_arg5) := by host_keeps

/-! ## The prefetched table -/

/-- The table's contents when the region is entered (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The pipeline's side condition of the table's contents (no window's index map reads the table). -/
abbrev Ok : Prop := ok0 (F := F) (tbl m)
/-- The table's contents as admissible contents, and the pipeline at them. -/
abbrev adm (hO : Ok m) : (pcfg0 (F := F)).Adm := ⟨tbl m, hO⟩
abbrev cfgM (hO : Ok m) : Pipeline.Cfg sig Λ₀ := cfg0 (adm m hO)

/-- The table's half the pipeline lends the body, at contents `f`. -/
abbrev tbPt (c : Dev nD) (f : Buf (Elt F) (tbM.view.loc (c : Thread nD τ))) : sProp 𝕄 :=
  tbM.view.loc (c : Thread nD τ) ↦{fullShare.right} f

theorem PhiT_eq (c : Dev nD) : (Pipeline.ΦT pre0 (tbl m) c : sProp 𝕄) = iprop(tbPt c (tbl m 0)) := by
  unfold Pipeline.ΦT Pipeline.prefHeld
  rw [show (Finset.univ : Finset (Fin 1)) = {(0 : Fin 1)} from by decide, bigSep_singleton]
  rfl

/-! ## The invariant, conjunct by conjunct -/

/-- The weight bank held whole at contents `f`. -/
abbrev hbPt (c : Dev nD) (f : Buf (Elt F) (hbM.view.loc (c : Thread nD τ))) : sProp 𝕄 :=
  hbM.view.loc (c : Thread nD τ) ↦{fullShare} f

theorem hbmPts_eq (c : Dev nD) :
    (bigSep H0 (fun b => ((c : Thread nD τ).loc b) ↦{fullShare} V m c b) : sProp 𝕄) = iprop(hbPt c (V m c main_arg1)) := by
  unfold H0
  rw [BI.bigSep_eq_bigSepL_of_eq [main_arg1] (by decide) (by decide)]; rfl

/-- The region's invariant listed: the scratch at some contents, the generator register at some state, the 128 cells at
    zero, the weight bank at its launch contents. -/
theorem PhiD_eq (c : Dev nD) :
    (Pipeline.ΦD osem spec0 H0 (V m) c : sProp 𝕄)
      = iprop(iprop((∃ d, owns (c : Thread nD τ) scM fullShare d)) ∗ (∃ r, prngReg c r) ∗ cellsAtZero c ∗ iprop(hbPt c (V m c main_arg1))) := by
  rw [Pipeline.ΦD_eq, scopedRest0_eq, ownSems_eq, hbmPts_eq]; simp only [scM, owns_whole]; try rfl

/-! ## The windows' blocks -/

/-- Window `w`'s block at point `t`, read off its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- An input window's current staging buffer holds its block at every point, fetched there or not, for any proof data
    whose array is the region-entry contents and whose body leaves the block in place. -/
local macro "stays_fetched" w:term : tactic => `(tactic| (
  intro dat hA hafter t d
  exact (dat.before_in_eq_fetched $w rfl (fun _ => rfl) (fun _ _ _ => rfl)
      (fun t => by rw [hafter]; unfold Dat.blockOf iblk; rw [hA]; try rfl) t d).trans
    (by unfold Dat.fetched Dat.blockOf iblk; rw [hA]; try rfl)))

theorem before_of0 (hO : Ok m) {c : Dev nD} : ∀ (dat : Dat τ (Elt F) Unit ℕ (Pipeline.UD sig nD τ) ℕ (cfgM m hO) c),
    dat.A 0 = V m c (Pipeline.arrRef spec0 0) → (∀ t, dat.after 0 t = iblk m hO c 0 t) → ∀ (t : Fin (cfgM m hO).N) (d), dat.before 0 t d = iblk m hO c 0 t := by
  stays_fetched 0
theorem before_of1 (hO : Ok m) {c : Dev nD} : ∀ (dat : Dat τ (Elt F) Unit ℕ (Pipeline.UD sig nD τ) ℕ (cfgM m hO) c),
    dat.A 1 = V m c (Pipeline.arrRef spec0 1) → (∀ t, dat.after 1 t = iblk m hO c 1 t) → ∀ (t : Fin (cfgM m hO).N) (d), dat.before 1 t d = iblk m hO c 1 t := by
  stays_fetched 1
theorem before_of2 (hO : Ok m) {c : Dev nD} : ∀ (dat : Dat τ (Elt F) Unit ℕ (Pipeline.UD sig nD τ) ℕ (cfgM m hO) c),
    dat.A 2 = V m c (Pipeline.arrRef spec0 2) → (∀ t, dat.after 2 t = iblk m hO c 2 t) → ∀ (t : Fin (cfgM m hO).N) (d), dat.before 2 t d = iblk m hO c 2 t := by
  stays_fetched 2
theorem before_of3 (hO : Ok m) {c : Dev nD} : ∀ (dat : Dat τ (Elt F) Unit ℕ (Pipeline.UD sig nD τ) ℕ (cfgM m hO) c),
    dat.A 3 = V m c (Pipeline.arrRef spec0 3) → (∀ t, dat.after 3 t = iblk m hO c 3 t) → ∀ (t : Fin (cfgM m hO).N) (d), dat.before 3 t d = iblk m hO c 3 t := by
  stays_fetched 3
theorem before_of4 (hO : Ok m) {c : Dev nD} : ∀ (dat : Dat τ (Elt F) Unit ℕ (Pipeline.UD sig nD τ) ℕ (cfgM m hO) c),
    dat.A 4 = V m c (Pipeline.arrRef spec0 4) → (∀ t, dat.after 4 t = iblk m hO c 4 t) → ∀ (t : Fin (cfgM m hO).N) (d), dat.before 4 t d = iblk m hO c 4 t := by
  stays_fetched 4

/-- Each window's current staging memref at point `t`, as the pipeline passes it to the body, and its wholeness. -/
abbrev ms0 (hO : Ok m) (t : Fin (cfgM m hO).N) : Memref sig .tc .vmem S256x1024 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x1024 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1024 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x128 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1024x128 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S128x256 .f32 := spec0_5.stage ((cfgM m hO).slots t 5)
abbrev hs5 (hO : Ok m) (t : Fin (cfgM m hO).N) : (ms5 m hO t).IsWhole := hstage0_5 (((cfgM m hO).slots t 5).cast nbuf0_5)

/-- One staging buffer of the output window, through which its contents are stated (the choice does not matter). -/
abbrev VO : View sig .tc .vmem S128x256 .f32 := (Memref.whole cc0_stg5_0 : Memref sig .tc .vmem S128x256 .f32).view

/-- The kernel body at point `t`, on what the pipeline calls it with. -/
abbrev bodyAt (hO : Ok m) (t : Fin (cfgM m hO).N) : Prog (TpuEff nD τ sig (Elt F) Λ₀ .tc) PUnit :=
  cc0__kernel (grid0.coords t) tbM htbM (ms0 m hO t) (hs0 m hO t) (Memref.whole main_arg1) (Memref.isWhole_whole _)
    (ms1 m hO t) (hs1 m hO t) (ms2 m hO t) (hs2 m hO t) (ms3 m hO t) (hs3 m hO t) (ms4 m hO t) (hs4 m hO t) (ms5 m hO t) (hs5 m hO t)
    scM (Memref.isWhole_whole _) cc0_scratch1

end Cert.KernelIdeal.Hand

end
-- ==== Proof.KIdeal.RowTables.lean ====
import proofs.«427848_j22419729285374_3_alg».proof.Proof.KIdeal.Rows

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

/-- Row t of the scratch, as the body names the destination of copy t. -/
abbrev rowL0 : Memref sig .tc .vmem S8x1024 .f32 := (scM.slice (Rect.unit (s := S128x8x1024) ![0, 0, 0] S1x8x1024.size Gen.inb_S128x8x1024_S1x8x1024_0_0_0) (fun _ => rfl)).squeeze S8x1024 Gen.squeezes_S1x8x1024_S8x1024
abbrev rowL1 : Memref sig .tc .vmem S8x1024 .f32 := (scM.slice (Rect.unit (s := S128x8x1024) ![1, 0, 0] S1x8x1024.size Gen.inb_S128x8x1024_S1x8x1024_1_0_0) (fun _ => rfl)).squeeze S8x1024 Gen.squeezes_S1x8x1024_S8x1024
abbrev rowL2 : Memref sig .tc .vmem S8x1024 .f32 := (scM.slice (Rect.unit (s := S128x8x1024) ![2, 0, 0] S1x8x1024.size Gen.inb_S128x8x1024_S1x8x1024_2_0_0) (fun _ => rfl)).squeeze S8x1024 Gen.squeezes_S1x8x1024_S8x1024
abbrev rowL3 : Memref sig .tc .vmem S8x1024 .f32 := (scM.slice (Rect.unit (s := S128x8x1024) ![3, 0, 0] S1x8x1024.size Gen.inb_S128x8x1024_S1x8x1024_3_0_0) (fun _ => rfl)).squeeze S8x1024 Gen.squeezes_S1x8x1024_S8x1024
abbrev rowL4 : Memref sig .tc .vmem S8x1024 .f32 := (scM.slice (Rect.unit (s := S128x8x1024) ![4, 0, 0] S1x8x1024.size Gen.inb_S128x8x1024_S1x8x1024_4_0_0) (fun _ => rfl)).squeeze S8x1024 Gen.squeezes_S1x8x1024_S8x1024
abbrev rowL5 : Memref sig .tc .vmem S8x1024 .f32 := (scM.slice (Rect.unit (s := S128x8x1024) ![5, 0, 0] S1x8x1024.size Gen.inb_S128x8x1024_S1x8x1024_5_0_0) (fun _ => rfl)).squeeze S8x1024 Gen.squeezes_S1x8x1024_S8x1024
abbrev rowL6 : Memref sig .tc .vmem S8x1024 .f32 := (scM.slice (Rect.unit (s := S128x8x1024) ![6, 0, 0] S1x8x1024.size Gen.inb_S128x8x1024_S1x8x1024_6_0_0) (fun _ => rfl)).squeeze S8x1024 Gen.squeezes_S1x8x1024_S8x1024
abbrev rowL7 : Memref sig .tc .vmem S8x1024 .f32 := (scM.slice (Rect.unit (s := S128x8x1024) ![7, 0, 0] S1x8x1024.size Gen.inb_S128x8x1024_S1x8x1024_7_0_0) (fun _ => rfl)).squeeze S8x1024 Gen.squeezes_S1x8x1024_S8x1024
abbrev rowL8 : Memref sig .tc .vmem S8x1024 .f32 := (scM.slice (Rect.unit (s := S128x8x1024) ![8, 0, 0] S1x8x1024.size Gen.inb_S128x8x1024_S1x8x1024_8_0_0) (fun _ => rfl)).squeeze S8x1024 Gen.squeezes_S1x8x1024_S8x1024
abbrev rowL9 : Memref sig .tc .vmem S8x1024 .f32 := (scM.slice (Rect.unit (s := S128x8x1024) ![9, 0, 0] S1x8x1024.size Gen.inb_S128x8x1024_S1x8x1024_9_0_0) (fun _ => rfl)).squeeze S8x1024 Gen.squeezes_S1x8x1024_S8x1024
abbrev rowL10 : Memref sig .tc .vmem S8x1024 .f32 := (scM.slice (Rect.unit (s := S128x8x1024) ![10, 0, 0] S1x8x1024.size Gen.inb_S128x8x1024_S1x8x1024_10_0_0) (fun _ => rfl)).squeeze S8x1024 Gen.squeezes_S1x8x1024_S8x1024
abbrev rowL11 : Memref sig .tc .vmem S8x1024 .f32 := (scM.slice (Rect.unit (s := S128x8x1024) ![11, 0, 0] S1x8x1024.size Gen.inb_S128x8x1024_S1x8x1024_11_0_0) (fun _ => rfl)).squeeze S8x1024 Gen.squeezes_S1x8x1024_S8x1024
abbrev rowL12 : Memref sig .tc .vmem S8x1024 .f32 := (scM.slice (Rect.unit (s := S128x8x1024) ![12, 0, 0] S1x8x1024.size Gen.inb_S128x8x1024_S1x8x1024_12_0_0) (fun _ => rfl)).squeeze S8x1024 Gen.squeezes_S1x8x1024_S8x1024
abbrev rowL13 : Memref sig .tc .vmem S8x1024 .f32 := (scM.slice (Rect.unit (s := S128x8x1024) ![13, 0, 0] S1x8x1024.size Gen.inb_S128x8x1024_S1x8x1024_13_0_0) (fun _ => rfl)).squeeze S8x1024 Gen.squeezes_S1x8x1024_S8x1024
abbrev rowL14 : Memref sig .tc .vmem S8x1024 .f32 := (scM.slice (Rect.unit (s := S128x8x1024) ![14, 0, 0] S1x8x1024.size Gen.inb_S128x8x1024_S1x8x1024_14_0_0) (fun _ => rfl)).squeeze S8x1024 Gen.squeezes_S1x8x1024_S8x1024
abbrev rowL15 : Memref sig .tc .vmem S8x1024 .f32 := (scM.slice (Rect.unit (s := S128x8x1024) ![15, 0, 0] S1x8x1024.size Gen.inb_S128x8x1024_S1x8x1024_15_0_0) (fun _ => rfl)).squeeze S8x1024 Gen.squeezes_S1x8x1024_S8x1024
abbrev rowL16 : Memref sig .tc .vmem S8x1024 .f32 := (scM.slice (Rect.unit (s := S128x8x1024) ![16, 0, 0] S1x8x1024.size Gen.inb_S128x8x1024_S1x8x1024_16_0_0) (fun _ => rfl)).squeeze S8x1024 Gen.squeezes_S1x8x1024_S8x1024
abbrev rowL17 : Memref sig .tc .vmem S8x1024 .f32 := (scM.slice (Rect.unit (s := S128x8x1024) ![17, 0, 0] S1x8x1024.size Gen.inb_S128x8x1024_S1x8x1024_17_0_0) (fun _ => rfl)).squeeze S8x1024 Gen.squeezes_S1x8x1024_S8x1024
abbrev rowL18 : Memref sig .tc .vmem S8x1024 .f32 := (scM.slice (Rect.unit (s := S128x8x1024) ![18, 0, 0] S1x8x1024.size Gen.inb_S128x8x1024_S1x8x1024_18_0_0) (fun _ => rfl)).squeeze S8x1024 Gen.squeezes_S1x8x1024_S8x1024
abbrev rowL19 : Memref sig .tc .vmem S8x1024 .f32 := (scM.slice (Rect.unit (s := S128x8x1024) ![19, 0, 0] S1x8x1024.size Gen.inb_S128x8x1024_S1x8x1024_19_0_0) (fun _ => rfl)).squeeze S8x1024 Gen.squeezes_S1x8x1024_S8x1024
abbrev rowL20 : Memref sig .tc .vmem S8x1024 .f32 := (scM.slice (Rect.unit (s := S128x8x1024) ![20, 0, 0] S1x8x1024.size Gen.inb_S128x8x1024_S1x8x1024_20_0_0) (fun _ => rfl)).squeeze S8x1024 Gen.squeezes_S1x8x1024_S8x1024
abbrev rowL21 : Memref sig .tc .vmem S8x1024 .f32 := (scM.slice (Rect.unit (s := S128x8x1024) ![21, 0, 0] S1x8x1024.size Gen.inb_S128x8x1024_S1x8x1024_21_0_0) (fun _ => rfl)).squeeze S8x1024 Gen.squeezes_S1x8x1024_S8x1024
abbrev rowL22 : Memref sig .tc .vmem S8x1024 .f32 := (scM.slice (Rect.unit (s := S128x8x1024) ![22, 0, 0] S1x8x1024.size Gen.inb_S128x8x1024_S1x8x1024_22_0_0) (fun _ => rfl)).squeeze S8x1024 Gen.squeezes_S1x8x1024_S8x1024
abbrev rowL23 : Memref sig .tc .vmem S8x1024 .f32 := (scM.slice (Rect.unit (s := S128x8x1024) ![23, 0, 0] S1x8x1024.size Gen.inb_S128x8x1024_S1x8x1024_23_0_0) (fun _ => rfl)).squeeze S8x1024 Gen.squeezes_S1x8x1024_S8x1024
abbrev rowL24 : Memref sig .tc .vmem S8x1024 .f32 := (scM.slice (Rect.unit (s := S128x8x1024) ![24, 0, 0] S1x8x1024.size Gen.inb_S128x8x1024_S1x8x1024_24_0_0) (fun _ => rfl)).squeeze S8x1024 Gen.squeezes_S1x8x1024_S8x1024
abbrev rowL25 : Memref sig .tc .vmem S8x1024 .f32 := (scM.slice (Rect.unit (s := S128x8x1024) ![25, 0, 0] S1x8x1024.size Gen.inb_S128x8x1024_S1x8x1024_25_0_0) (fun _ => rfl)).squeeze S8x1024 Gen.squeezes_S1x8x1024_S8x1024
abbrev rowL26 : Memref sig .tc .vmem S8x1024 .f32 := (scM.slice (Rect.unit (s := S128x8x1024) ![26, 0, 0] S1x8x1024.size Gen.inb_S128x8x1024_S1x8x1024_26_0_0) (fun _ => rfl)).squeeze S8x1024 Gen.squeezes_S1x8x1024_S8x1024
abbrev rowL27 : Memref sig .tc .vmem S8x1024 .f32 := (scM.slice (Rect.unit (s := S128x8x1024) ![27, 0, 0] S1x8x1024.size Gen.inb_S128x8x1024_S1x8x1024_27_0_0) (fun _ => rfl)).squeeze S8x1024 Gen.squeezes_S1x8x1024_S8x1024
abbrev rowL28 : Memref sig .tc .vmem S8x1024 .f32 := (scM.slice (Rect.unit (s := S128x8x1024) ![28, 0, 0] S1x8x1024.size Gen.inb_S128x8x1024_S1x8x1024_28_0_0) (fun _ => rfl)).squeeze S8x1024 Gen.squeezes_S1x8x1024_S8x1024
abbrev rowL29 : Memref sig .tc .vmem S8x1024 .f32 := (scM.slice (Rect.unit (s := S128x8x1024) ![29, 0, 0] S1x8x1024.size Gen.inb_S128x8x1024_S1x8x1024_29_0_0) (fun _ => rfl)).squeeze S8x1024 Gen.squeezes_S1x8x1024_S8x1024
abbrev rowL30 : Memref sig .tc .vmem S8x1024 .f32 := (scM.slice (Rect.unit (s := S128x8x1024) ![30, 0, 0] S1x8x1024.size Gen.inb_S128x8x1024_S1x8x1024_30_0_0) (fun _ => rfl)).squeeze S8x1024 Gen.squeezes_S1x8x1024_S8x1024
abbrev rowL31 : Memref sig .tc .vmem S8x1024 .f32 := (scM.slice (Rect.unit (s := S128x8x1024) ![31, 0, 0] S1x8x1024.size Gen.inb_S128x8x1024_S1x8x1024_31_0_0) (fun _ => rfl)).squeeze S8x1024 Gen.squeezes_S1x8x1024_S8x1024
abbrev rowL32 : Memref sig .tc .vmem S8x1024 .f32 := (scM.slice (Rect.unit (s := S128x8x1024) ![32, 0, 0] S1x8x1024.size Gen.inb_S128x8x1024_S1x8x1024_32_0_0) (fun _ => rfl)).squeeze S8x1024 Gen.squeezes_S1x8x1024_S8x1024
abbrev rowL33 : Memref sig .tc .vmem S8x1024 .f32 := (scM.slice (Rect.unit (s := S128x8x1024) ![33, 0, 0] S1x8x1024.size Gen.inb_S128x8x1024_S1x8x1024_33_0_0) (fun _ => rfl)).squeeze S8x1024 Gen.squeezes_S1x8x1024_S8x1024
abbrev rowL34 : Memref sig .tc .vmem S8x1024 .f32 := (scM.slice (Rect.unit (s := S128x8x1024) ![34, 0, 0] S1x8x1024.size Gen.inb_S128x8x1024_S1x8x1024_34_0_0) (fun _ => rfl)).squeeze S8x1024 Gen.squeezes_S1x8x1024_S8x1024
abbrev rowL35 : Memref sig .tc .vmem S8x1024 .f32 := (scM.slice (Rect.unit (s := S128x8x1024) ![35, 0, 0] S1x8x1024.size Gen.inb_S128x8x1024_S1x8x1024_35_0_0) (fun _ => rfl)).squeeze S8x1024 Gen.squeezes_S1x8x1024_S8x1024
abbrev rowL36 : Memref sig .tc .vmem S8x1024 .f32 := (scM.slice (Rect.unit (s := S128x8x1024) ![36, 0, 0] S1x8x1024.size Gen.inb_S128x8x1024_S1x8x1024_36_0_0) (fun _ => rfl)).squeeze S8x1024 Gen.squeezes_S1x8x1024_S8x1024
abbrev rowL37 : Memref sig .tc .vmem S8x1024 .f32 := (scM.slice (Rect.unit (s := S128x8x1024) ![37, 0, 0] S1x8x1024.size Gen.inb_S128x8x1024_S1x8x1024_37_0_0) (fun _ => rfl)).squeeze S8x1024 Gen.squeezes_S1x8x1024_S8x1024
abbrev rowL38 : Memref sig .tc .vmem S8x1024 .f32 := (scM.slice (Rect.unit (s := S128x8x1024) ![38, 0, 0] S1x8x1024.size Gen.inb_S128x8x1024_S1x8x1024_38_0_0) (fun _ => rfl)).squeeze S8x1024 Gen.squeezes_S1x8x1024_S8x1024
abbrev rowL39 : Memref sig .tc .vmem S8x1024 .f32 := (scM.slice (Rect.unit (s := S128x8x1024) ![39, 0, 0] S1x8x1024.size Gen.inb_S128x8x1024_S1x8x1024_39_0_0) (fun _ => rfl)).squeeze S8x1024 Gen.squeezes_S1x8x1024_S8x1024
abbrev rowL40 : Memref sig .tc .vmem S8x1024 .f32 := (scM.slice (Rect.unit (s := S128x8x1024) ![40, 0, 0] S1x8x1024.size Gen.inb_S128x8x1024_S1x8x1024_40_0_0) (fun _ => rfl)).squeeze S8x1024 Gen.squeezes_S1x8x1024_S8x1024
abbrev rowL41 : Memref sig .tc .vmem S8x1024 .f32 := (scM.slice (Rect.unit (s := S128x8x1024) ![41, 0, 0] S1x8x1024.size Gen.inb_S128x8x1024_S1x8x1024_41_0_0) (fun _ => rfl)).squeeze S8x1024 Gen.squeezes_S1x8x1024_S8x1024
abbrev rowL42 : Memref sig .tc .vmem S8x1024 .f32 := (scM.slice (Rect.unit (s := S128x8x1024) ![42, 0, 0] S1x8x1024.size Gen.inb_S128x8x1024_S1x8x1024_42_0_0) (fun _ => rfl)).squeeze S8x1024 Gen.squeezes_S1x8x1024_S8x1024
abbrev rowL43 : Memref sig .tc .vmem S8x1024 .f32 := (scM.slice (Rect.unit (s := S128x8x1024) ![43, 0, 0] S1x8x1024.size Gen.inb_S128x8x1024_S1x8x1024_43_0_0) (fun _ => rfl)).squeeze S8x1024 Gen.squeezes_S1x8x1024_S8x1024
abbrev rowL44 : Memref sig .tc .vmem S8x1024 .f32 := (scM.slice (Rect.unit (s := S128x8x1024) ![44, 0, 0] S1x8x1024.size Gen.inb_S128x8x1024_S1x8x1024_44_0_0) (fun _ => rfl)).squeeze S8x1024 Gen.squeezes_S1x8x1024_S8x1024
abbrev rowL45 : Memref sig .tc .vmem S8x1024 .f32 := (scM.slice (Rect.unit (s := S128x8x1024) ![45, 0, 0] S1x8x1024.size Gen.inb_S128x8x1024_S1x8x1024_45_0_0) (fun _ => rfl)).squeeze S8x1024 Gen.squeezes_S1x8x1024_S8x1024
abbrev rowL46 : Memref sig .tc .vmem S8x1024 .f32 := (scM.slice (Rect.unit (s := S128x8x1024) ![46, 0, 0] S1x8x1024.size Gen.inb_S128x8x1024_S1x8x1024_46_0_0) (fun _ => rfl)).squeeze S8x1024 Gen.squeezes_S1x8x1024_S8x1024
abbrev rowL47 : Memref sig .tc .vmem S8x1024 .f32 := (scM.slice (Rect.unit (s := S128x8x1024) ![47, 0, 0] S1x8x1024.size Gen.inb_S128x8x1024_S1x8x1024_47_0_0) (fun _ => rfl)).squeeze S8x1024 Gen.squeezes_S1x8x1024_S8x1024
abbrev rowL48 : Memref sig .tc .vmem S8x1024 .f32 := (scM.slice (Rect.unit (s := S128x8x1024) ![48, 0, 0] S1x8x1024.size Gen.inb_S128x8x1024_S1x8x1024_48_0_0) (fun _ => rfl)).squeeze S8x1024 Gen.squeezes_S1x8x1024_S8x1024
abbrev rowL49 : Memref sig .tc .vmem S8x1024 .f32 := (scM.slice (Rect.unit (s := S128x8x1024) ![49, 0, 0] S1x8x1024.size Gen.inb_S128x8x1024_S1x8x1024_49_0_0) (fun _ => rfl)).squeeze S8x1024 Gen.squeezes_S1x8x1024_S8x1024
abbrev rowL50 : Memref sig .tc .vmem S8x1024 .f32 := (scM.slice (Rect.unit (s := S128x8x1024) ![50, 0, 0] S1x8x1024.size Gen.inb_S128x8x1024_S1x8x1024_50_0_0) (fun _ => rfl)).squeeze S8x1024 Gen.squeezes_S1x8x1024_S8x1024
abbrev rowL51 : Memref sig .tc .vmem S8x1024 .f32 := (scM.slice (Rect.unit (s := S128x8x1024) ![51, 0, 0] S1x8x1024.size Gen.inb_S128x8x1024_S1x8x1024_51_0_0) (fun _ => rfl)).squeeze S8x1024 Gen.squeezes_S1x8x1024_S8x1024
abbrev rowL52 : Memref sig .tc .vmem S8x1024 .f32 := (scM.slice (Rect.unit (s := S128x8x1024) ![52, 0, 0] S1x8x1024.size Gen.inb_S128x8x1024_S1x8x1024_52_0_0) (fun _ => rfl)).squeeze S8x1024 Gen.squeezes_S1x8x1024_S8x1024
abbrev rowL53 : Memref sig .tc .vmem S8x1024 .f32 := (scM.slice (Rect.unit (s := S128x8x1024) ![53, 0, 0] S1x8x1024.size Gen.inb_S128x8x1024_S1x8x1024_53_0_0) (fun _ => rfl)).squeeze S8x1024 Gen.squeezes_S1x8x1024_S8x1024
abbrev rowL54 : Memref sig .tc .vmem S8x1024 .f32 := (scM.slice (Rect.unit (s := S128x8x1024) ![54, 0, 0] S1x8x1024.size Gen.inb_S128x8x1024_S1x8x1024_54_0_0) (fun _ => rfl)).squeeze S8x1024 Gen.squeezes_S1x8x1024_S8x1024
abbrev rowL55 : Memref sig .tc .vmem S8x1024 .f32 := (scM.slice (Rect.unit (s := S128x8x1024) ![55, 0, 0] S1x8x1024.size Gen.inb_S128x8x1024_S1x8x1024_55_0_0) (fun _ => rfl)).squeeze S8x1024 Gen.squeezes_S1x8x1024_S8x1024
abbrev rowL56 : Memref sig .tc .vmem S8x1024 .f32 := (scM.slice (Rect.unit (s := S128x8x1024) ![56, 0, 0] S1x8x1024.size Gen.inb_S128x8x1024_S1x8x1024_56_0_0) (fun _ => rfl)).squeeze S8x1024 Gen.squeezes_S1x8x1024_S8x1024
abbrev rowL57 : Memref sig .tc .vmem S8x1024 .f32 := (scM.slice (Rect.unit (s := S128x8x1024) ![57, 0, 0] S1x8x1024.size Gen.inb_S128x8x1024_S1x8x1024_57_0_0) (fun _ => rfl)).squeeze S8x1024 Gen.squeezes_S1x8x1024_S8x1024
abbrev rowL58 : Memref sig .tc .vmem S8x1024 .f32 := (scM.slice (Rect.unit (s := S128x8x1024) ![58, 0, 0] S1x8x1024.size Gen.inb_S128x8x1024_S1x8x1024_58_0_0) (fun _ => rfl)).squeeze S8x1024 Gen.squeezes_S1x8x1024_S8x1024
abbrev rowL59 : Memref sig .tc .vmem S8x1024 .f32 := (scM.slice (Rect.unit (s := S128x8x1024) ![59, 0, 0] S1x8x1024.size Gen.inb_S128x8x1024_S1x8x1024_59_0_0) (fun _ => rfl)).squeeze S8x1024 Gen.squeezes_S1x8x1024_S8x1024
abbrev rowL60 : Memref sig .tc .vmem S8x1024 .f32 := (scM.slice (Rect.unit (s := S128x8x1024) ![60, 0, 0] S1x8x1024.size Gen.inb_S128x8x1024_S1x8x1024_60_0_0) (fun _ => rfl)).squeeze S8x1024 Gen.squeezes_S1x8x1024_S8x1024
abbrev rowL61 : Memref sig .tc .vmem S8x1024 .f32 := (scM.slice (Rect.unit (s := S128x8x1024) ![61, 0, 0] S1x8x1024.size Gen.inb_S128x8x1024_S1x8x1024_61_0_0) (fun _ => rfl)).squeeze S8x1024 Gen.squeezes_S1x8x1024_S8x1024
abbrev rowL62 : Memref sig .tc .vmem S8x1024 .f32 := (scM.slice (Rect.unit (s := S128x8x1024) ![62, 0, 0] S1x8x1024.size Gen.inb_S128x8x1024_S1x8x1024_62_0_0) (fun _ => rfl)).squeeze S8x1024 Gen.squeezes_S1x8x1024_S8x1024
abbrev rowL63 : Memref sig .tc .vmem S8x1024 .f32 := (scM.slice (Rect.unit (s := S128x8x1024) ![63, 0, 0] S1x8x1024.size Gen.inb_S128x8x1024_S1x8x1024_63_0_0) (fun _ => rfl)).squeeze S8x1024 Gen.squeezes_S1x8x1024_S8x1024
abbrev rowL64 : Memref sig .tc .vmem S8x1024 .f32 := (scM.slice (Rect.unit (s := S128x8x1024) ![64, 0, 0] S1x8x1024.size Gen.inb_S128x8x1024_S1x8x1024_64_0_0) (fun _ => rfl)).squeeze S8x1024 Gen.squeezes_S1x8x1024_S8x1024
abbrev rowL65 : Memref sig .tc .vmem S8x1024 .f32 := (scM.slice (Rect.unit (s := S128x8x1024) ![65, 0, 0] S1x8x1024.size Gen.inb_S128x8x1024_S1x8x1024_65_0_0) (fun _ => rfl)).squeeze S8x1024 Gen.squeezes_S1x8x1024_S8x1024
abbrev rowL66 : Memref sig .tc .vmem S8x1024 .f32 := (scM.slice (Rect.unit (s := S128x8x1024) ![66, 0, 0] S1x8x1024.size Gen.inb_S128x8x1024_S1x8x1024_66_0_0) (fun _ => rfl)).squeeze S8x1024 Gen.squeezes_S1x8x1024_S8x1024
abbrev rowL67 : Memref sig .tc .vmem S8x1024 .f32 := (scM.slice (Rect.unit (s := S128x8x1024) ![67, 0, 0] S1x8x1024.size Gen.inb_S128x8x1024_S1x8x1024_67_0_0) (fun _ => rfl)).squeeze S8x1024 Gen.squeezes_S1x8x1024_S8x1024
abbrev rowL68 : Memref sig .tc .vmem S8x1024 .f32 := (scM.slice (Rect.unit (s := S128x8x1024) ![68, 0, 0] S1x8x1024.size Gen.inb_S128x8x1024_S1x8x1024_68_0_0) (fun _ => rfl)).squeeze S8x1024 Gen.squeezes_S1x8x1024_S8x1024
abbrev rowL69 : Memref sig .tc .vmem S8x1024 .f32 := (scM.slice (Rect.unit (s := S128x8x1024) ![69, 0, 0] S1x8x1024.size Gen.inb_S128x8x1024_S1x8x1024_69_0_0) (fun _ => rfl)).squeeze S8x1024 Gen.squeezes_S1x8x1024_S8x1024
abbrev rowL70 : Memref sig .tc .vmem S8x1024 .f32 := (scM.slice (Rect.unit (s := S128x8x1024) ![70, 0, 0] S1x8x1024.size Gen.inb_S128x8x1024_S1x8x1024_70_0_0) (fun _ => rfl)).squeeze S8x1024 Gen.squeezes_S1x8x1024_S8x1024
abbrev rowL71 : Memref sig .tc .vmem S8x1024 .f32 := (scM.slice (Rect.unit (s := S128x8x1024) ![71, 0, 0] S1x8x1024.size Gen.inb_S128x8x1024_S1x8x1024_71_0_0) (fun _ => rfl)).squeeze S8x1024 Gen.squeezes_S1x8x1024_S8x1024
abbrev rowL72 : Memref sig .tc .vmem S8x1024 .f32 := (scM.slice (Rect.unit (s := S128x8x1024) ![72, 0, 0] S1x8x1024.size Gen.inb_S128x8x1024_S1x8x1024_72_0_0) (fun _ => rfl)).squeeze S8x1024 Gen.squeezes_S1x8x1024_S8x1024
abbrev rowL73 : Memref sig .tc .vmem S8x1024 .f32 := (scM.slice (Rect.unit (s := S128x8x1024) ![73, 0, 0] S1x8x1024.size Gen.inb_S128x8x1024_S1x8x1024_73_0_0) (fun _ => rfl)).squeeze S8x1024 Gen.squeezes_S1x8x1024_S8x1024
abbrev rowL74 : Memref sig .tc .vmem S8x1024 .f32 := (scM.slice (Rect.unit (s := S128x8x1024) ![74, 0, 0] S1x8x1024.size Gen.inb_S128x8x1024_S1x8x1024_74_0_0) (fun _ => rfl)).squeeze S8x1024 Gen.squeezes_S1x8x1024_S8x1024
abbrev rowL75 : Memref sig .tc .vmem S8x1024 .f32 := (scM.slice (Rect.unit (s := S128x8x1024) ![75, 0, 0] S1x8x1024.size Gen.inb_S128x8x1024_S1x8x1024_75_0_0) (fun _ => rfl)).squeeze S8x1024 Gen.squeezes_S1x8x1024_S8x1024
abbrev rowL76 : Memref sig .tc .vmem S8x1024 .f32 := (scM.slice (Rect.unit (s := S128x8x1024) ![76, 0, 0] S1x8x1024.size Gen.inb_S128x8x1024_S1x8x1024_76_0_0) (fun _ => rfl)).squeeze S8x1024 Gen.squeezes_S1x8x1024_S8x1024
abbrev rowL77 : Memref sig .tc .vmem S8x1024 .f32 := (scM.slice (Rect.unit (s := S128x8x1024) ![77, 0, 0] S1x8x1024.size Gen.inb_S128x8x1024_S1x8x1024_77_0_0) (fun _ => rfl)).squeeze S8x1024 Gen.squeezes_S1x8x1024_S8x1024
abbrev rowL78 : Memref sig .tc .vmem S8x1024 .f32 := (scM.slice (Rect.unit (s := S128x8x1024) ![78, 0, 0] S1x8x1024.size Gen.inb_S128x8x1024_S1x8x1024_78_0_0) (fun _ => rfl)).squeeze S8x1024 Gen.squeezes_S1x8x1024_S8x1024
abbrev rowL79 : Memref sig .tc .vmem S8x1024 .f32 := (scM.slice (Rect.unit (s := S128x8x1024) ![79, 0, 0] S1x8x1024.size Gen.inb_S128x8x1024_S1x8x1024_79_0_0) (fun _ => rfl)).squeeze S8x1024 Gen.squeezes_S1x8x1024_S8x1024
abbrev rowL80 : Memref sig .tc .vmem S8x1024 .f32 := (scM.slice (Rect.unit (s := S128x8x1024) ![80, 0, 0] S1x8x1024.size Gen.inb_S128x8x1024_S1x8x1024_80_0_0) (fun _ => rfl)).squeeze S8x1024 Gen.squeezes_S1x8x1024_S8x1024
abbrev rowL81 : Memref sig .tc .vmem S8x1024 .f32 := (scM.slice (Rect.unit (s := S128x8x1024) ![81, 0, 0] S1x8x1024.size Gen.inb_S128x8x1024_S1x8x1024_81_0_0) (fun _ => rfl)).squeeze S8x1024 Gen.squeezes_S1x8x1024_S8x1024
abbrev rowL82 : Memref sig .tc .vmem S8x1024 .f32 := (scM.slice (Rect.unit (s := S128x8x1024) ![82, 0, 0] S1x8x1024.size Gen.inb_S128x8x1024_S1x8x1024_82_0_0) (fun _ => rfl)).squeeze S8x1024 Gen.squeezes_S1x8x1024_S8x1024
abbrev rowL83 : Memref sig .tc .vmem S8x1024 .f32 := (scM.slice (Rect.unit (s := S128x8x1024) ![83, 0, 0] S1x8x1024.size Gen.inb_S128x8x1024_S1x8x1024_83_0_0) (fun _ => rfl)).squeeze S8x1024 Gen.squeezes_S1x8x1024_S8x1024
abbrev rowL84 : Memref sig .tc .vmem S8x1024 .f32 := (scM.slice (Rect.unit (s := S128x8x1024) ![84, 0, 0] S1x8x1024.size Gen.inb_S128x8x1024_S1x8x1024_84_0_0) (fun _ => rfl)).squeeze S8x1024 Gen.squeezes_S1x8x1024_S8x1024
abbrev rowL85 : Memref sig .tc .vmem S8x1024 .f32 := (scM.slice (Rect.unit (s := S128x8x1024) ![85, 0, 0] S1x8x1024.size Gen.inb_S128x8x1024_S1x8x1024_85_0_0) (fun _ => rfl)).squeeze S8x1024 Gen.squeezes_S1x8x1024_S8x1024
abbrev rowL86 : Memref sig .tc .vmem S8x1024 .f32 := (scM.slice (Rect.unit (s := S128x8x1024) ![86, 0, 0] S1x8x1024.size Gen.inb_S128x8x1024_S1x8x1024_86_0_0) (fun _ => rfl)).squeeze S8x1024 Gen.squeezes_S1x8x1024_S8x1024
abbrev rowL87 : Memref sig .tc .vmem S8x1024 .f32 := (scM.slice (Rect.unit (s := S128x8x1024) ![87, 0, 0] S1x8x1024.size Gen.inb_S128x8x1024_S1x8x1024_87_0_0) (fun _ => rfl)).squeeze S8x1024 Gen.squeezes_S1x8x1024_S8x1024
abbrev rowL88 : Memref sig .tc .vmem S8x1024 .f32 := (scM.slice (Rect.unit (s := S128x8x1024) ![88, 0, 0] S1x8x1024.size Gen.inb_S128x8x1024_S1x8x1024_88_0_0) (fun _ => rfl)).squeeze S8x1024 Gen.squeezes_S1x8x1024_S8x1024
abbrev rowL89 : Memref sig .tc .vmem S8x1024 .f32 := (scM.slice (Rect.unit (s := S128x8x1024) ![89, 0, 0] S1x8x1024.size Gen.inb_S128x8x1024_S1x8x1024_89_0_0) (fun _ => rfl)).squeeze S8x1024 Gen.squeezes_S1x8x1024_S8x1024
abbrev rowL90 : Memref sig .tc .vmem S8x1024 .f32 := (scM.slice (Rect.unit (s := S128x8x1024) ![90, 0, 0] S1x8x1024.size Gen.inb_S128x8x1024_S1x8x1024_90_0_0) (fun _ => rfl)).squeeze S8x1024 Gen.squeezes_S1x8x1024_S8x1024
abbrev rowL91 : Memref sig .tc .vmem S8x1024 .f32 := (scM.slice (Rect.unit (s := S128x8x1024) ![91, 0, 0] S1x8x1024.size Gen.inb_S128x8x1024_S1x8x1024_91_0_0) (fun _ => rfl)).squeeze S8x1024 Gen.squeezes_S1x8x1024_S8x1024
abbrev rowL92 : Memref sig .tc .vmem S8x1024 .f32 := (scM.slice (Rect.unit (s := S128x8x1024) ![92, 0, 0] S1x8x1024.size Gen.inb_S128x8x1024_S1x8x1024_92_0_0) (fun _ => rfl)).squeeze S8x1024 Gen.squeezes_S1x8x1024_S8x1024
abbrev rowL93 : Memref sig .tc .vmem S8x1024 .f32 := (scM.slice (Rect.unit (s := S128x8x1024) ![93, 0, 0] S1x8x1024.size Gen.inb_S128x8x1024_S1x8x1024_93_0_0) (fun _ => rfl)).squeeze S8x1024 Gen.squeezes_S1x8x1024_S8x1024
abbrev rowL94 : Memref sig .tc .vmem S8x1024 .f32 := (scM.slice (Rect.unit (s := S128x8x1024) ![94, 0, 0] S1x8x1024.size Gen.inb_S128x8x1024_S1x8x1024_94_0_0) (fun _ => rfl)).squeeze S8x1024 Gen.squeezes_S1x8x1024_S8x1024
abbrev rowL95 : Memref sig .tc .vmem S8x1024 .f32 := (scM.slice (Rect.unit (s := S128x8x1024) ![95, 0, 0] S1x8x1024.size Gen.inb_S128x8x1024_S1x8x1024_95_0_0) (fun _ => rfl)).squeeze S8x1024 Gen.squeezes_S1x8x1024_S8x1024
abbrev rowL96 : Memref sig .tc .vmem S8x1024 .f32 := (scM.slice (Rect.unit (s := S128x8x1024) ![96, 0, 0] S1x8x1024.size Gen.inb_S128x8x1024_S1x8x1024_96_0_0) (fun _ => rfl)).squeeze S8x1024 Gen.squeezes_S1x8x1024_S8x1024
abbrev rowL97 : Memref sig .tc .vmem S8x1024 .f32 := (scM.slice (Rect.unit (s := S128x8x1024) ![97, 0, 0] S1x8x1024.size Gen.inb_S128x8x1024_S1x8x1024_97_0_0) (fun _ => rfl)).squeeze S8x1024 Gen.squeezes_S1x8x1024_S8x1024
abbrev rowL98 : Memref sig .tc .vmem S8x1024 .f32 := (scM.slice (Rect.unit (s := S128x8x1024) ![98, 0, 0] S1x8x1024.size Gen.inb_S128x8x1024_S1x8x1024_98_0_0) (fun _ => rfl)).squeeze S8x1024 Gen.squeezes_S1x8x1024_S8x1024
abbrev rowL99 : Memref sig .tc .vmem S8x1024 .f32 := (scM.slice (Rect.unit (s := S128x8x1024) ![99, 0, 0] S1x8x1024.size Gen.inb_S128x8x1024_S1x8x1024_99_0_0) (fun _ => rfl)).squeeze S8x1024 Gen.squeezes_S1x8x1024_S8x1024
abbrev rowL100 : Memref sig .tc .vmem S8x1024 .f32 := (scM.slice (Rect.unit (s := S128x8x1024) ![100, 0, 0] S1x8x1024.size Gen.inb_S128x8x1024_S1x8x1024_100_0_0) (fun _ => rfl)).squeeze S8x1024 Gen.squeezes_S1x8x1024_S8x1024
abbrev rowL101 : Memref sig .tc .vmem S8x1024 .f32 := (scM.slice (Rect.unit (s := S128x8x1024) ![101, 0, 0] S1x8x1024.size Gen.inb_S128x8x1024_S1x8x1024_101_0_0) (fun _ => rfl)).squeeze S8x1024 Gen.squeezes_S1x8x1024_S8x1024
abbrev rowL102 : Memref sig .tc .vmem S8x1024 .f32 := (scM.slice (Rect.unit (s := S128x8x1024) ![102, 0, 0] S1x8x1024.size Gen.inb_S128x8x1024_S1x8x1024_102_0_0) (fun _ => rfl)).squeeze S8x1024 Gen.squeezes_S1x8x1024_S8x1024
abbrev rowL103 : Memref sig .tc .vmem S8x1024 .f32 := (scM.slice (Rect.unit (s := S128x8x1024) ![103, 0, 0] S1x8x1024.size Gen.inb_S128x8x1024_S1x8x1024_103_0_0) (fun _ => rfl)).squeeze S8x1024 Gen.squeezes_S1x8x1024_S8x1024
abbrev rowL104 : Memref sig .tc .vmem S8x1024 .f32 := (scM.slice (Rect.unit (s := S128x8x1024) ![104, 0, 0] S1x8x1024.size Gen.inb_S128x8x1024_S1x8x1024_104_0_0) (fun _ => rfl)).squeeze S8x1024 Gen.squeezes_S1x8x1024_S8x1024
abbrev rowL105 : Memref sig .tc .vmem S8x1024 .f32 := (scM.slice (Rect.unit (s := S128x8x1024) ![105, 0, 0] S1x8x1024.size Gen.inb_S128x8x1024_S1x8x1024_105_0_0) (fun _ => rfl)).squeeze S8x1024 Gen.squeezes_S1x8x1024_S8x1024
abbrev rowL106 : Memref sig .tc .vmem S8x1024 .f32 := (scM.slice (Rect.unit (s := S128x8x1024) ![106, 0, 0] S1x8x1024.size Gen.inb_S128x8x1024_S1x8x1024_106_0_0) (fun _ => rfl)).squeeze S8x1024 Gen.squeezes_S1x8x1024_S8x1024
abbrev rowL107 : Memref sig .tc .vmem S8x1024 .f32 := (scM.slice (Rect.unit (s := S128x8x1024) ![107, 0, 0] S1x8x1024.size Gen.inb_S128x8x1024_S1x8x1024_107_0_0) (fun _ => rfl)).squeeze S8x1024 Gen.squeezes_S1x8x1024_S8x1024
abbrev rowL108 : Memref sig .tc .vmem S8x1024 .f32 := (scM.slice (Rect.unit (s := S128x8x1024) ![108, 0, 0] S1x8x1024.size Gen.inb_S128x8x1024_S1x8x1024_108_0_0) (fun _ => rfl)).squeeze S8x1024 Gen.squeezes_S1x8x1024_S8x1024
abbrev rowL109 : Memref sig .tc .vmem S8x1024 .f32 := (scM.slice (Rect.unit (s := S128x8x1024) ![109, 0, 0] S1x8x1024.size Gen.inb_S128x8x1024_S1x8x1024_109_0_0) (fun _ => rfl)).squeeze S8x1024 Gen.squeezes_S1x8x1024_S8x1024
abbrev rowL110 : Memref sig .tc .vmem S8x1024 .f32 := (scM.slice (Rect.unit (s := S128x8x1024) ![110, 0, 0] S1x8x1024.size Gen.inb_S128x8x1024_S1x8x1024_110_0_0) (fun _ => rfl)).squeeze S8x1024 Gen.squeezes_S1x8x1024_S8x1024
abbrev rowL111 : Memref sig .tc .vmem S8x1024 .f32 := (scM.slice (Rect.unit (s := S128x8x1024) ![111, 0, 0] S1x8x1024.size Gen.inb_S128x8x1024_S1x8x1024_111_0_0) (fun _ => rfl)).squeeze S8x1024 Gen.squeezes_S1x8x1024_S8x1024
abbrev rowL112 : Memref sig .tc .vmem S8x1024 .f32 := (scM.slice (Rect.unit (s := S128x8x1024) ![112, 0, 0] S1x8x1024.size Gen.inb_S128x8x1024_S1x8x1024_112_0_0) (fun _ => rfl)).squeeze S8x1024 Gen.squeezes_S1x8x1024_S8x1024
abbrev rowL113 : Memref sig .tc .vmem S8x1024 .f32 := (scM.slice (Rect.unit (s := S128x8x1024) ![113, 0, 0] S1x8x1024.size Gen.inb_S128x8x1024_S1x8x1024_113_0_0) (fun _ => rfl)).squeeze S8x1024 Gen.squeezes_S1x8x1024_S8x1024
abbrev rowL114 : Memref sig .tc .vmem S8x1024 .f32 := (scM.slice (Rect.unit (s := S128x8x1024) ![114, 0, 0] S1x8x1024.size Gen.inb_S128x8x1024_S1x8x1024_114_0_0) (fun _ => rfl)).squeeze S8x1024 Gen.squeezes_S1x8x1024_S8x1024
abbrev rowL115 : Memref sig .tc .vmem S8x1024 .f32 := (scM.slice (Rect.unit (s := S128x8x1024) ![115, 0, 0] S1x8x1024.size Gen.inb_S128x8x1024_S1x8x1024_115_0_0) (fun _ => rfl)).squeeze S8x1024 Gen.squeezes_S1x8x1024_S8x1024
abbrev rowL116 : Memref sig .tc .vmem S8x1024 .f32 := (scM.slice (Rect.unit (s := S128x8x1024) ![116, 0, 0] S1x8x1024.size Gen.inb_S128x8x1024_S1x8x1024_116_0_0) (fun _ => rfl)).squeeze S8x1024 Gen.squeezes_S1x8x1024_S8x1024
abbrev rowL117 : Memref sig .tc .vmem S8x1024 .f32 := (scM.slice (Rect.unit (s := S128x8x1024) ![117, 0, 0] S1x8x1024.size Gen.inb_S128x8x1024_S1x8x1024_117_0_0) (fun _ => rfl)).squeeze S8x1024 Gen.squeezes_S1x8x1024_S8x1024
abbrev rowL118 : Memref sig .tc .vmem S8x1024 .f32 := (scM.slice (Rect.unit (s := S128x8x1024) ![118, 0, 0] S1x8x1024.size Gen.inb_S128x8x1024_S1x8x1024_118_0_0) (fun _ => rfl)).squeeze S8x1024 Gen.squeezes_S1x8x1024_S8x1024
abbrev rowL119 : Memref sig .tc .vmem S8x1024 .f32 := (scM.slice (Rect.unit (s := S128x8x1024) ![119, 0, 0] S1x8x1024.size Gen.inb_S128x8x1024_S1x8x1024_119_0_0) (fun _ => rfl)).squeeze S8x1024 Gen.squeezes_S1x8x1024_S8x1024
abbrev rowL120 : Memref sig .tc .vmem S8x1024 .f32 := (scM.slice (Rect.unit (s := S128x8x1024) ![120, 0, 0] S1x8x1024.size Gen.inb_S128x8x1024_S1x8x1024_120_0_0) (fun _ => rfl)).squeeze S8x1024 Gen.squeezes_S1x8x1024_S8x1024
abbrev rowL121 : Memref sig .tc .vmem S8x1024 .f32 := (scM.slice (Rect.unit (s := S128x8x1024) ![121, 0, 0] S1x8x1024.size Gen.inb_S128x8x1024_S1x8x1024_121_0_0) (fun _ => rfl)).squeeze S8x1024 Gen.squeezes_S1x8x1024_S8x1024
abbrev rowL122 : Memref sig .tc .vmem S8x1024 .f32 := (scM.slice (Rect.unit (s := S128x8x1024) ![122, 0, 0] S1x8x1024.size Gen.inb_S128x8x1024_S1x8x1024_122_0_0) (fun _ => rfl)).squeeze S8x1024 Gen.squeezes_S1x8x1024_S8x1024
abbrev rowL123 : Memref sig .tc .vmem S8x1024 .f32 := (scM.slice (Rect.unit (s := S128x8x1024) ![123, 0, 0] S1x8x1024.size Gen.inb_S128x8x1024_S1x8x1024_123_0_0) (fun _ => rfl)).squeeze S8x1024 Gen.squeezes_S1x8x1024_S8x1024
abbrev rowL124 : Memref sig .tc .vmem S8x1024 .f32 := (scM.slice (Rect.unit (s := S128x8x1024) ![124, 0, 0] S1x8x1024.size Gen.inb_S128x8x1024_S1x8x1024_124_0_0) (fun _ => rfl)).squeeze S8x1024 Gen.squeezes_S1x8x1024_S8x1024
abbrev rowL125 : Memref sig .tc .vmem S8x1024 .f32 := (scM.slice (Rect.unit (s := S128x8x1024) ![125, 0, 0] S1x8x1024.size Gen.inb_S128x8x1024_S1x8x1024_125_0_0) (fun _ => rfl)).squeeze S8x1024 Gen.squeezes_S1x8x1024_S8x1024
abbrev rowL126 : Memref sig .tc .vmem S8x1024 .f32 := (scM.slice (Rect.unit (s := S128x8x1024) ![126, 0, 0] S1x8x1024.size Gen.inb_S128x8x1024_S1x8x1024_126_0_0) (fun _ => rfl)).squeeze S8x1024 Gen.squeezes_S1x8x1024_S8x1024
abbrev rowL127 : Memref sig .tc .vmem S8x1024 .f32 := (scM.slice (Rect.unit (s := S128x8x1024) ![127, 0, 0] S1x8x1024.size Gen.inb_S128x8x1024_S1x8x1024_127_0_0) (fun _ => rfl)).squeeze S8x1024 Gen.squeezes_S1x8x1024_S8x1024

set_option maxHeartbeats 40000000 in
/-- The scratch held whole is its 128 rows, each held by its own elements. -/
theorem rows_split_lit (c : Dev nD) (f : Buf (Elt F) (scM.view.loc (c : Thread nD τ))) :
    (scM.view.loc (c : Thread nD τ) ↦[scM.view.set]{fullShare} f : sProp 𝕄) ⊢ iprop((rowL0.view.loc (c : Thread nD τ) ↦[rowL0.view.set]{fullShare} f) ∗ (rowL1.view.loc (c : Thread nD τ) ↦[rowL1.view.set]{fullShare} f) ∗ (rowL2.view.loc (c : Thread nD τ) ↦[rowL2.view.set]{fullShare} f) ∗ (rowL3.view.loc (c : Thread nD τ) ↦[rowL3.view.set]{fullShare} f) ∗ (rowL4.view.loc (c : Thread nD τ) ↦[rowL4.view.set]{fullShare} f) ∗ (rowL5.view.loc (c : Thread nD τ) ↦[rowL5.view.set]{fullShare} f) ∗ (rowL6.view.loc (c : Thread nD τ) ↦[rowL6.view.set]{fullShare} f) ∗ (rowL7.view.loc (c : Thread nD τ) ↦[rowL7.view.set]{fullShare} f) ∗ (rowL8.view.loc (c : Thread nD τ) ↦[rowL8.view.set]{fullShare} f) ∗ (rowL9.view.loc (c : Thread nD τ) ↦[rowL9.view.set]{fullShare} f) ∗ (rowL10.view.loc (c : Thread nD τ) ↦[rowL10.view.set]{fullShare} f) ∗ (rowL11.view.loc (c : Thread nD τ) ↦[rowL11.view.set]{fullShare} f) ∗ (rowL12.view.loc (c : Thread nD τ) ↦[rowL12.view.set]{fullShare} f) ∗ (rowL13.view.loc (c : Thread nD τ) ↦[rowL13.view.set]{fullShare} f) ∗ (rowL14.view.loc (c : Thread nD τ) ↦[rowL14.view.set]{fullShare} f) ∗ (rowL15.view.loc (c : Thread nD τ) ↦[rowL15.view.set]{fullShare} f) ∗ (rowL16.view.loc (c : Thread nD τ) ↦[rowL16.view.set]{fullShare} f) ∗ (rowL17.view.loc (c : Thread nD τ) ↦[rowL17.view.set]{fullShare} f) ∗ (rowL18.view.loc (c : Thread nD τ) ↦[rowL18.view.set]{fullShare} f) ∗ (rowL19.view.loc (c : Thread nD τ) ↦[rowL19.view.set]{fullShare} f) ∗ (rowL20.view.loc (c : Thread nD τ) ↦[rowL20.view.set]{fullShare} f) ∗ (rowL21.view.loc (c : Thread nD τ) ↦[rowL21.view.set]{fullShare} f) ∗ (rowL22.view.loc (c : Thread nD τ) ↦[rowL22.view.set]{fullShare} f) ∗ (rowL23.view.loc (c : Thread nD τ) ↦[rowL23.view.set]{fullShare} f) ∗ (rowL24.view.loc (c : Thread nD τ) ↦[rowL24.view.set]{fullShare} f) ∗ (rowL25.view.loc (c : Thread nD τ) ↦[rowL25.view.set]{fullShare} f) ∗ (rowL26.view.loc (c : Thread nD τ) ↦[rowL26.view.set]{fullShare} f) ∗ (rowL27.view.loc (c : Thread nD τ) ↦[rowL27.view.set]{fullShare} f) ∗ (rowL28.view.loc (c : Thread nD τ) ↦[rowL28.view.set]{fullShare} f) ∗ (rowL29.view.loc (c : Thread nD τ) ↦[rowL29.view.set]{fullShare} f) ∗ (rowL30.view.loc (c : Thread nD τ) ↦[rowL30.view.set]{fullShare} f) ∗ (rowL31.view.loc (c : Thread nD τ) ↦[rowL31.view.set]{fullShare} f) ∗ (rowL32.view.loc (c : Thread nD τ) ↦[rowL32.view.set]{fullShare} f) ∗ (rowL33.view.loc (c : Thread nD τ) ↦[rowL33.view.set]{fullShare} f) ∗ (rowL34.view.loc (c : Thread nD τ) ↦[rowL34.view.set]{fullShare} f) ∗ (rowL35.view.loc (c : Thread nD τ) ↦[rowL35.view.set]{fullShare} f) ∗ (rowL36.view.loc (c : Thread nD τ) ↦[rowL36.view.set]{fullShare} f) ∗ (rowL37.view.loc (c : Thread nD τ) ↦[rowL37.view.set]{fullShare} f) ∗ (rowL38.view.loc (c : Thread nD τ) ↦[rowL38.view.set]{fullShare} f) ∗ (rowL39.view.loc (c : Thread nD τ) ↦[rowL39.view.set]{fullShare} f) ∗ (rowL40.view.loc (c : Thread nD τ) ↦[rowL40.view.set]{fullShare} f) ∗ (rowL41.view.loc (c : Thread nD τ) ↦[rowL41.view.set]{fullShare} f) ∗ (rowL42.view.loc (c : Thread nD τ) ↦[rowL42.view.set]{fullShare} f) ∗ (rowL43.view.loc (c : Thread nD τ) ↦[rowL43.view.set]{fullShare} f) ∗ (rowL44.view.loc (c : Thread nD τ) ↦[rowL44.view.set]{fullShare} f) ∗ (rowL45.view.loc (c : Thread nD τ) ↦[rowL45.view.set]{fullShare} f) ∗ (rowL46.view.loc (c : Thread nD τ) ↦[rowL46.view.set]{fullShare} f) ∗ (rowL47.view.loc (c : Thread nD τ) ↦[rowL47.view.set]{fullShare} f) ∗ (rowL48.view.loc (c : Thread nD τ) ↦[rowL48.view.set]{fullShare} f) ∗ (rowL49.view.loc (c : Thread nD τ) ↦[rowL49.view.set]{fullShare} f) ∗ (rowL50.view.loc (c : Thread nD τ) ↦[rowL50.view.set]{fullShare} f) ∗ (rowL51.view.loc (c : Thread nD τ) ↦[rowL51.view.set]{fullShare} f) ∗ (rowL52.view.loc (c : Thread nD τ) ↦[rowL52.view.set]{fullShare} f) ∗ (rowL53.view.loc (c : Thread nD τ) ↦[rowL53.view.set]{fullShare} f) ∗ (rowL54.view.loc (c : Thread nD τ) ↦[rowL54.view.set]{fullShare} f) ∗ (rowL55.view.loc (c : Thread nD τ) ↦[rowL55.view.set]{fullShare} f) ∗ (rowL56.view.loc (c : Thread nD τ) ↦[rowL56.view.set]{fullShare} f) ∗ (rowL57.view.loc (c : Thread nD τ) ↦[rowL57.view.set]{fullShare} f) ∗ (rowL58.view.loc (c : Thread nD τ) ↦[rowL58.view.set]{fullShare} f) ∗ (rowL59.view.loc (c : Thread nD τ) ↦[rowL59.view.set]{fullShare} f) ∗ (rowL60.view.loc (c : Thread nD τ) ↦[rowL60.view.set]{fullShare} f) ∗ (rowL61.view.loc (c : Thread nD τ) ↦[rowL61.view.set]{fullShare} f) ∗ (rowL62.view.loc (c : Thread nD τ) ↦[rowL62.view.set]{fullShare} f) ∗ (rowL63.view.loc (c : Thread nD τ) ↦[rowL63.view.set]{fullShare} f) ∗ (rowL64.view.loc (c : Thread nD τ) ↦[rowL64.view.set]{fullShare} f) ∗ (rowL65.view.loc (c : Thread nD τ) ↦[rowL65.view.set]{fullShare} f) ∗ (rowL66.view.loc (c : Thread nD τ) ↦[rowL66.view.set]{fullShare} f) ∗ (rowL67.view.loc (c : Thread nD τ) ↦[rowL67.view.set]{fullShare} f) ∗ (rowL68.view.loc (c : Thread nD τ) ↦[rowL68.view.set]{fullShare} f) ∗ (rowL69.view.loc (c : Thread nD τ) ↦[rowL69.view.set]{fullShare} f) ∗ (rowL70.view.loc (c : Thread nD τ) ↦[rowL70.view.set]{fullShare} f) ∗ (rowL71.view.loc (c : Thread nD τ) ↦[rowL71.view.set]{fullShare} f) ∗ (rowL72.view.loc (c : Thread nD τ) ↦[rowL72.view.set]{fullShare} f) ∗ (rowL73.view.loc (c : Thread nD τ) ↦[rowL73.view.set]{fullShare} f) ∗ (rowL74.view.loc (c : Thread nD τ) ↦[rowL74.view.set]{fullShare} f) ∗ (rowL75.view.loc (c : Thread nD τ) ↦[rowL75.view.set]{fullShare} f) ∗ (rowL76.view.loc (c : Thread nD τ) ↦[rowL76.view.set]{fullShare} f) ∗ (rowL77.view.loc (c : Thread nD τ) ↦[rowL77.view.set]{fullShare} f) ∗ (rowL78.view.loc (c : Thread nD τ) ↦[rowL78.view.set]{fullShare} f) ∗ (rowL79.view.loc (c : Thread nD τ) ↦[rowL79.view.set]{fullShare} f) ∗ (rowL80.view.loc (c : Thread nD τ) ↦[rowL80.view.set]{fullShare} f) ∗ (rowL81.view.loc (c : Thread nD τ) ↦[rowL81.view.set]{fullShare} f) ∗ (rowL82.view.loc (c : Thread nD τ) ↦[rowL82.view.set]{fullShare} f) ∗ (rowL83.view.loc (c : Thread nD τ) ↦[rowL83.view.set]{fullShare} f) ∗ (rowL84.view.loc (c : Thread nD τ) ↦[rowL84.view.set]{fullShare} f) ∗ (rowL85.view.loc (c : Thread nD τ) ↦[rowL85.view.set]{fullShare} f) ∗ (rowL86.view.loc (c : Thread nD τ) ↦[rowL86.view.set]{fullShare} f) ∗ (rowL87.view.loc (c : Thread nD τ) ↦[rowL87.view.set]{fullShare} f) ∗ (rowL88.view.loc (c : Thread nD τ) ↦[rowL88.view.set]{fullShare} f) ∗ (rowL89.view.loc (c : Thread nD τ) ↦[rowL89.view.set]{fullShare} f) ∗ (rowL90.view.loc (c : Thread nD τ) ↦[rowL90.view.set]{fullShare} f) ∗ (rowL91.view.loc (c : Thread nD τ) ↦[rowL91.view.set]{fullShare} f) ∗ (rowL92.view.loc (c : Thread nD τ) ↦[rowL92.view.set]{fullShare} f) ∗ (rowL93.view.loc (c : Thread nD τ) ↦[rowL93.view.set]{fullShare} f) ∗ (rowL94.view.loc (c : Thread nD τ) ↦[rowL94.view.set]{fullShare} f) ∗ (rowL95.view.loc (c : Thread nD τ) ↦[rowL95.view.set]{fullShare} f) ∗ (rowL96.view.loc (c : Thread nD τ) ↦[rowL96.view.set]{fullShare} f) ∗ (rowL97.view.loc (c : Thread nD τ) ↦[rowL97.view.set]{fullShare} f) ∗ (rowL98.view.loc (c : Thread nD τ) ↦[rowL98.view.set]{fullShare} f) ∗ (rowL99.view.loc (c : Thread nD τ) ↦[rowL99.view.set]{fullShare} f) ∗ (rowL100.view.loc (c : Thread nD τ) ↦[rowL100.view.set]{fullShare} f) ∗ (rowL101.view.loc (c : Thread nD τ) ↦[rowL101.view.set]{fullShare} f) ∗ (rowL102.view.loc (c : Thread nD τ) ↦[rowL102.view.set]{fullShare} f) ∗ (rowL103.view.loc (c : Thread nD τ) ↦[rowL103.view.set]{fullShare} f) ∗ (rowL104.view.loc (c : Thread nD τ) ↦[rowL104.view.set]{fullShare} f) ∗ (rowL105.view.loc (c : Thread nD τ) ↦[rowL105.view.set]{fullShare} f) ∗ (rowL106.view.loc (c : Thread nD τ) ↦[rowL106.view.set]{fullShare} f) ∗ (rowL107.view.loc (c : Thread nD τ) ↦[rowL107.view.set]{fullShare} f) ∗ (rowL108.view.loc (c : Thread nD τ) ↦[rowL108.view.set]{fullShare} f) ∗ (rowL109.view.loc (c : Thread nD τ) ↦[rowL109.view.set]{fullShare} f) ∗ (rowL110.view.loc (c : Thread nD τ) ↦[rowL110.view.set]{fullShare} f) ∗ (rowL111.view.loc (c : Thread nD τ) ↦[rowL111.view.set]{fullShare} f) ∗ (rowL112.view.loc (c : Thread nD τ) ↦[rowL112.view.set]{fullShare} f) ∗ (rowL113.view.loc (c : Thread nD τ) ↦[rowL113.view.set]{fullShare} f) ∗ (rowL114.view.loc (c : Thread nD τ) ↦[rowL114.view.set]{fullShare} f) ∗ (rowL115.view.loc (c : Thread nD τ) ↦[rowL115.view.set]{fullShare} f) ∗ (rowL116.view.loc (c : Thread nD τ) ↦[rowL116.view.set]{fullShare} f) ∗ (rowL117.view.loc (c : Thread nD τ) ↦[rowL117.view.set]{fullShare} f) ∗ (rowL118.view.loc (c : Thread nD τ) ↦[rowL118.view.set]{fullShare} f) ∗ (rowL119.view.loc (c : Thread nD τ) ↦[rowL119.view.set]{fullShare} f) ∗ (rowL120.view.loc (c : Thread nD τ) ↦[rowL120.view.set]{fullShare} f) ∗ (rowL121.view.loc (c : Thread nD τ) ↦[rowL121.view.set]{fullShare} f) ∗ (rowL122.view.loc (c : Thread nD τ) ↦[rowL122.view.set]{fullShare} f) ∗ (rowL123.view.loc (c : Thread nD τ) ↦[rowL123.view.set]{fullShare} f) ∗ (rowL124.view.loc (c : Thread nD τ) ↦[rowL124.view.set]{fullShare} f) ∗ (rowL125.view.loc (c : Thread nD τ) ↦[rowL125.view.set]{fullShare} f) ∗ (rowL126.view.loc (c : Thread nD τ) ↦[rowL126.view.set]{fullShare} f) ∗ (rowL127.view.loc (c : Thread nD τ) ↦[rowL127.view.set]{fullShare} f)) :=
  Entails.of_eq ((rows_split c f).trans (by rw [BI.bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] (by decide) (by decide)]; rfl))

/-- The 128 row payloads as one family. -/
abbrev rowFam (p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 p64 p65 p66 p67 p68 p69 p70 p71 p72 p73 p74 p75 p76 p77 p78 p79 p80 p81 p82 p83 p84 p85 p86 p87 p88 p89 p90 p91 p92 p93 p94 p95 p96 p97 p98 p99 p100 p101 p102 p103 p104 p105 p106 p107 p108 p109 p110 p111 p112 p113 p114 p115 p116 p117 p118 p119 p120 p121 p122 p123 p124 p125 p126 p127 : S8x1024.Idx → Elt F .f32) : Fin 128 → S8x1024.Idx → Elt F .f32 := fun t => (![p0, p1, p2, p3, p4, p5, p6, p7, p8, p9, p10, p11, p12, p13, p14, p15, p16, p17, p18, p19, p20, p21, p22, p23, p24, p25, p26, p27, p28, p29, p30, p31, p32, p33, p34, p35, p36, p37, p38, p39, p40, p41, p42, p43, p44, p45, p46, p47, p48, p49, p50, p51, p52, p53, p54, p55, p56, p57, p58, p59, p60, p61, p62, p63, p64, p65, p66, p67, p68, p69, p70, p71, p72, p73, p74, p75, p76, p77, p78, p79, p80, p81, p82, p83, p84, p85, p86, p87, p88, p89, p90, p91, p92, p93, p94, p95, p96, p97, p98, p99, p100, p101, p102, p103, p104, p105, p106, p107, p108, p109, p110, p111, p112, p113, p114, p115, p116, p117, p118, p119, p120, p121, p122, p123, p124, p125, p126, p127] : Fin 128 → S8x1024.Idx → Elt F .f32) t

set_option maxHeartbeats 40000000 in
/-- The 128 rows, each holding one whole-row piece (its payload) written over one base, are the scratch at its closed form. -/
theorem rows_join_lit (c : Dev nD) (f : Buf (Elt F) (scM.view.loc (c : Thread nD τ))) (p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 p64 p65 p66 p67 p68 p69 p70 p71 p72 p73 p74 p75 p76 p77 p78 p79 p80 p81 p82 p83 p84 p85 p86 p87 p88 p89 p90 p91 p92 p93 p94 p95 p96 p97 p98 p99 p100 p101 p102 p103 p104 p105 p106 p107 p108 p109 p110 p111 p112 p113 p114 p115 p116 p117 p118 p119 p120 p121 p122 p123 p124 p125 p126 p127 : S8x1024.Idx → Elt F .f32) :
    iprop((rowL0.view.loc (c : Thread nD τ) ↦[rowL0.view.set]{fullShare} (rowL0.view.writes (Elt F) f [⟨Rect.whole S8x1024, p0⟩])) ∗ (rowL1.view.loc (c : Thread nD τ) ↦[rowL1.view.set]{fullShare} (rowL1.view.writes (Elt F) f [⟨Rect.whole S8x1024, p1⟩])) ∗ (rowL2.view.loc (c : Thread nD τ) ↦[rowL2.view.set]{fullShare} (rowL2.view.writes (Elt F) f [⟨Rect.whole S8x1024, p2⟩])) ∗ (rowL3.view.loc (c : Thread nD τ) ↦[rowL3.view.set]{fullShare} (rowL3.view.writes (Elt F) f [⟨Rect.whole S8x1024, p3⟩])) ∗ (rowL4.view.loc (c : Thread nD τ) ↦[rowL4.view.set]{fullShare} (rowL4.view.writes (Elt F) f [⟨Rect.whole S8x1024, p4⟩])) ∗ (rowL5.view.loc (c : Thread nD τ) ↦[rowL5.view.set]{fullShare} (rowL5.view.writes (Elt F) f [⟨Rect.whole S8x1024, p5⟩])) ∗ (rowL6.view.loc (c : Thread nD τ) ↦[rowL6.view.set]{fullShare} (rowL6.view.writes (Elt F) f [⟨Rect.whole S8x1024, p6⟩])) ∗ (rowL7.view.loc (c : Thread nD τ) ↦[rowL7.view.set]{fullShare} (rowL7.view.writes (Elt F) f [⟨Rect.whole S8x1024, p7⟩])) ∗ (rowL8.view.loc (c : Thread nD τ) ↦[rowL8.view.set]{fullShare} (rowL8.view.writes (Elt F) f [⟨Rect.whole S8x1024, p8⟩])) ∗ (rowL9.view.loc (c : Thread nD τ) ↦[rowL9.view.set]{fullShare} (rowL9.view.writes (Elt F) f [⟨Rect.whole S8x1024, p9⟩])) ∗ (rowL10.view.loc (c : Thread nD τ) ↦[rowL10.view.set]{fullShare} (rowL10.view.writes (Elt F) f [⟨Rect.whole S8x1024, p10⟩])) ∗ (rowL11.view.loc (c : Thread nD τ) ↦[rowL11.view.set]{fullShare} (rowL11.view.writes (Elt F) f [⟨Rect.whole S8x1024, p11⟩])) ∗ (rowL12.view.loc (c : Thread nD τ) ↦[rowL12.view.set]{fullShare} (rowL12.view.writes (Elt F) f [⟨Rect.whole S8x1024, p12⟩])) ∗ (rowL13.view.loc (c : Thread nD τ) ↦[rowL13.view.set]{fullShare} (rowL13.view.writes (Elt F) f [⟨Rect.whole S8x1024, p13⟩])) ∗ (rowL14.view.loc (c : Thread nD τ) ↦[rowL14.view.set]{fullShare} (rowL14.view.writes (Elt F) f [⟨Rect.whole S8x1024, p14⟩])) ∗ (rowL15.view.loc (c : Thread nD τ) ↦[rowL15.view.set]{fullShare} (rowL15.view.writes (Elt F) f [⟨Rect.whole S8x1024, p15⟩])) ∗ (rowL16.view.loc (c : Thread nD τ) ↦[rowL16.view.set]{fullShare} (rowL16.view.writes (Elt F) f [⟨Rect.whole S8x1024, p16⟩])) ∗ (rowL17.view.loc (c : Thread nD τ) ↦[rowL17.view.set]{fullShare} (rowL17.view.writes (Elt F) f [⟨Rect.whole S8x1024, p17⟩])) ∗ (rowL18.view.loc (c : Thread nD τ) ↦[rowL18.view.set]{fullShare} (rowL18.view.writes (Elt F) f [⟨Rect.whole S8x1024, p18⟩])) ∗ (rowL19.view.loc (c : Thread nD τ) ↦[rowL19.view.set]{fullShare} (rowL19.view.writes (Elt F) f [⟨Rect.whole S8x1024, p19⟩])) ∗ (rowL20.view.loc (c : Thread nD τ) ↦[rowL20.view.set]{fullShare} (rowL20.view.writes (Elt F) f [⟨Rect.whole S8x1024, p20⟩])) ∗ (rowL21.view.loc (c : Thread nD τ) ↦[rowL21.view.set]{fullShare} (rowL21.view.writes (Elt F) f [⟨Rect.whole S8x1024, p21⟩])) ∗ (rowL22.view.loc (c : Thread nD τ) ↦[rowL22.view.set]{fullShare} (rowL22.view.writes (Elt F) f [⟨Rect.whole S8x1024, p22⟩])) ∗ (rowL23.view.loc (c : Thread nD τ) ↦[rowL23.view.set]{fullShare} (rowL23.view.writes (Elt F) f [⟨Rect.whole S8x1024, p23⟩])) ∗ (rowL24.view.loc (c : Thread nD τ) ↦[rowL24.view.set]{fullShare} (rowL24.view.writes (Elt F) f [⟨Rect.whole S8x1024, p24⟩])) ∗ (rowL25.view.loc (c : Thread nD τ) ↦[rowL25.view.set]{fullShare} (rowL25.view.writes (Elt F) f [⟨Rect.whole S8x1024, p25⟩])) ∗ (rowL26.view.loc (c : Thread nD τ) ↦[rowL26.view.set]{fullShare} (rowL26.view.writes (Elt F) f [⟨Rect.whole S8x1024, p26⟩])) ∗ (rowL27.view.loc (c : Thread nD τ) ↦[rowL27.view.set]{fullShare} (rowL27.view.writes (Elt F) f [⟨Rect.whole S8x1024, p27⟩])) ∗ (rowL28.view.loc (c : Thread nD τ) ↦[rowL28.view.set]{fullShare} (rowL28.view.writes (Elt F) f [⟨Rect.whole S8x1024, p28⟩])) ∗ (rowL29.view.loc (c : Thread nD τ) ↦[rowL29.view.set]{fullShare} (rowL29.view.writes (Elt F) f [⟨Rect.whole S8x1024, p29⟩])) ∗ (rowL30.view.loc (c : Thread nD τ) ↦[rowL30.view.set]{fullShare} (rowL30.view.writes (Elt F) f [⟨Rect.whole S8x1024, p30⟩])) ∗ (rowL31.view.loc (c : Thread nD τ) ↦[rowL31.view.set]{fullShare} (rowL31.view.writes (Elt F) f [⟨Rect.whole S8x1024, p31⟩])) ∗ (rowL32.view.loc (c : Thread nD τ) ↦[rowL32.view.set]{fullShare} (rowL32.view.writes (Elt F) f [⟨Rect.whole S8x1024, p32⟩])) ∗ (rowL33.view.loc (c : Thread nD τ) ↦[rowL33.view.set]{fullShare} (rowL33.view.writes (Elt F) f [⟨Rect.whole S8x1024, p33⟩])) ∗ (rowL34.view.loc (c : Thread nD τ) ↦[rowL34.view.set]{fullShare} (rowL34.view.writes (Elt F) f [⟨Rect.whole S8x1024, p34⟩])) ∗ (rowL35.view.loc (c : Thread nD τ) ↦[rowL35.view.set]{fullShare} (rowL35.view.writes (Elt F) f [⟨Rect.whole S8x1024, p35⟩])) ∗ (rowL36.view.loc (c : Thread nD τ) ↦[rowL36.view.set]{fullShare} (rowL36.view.writes (Elt F) f [⟨Rect.whole S8x1024, p36⟩])) ∗ (rowL37.view.loc (c : Thread nD τ) ↦[rowL37.view.set]{fullShare} (rowL37.view.writes (Elt F) f [⟨Rect.whole S8x1024, p37⟩])) ∗ (rowL38.view.loc (c : Thread nD τ) ↦[rowL38.view.set]{fullShare} (rowL38.view.writes (Elt F) f [⟨Rect.whole S8x1024, p38⟩])) ∗ (rowL39.view.loc (c : Thread nD τ) ↦[rowL39.view.set]{fullShare} (rowL39.view.writes (Elt F) f [⟨Rect.whole S8x1024, p39⟩])) ∗ (rowL40.view.loc (c : Thread nD τ) ↦[rowL40.view.set]{fullShare} (rowL40.view.writes (Elt F) f [⟨Rect.whole S8x1024, p40⟩])) ∗ (rowL41.view.loc (c : Thread nD τ) ↦[rowL41.view.set]{fullShare} (rowL41.view.writes (Elt F) f [⟨Rect.whole S8x1024, p41⟩])) ∗ (rowL42.view.loc (c : Thread nD τ) ↦[rowL42.view.set]{fullShare} (rowL42.view.writes (Elt F) f [⟨Rect.whole S8x1024, p42⟩])) ∗ (rowL43.view.loc (c : Thread nD τ) ↦[rowL43.view.set]{fullShare} (rowL43.view.writes (Elt F) f [⟨Rect.whole S8x1024, p43⟩])) ∗ (rowL44.view.loc (c : Thread nD τ) ↦[rowL44.view.set]{fullShare} (rowL44.view.writes (Elt F) f [⟨Rect.whole S8x1024, p44⟩])) ∗ (rowL45.view.loc (c : Thread nD τ) ↦[rowL45.view.set]{fullShare} (rowL45.view.writes (Elt F) f [⟨Rect.whole S8x1024, p45⟩])) ∗ (rowL46.view.loc (c : Thread nD τ) ↦[rowL46.view.set]{fullShare} (rowL46.view.writes (Elt F) f [⟨Rect.whole S8x1024, p46⟩])) ∗ (rowL47.view.loc (c : Thread nD τ) ↦[rowL47.view.set]{fullShare} (rowL47.view.writes (Elt F) f [⟨Rect.whole S8x1024, p47⟩])) ∗ (rowL48.view.loc (c : Thread nD τ) ↦[rowL48.view.set]{fullShare} (rowL48.view.writes (Elt F) f [⟨Rect.whole S8x1024, p48⟩])) ∗ (rowL49.view.loc (c : Thread nD τ) ↦[rowL49.view.set]{fullShare} (rowL49.view.writes (Elt F) f [⟨Rect.whole S8x1024, p49⟩])) ∗ (rowL50.view.loc (c : Thread nD τ) ↦[rowL50.view.set]{fullShare} (rowL50.view.writes (Elt F) f [⟨Rect.whole S8x1024, p50⟩])) ∗ (rowL51.view.loc (c : Thread nD τ) ↦[rowL51.view.set]{fullShare} (rowL51.view.writes (Elt F) f [⟨Rect.whole S8x1024, p51⟩])) ∗ (rowL52.view.loc (c : Thread nD τ) ↦[rowL52.view.set]{fullShare} (rowL52.view.writes (Elt F) f [⟨Rect.whole S8x1024, p52⟩])) ∗ (rowL53.view.loc (c : Thread nD τ) ↦[rowL53.view.set]{fullShare} (rowL53.view.writes (Elt F) f [⟨Rect.whole S8x1024, p53⟩])) ∗ (rowL54.view.loc (c : Thread nD τ) ↦[rowL54.view.set]{fullShare} (rowL54.view.writes (Elt F) f [⟨Rect.whole S8x1024, p54⟩])) ∗ (rowL55.view.loc (c : Thread nD τ) ↦[rowL55.view.set]{fullShare} (rowL55.view.writes (Elt F) f [⟨Rect.whole S8x1024, p55⟩])) ∗ (rowL56.view.loc (c : Thread nD τ) ↦[rowL56.view.set]{fullShare} (rowL56.view.writes (Elt F) f [⟨Rect.whole S8x1024, p56⟩])) ∗ (rowL57.view.loc (c : Thread nD τ) ↦[rowL57.view.set]{fullShare} (rowL57.view.writes (Elt F) f [⟨Rect.whole S8x1024, p57⟩])) ∗ (rowL58.view.loc (c : Thread nD τ) ↦[rowL58.view.set]{fullShare} (rowL58.view.writes (Elt F) f [⟨Rect.whole S8x1024, p58⟩])) ∗ (rowL59.view.loc (c : Thread nD τ) ↦[rowL59.view.set]{fullShare} (rowL59.view.writes (Elt F) f [⟨Rect.whole S8x1024, p59⟩])) ∗ (rowL60.view.loc (c : Thread nD τ) ↦[rowL60.view.set]{fullShare} (rowL60.view.writes (Elt F) f [⟨Rect.whole S8x1024, p60⟩])) ∗ (rowL61.view.loc (c : Thread nD τ) ↦[rowL61.view.set]{fullShare} (rowL61.view.writes (Elt F) f [⟨Rect.whole S8x1024, p61⟩])) ∗ (rowL62.view.loc (c : Thread nD τ) ↦[rowL62.view.set]{fullShare} (rowL62.view.writes (Elt F) f [⟨Rect.whole S8x1024, p62⟩])) ∗ (rowL63.view.loc (c : Thread nD τ) ↦[rowL63.view.set]{fullShare} (rowL63.view.writes (Elt F) f [⟨Rect.whole S8x1024, p63⟩])) ∗ (rowL64.view.loc (c : Thread nD τ) ↦[rowL64.view.set]{fullShare} (rowL64.view.writes (Elt F) f [⟨Rect.whole S8x1024, p64⟩])) ∗ (rowL65.view.loc (c : Thread nD τ) ↦[rowL65.view.set]{fullShare} (rowL65.view.writes (Elt F) f [⟨Rect.whole S8x1024, p65⟩])) ∗ (rowL66.view.loc (c : Thread nD τ) ↦[rowL66.view.set]{fullShare} (rowL66.view.writes (Elt F) f [⟨Rect.whole S8x1024, p66⟩])) ∗ (rowL67.view.loc (c : Thread nD τ) ↦[rowL67.view.set]{fullShare} (rowL67.view.writes (Elt F) f [⟨Rect.whole S8x1024, p67⟩])) ∗ (rowL68.view.loc (c : Thread nD τ) ↦[rowL68.view.set]{fullShare} (rowL68.view.writes (Elt F) f [⟨Rect.whole S8x1024, p68⟩])) ∗ (rowL69.view.loc (c : Thread nD τ) ↦[rowL69.view.set]{fullShare} (rowL69.view.writes (Elt F) f [⟨Rect.whole S8x1024, p69⟩])) ∗ (rowL70.view.loc (c : Thread nD τ) ↦[rowL70.view.set]{fullShare} (rowL70.view.writes (Elt F) f [⟨Rect.whole S8x1024, p70⟩])) ∗ (rowL71.view.loc (c : Thread nD τ) ↦[rowL71.view.set]{fullShare} (rowL71.view.writes (Elt F) f [⟨Rect.whole S8x1024, p71⟩])) ∗ (rowL72.view.loc (c : Thread nD τ) ↦[rowL72.view.set]{fullShare} (rowL72.view.writes (Elt F) f [⟨Rect.whole S8x1024, p72⟩])) ∗ (rowL73.view.loc (c : Thread nD τ) ↦[rowL73.view.set]{fullShare} (rowL73.view.writes (Elt F) f [⟨Rect.whole S8x1024, p73⟩])) ∗ (rowL74.view.loc (c : Thread nD τ) ↦[rowL74.view.set]{fullShare} (rowL74.view.writes (Elt F) f [⟨Rect.whole S8x1024, p74⟩])) ∗ (rowL75.view.loc (c : Thread nD τ) ↦[rowL75.view.set]{fullShare} (rowL75.view.writes (Elt F) f [⟨Rect.whole S8x1024, p75⟩])) ∗ (rowL76.view.loc (c : Thread nD τ) ↦[rowL76.view.set]{fullShare} (rowL76.view.writes (Elt F) f [⟨Rect.whole S8x1024, p76⟩])) ∗ (rowL77.view.loc (c : Thread nD τ) ↦[rowL77.view.set]{fullShare} (rowL77.view.writes (Elt F) f [⟨Rect.whole S8x1024, p77⟩])) ∗ (rowL78.view.loc (c : Thread nD τ) ↦[rowL78.view.set]{fullShare} (rowL78.view.writes (Elt F) f [⟨Rect.whole S8x1024, p78⟩])) ∗ (rowL79.view.loc (c : Thread nD τ) ↦[rowL79.view.set]{fullShare} (rowL79.view.writes (Elt F) f [⟨Rect.whole S8x1024, p79⟩])) ∗ (rowL80.view.loc (c : Thread nD τ) ↦[rowL80.view.set]{fullShare} (rowL80.view.writes (Elt F) f [⟨Rect.whole S8x1024, p80⟩])) ∗ (rowL81.view.loc (c : Thread nD τ) ↦[rowL81.view.set]{fullShare} (rowL81.view.writes (Elt F) f [⟨Rect.whole S8x1024, p81⟩])) ∗ (rowL82.view.loc (c : Thread nD τ) ↦[rowL82.view.set]{fullShare} (rowL82.view.writes (Elt F) f [⟨Rect.whole S8x1024, p82⟩])) ∗ (rowL83.view.loc (c : Thread nD τ) ↦[rowL83.view.set]{fullShare} (rowL83.view.writes (Elt F) f [⟨Rect.whole S8x1024, p83⟩])) ∗ (rowL84.view.loc (c : Thread nD τ) ↦[rowL84.view.set]{fullShare} (rowL84.view.writes (Elt F) f [⟨Rect.whole S8x1024, p84⟩])) ∗ (rowL85.view.loc (c : Thread nD τ) ↦[rowL85.view.set]{fullShare} (rowL85.view.writes (Elt F) f [⟨Rect.whole S8x1024, p85⟩])) ∗ (rowL86.view.loc (c : Thread nD τ) ↦[rowL86.view.set]{fullShare} (rowL86.view.writes (Elt F) f [⟨Rect.whole S8x1024, p86⟩])) ∗ (rowL87.view.loc (c : Thread nD τ) ↦[rowL87.view.set]{fullShare} (rowL87.view.writes (Elt F) f [⟨Rect.whole S8x1024, p87⟩])) ∗ (rowL88.view.loc (c : Thread nD τ) ↦[rowL88.view.set]{fullShare} (rowL88.view.writes (Elt F) f [⟨Rect.whole S8x1024, p88⟩])) ∗ (rowL89.view.loc (c : Thread nD τ) ↦[rowL89.view.set]{fullShare} (rowL89.view.writes (Elt F) f [⟨Rect.whole S8x1024, p89⟩])) ∗ (rowL90.view.loc (c : Thread nD τ) ↦[rowL90.view.set]{fullShare} (rowL90.view.writes (Elt F) f [⟨Rect.whole S8x1024, p90⟩])) ∗ (rowL91.view.loc (c : Thread nD τ) ↦[rowL91.view.set]{fullShare} (rowL91.view.writes (Elt F) f [⟨Rect.whole S8x1024, p91⟩])) ∗ (rowL92.view.loc (c : Thread nD τ) ↦[rowL92.view.set]{fullShare} (rowL92.view.writes (Elt F) f [⟨Rect.whole S8x1024, p92⟩])) ∗ (rowL93.view.loc (c : Thread nD τ) ↦[rowL93.view.set]{fullShare} (rowL93.view.writes (Elt F) f [⟨Rect.whole S8x1024, p93⟩])) ∗ (rowL94.view.loc (c : Thread nD τ) ↦[rowL94.view.set]{fullShare} (rowL94.view.writes (Elt F) f [⟨Rect.whole S8x1024, p94⟩])) ∗ (rowL95.view.loc (c : Thread nD τ) ↦[rowL95.view.set]{fullShare} (rowL95.view.writes (Elt F) f [⟨Rect.whole S8x1024, p95⟩])) ∗ (rowL96.view.loc (c : Thread nD τ) ↦[rowL96.view.set]{fullShare} (rowL96.view.writes (Elt F) f [⟨Rect.whole S8x1024, p96⟩])) ∗ (rowL97.view.loc (c : Thread nD τ) ↦[rowL97.view.set]{fullShare} (rowL97.view.writes (Elt F) f [⟨Rect.whole S8x1024, p97⟩])) ∗ (rowL98.view.loc (c : Thread nD τ) ↦[rowL98.view.set]{fullShare} (rowL98.view.writes (Elt F) f [⟨Rect.whole S8x1024, p98⟩])) ∗ (rowL99.view.loc (c : Thread nD τ) ↦[rowL99.view.set]{fullShare} (rowL99.view.writes (Elt F) f [⟨Rect.whole S8x1024, p99⟩])) ∗ (rowL100.view.loc (c : Thread nD τ) ↦[rowL100.view.set]{fullShare} (rowL100.view.writes (Elt F) f [⟨Rect.whole S8x1024, p100⟩])) ∗ (rowL101.view.loc (c : Thread nD τ) ↦[rowL101.view.set]{fullShare} (rowL101.view.writes (Elt F) f [⟨Rect.whole S8x1024, p101⟩])) ∗ (rowL102.view.loc (c : Thread nD τ) ↦[rowL102.view.set]{fullShare} (rowL102.view.writes (Elt F) f [⟨Rect.whole S8x1024, p102⟩])) ∗ (rowL103.view.loc (c : Thread nD τ) ↦[rowL103.view.set]{fullShare} (rowL103.view.writes (Elt F) f [⟨Rect.whole S8x1024, p103⟩])) ∗ (rowL104.view.loc (c : Thread nD τ) ↦[rowL104.view.set]{fullShare} (rowL104.view.writes (Elt F) f [⟨Rect.whole S8x1024, p104⟩])) ∗ (rowL105.view.loc (c : Thread nD τ) ↦[rowL105.view.set]{fullShare} (rowL105.view.writes (Elt F) f [⟨Rect.whole S8x1024, p105⟩])) ∗ (rowL106.view.loc (c : Thread nD τ) ↦[rowL106.view.set]{fullShare} (rowL106.view.writes (Elt F) f [⟨Rect.whole S8x1024, p106⟩])) ∗ (rowL107.view.loc (c : Thread nD τ) ↦[rowL107.view.set]{fullShare} (rowL107.view.writes (Elt F) f [⟨Rect.whole S8x1024, p107⟩])) ∗ (rowL108.view.loc (c : Thread nD τ) ↦[rowL108.view.set]{fullShare} (rowL108.view.writes (Elt F) f [⟨Rect.whole S8x1024, p108⟩])) ∗ (rowL109.view.loc (c : Thread nD τ) ↦[rowL109.view.set]{fullShare} (rowL109.view.writes (Elt F) f [⟨Rect.whole S8x1024, p109⟩])) ∗ (rowL110.view.loc (c : Thread nD τ) ↦[rowL110.view.set]{fullShare} (rowL110.view.writes (Elt F) f [⟨Rect.whole S8x1024, p110⟩])) ∗ (rowL111.view.loc (c : Thread nD τ) ↦[rowL111.view.set]{fullShare} (rowL111.view.writes (Elt F) f [⟨Rect.whole S8x1024, p111⟩])) ∗ (rowL112.view.loc (c : Thread nD τ) ↦[rowL112.view.set]{fullShare} (rowL112.view.writes (Elt F) f [⟨Rect.whole S8x1024, p112⟩])) ∗ (rowL113.view.loc (c : Thread nD τ) ↦[rowL113.view.set]{fullShare} (rowL113.view.writes (Elt F) f [⟨Rect.whole S8x1024, p113⟩])) ∗ (rowL114.view.loc (c : Thread nD τ) ↦[rowL114.view.set]{fullShare} (rowL114.view.writes (Elt F) f [⟨Rect.whole S8x1024, p114⟩])) ∗ (rowL115.view.loc (c : Thread nD τ) ↦[rowL115.view.set]{fullShare} (rowL115.view.writes (Elt F) f [⟨Rect.whole S8x1024, p115⟩])) ∗ (rowL116.view.loc (c : Thread nD τ) ↦[rowL116.view.set]{fullShare} (rowL116.view.writes (Elt F) f [⟨Rect.whole S8x1024, p116⟩])) ∗ (rowL117.view.loc (c : Thread nD τ) ↦[rowL117.view.set]{fullShare} (rowL117.view.writes (Elt F) f [⟨Rect.whole S8x1024, p117⟩])) ∗ (rowL118.view.loc (c : Thread nD τ) ↦[rowL118.view.set]{fullShare} (rowL118.view.writes (Elt F) f [⟨Rect.whole S8x1024, p118⟩])) ∗ (rowL119.view.loc (c : Thread nD τ) ↦[rowL119.view.set]{fullShare} (rowL119.view.writes (Elt F) f [⟨Rect.whole S8x1024, p119⟩])) ∗ (rowL120.view.loc (c : Thread nD τ) ↦[rowL120.view.set]{fullShare} (rowL120.view.writes (Elt F) f [⟨Rect.whole S8x1024, p120⟩])) ∗ (rowL121.view.loc (c : Thread nD τ) ↦[rowL121.view.set]{fullShare} (rowL121.view.writes (Elt F) f [⟨Rect.whole S8x1024, p121⟩])) ∗ (rowL122.view.loc (c : Thread nD τ) ↦[rowL122.view.set]{fullShare} (rowL122.view.writes (Elt F) f [⟨Rect.whole S8x1024, p122⟩])) ∗ (rowL123.view.loc (c : Thread nD τ) ↦[rowL123.view.set]{fullShare} (rowL123.view.writes (Elt F) f [⟨Rect.whole S8x1024, p123⟩])) ∗ (rowL124.view.loc (c : Thread nD τ) ↦[rowL124.view.set]{fullShare} (rowL124.view.writes (Elt F) f [⟨Rect.whole S8x1024, p124⟩])) ∗ (rowL125.view.loc (c : Thread nD τ) ↦[rowL125.view.set]{fullShare} (rowL125.view.writes (Elt F) f [⟨Rect.whole S8x1024, p125⟩])) ∗ (rowL126.view.loc (c : Thread nD τ) ↦[rowL126.view.set]{fullShare} (rowL126.view.writes (Elt F) f [⟨Rect.whole S8x1024, p126⟩])) ∗ (rowL127.view.loc (c : Thread nD τ) ↦[rowL127.view.set]{fullShare} (rowL127.view.writes (Elt F) f [⟨Rect.whole S8x1024, p127⟩]))) ⊢ (scM.view.loc (c : Thread nD τ) ↦[scM.view.set]{fullShare} filled c (rowFam p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 p64 p65 p66 p67 p68 p69 p70 p71 p72 p73 p74 p75 p76 p77 p78 p79 p80 p81 p82 p83 p84 p85 p86 p87 p88 p89 p90 p91 p92 p93 p94 p95 p96 p97 p98 p99 p100 p101 p102 p103 p104 p105 p106 p107 p108 p109 p110 p111 p112 p113 p114 p115 p116 p117 p118 p119 p120 p121 p122 p123 p124 p125 p126 p127) : sProp 𝕄) :=
  Entails.of_eq ((by rw [BI.bigSep_univ_eq_bigSepL [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63, 64, 65, 66, 67, 68, 69, 70, 71, 72, 73, 74, 75, 76, 77, 78, 79, 80, 81, 82, 83, 84, 85, 86, 87, 88, 89, 90, 91, 92, 93, 94, 95, 96, 97, 98, 99, 100, 101, 102, 103, 104, 105, 106, 107, 108, 109, 110, 111, 112, 113, 114, 115, 116, 117, 118, 119, 120, 121, 122, 123, 124, 125, 126, 127] (by decide) (by decide)]; rfl : _ = bigSep Finset.univ fun t : Fin 128 => ((rowG t).view.loc (c : Thread nD τ) ↦[(rowG t).view.set]{fullShare} (rowG t).view.writes (Elt F) f [⟨Rect.whole S8x1024, rowFam p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 p64 p65 p66 p67 p68 p69 p70 p71 p72 p73 p74 p75 p76 p77 p78 p79 p80 p81 p82 p83 p84 p85 p86 p87 p88 p89 p90 p91 p92 p93 p94 p95 p96 p97 p98 p99 p100 p101 p102 p103 p104 p105 p106 p107 p108 p109 p110 p111 p112 p113 p114 p115 p116 p117 p118 p119 p120 p121 p122 p123 p124 p125 p126 p127 t⟩])).trans (rows_join_filled_writes c f (rowFam p0 p1 p2 p3 p4 p5 p6 p7 p8 p9 p10 p11 p12 p13 p14 p15 p16 p17 p18 p19 p20 p21 p22 p23 p24 p25 p26 p27 p28 p29 p30 p31 p32 p33 p34 p35 p36 p37 p38 p39 p40 p41 p42 p43 p44 p45 p46 p47 p48 p49 p50 p51 p52 p53 p54 p55 p56 p57 p58 p59 p60 p61 p62 p63 p64 p65 p66 p67 p68 p69 p70 p71 p72 p73 p74 p75 p76 p77 p78 p79 p80 p81 p82 p83 p84 p85 p86 p87 p88 p89 p90 p91 p92 p93 p94 p95 p96 p97 p98 p99 p100 p101 p102 p103 p104 p105 p106 p107 p108 p109 p110 p111 p112 p113 p114 p115 p116 p117 p118 p119 p120 p121 p122 p123 p124 p125 p126 p127)))

set_option hygiene false in
/-- Name the 128 rows `Hr0 … Hr127` out of `HR`. -/
macro "rows_cases" : tactic => `(tactic| icases HR with ⟨Hr0, Hr1, Hr2, Hr3, Hr4, Hr5, Hr6, Hr7, Hr8, Hr9, Hr10, Hr11, Hr12, Hr13, Hr14, Hr15, Hr16, Hr17, Hr18, Hr19, Hr20, Hr21, Hr22, Hr23, Hr24, Hr25, Hr26, Hr27, Hr28, Hr29, Hr30, Hr31, Hr32, Hr33, Hr34, Hr35, Hr36, Hr37, Hr38, Hr39, Hr40, Hr41, Hr42, Hr43, Hr44, Hr45, Hr46, Hr47, Hr48, Hr49, Hr50, Hr51, Hr52, Hr53, Hr54, Hr55, Hr56, Hr57, Hr58, Hr59, Hr60, Hr61, Hr62, Hr63, Hr64, Hr65, Hr66, Hr67, Hr68, Hr69, Hr70, Hr71, Hr72, Hr73, Hr74, Hr75, Hr76, Hr77, Hr78, Hr79, Hr80, Hr81, Hr82, Hr83, Hr84, Hr85, Hr86, Hr87, Hr88, Hr89, Hr90, Hr91, Hr92, Hr93, Hr94, Hr95, Hr96, Hr97, Hr98, Hr99, Hr100, Hr101, Hr102, Hr103, Hr104, Hr105, Hr106, Hr107, Hr108, Hr109, Hr110, Hr111, Hr112, Hr113, Hr114, Hr115, Hr116, Hr117, Hr118, Hr119, Hr120, Hr121, Hr122, Hr123, Hr124, Hr125, Hr126, Hr127⟩)

set_option hygiene false in
/-- Join the 128 written rows into the scratch `HS0`, the payloads read off the rows' hypotheses. -/
macro "rows_join" : tactic => `(tactic| ihave HS0 := (rows_join_lit c fs0 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) $$ [Hr0 Hr1 Hr2 Hr3 Hr4 Hr5 Hr6 Hr7 Hr8 Hr9 Hr10 Hr11 Hr12 Hr13 Hr14 Hr15 Hr16 Hr17 Hr18 Hr19 Hr20 Hr21 Hr22 Hr23 Hr24 Hr25 Hr26 Hr27 Hr28 Hr29 Hr30 Hr31 Hr32 Hr33 Hr34 Hr35 Hr36 Hr37 Hr38 Hr39 Hr40 Hr41 Hr42 Hr43 Hr44 Hr45 Hr46 Hr47 Hr48 Hr49 Hr50 Hr51 Hr52 Hr53 Hr54 Hr55 Hr56 Hr57 Hr58 Hr59 Hr60 Hr61 Hr62 Hr63 Hr64 Hr65 Hr66 Hr67 Hr68 Hr69 Hr70 Hr71 Hr72 Hr73 Hr74 Hr75 Hr76 Hr77 Hr78 Hr79 Hr80 Hr81 Hr82 Hr83 Hr84 Hr85 Hr86 Hr87 Hr88 Hr89 Hr90 Hr91 Hr92 Hr93 Hr94 Hr95 Hr96 Hr97 Hr98 Hr99 Hr100 Hr101 Hr102 Hr103 Hr104 Hr105 Hr106 Hr107 Hr108 Hr109 Hr110 Hr111 Hr112 Hr113 Hr114 Hr115 Hr116 Hr117 Hr118 Hr119 Hr120 Hr121 Hr122 Hr123 Hr124 Hr125 Hr126 Hr127])

set_option hygiene false in
/-- Hand the 128 rows over, in order. -/
macro "rows_back" : tactic => `(tactic| (
  isplitl [Hr0]
  · iexact Hr0
  isplitl [Hr1]
  · iexact Hr1
  isplitl [Hr2]
  · iexact Hr2
  isplitl [Hr3]
  · iexact Hr3
  isplitl [Hr4]
  · iexact Hr4
  isplitl [Hr5]
  · iexact Hr5
  isplitl [Hr6]
  · iexact Hr6
  isplitl [Hr7]
  · iexact Hr7
  isplitl [Hr8]
  · iexact Hr8
  isplitl [Hr9]
  · iexact Hr9
  isplitl [Hr10]
  · iexact Hr10
  isplitl [Hr11]
  · iexact Hr11
  isplitl [Hr12]
  · iexact Hr12
  isplitl [Hr13]
  · iexact Hr13
  isplitl [Hr14]
  · iexact Hr14
  isplitl [Hr15]
  · iexact Hr15
  isplitl [Hr16]
  · iexact Hr16
  isplitl [Hr17]
  · iexact Hr17
  isplitl [Hr18]
  · iexact Hr18
  isplitl [Hr19]
  · iexact Hr19
  isplitl [Hr20]
  · iexact Hr20
  isplitl [Hr21]
  · iexact Hr21
  isplitl [Hr22]
  · iexact Hr22
  isplitl [Hr23]
  · iexact Hr23
  isplitl [Hr24]
  · iexact Hr24
  isplitl [Hr25]
  · iexact Hr25
  isplitl [Hr26]
  · iexact Hr26
  isplitl [Hr27]
  · iexact Hr27
  isplitl [Hr28]
  · iexact Hr28
  isplitl [Hr29]
  · iexact Hr29
  isplitl [Hr30]
  · iexact Hr30
  isplitl [Hr31]
  · iexact Hr31
  isplitl [Hr32]
  · iexact Hr32
  isplitl [Hr33]
  · iexact Hr33
  isplitl [Hr34]
  · iexact Hr34
  isplitl [Hr35]
  · iexact Hr35
  isplitl [Hr36]
  · iexact Hr36
  isplitl [Hr37]
  · iexact Hr37
  isplitl [Hr38]
  · iexact Hr38
  isplitl [Hr39]
  · iexact Hr39
  isplitl [Hr40]
  · iexact Hr40
  isplitl [Hr41]
  · iexact Hr41
  isplitl [Hr42]
  · iexact Hr42
  isplitl [Hr43]
  · iexact Hr43
  isplitl [Hr44]
  · iexact Hr44
  isplitl [Hr45]
  · iexact Hr45
  isplitl [Hr46]
  · iexact Hr46
  isplitl [Hr47]
  · iexact Hr47
  isplitl [Hr48]
  · iexact Hr48
  isplitl [Hr49]
  · iexact Hr49
  isplitl [Hr50]
  · iexact Hr50
  isplitl [Hr51]
  · iexact Hr51
  isplitl [Hr52]
  · iexact Hr52
  isplitl [Hr53]
  · iexact Hr53
  isplitl [Hr54]
  · iexact Hr54
  isplitl [Hr55]
  · iexact Hr55
  isplitl [Hr56]
  · iexact Hr56
  isplitl [Hr57]
  · iexact Hr57
  isplitl [Hr58]
  · iexact Hr58
  isplitl [Hr59]
  · iexact Hr59
  isplitl [Hr60]
  · iexact Hr60
  isplitl [Hr61]
  · iexact Hr61
  isplitl [Hr62]
  · iexact Hr62
  isplitl [Hr63]
  · iexact Hr63
  isplitl [Hr64]
  · iexact Hr64
  isplitl [Hr65]
  · iexact Hr65
  isplitl [Hr66]
  · iexact Hr66
  isplitl [Hr67]
  · iexact Hr67
  isplitl [Hr68]
  · iexact Hr68
  isplitl [Hr69]
  · iexact Hr69
  isplitl [Hr70]
  · iexact Hr70
  isplitl [Hr71]
  · iexact Hr71
  isplitl [Hr72]
  · iexact Hr72
  isplitl [Hr73]
  · iexact Hr73
  isplitl [Hr74]
  · iexact Hr74
  isplitl [Hr75]
  · iexact Hr75
  isplitl [Hr76]
  · iexact Hr76
  isplitl [Hr77]
  · iexact Hr77
  isplitl [Hr78]
  · iexact Hr78
  isplitl [Hr79]
  · iexact Hr79
  isplitl [Hr80]
  · iexact Hr80
  isplitl [Hr81]
  · iexact Hr81
  isplitl [Hr82]
  · iexact Hr82
  isplitl [Hr83]
  · iexact Hr83
  isplitl [Hr84]
  · iexact Hr84
  isplitl [Hr85]
  · iexact Hr85
  isplitl [Hr86]
  · iexact Hr86
  isplitl [Hr87]
  · iexact Hr87
  isplitl [Hr88]
  · iexact Hr88
  isplitl [Hr89]
  · iexact Hr89
  isplitl [Hr90]
  · iexact Hr90
  isplitl [Hr91]
  · iexact Hr91
  isplitl [Hr92]
  · iexact Hr92
  isplitl [Hr93]
  · iexact Hr93
  isplitl [Hr94]
  · iexact Hr94
  isplitl [Hr95]
  · iexact Hr95
  isplitl [Hr96]
  · iexact Hr96
  isplitl [Hr97]
  · iexact Hr97
  isplitl [Hr98]
  · iexact Hr98
  isplitl [Hr99]
  · iexact Hr99
  isplitl [Hr100]
  · iexact Hr100
  isplitl [Hr101]
  · iexact Hr101
  isplitl [Hr102]
  · iexact Hr102
  isplitl [Hr103]
  · iexact Hr103
  isplitl [Hr104]
  · iexact Hr104
  isplitl [Hr105]
  · iexact Hr105
  isplitl [Hr106]
  · iexact Hr106
  isplitl [Hr107]
  · iexact Hr107
  isplitl [Hr108]
  · iexact Hr108
  isplitl [Hr109]
  · iexact Hr109
  isplitl [Hr110]
  · iexact Hr110
  isplitl [Hr111]
  · iexact Hr111
  isplitl [Hr112]
  · iexact Hr112
  isplitl [Hr113]
  · iexact Hr113
  isplitl [Hr114]
  · iexact Hr114
  isplitl [Hr115]
  · iexact Hr115
  isplitl [Hr116]
  · iexact Hr116
  isplitl [Hr117]
  · iexact Hr117
  isplitl [Hr118]
  · iexact Hr118
  isplitl [Hr119]
  · iexact Hr119
  isplitl [Hr120]
  · iexact Hr120
  isplitl [Hr121]
  · iexact Hr121
  isplitl [Hr122]
  · iexact Hr122
  isplitl [Hr123]
  · iexact Hr123
  isplitl [Hr124]
  · iexact Hr124
  isplitl [Hr125]
  · iexact Hr125
  isplitl [Hr126]
  · iexact Hr126
  iexact Hr127))

set_option hygiene false in
/-- Close an assumed side condition by the field of `hw` that states it (cited as a projection, so that what the run finds may mention it). -/
macro "words_use" : tactic => `(tactic| first | sl_exact hw.h1 | sl_exact hw.h2 | sl_exact hw.h3 | sl_exact hw.h4 | sl_exact hw.h5 | sl_exact hw.h6 | sl_exact hw.h7 | sl_exact hw.h8 | sl_exact hw.h9 | sl_exact hw.h10 | sl_exact hw.h11 | sl_exact hw.h12 | sl_exact hw.h13 | sl_exact hw.h14 | sl_exact hw.h15 | sl_exact hw.h16 | sl_exact hw.h17 | sl_exact hw.h18 | sl_exact hw.h19 | sl_exact hw.h20 | sl_exact hw.h21 | sl_exact hw.h22 | sl_exact hw.h23 | sl_exact hw.h24 | sl_exact hw.h25 | sl_exact hw.h26 | sl_exact hw.h27 | sl_exact hw.h28 | sl_exact hw.h29 | sl_exact hw.h30 | sl_exact hw.h31 | sl_exact hw.h32 | sl_exact hw.h33 | sl_exact hw.h34 | sl_exact hw.h35 | sl_exact hw.h36 | sl_exact hw.h37 | sl_exact hw.h38 | sl_exact hw.h39 | sl_exact hw.h40 | sl_exact hw.h41 | sl_exact hw.h42 | sl_exact hw.h43 | sl_exact hw.h44 | sl_exact hw.h45 | sl_exact hw.h46 | sl_exact hw.h47 | sl_exact hw.h48 | sl_exact hw.h49 | sl_exact hw.h50 | sl_exact hw.h51 | sl_exact hw.h52 | sl_exact hw.h53 | sl_exact hw.h54 | sl_exact hw.h55 | sl_exact hw.h56 | sl_exact hw.h57 | sl_exact hw.h58 | sl_exact hw.h59 | sl_exact hw.h60 | sl_exact hw.h61 | sl_exact hw.h62 | sl_exact hw.h63 | sl_exact hw.h64 | sl_exact hw.h65 | sl_exact hw.h66 | sl_exact hw.h67 | sl_exact hw.h68 | sl_exact hw.h69 | sl_exact hw.h70 | sl_exact hw.h71 | sl_exact hw.h72 | sl_exact hw.h73 | sl_exact hw.h74 | sl_exact hw.h75 | sl_exact hw.h76 | sl_exact hw.h77 | sl_exact hw.h78 | sl_exact hw.h79 | sl_exact hw.h80 | sl_exact hw.h81 | sl_exact hw.h82 | sl_exact hw.h83 | sl_exact hw.h84 | sl_exact hw.h85 | sl_exact hw.h86 | sl_exact hw.h87 | sl_exact hw.h88 | sl_exact hw.h89 | sl_exact hw.h90 | sl_exact hw.h91 | sl_exact hw.h92 | sl_exact hw.h93 | sl_exact hw.h94 | sl_exact hw.h95 | sl_exact hw.h96 | sl_exact hw.h97 | sl_exact hw.h98 | sl_exact hw.h99 | sl_exact hw.h100 | sl_exact hw.h101 | sl_exact hw.h102 | sl_exact hw.h103 | sl_exact hw.h104 | sl_exact hw.h105 | sl_exact hw.h106 | sl_exact hw.h107 | sl_exact hw.h108 | sl_exact hw.h109 | sl_exact hw.h110 | sl_exact hw.h111 | sl_exact hw.h112 | sl_exact hw.h113 | sl_exact hw.h114 | sl_exact hw.h115 | sl_exact hw.h116 | sl_exact hw.h117 | sl_exact hw.h118 | sl_exact hw.h119 | sl_exact hw.h120 | sl_exact hw.h121 | sl_exact hw.h122 | sl_exact hw.h123 | sl_exact hw.h124 | sl_exact hw.h125 | sl_exact hw.h126 | sl_exact hw.h127 | sl_exact hw.h128)

end Cert.KernelIdeal.Hand

end
-- ==== Proof.KIdeal.Run.lean ====
/-
  The kernel body, run once on whole staging memrefs (one grid point: one group of 128 tasks).

  The body reads the group's 128 words from the table. For word t it assumes that, read as a row number, it leaves a
  whole row of the weight bank in range (the bundled `Words`), and starts a copy of that row of W1 — eight vectors of
  1024 — into row t of the scratch, on its own cell t. All 128 copies are started before any is waited for; then each
  cell is waited for in turn, so every copy has landed before the scratch is loaded. The body then loads the scratch
  whole and the five input blocks, computes both layers, and stores the 128 × 256 output block whole.

  The triple: from the inputs' buffers at their contents, the output's and the scratch at anything, the table's half,
  the 128 cells at zero, the bank whole at its contents and the core's waits, the body reaches its continuation holding
  the inputs, the table, the cells and the bank as they were, the scratch at some contents, and the output buffer with
  the pieces the run found written over what it held. The pieces are the run's witness.
-/
import proofs.«427848_j22419729285374_3_alg».proof.Proof.KIdeal.Kit
import proofs.«427848_j22419729285374_3_alg».proof.Proof.KIdeal.RowTables

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

open Lean Elab Tactic Meta in
/-- The side condition at hand is `k0_chkN w` for the N-th word the body reads: it is the field `hN` of the bundle `hw`. -/
elab "words_pick" : tactic => withMainContext do
  let t := (← instantiateMVars (← (← getMainGoal).getType)).consumeMData
  let .const n _ := t.getAppFn | throwError "words_pick: not an assumed side condition{indentExpr t}"
  let .str _ s := n | throwError "words_pick: unexpected name {n}"
  unless s.startsWith "k0_chk" do throwError "words_pick: not an assumed side condition: {n}"
  evalTactic (← `(tactic| exact $(mkIdent (Name.mkStr (Name.mkSimple "hw") ("h" ++ (s.drop 6).toString)))))

set_option maxHeartbeats 12000000 in
/-- What the body's one store leaves in the output's staging memref, as pieces, with the body's triple. -/
noncomputable def bodyRun (c : Dev nD) (i : grid0.Coords)
    (a2 : Memref sig .tc .vmem S256x1024 .bf16) (ha2 : a2.IsWhole) (a4 : Memref sig .tc .vmem S1x1x1024 .f32) (ha4 : a4.IsWhole)
    (a5 : Memref sig .tc .vmem S1x1x1024 .f32) (ha5 : a5.IsWhole) (a6 : Memref sig .tc .vmem S1x1x128 .f32) (ha6 : a6.IsWhole)
    (a7 : Memref sig .tc .vmem S1024x128 .f32) (ha7 : a7.IsWhole) (a8 : Memref sig .tc .vmem S128x256 .f32) (ha8 : a8.IsWhole)
    (x0 : Vec F S256x1024 .bf16) (x1 : Vec F S1x1x1024 .f32) (x2 : Vec F S1x1x1024 .f32) (x3 : Vec F S1x1x128 .f32) (x4 : Vec F S1024x128 .f32)
    (xt : Buf (Elt F) (tbM.view.loc (c : Thread nD τ))) (fh : Buf (Elt F) (hbM.view.loc (c : Thread nD τ))) (hw : Words c i xt) :
    { L : List (View.Piece (Elt F) S128x256 .f32) //
      ∀ (W : Waits sig Unit) (K : PUnit → sProp 𝕄),
        iprop(owns (c : Thread nD τ) a2 fullShare x0 ∗ owns (c : Thread nD τ) a4 fullShare x1 ∗ owns (c : Thread nD τ) a5 fullShare x2
            ∗ owns (c : Thread nD τ) a6 fullShare x3 ∗ owns (c : Thread nD τ) a7 fullShare x4
            ∗ (∃ d, owns (c : Thread nD τ) a8 fullShare d) ∗ (∃ d, owns (c : Thread nD τ) scM fullShare d)
            ∗ tbPt c xt ∗ hbPt c fh ∗ owes (c : Thread nD τ) 0 W ∗ cellsAtZero c
            ∗ (iprop(owns (c : Thread nD τ) a2 fullShare x0 ∗ owns (c : Thread nD τ) a4 fullShare x1 ∗ owns (c : Thread nD τ) a5 fullShare x2
                ∗ owns (c : Thread nD τ) a6 fullShare x3 ∗ owns (c : Thread nD τ) a7 fullShare x4
                ∗ (∃ f, a8.view.loc (c : Thread nD τ) ↦[a8.view.set]{fullShare} a8.view.writes (Elt F) f L)
                ∗ (∃ d, owns (c : Thread nD τ) scM fullShare d)
                ∗ tbPt c xt ∗ hbPt c fh ∗ (∃ W', owes (c : Thread nD τ) 0 W') ∗ cellsAtZero c) -∗ K ⟨⟩))
          ⊢ wp frame (wpE (defs₀ (F := F)) Variants.none c none) Set.univ
              (cc0__kernel i tbM htbM a2 ha2 (Memref.whole main_arg1) (Memref.isWhole_whole _) a4 ha4 a5 ha5 a6 ha6 a7 ha7 a8 ha8 scM (Memref.isWhole_whole _) cc0_scratch1) K } := by
  refine ⟨?_, fun W K => ?run⟩
  case run =>
    simp only [cc0__kernel_eq_skeleton]; unfold cc0__kernel_skel
    open_parts
    unfold owns cellsAtZero
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, HT0, Hh0, HW, Hq, Hk⟩
    cells_cases
    -- the bank as one read share per cell, so that the 128 copies may read it at once
    ihave HB := (bank_split c fh) $$ Hh0
    bank_cases
    obtain rfl := ha2.eq_unread hf0; obtain rfl := ha4.eq_unread hf1; obtain rfl := ha5.eq_unread hf2
    obtain rfl := ha6.eq_unread hf3; obtain rfl := ha7.eq_unread hf4
    -- the scratch as its 128 rows: copy t borrows row t outright, so that all 128 may be in flight at once
    ihave HR := (rows_split_lit c fs0) $$ HS0
    rows_cases
    -- the 128 reads of the table, the 128 copies started, the 128 waits: the run halts at the load of the whole scratch
    sl_exec (disch := words_pick)
    -- every row has landed: the rows, each written whole, are the scratch at its closed form
    rows_join
    · rows_back
    sl_exec (disch := words_pick)
    sl_step
    iapply Hk
    isplitl [H0]
    · iexists _; isplitr; · ipureintro; exact ha2.read_unread _
      iexact H0
    isplitl [H1]
    · iexists _; isplitr; · ipureintro; exact ha4.read_unread _
      iexact H1
    isplitl [H2]
    · iexists _; isplitr; · ipureintro; exact ha5.read_unread _
      iexact H2
    isplitl [H3]
    · iexists _; isplitr; · ipureintro; exact ha6.read_unread _
      iexact H3
    isplitl [H4]
    · iexists _; isplitr; · ipureintro; exact ha7.read_unread _
      iexact H4
    isplitl [H5]; · iexists _; iexact H5
    isplitl [HS0]
    · iexists _, _; isplitr; swap; · iexact HS0
      ipureintro; rfl
    isplitl [HT0]; · iexact HT0
    bank_take
    · iapply (bank_join c fh)
      bank_back
    isplitl [HW]; · iexists _; iexact HW
    cells_back

end Cert.KernelIdeal.Hand

end
-- ==== Proof.KIdeal.Cert.lean ====
/-
  The frame of the kernel program, last part: the proof data, the body obligation at a generic grid point, the launch
  of the one pallas_call with the host line that follows it, and the frame claim.

  After the body at point t the output window's staging buffer holds the run's pieces read back (one store covers the
  whole 128 × 256 block); every input window's buffer still holds its block. The invariant is the same before and after
  every point: the copies of the 128 bank rows are started and waited for inside the point, so between points every own
  cell is at zero and the weight bank is whole at its launch contents. The 128 side conditions the body assumes hold at
  every point of every table whose words are row numbers of the bank (`AllWords`); the kernel program clips the ids into
  the bank on the host, so its table always is one.
-/
import proofs.«427848_j22419729285374_3_alg».proof.Proof.KIdeal.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the output block holds after a point -/

/-- The run's pieces tile the output block (one store of the whole block), so they cover it. -/
theorem run_cover (c : Dev nD) (i : grid0.Coords)
    (a2 : Memref sig .tc .vmem S256x1024 .bf16) (ha2 : a2.IsWhole) (a4 : Memref sig .tc .vmem S1x1x1024 .f32) (ha4 : a4.IsWhole)
    (a5 : Memref sig .tc .vmem S1x1x1024 .f32) (ha5 : a5.IsWhole) (a6 : Memref sig .tc .vmem S1x1x128 .f32) (ha6 : a6.IsWhole)
    (a7 : Memref sig .tc .vmem S1024x128 .f32) (ha7 : a7.IsWhole) (a8 : Memref sig .tc .vmem S128x256 .f32) (ha8 : a8.IsWhole)
    (x0 : Vec F S256x1024 .bf16) (x1 : Vec F S1x1x1024 .f32) (x2 : Vec F S1x1x1024 .f32) (x3 : Vec F S1x1x128 .f32) (x4 : Vec F S1024x128 .f32)
    (xt : Buf (Elt F) (tbM.view.loc (c : Thread nD τ))) (fh : Buf (Elt F) (hbM.view.loc (c : Thread nD τ))) (hw : Words c i xt)
    (y : S128x256.Idx) :
    ∃ p ∈ (bodyRun c i a2 ha2 a4 ha4 a5 ha5 a6 ha6 a7 ha7 a8 ha8 x0 x1 x2 x3 x4 xt fh hw).1, y ∈ p.1.set :=
  View.cover_of_tiledL (bodyRun c i a2 ha2 a4 ha4 a5 ha5 a6 ha6 a7 ha7 a8 ha8 x0 x1 x2 x3 x4 xt fh hw).1 S128x256.size (by sl_kernel_rfl) y

/-- What the run leaves in the output's staging buffer: its pieces read back over anything. -/
def outBlock (c : Dev nD) (i : grid0.Coords)
    (a2 : Memref sig .tc .vmem S256x1024 .bf16) (ha2 : a2.IsWhole) (a4 : Memref sig .tc .vmem S1x1x1024 .f32) (ha4 : a4.IsWhole)
    (a5 : Memref sig .tc .vmem S1x1x1024 .f32) (ha5 : a5.IsWhole) (a6 : Memref sig .tc .vmem S1x1x128 .f32) (ha6 : a6.IsWhole)
    (a7 : Memref sig .tc .vmem S1024x128 .f32) (ha7 : a7.IsWhole) (a8 : Memref sig .tc .vmem S128x256 .f32) (ha8 : a8.IsWhole)
    (x0 : Vec F S256x1024 .bf16) (x1 : Vec F S1x1x1024 .f32) (x2 : Vec F S1x1x1024 .f32) (x3 : Vec F S1x1x128 .f32) (x4 : Vec F S1024x128 .f32)
    (xt : Buf (Elt F) (tbM.view.loc (c : Thread nD τ))) (fh : Buf (Elt F) (hbM.view.loc (c : Thread nD τ))) (hw : Words c i xt) :
    Vec F S128x256 .f32 :=
  VO.read (Elt F) (VO.writes (Elt F) VO.junk (bodyRun c i a2 ha2 a4 ha4 a5 ha5 a6 ha6 a7 ha7 a8 ha8 x0 x1 x2 x3 x4 xt fh hw).1)

/-- The body's side conditions at every point, of the table as the region finds it. -/
def AllWords (hO : Ok m) : Prop := ∀ (c : Dev nD) (t : Fin (cfgM m hO).N), Words c (grid0.coords t) (tbl m 0)

set_option maxHeartbeats 3200000 in
set_option maxRecDepth 131072 in
/-- The output block after the body at point `t`: the run's, at the point's memrefs, input blocks, table and bank. -/
def outsAt (hO : Ok m) (hW : AllWords m hO) (c : Dev nD) (t : Fin (cfgM m hO).N) : Vec F S128x256 .f32 :=
  outBlock c (grid0.coords t) (ms0 m hO t) (hs0 m hO t) (ms1 m hO t) (hs1 m hO t) (ms2 m hO t) (hs2 m hO t) (ms3 m hO t) (hs3 m hO t)
    (ms4 m hO t) (hs4 m hO t) (ms5 m hO t) (hs5 m hO t)
    (iblk m hO c 0 t) (iblk m hO c 1 t) (iblk m hO c 2 t) (iblk m hO c 3 t) (iblk m hO c 4 t) (tbl m 0) (V m c main_arg1) (hW c t)

/-! ## The proof data -/

/-- The one pipeline's proof data on core `c`: the arrays as the region finds them; after the body at point `t` each
    input's buffer at its block and the output's at `outsAt`; the invariant; nothing owed; full shares. -/
def dats (hO : Ok m) (hW : AllWords m hO) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outsAt m hO hW c t
  Φ _ := iprop(Pipeline.ΦD osem spec0 H0 (V m) c ∗ Pipeline.ΦT pre0 (tbl m) c)
  q _ := fullShare
  owed _ := 0

theorem A_eq (hO : Ok m) (hW : AllWords m hO) (c : Dev nD) (w : Fin (cfgM m hO).W) :
    (dats m hO hW 0 c).A w = V m c (Pipeline.arrRef spec0 w) := by
  dsimp only [dats]

theorem after0 (hO : Ok m) (hW : AllWords m hO) (c : Dev nD) (t : Fin (cfgM m hO).N) : (dats m hO hW 0 c).after 0 t = iblk m hO c 0 t := by dsimp only [dats]; try rfl
theorem after1 (hO : Ok m) (hW : AllWords m hO) (c : Dev nD) (t : Fin (cfgM m hO).N) : (dats m hO hW 0 c).after 1 t = iblk m hO c 1 t := by dsimp only [dats]; try rfl
theorem after2 (hO : Ok m) (hW : AllWords m hO) (c : Dev nD) (t : Fin (cfgM m hO).N) : (dats m hO hW 0 c).after 2 t = iblk m hO c 2 t := by dsimp only [dats]; try rfl
theorem after3 (hO : Ok m) (hW : AllWords m hO) (c : Dev nD) (t : Fin (cfgM m hO).N) : (dats m hO hW 0 c).after 3 t = iblk m hO c 3 t := by dsimp only [dats]; try rfl
theorem after4 (hO : Ok m) (hW : AllWords m hO) (c : Dev nD) (t : Fin (cfgM m hO).N) : (dats m hO hW 0 c).after 4 t = iblk m hO c 4 t := by dsimp only [dats]; try rfl
theorem after5 (hO : Ok m) (hW : AllWords m hO) (c : Dev nD) (t : Fin (cfgM m hO).N) : (dats m hO hW 0 c).after 5 t = outsAt m hO hW c t := by dsimp only [dats]; try rfl

theorem before0 (hO : Ok m) (hW : AllWords m hO) (c : Dev nD) (t : Fin (cfgM m hO).N) (d) : (dats m hO hW 0 c).before 0 t d = iblk m hO c 0 t :=
  before_of0 m hO (dats m hO hW 0 c) (A_eq m hO hW c 0) (after0 m hO hW c) t d
theorem before1 (hO : Ok m) (hW : AllWords m hO) (c : Dev nD) (t : Fin (cfgM m hO).N) (d) : (dats m hO hW 0 c).before 1 t d = iblk m hO c 1 t :=
  before_of1 m hO (dats m hO hW 0 c) (A_eq m hO hW c 1) (after1 m hO hW c) t d
theorem before2 (hO : Ok m) (hW : AllWords m hO) (c : Dev nD) (t : Fin (cfgM m hO).N) (d) : (dats m hO hW 0 c).before 2 t d = iblk m hO c 2 t :=
  before_of2 m hO (dats m hO hW 0 c) (A_eq m hO hW c 2) (after2 m hO hW c) t d
theorem before3 (hO : Ok m) (hW : AllWords m hO) (c : Dev nD) (t : Fin (cfgM m hO).N) (d) : (dats m hO hW 0 c).before 3 t d = iblk m hO c 3 t :=
  before_of3 m hO (dats m hO hW 0 c) (A_eq m hO hW c 3) (after3 m hO hW c) t d
theorem before4 (hO : Ok m) (hW : AllWords m hO) (c : Dev nD) (t : Fin (cfgM m hO).N) (d) : (dats m hO hW 0 c).before 4 t d = iblk m hO c 4 t :=
  before_of4 m hO (dats m hO hW 0 c) (A_eq m hO hW c 4) (after4 m hO hW c) t d

/-! ## The body obligation, at a generic point -/

/-- What the body is called with at point `t`, the windows one by one, -/
def bodyPre (hO : Ok m) (hW : AllWords m hO) (c : Dev nD) (t : Fin (cfgM m hO).N) : sProp 𝕄 :=
  iprop((dats m hO hW 0 c).Φ t.castSucc ∗ (dats m hO hW 0 c).owesAt () t.castSucc
    ∗ (∃ d, owns (c : Thread nD τ) (ms0 m hO t) fullShare ((dats m hO hW 0 c).before 0 t d))
    ∗ (∃ d, owns (c : Thread nD τ) (ms1 m hO t) fullShare ((dats m hO hW 0 c).before 1 t d))
    ∗ (∃ d, owns (c : Thread nD τ) (ms2 m hO t) fullShare ((dats m hO hW 0 c).before 2 t d))
    ∗ (∃ d, owns (c : Thread nD τ) (ms3 m hO t) fullShare ((dats m hO hW 0 c).before 3 t d))
    ∗ (∃ d, owns (c : Thread nD τ) (ms4 m hO t) fullShare ((dats m hO hW 0 c).before 4 t d))
    ∗ (∃ d, owns (c : Thread nD τ) (ms5 m hO t) fullShare ((dats m hO hW 0 c).before 5 t d)))

/-- and what it returns. -/
def bodyPost (hO : Ok m) (hW : AllWords m hO) (c : Dev nD) (t : Fin (cfgM m hO).N) : sProp 𝕄 :=
  iprop((dats m hO hW 0 c).Φ t.succ ∗ (dats m hO hW 0 c).owesAt () t.succ
    ∗ owns (c : Thread nD τ) (ms0 m hO t) fullShare ((dats m hO hW 0 c).after 0 t)
    ∗ owns (c : Thread nD τ) (ms1 m hO t) fullShare ((dats m hO hW 0 c).after 1 t)
    ∗ owns (c : Thread nD τ) (ms2 m hO t) fullShare ((dats m hO hW 0 c).after 2 t)
    ∗ owns (c : Thread nD τ) (ms3 m hO t) fullShare ((dats m hO hW 0 c).after 3 t)
    ∗ owns (c : Thread nD τ) (ms4 m hO t) fullShare ((dats m hO hW 0 c).after 4 t)
    ∗ owns (c : Thread nD τ) (ms5 m hO t) fullShare ((dats m hO hW 0 c).after 5 t))

set_option maxHeartbeats 6400000 in
set_option maxRecDepth 131072 in
/-- The body at any point: the inputs' memrefs hold their blocks, so the run applies; the invariant hands the body its
    scratch, its cells at zero, the bank and the table's half, and takes them back as they were; the core's waits go in
    at whatever the earlier points recorded and come back with this point's. -/
theorem sound_body (hO : Ok m) (hW : AllWords m hO) (c : Dev nD) (t : Fin (cfgM m hO).N) :
    bodyPre m hO hW c t ⊢ wp frame (wpE (defs₀ (F := F)) Variants.none c none) Set.univ (bodyAt m hO t) (fun _ => bodyPost m hO hW c t) := by
  unfold bodyPre bodyPost bodyAt
  simp only [before0, before1, before2, before3, before4]
  rw [show (dats m hO hW 0 c).Φ t.succ = (dats m hO hW 0 c).Φ t.castSucc from rfl,
    after0, after1, after2, after3, after4, after5]
  rw [show (dats m hO hW 0 c).Φ t.castSucc = iprop(Pipeline.ΦD osem spec0 H0 (V m) c ∗ Pipeline.ΦT pre0 (tbl m) c) from rfl, PhiD_eq, PhiT_eq]
  unfold Dat.owesAt Pipeline.owesWithin
  rw [show (dats m hO hW 0 c).owed t.castSucc = 0 from rfl, show (dats m hO hW 0 c).owed t.succ = 0 from rfl]
  unfold outsAt outBlock
  iintro ⟨⟨⟨HS0, Hg, Hq, Hh0⟩, HT0⟩, ⟨%W, -, HW⟩, ⟨%d0, H0⟩, ⟨%d1, H1⟩, ⟨%d2, H2⟩, ⟨%d3, H3⟩, ⟨%d4, H4⟩, ⟨%d5, H5⟩⟩
  iapply ((bodyRun c (grid0.coords t) _ _ _ _ _ _ _ _ _ _ _ _ (iblk m hO c 0 t) (iblk m hO c 1 t) (iblk m hO c 2 t) (iblk m hO c 3 t) (iblk m hO c 4 t) (tbl m 0) (V m c main_arg1) (hW c t)).2 W _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HT0]; · iexact HT0
  isplitl [Hh0]; · iexact Hh0
  isplitl [HW]; · iexact HW
  isplitl [Hq]; · iexact Hq
  iintro ⟨H0, H1, H2, H3, H4, ⟨%e5, H5⟩, HS0, HT0, Hh0, ⟨%W', HW'⟩, Hq⟩
  isplitl [HS0 Hg Hq Hh0 HT0]
  · isplitl [HS0 Hg Hq Hh0]
    · isplitl [HS0]; · iexact HS0
      isplitl [Hg]; · iexact Hg
      isplitl [Hq]; · iexact Hq
      iexact Hh0
    iexact HT0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (run_cover c _ _ _ _ _ _ _ _ _ _ _ _ _ _ _ _ _ _ _ _ _)

set_option maxRecDepth 131072 in
set_option maxHeartbeats 3200000 in
/-- The library's body obligation, at every point. -/
theorem body_obligation (hO : Ok m) (hW : AllWords m hO) (c : Dev nD) :
    BodyObligation (dats (F := F) m hO hW 0 c) (defs₀ (F := F)) Variants.none () Set.univ := fun t => by
  rw [bigSep_W0, bigSep_W0]
  exact sound_body m hO hW c t

/-! ## The run and the frame -/

set_option backward.isDefEq.respectTransparency.types false in
/-- From any memory with zero counters every weakly fair execution of @main terminates, and in every final state each
    staged array holds what the library computes from the proof data and every other unscoped buffer what the later
    line leaves: the arguments and the bank their launch contents, the flat result the reshape of the call's result. -/
theorem run_main (hO : Ok m) (hW : AllWords m hO) :
    θ_run defs (onTc (τ := τ) (main (F := F))) (s₀ m ρ)
      (Pipeline.FramePost (Pipeline.pin pcfgs fun _ => adm m hO) (dats m hO hW) 0
        (Pipeline.afterTail pcfgs (fun _ => adm m hO) (dats m hO hW) 0 (V0 m) [hostOps1])) :=
  Pipeline.θ_run_frameP_dma_around pcfgs (fun _ => adm m hO) (dats m hO hW) (0 : Fin 1) launch0 osem defs₀ Variants.none ownSemFacts H0 H0_sub m ρ main
    (hbody := fun c => (body_obligation m hO hW c).loose) (hshare := fun c => (dats m hO hW 0 c).share_full fun _ => rfl)
    (howed := fun _ _ => rfl) (V₀ := V0 m) (opss := [hostOps1]) (hsub := tail_but) (hfresh := tail_fresh) (hkeep := tail_keeps)
    (hmain := hmain m Variants.none) (hA := A_eq m hO hW) (hpf := V_pre m)
    (hin := fun _ => .rfl) (hout := fun c => by change iprop(_ ∗ _) ⊢ _; iintro ⟨HD, -⟩; iexact HD)

/-! ## After the later line -/

/-- The later line writes only the flat result, and no staged array is an argument: a buffer that is neither holds
    after the line what the region found. -/
theorem tail_other (hO : Ok m) (hW : AllWords m hO) (c : Dev nD) (b : Ref sig .tc)
    (harr : ∀ w, Pipeline.arrRef spec0 w ≠ b) (hres : Proc.devRef (τ := τ) .tc b ≠ Proc.devRef .tc main_v36) :
    Pipeline.afterTail pcfgs (fun _ => adm m hO) (dats m hO hW) 0 (V0 m) [hostOps1] c b = V m c b := by
  unfold Pipeline.afterTail
  rw [StableHlo.after_of_forall_not_mem _ _ fun op hop hw' => ?_, Pipeline.withArrays_of_ne _ c (V0 m c) _ b harr]
  simp only [List.flatten_cons, List.flatten_nil, List.append_nil, hostOps1, List.mem_cons, List.mem_nil_iff, or_false] at hop
  subst hop
  simp only [StableHlo.reshape_writes, Finset.mem_singleton] at hw'
  exact hres hw'

/-- The flat result after the later line: the reshape of what the region left in its result array. -/
theorem tail_result (hO : Ok m) (hW : AllWords m hO) (c : Dev nD) :
    Pipeline.afterTail pcfgs (fun _ => adm m hO) (dats m hO hW) 0 (V0 m) [hostOps1] c main_v36
      = shapeCast S1048576 ((dats m hO hW 0 c).arrAt 5 (cfgM m hO).N : Vec F S4096x256 .f32) shapeCasts_S4096x256_S1048576 := by
  unfold Pipeline.afterTail
  show StableHlo.after (hostOps1 (F := F)) _ (Proc.devRef .tc main_v36) = _
  after_results
  exact congrArg (fun x => shapeCast S1048576 x shapeCasts_S4096x256_S1048576)
    (Pipeline.withArrays_arr spec0 (launch0 (F := F)).win.arr_inj c _ _ 5)

/-! ## The frame -/

/-- THE FRAME at any `F`: under the pipeline's side condition of the table and the body's side conditions at every
    point, @main runs to the end and every argument array ends as launched. -/
theorem frame (hO : Ok m) (hW : AllWords m hO) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_arg0 (by decide : main_arg0 ∈ Pipeline.restRefs sig spec0)).trans
        (tail_other m hO hW c main_arg0 (fun w => by fin_cases w <;> decide) (StableHlo.devRef_ne_of_ne (by decide)))).trans (V_arg0 m c),
     (((h c).2 main_arg1 (by decide : main_arg1 ∈ Pipeline.restRefs sig spec0)).trans
        (tail_other m hO hW c main_arg1 (fun w => by fin_cases w <;> decide) (StableHlo.devRef_ne_of_ne (by decide)))).trans (V_arg1 m c),
     (((h c).2 main_arg2 (by decide : main_arg2 ∈ Pipeline.restRefs sig spec0)).trans
        (tail_other m hO hW c main_arg2 (fun w => by fin_cases w <;> decide) (StableHlo.devRef_ne_of_ne (by decide)))).trans (V_arg2 m c),
     (((h c).2 main_arg3 (by decide : main_arg3 ∈ Pipeline.restRefs sig spec0)).trans
        (tail_other m hO hW c main_arg3 (fun w => by fin_cases w <;> decide) (StableHlo.devRef_ne_of_ne (by decide)))).trans (V_arg3 m c),
     (((h c).2 main_arg4 (by decide : main_arg4 ∈ Pipeline.restRefs sig spec0)).trans
        (tail_other m hO hW c main_arg4 (fun w => by fin_cases w <;> decide) (StableHlo.devRef_ne_of_ne (by decide)))).trans (V_arg4 m c),
     (((h c).2 main_arg5 (by decide : main_arg5 ∈ Pipeline.restRefs sig spec0)).trans
        (tail_other m hO hW c main_arg5 (fun w => by fin_cases w <;> decide) (StableHlo.devRef_ne_of_ne (by decide)))).trans (V_arg5 m c)⟩)
    (run_main m ρ hO hW)

end Cert.KernelIdeal.Hand

end
-- ==== Proof.KIdeal.WordsOk.lean ====
/-
  The side conditions the kernel body assumes of the 128 task ids it reads at a grid point, from one bound on the table.

  At each point the body reads 128 words of the task-id table, one per task of the group, and of each word v it assumes
  that the bank row v names lies inside the weight bank: the slice [v, 0, 0] of extent [1, 8, 1024] inside
  [10000, 8, 1024], that is v + 1 ≤ 10000 with the word read unsigned (the other two axes are 0 + 8 ≤ 8 and
  0 + 1024 ≤ 1024). A word read off the whole table through a one-element rectangle is a word of the table, so if every
  word of the table is below ten thousand, all 128 conditions hold at every point.
-/
import proofs.«427848_j22419729285374_3_alg».proof.Proof.KIdeal.Tables

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- Every word read off the table through a rectangle is a word of the table, so it keeps a bound all of them have. -/
theorem word_lt (c : Dev nD) (xt : Buf (Elt F) (tbM.view.loc (c : Thread nD τ)))
    (h : ∀ j : S4096.Idx, (xt j : BitVec 32).toNat < 10000)
    (R : LoadRect S4096) (j : R.shape.Idx) : (tbM.view.readAt (Elt F) R xt j : BitVec 32).toNat < 10000 := by
  rw [View.readAt_apply, View.read_apply, cast_eq]; exact h _

/-- A word below ten thousand names a row of the bank: the slice [v, 0, 0] of extent [1, 8, 1024] is inside
    [10000, 8, 1024]. -/
theorem row_inb (v : BitVec 32) (hv : v.toNat < 10000) :
    ∀ a : Fin 3, (![v.toNat, 0, 0] : Fin 3 → Nat) a + S1x8x1024.size a ≤ S10000x8x1024.size a := by
  intro a
  fin_cases a
  · show v.toNat + 1 ≤ 10000; omega
  · show 0 + 8 ≤ 8; omega
  · show 0 + 1024 ≤ 1024; omega

/-- If every word of the table, read unsigned, is below ten thousand, the body's 128 assumed side conditions hold at
    every grid point. -/
theorem words_of_lt (c : Dev nD) (i : grid0.Coords) (xt : Buf (Elt F) (tbM.view.loc (c : Thread nD τ)))
    (h : ∀ j : S4096.Idx, (xt j : BitVec 32).toNat < 10000) : Words c i xt := by
  constructor <;> exact row_inb _ (word_lt c xt h _ _)

end Cert.KernelIdeal.Hand

end
-- ==== Proof.GroupMatrix.lean ====
/-
  The 0/1 grouping matrix G of the kernel: G[i, t] = 1 when row i (0 ≤ i < 1024) belongs to group t (0 ≤ t < 128),
  that is when ⌊i / 8⌋ = t, and 0 otherwise.

  The program builds it from two iotas. The row numbers, kept as a [1024, 1] column, are divided by the scalar 8 with
  a floor division that is lowered to integer operations: the quotient q rounded toward zero, the signs of dividend
  and divisor, the remainder r, and the choice of q − 1 in place of q exactly where the signs differ and r ≠ 0. The
  column of group numbers is then compared for equality, entry by entry, with the row 0 … 127 of group labels, both
  spread over [1024, 128], and the one-bit result is converted to f32.

  `grp` is that chain of operations as a term, generic in the float instance; `grp_apply` reads it at an index over
  the extended reals. The argument: a row number is a word below 2³¹, so it is zero or positive, as 8 is; the signed
  division by 8 then meets no corner and is the division of the naturals; the sign test of the correction is false
  (for i = 0 the remainder test is), so the floor division returns the quotient ⌊i / 8⌋ itself; two words below 2³²
  are equal exactly when their values are; and a one-bit word converts to 1 or 0.
-/
import proofs.«427848_j22419729285374_3_alg».proof.KernelIdeal
import proofs.«427848_j22419729285374_3_alg».proof.Proof.Gen.KernelIdeal
import Idealize.ShloMosaic.Lib.ValueIdx
import Idealize.ShloMosaic.Lib.StableHlo.Predicate

noncomputable section

namespace Cert.KernelIdeal.GroupMatrix

open Idealize.ShloMosaic Idealize.SL.Sem
open Idealize.ShloMosaic.ValueIdx
open Cert.KernelIdeal.Gen

variable {F : FTy → Type} [FloatOps F]

/-- The row numbers 0 … 1023 as a column: the iota along the one axis, kept as [1024, 1]. -/
def rowCol : IVec S1024x1 32 :=
  broadcastInDim S1024x1 ![0] bcast_S1024_S1024x1_0 (iotaInDim S1024 32 0)

/-- The divisor, the scalar word 8. -/
def eight : IVec S_ 32 := constantI S_ 32 8#32

/-- The quotient rounded toward zero, as the floor division's first step takes it. -/
def quot (x : IVec S1024x1 32) (y : IVec S_ 32) : IVec S1024x1 32 :=
  Host.divsi x (broadcastInDim S1024x1 ![] bcast_S_S1024x1 y)

/-- "The signs of dividend and divisor differ, and the remainder is not zero": where the truncating quotient
    is one above the floor. -/
def fixup (x : IVec S1024x1 32) (y : IVec S_ 32) : IVec S1024x1 1 :=
  andi
    (cmpi .ne (signi x) (broadcastInDim S1024x1 ![] bcast_S_S1024x1 (signi y)))
    (cmpi .ne (Host.remsi x (broadcastInDim S1024x1 ![] bcast_S_S1024x1 y))
      (broadcastInDim S1024x1 ![] bcast_S_S1024x1 (constantI S_ 32 0#32)))

/-- The floor division of a column by a scalar: the truncating quotient, less one where `fixup` says so. -/
def floorDiv (x : IVec S1024x1 32) (y : IVec S_ 32) : IVec S1024x1 32 :=
  select (fixup x y)
    (subi (quot x y) (broadcastInDim S1024x1 ![] bcast_S_S1024x1 (constantI S_ 32 1#32)))
    (quot x y)

/-- The group number of each row, ⌊i / 8⌋, as a [1024, 1] column of words. -/
def grpCol : IVec S1024x1 32 := floorDiv rowCol eight

/-- The group numbers 0 … 127 as a row [1, 128]. -/
def colRow : IVec S1x128 32 :=
  broadcastInDim S1x128 ![1] bcast_S128_S1x128_1 (iotaInDim S128 32 0)

/-- The one-bit mask "row i belongs to group t". -/
def grpMask : IVec S1024x128 1 :=
  cmpi .eq
    (broadcastInDim S1024x128 ![0, 1] bcast_S1024x1_S1024x128_0_1 grpCol)
    (broadcastInDim S1024x128 ![0, 1] bcast_S1x128_S1024x128_0_1 colRow)

/-- The grouping matrix: the mask converted to f32, 1 where row i belongs to group t and 0 elsewhere. -/
def grp : FVec F S1024x128 .f32 := uitofp .f32 grpMask

/-! ## Words: the lowered floor division of a small word by 8 -/

/-- The sign of a word as a word: 0, −1 or 1. -/
def sgnW (x : BitVec 32) : BitVec 32 := if x = 0 then 0 else if x.msb then -1 else 1

/-- The integer sign of a tensor, read at an index, is the sign of the word there. -/
theorem signi_apply {s : Shape} (x : IVec s 32) (j : s.Idx) : signi x j = sgnW (x j) := rfl

/-- The lowered floor division at one word, by the divisor 8: the truncating quotient, less one when the signs
    differ and the remainder is not zero. -/
def floorDivW (x : BitVec 32) : BitVec 32 :=
  Scalar.select
    (IntOp.andi (IntOp.cmpi .ne (sgnW x) (sgnW 8#32)) (IntOp.cmpi .ne (IntOp.remsi .host x 8#32) 0#32))
    (IntOp.subi (IntOp.divsi .host x 8#32) 1#32)
    (IntOp.divsi .host x 8#32)

/-- Dividing a word below 2³¹ by 8 meets no corner of the signed division, and both signs are clear: the
    quotient is the quotient of the naturals. -/
theorem divsi_eight (x : BitVec 32) (hx : x.toNat < 2 ^ 31) :
    IntOp.divsi .host x 8#32 = BitVec.ofNat 32 (x.toNat / 8) := by
  have hm : x.msb = false := BitVec.msb_eq_false_iff_two_mul_lt.mpr (by omega)
  have hcorner : ¬ IntOp.SDivCorner x 8#32 := by
    intro hc; rcases hc with hc | ⟨_, hc⟩ <;> exact absurd hc (by decide)
  apply BitVec.eq_of_toNat_eq
  simp only [IntOp.divsi, if_neg hcorner, BitVec.sdiv_eq, hm, show (8#32 : BitVec 32).msb = false from by decide,
    BitVec.udiv_eq, BitVec.toNat_udiv, BitVec.toNat_ofNat, Nat.reducePow, Nat.reduceMod]
  omega

/-- A word below 2³¹ is zero or positive, as 8 is, so the correction never fires: the floor division by 8 is
    the quotient of the naturals. -/
theorem floorDivW_eq (x : BitVec 32) (hx : x.toNat < 2 ^ 31) : floorDivW x = BitVec.ofNat 32 (x.toNat / 8) := by
  have hm : x.msb = false := BitVec.msb_eq_false_iff_two_mul_lt.mpr (by omega)
  unfold floorDivW
  rw [divsi_eight x hx]
  by_cases h0 : x = 0
  · subst h0; decide
  · have hs : IntOp.cmpi .ne (sgnW x) (sgnW 8#32) = 0#1 := by
      unfold sgnW; rw [if_neg h0, hm]; decide
    have ha : ∀ b : BitVec 1, IntOp.andi 0#1 b = 0#1 := fun b => by simp [IntOp.andi]
    rw [hs, ha, select_zero]

/-! ## The stages read at an index -/

theorem rowCol_apply (i : Fin 1024) : rowCol (ix2 i (0 : Fin 1)) = BitVec.ofNat 32 i.val :=
  StableHlo.Predicate.bcast_col1 bcast_S1024_S1024x1_0 (iotaInDim S1024 32 0) i

theorem grpCol_apply (i : Fin 1024) : grpCol (ix2 i (0 : Fin 1)) = BitVec.ofNat 32 (i.val / 8) := by
  have hx : rowCol (ix2 i (0 : Fin 1)) = BitVec.ofNat 32 i.val := rowCol_apply i
  have hlt : (rowCol (ix2 i (0 : Fin 1))).toNat < 2 ^ 31 := by
    rw [hx, BitVec.toNat_ofNat]; have := i.isLt; omega
  have h := floorDivW_eq _ hlt
  rw [hx, BitVec.toNat_ofNat, Nat.mod_eq_of_lt (by have := i.isLt; omega)] at h
  rw [← hx] at h
  exact h

theorem colRow_apply (t : Fin 128) : colRow (ix2 (0 : Fin 1) t) = BitVec.ofNat 32 t.val :=
  StableHlo.Predicate.bcast_row1 bcast_S128_S1x128_1 (iotaInDim S128 32 0) t

theorem grpMask_apply (i : Fin 1024) (t : Fin 128) :
    grpMask (ix2 i t) = BitVec.ofBool (decide (i.val / 8 = t.val)) := by
  have e1 : broadcastInDim S1024x128 ![0, 1] bcast_S1024x1_S1024x128_0_1 grpCol (ix2 i t) = grpCol (ix2 i (0 : Fin 1)) :=
    StableHlo.Predicate.bcast_of_col bcast_S1024x1_S1024x128_0_1 grpCol i t
  have e2 : broadcastInDim S1024x128 ![0, 1] bcast_S1x128_S1024x128_0_1 colRow (ix2 i t) = colRow (ix2 (0 : Fin 1) t) :=
    StableHlo.Predicate.bcast_of_row bcast_S1x128_S1024x128_0_1 colRow i t
  show IntOp.cmpi .eq (broadcastInDim S1024x128 ![0, 1] bcast_S1024x1_S1024x128_0_1 grpCol (ix2 i t))
      (broadcastInDim S1024x128 ![0, 1] bcast_S1x128_S1024x128_0_1 colRow (ix2 i t)) = _
  rw [e1, e2, grpCol_apply, colRow_apply]
  have hi := i.isLt
  have ht := t.isLt
  show BitVec.ofBool (BitVec.ofNat 32 (i.val / 8) == BitVec.ofNat 32 t.val) = _
  congr 1
  rw [Bool.eq_iff_iff, beq_iff_eq, decide_eq_true_eq]
  constructor
  · intro h
    have := congrArg BitVec.toNat h
    simp only [BitVec.toNat_ofNat] at this
    omega
  · intro h; rw [h]

theorem grp_apply (i : Fin 1024) (t : Fin 128) :
    grp (F := Ideal) (ix2 i t) = if i.val / 8 = t.val then (1 : EReal) else 0 := by
  show (((grpMask (ix2 i t)).toNat : ℝ) : EReal) = _
  rw [grpMask_apply]
  by_cases h : i.val / 8 = t.val
  · rw [if_pos h, decide_eq_true h]; simp
  · rw [if_neg h, decide_eq_false h]; simp

end Cert.KernelIdeal.GroupMatrix

end
-- ==== Proof.HostGathers.lean ====
/-
  The host side of the kernel's program before its launch, as pure functions of the program's arguments, read at an index.

  The task ids are clamped, signed, into [0, 9999] (`idsClip`), then an id below zero would have ten thousand added
  (`idsWrap`: after the clamp none is). The wrapped ids, as a [4096, 1] column of start indices, pick rows of three banks:
  the first layer's biases [10000, 8], the second layer's weights [10000, 1, 8] and the second layer's biases [10000, 1];
  each picked array is then laid out row-major as 32 groups: [32, 1, 1024], [32, 1, 1024] and [32, 1, 128].

  Read at an index, inside the stated domain 0 ≤ id < 10000: group g, position i of the first two is entry i mod 8 of the
  bank row that task g·128 + i / 8 selects, and group g, position t of the third is the bank row task g·128 + t selects.
  With no hypothesis at all, a clamped id read unsigned is below ten thousand.
-/
import proofs.«427848_j22419729285374_3_alg».proof.KernelIdeal
import proofs.«427848_j22419729285374_3_alg».proof.Proof.Gen.KernelIdeal
import proofs.«427848_j22419729285374_3_alg».proof.Proof.Spec
import proofs.«427848_j22419729285374_3_alg».proof.Proof.LibRowGather
import Idealize.ShloMosaic.Lib.ValueIdx
import Idealize.ShloMosaic.Lib.Pipeline.Value

noncomputable section

namespace Cert.KernelIdeal.HostSide

open Idealize.ShloMosaic Idealize.SL.Sem Idealize.ShloMosaic.ValueIdx
open Idealize.ShloMosaic.RowGather
open Cert.KernelIdeal.Gen

variable {F : FTy → Type} [FloatOps F]

/-! ## The host operations before the launch, as functions of the arguments -/

/-- The task ids clamped, signed, into the bank's row range [0, 9999]. -/
def idsClip (x5 : IVec S4096 32) : IVec S4096 32 :=
  minsi (broadcastInDim S4096 ![] bcast_S_S4096 (constantI S_ 32 9999#32))
    (maxsi (broadcastInDim S4096 ![] bcast_S_S4096 (constantI S_ 32 0#32)) x5)

/-- A negative id counted from the end of the bank: ten thousand added where the id is below zero. -/
def idsWrap (v : IVec S4096 32) : IVec S4096 32 :=
  select (cmpi .slt v (broadcastInDim S4096 ![] bcast_S_S4096 (constantI S_ 32 0#32)))
    (addi v (broadcastInDim S4096 ![] bcast_S_S4096 (constantI S_ 32 10000#32))) v

/-- The first layer's biases of each task's head, eight to a task, laid out as 32 groups of 1024. -/
def b1g (x2 : FVec F S10000x8 .f32) (x5 : IVec S4096 32) : FVec F S32x1x1024 .f32 :=
  shapeCast S32x1x1024
    (Host.gather gather_S10000x8_S4096x1_S4096x8_1_0_n_n_0_1_18 x2
      (broadcastInDim S4096x1 ![0] bcast_S4096_S4096x1_0 (idsWrap (idsClip x5))))
    shapeCasts_S4096x8_S32x1x1024

/-- The second layer's weights of each task's head, eight to a task, laid out as 32 groups of 1024. -/
def w2g (x3 : FVec F S10000x1x8 .f32) (x5 : IVec S4096 32) : FVec F S32x1x1024 .f32 :=
  shapeCast S32x1x1024
    (Host.gather gather_S10000x1x8_S4096x1_S4096x1x8_12_0_n_n_0_1_118 x3
      (broadcastInDim S4096x1 ![0] bcast_S4096_S4096x1_0 (idsWrap (idsClip x5))))
    shapeCasts_S4096x1x8_S32x1x1024

/-- The second layer's bias of each task's head, one to a task, laid out as 32 groups of 128. -/
def b2g (x4 : FVec F S10000x1 .f32) (x5 : IVec S4096 32) : FVec F S32x1x128 .f32 :=
  shapeCast S32x1x128
    (Host.gather gather_S10000x1_S4096x1_S4096x1_1_0_n_n_0_1_11 x4
      (broadcastInDim S4096x1 ![0] bcast_S4096_S4096x1_0 (idsWrap (idsClip x5))))
    shapeCasts_S4096x1_S32x1x128

/-! ## Words: the clamp and the wrap on one 32-bit id -/

theorem toInt_zero32 : (0#32 : BitVec 32).toInt = 0 := by decide
theorem toInt_9999 : (9999#32 : BitVec 32).toInt = 9999 := by decide

/-- The signed clamp of a word into [0, 9999], by cases on the word's signed value. -/
theorem clipWord_eq (x : BitVec 32) :
    IntOp.minsi 9999#32 (IntOp.maxsi 0#32 x)
      = if x.toInt < 0 then 0#32 else if 9999 < x.toInt then 9999#32 else x := by
  unfold IntOp.minsi IntOp.maxsi
  by_cases h0 : x.toInt < 0
  · have hs : x.slt 0#32 = true := by simp only [BitVec.slt, toInt_zero32, decide_eq_true_eq]; exact h0
    rw [if_pos hs, if_pos h0]
    have : (9999#32 : BitVec 32).slt 0#32 = false := by decide
    rw [this]; rfl
  · have hs : x.slt 0#32 = false := by simp only [BitVec.slt, toInt_zero32, decide_eq_false_iff_not]; exact h0
    rw [hs, if_neg h0]
    simp only [Bool.false_eq_true, if_false]
    by_cases h1 : 9999 < x.toInt
    · have hs1 : (9999#32 : BitVec 32).slt x = true := by simp only [BitVec.slt, toInt_9999, decide_eq_true_eq]; exact h1
      rw [if_pos hs1, if_pos h1]
    · have hs1 : (9999#32 : BitVec 32).slt x = false := by simp only [BitVec.slt, toInt_9999, decide_eq_false_iff_not]; exact h1
      rw [hs1, if_neg h1]; rfl

/-- A word clamped, signed, into [0, 9999] is, unsigned, below ten thousand: no hypothesis on the word. -/
theorem clipWord_toNat_lt (x : BitVec 32) : (IntOp.minsi 9999#32 (IntOp.maxsi 0#32 x)).toNat < 10000 := by
  rw [clipWord_eq]
  split
  · decide
  · split
    · decide
    · rename_i h0 h1
      have hc := BitVec.toInt_eq_toNat_cond x
      have hlt := x.isLt
      split at hc <;> omega

/-- Inside [0, 9999] the clamp does nothing. -/
theorem clipWord_of_range (x : BitVec 32) (h0 : 0 ≤ x.toInt) (h1 : x.toInt < 10000) :
    IntOp.minsi 9999#32 (IntOp.maxsi 0#32 x) = x := by
  rw [clipWord_eq, if_neg (by omega), if_neg (by omega)]

/-- A word that is not negative is not wrapped. -/
theorem wrapWord_of_nonneg (x : BitVec 32) (h0 : 0 ≤ x.toInt) :
    Scalar.select (IntOp.cmpi .slt x 0#32) (IntOp.addi x 10000#32) x = x := by
  have hs : x.slt 0#32 = false := by simp only [BitVec.slt, toInt_zero32, decide_eq_false_iff_not]; omega
  unfold IntOp.cmpi
  simp only [hs]
  exact select_zero _ _

/-! ## The clamp and the wrap on the vector of ids -/

/-- The clamped ids at a task: the clamp of that task's id. -/
theorem idsClip_apply (x5 : IVec S4096 32) (j : S4096.Idx) :
    idsClip x5 j = IntOp.minsi 9999#32 (IntOp.maxsi 0#32 (x5 j)) := rfl

/-- The wrapped ids at a task: the wrap of that task's id. -/
theorem idsWrap_apply (v : IVec S4096 32) (j : S4096.Idx) :
    idsWrap v j = Scalar.select (IntOp.cmpi .slt (v j) 0#32) (IntOp.addi (v j) 10000#32) (v j) := rfl

/-- Every clamped id, read unsigned, is a row number of the bank. -/
theorem idsClip_toNat_lt (x5 : IVec S4096 32) (j : S4096.Idx) : (idsClip x5 j).toNat < 10000 :=
  clipWord_toNat_lt (x5 j)

/-- On ids that are row numbers already the clamp is the identity. -/
theorem idsClip_eq_of_inRange {x5 : IVec S4096 32} (h : Cert.Spec.InRange x5) : idsClip x5 = x5 := by
  funext j
  rw [eq_ix1 j]
  exact clipWord_of_range _ (h (j 0)).1 (h (j 0)).2

/-- On ids that are row numbers already the wrap is the identity. -/
theorem idsWrap_eq_of_inRange {v : IVec S4096 32} (h : Cert.Spec.InRange v) : idsWrap v = v := by
  funext j
  rw [eq_ix1 j]
  exact wrapWord_of_nonneg _ (h (j 0)).1

/-- The ids as a column: row `r` of the [4096, 1] column is the id of task `r`. -/
theorem idsColumn_apply (v : IVec S4096 32) (r : Fin 4096) :
    broadcastInDim S4096x1 ![0] bcast_S4096_S4096x1_0 v (ix2 r (0 : Fin 1)) = v (ix1 r) :=
  broadcastInDim_apply _ _ v _ _ fun a => match a with | ⟨0, _⟩ => rfl

/-! ## The three row gathers read at an index -/

/-- Row `r` of the gathered first-layer biases is the bank's row at the clamped start index of `r`. -/
theorem gather_b1_apply (x : FVec F S10000x8 .f32) (idx : IVec S4096x1 32) (r : Fin 4096) (c : Fin 8) :
    Host.gather gather_S10000x8_S4096x1_S4096x8_1_0_n_n_0_1_18 x idx (ix2 r c)
      = x (ix2 ⟨min (idx (ix2 r (0 : Fin 1))).toInt.toNat (10000 - 1), by omega⟩ c) :=
  gather_rows2_apply (N := 10000) (C := 8) (R := 4096) (by norm_num) gather_S10000x8_S4096x1_S4096x8_1_0_n_n_0_1_18_wf x idx r c

/-- Row `r` of the gathered second-layer weights likewise, the unit middle axis kept. -/
theorem gather_w2_apply (x : FVec F S10000x1x8 .f32) (idx : IVec S4096x1 32) (r : Fin 4096) (a : Fin 1) (c : Fin 8) :
    Host.gather gather_S10000x1x8_S4096x1_S4096x1x8_12_0_n_n_0_1_118 x idx (ix3 r a c)
      = x (ix3 ⟨min (idx (ix2 r (0 : Fin 1))).toInt.toNat (10000 - 1), by omega⟩ a c) :=
  gather_rows3_apply (N := 10000) (A := 1) (B := 8) (R := 4096) (by norm_num) gather_S10000x1x8_S4096x1_S4096x1x8_12_0_n_n_0_1_118_wf x idx r a c

/-- Row `r` of the gathered second-layer biases likewise. -/
theorem gather_b2_apply (x : FVec F S10000x1 .f32) (idx : IVec S4096x1 32) (r : Fin 4096) (c : Fin 1) :
    Host.gather gather_S10000x1_S4096x1_S4096x1_1_0_n_n_0_1_11 x idx (ix2 r c)
      = x (ix2 ⟨min (idx (ix2 r (0 : Fin 1))).toInt.toNat (10000 - 1), by omega⟩ c) :=
  gather_rows2_apply (N := 10000) (C := 1) (R := 4096) (by norm_num) gather_S10000x1_S4096x1_S4096x1_1_0_n_n_0_1_11_wf x idx r c

/-! ## The row a task reads -/

/-- Inside the stated domain the start index of task `k`, clamped into the bank, is the row `Cert.Spec.row` names. -/
theorem startRow_eq {x5 : IVec S4096 32} (h : Cert.Spec.InRange x5) (k : Fin 4096)
    (hlt : min (broadcastInDim S4096x1 ![0] bcast_S4096_S4096x1_0 (idsWrap (idsClip x5)) (ix2 k (0 : Fin 1))).toInt.toNat (10000 - 1) < 10000) :
    (⟨min (broadcastInDim S4096x1 ![0] bcast_S4096_S4096x1_0 (idsWrap (idsClip x5)) (ix2 k (0 : Fin 1))).toInt.toNat (10000 - 1), hlt⟩ : Fin 10000)
      = Cert.Spec.row x5 k := by
  apply Fin.ext
  show min (broadcastInDim S4096x1 ![0] bcast_S4096_S4096x1_0 (idsWrap (idsClip x5)) (ix2 k (0 : Fin 1))).toInt.toNat (10000 - 1)
    = min (x5 (ix1 k)).toInt.toNat 9999
  rw [idsColumn_apply, idsClip_eq_of_inRange h, idsWrap_eq_of_inRange h]

/-! ## The gathered arrays read at an index -/

/-- Row-major position g·1024 + i of the [32, 1, 1024] layout is entry i mod 8 of task g·128 + i / 8: the first layer's
    bias of that task's head at that unit. -/
theorem b1g_apply {x5 : IVec S4096 32} (h : Cert.Spec.InRange x5) (x2 : FVec Ideal S10000x8 .f32) (g : Fin 32) (i : Fin 1024) :
    b1g (F := Ideal) x2 x5 (ix3 g (0 : Fin 1) i)
      = x2 (ix2 (Cert.Spec.row x5 ⟨g.val * 128 + i.val / 8, by have := g.isLt; have := i.isLt; omega⟩)
          ⟨i.val % 8, Nat.mod_lt _ (by norm_num)⟩) := by
  have hg := g.isLt
  have hi := i.isLt
  unfold b1g
  refine (shapeCast_apply _ shapeCasts_S4096x8_S32x1x1024 _
    (ix2 (⟨g.val * 128 + i.val / 8, by omega⟩ : Fin 4096) (⟨i.val % 8, Nat.mod_lt _ (by norm_num)⟩ : Fin 8)) ?_).trans ?_
  · rw [Shape.rowMajor_val_three, Shape.rowMajor_val_two]
    show (g.val * 128 + i.val / 8) * 8 + i.val % 8 = (g.val * 1 + 0) * 1024 + i.val
    omega
  · refine (gather_b1_apply _ _ _ _).trans ?_
    exact congrArg (fun r => x2 (ix2 r (⟨i.val % 8, Nat.mod_lt _ (by norm_num)⟩ : Fin 8))) (startRow_eq h _ _)

/-- The same position of the second layer's weights: the weight of that task's head at that unit. -/
theorem w2g_apply {x5 : IVec S4096 32} (h : Cert.Spec.InRange x5) (x3 : FVec Ideal S10000x1x8 .f32) (g : Fin 32) (i : Fin 1024) :
    w2g (F := Ideal) x3 x5 (ix3 g (0 : Fin 1) i)
      = x3 (ix3 (Cert.Spec.row x5 ⟨g.val * 128 + i.val / 8, by have := g.isLt; have := i.isLt; omega⟩) (0 : Fin 1)
          ⟨i.val % 8, Nat.mod_lt _ (by norm_num)⟩) := by
  have hg := g.isLt
  have hi := i.isLt
  unfold w2g
  refine (shapeCast_apply _ shapeCasts_S4096x1x8_S32x1x1024 _
    (ix3 (⟨g.val * 128 + i.val / 8, by omega⟩ : Fin 4096) (0 : Fin 1) (⟨i.val % 8, Nat.mod_lt _ (by norm_num)⟩ : Fin 8)) ?_).trans ?_
  · rw [Shape.rowMajor_val_three, Shape.rowMajor_val_three]
    show ((g.val * 128 + i.val / 8) * 1 + 0) * 8 + i.val % 8 = (g.val * 1 + 0) * 1024 + i.val
    omega
  · refine (gather_w2_apply _ _ _ _ _).trans ?_
    exact congrArg (fun r => x3 (ix3 r (0 : Fin 1) (⟨i.val % 8, Nat.mod_lt _ (by norm_num)⟩ : Fin 8))) (startRow_eq h _ _)

/-- Row-major position g·128 + t of the [32, 1, 128] layout is task g·128 + t: the second layer's bias of that task's head. -/
theorem b2g_apply {x5 : IVec S4096 32} (h : Cert.Spec.InRange x5) (x4 : FVec Ideal S10000x1 .f32) (g : Fin 32) (t : Fin 128) :
    b2g (F := Ideal) x4 x5 (ix3 g (0 : Fin 1) t)
      = x4 (ix2 (Cert.Spec.row x5 ⟨g.val * 128 + t.val, by have := g.isLt; have := t.isLt; omega⟩) (0 : Fin 1)) := by
  have hg := g.isLt
  have ht := t.isLt
  unfold b2g
  refine (shapeCast_apply _ shapeCasts_S4096x1_S32x1x128 _
    (ix2 (⟨g.val * 128 + t.val, by omega⟩ : Fin 4096) (0 : Fin 1)) ?_).trans ?_
  · rw [Shape.rowMajor_val_three, Shape.rowMajor_val_two]
    show (g.val * 128 + t.val) * 1 + 0 = (g.val * 1 + 0) * 128 + t.val
    omega
  · refine (gather_b2_apply _ _ _ _).trans ?_
    exact congrArg (fun r => x4 (ix2 r (0 : Fin 1))) (startRow_eq h _ _)

end Cert.KernelIdeal.HostSide

end
-- ==== Proof.KIdeal.EntryArrays.lean ====
/-
  The arrays the region finds, as functions of the program's arguments.

  When the pallas_call is entered the core's buffers are the launch memory after the five stretches of host lines
  that precede it. Six of those buffers are what the region reads: the table of clipped task ids and the arrays of its
  five input windows. Each is written once, by one host line, as a pure function of buffers written before it; reading
  the fold of the host lines at that buffer, line by line back to @main's arguments, gives the composed term. The
  terms are: the ids clamped into the bank; the embedding narrowed to bf16; the first layer's biases, the second
  layer's weights and the second layer's biases, each gathered at the wrapped clamped ids and laid out by groups; and
  the 0/1 grouping matrix. All six hold for every float instance.
-/
import proofs.«427848_j22419729285374_3_alg».proof.Proof.KIdeal.Kit
import proofs.«427848_j22419729285374_3_alg».proof.Proof.GroupMatrix
import proofs.«427848_j22419729285374_3_alg».proof.Proof.HostGathers
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Unfold the five stretches of host lines into one list, then read the buffer at hand off the fold: each line's
    result at its own buffer is its function of the operands' contents, and every other buffer is left as it was. -/
local macro "entry_array" : tactic => `(tactic| (
  simp only [hostOps0, hostOps0_1, hostOps0_2, hostOps0_3, hostOps0_4, List.flatten_cons, List.flatten_nil, List.append_nil, List.cons_append,
    List.nil_append]
  after_results_simp))

/-- The clipped ids: the prefetched table's array. -/
theorem V_v0 (c : Dev nD) :
    (V m c main_v0 : IVec S4096 32) = HostSide.idsClip (m ((c : Thread nD τ).loc main_arg5)) := by
  show StableHlo.after (List.flatten [hostOps0, hostOps0_1, hostOps0_2, hostOps0_3, hostOps0_4]) (fun b => m (c, b)) (Proc.devRef .tc main_v0) = _
  entry_array
  rfl

/-- The embedding narrowed to bf16: the first window's array. -/
theorem V_v1 (c : Dev nD) :
    (V m c main_v1 : FVec F S256x1024 .bf16) = truncf .bf16 (m ((c : Thread nD τ).loc main_arg0)) bitsLt_bf16_f32 := by
  show StableHlo.after (List.flatten [hostOps0, hostOps0_1, hostOps0_2, hostOps0_3, hostOps0_4]) (fun b => m (c, b)) (Proc.devRef .tc main_v1) = _
  entry_array

/-- The first layer's biases of each task's head, gathered and laid out by groups: the second window's array. -/
theorem V_v9 (c : Dev nD) :
    (V m c main_v9 : FVec F S32x1x1024 .f32) = HostSide.b1g (m ((c : Thread nD τ).loc main_arg2)) (m ((c : Thread nD τ).loc main_arg5)) := by
  show StableHlo.after (List.flatten [hostOps0, hostOps0_1, hostOps0_2, hostOps0_3, hostOps0_4]) (fun b => m (c, b)) (Proc.devRef .tc main_v9) = _
  entry_array
  rfl

/-- The second layer's weights of each task's head, gathered and laid out by groups: the third window's array. -/
theorem V_v17 (c : Dev nD) :
    (V m c main_v17 : FVec F S32x1x1024 .f32) = HostSide.w2g (m ((c : Thread nD τ).loc main_arg3)) (m ((c : Thread nD τ).loc main_arg5)) := by
  show StableHlo.after (List.flatten [hostOps0, hostOps0_1, hostOps0_2, hostOps0_3, hostOps0_4]) (fun b => m (c, b)) (Proc.devRef .tc main_v17) = _
  entry_array
  rfl

/-- The second layer's bias of each task's head, gathered and laid out by groups: the fourth window's array. -/
theorem V_v25 (c : Dev nD) :
    (V m c main_v25 : FVec F S32x1x128 .f32) = HostSide.b2g (m ((c : Thread nD τ).loc main_arg4)) (m ((c : Thread nD τ).loc main_arg5)) := by
  show StableHlo.after (List.flatten [hostOps0, hostOps0_1, hostOps0_2, hostOps0_3, hostOps0_4]) (fun b => m (c, b)) (Proc.devRef .tc main_v25) = _
  entry_array
  rfl

/-- The 0/1 grouping matrix: the fifth window's array. -/
theorem V_v34 (c : Dev nD) :
    (V m c main_v34 : FVec F S1024x128 .f32) = GroupMatrix.grp := by
  show StableHlo.after (List.flatten [hostOps0, hostOps0_1, hostOps0_2, hostOps0_3, hostOps0_4]) (fun b => m (c, b)) (Proc.devRef .tc main_v34) = _
  entry_array
  rfl

end Cert.KernelIdeal.Hand

end
-- ==== Proof.KIdeal.Frame.lean ====
/-
  The frame of the kernel program, closed: both hypotheses of the frame hold outright.

  No window's index map reads the table, so the pipeline's side condition of it is empty. And the table IS the ids
  clipped into [0, 9999] by the host lines before the call, so every word of it, read as a row number, is below 10000:
  each of the 128 rows the body copies lies inside the weight bank, whatever the launch memory holds.
-/
import proofs.«427848_j22419729285374_3_alg».proof.Proof.KIdeal.Cert
import proofs.«427848_j22419729285374_3_alg».proof.Proof.KIdeal.WordsOk
import proofs.«427848_j22419729285374_3_alg».proof.Proof.KIdeal.EntryArrays

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ) (ρ : Dev nD → PrngReg)

/-- The pipeline asks nothing of the table (no index map reads it). -/
theorem ok : Ok m := by unfold Ok ok0; trivial

/-- Every word of the table is a row number of the bank: the table is the clipped ids. -/
theorem table_lt (j : S4096.Idx) : ((tbl m 0 : IVec S4096 32) j).toNat < 10000 := by
  show ((V m (0 : Dev nD) main_v0 : IVec S4096 32) j).toNat < 10000
  rw [V_v0 m 0]
  exact HostSide.idsClip_toNat_lt _ j

/-- So the body's side conditions hold at every grid point. -/
theorem allWords : AllWords m (ok m) := fun c t =>
  words_of_lt c (grid0.coords t) (tbl m 0) (table_lt m)

/-- THE FRAME of the kernel program, at any `F`, from any launch memory. -/
theorem frame_all :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame m ρ (ok m) (allWords m)

end Cert.KernelIdeal.Hand

end
-- ==== Proof.PreRange.lean ====
/-
  The stated domain of the task ids, read out of the precondition.

  The precondition is a conjunction of seven one-bit words: five say that a float argument is finite everywhere, and the
  last two say  all (task_ids ≥ 0)  and  all (task_ids < 10000),  each an "and" over the 4096 signed comparisons of an id
  with a constant. A conjunction that is 1 has both halves 1; an "and" over an array that is 1 has every element 1; and a
  signed comparison word that is 1 says its inequality of the signed readings. So for every task k,
  0 ≤ task_ids[k] < 10000 as integers. The five finiteness conjuncts are not used.
-/
import proofs.«427848_j22419729285374_3_alg».proof.Pre_finite_inputs
import proofs.«427848_j22419729285374_3_alg».proof.Proof.Gen.Pre_finite_inputs
import proofs.«427848_j22419729285374_3_alg».proof.Proof.Spec
import Idealize.ShloMosaic.Lib.ReduceAll
import Idealize.ShloMosaic.Lib.StableHlo.Predicate

noncomputable section

namespace Cert.PreRange

open Idealize.ShloMosaic Idealize.ShloMosaic.ValueIdx Cert.Pre_finite_inputs

/-- The rank-0 shape has one index. -/
instance : Subsingleton S_.Idx := ⟨fun a b => funext fun d => d.elim0⟩

/-- The comparison word of  x ≥ 0  (signed) is 1 exactly when x reads nonnegative. -/
theorem sge_zero_iff (x : BitVec 32) : IntOp.cmpi .sge x 0#32 = 1#1 ↔ 0 ≤ x.toInt := by
  rw [IntOp.cmpi_sge, show (0#32 : BitVec 32).toInt = 0 from by decide]

/-- The comparison word of  x < 10000  (signed) is 1 exactly when x reads below 10000. -/
theorem slt_bound_iff (x : BitVec 32) : IntOp.cmpi .slt x 10000#32 = 1#1 ↔ x.toInt < 10000 := by
  rw [IntOp.cmpi_slt, show (10000#32 : BitVec 32).toInt = 10000 from by decide]

theorem inRange_of_pre {F : FTy → Type} [FloatOps F] [Cert.Pre_finite_inputs.Facts]
    (a0 : FVec F Cert.Pre_finite_inputs.S256x1024 .f32) (a1 : FVec F Cert.Pre_finite_inputs.S10000x8x1024 .f32)
    (a2 : FVec F Cert.Pre_finite_inputs.S10000x8 .f32) (a3 : FVec F Cert.Pre_finite_inputs.S10000x1x8 .f32)
    (a4 : FVec F Cert.Pre_finite_inputs.S10000x1 .f32) (a5 : IVec Cert.Pre_finite_inputs.S4096 32)
    (h : Cert.Pre_finite_inputs.fn (F := F) a0 a1 a2 a3 a4 a5 = fun _ => 1#1) : Cert.Spec.InRange a5 := by
  -- the claim at the one index of the result: a conjunction of seven one-bit words
  have e := congrFun h ix0
  dsimp only [fn, fn_part1] at e
  -- its last two conjuncts: all (ids ≥ 0) and all (ids < 10000)
  obtain ⟨e1, hlt⟩ := IntOp.andi_eq_one.1 e
  obtain ⟨-, hge⟩ := IntOp.andi_eq_one.1 e1
  intro k
  -- each "and" over the 4096 comparisons is 1, so the comparison at task k is 1; the constant it compares with is
  -- a scalar laid over the array, which reads the scalar at every index
  have g : IntOp.cmpi .sge (a5 (ix1 k)) 0#32 = 1#1 := Host.reduce_andi_all _ _ _ _ _ hge (ix1 k)
  have l : IntOp.cmpi .slt (a5 (ix1 k)) 10000#32 = 1#1 := Host.reduce_andi_all _ _ _ _ _ hlt (ix1 k)
  exact ⟨(sge_zero_iff _).1 g, (slt_bound_iff _).1 l⟩

end Cert.PreRange

end
-- ==== Proof.RefSpec.lean ====
/-
  THE REFERENCE COMPUTES THE SPECIFICATION.

  The reference program wraps each task id (a negative id would be moved up by the bank's size), takes the rows of the
  four banks W1, b1, W2, b2 at the wrapped ids (each start index read signed and clamped into the bank), contracts
  W1's rows with the embedding over the 1024 features, adds b1, rectifies, contracts with W2's row over the 8 hidden
  units, adds b2, and lays the `[4096, 256, 1]` result out flat, task-major.

  Inside the stated domain `0 ≤ id < 10000` the wrap does nothing (a word whose signed value is not negative is not
  below zero), so the start index of task `k` is its id and the clamped row is the specification's `row k`. Every other
  stage reads one element of each operand: the stages are read at coordinate indices, outermost first, the composed
  index functions of the layout operations are identified with coordinate indices once, and the two flat reshapes
  come down to `(k · 256 + b) / 256 = k` and `(k · 256 + b) % 256 = b`.
-/
import proofs.«427848_j22419729285374_3_alg».proof.Proof.Gen.ReferenceIdeal.Read
import proofs.«427848_j22419729285374_3_alg».proof.Proof.Spec
import proofs.«427848_j22419729285374_3_alg».proof.Proof.LibRowGather

noncomputable section

open scoped BigOperators

namespace Cert.ReferenceIdeal.RefSpec

open Cert.ReferenceIdeal Cert.ReferenceIdeal.Gen Idealize.ShloMosaic Idealize.ShloMosaic.TcCoe Idealize.SL.Sem Idealize.ShloMosaic.StableHlo
open Idealize.ShloMosaic.ValueIdx

/-- A word whose signed value is not negative is not below zero, so the wrap keeps it. -/
theorem wrap_word (w : BitVec 32) (h0 : 0 ≤ w.toInt) :
    Scalar.select (IntOp.cmpi .slt w 0#32) (IntOp.addi w 10000#32) w = w := by
  have hc : IntOp.cmpi .slt w 0#32 = 0#1 := by
    apply eq_zero_of_ne_one
    intro h1
    have e : IntOp.cmpi .slt w 0#32 = BitVec.ofBool (w.slt 0#32) := rfl
    rw [e] at h1
    have h2 : w.slt 0#32 = true := by
      cases hb : w.slt 0#32 with
      | true => rfl
      | false => rw [hb] at h1; exact absurd h1 (by decide)
    simp only [BitVec.slt, decide_eq_true_eq] at h2
    have : (0#32 : BitVec 32).toInt = 0 := by decide
    omega
  rw [hc, select_zero]

theorem v4_apply (x5 : (⟨S4096, .i32⟩ : BufTy).Contents (Elt Ideal)) (h : Cert.Spec.InRange x5) (k : Fin 4096) :
    Read.val_main_v4 (F := Ideal) x5 (ix1 k) = x5 (ix1 k) := by
  rw [Read.val_main_v4_apply, Read.val_main_v1_apply, Read.val_main_v0_apply, Read.val_main_c_apply,
    Read.val_main_v3_apply, Read.val_main_v2_apply, Read.val_main_c_0_apply]
  exact wrap_word _ (h k).1

theorem idx_v5 (k : Fin 4096) : Read.idx_main_v5 (ix2 k (0 : Fin 1)) = ix1 k := by
  funext a; match a with | ⟨0, _⟩ => rfl

theorem v5_apply (x5 : (⟨S4096, .i32⟩ : BufTy).Contents (Elt Ideal)) (h : Cert.Spec.InRange x5) (k : Fin 4096) :
    Read.val_main_v5 (F := Ideal) x5 (ix2 k (0 : Fin 1)) = x5 (ix1 k) := by
  rw [Read.val_main_v5_apply, idx_v5, v4_apply x5 h]

/-! ### The four row gathers read at an index

Each takes whole rows of a bank at the start indices `idx[k, 0]`, read signed and clamped into the bank; the
printed dimension numbers are the general row gather's at these sizes. -/

theorem gather_W1 (x : (⟨S10000x8x1024, .f32⟩ : BufTy).Contents (Elt Ideal)) (idx : IVec S4096x1 32)
    (k : Fin 4096) (o : Fin 8) (c : Fin 1024) :
    Host.gather gather_S10000x8x1024_S4096x1_S4096x8x1024_12_0_n_n_0_1_181024 x idx (ix3 k o c)
      = x (ix3 ⟨min (idx (ix2 k (0 : Fin 1))).toInt.toNat (10000 - 1), by omega⟩ o c) :=
  RowGather.gather_rows3_apply (N := 10000) (A := 8) (B := 1024) (R := 4096) (by norm_num)
    Facts₀.gather_S10000x8x1024_S4096x1_S4096x8x1024_12_0_n_n_0_1_181024_wf x idx k o c

theorem gather_b1 (x : (⟨S10000x8, .f32⟩ : BufTy).Contents (Elt Ideal)) (idx : IVec S4096x1 32)
    (k : Fin 4096) (o : Fin 8) :
    Host.gather gather_S10000x8_S4096x1_S4096x8_1_0_n_n_0_1_18 x idx (ix2 k o)
      = x (ix2 ⟨min (idx (ix2 k (0 : Fin 1))).toInt.toNat (10000 - 1), by omega⟩ o) :=
  RowGather.gather_rows2_apply (N := 10000) (C := 8) (R := 4096) (by norm_num)
    Facts₀.gather_S10000x8_S4096x1_S4096x8_1_0_n_n_0_1_18_wf x idx k o

theorem gather_W2 (x : (⟨S10000x1x8, .f32⟩ : BufTy).Contents (Elt Ideal)) (idx : IVec S4096x1 32)
    (k : Fin 4096) (u : Fin 1) (o : Fin 8) :
    Host.gather gather_S10000x1x8_S4096x1_S4096x1x8_12_0_n_n_0_1_118 x idx (ix3 k u o)
      = x (ix3 ⟨min (idx (ix2 k (0 : Fin 1))).toInt.toNat (10000 - 1), by omega⟩ u o) :=
  RowGather.gather_rows3_apply (N := 10000) (A := 1) (B := 8) (R := 4096) (by norm_num)
    Facts₀.gather_S10000x1x8_S4096x1_S4096x1x8_12_0_n_n_0_1_118_wf x idx k u o

theorem gather_b2 (x : (⟨S10000x1, .f32⟩ : BufTy).Contents (Elt Ideal)) (idx : IVec S4096x1 32)
    (k : Fin 4096) (u : Fin 1) :
    Host.gather gather_S10000x1_S4096x1_S4096x1_1_0_n_n_0_1_11 x idx (ix2 k u)
      = x (ix2 ⟨min (idx (ix2 k (0 : Fin 1))).toInt.toNat (10000 - 1), by omega⟩ u) :=
  RowGather.gather_rows2_apply (N := 10000) (C := 1) (R := 4096) (by norm_num)
    Facts₀.gather_S10000x1_S4096x1_S4096x1_1_0_n_n_0_1_11_wf x idx k u

/-- The clamped start index of task `k` is the row the specification selects, once the wrap is known to keep the id. -/
theorem start_row (x5 : (⟨S4096, .i32⟩ : BufTy).Contents (Elt Ideal)) (h : Cert.Spec.InRange x5) (k : Fin 4096) :
    min (Read.val_main_v5 (F := Ideal) x5 (ix2 k (0 : Fin 1))).toInt.toNat (10000 - 1) = (Cert.Spec.row x5 k).val :=
  congrArg (fun w : BitVec 32 => min w.toInt.toNat 9999) (v5_apply x5 h k)

/-- Inside the stated domain the gathered rows of the first weight bank are the rows the specification selects. -/
theorem v6_apply (x1 : (⟨S10000x8x1024, .f32⟩ : BufTy).Contents (Elt Ideal))
    (x5 : (⟨S4096, .i32⟩ : BufTy).Contents (Elt Ideal)) (h : Cert.Spec.InRange x5)
    (k : Fin 4096) (o : Fin 8) (c : Fin 1024) :
    Read.val_main_v6 (F := Ideal) x1 x5 (ix3 k o c) = x1 (ix3 (Cert.Spec.row x5 k) o c) := by
  unfold Read.val_main_v6
  exact (gather_W1 x1 _ k o c).trans
    (congrArg (fun r : Fin 10000 => x1 (ix3 r o c)) (Fin.ext (start_row x5 h k)))

/-- The same for the first bias bank. -/
theorem v13_apply (x2 : (⟨S10000x8, .f32⟩ : BufTy).Contents (Elt Ideal))
    (x5 : (⟨S4096, .i32⟩ : BufTy).Contents (Elt Ideal)) (h : Cert.Spec.InRange x5)
    (k : Fin 4096) (o : Fin 8) :
    Read.val_main_v13 (F := Ideal) x2 x5 (ix2 k o) = x2 (ix2 (Cert.Spec.row x5 k) o) := by
  unfold Read.val_main_v13
  exact (gather_b1 x2 _ k o).trans
    (congrArg (fun r : Fin 10000 => x2 (ix2 r o)) (Fin.ext (start_row x5 h k)))

/-- The same for the second weight bank. -/
theorem v20_apply (x3 : (⟨S10000x1x8, .f32⟩ : BufTy).Contents (Elt Ideal))
    (x5 : (⟨S4096, .i32⟩ : BufTy).Contents (Elt Ideal)) (h : Cert.Spec.InRange x5)
    (k : Fin 4096) (u : Fin 1) (o : Fin 8) :
    Read.val_main_v20 (F := Ideal) x3 x5 (ix3 k u o) = x3 (ix3 (Cert.Spec.row x5 k) u o) := by
  unfold Read.val_main_v20
  exact (gather_W2 x3 _ k u o).trans
    (congrArg (fun r : Fin 10000 => x3 (ix3 r u o)) (Fin.ext (start_row x5 h k)))

/-- The same for the second bias bank. -/
theorem v27_apply (x4 : (⟨S10000x1, .f32⟩ : BufTy).Contents (Elt Ideal))
    (x5 : (⟨S4096, .i32⟩ : BufTy).Contents (Elt Ideal)) (h : Cert.Spec.InRange x5)
    (k : Fin 4096) (u : Fin 1) :
    Read.val_main_v27 (F := Ideal) x4 x5 (ix2 k u) = x4 (ix2 (Cert.Spec.row x5 k) u) := by
  unfold Read.val_main_v27
  exact (gather_b2 x4 _ k u).trans
    (congrArg (fun r : Fin 10000 => x4 (ix2 r u)) (Fin.ext (start_row x5 h k)))

/-! ### The composed index functions at coordinate indices -/

theorem lidx_v28 (k : Fin 4096) (o : Fin 8) (b : Fin 256) (c : Fin 1024) :
    Read.lidx_main_v28 (ix3 k o b) c = ix3 k o c := by
  funext a; match a with | ⟨0, _⟩ => rfl | ⟨1, _⟩ => rfl | ⟨2, _⟩ => rfl

theorem ridx_v28 (k : Fin 4096) (o : Fin 8) (b : Fin 256) (c : Fin 1024) :
    Read.ridx_main_v28 (ix3 k o b) c = ix2 b c := by
  funext a; match a with | ⟨0, _⟩ => rfl | ⟨1, _⟩ => rfl

theorem idx_v29 (k : Fin 4096) (b : Fin 256) (o : Fin 8) :
    Read.idx_main_v29 (ix3 k b o) = ix3 k o b := by
  funext a; match a with | ⟨0, _⟩ => rfl | ⟨1, _⟩ => rfl | ⟨2, _⟩ => rfl

theorem idx_v31 (k : Fin 4096) (b : Fin 256) (o : Fin 8) :
    Read.idx_main_v31 (ix3 k b o) = ix3 k (0 : Fin 1) o := by
  funext a; match a with | ⟨0, _⟩ => rfl | ⟨1, _⟩ => rfl | ⟨2, _⟩ => rfl

theorem idx_v30 (k : Fin 4096) (u : Fin 1) (o : Fin 8) :
    Read.idx_main_v30 (ix3 k u o) = ix2 k o := by
  funext a; match a with | ⟨0, _⟩ => rfl | ⟨1, _⟩ => rfl

theorem lidx_v34 (k : Fin 4096) (b : Fin 256) (u : Fin 1) (o : Fin 8) :
    Read.lidx_main_v34 (ix3 k b u) o = ix3 k b o := by
  funext a; match a with | ⟨0, _⟩ => rfl | ⟨1, _⟩ => rfl | ⟨2, _⟩ => rfl

theorem ridx_v34 (k : Fin 4096) (b : Fin 256) (u : Fin 1) (o : Fin 8) :
    Read.ridx_main_v34 (ix3 k b u) o = ix3 k u o := by
  funext a; match a with | ⟨0, _⟩ => rfl | ⟨1, _⟩ => rfl | ⟨2, _⟩ => rfl

theorem idx_v36 (k : Fin 4096) (b : Fin 256) (u : Fin 1) :
    Read.idx_main_v36 (ix3 k b u) = ix3 k (0 : Fin 1) (0 : Fin 1) := by
  funext a; match a with | ⟨0, _⟩ => rfl | ⟨1, _⟩ => rfl | ⟨2, _⟩ => rfl

theorem idx_v35 (k : Fin 4096) (u v : Fin 1) :
    Read.idx_main_v35 (ix3 k u v) = ix2 k (0 : Fin 1) := by
  funext a; match a with | ⟨0, _⟩ => rfl | ⟨1, _⟩ => rfl

/-- The row-major position `k · 256 + b` of the `[4096, 256]` view splits back into `(k, b, 0)`. -/
theorem idx_v38 (k : Fin 4096) (b : Fin 256) :
    Read.idx_main_v38 (ix2 k b) = ix3 k b (0 : Fin 1) := by
  have hk : k.val < 4096 := k.isLt
  have hb : b.val < 256 := b.isLt
  funext a
  match a with
  | ⟨0, _⟩ => exact Fin.ext (show (k.val * 256 + b.val) / 256 = k.val by omega)
  | ⟨1, _⟩ => exact Fin.ext (show (k.val * 256 + b.val) / 1 % 256 = b.val by omega)
  | ⟨2, _⟩ => rfl

/-- The flat position `n` is entry `(n / 256, n % 256)` of the `[4096, 256]` view. -/
theorem idx_v39 (n : S1048576.Idx) :
    Read.idx_main_v39 n = ix2 (⟨(n 0).val / 256, by have h : (n 0).val < 1048576 := (n 0).isLt; show (n 0).val / 256 < 4096; omega⟩ : Fin 4096)
      (⟨(n 0).val % 256, Nat.mod_lt _ (by norm_num)⟩ : Fin 256) := by
  funext a; match a with | ⟨0, _⟩ => rfl | ⟨1, _⟩ => rfl

/-! ### The stages read at an index -/

section Stages

variable (x0 : (⟨S256x1024, .f32⟩ : BufTy).Contents (Elt Ideal)) (x1 : (⟨S10000x8x1024, .f32⟩ : BufTy).Contents (Elt Ideal))
  (x2 : (⟨S10000x8, .f32⟩ : BufTy).Contents (Elt Ideal)) (x3 : (⟨S10000x1x8, .f32⟩ : BufTy).Contents (Elt Ideal))
  (x4 : (⟨S10000x1, .f32⟩ : BufTy).Contents (Elt Ideal)) (x5 : (⟨S4096, .i32⟩ : BufTy).Contents (Elt Ideal))
  (h : Cert.Spec.InRange x5)

include h

/-- Layer 1's products: entry `(k, o, b)` contracts row `o` of head `row k` with embedding row `b`. -/
theorem v28_apply (k : Fin 4096) (o : Fin 8) (b : Fin 256) :
    Read.val_main_v28 (F := Ideal) x0 x1 x5 (ix3 k o b)
      = ∑ c : Fin 1024, x1 (ix3 (Cert.Spec.row x5 k) o c) * x0 (ix2 b c) := by
  rw [Read.val_main_v28_apply]
  refine Finset.sum_congr rfl fun c _ => ?_
  rw [lidx_v28, ridx_v28, v6_apply x1 x5 h]

/-- The bias of layer 1 spread over the embedding rows. -/
theorem v31_apply (k : Fin 4096) (b : Fin 256) (o : Fin 8) :
    Read.val_main_v31 (F := Ideal) x2 x5 (ix3 k b o) = x2 (ix2 (Cert.Spec.row x5 k) o) := by
  rw [Read.val_main_v31_apply, idx_v31, Read.val_main_v30_apply, idx_v30, v13_apply x2 x5 h]

/-- Layer 1 after the rectifier is the specification's hidden unit. -/
theorem v33_apply (k : Fin 4096) (b : Fin 256) (o : Fin 8) :
    Read.val_main_v33 (F := Ideal) x0 x1 x2 x5 (ix3 k b o) = Cert.Spec.hidden x0 x1 x2 x5 k b o := by
  rw [Read.val_main_v33_apply, Read.val_main_v32_apply, Read.val_main_v29_apply, idx_v29, v28_apply x0 x1 x5 h,
    v31_apply x2 x5 h, Read.val_main_call0_v0_apply, Read.val_main_call0_cst_apply, Ideal.ofBits_def,
    Ideal.ofBits_zero_f32]
  rfl

/-- The bias of layer 2 spread over the embedding rows. -/
theorem v36_apply (k : Fin 4096) (b : Fin 256) (u : Fin 1) :
    Read.val_main_v36 (F := Ideal) x4 x5 (ix3 k b u) = x4 (ix2 (Cert.Spec.row x5 k) (0 : Fin 1)) := by
  rw [Read.val_main_v36_apply, idx_v36, Read.val_main_v35_apply, idx_v35, v27_apply x4 x5 h]

/-- Layer 2 is the specification's output. -/
theorem v37_apply (k : Fin 4096) (b : Fin 256) :
    Read.val_main_v37 (F := Ideal) x0 x1 x2 x3 x4 x5 (ix3 k b (0 : Fin 1)) = Cert.Spec.out x0 x1 x2 x3 x4 x5 k b := by
  rw [Read.val_main_v37_apply, Read.val_main_v34_apply, v36_apply x4 x5 h]
  have e : ∀ o : Fin 8, Read.val_main_v33 (F := Ideal) x0 x1 x2 x5 (Read.lidx_main_v34 (ix3 k b (0 : Fin 1)) o)
      * Read.val_main_v20 (F := Ideal) x3 x5 (Read.ridx_main_v34 (ix3 k b (0 : Fin 1)) o)
      = Cert.Spec.hidden x0 x1 x2 x5 k b o * x3 (ix3 (Cert.Spec.row x5 k) (0 : Fin 1) o) := fun o => by
    rw [lidx_v34, ridx_v34, v33_apply x0 x1 x2 x5 h, v20_apply x3 x5 h]
  rw [Finset.sum_congr rfl fun o _ => e o]
  rfl

end Stages

/-- THE REFERENCE COMPUTES THE SPECIFICATION: inside the stated domain of the task ids its flat result is
    `result[k · 256 + b] = out k b`. -/
theorem ref_eq_spec (x0 : (⟨S256x1024, .f32⟩ : BufTy).Contents (Elt Ideal))
    (x1 : (⟨S10000x8x1024, .f32⟩ : BufTy).Contents (Elt Ideal)) (x2 : (⟨S10000x8, .f32⟩ : BufTy).Contents (Elt Ideal))
    (x3 : (⟨S10000x1x8, .f32⟩ : BufTy).Contents (Elt Ideal)) (x4 : (⟨S10000x1, .f32⟩ : BufTy).Contents (Elt Ideal))
    (x5 : (⟨S4096, .i32⟩ : BufTy).Contents (Elt Ideal)) (h : Cert.Spec.InRange x5) :
    Cert.ReferenceIdeal.Read.val_main_v39 (F := Ideal) x0 x1 x2 x3 x4 x5 = Cert.Spec.result x0 x1 x2 x3 x4 x5 := by
  funext n
  rw [Read.val_main_v39_apply, idx_v39, Read.val_main_v38_apply, idx_v38, v37_apply x0 x1 x2 x3 x4 x5 h]
  rfl

end Cert.ReferenceIdeal.RefSpec

end
-- ==== Proof.KIdeal.Blocks.lean ====
/-
  The six windows' blocks, read off their arrays at an index.

  The grid has 32 points; point t handles tasks t·128 … t·128 + 127. The embedding and the grouping matrix are
  staged whole at every point (block index (0, 0)); each of the three task-major tables [32, 1, n] is staged one
  row at a time (block (t, 0, 0) of shape [1, 1, n]); the output window is rows t·128 … t·128 + 127 of the
  [4096, 256] result (block (t, 0) of shape [128, 256]). A block's element at coordinate y sits in its array, on
  each axis, at block index × block size + y. The index maps are decided once over the 32 points; everything else
  is that arithmetic, axis by axis. The output's block index moves at every step, so every point writes its block
  back, and the 32 blocks cover the result: the row r lies in the block of point r / 128.
-/
import proofs.«427848_j22419729285374_3_alg».proof.Proof.KIdeal.Kit
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

variable (m : (ℓ : Loc nD τ sig) → Buf (Elt F) ℓ)

/-! ## The blocks and their arrays, by their literal types -/

abbrev blk0 (hO : Ok m) (c : Dev nD) (t : Fin (cfgM m hO).N) : Vec F S256x1024 .bf16 := iblk m hO c 0 t
abbrev blk1 (hO : Ok m) (c : Dev nD) (t : Fin (cfgM m hO).N) : Vec F S1x1x1024 .f32 := iblk m hO c 1 t
abbrev blk2 (hO : Ok m) (c : Dev nD) (t : Fin (cfgM m hO).N) : Vec F S1x1x1024 .f32 := iblk m hO c 2 t
abbrev blk3 (hO : Ok m) (c : Dev nD) (t : Fin (cfgM m hO).N) : Vec F S1x1x128 .f32 := iblk m hO c 3 t
abbrev blk4 (hO : Ok m) (c : Dev nD) (t : Fin (cfgM m hO).N) : Vec F S1024x128 .f32 := iblk m hO c 4 t

abbrev arr0 (c : Dev nD) : Vec F S256x1024 .bf16 := V m c main_v1
abbrev arr1 (c : Dev nD) : Vec F S32x1x1024 .f32 := V m c main_v9
abbrev arr2 (c : Dev nD) : Vec F S32x1x1024 .f32 := V m c main_v17
abbrev arr3 (c : Dev nD) : Vec F S32x1x128 .f32 := V m c main_v25
abbrev arr4 (c : Dev nD) : Vec F S1024x128 .f32 := V m c main_v34

theorem N_eq (hO : Ok m) : (cfgM m hO).N = 32 := N_0

/-- The printed index maps over the 32 grid points. -/
theorem idx_facts : ∀ t : Fin grid0.N,
    cc0_transform_0 (grid0.coords t) (0 : Fin 2) = 0 ∧ cc0_transform_0 (grid0.coords t) (1 : Fin 2) = 0
    ∧ cc0_transform_2 (grid0.coords t) (0 : Fin 3) = t.val ∧ cc0_transform_2 (grid0.coords t) (1 : Fin 3) = 0 ∧ cc0_transform_2 (grid0.coords t) (2 : Fin 3) = 0
    ∧ cc0_transform_3 (grid0.coords t) (0 : Fin 3) = t.val ∧ cc0_transform_3 (grid0.coords t) (1 : Fin 3) = 0 ∧ cc0_transform_3 (grid0.coords t) (2 : Fin 3) = 0
    ∧ cc0_transform_4 (grid0.coords t) (0 : Fin 3) = t.val ∧ cc0_transform_4 (grid0.coords t) (1 : Fin 3) = 0 ∧ cc0_transform_4 (grid0.coords t) (2 : Fin 3) = 0
    ∧ cc0_transform_5 (grid0.coords t) (0 : Fin 2) = 0 ∧ cc0_transform_5 (grid0.coords t) (1 : Fin 2) = 0
    ∧ cc0_transform_6 (grid0.coords t) (0 : Fin 2) = t.val ∧ cc0_transform_6 (grid0.coords t) (1 : Fin 2) = 0 :=
  (by decide +kernel : ∀ t : Fin grid0.N, _)

theorem blk0_apply (hO : Ok m) (c : Dev nD) (t : Fin (cfgM m hO).N) (b : Fin 256) (h : Fin 1024) :
    blk0 m hO c t (ix2 b h) = arr0 m c (ix2 b h) := by
  obtain ⟨e0, e1, -⟩ := idx_facts t
  show V m c main_v1 ((((cfgM m hO).win 0).blk t).view.emb (ix2 b h)) = V m c main_v1 (ix2 b h)
  refine congrArg (V m c main_v1) (funext fun a => Fin.ext ?_)
  match a with
  | ⟨0, _⟩ => show cc0_transform_0 (grid0.coords t) (0 : Fin 2) * 256 + 1 * b.val = b.val; rw [e0]; omega
  | ⟨1, _⟩ => show cc0_transform_0 (grid0.coords t) (1 : Fin 2) * 1024 + 1 * h.val = h.val; rw [e1]; omega

/-- Grid point `t` as a row number of the three task-major tables (the grid has 32 points). -/
abbrev row (hO : Ok m) (t : Fin (cfgM m hO).N) : Fin 32 := ⟨t.val, t.isLt.trans_eq (N_eq m hO)⟩

theorem blk1_apply (hO : Ok m) (c : Dev nD) (t : Fin (cfgM m hO).N) (i : Fin 1024) :
    blk1 m hO c t (ix3 (0 : Fin 1) (0 : Fin 1) i) = arr1 m c (ix3 (row m hO t) (0 : Fin 1) i) := by
  obtain ⟨-, -, e0, e1, e2, -⟩ := idx_facts t
  show V m c main_v9 ((((cfgM m hO).win 1).blk t).view.emb (ix3 (0 : Fin 1) (0 : Fin 1) i)) = V m c main_v9 (ix3 (row m hO t) (0 : Fin 1) i)
  refine congrArg (V m c main_v9) (funext fun a => Fin.ext ?_)
  match a with
  | ⟨0, _⟩ => show cc0_transform_2 (grid0.coords t) (0 : Fin 3) * 1 + 1 * 0 = t.val; rw [e0]; omega
  | ⟨1, _⟩ => show cc0_transform_2 (grid0.coords t) (1 : Fin 3) * 1 + 1 * 0 = 0; rw [e1]
  | ⟨2, _⟩ => show cc0_transform_2 (grid0.coords t) (2 : Fin 3) * 1024 + 1 * i.val = i.val; rw [e2]; omega

theorem blk2_apply (hO : Ok m) (c : Dev nD) (t : Fin (cfgM m hO).N) (i : Fin 1024) :
    blk2 m hO c t (ix3 (0 : Fin 1) (0 : Fin 1) i) = arr2 m c (ix3 (row m hO t) (0 : Fin 1) i) := by
  obtain ⟨-, -, -, -, -, e0, e1, e2, -⟩ := idx_facts t
  show V m c main_v17 ((((cfgM m hO).win 2).blk t).view.emb (ix3 (0 : Fin 1) (0 : Fin 1) i)) = V m c main_v17 (ix3 (row m hO t) (0 : Fin 1) i)
  refine congrArg (V m c main_v17) (funext fun a => Fin.ext ?_)
  match a with
  | ⟨0, _⟩ => show cc0_transform_3 (grid0.coords t) (0 : Fin 3) * 1 + 1 * 0 = t.val; rw [e0]; omega
  | ⟨1, _⟩ => show cc0_transform_3 (grid0.coords t) (1 : Fin 3) * 1 + 1 * 0 = 0; rw [e1]
  | ⟨2, _⟩ => show cc0_transform_3 (grid0.coords t) (2 : Fin 3) * 1024 + 1 * i.val = i.val; rw [e2]; omega

theorem blk3_apply (hO : Ok m) (c : Dev nD) (t : Fin (cfgM m hO).N) (j : Fin 128) :
    blk3 m hO c t (ix3 (0 : Fin 1) (0 : Fin 1) j) = arr3 m c (ix3 (row m hO t) (0 : Fin 1) j) := by
  obtain ⟨-, -, -, -, -, -, -, -, e0, e1, e2, -⟩ := idx_facts t
  show V m c main_v25 ((((cfgM m hO).win 3).blk t).view.emb (ix3 (0 : Fin 1) (0 : Fin 1) j)) = V m c main_v25 (ix3 (row m hO t) (0 : Fin 1) j)
  refine congrArg (V m c main_v25) (funext fun a => Fin.ext ?_)
  match a with
  | ⟨0, _⟩ => show cc0_transform_4 (grid0.coords t) (0 : Fin 3) * 1 + 1 * 0 = t.val; rw [e0]; omega
  | ⟨1, _⟩ => show cc0_transform_4 (grid0.coords t) (1 : Fin 3) * 1 + 1 * 0 = 0; rw [e1]
  | ⟨2, _⟩ => show cc0_transform_4 (grid0.coords t) (2 : Fin 3) * 128 + 1 * j.val = j.val; rw [e2]; omega

theorem blk4_apply (hO : Ok m) (c : Dev nD) (t : Fin (cfgM m hO).N) (i : Fin 1024) (j : Fin 128) :
    blk4 m hO c t (ix2 i j) = arr4 m c (ix2 i j) := by
  obtain ⟨-, -, -, -, -, -, -, -, -, -, -, e0, e1, -⟩ := idx_facts t
  show V m c main_v34 ((((cfgM m hO).win 4).blk t).view.emb (ix2 i j)) = V m c main_v34 (ix2 i j)
  refine congrArg (V m c main_v34) (funext fun a => Fin.ext ?_)
  match a with
  | ⟨0, _⟩ => show cc0_transform_5 (grid0.coords t) (0 : Fin 2) * 1024 + 1 * i.val = i.val; rw [e0]; omega
  | ⟨1, _⟩ => show cc0_transform_5 (grid0.coords t) (1 : Fin 2) * 128 + 1 * j.val = j.val; rw [e1]; omega

/-! ## The output window: where a block sits in the result, and that the blocks cover it -/

/-- Row `r` of point `t`'s block is row `t · 128 + r` of the `[4096, 256]` result. -/
abbrev orow (hO : Ok m) (t : Fin (cfgM m hO).N) (r : Fin 128) : Fin 4096 :=
  ⟨t.val * 128 + r.val, by have := t.isLt.trans_eq (N_eq m hO); omega⟩

theorem out_emb (hO : Ok m) (t : Fin (cfgM m hO).N) (r : Fin 128) (b : Fin 256) :
    (((cfgM m hO).win 5).blk t).view.emb (ix2 r b) = (ix2 (orow m hO t r) b : S4096x256.Idx) := by
  obtain ⟨-, -, -, -, -, -, -, -, -, -, -, -, -, e0, e1⟩ := idx_facts t
  refine funext fun a => Fin.ext ?_
  match a with
  | ⟨0, _⟩ => show cc0_transform_6 (grid0.coords t) (0 : Fin 2) * 128 + 1 * r.val = t.val * 128 + r.val; rw [e0]; omega
  | ⟨1, _⟩ => show cc0_transform_6 (grid0.coords t) (1 : Fin 2) * 256 + 1 * b.val = b.val; rw [e1]; omega

/-- Point `t`'s block of any contents `G` of the result array, read at `(r, b)`. -/
theorem out_read (hO : Ok m) (t : Fin (cfgM m hO).N) (G : Vec F S4096x256 .f32) (r : Fin 128) (b : Fin 256) :
    (((cfgM m hO).win 5).blk t).view.read (Elt F) G (ix2 r b) = G (ix2 (orow m hO t r) b) := by
  show G ((((cfgM m hO).win 5).blk t).view.emb (ix2 r b)) = G (ix2 (orow m hO t r) b)
  rw [out_emb]

/-- An index of the result is in point `t`'s block iff its row is one of the block's 128. -/
theorem out_mem (hO : Ok m) (t : Fin (cfgM m hO).N) (i : S4096x256.Idx) :
    i ∈ (((cfgM m hO).win 5).blk t).view.set ↔ t.val * 128 ≤ (i 0).val ∧ (i 0).val < t.val * 128 + 128 := by
  obtain ⟨-, -, -, -, -, -, -, -, -, -, -, -, -, e0, e1⟩ := idx_facts t
  have hs : i ∈ (((cfgM m hO).win 5).blk t).view.set ↔ i ∈ (((cfgM m hO).win 5).rect t).set :=
    Finset.ext_iff.mp (View.set_slice_whole main_v35 (((cfgM m hO).win 5).rect t)) i
  refine (hs.trans Rect.mem_set_unit).trans ?_
  constructor
  · intro h
    have h0 : cc0_transform_6 (grid0.coords t) (0 : Fin 2) * 128 ≤ (i 0).val ∧ (i 0).val < cc0_transform_6 (grid0.coords t) (0 : Fin 2) * 128 + 128 := h (0 : Fin 2)
    rw [e0] at h0
    exact h0
  · intro h a
    match a with
    | ⟨0, _⟩ => show cc0_transform_6 (grid0.coords t) (0 : Fin 2) * 128 ≤ (i 0).val ∧ (i 0).val < cc0_transform_6 (grid0.coords t) (0 : Fin 2) * 128 + 128; rw [e0]; exact h
    | ⟨1, _⟩ => show cc0_transform_6 (grid0.coords t) (1 : Fin 2) * 256 ≤ (i 1).val ∧ (i 1).val < cc0_transform_6 (grid0.coords t) (1 : Fin 2) * 256 + 256; rw [e1]; have := (i 1).isLt; have h1 : (i 1).val < 256 := this; omega

/-- The output's block index moves at every step, so every point writes its block back. -/
theorem out_flush (hO : Ok m) (t : Fin (cfgM m hO).N) : ((cfgM m hO).win 5).flush t = true := by
  have hN0 : grid0.N = 32 := N_0
  have ht : t.val < 32 := t.isLt.trans_eq (N_eq m hO)
  unfold Window.flush
  rw [Bool.and_eq_true]
  refine ⟨rfl, ?_⟩
  rw [Bool.or_eq_true, decide_eq_true_eq, decide_eq_true_eq]
  by_cases hl : t.val + 1 = grid0.N
  · exact Or.inl hl
  · refine Or.inr ⟨by show t.val + 1 < grid0.N; omega, fun he => ?_⟩
    have hlt : t.val + 1 < grid0.N := by omega
    have e := congrFun he (0 : Fin 2)
    have a1 := (idx_facts ⟨t.val + 1, hlt⟩).2.2.2.2.2.2.2.2.2.2.2.2.2.1
    have a0 := (idx_facts t).2.2.2.2.2.2.2.2.2.2.2.2.2.1
    have e' : cc0_transform_6 (grid0.coords ⟨t.val + 1, hlt⟩) (0 : Fin 2) = cc0_transform_6 (grid0.coords t) (0 : Fin 2) := e
    rw [a1, a0] at e'
    exact absurd e' (by show ¬ (t.val + 1 = t.val); omega)

/-- THE COVER: every index of the result lies in the block of the point its row's group of 128 names. -/
theorem out_cover (hO : Ok m) (i : S4096x256.Idx) :
    ∃ t : Fin (cfgM m hO).N, ((cfgM m hO).win 5).flush t = true ∧ i ∈ (((cfgM m hO).win 5).blk t).view.set := by
  have hi : (i 0).val < 4096 := (i 0).isLt
  refine ⟨⟨(i 0).val / 128, by rw [N_eq m hO]; omega⟩, out_flush m hO _, ?_⟩
  rw [out_mem]
  show (i 0).val / 128 * 128 ≤ (i 0).val ∧ (i 0).val < (i 0).val / 128 * 128 + 128
  omega

end Cert.KernelIdeal.Hand

end
-- ==== Proof.KIdeal.Final.lean ====
/-
  From the blocks to the flat result, over the extended reals.

  The region's result array is [4096, 256], written back in 32 blocks of 128 rows; the one host line after the region
  reshapes it flat, task-major: entry n of the flat result is entry (n / 256, n % 256) of the table. If the block the
  body leaves at every grid point t is, row r and column b, the specification's out (t·128 + r) b, then what each point
  writes back is its block of the specification's table; the blocks cover the table, so the table is the
  specification's; and the flat reshape of it is the specification's result, entry by entry.
-/
import proofs.«427848_j22419729285374_3_alg».proof.Proof.KIdeal.Cert
import proofs.«427848_j22419729285374_3_alg».proof.Proof.KIdeal.Blocks
import proofs.«427848_j22419729285374_3_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ)

/-- The flat reshape `[4096, 256] → [1048576]` read at `n`: the table at `(n / 256, n % 256)`. -/
theorem flat_apply (X : Vec Ideal S4096x256 .f32) (n : S1048576.Idx) :
    shapeCast S1048576 X shapeCasts_S4096x256_S1048576 n
      = X (ix2 (⟨(n 0).val / 256, by have h : (n 0).val < 1048576 := (n 0).isLt; omega⟩ : Fin 4096)
              (⟨(n 0).val % 256, Nat.mod_lt _ (by norm_num)⟩ : Fin 256)) :=
  shapeCast_apply X shapeCasts_S4096x256_S1048576 n _ (by
    rewrite [Shape.rowMajor_val_two, Shape.rowMajor_val_one]
    show (n 0).val / 256 * 256 + (n 0).val % 256 = (n 0).val
    omega)

/-! ## The specification's values, as contents of the result arrays -/

/-- The specification's `[4096, 256]` table of outputs: entry `(k, b)` is `out k b` of the launch arguments. -/
abbrev specArr (c : Dev nD) : Vec Ideal S4096x256 .f32 := fun y =>
  Cert.Spec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨(y 0).val, idx2_lt0 y⟩ ⟨(y 1).val, idx2_lt1 y⟩

/-- WHAT POINT `t` WRITES BACK is block `t` of the specification's table, once the body's block is the specification's
    row by row (the window is uncut: what is written back is what the body left). -/
theorem flushed_eq (hO : Ok m) (hW : AllWords m hO) (c : Dev nD)
    (hval : ∀ (t : Fin (cfgM m hO).N) (r : Fin 128) (b : Fin 256), outsAt m hO hW c t (ix2 r b)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (orow m hO t r) b)
    (t : Fin (cfgM m hO).N) :
    (dats m hO hW 0 c).flushed 5 t = (((cfgM m hO).win 5).blk t).view.read (Elt Ideal) (specArr m c) := by
  show ((cfgM m hO).win 5).cut (grid0.coords t) ((dats m hO hW 0 c).after 5 t) = _
  rw [after5]
  refine funext fun (y : S128x256.Idx) => ?_
  obtain ⟨r, b, rfl⟩ : ∃ (r : Fin 128) (b : Fin 256), y = ix2 r b := ⟨y 0, y 1, eq_ix2 y⟩
  refine Eq.trans ?_ (out_read m hO t (specArr m c) r b).symm
  exact hval t r b

/-- THE RESULT ARRAY after the run: the 32 blocks cover it, so it holds the specification's table. -/
theorem final (hO : Ok m) (hW : AllWords m hO) (c : Dev nD)
    (hval : ∀ (t : Fin (cfgM m hO).N) (r : Fin 128) (b : Fin 256), outsAt m hO hW c t (ix2 r b)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (orow m hO t r) b) :
    (dats m hO hW 0 c).arrAt 5 (cfgM m hO).N = specArr m c :=
  (dats m hO hW 0 c).arrAt_eq_of_cover 5 (specArr m c) (fun t _ => flushed_eq m hO hW c hval t) (out_cover m hO)

/-- THE FLAT RESULT after the last host line is the specification's, once each output block is. -/
theorem final_of (hO : Ok m) (hW : AllWords m hO) (c : Dev nD)
    (hval : ∀ (t : Fin (cfgM m hO).N) (r : Fin 128) (b : Fin 256), outsAt m hO hW c t (ix2 r b)
      = Cert.Spec.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (orow m hO t r) b) :
    Pipeline.afterTail pcfgs (fun _ => adm m hO) (dats m hO hW) 0 (V0 m) [hostOps1] c main_v36
      = Cert.Spec.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (tail_result m hO hW c).trans ?_
  rw [final m hO hW c hval]
  funext n
  refine (flat_apply (specArr m c) n).trans ?_
  rfl

end Cert.KernelIdeal.Hand

end
-- ==== Proof.KIdeal.RowRead.lean ====
/-
  WHAT ONE OF THE KERNEL'S OWN COPIES DELIVERS.

  The body copies, for a word `v` of the task-id table, one row of the weight bank `[10000, 8, 1024]` into its scratch:
  the bank sliced to the one-row rectangle at offsets `[n, 0, 0]` (unit strides, sizes `[1, 8, 1024]`), with the leading
  axis of size one squeezed away. Read through that view, element `(o, h)` of the `[8, 1024]` row is the bank's element
  `(n, o, h)`: the squeeze matches `(o, h)` with `(0, o, h)` (same row-major position), the rectangle places a
  coordinate `j` at `off + 1 · j`, and the whole bank's view places every index at itself. The transfer moves the source
  view's elements as they are, so this is the payload the copy lands. Stated for any offset vector of that form and any
  in-bounds evidence, so that it serves each of the 128 copies.
-/
import proofs.«427848_j22419729285374_3_alg».proof.Proof.KIdeal.Tables
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.ValueIdx

variable {F : FTy → Type} [FloatOps F]

/-- A row offset `[n, 0, 0]` whose one-row rectangle lies inside the bank names a row of the bank. -/
theorem row_lt {n : Nat} {off : Fin 3 → Nat} (hoff : off = ![n, 0, 0])
    (inb : ∀ a, off a + S1x8x1024.size a ≤ S10000x8x1024.size a) : n < 10000 := by
  subst hoff
  have h0 := inb 0
  have e : (![n, 0, 0] : Fin 3 → Nat) 0 + S1x8x1024.size 0 = n + 1 := rfl
  have e' : S10000x8x1024.size 0 = 10000 := rfl
  omega

/-- THE ROW A COPY READS: through the squeezed one-row slice at offsets `[n, 0, 0]`, element `(o, h)` is the bank's
    element `(n, o, h)`. -/
theorem bank_row_read (c : Dev nD) (fh : Buf (Elt F) (hbM.view.loc (c : Thread nD τ))) {n : Nat} (off : Fin 3 → Nat)
    (hoff : off = ![n, 0, 0]) (inb : ∀ a, off a + S1x8x1024.size a ≤ S10000x8x1024.size a) (o : Fin 8) (h : Fin 1024) :
    ReadAs.same.apply (((hbM.slice (Rect.unit (s := S10000x8x1024) off S1x8x1024.size inb) (fun _ => rfl)).squeeze S8x1024
        squeezes_S1x8x1024_S8x1024).view.read (Elt F) fh) (ix2 o h)
      = fh (ix3 ⟨n, row_lt hoff inb⟩ o h) := by
  rw [ReadAs.apply_same, View.read_apply]
  have hre : Shape.reshapeEquiv (squeezes_S1x8x1024_S8x1024).numel_eq (ix2 o h)
      = Fin.cons ⟨0, Nat.one_pos⟩ (ix2 o h) := Shape.reshapeEquiv_cons_one _ _
  simp only [Memref.view_squeeze, Memref.view_slice, Memref.view_whole, View.emb_reshape, View.emb_slice,
    Function.Embedding.trans_apply, Equiv.coe_toEmbedding]
  have hemb : (Rect.unit (s := S10000x8x1024) off ![1, 8, 1024] inb).emb (Fin.cons ⟨0, Nat.one_pos⟩ (ix2 o h))
      = ix3 ⟨n, row_lt hoff inb⟩ o h := by
    subst hoff
    funext a
    refine Fin.ext ?_
    match a with
    | ⟨0, _⟩ => exact Nat.add_zero n
    | ⟨1, _⟩ => show 0 + 1 * o.val = o.val; omega
    | ⟨2, _⟩ => show 0 + 1 * h.val = h.val; omega
  rw [hre, hemb]
  rfl

/-! ### The word a copy's row number is read from -/

/-- An offset `[n]` whose one-word rectangle lies inside the table names a word of the table. -/
theorem tbl_lt {off : Fin 1 → Nat} {n : Nat} (hn : off 0 = n) (inb : ∀ a, off a + S1.size a ≤ S4096.size a) : n < 4096 := by
  have h0 := inb 0
  have e : S1.size 0 = 1 := rfl
  have e' : S4096.size 0 = 4096 := rfl
  omega

/-- THE WORD THE BODY READS: through the one-word rectangle at offset `[n]` of the whole table, the one element read is
    the table's word `n` (the rectangle places its one coordinate `0` at `off + 1 · 0`). -/
theorem table_read (c : Dev nD) (xt : Buf (Elt F) (tbM.view.loc (c : Thread nD τ))) (off : Fin 1 → Nat) {n : Nat}
    (hn : off 0 = n) (inb : ∀ a, off a + S1.size a ≤ S4096.size a) :
    (tbM.view.readAt (Elt F) (Rect.unit (s := S4096) off S1.size inb).toLoadRect xt
        (Shape.Idx.first (numel1_S1.symm ▸ Nat.one_pos)) : BitVec 32)
      = (xt : IVec S4096 32) (ix1 ⟨n, tbl_lt hn inb⟩) := by
  rw [View.readAt_apply, View.read_apply, cast_eq]
  refine congrArg xt ?_
  funext a
  refine Fin.ext ?_
  match a with
  | ⟨0, _⟩ => show off 0 + 1 * 0 = n; omega

/-- The position of task `t` of group `a` in the table, as the body computes it on 32-bit words: `a · 128 + t`, with no
    wrap (32 groups of 128 tasks). -/
theorem word_index (a t : Nat) (ha : a < 32) (ht : t < 128) :
    (Scalar.indexCast (Scalar.addi (Scalar.muli (BitVec.ofNat 32 a) 128#32) (BitVec.ofNat 32 t))).toNat = a * 128 + t := by
  simp only [Scalar.indexCast, Scalar.addi, Scalar.muli, IntOp.addi, IntOp.muli, BitVec.toNat_add, BitVec.toNat_mul,
    BitVec.toNat_ofNat]
  omega

/-- The table's word at position `i · 128 + r`, read unsigned, names a row of the bank whenever the one-row rectangle at
    the word the body read there lies inside the bank. -/
theorem copy_row_lt (c : Dev nD) (i : grid0.Coords) (xt : Buf (Elt F) (tbM.view.loc (c : Thread nD τ))) (r : Fin 128)
    (off1 : Fin 1 → Nat) (h1 : off1 0 = (i 0).val * 128 + r.val) (inb1 : ∀ a, off1 a + S1.size a ≤ S4096.size a)
    (w : BitVec 32)
    (hw : w = tbM.view.readAt (Elt F) (Rect.unit (s := S4096) off1 S1.size inb1).toLoadRect xt
        (Shape.Idx.first (numel1_S1.symm ▸ Nat.one_pos)))
    (off2 : Fin 3 → Nat) (h2 : off2 = ![w.toNat, 0, 0])
    (inb2 : ∀ a, off2 a + S1x8x1024.size a ≤ S10000x8x1024.size a) :
    ((xt : IVec S4096 32) (ix1 ⟨(i 0).val * 128 + r.val, tbl_lt h1 inb1⟩)).toNat < 10000 := by
  have hlt : w.toNat < 10000 := row_lt h2 inb2
  have hw' : w = (xt : IVec S4096 32) (ix1 ⟨(i 0).val * 128 + r.val, tbl_lt h1 inb1⟩) :=
    hw.trans (table_read c xt off1 h1 inb1)
  rw [hw'] at hlt
  exact hlt

/-- THE PAYLOAD OF COPY `r` AT GROUP `i`: the word `w` read at table position `i · 128 + r` names the bank row, and
    element `(o, h)` of what the copy moves is the bank's element `(w, o, h)`, `w` being the table's word at that
    position read unsigned. The two offset vectors are abstract, their values hypotheses, so that one statement serves
    every copy. -/
theorem copy_payload (c : Dev nD) (i : grid0.Coords) (xt : Buf (Elt F) (tbM.view.loc (c : Thread nD τ)))
    (fh : Buf (Elt F) (hbM.view.loc (c : Thread nD τ))) (r : Fin 128)
    (off1 : Fin 1 → Nat) (h1 : off1 0 = (i 0).val * 128 + r.val) (inb1 : ∀ a, off1 a + S1.size a ≤ S4096.size a)
    (w : BitVec 32)
    (hw : w = tbM.view.readAt (Elt F) (Rect.unit (s := S4096) off1 S1.size inb1).toLoadRect xt
        (Shape.Idx.first (numel1_S1.symm ▸ Nat.one_pos)))
    (off2 : Fin 3 → Nat) (h2 : off2 = ![w.toNat, 0, 0])
    (inb2 : ∀ a, off2 a + S1x8x1024.size a ≤ S10000x8x1024.size a) (o : Fin 8) (h : Fin 1024) :
    ReadAs.same.apply (((hbM.slice (Rect.unit (s := S10000x8x1024) off2 S1x8x1024.size inb2) (fun _ => rfl)).squeeze S8x1024
        squeezes_S1x8x1024_S8x1024).view.read (Elt F) fh) (ix2 o h)
      = fh (ix3 ⟨((xt : IVec S4096 32) (ix1 ⟨(i 0).val * 128 + r.val, tbl_lt h1 inb1⟩)).toNat,
          copy_row_lt c i xt r off1 h1 inb1 w hw off2 h2 inb2⟩ o h) := by
  have hw' : w = (xt : IVec S4096 32) (ix1 ⟨(i 0).val * 128 + r.val, tbl_lt h1 inb1⟩) :=
    hw.trans (table_read c xt off1 h1 inb1)
  subst hw'
  exact bank_row_read c fh off2 h2 inb2 o h

end Cert.KernelIdeal.Hand

end
-- ==== Proof.KIdeal.CopyTable.lean ====
import proofs.«427848_j22419729285374_3_alg».proof.Proof.KIdeal.Run
import proofs.«427848_j22419729285374_3_alg».proof.Proof.KIdeal.RowRead

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable {F : FTy → Type} [FloatOps F]

/-- The family of the 128 delivered rows, as the run names them. -/
abbrev copies (c : Dev nD) (i : grid0.Coords) (xt : Buf (Elt F) (tbM.view.loc (c : Thread nD τ))) (fh : Buf (Elt F) (hbM.view.loc (c : Thread nD τ))) (hw : Words c i xt) :
    Fin 128 → S8x1024.Idx → Elt F .f32 := rowFam (bodyRun.sl.dma1 c i xt fh hw) (bodyRun.sl.dma2 c i xt fh hw) (bodyRun.sl.dma3 c i xt fh hw) (bodyRun.sl.dma4 c i xt fh hw) (bodyRun.sl.dma5 c i xt fh hw) (bodyRun.sl.dma6 c i xt fh hw) (bodyRun.sl.dma7 c i xt fh hw) (bodyRun.sl.dma8 c i xt fh hw) (bodyRun.sl.dma9 c i xt fh hw) (bodyRun.sl.dma10 c i xt fh hw) (bodyRun.sl.dma11 c i xt fh hw) (bodyRun.sl.dma12 c i xt fh hw) (bodyRun.sl.dma13 c i xt fh hw) (bodyRun.sl.dma14 c i xt fh hw) (bodyRun.sl.dma15 c i xt fh hw) (bodyRun.sl.dma16 c i xt fh hw) (bodyRun.sl.dma17 c i xt fh hw) (bodyRun.sl.dma18 c i xt fh hw) (bodyRun.sl.dma19 c i xt fh hw) (bodyRun.sl.dma20 c i xt fh hw) (bodyRun.sl.dma21 c i xt fh hw) (bodyRun.sl.dma22 c i xt fh hw) (bodyRun.sl.dma23 c i xt fh hw) (bodyRun.sl.dma24 c i xt fh hw) (bodyRun.sl.dma25 c i xt fh hw) (bodyRun.sl.dma26 c i xt fh hw) (bodyRun.sl.dma27 c i xt fh hw) (bodyRun.sl.dma28 c i xt fh hw) (bodyRun.sl.dma29 c i xt fh hw) (bodyRun.sl.dma30 c i xt fh hw) (bodyRun.sl.dma31 c i xt fh hw) (bodyRun.sl.dma32 c i xt fh hw) (bodyRun.sl.dma33 c i xt fh hw) (bodyRun.sl.dma34 c i xt fh hw) (bodyRun.sl.dma35 c i xt fh hw) (bodyRun.sl.dma36 c i xt fh hw) (bodyRun.sl.dma37 c i xt fh hw) (bodyRun.sl.dma38 c i xt fh hw) (bodyRun.sl.dma39 c i xt fh hw) (bodyRun.sl.dma40 c i xt fh hw) (bodyRun.sl.dma41 c i xt fh hw) (bodyRun.sl.dma42 c i xt fh hw) (bodyRun.sl.dma43 c i xt fh hw) (bodyRun.sl.dma44 c i xt fh hw) (bodyRun.sl.dma45 c i xt fh hw) (bodyRun.sl.dma46 c i xt fh hw) (bodyRun.sl.dma47 c i xt fh hw) (bodyRun.sl.dma48 c i xt fh hw) (bodyRun.sl.dma49 c i xt fh hw) (bodyRun.sl.dma50 c i xt fh hw) (bodyRun.sl.dma51 c i xt fh hw) (bodyRun.sl.dma52 c i xt fh hw) (bodyRun.sl.dma53 c i xt fh hw) (bodyRun.sl.dma54 c i xt fh hw) (bodyRun.sl.dma55 c i xt fh hw) (bodyRun.sl.dma56 c i xt fh hw) (bodyRun.sl.dma57 c i xt fh hw) (bodyRun.sl.dma58 c i xt fh hw) (bodyRun.sl.dma59 c i xt fh hw) (bodyRun.sl.dma60 c i xt fh hw) (bodyRun.sl.dma61 c i xt fh hw) (bodyRun.sl.dma62 c i xt fh hw) (bodyRun.sl.dma63 c i xt fh hw) (bodyRun.sl.dma64 c i xt fh hw) (bodyRun.sl.dma65 c i xt fh hw) (bodyRun.sl.dma66 c i xt fh hw) (bodyRun.sl.dma67 c i xt fh hw) (bodyRun.sl.dma68 c i xt fh hw) (bodyRun.sl.dma69 c i xt fh hw) (bodyRun.sl.dma70 c i xt fh hw) (bodyRun.sl.dma71 c i xt fh hw) (bodyRun.sl.dma72 c i xt fh hw) (bodyRun.sl.dma73 c i xt fh hw) (bodyRun.sl.dma74 c i xt fh hw) (bodyRun.sl.dma75 c i xt fh hw) (bodyRun.sl.dma76 c i xt fh hw) (bodyRun.sl.dma77 c i xt fh hw) (bodyRun.sl.dma78 c i xt fh hw) (bodyRun.sl.dma79 c i xt fh hw) (bodyRun.sl.dma80 c i xt fh hw) (bodyRun.sl.dma81 c i xt fh hw) (bodyRun.sl.dma82 c i xt fh hw) (bodyRun.sl.dma83 c i xt fh hw) (bodyRun.sl.dma84 c i xt fh hw) (bodyRun.sl.dma85 c i xt fh hw) (bodyRun.sl.dma86 c i xt fh hw) (bodyRun.sl.dma87 c i xt fh hw) (bodyRun.sl.dma88 c i xt fh hw) (bodyRun.sl.dma89 c i xt fh hw) (bodyRun.sl.dma90 c i xt fh hw) (bodyRun.sl.dma91 c i xt fh hw) (bodyRun.sl.dma92 c i xt fh hw) (bodyRun.sl.dma93 c i xt fh hw) (bodyRun.sl.dma94 c i xt fh hw) (bodyRun.sl.dma95 c i xt fh hw) (bodyRun.sl.dma96 c i xt fh hw) (bodyRun.sl.dma97 c i xt fh hw) (bodyRun.sl.dma98 c i xt fh hw) (bodyRun.sl.dma99 c i xt fh hw) (bodyRun.sl.dma100 c i xt fh hw) (bodyRun.sl.dma101 c i xt fh hw) (bodyRun.sl.dma102 c i xt fh hw) (bodyRun.sl.dma103 c i xt fh hw) (bodyRun.sl.dma104 c i xt fh hw) (bodyRun.sl.dma105 c i xt fh hw) (bodyRun.sl.dma106 c i xt fh hw) (bodyRun.sl.dma107 c i xt fh hw) (bodyRun.sl.dma108 c i xt fh hw) (bodyRun.sl.dma109 c i xt fh hw) (bodyRun.sl.dma110 c i xt fh hw) (bodyRun.sl.dma111 c i xt fh hw) (bodyRun.sl.dma112 c i xt fh hw) (bodyRun.sl.dma113 c i xt fh hw) (bodyRun.sl.dma114 c i xt fh hw) (bodyRun.sl.dma115 c i xt fh hw) (bodyRun.sl.dma116 c i xt fh hw) (bodyRun.sl.dma117 c i xt fh hw) (bodyRun.sl.dma118 c i xt fh hw) (bodyRun.sl.dma119 c i xt fh hw) (bodyRun.sl.dma120 c i xt fh hw) (bodyRun.sl.dma121 c i xt fh hw) (bodyRun.sl.dma122 c i xt fh hw) (bodyRun.sl.dma123 c i xt fh hw) (bodyRun.sl.dma124 c i xt fh hw) (bodyRun.sl.dma125 c i xt fh hw) (bodyRun.sl.dma126 c i xt fh hw) (bodyRun.sl.dma127 c i xt fh hw) (bodyRun.sl.dma128 c i xt fh hw)

set_option maxHeartbeats 40000000 in
/-- Row r of the family is the bank's row named by word r of the group. -/
theorem copies_apply (c : Dev nD) (i : grid0.Coords) (xt : Buf (Elt F) (tbM.view.loc (c : Thread nD τ))) (fh : Buf (Elt F) (hbM.view.loc (c : Thread nD τ))) (hw : Words c i xt) :
    ∀ (r : Fin 128) (o : Fin 8) (h : Fin 1024), ∃ (h1 : (i 0).val * 128 + r.val < 4096) (h2 : ((xt : IVec S4096 32) (ix1 ⟨(i 0).val * 128 + r.val, h1⟩)).toNat < 10000),
      copies c i xt fh hw r (ix2 o h) = (fh : FVec F S10000x8x1024 .f32) (ix3 ⟨((xt : IVec S4096 32) (ix1 ⟨(i 0).val * 128 + r.val, h1⟩)).toNat, h2⟩ o h)
  | ⟨0, _⟩, o, h => ⟨_, _, copy_payload c i xt fh 0 (k0_off1 i) (word_index (i 0).val 0 (i 0).isLt (by decide)) (k0_off1_inb i) _ rfl (k0_off2 _) rfl (k0_off2_inb _ hw.h1) o h⟩
  | ⟨1, _⟩, o, h => ⟨_, _, copy_payload c i xt fh 1 (k0_off3 i) (word_index (i 0).val 1 (i 0).isLt (by decide)) (k0_off3_inb i) _ rfl (k0_off4 _) rfl (k0_off4_inb _ hw.h2) o h⟩
  | ⟨2, _⟩, o, h => ⟨_, _, copy_payload c i xt fh 2 (k0_off5 i) (word_index (i 0).val 2 (i 0).isLt (by decide)) (k0_off5_inb i) _ rfl (k0_off6 _) rfl (k0_off6_inb _ hw.h3) o h⟩
  | ⟨3, _⟩, o, h => ⟨_, _, copy_payload c i xt fh 3 (k0_off7 i) (word_index (i 0).val 3 (i 0).isLt (by decide)) (k0_off7_inb i) _ rfl (k0_off8 _) rfl (k0_off8_inb _ hw.h4) o h⟩
  | ⟨4, _⟩, o, h => ⟨_, _, copy_payload c i xt fh 4 (k0_off9 i) (word_index (i 0).val 4 (i 0).isLt (by decide)) (k0_off9_inb i) _ rfl (k0_off10 _) rfl (k0_off10_inb _ hw.h5) o h⟩
  | ⟨5, _⟩, o, h => ⟨_, _, copy_payload c i xt fh 5 (k0_off11 i) (word_index (i 0).val 5 (i 0).isLt (by decide)) (k0_off11_inb i) _ rfl (k0_off12 _) rfl (k0_off12_inb _ hw.h6) o h⟩
  | ⟨6, _⟩, o, h => ⟨_, _, copy_payload c i xt fh 6 (k0_off13 i) (word_index (i 0).val 6 (i 0).isLt (by decide)) (k0_off13_inb i) _ rfl (k0_off14 _) rfl (k0_off14_inb _ hw.h7) o h⟩
  | ⟨7, _⟩, o, h => ⟨_, _, copy_payload c i xt fh 7 (k0_off15 i) (word_index (i 0).val 7 (i 0).isLt (by decide)) (k0_off15_inb i) _ rfl (k0_off16 _) rfl (k0_off16_inb _ hw.h8) o h⟩
  | ⟨8, _⟩, o, h => ⟨_, _, copy_payload c i xt fh 8 (k0_off17 i) (word_index (i 0).val 8 (i 0).isLt (by decide)) (k0_off17_inb i) _ rfl (k0_off18 _) rfl (k0_off18_inb _ hw.h9) o h⟩
  | ⟨9, _⟩, o, h => ⟨_, _, copy_payload c i xt fh 9 (k0_off19 i) (word_index (i 0).val 9 (i 0).isLt (by decide)) (k0_off19_inb i) _ rfl (k0_off20 _) rfl (k0_off20_inb _ hw.h10) o h⟩
  | ⟨10, _⟩, o, h => ⟨_, _, copy_payload c i xt fh 10 (k0_off21 i) (word_index (i 0).val 10 (i 0).isLt (by decide)) (k0_off21_inb i) _ rfl (k0_off22 _) rfl (k0_off22_inb _ hw.h11) o h⟩
  | ⟨11, _⟩, o, h => ⟨_, _, copy_payload c i xt fh 11 (k0_off23 i) (word_index (i 0).val 11 (i 0).isLt (by decide)) (k0_off23_inb i) _ rfl (k0_off24 _) rfl (k0_off24_inb _ hw.h12) o h⟩
  | ⟨12, _⟩, o, h => ⟨_, _, copy_payload c i xt fh 12 (k0_off25 i) (word_index (i 0).val 12 (i 0).isLt (by decide)) (k0_off25_inb i) _ rfl (k0_off26 _) rfl (k0_off26_inb _ hw.h13) o h⟩
  | ⟨13, _⟩, o, h => ⟨_, _, copy_payload c i xt fh 13 (k0_off27 i) (word_index (i 0).val 13 (i 0).isLt (by decide)) (k0_off27_inb i) _ rfl (k0_off28 _) rfl (k0_off28_inb _ hw.h14) o h⟩
  | ⟨14, _⟩, o, h => ⟨_, _, copy_payload c i xt fh 14 (k0_off29 i) (word_index (i 0).val 14 (i 0).isLt (by decide)) (k0_off29_inb i) _ rfl (k0_off30 _) rfl (k0_off30_inb _ hw.h15) o h⟩
  | ⟨15, _⟩, o, h => ⟨_, _, copy_payload c i xt fh 15 (k0_off31 i) (word_index (i 0).val 15 (i 0).isLt (by decide)) (k0_off31_inb i) _ rfl (k0_off32 _) rfl (k0_off32_inb _ hw.h16) o h⟩
  | ⟨16, _⟩, o, h => ⟨_, _, copy_payload c i xt fh 16 (k0_off33 i) (word_index (i 0).val 16 (i 0).isLt (by decide)) (k0_off33_inb i) _ rfl (k0_off34 _) rfl (k0_off34_inb _ hw.h17) o h⟩
  | ⟨17, _⟩, o, h => ⟨_, _, copy_payload c i xt fh 17 (k0_off35 i) (word_index (i 0).val 17 (i 0).isLt (by decide)) (k0_off35_inb i) _ rfl (k0_off36 _) rfl (k0_off36_inb _ hw.h18) o h⟩
  | ⟨18, _⟩, o, h => ⟨_, _, copy_payload c i xt fh 18 (k0_off37 i) (word_index (i 0).val 18 (i 0).isLt (by decide)) (k0_off37_inb i) _ rfl (k0_off38 _) rfl (k0_off38_inb _ hw.h19) o h⟩
  | ⟨19, _⟩, o, h => ⟨_, _, copy_payload c i xt fh 19 (k0_off39 i) (word_index (i 0).val 19 (i 0).isLt (by decide)) (k0_off39_inb i) _ rfl (k0_off40 _) rfl (k0_off40_inb _ hw.h20) o h⟩
  | ⟨20, _⟩, o, h => ⟨_, _, copy_payload c i xt fh 20 (k0_off41 i) (word_index (i 0).val 20 (i 0).isLt (by decide)) (k0_off41_inb i) _ rfl (k0_off42 _) rfl (k0_off42_inb _ hw.h21) o h⟩
  | ⟨21, _⟩, o, h => ⟨_, _, copy_payload c i xt fh 21 (k0_off43 i) (word_index (i 0).val 21 (i 0).isLt (by decide)) (k0_off43_inb i) _ rfl (k0_off44 _) rfl (k0_off44_inb _ hw.h22) o h⟩
  | ⟨22, _⟩, o, h => ⟨_, _, copy_payload c i xt fh 22 (k0_off45 i) (word_index (i 0).val 22 (i 0).isLt (by decide)) (k0_off45_inb i) _ rfl (k0_off46 _) rfl (k0_off46_inb _ hw.h23) o h⟩
  | ⟨23, _⟩, o, h => ⟨_, _, copy_payload c i xt fh 23 (k0_off47 i) (word_index (i 0).val 23 (i 0).isLt (by decide)) (k0_off47_inb i) _ rfl (k0_off48 _) rfl (k0_off48_inb _ hw.h24) o h⟩
  | ⟨24, _⟩, o, h => ⟨_, _, copy_payload c i xt fh 24 (k0_off49 i) (word_index (i 0).val 24 (i 0).isLt (by decide)) (k0_off49_inb i) _ rfl (k0_off50 _) rfl (k0_off50_inb _ hw.h25) o h⟩
  | ⟨25, _⟩, o, h => ⟨_, _, copy_payload c i xt fh 25 (k0_off51 i) (word_index (i 0).val 25 (i 0).isLt (by decide)) (k0_off51_inb i) _ rfl (k0_off52 _) rfl (k0_off52_inb _ hw.h26) o h⟩
  | ⟨26, _⟩, o, h => ⟨_, _, copy_payload c i xt fh 26 (k0_off53 i) (word_index (i 0).val 26 (i 0).isLt (by decide)) (k0_off53_inb i) _ rfl (k0_off54 _) rfl (k0_off54_inb _ hw.h27) o h⟩
  | ⟨27, _⟩, o, h => ⟨_, _, copy_payload c i xt fh 27 (k0_off55 i) (word_index (i 0).val 27 (i 0).isLt (by decide)) (k0_off55_inb i) _ rfl (k0_off56 _) rfl (k0_off56_inb _ hw.h28) o h⟩
  | ⟨28, _⟩, o, h => ⟨_, _, copy_payload c i xt fh 28 (k0_off57 i) (word_index (i 0).val 28 (i 0).isLt (by decide)) (k0_off57_inb i) _ rfl (k0_off58 _) rfl (k0_off58_inb _ hw.h29) o h⟩
  | ⟨29, _⟩, o, h => ⟨_, _, copy_payload c i xt fh 29 (k0_off59 i) (word_index (i 0).val 29 (i 0).isLt (by decide)) (k0_off59_inb i) _ rfl (k0_off60 _) rfl (k0_off60_inb _ hw.h30) o h⟩
  | ⟨30, _⟩, o, h => ⟨_, _, copy_payload c i xt fh 30 (k0_off61 i) (word_index (i 0).val 30 (i 0).isLt (by decide)) (k0_off61_inb i) _ rfl (k0_off62 _) rfl (k0_off62_inb _ hw.h31) o h⟩
  | ⟨31, _⟩, o, h => ⟨_, _, copy_payload c i xt fh 31 (k0_off63 i) (word_index (i 0).val 31 (i 0).isLt (by decide)) (k0_off63_inb i) _ rfl (k0_off64 _) rfl (k0_off64_inb _ hw.h32) o h⟩
  | ⟨32, _⟩, o, h => ⟨_, _, copy_payload c i xt fh 32 (k0_off65 i) (word_index (i 0).val 32 (i 0).isLt (by decide)) (k0_off65_inb i) _ rfl (k0_off66 _) rfl (k0_off66_inb _ hw.h33) o h⟩
  | ⟨33, _⟩, o, h => ⟨_, _, copy_payload c i xt fh 33 (k0_off67 i) (word_index (i 0).val 33 (i 0).isLt (by decide)) (k0_off67_inb i) _ rfl (k0_off68 _) rfl (k0_off68_inb _ hw.h34) o h⟩
  | ⟨34, _⟩, o, h => ⟨_, _, copy_payload c i xt fh 34 (k0_off69 i) (word_index (i 0).val 34 (i 0).isLt (by decide)) (k0_off69_inb i) _ rfl (k0_off70 _) rfl (k0_off70_inb _ hw.h35) o h⟩
  | ⟨35, _⟩, o, h => ⟨_, _, copy_payload c i xt fh 35 (k0_off71 i) (word_index (i 0).val 35 (i 0).isLt (by decide)) (k0_off71_inb i) _ rfl (k0_off72 _) rfl (k0_off72_inb _ hw.h36) o h⟩
  | ⟨36, _⟩, o, h => ⟨_, _, copy_payload c i xt fh 36 (k0_off73 i) (word_index (i 0).val 36 (i 0).isLt (by decide)) (k0_off73_inb i) _ rfl (k0_off74 _) rfl (k0_off74_inb _ hw.h37) o h⟩
  | ⟨37, _⟩, o, h => ⟨_, _, copy_payload c i xt fh 37 (k0_off75 i) (word_index (i 0).val 37 (i 0).isLt (by decide)) (k0_off75_inb i) _ rfl (k0_off76 _) rfl (k0_off76_inb _ hw.h38) o h⟩
  | ⟨38, _⟩, o, h => ⟨_, _, copy_payload c i xt fh 38 (k0_off77 i) (word_index (i 0).val 38 (i 0).isLt (by decide)) (k0_off77_inb i) _ rfl (k0_off78 _) rfl (k0_off78_inb _ hw.h39) o h⟩
  | ⟨39, _⟩, o, h => ⟨_, _, copy_payload c i xt fh 39 (k0_off79 i) (word_index (i 0).val 39 (i 0).isLt (by decide)) (k0_off79_inb i) _ rfl (k0_off80 _) rfl (k0_off80_inb _ hw.h40) o h⟩
  | ⟨40, _⟩, o, h => ⟨_, _, copy_payload c i xt fh 40 (k0_off81 i) (word_index (i 0).val 40 (i 0).isLt (by decide)) (k0_off81_inb i) _ rfl (k0_off82 _) rfl (k0_off82_inb _ hw.h41) o h⟩
  | ⟨41, _⟩, o, h => ⟨_, _, copy_payload c i xt fh 41 (k0_off83 i) (word_index (i 0).val 41 (i 0).isLt (by decide)) (k0_off83_inb i) _ rfl (k0_off84 _) rfl (k0_off84_inb _ hw.h42) o h⟩
  | ⟨42, _⟩, o, h => ⟨_, _, copy_payload c i xt fh 42 (k0_off85 i) (word_index (i 0).val 42 (i 0).isLt (by decide)) (k0_off85_inb i) _ rfl (k0_off86 _) rfl (k0_off86_inb _ hw.h43) o h⟩
  | ⟨43, _⟩, o, h => ⟨_, _, copy_payload c i xt fh 43 (k0_off87 i) (word_index (i 0).val 43 (i 0).isLt (by decide)) (k0_off87_inb i) _ rfl (k0_off88 _) rfl (k0_off88_inb _ hw.h44) o h⟩
  | ⟨44, _⟩, o, h => ⟨_, _, copy_payload c i xt fh 44 (k0_off89 i) (word_index (i 0).val 44 (i 0).isLt (by decide)) (k0_off89_inb i) _ rfl (k0_off90 _) rfl (k0_off90_inb _ hw.h45) o h⟩
  | ⟨45, _⟩, o, h => ⟨_, _, copy_payload c i xt fh 45 (k0_off91 i) (word_index (i 0).val 45 (i 0).isLt (by decide)) (k0_off91_inb i) _ rfl (k0_off92 _) rfl (k0_off92_inb _ hw.h46) o h⟩
  | ⟨46, _⟩, o, h => ⟨_, _, copy_payload c i xt fh 46 (k0_off93 i) (word_index (i 0).val 46 (i 0).isLt (by decide)) (k0_off93_inb i) _ rfl (k0_off94 _) rfl (k0_off94_inb _ hw.h47) o h⟩
  | ⟨47, _⟩, o, h => ⟨_, _, copy_payload c i xt fh 47 (k0_off95 i) (word_index (i 0).val 47 (i 0).isLt (by decide)) (k0_off95_inb i) _ rfl (k0_off96 _) rfl (k0_off96_inb _ hw.h48) o h⟩
  | ⟨48, _⟩, o, h => ⟨_, _, copy_payload c i xt fh 48 (k0_off97 i) (word_index (i 0).val 48 (i 0).isLt (by decide)) (k0_off97_inb i) _ rfl (k0_off98 _) rfl (k0_off98_inb _ hw.h49) o h⟩
  | ⟨49, _⟩, o, h => ⟨_, _, copy_payload c i xt fh 49 (k0_off99 i) (word_index (i 0).val 49 (i 0).isLt (by decide)) (k0_off99_inb i) _ rfl (k0_off100 _) rfl (k0_off100_inb _ hw.h50) o h⟩
  | ⟨50, _⟩, o, h => ⟨_, _, copy_payload c i xt fh 50 (k0_off101 i) (word_index (i 0).val 50 (i 0).isLt (by decide)) (k0_off101_inb i) _ rfl (k0_off102 _) rfl (k0_off102_inb _ hw.h51) o h⟩
  | ⟨51, _⟩, o, h => ⟨_, _, copy_payload c i xt fh 51 (k0_off103 i) (word_index (i 0).val 51 (i 0).isLt (by decide)) (k0_off103_inb i) _ rfl (k0_off104 _) rfl (k0_off104_inb _ hw.h52) o h⟩
  | ⟨52, _⟩, o, h => ⟨_, _, copy_payload c i xt fh 52 (k0_off105 i) (word_index (i 0).val 52 (i 0).isLt (by decide)) (k0_off105_inb i) _ rfl (k0_off106 _) rfl (k0_off106_inb _ hw.h53) o h⟩
  | ⟨53, _⟩, o, h => ⟨_, _, copy_payload c i xt fh 53 (k0_off107 i) (word_index (i 0).val 53 (i 0).isLt (by decide)) (k0_off107_inb i) _ rfl (k0_off108 _) rfl (k0_off108_inb _ hw.h54) o h⟩
  | ⟨54, _⟩, o, h => ⟨_, _, copy_payload c i xt fh 54 (k0_off109 i) (word_index (i 0).val 54 (i 0).isLt (by decide)) (k0_off109_inb i) _ rfl (k0_off110 _) rfl (k0_off110_inb _ hw.h55) o h⟩
  | ⟨55, _⟩, o, h => ⟨_, _, copy_payload c i xt fh 55 (k0_off111 i) (word_index (i 0).val 55 (i 0).isLt (by decide)) (k0_off111_inb i) _ rfl (k0_off112 _) rfl (k0_off112_inb _ hw.h56) o h⟩
  | ⟨56, _⟩, o, h => ⟨_, _, copy_payload c i xt fh 56 (k0_off113 i) (word_index (i 0).val 56 (i 0).isLt (by decide)) (k0_off113_inb i) _ rfl (k0_off114 _) rfl (k0_off114_inb _ hw.h57) o h⟩
  | ⟨57, _⟩, o, h => ⟨_, _, copy_payload c i xt fh 57 (k0_off115 i) (word_index (i 0).val 57 (i 0).isLt (by decide)) (k0_off115_inb i) _ rfl (k0_off116 _) rfl (k0_off116_inb _ hw.h58) o h⟩
  | ⟨58, _⟩, o, h => ⟨_, _, copy_payload c i xt fh 58 (k0_off117 i) (word_index (i 0).val 58 (i 0).isLt (by decide)) (k0_off117_inb i) _ rfl (k0_off118 _) rfl (k0_off118_inb _ hw.h59) o h⟩
  | ⟨59, _⟩, o, h => ⟨_, _, copy_payload c i xt fh 59 (k0_off119 i) (word_index (i 0).val 59 (i 0).isLt (by decide)) (k0_off119_inb i) _ rfl (k0_off120 _) rfl (k0_off120_inb _ hw.h60) o h⟩
  | ⟨60, _⟩, o, h => ⟨_, _, copy_payload c i xt fh 60 (k0_off121 i) (word_index (i 0).val 60 (i 0).isLt (by decide)) (k0_off121_inb i) _ rfl (k0_off122 _) rfl (k0_off122_inb _ hw.h61) o h⟩
  | ⟨61, _⟩, o, h => ⟨_, _, copy_payload c i xt fh 61 (k0_off123 i) (word_index (i 0).val 61 (i 0).isLt (by decide)) (k0_off123_inb i) _ rfl (k0_off124 _) rfl (k0_off124_inb _ hw.h62) o h⟩
  | ⟨62, _⟩, o, h => ⟨_, _, copy_payload c i xt fh 62 (k0_off125 i) (word_index (i 0).val 62 (i 0).isLt (by decide)) (k0_off125_inb i) _ rfl (k0_off126 _) rfl (k0_off126_inb _ hw.h63) o h⟩
  | ⟨63, _⟩, o, h => ⟨_, _, copy_payload c i xt fh 63 (k0_off127 i) (word_index (i 0).val 63 (i 0).isLt (by decide)) (k0_off127_inb i) _ rfl (k0_off128 _) rfl (k0_off128_inb _ hw.h64) o h⟩
  | ⟨64, _⟩, o, h => ⟨_, _, copy_payload c i xt fh 64 (k0_off129 i) (word_index (i 0).val 64 (i 0).isLt (by decide)) (k0_off129_inb i) _ rfl (k0_off130 _) rfl (k0_off130_inb _ hw.h65) o h⟩
  | ⟨65, _⟩, o, h => ⟨_, _, copy_payload c i xt fh 65 (k0_off131 i) (word_index (i 0).val 65 (i 0).isLt (by decide)) (k0_off131_inb i) _ rfl (k0_off132 _) rfl (k0_off132_inb _ hw.h66) o h⟩
  | ⟨66, _⟩, o, h => ⟨_, _, copy_payload c i xt fh 66 (k0_off133 i) (word_index (i 0).val 66 (i 0).isLt (by decide)) (k0_off133_inb i) _ rfl (k0_off134 _) rfl (k0_off134_inb _ hw.h67) o h⟩
  | ⟨67, _⟩, o, h => ⟨_, _, copy_payload c i xt fh 67 (k0_off135 i) (word_index (i 0).val 67 (i 0).isLt (by decide)) (k0_off135_inb i) _ rfl (k0_off136 _) rfl (k0_off136_inb _ hw.h68) o h⟩
  | ⟨68, _⟩, o, h => ⟨_, _, copy_payload c i xt fh 68 (k0_off137 i) (word_index (i 0).val 68 (i 0).isLt (by decide)) (k0_off137_inb i) _ rfl (k0_off138 _) rfl (k0_off138_inb _ hw.h69) o h⟩
  | ⟨69, _⟩, o, h => ⟨_, _, copy_payload c i xt fh 69 (k0_off139 i) (word_index (i 0).val 69 (i 0).isLt (by decide)) (k0_off139_inb i) _ rfl (k0_off140 _) rfl (k0_off140_inb _ hw.h70) o h⟩
  | ⟨70, _⟩, o, h => ⟨_, _, copy_payload c i xt fh 70 (k0_off141 i) (word_index (i 0).val 70 (i 0).isLt (by decide)) (k0_off141_inb i) _ rfl (k0_off142 _) rfl (k0_off142_inb _ hw.h71) o h⟩
  | ⟨71, _⟩, o, h => ⟨_, _, copy_payload c i xt fh 71 (k0_off143 i) (word_index (i 0).val 71 (i 0).isLt (by decide)) (k0_off143_inb i) _ rfl (k0_off144 _) rfl (k0_off144_inb _ hw.h72) o h⟩
  | ⟨72, _⟩, o, h => ⟨_, _, copy_payload c i xt fh 72 (k0_off145 i) (word_index (i 0).val 72 (i 0).isLt (by decide)) (k0_off145_inb i) _ rfl (k0_off146 _) rfl (k0_off146_inb _ hw.h73) o h⟩
  | ⟨73, _⟩, o, h => ⟨_, _, copy_payload c i xt fh 73 (k0_off147 i) (word_index (i 0).val 73 (i 0).isLt (by decide)) (k0_off147_inb i) _ rfl (k0_off148 _) rfl (k0_off148_inb _ hw.h74) o h⟩
  | ⟨74, _⟩, o, h => ⟨_, _, copy_payload c i xt fh 74 (k0_off149 i) (word_index (i 0).val 74 (i 0).isLt (by decide)) (k0_off149_inb i) _ rfl (k0_off150 _) rfl (k0_off150_inb _ hw.h75) o h⟩
  | ⟨75, _⟩, o, h => ⟨_, _, copy_payload c i xt fh 75 (k0_off151 i) (word_index (i 0).val 75 (i 0).isLt (by decide)) (k0_off151_inb i) _ rfl (k0_off152 _) rfl (k0_off152_inb _ hw.h76) o h⟩
  | ⟨76, _⟩, o, h => ⟨_, _, copy_payload c i xt fh 76 (k0_off153 i) (word_index (i 0).val 76 (i 0).isLt (by decide)) (k0_off153_inb i) _ rfl (k0_off154 _) rfl (k0_off154_inb _ hw.h77) o h⟩
  | ⟨77, _⟩, o, h => ⟨_, _, copy_payload c i xt fh 77 (k0_off155 i) (word_index (i 0).val 77 (i 0).isLt (by decide)) (k0_off155_inb i) _ rfl (k0_off156 _) rfl (k0_off156_inb _ hw.h78) o h⟩
  | ⟨78, _⟩, o, h => ⟨_, _, copy_payload c i xt fh 78 (k0_off157 i) (word_index (i 0).val 78 (i 0).isLt (by decide)) (k0_off157_inb i) _ rfl (k0_off158 _) rfl (k0_off158_inb _ hw.h79) o h⟩
  | ⟨79, _⟩, o, h => ⟨_, _, copy_payload c i xt fh 79 (k0_off159 i) (word_index (i 0).val 79 (i 0).isLt (by decide)) (k0_off159_inb i) _ rfl (k0_off160 _) rfl (k0_off160_inb _ hw.h80) o h⟩
  | ⟨80, _⟩, o, h => ⟨_, _, copy_payload c i xt fh 80 (k0_off161 i) (word_index (i 0).val 80 (i 0).isLt (by decide)) (k0_off161_inb i) _ rfl (k0_off162 _) rfl (k0_off162_inb _ hw.h81) o h⟩
  | ⟨81, _⟩, o, h => ⟨_, _, copy_payload c i xt fh 81 (k0_off163 i) (word_index (i 0).val 81 (i 0).isLt (by decide)) (k0_off163_inb i) _ rfl (k0_off164 _) rfl (k0_off164_inb _ hw.h82) o h⟩
  | ⟨82, _⟩, o, h => ⟨_, _, copy_payload c i xt fh 82 (k0_off165 i) (word_index (i 0).val 82 (i 0).isLt (by decide)) (k0_off165_inb i) _ rfl (k0_off166 _) rfl (k0_off166_inb _ hw.h83) o h⟩
  | ⟨83, _⟩, o, h => ⟨_, _, copy_payload c i xt fh 83 (k0_off167 i) (word_index (i 0).val 83 (i 0).isLt (by decide)) (k0_off167_inb i) _ rfl (k0_off168 _) rfl (k0_off168_inb _ hw.h84) o h⟩
  | ⟨84, _⟩, o, h => ⟨_, _, copy_payload c i xt fh 84 (k0_off169 i) (word_index (i 0).val 84 (i 0).isLt (by decide)) (k0_off169_inb i) _ rfl (k0_off170 _) rfl (k0_off170_inb _ hw.h85) o h⟩
  | ⟨85, _⟩, o, h => ⟨_, _, copy_payload c i xt fh 85 (k0_off171 i) (word_index (i 0).val 85 (i 0).isLt (by decide)) (k0_off171_inb i) _ rfl (k0_off172 _) rfl (k0_off172_inb _ hw.h86) o h⟩
  | ⟨86, _⟩, o, h => ⟨_, _, copy_payload c i xt fh 86 (k0_off173 i) (word_index (i 0).val 86 (i 0).isLt (by decide)) (k0_off173_inb i) _ rfl (k0_off174 _) rfl (k0_off174_inb _ hw.h87) o h⟩
  | ⟨87, _⟩, o, h => ⟨_, _, copy_payload c i xt fh 87 (k0_off175 i) (word_index (i 0).val 87 (i 0).isLt (by decide)) (k0_off175_inb i) _ rfl (k0_off176 _) rfl (k0_off176_inb _ hw.h88) o h⟩
  | ⟨88, _⟩, o, h => ⟨_, _, copy_payload c i xt fh 88 (k0_off177 i) (word_index (i 0).val 88 (i 0).isLt (by decide)) (k0_off177_inb i) _ rfl (k0_off178 _) rfl (k0_off178_inb _ hw.h89) o h⟩
  | ⟨89, _⟩, o, h => ⟨_, _, copy_payload c i xt fh 89 (k0_off179 i) (word_index (i 0).val 89 (i 0).isLt (by decide)) (k0_off179_inb i) _ rfl (k0_off180 _) rfl (k0_off180_inb _ hw.h90) o h⟩
  | ⟨90, _⟩, o, h => ⟨_, _, copy_payload c i xt fh 90 (k0_off181 i) (word_index (i 0).val 90 (i 0).isLt (by decide)) (k0_off181_inb i) _ rfl (k0_off182 _) rfl (k0_off182_inb _ hw.h91) o h⟩
  | ⟨91, _⟩, o, h => ⟨_, _, copy_payload c i xt fh 91 (k0_off183 i) (word_index (i 0).val 91 (i 0).isLt (by decide)) (k0_off183_inb i) _ rfl (k0_off184 _) rfl (k0_off184_inb _ hw.h92) o h⟩
  | ⟨92, _⟩, o, h => ⟨_, _, copy_payload c i xt fh 92 (k0_off185 i) (word_index (i 0).val 92 (i 0).isLt (by decide)) (k0_off185_inb i) _ rfl (k0_off186 _) rfl (k0_off186_inb _ hw.h93) o h⟩
  | ⟨93, _⟩, o, h => ⟨_, _, copy_payload c i xt fh 93 (k0_off187 i) (word_index (i 0).val 93 (i 0).isLt (by decide)) (k0_off187_inb i) _ rfl (k0_off188 _) rfl (k0_off188_inb _ hw.h94) o h⟩
  | ⟨94, _⟩, o, h => ⟨_, _, copy_payload c i xt fh 94 (k0_off189 i) (word_index (i 0).val 94 (i 0).isLt (by decide)) (k0_off189_inb i) _ rfl (k0_off190 _) rfl (k0_off190_inb _ hw.h95) o h⟩
  | ⟨95, _⟩, o, h => ⟨_, _, copy_payload c i xt fh 95 (k0_off191 i) (word_index (i 0).val 95 (i 0).isLt (by decide)) (k0_off191_inb i) _ rfl (k0_off192 _) rfl (k0_off192_inb _ hw.h96) o h⟩
  | ⟨96, _⟩, o, h => ⟨_, _, copy_payload c i xt fh 96 (k0_off193 i) (word_index (i 0).val 96 (i 0).isLt (by decide)) (k0_off193_inb i) _ rfl (k0_off194 _) rfl (k0_off194_inb _ hw.h97) o h⟩
  | ⟨97, _⟩, o, h => ⟨_, _, copy_payload c i xt fh 97 (k0_off195 i) (word_index (i 0).val 97 (i 0).isLt (by decide)) (k0_off195_inb i) _ rfl (k0_off196 _) rfl (k0_off196_inb _ hw.h98) o h⟩
  | ⟨98, _⟩, o, h => ⟨_, _, copy_payload c i xt fh 98 (k0_off197 i) (word_index (i 0).val 98 (i 0).isLt (by decide)) (k0_off197_inb i) _ rfl (k0_off198 _) rfl (k0_off198_inb _ hw.h99) o h⟩
  | ⟨99, _⟩, o, h => ⟨_, _, copy_payload c i xt fh 99 (k0_off199 i) (word_index (i 0).val 99 (i 0).isLt (by decide)) (k0_off199_inb i) _ rfl (k0_off200 _) rfl (k0_off200_inb _ hw.h100) o h⟩
  | ⟨100, _⟩, o, h => ⟨_, _, copy_payload c i xt fh 100 (k0_off201 i) (word_index (i 0).val 100 (i 0).isLt (by decide)) (k0_off201_inb i) _ rfl (k0_off202 _) rfl (k0_off202_inb _ hw.h101) o h⟩
  | ⟨101, _⟩, o, h => ⟨_, _, copy_payload c i xt fh 101 (k0_off203 i) (word_index (i 0).val 101 (i 0).isLt (by decide)) (k0_off203_inb i) _ rfl (k0_off204 _) rfl (k0_off204_inb _ hw.h102) o h⟩
  | ⟨102, _⟩, o, h => ⟨_, _, copy_payload c i xt fh 102 (k0_off205 i) (word_index (i 0).val 102 (i 0).isLt (by decide)) (k0_off205_inb i) _ rfl (k0_off206 _) rfl (k0_off206_inb _ hw.h103) o h⟩
  | ⟨103, _⟩, o, h => ⟨_, _, copy_payload c i xt fh 103 (k0_off207 i) (word_index (i 0).val 103 (i 0).isLt (by decide)) (k0_off207_inb i) _ rfl (k0_off208 _) rfl (k0_off208_inb _ hw.h104) o h⟩
  | ⟨104, _⟩, o, h => ⟨_, _, copy_payload c i xt fh 104 (k0_off209 i) (word_index (i 0).val 104 (i 0).isLt (by decide)) (k0_off209_inb i) _ rfl (k0_off210 _) rfl (k0_off210_inb _ hw.h105) o h⟩
  | ⟨105, _⟩, o, h => ⟨_, _, copy_payload c i xt fh 105 (k0_off211 i) (word_index (i 0).val 105 (i 0).isLt (by decide)) (k0_off211_inb i) _ rfl (k0_off212 _) rfl (k0_off212_inb _ hw.h106) o h⟩
  | ⟨106, _⟩, o, h => ⟨_, _, copy_payload c i xt fh 106 (k0_off213 i) (word_index (i 0).val 106 (i 0).isLt (by decide)) (k0_off213_inb i) _ rfl (k0_off214 _) rfl (k0_off214_inb _ hw.h107) o h⟩
  | ⟨107, _⟩, o, h => ⟨_, _, copy_payload c i xt fh 107 (k0_off215 i) (word_index (i 0).val 107 (i 0).isLt (by decide)) (k0_off215_inb i) _ rfl (k0_off216 _) rfl (k0_off216_inb _ hw.h108) o h⟩
  | ⟨108, _⟩, o, h => ⟨_, _, copy_payload c i xt fh 108 (k0_off217 i) (word_index (i 0).val 108 (i 0).isLt (by decide)) (k0_off217_inb i) _ rfl (k0_off218 _) rfl (k0_off218_inb _ hw.h109) o h⟩
  | ⟨109, _⟩, o, h => ⟨_, _, copy_payload c i xt fh 109 (k0_off219 i) (word_index (i 0).val 109 (i 0).isLt (by decide)) (k0_off219_inb i) _ rfl (k0_off220 _) rfl (k0_off220_inb _ hw.h110) o h⟩
  | ⟨110, _⟩, o, h => ⟨_, _, copy_payload c i xt fh 110 (k0_off221 i) (word_index (i 0).val 110 (i 0).isLt (by decide)) (k0_off221_inb i) _ rfl (k0_off222 _) rfl (k0_off222_inb _ hw.h111) o h⟩
  | ⟨111, _⟩, o, h => ⟨_, _, copy_payload c i xt fh 111 (k0_off223 i) (word_index (i 0).val 111 (i 0).isLt (by decide)) (k0_off223_inb i) _ rfl (k0_off224 _) rfl (k0_off224_inb _ hw.h112) o h⟩
  | ⟨112, _⟩, o, h => ⟨_, _, copy_payload c i xt fh 112 (k0_off225 i) (word_index (i 0).val 112 (i 0).isLt (by decide)) (k0_off225_inb i) _ rfl (k0_off226 _) rfl (k0_off226_inb _ hw.h113) o h⟩
  | ⟨113, _⟩, o, h => ⟨_, _, copy_payload c i xt fh 113 (k0_off227 i) (word_index (i 0).val 113 (i 0).isLt (by decide)) (k0_off227_inb i) _ rfl (k0_off228 _) rfl (k0_off228_inb _ hw.h114) o h⟩
  | ⟨114, _⟩, o, h => ⟨_, _, copy_payload c i xt fh 114 (k0_off229 i) (word_index (i 0).val 114 (i 0).isLt (by decide)) (k0_off229_inb i) _ rfl (k0_off230 _) rfl (k0_off230_inb _ hw.h115) o h⟩
  | ⟨115, _⟩, o, h => ⟨_, _, copy_payload c i xt fh 115 (k0_off231 i) (word_index (i 0).val 115 (i 0).isLt (by decide)) (k0_off231_inb i) _ rfl (k0_off232 _) rfl (k0_off232_inb _ hw.h116) o h⟩
  | ⟨116, _⟩, o, h => ⟨_, _, copy_payload c i xt fh 116 (k0_off233 i) (word_index (i 0).val 116 (i 0).isLt (by decide)) (k0_off233_inb i) _ rfl (k0_off234 _) rfl (k0_off234_inb _ hw.h117) o h⟩
  | ⟨117, _⟩, o, h => ⟨_, _, copy_payload c i xt fh 117 (k0_off235 i) (word_index (i 0).val 117 (i 0).isLt (by decide)) (k0_off235_inb i) _ rfl (k0_off236 _) rfl (k0_off236_inb _ hw.h118) o h⟩
  | ⟨118, _⟩, o, h => ⟨_, _, copy_payload c i xt fh 118 (k0_off237 i) (word_index (i 0).val 118 (i 0).isLt (by decide)) (k0_off237_inb i) _ rfl (k0_off238 _) rfl (k0_off238_inb _ hw.h119) o h⟩
  | ⟨119, _⟩, o, h => ⟨_, _, copy_payload c i xt fh 119 (k0_off239 i) (word_index (i 0).val 119 (i 0).isLt (by decide)) (k0_off239_inb i) _ rfl (k0_off240 _) rfl (k0_off240_inb _ hw.h120) o h⟩
  | ⟨120, _⟩, o, h => ⟨_, _, copy_payload c i xt fh 120 (k0_off241 i) (word_index (i 0).val 120 (i 0).isLt (by decide)) (k0_off241_inb i) _ rfl (k0_off242 _) rfl (k0_off242_inb _ hw.h121) o h⟩
  | ⟨121, _⟩, o, h => ⟨_, _, copy_payload c i xt fh 121 (k0_off243 i) (word_index (i 0).val 121 (i 0).isLt (by decide)) (k0_off243_inb i) _ rfl (k0_off244 _) rfl (k0_off244_inb _ hw.h122) o h⟩
  | ⟨122, _⟩, o, h => ⟨_, _, copy_payload c i xt fh 122 (k0_off245 i) (word_index (i 0).val 122 (i 0).isLt (by decide)) (k0_off245_inb i) _ rfl (k0_off246 _) rfl (k0_off246_inb _ hw.h123) o h⟩
  | ⟨123, _⟩, o, h => ⟨_, _, copy_payload c i xt fh 123 (k0_off247 i) (word_index (i 0).val 123 (i 0).isLt (by decide)) (k0_off247_inb i) _ rfl (k0_off248 _) rfl (k0_off248_inb _ hw.h124) o h⟩
  | ⟨124, _⟩, o, h => ⟨_, _, copy_payload c i xt fh 124 (k0_off249 i) (word_index (i 0).val 124 (i 0).isLt (by decide)) (k0_off249_inb i) _ rfl (k0_off250 _) rfl (k0_off250_inb _ hw.h125) o h⟩
  | ⟨125, _⟩, o, h => ⟨_, _, copy_payload c i xt fh 125 (k0_off251 i) (word_index (i 0).val 125 (i 0).isLt (by decide)) (k0_off251_inb i) _ rfl (k0_off252 _) rfl (k0_off252_inb _ hw.h126) o h⟩
  | ⟨126, _⟩, o, h => ⟨_, _, copy_payload c i xt fh 126 (k0_off253 i) (word_index (i 0).val 126 (i 0).isLt (by decide)) (k0_off253_inb i) _ rfl (k0_off254 _) rfl (k0_off254_inb _ hw.h127) o h⟩
  | ⟨127, _⟩, o, h => ⟨_, _, copy_payload c i xt fh 127 (k0_off255 i) (word_index (i 0).val 127 (i 0).isLt (by decide)) (k0_off255_inb i) _ rfl (k0_off256 _) rfl (k0_off256_inb _ hw.h128) o h⟩
  | ⟨n + 128, hn⟩, _, _ => absurd hn (by omega)

end Cert.KernelIdeal.Hand

end
-- ==== Proof.Payload.lean ====
/-
  The kernel body's arithmetic at an index, over the extended reals.

  One grid step handles a block of 128 tasks against all 256 embedding rows. Its two pure values are
    layer 1:  H[b, t·8+o] = max (∑ h, W[t, o, h] · emb[b, h] + bias1[t·8+o]) 0
    layer 2:  out[t, b]   = ∑ i, H[b, i] · (G[i, t] · w2[i]) + bias2[t]
  where W is the block's gathered first-layer weights, viewed [1024, 1024] with row t·8+o, and G is the 0/1
  grouping matrix (G[i, t] = 1 exactly when i / 8 = t). Against that mask the sum over the 1024 hidden
  columns keeps the eight of task t, so
    out[t, b] = ∑ o < 8, H[b, t·8+o] · w2[t·8+o] + bias2[t].
  Everything is a sum, product or maximum on EReal as it stands: 0 · x = 0 and 1 · x = x hold for every
  extended real, so no finiteness is needed.
-/
import proofs.«427848_j22419729285374_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.SL.Sem Idealize.ShloMosaic.ValueIdx

/-! ## The masked sum: a 0/1 grouping mask keeps one group of eight

The mask G i is 1 when position i lies in group t (i / 8 = t) and 0 otherwise. On the extended reals
0 · x = x · 0 = 0 and 1 · x = x hold for every x, infinite ones included, so the masked sum over all
1024 positions is the plain sum over the eight positions t · 8 + o of group t. No finiteness is used. -/

/-- Position `t · 8 + o` of group `t`, as one of the 1024 positions. -/
def pos (t : Fin 128) (o : Fin 8) : Fin 1024 := ⟨t.val * 8 + o.val, by omega⟩

theorem pos_val (t : Fin 128) (o : Fin 8) : (pos t o).val = t.val * 8 + o.val := rfl

/-- A masked term is the unmasked one inside the group and zero outside it. -/
theorem masked_term (f w G : Fin 1024 → EReal) (t : Fin 128)
    (hG : ∀ i : Fin 1024, G i = if i.val / 8 = t.val then 1 else 0) (i : Fin 1024) :
    f i * (G i * w i) = if i.val / 8 = t.val then f i * w i else 0 := by
  rw [hG i]
  by_cases h : i.val / 8 = t.val
  · rw [if_pos h, if_pos h, one_mul]
  · rw [if_neg h, if_neg h, zero_mul, mul_zero]

/-- The positions of group `t` are exactly the eight `pos t o`: a sum over the group is a sum over `o`. -/
theorem sum_group (g : Fin 1024 → EReal) (t : Fin 128) :
    ∑ i ∈ Finset.univ.filter (fun i : Fin 1024 => i.val / 8 = t.val), g i = ∑ o : Fin 8, g (pos t o) := by
  symm
  refine Finset.sum_nbij' (fun o : Fin 8 => pos t o)
    (fun i : Fin 1024 => (⟨i.val % 8, Nat.mod_lt _ (by norm_num)⟩ : Fin 8)) ?_ ?_ ?_ ?_ ?_
  · intro o _
    rw [Finset.mem_filter]
    refine ⟨Finset.mem_univ _, ?_⟩
    rw [pos_val]
    omega
  · intro i _
    exact Finset.mem_univ _
  · intro o _
    refine Fin.ext ?_
    show (pos t o).val % 8 = o.val
    rw [pos_val]
    omega
  · intro i hi
    rw [Finset.mem_filter] at hi
    refine Fin.ext ?_
    show t.val * 8 + i.val % 8 = i.val
    have := hi.2
    omega
  · intro o _
    rfl

/-- THE MASKED SUM: against the grouping mask of group `t` the sum over all 1024 positions is the sum over
    the group's eight positions. -/
theorem masked_sum (f w : Fin 1024 → EReal) (G : Fin 1024 → EReal) (t : Fin 128)
    (hG : ∀ i : Fin 1024, G i = if i.val / 8 = t.val then 1 else 0) :
    ∑ i : Fin 1024, f i * (G i * w i)
      = ∑ o : Fin 8, f ⟨t.val * 8 + o.val, by omega⟩ * w ⟨t.val * 8 + o.val, by omega⟩ := by
  rw [Finset.sum_congr rfl (fun i _ => masked_term f w G t hG i), ← Finset.sum_filter]
  exact sum_group (fun i => f i * w i) t

/-! ## Layout operations of the body read at an index given by coordinates -/

section Layout
variable {α : Type}

/-- The gathered weights `[128, 8, 1024]` viewed `[1024, 1024]`: row `t · 8 + o` is the weight row `(t, o)`. -/
theorem cast_rows (x : S128x8x1024.Idx → α) (h : S128x8x1024.ShapeCasts S1024x1024)
    (t : Fin 128) (o : Fin 8) (c : Fin 1024) :
    shapeCast S1024x1024 x h (ix2 (⟨t.val * 8 + o.val, by omega⟩ : Fin 1024) c) = x (ix3 t o c) :=
  shapeCast_apply x h _ _ (by
    rw [Shape.rowMajor_val_three, Shape.rowMajor_val_two]
    rfl)

/-- A `[1, 1, a]` row viewed `[a]` reads, at `i`, the operand at `(0, 0, i)`. -/
theorem cast_11a_a {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` vector viewed as the column `[a, 1]` reads, at `(i, u)`, the operand at `i`. -/
theorem cast_a_a1 {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The column `[1024, 1]` broadcast along 128 lanes reads, at `(i, c)`, the column's entry `i`. -/
theorem bcast_col (x : S1024x1.Idx → α) (h : S1024x1.Broadcasts S1024x128) (i : Fin 1024) (c : Fin 128) :
    broadcastTo S1024x128 x h (ix2 i c) = x (ix2 i (0 : Fin 1)) := by
  refine broadcastTo_apply x h (ix2 i c) (ix2 i (0 : Fin 1)) fun ax => ?_
  match ax with
  | ⟨0, _⟩ =>
    show i.val = if (1024 : Nat) = 1 then 0 else i.val
    rw [if_neg (by decide)]
  | ⟨1, _⟩ => rfl

end Layout

/-! ## The two contractions read at an index

Each `tpu.matmul` accumulates into a zero splat, so at an output index it is the sum over the one contracted
axis of the operands' products. The contraction index is re-indexed by its one coordinate, and the operand
indices are read off the dimension numbers axis by axis. -/

theorem lhs_D1_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs_D1_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_D1_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs_D1_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- Layer 1's product at `(p, q)`: row `p` of the first operand against ROW `q` of the second. -/
theorem matmul_D1_apply (x : FVec Ideal S256x1024 .bf16) (y : FVec Ideal S1024x1024 .bf16) (p : Fin 256) (q : Fin 1024) :
    matmul dot_S256x1024_S1024x1024_S256x1024_1_1_0_0_n_n none x y (constant (F := Ideal) S256x1024 .f32 0x00000000#32) (ix2 p q)
      = ∑ k : Fin 1024, x (ix2 p k) * y (ix2 q k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p q) ((contrEquiv1 dot_S256x1024_S1024x1024_S256x1024_1_1_0_0_n_n 1024 rfl rfl).symm k) = ix2 p k := funext fun a => Fin.ext (by
    match a with
    | ⟨0, _⟩ => exact lhs_D1_0 _ _
    | ⟨1, _⟩ => exact (lhs_D1_1 _ _).trans hk)
  have er : dot_S256x1024_S1024x1024_S256x1024_1_1_0_0_n_n.rhsIdx (ix2 p q) ((contrEquiv1 dot_S256x1024_S1024x1024_S256x1024_1_1_0_0_n_n 1024 rfl rfl).symm k) = ix2 q k := funext fun a => Fin.ext (by
    match a with
    | ⟨0, _⟩ => exact rhs_D1_0 _ _
    | ⟨1, _⟩ => exact (rhs_D1_1 _ _).trans hk)
  rw [el, er]

theorem lhs_D2_0 (i : S256x128.Idx) (q : dot_S256x1024_S1024x128_S256x128_1_0_0_1_n_n.contr.Idx) :
    (dot_S256x1024_S1024x128_S256x128_1_0_0_1_n_n.lhsIdx i q 0).val = (i 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
theorem lhs_D2_1 (i : S256x128.Idx) (q : dot_S256x1024_S1024x128_S256x128_1_0_0_1_n_n.contr.Idx) :
    (dot_S256x1024_S1024x128_S256x128_1_0_0_1_n_n.lhsIdx i q 1).val = (q ⟨0, by decide⟩).val :=
  dot_S256x1024_S1024x128_S256x128_1_0_0_1_n_n.lhsIdx_val_of_single rfl i q
theorem rhs_D2_0 (i : S256x128.Idx) (q : dot_S256x1024_S1024x128_S256x128_1_0_0_1_n_n.contr.Idx) :
    (dot_S256x1024_S1024x128_S256x128_1_0_0_1_n_n.rhsIdx i q 0).val = (q ⟨0, by decide⟩).val :=
  dot_S256x1024_S1024x128_S256x128_1_0_0_1_n_n.rhsIdx_val_of_single rfl i q
theorem rhs_D2_1 (i : S256x128.Idx) (q : dot_S256x1024_S1024x128_S256x128_1_0_0_1_n_n.contr.Idx) :
    (dot_S256x1024_S1024x128_S256x128_1_0_0_1_n_n.rhsIdx i q 1).val = (i 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl

/-- Layer 2's product at `(p, q)`: row `p` of the first operand against column `q` of the second. -/
theorem matmul_D2_apply (x : FVec Ideal S256x1024 .bf16) (y : FVec Ideal S1024x128 .bf16) (p : Fin 256) (q : Fin 128) :
    matmul dot_S256x1024_S1024x128_S256x128_1_0_0_1_n_n none x y (constant (F := Ideal) S256x128 .f32 0x00000000#32) (ix2 p q)
      = ∑ k : Fin 1024, x (ix2 p k) * y (ix2 k q) := by
  simp only [matmul]
  rw [Ideal.matmul_constant_zero_apply, ← Equiv.sum_comp (contrEquiv1 dot_S256x1024_S1024x128_S256x128_1_0_0_1_n_n 1024 rfl rfl).symm]
  refine Finset.sum_congr rfl fun k _ => ?_
  have hk := contrEquiv1_symm_val dot_S256x1024_S1024x128_S256x128_1_0_0_1_n_n 1024 rfl rfl k
  have el : dot_S256x1024_S1024x128_S256x128_1_0_0_1_n_n.lhsIdx (ix2 p q) ((contrEquiv1 dot_S256x1024_S1024x128_S256x128_1_0_0_1_n_n 1024 rfl rfl).symm k) = ix2 p k := funext fun a => Fin.ext (by
    match a with
    | ⟨0, _⟩ => exact lhs_D2_0 _ _
    | ⟨1, _⟩ => exact (lhs_D2_1 _ _).trans hk)
  have er : dot_S256x1024_S1024x128_S256x128_1_0_0_1_n_n.rhsIdx (ix2 p q) ((contrEquiv1 dot_S256x1024_S1024x128_S256x128_1_0_0_1_n_n 1024 rfl rfl).symm k) = ix2 k q := funext fun a => Fin.ext (by
    match a with
    | ⟨0, _⟩ => exact (rhs_D2_0 _ _).trans hk
    | ⟨1, _⟩ => exact rhs_D2_1 _ _)
  rw [el, er]

/-! ## The body's two payloads at an index -/

/-- The rectifier's zero: the f32 zero word is the extended real `0`. -/
theorem zero_word : FloatOps.ofBits (F := Ideal) .f32 0x00000000#32 = (0 : EReal) := Ideal.ofBits_zero_f32

/-- LAYER 1 of a block of 128 tasks, at embedding row `b` and hidden unit `o` of task `t` (column `t · 8 + o`):
    the weight row `(t, o)` against the embedding row, plus the bias, rectified. The format changes are the
    identity on extended reals; the contraction gives embedding times weight, commuted to weight first. -/
theorem pay2_apply (scr : Vec Ideal S128x8x1024 .f32) (e : Vec Ideal S256x1024 .bf16) (bias : Vec Ideal S1x1x1024 .f32)
    (b : Fin 256) (t : Fin 128) (o : Fin 8) :
    Gen.k0_pay2 (F := Ideal) scr e bias (ix2 b ⟨t.val * 8 + o.val, by omega⟩)
      = max ((∑ h : Fin 1024, scr (ix3 t o h) * e (ix2 b h)) + bias (ix3 (0 : Fin 1) (0 : Fin 1) ⟨t.val * 8 + o.val, by omega⟩)) 0 := by
  unfold Gen.k0_pay2
  simp only [maximumf_apply, addf_apply, broadcast_apply]
  rw [matmul_D1_apply, shapeCast_self, broadcastTo_1b_ab_apply, shapeCast_a_1a_apply, cast_11a_a, zero_word]
  refine congrArg (fun s => max (s + _) 0) (Finset.sum_congr rfl fun k _ => ?_)
  rw [truncf_apply, cast_rows, mul_comm]

/-- LAYER 2 of the block, at task `t` and embedding row `b`: the hidden row against column `t` of the
    grouping matrix scaled row by row by the second layer's weights, plus the bias; the result is stored transposed. -/
theorem pay1_apply (hid : FVec Ideal S256x1024 .f32) (w2 : Vec Ideal S1x1x1024 .f32) (b2 : Vec Ideal S1x1x128 .f32)
    (G : Vec Ideal S1024x128 .f32) (t : Fin 128) (b : Fin 256) :
    Gen.k0_pay1 (F := Ideal) hid w2 b2 G (ix2 t b)
      = (∑ i : Fin 1024, hid (ix2 b i) * (G (ix2 i t) * w2 (ix3 (0 : Fin 1) (0 : Fin 1) i))) + b2 (ix3 (0 : Fin 1) (0 : Fin 1) t) := by
  unfold Gen.k0_pay1
  rw [transpose_ix2_apply, addf_apply, matmul_D2_apply, broadcastTo_1b_ab_apply, shapeCast_a_1a_apply, cast_11a_a]
  refine congrArg (fun s => s + _) (Finset.sum_congr rfl fun k _ => ?_)
  rw [truncf_apply, truncf_apply, mulf_apply, shapeCast_self, bcast_col, cast_a_a1, cast_11a_a]

/-- THE BLOCK: with the 0/1 grouping matrix (`G (i, t) = 1` exactly when `i / 8 = t`) layer 2 over layer 1 is,
    at task `t` and embedding row `b`, the sum over the task's eight hidden units of the rectified unit times its
    second-layer weight, plus the bias. -/
theorem block_apply (scr : Vec Ideal S128x8x1024 .f32) (e : Vec Ideal S256x1024 .bf16) (bias w2 : Vec Ideal S1x1x1024 .f32)
    (b2 : Vec Ideal S1x1x128 .f32) (G : Vec Ideal S1024x128 .f32)
    (hG : ∀ (i : Fin 1024) (t : Fin 128), G (ix2 i t) = if i.val / 8 = t.val then 1 else 0) (t : Fin 128) (b : Fin 256) :
    Gen.k0_pay1 (F := Ideal) (Gen.k0_pay2 (F := Ideal) scr e bias) w2 b2 G (ix2 t b)
      = (∑ o : Fin 8, max ((∑ h : Fin 1024, scr (ix3 t o h) * e (ix2 b h)) + bias (ix3 (0 : Fin 1) (0 : Fin 1) ⟨t.val * 8 + o.val, by omega⟩)) 0
            * w2 (ix3 (0 : Fin 1) (0 : Fin 1) ⟨t.val * 8 + o.val, by omega⟩))
        + b2 (ix3 (0 : Fin 1) (0 : Fin 1) t) := by
  rw [pay1_apply]
  refine congrArg (fun s => s + _) ?_
  refine (masked_sum (fun i => Gen.k0_pay2 (F := Ideal) scr e bias (ix2 b i)) (fun i => w2 (ix3 (0 : Fin 1) (0 : Fin 1) i))
    (fun i => G (ix2 i t)) t (fun i => hG i t)).trans ?_
  refine Finset.sum_congr rfl fun o _ => ?_
  rw [pay2_apply]

end Cert.KernelIdeal.Payload

end
-- ==== Proof.BlockSpec.lean ====
/-
  One output block of the kernel is the specification.

  Grid step g handles the 128 tasks g·128 + r, r < 128. Its gathered first-layer weights hold, at (r, o, h), the bank's
  weight W1[row(g·128 + r), o, h]; its slices of the three host-made tables hold, at position r·8 + o, the first layer's
  bias b1[row(g·128 + r), o] and the second layer's weight W2[row(g·128 + r), 0, o], and at position r the second
  layer's bias b2[row(g·128 + r), 0] (position i of a group's slice is entry i mod 8 of task g·128 + i / 8, and
  (r·8 + o) / 8 = r, (r·8 + o) mod 8 = o). The embedding block is the embedding itself, the format change being the
  identity on extended reals, and the grouping matrix is 1 exactly where i / 8 = t. So the block's value at (r, b),

      ∑ o < 8, max (∑ h, scr[r, o, h] · e[b, h] + bias[r·8 + o]) 0 · w2[r·8 + o] + b2[r],

  is the specification's out (g·128 + r) b, term by term.
-/
import proofs.«427848_j22419729285374_3_alg».proof.Proof.Payload
import proofs.«427848_j22419729285374_3_alg».proof.Proof.HostGathers
import proofs.«427848_j22419729285374_3_alg».proof.Proof.GroupMatrix
import proofs.«427848_j22419729285374_3_alg».proof.Proof.Spec

noncomputable section

open scoped BigOperators

namespace Cert.KernelIdeal.BlockSpec

open Cert.KernelIdeal Cert.KernelIdeal.Gen Idealize.ShloMosaic Idealize.SL.Sem Idealize.ShloMosaic.ValueIdx

/-! ## A group's slices of the host-made tables, at the positions the block reads -/

/-- Position r·8 + o of group g's slice of the first layer's biases is the bias of task g·128 + r at unit o. -/
theorem b1g_at {x5 : IVec S4096 32} (hr : Cert.Spec.InRange x5) (x2 : FVec Ideal S10000x8 .f32)
    (g : Fin 32) (r : Fin 128) (o : Fin 8) (hp : r.val * 8 + o.val < 1024) (hk : g.val * 128 + r.val < 4096) :
    HostSide.b1g (F := Ideal) x2 x5 (ix3 g (0 : Fin 1) (⟨r.val * 8 + o.val, hp⟩ : Fin 1024))
      = x2 (ix2 (Cert.Spec.row x5 ⟨g.val * 128 + r.val, hk⟩) o) := by
  have hg := g.isLt
  have hr' := r.isLt
  have ho := o.isLt
  refine (HostSide.b1g_apply hr x2 g ⟨r.val * 8 + o.val, hp⟩).trans ?_
  exact congrArg₂ (fun a c => x2 (ix2 (Cert.Spec.row x5 a) c))
    (Fin.ext (by show g.val * 128 + (r.val * 8 + o.val) / 8 = g.val * 128 + r.val; omega))
    (Fin.ext (by show (r.val * 8 + o.val) % 8 = o.val; omega))

/-- Position r·8 + o of group g's slice of the second layer's weights is the weight of task g·128 + r at unit o. -/
theorem w2g_at {x5 : IVec S4096 32} (hr : Cert.Spec.InRange x5) (x3 : FVec Ideal S10000x1x8 .f32)
    (g : Fin 32) (r : Fin 128) (o : Fin 8) (hp : r.val * 8 + o.val < 1024) (hk : g.val * 128 + r.val < 4096) :
    HostSide.w2g (F := Ideal) x3 x5 (ix3 g (0 : Fin 1) (⟨r.val * 8 + o.val, hp⟩ : Fin 1024))
      = x3 (ix3 (Cert.Spec.row x5 ⟨g.val * 128 + r.val, hk⟩) (0 : Fin 1) o) := by
  have hg := g.isLt
  have hr' := r.isLt
  have ho := o.isLt
  refine (HostSide.w2g_apply hr x3 g ⟨r.val * 8 + o.val, hp⟩).trans ?_
  exact congrArg₂ (fun a c => x3 (ix3 (Cert.Spec.row x5 a) (0 : Fin 1) c))
    (Fin.ext (by show g.val * 128 + (r.val * 8 + o.val) / 8 = g.val * 128 + r.val; omega))
    (Fin.ext (by show (r.val * 8 + o.val) % 8 = o.val; omega))

/-! ## The block -/

/-- THE BLOCK IS THE SPECIFICATION: at task r of group g and embedding row b, the kernel's two layers over the group's
    gathered weights and the group's slices of the host-made tables are the specification's output of task g·128 + r on
    embedding row b. -/
theorem block_is_spec (x0 : FVec Ideal S256x1024 .f32) (x1 : FVec Ideal S10000x8x1024 .f32) (x2 : FVec Ideal S10000x8 .f32)
    (x3 : FVec Ideal S10000x1x8 .f32) (x4 : FVec Ideal S10000x1 .f32) (x5 : IVec S4096 32) (hr : Cert.Spec.InRange x5) (g : Fin 32)
    (scr : Vec Ideal S128x8x1024 .f32)
    (hscr : ∀ (r : Fin 128) (o : Fin 8) (h : Fin 1024),
      scr (ix3 r o h) = x1 (ix3 (Cert.Spec.row x5 ⟨g.val * 128 + r.val, by have := g.isLt; have := r.isLt; omega⟩) o h))
    (e : Vec Ideal S256x1024 .bf16) (he : ∀ (b : Fin 256) (h : Fin 1024), e (ix2 b h) = x0 (ix2 b h))
    (bias : Vec Ideal S1x1x1024 .f32)
    (hbias : ∀ i : Fin 1024, bias (ix3 (0 : Fin 1) (0 : Fin 1) i) = HostSide.b1g (F := Ideal) x2 x5 (ix3 g (0 : Fin 1) i))
    (w2 : Vec Ideal S1x1x1024 .f32)
    (hw2 : ∀ i : Fin 1024, w2 (ix3 (0 : Fin 1) (0 : Fin 1) i) = HostSide.w2g (F := Ideal) x3 x5 (ix3 g (0 : Fin 1) i))
    (b2 : Vec Ideal S1x1x128 .f32)
    (hb2 : ∀ j : Fin 128, b2 (ix3 (0 : Fin 1) (0 : Fin 1) j) = HostSide.b2g (F := Ideal) x4 x5 (ix3 g (0 : Fin 1) j))
    (G : Vec Ideal S1024x128 .f32) (hG : ∀ (i : Fin 1024) (j : Fin 128), G (ix2 i j) = GroupMatrix.grp (F := Ideal) (ix2 i j))
    (r : Fin 128) (b : Fin 256) :
    Gen.k0_pay1 (F := Ideal) (Gen.k0_pay2 (F := Ideal) scr e bias) w2 b2 G (ix2 r b)
      = Cert.Spec.out x0 x1 x2 x3 x4 x5 ⟨g.val * 128 + r.val, by have := g.isLt; have := r.isLt; omega⟩ b := by
  have hg := g.isLt
  have hr' := r.isLt
  rw [Payload.block_apply scr e bias w2 b2 G (fun i t => (hG i t).trans (GroupMatrix.grp_apply i t)) r b]
  unfold Cert.Spec.out Cert.Spec.hidden
  refine congrArg₂ (· + ·) (Finset.sum_congr rfl fun o _ => ?_) ?_
  · have ho := o.isLt
    rw [hbias, hw2, b1g_at hr x2 g r o (by omega) (by omega), w2g_at hr x3 g r o (by omega) (by omega)]
    refine congrArg (fun s => max (s + _) 0 * _) (Finset.sum_congr rfl fun h _ => ?_)
    rw [hscr, he]
  · rw [hb2]
    exact HostSide.b2g_apply hr x4 g r

end Cert.KernelIdeal.BlockSpec

end
-- ==== Proof.KIdeal.ValueGlue.lean ====
/-
  The value of an output block, from the body's run to the specification.

  At grid point t the body's output block is the two payloads applied to the gathered scratch and to the point's blocks
  of the five input windows. Those blocks are, read at an index, the arrays the region finds: the embedding narrowed
  (the narrowing is the identity on extended reals), row t of each of the three task-major tables — the first layer's
  biases, the second layer's weights and biases, gathered on the host at the clamped ids and laid out by groups —, and
  the 0/1 grouping matrix. So if row r of the scratch is the bank's row that task t·128 + r selects, the block at (r, b)
  is the specification's output of task t·128 + r on embedding row b.

  Two facts about the table go with it, inside the stated domain of the ids: the table the body reads is the ids
  themselves (the host's clamp does nothing there), and a word of it read unsigned is the row the specification names.
-/
import proofs.«427848_j22419729285374_3_alg».proof.Proof.KIdeal.Cert
import proofs.«427848_j22419729285374_3_alg».proof.Proof.KIdeal.Frame
import proofs.«427848_j22419729285374_3_alg».proof.Proof.KIdeal.Blocks
import proofs.«427848_j22419729285374_3_alg».proof.Proof.KIdeal.EntryArrays
import proofs.«427848_j22419729285374_3_alg».proof.Proof.BlockSpec
import proofs.«427848_j22419729285374_3_alg».proof.Proof.HostGathers

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ)

/-! ## The program's arguments as launched -/

/-- The embedding, the weight bank, the first layer's biases, the second layer's weights and biases, the task ids. -/
abbrev a0 (c : Dev nD) : FVec Ideal S256x1024 .f32 := m ((c : Thread nD τ).loc main_arg0)
abbrev a1 (c : Dev nD) : FVec Ideal S10000x8x1024 .f32 := m ((c : Thread nD τ).loc main_arg1)
abbrev a2 (c : Dev nD) : FVec Ideal S10000x8 .f32 := m ((c : Thread nD τ).loc main_arg2)
abbrev a3 (c : Dev nD) : FVec Ideal S10000x1x8 .f32 := m ((c : Thread nD τ).loc main_arg3)
abbrev a4 (c : Dev nD) : FVec Ideal S10000x1 .f32 := m ((c : Thread nD τ).loc main_arg4)
abbrev a5 (c : Dev nD) : IVec S4096 32 := m ((c : Thread nD τ).loc main_arg5)

/-! ## The table inside the stated domain -/

/-- Inside the stated domain the table the body reads is the ids themselves: the host's clamp does nothing. -/
theorem table_word (c : Dev nD) (hr : Cert.Spec.InRange (a5 m c)) (k : Fin 4096) :
    (tbl m 0 : IVec S4096 32) (ix1 k) = a5 m c (ix1 k) := by
  obtain rfl : c = 0 := Subsingleton.elim _ _
  show (V m (0 : Dev nD) main_v0 : IVec S4096 32) (ix1 k) = a5 m 0 (ix1 k)
  rw [V_v0 m 0]
  exact congrFun (HostSide.idsClip_eq_of_inRange hr) (ix1 k)

/-- An id inside the domain, read unsigned, is the row the specification names: signed and unsigned readings agree
    below 2³¹ and the clamp into the bank does nothing. -/
theorem row_val_of_word {ids : IVec S4096 32} (hr : Cert.Spec.InRange ids) (k : Fin 4096) :
    (ids (ix1 k)).toNat = (Cert.Spec.row ids k).val := by
  obtain ⟨h0, h1⟩ := hr k
  show (ids (ix1 k)).toNat = min (ids (ix1 k)).toInt.toNat 9999
  have hc := BitVec.toInt_eq_toNat_cond (ids (ix1 k))
  have hlt := (ids (ix1 k)).isLt
  split at hc <;> omega

/-- The same of the launched ids. -/
theorem row_of_word (c : Dev nD) (hr : Cert.Spec.InRange (a5 m c)) (k : Fin 4096) :
    (a5 m c (ix1 k)).toNat = (Cert.Spec.row (a5 m c) k).val :=
  row_val_of_word hr k

/-! ## The input blocks at an index, as functions of the arguments -/

/-- The embedding's block is the embedding: staged whole, and the narrowing is the identity on extended reals. -/
theorem blk0_arg (hO : Ok m) (c : Dev nD) (t : Fin (cfgM m hO).N) (b : Fin 256) (h : Fin 1024) :
    blk0 m hO c t (ix2 b h) = a0 m c (ix2 b h) :=
  (blk0_apply m hO c t b h).trans (congrFun (V_v1 m c) (ix2 b h))

/-- The first layer's biases' block is row `t` of the gathered biases. -/
theorem blk1_arg (hO : Ok m) (c : Dev nD) (t : Fin (cfgM m hO).N) (i : Fin 1024) :
    blk1 m hO c t (ix3 (0 : Fin 1) (0 : Fin 1) i) = HostSide.b1g (F := Ideal) (a2 m c) (a5 m c) (ix3 (row m hO t) (0 : Fin 1) i) :=
  (blk1_apply m hO c t i).trans (congrFun (V_v9 m c) (ix3 (row m hO t) (0 : Fin 1) i))

/-- The second layer's weights' block is row `t` of the gathered weights. -/
theorem blk2_arg (hO : Ok m) (c : Dev nD) (t : Fin (cfgM m hO).N) (i : Fin 1024) :
    blk2 m hO c t (ix3 (0 : Fin 1) (0 : Fin 1) i) = HostSide.w2g (F := Ideal) (a3 m c) (a5 m c) (ix3 (row m hO t) (0 : Fin 1) i) :=
  (blk2_apply m hO c t i).trans (congrFun (V_v17 m c) (ix3 (row m hO t) (0 : Fin 1) i))

/-- The second layer's biases' block is row `t` of the gathered biases. -/
theorem blk3_arg (hO : Ok m) (c : Dev nD) (t : Fin (cfgM m hO).N) (j : Fin 128) :
    blk3 m hO c t (ix3 (0 : Fin 1) (0 : Fin 1) j) = HostSide.b2g (F := Ideal) (a4 m c) (a5 m c) (ix3 (row m hO t) (0 : Fin 1) j) :=
  (blk3_apply m hO c t j).trans (congrFun (V_v25 m c) (ix3 (row m hO t) (0 : Fin 1) j))

/-- The grouping matrix's block is the grouping matrix: staged whole. -/
theorem blk4_arg (hO : Ok m) (c : Dev nD) (t : Fin (cfgM m hO).N) (i : Fin 1024) (j : Fin 128) :
    blk4 m hO c t (ix2 i j) = GroupMatrix.grp (F := Ideal) (ix2 i j) :=
  (blk4_apply m hO c t i j).trans (congrFun (V_v34 m c) (ix2 i j))

/-- THE BLOCK'S VALUE, for any block `O` that is the two payloads at the point's input blocks and a scratch whose row
    `r` is the bank's row task t·128 + r selects: at (r, b) it is the specification's output of that task on row b. -/
theorem block_value_of (hO : Ok m) (c : Dev nD) (hr : Cert.Spec.InRange (a5 m c)) (t : Fin (cfgM m hO).N)
    (O : Vec Ideal S128x256 .f32) (SCR : Vec Ideal S128x8x1024 .f32)
    (hblock : O = Gen.k0_pay1 (F := Ideal) (Gen.k0_pay2 (F := Ideal) SCR (blk0 m hO c t) (blk1 m hO c t)) (blk2 m hO c t) (blk3 m hO c t) (blk4 m hO c t))
    (hscr : ∀ (r : Fin 128) (o : Fin 8) (h : Fin 1024), SCR (ix3 r o h) = a1 m c (ix3 (Cert.Spec.row (a5 m c) (orow m hO t r)) o h))
    (r : Fin 128) (b : Fin 256) :
    O (ix2 r b) = Cert.Spec.out (a0 m c) (a1 m c) (a2 m c) (a3 m c) (a4 m c) (a5 m c) (orow m hO t r) b := by
  rw [hblock]
  exact BlockSpec.block_is_spec (a0 m c) (a1 m c) (a2 m c) (a3 m c) (a4 m c) (a5 m c) hr (row m hO t)
    SCR hscr (blk0 m hO c t) (blk0_arg m hO c t) (blk1 m hO c t) (blk1_arg m hO c t) (blk2 m hO c t) (blk2_arg m hO c t)
    (blk3 m hO c t) (blk3_arg m hO c t) (blk4 m hO c t) (blk4_arg m hO c t) r b

/-! ## The body's output block -/

/-- THE OUTPUT BLOCK after the body at point `t`, when it is the two payloads at the point's input blocks and a scratch
    whose row `r` is the bank's row task t·128 + r selects, is the specification's block. -/
theorem outs_value_of (c : Dev nD) (hr : Cert.Spec.InRange (a5 m c)) (t : Fin (cfgM m (ok m)).N)
    (SCR : Vec Ideal S128x8x1024 .f32)
    (hblock : outsAt m (ok m) (allWords m) c t = Gen.k0_pay1 (F := Ideal) (Gen.k0_pay2 (F := Ideal) SCR (blk0 m (ok m) c t) (blk1 m (ok m) c t)) (blk2 m (ok m) c t) (blk3 m (ok m) c t) (blk4 m (ok m) c t))
    (hscr : ∀ (r : Fin 128) (o : Fin 8) (h : Fin 1024), SCR (ix3 r o h) = a1 m c (ix3 (Cert.Spec.row (a5 m c) (orow m (ok m) t r)) o h))
    (r : Fin 128) (b : Fin 256) :
    outsAt m (ok m) (allWords m) c t (ix2 r b)
      = Cert.Spec.out (a0 m c) (a1 m c) (a2 m c) (a3 m c) (a4 m c) (a5 m c) (orow m (ok m) t r) b :=
  block_value_of m (ok m) c hr t (outsAt m (ok m) (allWords m) c t) SCR hblock hscr r b

end Cert.KernelIdeal.Hand

end
-- ==== Proof.KIdeal.Value.lean ====
/-
  What the kernel program computes: each output block is the specification's.

  At a grid point the run leaves ONE whole-block piece: the two layers applied to the scratch as loaded after the 128
  copies, the embedding block, and the group's three small table blocks. The scratch, read whole, is the closed form
  `filled`: its row r is what copy r delivered, and copy r delivered the row of the weight bank that word r of the
  group's table names. Inside the stated domain of the ids that word is the id of task t·128 + r itself (the host's
  clip does nothing), so row r is row Spec.row(ids[t·128 + r]) of W1 — which is what the block-level lemma asks.
-/
import proofs.«427848_j22419729285374_3_alg».proof.Proof.KIdeal.CopyTable
import proofs.«427848_j22419729285374_3_alg».proof.Proof.KIdeal.ValueGlue

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

section AnyF

variable {F : FTy → Type} [FloatOps F]

/-- The scratch as the body loads it after the copies: row r is what copy r delivered. -/
theorem loaded_apply (c : Dev nD) (i : grid0.Coords) (xt : Buf (Elt F) (tbM.view.loc (c : Thread nD τ)))
    (fh : Buf (Elt F) (hbM.view.loc (c : Thread nD τ))) (hw : Words c i xt) (r : Fin 128) (o : Fin 8) (h : Fin 1024) :
    bodyRun.sl.v2048 c i xt fh hw (ix3 r o h) = copies c i xt fh hw r (ix2 o h) := by
  have e := View.ld_unit_zero (S := S128x8x1024) (Val := Elt F) (e := .f32) (off := ![0, 0, 0])
    (by funext a; fin_cases a <;> rfl) inb_S128x8x1024_S128x8x1024_0_0_0 (filled c (copies c i xt fh hw))
  exact (congrFun e (ix3 r o h)).trans (filled_apply c _ r o h)

/-- What the run leaves in the output block: the two layers on the loaded scratch and the input blocks. -/
theorem outBlock_eq (c : Dev nD) (i : grid0.Coords)
    (a2 : Memref sig .tc .vmem S256x1024 .bf16) (ha2 : a2.IsWhole) (a4 : Memref sig .tc .vmem S1x1x1024 .f32) (ha4 : a4.IsWhole)
    (a5 : Memref sig .tc .vmem S1x1x1024 .f32) (ha5 : a5.IsWhole) (a6 : Memref sig .tc .vmem S1x1x128 .f32) (ha6 : a6.IsWhole)
    (a7 : Memref sig .tc .vmem S1024x128 .f32) (ha7 : a7.IsWhole) (a8 : Memref sig .tc .vmem S128x256 .f32) (ha8 : a8.IsWhole)
    (x0 : Vec F S256x1024 .bf16) (x1 : Vec F S1x1x1024 .f32) (x2 : Vec F S1x1x1024 .f32) (x3 : Vec F S1x1x128 .f32) (x4 : Vec F S1024x128 .f32)
    (xt : Buf (Elt F) (tbM.view.loc (c : Thread nD τ))) (fh : Buf (Elt F) (hbM.view.loc (c : Thread nD τ))) (hw : Words c i xt) :
    outBlock c i a2 ha2 a4 ha4 a5 ha5 a6 ha6 a7 ha7 a8 ha8 x0 x1 x2 x3 x4 xt fh hw
      = Gen.k0_pay1 (Gen.k0_pay2 (bodyRun.sl.v2048 c i xt fh hw) x0 x1) x2 x3 x4 := by
  unfold outBlock
  rw [View.read_writes_eq_canon _ _ _ (run_cover c i a2 ha2 a4 ha4 a5 ha5 a6 ha6 a7 ha7 a8 ha8 x0 x1 x2 x3 x4 xt fh hw)]
  unfold bodyRun
  dsimp only
  rw [View.canon_unit_zero (by funext a; fin_cases a <;> rfl)]
  unfold bodyRun.sl.r_128 bodyRun.sl.r_129
  simp only [View.readAt_eq_ld, ha2.read_unread, ha4.read_unread, ha5.read_unread, ha6.read_unread, ha7.read_unread,
    View.ld_unit_zero (S := S256x1024) (by funext a; fin_cases a <;> rfl : (![0, 0] : Fin S256x1024.rank → Nat) = fun _ => 0),
    View.ld_unit_zero (S := S1x1x1024) (by funext a; fin_cases a <;> rfl : (![0, 0, 0] : Fin S1x1x1024.rank → Nat) = fun _ => 0),
    View.ld_unit_zero (S := S1x1x128) (by funext a; fin_cases a <;> rfl : (![0, 0, 0] : Fin S1x1x128.rank → Nat) = fun _ => 0),
    View.ld_unit_zero (S := S1024x128) (by funext a; fin_cases a <;> rfl : (![0, 0] : Fin S1024x128.rank → Nat) = fun _ => 0)]

end AnyF

/-! ## At Ideal, inside the ids' stated domain -/

variable (m : (ℓ : Loc nD τ sig) → Buf (Elt Ideal) ℓ)

/-- The grid has one axis of 32 points: point t's coordinate is t. -/
theorem coord_val : ∀ t : Fin grid0.N, ((grid0.coords t) 0).val = t.val := by decide +kernel

/-- Each output block is the specification's block. -/
theorem outs_value (hr : Cert.Spec.InRange (m (((0 : Dev nD) : Thread nD τ).loc main_arg5))) (c : Dev nD)
    (t : Fin (cfgM m (ok m)).N) (r : Fin 128) (b : Fin 256) :
    outsAt m (ok m) (allWords m) c t (ix2 r b)
      = Cert.Spec.out (a0 m c) (a1 m c) (a2 m c) (a3 m c) (a4 m c) (a5 m c) (orow m (ok m) t r) b := by
  obtain rfl : c = 0 := Subsingleton.elim _ _
  refine outs_value_of m 0 hr t (bodyRun.sl.v2048 0 (grid0.coords t) (tbl m 0) (V m 0 main_arg1) (allWords m 0 t)) ?_ (fun r o h => ?_) r b
  · unfold outsAt
    exact outBlock_eq 0 (grid0.coords t) _ _ _ _ _ _ _ _ _ _ _ _ _ _ _ _ _ _ _ _
  · refine (loaded_apply 0 (grid0.coords t) (tbl m 0) (V m 0 main_arg1) (allWords m 0 t) r o h).trans ?_
    obtain ⟨h1, h2, e⟩ := copies_apply 0 (grid0.coords t) (tbl m 0) (V m 0 main_arg1) (allWords m 0 t) r o h
    refine e.trans ?_
    have hk : (⟨((grid0.coords t) 0).val * 128 + r.val, h1⟩ : Fin 4096) = orow m (ok m) t r :=
      Fin.ext (by show ((grid0.coords t) 0).val * 128 + r.val = t.val * 128 + r.val; rw [coord_val t])
    have hn : ((tbl m 0 : IVec S4096 32) (ix1 ⟨((grid0.coords t) 0).val * 128 + r.val, h1⟩)).toNat
        = (Cert.Spec.row (a5 m 0) (orow m (ok m) t r)).val := by
      rw [hk, table_word m 0 hr, row_of_word m 0 hr]
    have hV : (V m 0 main_arg1 : FVec Ideal S10000x8x1024 .f32) = a1 m 0 := V_arg1 m 0
    exact (congrFun hV _).trans (congrArg (fun n : Fin 10000 => a1 m 0 (ix3 n o h)) (Fin.ext hn))

end Cert.KernelIdeal.Hand

end
-- ==== Proof.Algebraic.lean ====
/-
  The algebraic conjunct of the claim: at the ideal instance, from memories that agree on the six arguments, the kernel
  program and the reference program both run to the end, leave their arguments as launched, and end with the same flat
  result.

  The common result is the specification's `result` of the kernel's arguments: entry k · 256 + b is the two-layer head
  of task k applied to embedding row b. The precondition gives the stated domain 0 ≤ task_ids[k] < 10000. On the
  kernel's side the frame run leaves in every unscoped buffer that is no staged array what the one later host line
  leaves there: in the flat result the reshape of the call's result array, which is the specification's result once
  every grid point's output block holds the heads' outputs of its 128 tasks; in each argument its launch contents.
  On the reference's side the run ends at the composed term of its operations, which inside the stated domain is the
  specification's result of the reference's arguments; those equal the kernel's by hypothesis.
-/
import proofs.«427848_j22419729285374_3_alg».proof.Defs
import proofs.«427848_j22419729285374_3_alg».proof.Proof.Gen.KernelIdeal
import proofs.«427848_j22419729285374_3_alg».proof.Proof.Gen.ReferenceIdeal
import proofs.«427848_j22419729285374_3_alg».proof.Proof.Gen.ReferenceIdeal.Run
import proofs.«427848_j22419729285374_3_alg».proof.Proof.Gen.ReferenceIdeal.Read
import proofs.«427848_j22419729285374_3_alg».proof.Proof.Gen.Pre_finite_inputs
import proofs.«427848_j22419729285374_3_alg».proof.Proof.Spec
import proofs.«427848_j22419729285374_3_alg».proof.Proof.PreRange
import proofs.«427848_j22419729285374_3_alg».proof.Proof.RefSpec
import proofs.«427848_j22419729285374_3_alg».proof.Proof.KIdeal.Cert
import proofs.«427848_j22419729285374_3_alg».proof.Proof.KIdeal.Frame
import proofs.«427848_j22419729285374_3_alg».proof.Proof.KIdeal.Final
import proofs.«427848_j22419729285374_3_alg».proof.Proof.KIdeal.Value

set_option maxRecDepth 16384

noncomputable section

namespace Cert.Proof.Alg

open Idealize.ShloMosaic Idealize.ShloMosaic.TcCoe Idealize.SL.Sem

/-! ## The stated domain, from the precondition -/

/-- Under the kernel program's precondition every task id of every device's argument is a row number of the bank. -/
theorem inRange_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.Spec.InRange (m ((c.tc : Thread Cert.KernelIdeal.nD Cert.KernelIdeal.τ).loc Cert.KernelIdeal.main_arg5)) :=
  Cert.PreRange.inRange_of_pre _ _ _ _ _ _ (hpre c)

/-! ## The kernel program's run -/

section Kernel

open Cert.KernelIdeal Cert.KernelIdeal.Gen Cert.KernelIdeal.Hand

/-- Inside the stated domain the kernel program runs to the end with the specification's result in its flat result
    buffer and every argument as launched. -/
theorem kernel_run (m : (ℓ : Loc nD τ sig) → Buf (Elt Ideal) ℓ) (ρ : Dev nD → PrngReg)
    (hr : Cert.Spec.InRange (m (((0 : Dev nD).tc : Thread nD τ).loc main_arg5))) :
    θ_run (defs (F := Ideal)) (onTc (τ := τ) (main (F := Ideal))) ⟨m, fun _ => 0, ρ⟩ (fun r => ∀ c : Dev nD,
      r.2.mem ((c.tc : Thread nD τ).loc main_v36)
        = Cert.Spec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v36 (by decide : main_v36 ∈ Pipeline.restRefs sig spec0)).trans
        (final_of m (ok m) (allWords m) c fun t r b => outs_value m hr c t r b),
     (((h c).2 main_arg0 (by decide : main_arg0 ∈ Pipeline.restRefs sig spec0)).trans
        (tail_other m (ok m) (allWords m) c main_arg0 (fun w => by fin_cases w <;> decide) (StableHlo.devRef_ne_of_ne (by decide)))).trans (V_arg0 m c),
     (((h c).2 main_arg1 (by decide : main_arg1 ∈ Pipeline.restRefs sig spec0)).trans
        (tail_other m (ok m) (allWords m) c main_arg1 (fun w => by fin_cases w <;> decide) (StableHlo.devRef_ne_of_ne (by decide)))).trans (V_arg1 m c),
     (((h c).2 main_arg2 (by decide : main_arg2 ∈ Pipeline.restRefs sig spec0)).trans
        (tail_other m (ok m) (allWords m) c main_arg2 (fun w => by fin_cases w <;> decide) (StableHlo.devRef_ne_of_ne (by decide)))).trans (V_arg2 m c),
     (((h c).2 main_arg3 (by decide : main_arg3 ∈ Pipeline.restRefs sig spec0)).trans
        (tail_other m (ok m) (allWords m) c main_arg3 (fun w => by fin_cases w <;> decide) (StableHlo.devRef_ne_of_ne (by decide)))).trans (V_arg3 m c),
     (((h c).2 main_arg4 (by decide : main_arg4 ∈ Pipeline.restRefs sig spec0)).trans
        (tail_other m (ok m) (allWords m) c main_arg4 (fun w => by fin_cases w <;> decide) (StableHlo.devRef_ne_of_ne (by decide)))).trans (V_arg4 m c),
     (((h c).2 main_arg5 (by decide : main_arg5 ∈ Pipeline.restRefs sig spec0)).trans
        (tail_other m (ok m) (allWords m) c main_arg5 (fun w => by fin_cases w <;> decide) (StableHlo.devRef_ne_of_ne (by decide)))).trans (V_arg5 m c)⟩)
    (run_main m ρ (ok m) (allWords m))

end Kernel

/-! ## The two runs together -/

/-- THE ALGEBRAIC CONJUNCT: both programs end at the specification's result of the kernel's arguments. -/
theorem algebraic : Cert.algebraic_KernelIdeal_ReferenceIdeal := by
  intro m ρ m' ρ' hpre hagree
  have hr := inRange_of_pre m hpre
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    kernel_run m ρ (hr 0), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v39_eq _ _ _ _ _ _).trans (Cert.ReferenceIdeal.RefSpec.ref_eq_spec _ _ _ _ _ _ (hr c))

end Cert.Proof.Alg

end
-- ==== Proof.lean ====
/- The claim of this certificate, assembled: the two kernel programs and the reference program run to the end with their
   arguments unchanged, and at the ideal instance the kernel program and the reference program end with one result. -/
import proofs.«427848_j22419729285374_3_alg».proof.Defs
import proofs.«427848_j22419729285374_3_alg».proof.Proof.Gen.Kernel
import proofs.«427848_j22419729285374_3_alg».proof.Proof.Gen.Kernel.Skeleton
import proofs.«427848_j22419729285374_3_alg».proof.Proof.Gen.Kernel.Launch
import proofs.«427848_j22419729285374_3_alg».proof.Proof.Gen.Kernel.Flash
import proofs.«427848_j22419729285374_3_alg».proof.Proof.Gen.KernelIdeal
import proofs.«427848_j22419729285374_3_alg».proof.Proof.Gen.KernelIdeal.Skeleton
import proofs.«427848_j22419729285374_3_alg».proof.Proof.Gen.KernelIdeal.Launch
import proofs.«427848_j22419729285374_3_alg».proof.Proof.Gen.KernelIdeal.Flash
import proofs.«427848_j22419729285374_3_alg».proof.Proof.Gen.ReferenceIdeal
import proofs.«427848_j22419729285374_3_alg».proof.Proof.Gen.ReferenceIdeal.Run
import proofs.«427848_j22419729285374_3_alg».proof.Proof.Gen.ReferenceIdeal.Read
import proofs.«427848_j22419729285374_3_alg».proof.Proof.Gen.Pre_finite_inputs
import proofs.«427848_j22419729285374_3_alg».proof.Proof.KBits.Frame
import proofs.«427848_j22419729285374_3_alg».proof.Proof.KIdeal.Frame
import proofs.«427848_j22419729285374_3_alg».proof.Proof.Algebraic
import Idealize.ShloMosaic.Adequacy
import Idealize.ShloMosaic.Init

noncomputable section

namespace Cert.Proof

open Idealize.ShloMosaic Idealize.SL.Sem

/-- Every conjunct of the claim, under the witnesses of the programs' stated side conditions: the three
    frames (the reference's read off its run), the empty ledger of the idealization, and the algebraic conjunct. -/
theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame_all (F := Bits) m ρ,
    fun m ρ _ => Cert.KernelIdeal.Hand.frame_all (F := Ideal) m ρ,
    fun m ρ _ => (θ_run Cert.ReferenceIdeal.defs _ _).mono (fun _ h c => (h c).2) (Cert.ReferenceIdeal.Value.run (F := Ideal) m ρ),
    trivial,
    Cert.Proof.Alg.algebraic⟩

end Cert.Proof

end
